-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Pre_finite_inputs_ReferenceIdeal.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Kernel.lean ====
abbrev S16384x1024 : Shape := ⟨2, ![16384, 1024]⟩
abbrev S32768x1024 : Shape := ⟨2, ![32768, 1024]⟩
abbrev S2x512x1024 : Shape := ⟨3, ![2, 512, 1024]⟩
abbrev S2 : Shape := ⟨1, ![2]⟩
abbrev S_ : Shape := ⟨0, ![]⟩
abbrev S16 : Shape := ⟨1, ![16]⟩
abbrev S1 : Shape := ⟨1, ![1]⟩
abbrev S1x512x1024 : Shape := ⟨3, ![1, 512, 1024]⟩
abbrev S512x1024 : Shape := ⟨2, ![512, 1024]⟩

abbrev nBuf : Space → Nat
  | .hbm => 2
  | .vmem => 2
  | .smem => 0
  | _ => 0

abbrev bufTy : (tb : Table) → Fin (tcTables nBuf tb) → BufTy
  | .hbm, ⟨0, _⟩ => ⟨S16384x1024, .f32⟩
  | .hbm, ⟨1, _⟩ => ⟨S32768x1024, .bf16⟩
  | .local _ .vmem, ⟨0, _⟩ => ⟨S16384x1024, .bf16⟩
  | .local _ .vmem, ⟨1, _⟩ => ⟨S2x512x1024, .f32⟩
  | _, _ => ⟨S16384x1024, .f32⟩

abbrev bufScoped : (cs : CoreSpace) → Fin (nBuf (.core cs)) → Bool
  | .vmem, ⟨0, _⟩ => true
  | .vmem, ⟨1, _⟩ => true
  | _, _ => false

abbrev semScoped : Fin 2 → Bool
  | ⟨0, _⟩ => false
  | ⟨1, _⟩ => true
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 2 67 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) (c0_i32_14 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v17 : BitVec 32 := Scalar.muli v2 c8192_i32
  let v20 : BitVec 32 := Scalar.addi v17 c0_i32_14
  let c0_i32_19 : BitVec 32 := 0#32
  ![v20.toNat, 0]
def k0_off2 (d0 : Dev nD) (c0_i32_32 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v17 : BitVec 32 := Scalar.muli v2 c8192_i32
  let v40 : BitVec 32 := Scalar.addi v17 c0_i32_32
  let v41 : Index := Scalar.indexCast v40
  let c0_33 : Index := 0#32
  ![v41.toNat, 0]
def k0_off3 (d0 : Dev nD) (c0_i32_35 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32 : BitVec 32 := 16384#32
  let v46 : BitVec 32 := Scalar.muli v5 c16384_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v17 : BitVec 32 := Scalar.muli v2 c8192_i32
  let v47 : BitVec 32 := Scalar.addi v46 v17
  let v48 : BitVec 32 := Scalar.addi v47 c0_i32_35
  let c0_i32_41 : BitVec 32 := 0#32
  ![v48.toNat, 0]
def k0_dev3 (d0 : Dev nD) : Nat :=
  let c0_i32_39 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_38 : BitVec 32 := 2#32
  let v49 : BitVec 32 := Scalar.muli v2 c2_i32_38
  let v50 : BitVec 32 := Scalar.addi c0_i32_39 v49
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_40 : BitVec 32 := 1#32
  let v51 : BitVec 32 := Scalar.muli v6 c1_i32_40
  let v52 : BitVec 32 := Scalar.addi v50 v51
  v52.toNat
def k0_dev4 (d0 : Dev nD) : Nat :=
  let c0_i32_63 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_62 : BitVec 32 := 2#32
  let v82 : BitVec 32 := Scalar.muli v2 c2_i32_62
  let v83 : BitVec 32 := Scalar.addi c0_i32_63 v82
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_64 : BitVec 32 := 1#32
  let v84 : BitVec 32 := Scalar.muli v6 c1_i32_64
  let v85 : BitVec 32 := Scalar.addi v83 v84
  v85.toNat
def k0_dev5 (d0 : Dev nD) : Nat :=
  let c0_i32_88 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_87 : BitVec 32 := 2#32
  let v115 : BitVec 32 := Scalar.muli v2 c2_i32_87
  let v116 : BitVec 32 := Scalar.addi c0_i32_88 v115
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_89 : BitVec 32 := 1#32
  let v117 : BitVec 32 := Scalar.muli v6 c1_i32_89
  let v118 : BitVec 32 := Scalar.addi v116 v117
  v118.toNat
def k0_dev6 (d0 : Dev nD) : Nat :=
  let c0_i32_112 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_111 : BitVec 32 := 2#32
  let v148 : BitVec 32 := Scalar.muli v2 c2_i32_111
  let v149 : BitVec 32 := Scalar.addi c0_i32_112 v148
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_113 : BitVec 32 := 1#32
  let v150 : BitVec 32 := Scalar.muli v6 c1_i32_113
  let v151 : BitVec 32 := Scalar.addi v149 v150
  v151.toNat
def k0_dev7 (d0 : Dev nD) : Nat :=
  let c0_i32_136 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_135 : BitVec 32 := 2#32
  let v181 : BitVec 32 := Scalar.muli v2 c2_i32_135
  let v182 : BitVec 32 := Scalar.addi c0_i32_136 v181
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_137 : BitVec 32 := 1#32
  let v183 : BitVec 32 := Scalar.muli v6 c1_i32_137
  let v184 : BitVec 32 := Scalar.addi v182 v183
  v184.toNat
def k0_dev8 (d0 : Dev nD) : Nat :=
  let c0_i32_160 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_159 : BitVec 32 := 2#32
  let v214 : BitVec 32 := Scalar.muli v2 c2_i32_159
  let v215 : BitVec 32 := Scalar.addi c0_i32_160 v214
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_161 : BitVec 32 := 1#32
  let v216 : BitVec 32 := Scalar.muli v6 c1_i32_161
  let v217 : BitVec 32 := Scalar.addi v215 v216
  v217.toNat
def k0_dev9 (d0 : Dev nD) : Nat :=
  let c0_i32_184 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_183 : BitVec 32 := 2#32
  let v247 : BitVec 32 := Scalar.muli v2 c2_i32_183
  let v248 : BitVec 32 := Scalar.addi c0_i32_184 v247
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_185 : BitVec 32 := 1#32
  let v249 : BitVec 32 := Scalar.muli v6 c1_i32_185
  let v250 : BitVec 32 := Scalar.addi v248 v249
  v250.toNat
def k0_dev10 (d0 : Dev nD) : Nat :=
  let c0_i32_208 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_207 : BitVec 32 := 2#32
  let v280 : BitVec 32 := Scalar.muli v2 c2_i32_207
  let v281 : BitVec 32 := Scalar.addi c0_i32_208 v280
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_209 : BitVec 32 := 1#32
  let v282 : BitVec 32 := Scalar.muli v6 c1_i32_209
  let v283 : BitVec 32 := Scalar.addi v281 v282
  v283.toNat
def k0_dev11 (d0 : Dev nD) : Nat :=
  let c0_i32_232 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_231 : BitVec 32 := 2#32
  let v313 : BitVec 32 := Scalar.muli v2 c2_i32_231
  let v314 : BitVec 32 := Scalar.addi c0_i32_232 v313
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_233 : BitVec 32 := 1#32
  let v315 : BitVec 32 := Scalar.muli v6 c1_i32_233
  let v316 : BitVec 32 := Scalar.addi v314 v315
  v316.toNat
def k0_dev12 (d0 : Dev nD) : Nat :=
  let c0_i32_256 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_255 : BitVec 32 := 2#32
  let v346 : BitVec 32 := Scalar.muli v2 c2_i32_255
  let v347 : BitVec 32 := Scalar.addi c0_i32_256 v346
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_257 : BitVec 32 := 1#32
  let v348 : BitVec 32 := Scalar.muli v6 c1_i32_257
  let v349 : BitVec 32 := Scalar.addi v347 v348
  v349.toNat
def k0_dev13 (d0 : Dev nD) : Nat :=
  let c0_i32_280 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_279 : BitVec 32 := 2#32
  let v379 : BitVec 32 := Scalar.muli v2 c2_i32_279
  let v380 : BitVec 32 := Scalar.addi c0_i32_280 v379
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_281 : BitVec 32 := 1#32
  let v381 : BitVec 32 := Scalar.muli v6 c1_i32_281
  let v382 : BitVec 32 := Scalar.addi v380 v381
  v382.toNat
def k0_dev14 (d0 : Dev nD) : Nat :=
  let c0_i32_304 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_303 : BitVec 32 := 2#32
  let v412 : BitVec 32 := Scalar.muli v2 c2_i32_303
  let v413 : BitVec 32 := Scalar.addi c0_i32_304 v412
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_305 : BitVec 32 := 1#32
  let v414 : BitVec 32 := Scalar.muli v6 c1_i32_305
  let v415 : BitVec 32 := Scalar.addi v413 v414
  v415.toNat
def k0_dev15 (d0 : Dev nD) : Nat :=
  let c0_i32_328 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_327 : BitVec 32 := 2#32
  let v445 : BitVec 32 := Scalar.muli v2 c2_i32_327
  let v446 : BitVec 32 := Scalar.addi c0_i32_328 v445
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_329 : BitVec 32 := 1#32
  let v447 : BitVec 32 := Scalar.muli v6 c1_i32_329
  let v448 : BitVec 32 := Scalar.addi v446 v447
  v448.toNat
def k0_dev16 (d0 : Dev nD) : Nat :=
  let c0_i32_352 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_351 : BitVec 32 := 2#32
  let v478 : BitVec 32 := Scalar.muli v2 c2_i32_351
  let v479 : BitVec 32 := Scalar.addi c0_i32_352 v478
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_353 : BitVec 32 := 1#32
  let v480 : BitVec 32 := Scalar.muli v6 c1_i32_353
  let v481 : BitVec 32 := Scalar.addi v479 v480
  v481.toNat
def k0_dev17 (d0 : Dev nD) : Nat :=
  let c0_i32_376 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_375 : BitVec 32 := 2#32
  let v511 : BitVec 32 := Scalar.muli v2 c2_i32_375
  let v512 : BitVec 32 := Scalar.addi c0_i32_376 v511
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_377 : BitVec 32 := 1#32
  let v513 : BitVec 32 := Scalar.muli v6 c1_i32_377
  let v514 : BitVec 32 := Scalar.addi v512 v513
  v514.toNat
def k0_off4 (d0 : Dev nD) (c0_i32_380 : BitVec 32) : Fin 2 → Nat :=
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v18 : BitVec 32 := Scalar.subi c1_i32_12 v2
  let c8192_i32_13 : BitVec 32 := 8192#32
  let v19 : BitVec 32 := Scalar.muli v18 c8192_i32_13
  let v521 : BitVec 32 := Scalar.addi v19 c0_i32_380
  let c0_i32_385 : BitVec 32 := 0#32
  ![v521.toNat, 0]
def k0_dev18 (d0 : Dev nD) : Nat :=
  let c0_i32_401 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_400 : BitVec 32 := 2#32
  let v544 : BitVec 32 := Scalar.muli v2 c2_i32_400
  let v545 : BitVec 32 := Scalar.addi c0_i32_401 v544
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_402 : BitVec 32 := 1#32
  let v546 : BitVec 32 := Scalar.muli v6 c1_i32_402
  let v547 : BitVec 32 := Scalar.addi v545 v546
  v547.toNat
def k0_off5 (d0 : Dev nD) (c0_i32_414 : BitVec 32) : Fin 2 → Nat :=
  let c1_i32_412 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v562 : BitVec 32 := Scalar.subi c1_i32_412 v5
  let c16384_i32_413 : BitVec 32 := 16384#32
  let v563 : BitVec 32 := Scalar.muli v562 c16384_i32_413
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v17 : BitVec 32 := Scalar.muli v2 c8192_i32
  let v564 : BitVec 32 := Scalar.addi v563 v17
  let v565 : BitVec 32 := Scalar.addi v564 c0_i32_414
  let c0_i32_420 : BitVec 32 := 0#32
  ![v565.toNat, 0]
def k0_dev19 (d0 : Dev nD) : Nat :=
  let c0_i32_418 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_417 : BitVec 32 := 2#32
  let v566 : BitVec 32 := Scalar.muli v7 c2_i32_417
  let v567 : BitVec 32 := Scalar.addi c0_i32_418 v566
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_419 : BitVec 32 := 1#32
  let v568 : BitVec 32 := Scalar.muli v5 c1_i32_419
  let v569 : BitVec 32 := Scalar.addi v567 v568
  v569.toNat
def k0_off6 (d0 : Dev nD) (c0_i32_436 : BitVec 32) : Fin 2 → Nat :=
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v18 : BitVec 32 := Scalar.subi c1_i32_12 v2
  let c8192_i32_13 : BitVec 32 := 8192#32
  let v19 : BitVec 32 := Scalar.muli v18 c8192_i32_13
  let v590 : BitVec 32 := Scalar.addi v19 c0_i32_436
  let v591 : Index := Scalar.indexCast v590
  let c0_437 : Index := 0#32
  ![v591.toNat, 0]
def k0_dev20 (d0 : Dev nD) : Nat :=
  let c0_i32_451 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_450 : BitVec 32 := 2#32
  let v607 : BitVec 32 := Scalar.muli v7 c2_i32_450
  let v608 : BitVec 32 := Scalar.addi c0_i32_451 v607
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_452 : BitVec 32 := 1#32
  let v609 : BitVec 32 := Scalar.muli v5 c1_i32_452
  let v610 : BitVec 32 := Scalar.addi v608 v609
  v610.toNat
def k0_dev21 (d0 : Dev nD) : Nat :=
  let c0_i32_484 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_483 : BitVec 32 := 2#32
  let v648 : BitVec 32 := Scalar.muli v7 c2_i32_483
  let v649 : BitVec 32 := Scalar.addi c0_i32_484 v648
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_485 : BitVec 32 := 1#32
  let v650 : BitVec 32 := Scalar.muli v5 c1_i32_485
  let v651 : BitVec 32 := Scalar.addi v649 v650
  v651.toNat
def k0_dev22 (d0 : Dev nD) : Nat :=
  let c0_i32_517 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_516 : BitVec 32 := 2#32
  let v689 : BitVec 32 := Scalar.muli v7 c2_i32_516
  let v690 : BitVec 32 := Scalar.addi c0_i32_517 v689
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_518 : BitVec 32 := 1#32
  let v691 : BitVec 32 := Scalar.muli v5 c1_i32_518
  let v692 : BitVec 32 := Scalar.addi v690 v691
  v692.toNat
def k0_dev23 (d0 : Dev nD) : Nat :=
  let c0_i32_550 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_549 : BitVec 32 := 2#32
  let v730 : BitVec 32 := Scalar.muli v7 c2_i32_549
  let v731 : BitVec 32 := Scalar.addi c0_i32_550 v730
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_551 : BitVec 32 := 1#32
  let v732 : BitVec 32 := Scalar.muli v5 c1_i32_551
  let v733 : BitVec 32 := Scalar.addi v731 v732
  v733.toNat
def k0_dev24 (d0 : Dev nD) : Nat :=
  let c0_i32_583 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_582 : BitVec 32 := 2#32
  let v771 : BitVec 32 := Scalar.muli v7 c2_i32_582
  let v772 : BitVec 32 := Scalar.addi c0_i32_583 v771
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_584 : BitVec 32 := 1#32
  let v773 : BitVec 32 := Scalar.muli v5 c1_i32_584
  let v774 : BitVec 32 := Scalar.addi v772 v773
  v774.toNat
def k0_dev25 (d0 : Dev nD) : Nat :=
  let c0_i32_616 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_615 : BitVec 32 := 2#32
  let v812 : BitVec 32 := Scalar.muli v7 c2_i32_615
  let v813 : BitVec 32 := Scalar.addi c0_i32_616 v812
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_617 : BitVec 32 := 1#32
  let v814 : BitVec 32 := Scalar.muli v5 c1_i32_617
  let v815 : BitVec 32 := Scalar.addi v813 v814
  v815.toNat
def k0_dev26 (d0 : Dev nD) : Nat :=
  let c0_i32_649 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_648 : BitVec 32 := 2#32
  let v853 : BitVec 32 := Scalar.muli v7 c2_i32_648
  let v854 : BitVec 32 := Scalar.addi c0_i32_649 v853
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_650 : BitVec 32 := 1#32
  let v855 : BitVec 32 := Scalar.muli v5 c1_i32_650
  let v856 : BitVec 32 := Scalar.addi v854 v855
  v856.toNat
def k0_dev27 (d0 : Dev nD) : Nat :=
  let c0_i32_682 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_681 : BitVec 32 := 2#32
  let v894 : BitVec 32 := Scalar.muli v7 c2_i32_681
  let v895 : BitVec 32 := Scalar.addi c0_i32_682 v894
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_683 : BitVec 32 := 1#32
  let v896 : BitVec 32 := Scalar.muli v5 c1_i32_683
  let v897 : BitVec 32 := Scalar.addi v895 v896
  v897.toNat
def k0_dev28 (d0 : Dev nD) : Nat :=
  let c0_i32_715 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_714 : BitVec 32 := 2#32
  let v935 : BitVec 32 := Scalar.muli v7 c2_i32_714
  let v936 : BitVec 32 := Scalar.addi c0_i32_715 v935
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_716 : BitVec 32 := 1#32
  let v937 : BitVec 32 := Scalar.muli v5 c1_i32_716
  let v938 : BitVec 32 := Scalar.addi v936 v937
  v938.toNat
def k0_dev29 (d0 : Dev nD) : Nat :=
  let c0_i32_748 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_747 : BitVec 32 := 2#32
  let v976 : BitVec 32 := Scalar.muli v7 c2_i32_747
  let v977 : BitVec 32 := Scalar.addi c0_i32_748 v976
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_749 : BitVec 32 := 1#32
  let v978 : BitVec 32 := Scalar.muli v5 c1_i32_749
  let v979 : BitVec 32 := Scalar.addi v977 v978
  v979.toNat
def k0_dev30 (d0 : Dev nD) : Nat :=
  let c0_i32_781 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_780 : BitVec 32 := 2#32
  let v1017 : BitVec 32 := Scalar.muli v7 c2_i32_780
  let v1018 : BitVec 32 := Scalar.addi c0_i32_781 v1017
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_782 : BitVec 32 := 1#32
  let v1019 : BitVec 32 := Scalar.muli v5 c1_i32_782
  let v1020 : BitVec 32 := Scalar.addi v1018 v1019
  v1020.toNat
def k0_dev31 (d0 : Dev nD) : Nat :=
  let c0_i32_814 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_813 : BitVec 32 := 2#32
  let v1058 : BitVec 32 := Scalar.muli v7 c2_i32_813
  let v1059 : BitVec 32 := Scalar.addi c0_i32_814 v1058
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_815 : BitVec 32 := 1#32
  let v1060 : BitVec 32 := Scalar.muli v5 c1_i32_815
  let v1061 : BitVec 32 := Scalar.addi v1059 v1060
  v1061.toNat
def k0_dev32 (d0 : Dev nD) : Nat :=
  let c0_i32_847 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_846 : BitVec 32 := 2#32
  let v1099 : BitVec 32 := Scalar.muli v7 c2_i32_846
  let v1100 : BitVec 32 := Scalar.addi c0_i32_847 v1099
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_848 : BitVec 32 := 1#32
  let v1101 : BitVec 32 := Scalar.muli v5 c1_i32_848
  let v1102 : BitVec 32 := Scalar.addi v1100 v1101
  v1102.toNat
def k0_dev33 (d0 : Dev nD) : Nat :=
  let c0_i32_880 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_879 : BitVec 32 := 2#32
  let v1140 : BitVec 32 := Scalar.muli v7 c2_i32_879
  let v1141 : BitVec 32 := Scalar.addi c0_i32_880 v1140
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_881 : BitVec 32 := 1#32
  let v1142 : BitVec 32 := Scalar.muli v5 c1_i32_881
  let v1143 : BitVec 32 := Scalar.addi v1141 v1142
  v1143.toNat
def k0_dev34 (d0 : Dev nD) : Nat :=
  let c0_i32_913 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_912 : BitVec 32 := 2#32
  let v1181 : BitVec 32 := Scalar.muli v7 c2_i32_912
  let v1182 : BitVec 32 := Scalar.addi c0_i32_913 v1181
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_914 : BitVec 32 := 1#32
  let v1183 : BitVec 32 := Scalar.muli v5 c1_i32_914
  let v1184 : BitVec 32 := Scalar.addi v1182 v1183
  v1184.toNat
def k0_off7 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32_927 : BitVec 32 := 16384#32
  let v1204 : BitVec 32 := Scalar.muli v5 c16384_i32_927
  let c0_i32_928 : BitVec 32 := 0#32
  ![v1204.toNat, 0]
def k0_dev35 (d0 : Dev nD) : Nat :=
  let c0_i32_1204_r0 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1203_r0 : BitVec 32 := 2#32
  let v1464_r0 : BitVec 32 := Scalar.muli v2 c2_i32_1203_r0
  let v1465_r0 : BitVec 32 := Scalar.addi c0_i32_1204_r0 v1464_r0
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1205_r0 : BitVec 32 := 1#32
  let v1466_r0 : BitVec 32 := Scalar.muli v6 c1_i32_1205_r0
  let v1467_r0 : BitVec 32 := Scalar.addi v1465_r0 v1466_r0
  v1467_r0.toNat
def k0_dev36 (d0 : Dev nD) : Nat :=
  let c0_i32_1208_r0 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1207_r0 : BitVec 32 := 2#32
  let v1468_r0 : BitVec 32 := Scalar.muli v7 c2_i32_1207_r0
  let v1469_r0 : BitVec 32 := Scalar.addi c0_i32_1208_r0 v1468_r0
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1209_r0 : BitVec 32 := 1#32
  let v1470_r0 : BitVec 32 := Scalar.muli v5 c1_i32_1209_r0
  let v1471_r0 : BitVec 32 := Scalar.addi v1469_r0 v1470_r0
  v1471_r0.toNat

class Facts₀ : Prop where
  hamt_1 : (1#32 : BitVec 32).msb = false
  hamt_2 : (2#32 : BitVec 32).msb = false
  inb_S2_S1_0 : ∀ a, (![0] : Fin 1 → Nat) a + S1.size a ≤ S2.size a
  squeezes_S1_S_ : S1.Squeezes S_
  inb_S2x512x1024_S1x512x1024_0_0_0 : ∀ a, (![0, 0, 0] : Fin 3 → Nat) a + S1x512x1024.size a ≤ S2x512x1024.size a
  squeezes_S1x512x1024_S512x1024 : S1x512x1024.Squeezes S512x1024
  inb_S2_S1_1 : ∀ a, (![1] : Fin 1 → Nat) a + S1.size a ≤ S2.size a
  inb_S2x512x1024_S1x512x1024_1_0_0 : ∀ a, (![1, 0, 0] : Fin 3 → Nat) a + S1x512x1024.size a ≤ S2x512x1024.size a
  h_S1x512x1024 : 0 < S1x512x1024.numel
  shapeCasts_S1x512x1024_S512x1024 : S1x512x1024.ShapeCasts S512x1024
  bitsLt_bf16_f32 : FTy.bits .bf16 < FTy.bits .f32
  h_S512x1024 : 0 < S512x1024.numel
  shapeCasts_S512x1024_S512x1024 : S512x1024.ShapeCasts S512x1024
  inb_S16_S1_0 : ∀ a, (![0] : Fin 1 → Nat) a + S1.size a ≤ S16.size a
  inb_S16_S1_1 : ∀ a, (![1] : Fin 1 → Nat) a + S1.size a ≤ S16.size a
  inb_S16_S1_2 : ∀ a, (![2] : Fin 1 → Nat) a + S1.size a ≤ S16.size a
  inb_S16_S1_3 : ∀ a, (![3] : Fin 1 → Nat) a + S1.size a ≤ S16.size a
  inb_S16_S1_4 : ∀ a, (![4] : Fin 1 → Nat) a + S1.size a ≤ S16.size a
  inb_S16_S1_5 : ∀ a, (![5] : Fin 1 → Nat) a + S1.size a ≤ S16.size a
  inb_S16_S1_6 : ∀ a, (![6] : Fin 1 → Nat) a + S1.size a ≤ S16.size a
  inb_S16_S1_7 : ∀ a, (![7] : Fin 1 → Nat) a + S1.size a ≤ S16.size a
  inb_S16_S1_8 : ∀ a, (![8] : Fin 1 → Nat) a + S1.size a ≤ S16.size a
  inb_S16_S1_9 : ∀ a, (![9] : Fin 1 → Nat) a + S1.size a ≤ S16.size a
  inb_S16_S1_10 : ∀ a, (![10] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_13 : ∀ a, (![13] : Fin 1 → Nat) a + S1.size a ≤ S16.size a
  inb_S16_S1_14 : ∀ a, (![14] : Fin 1 → Nat) a + S1.size a ≤ S16.size a
  inb_S16_S1_15 : ∀ a, (![15] : Fin 1 → Nat) a + S1.size a ≤ S16.size a
  hcc0_scoped0 : 1 + S_.numel ≤ 2
  hcc0_scratch2 : 0 + S2.numel ≤ 67
  hcc0_scratch3 : 2 + S_.numel ≤ 67
  hcc0_scratch4 : 3 + S16.numel ≤ 67
  hcc0_scratch5 : 19 + S16.numel ≤ 67
  hcc0_scratch6 : 35 + S16.numel ≤ 67
  hcc0_scratch7 : 51 + S16.numel ≤ 67
  k0_dev1_lt : ∀ d0 : Dev nD, (k0_dev1 d0) < nD
  k0_dev2_lt : ∀ d0 : Dev nD, (k0_dev2 d0) < nD
  k0_off1_inb : ∀ d0 : Dev nD, ∀ (r : Fin 16), ∀ a, (k0_off1 d0 (BitVec.ofNat 32 (512 * r.val))) a + S512x1024.size a ≤ S16384x1024.size a
  k0_off2_inb : ∀ d0 : Dev nD, ∀ (r : Fin 16), ∀ a, (k0_off2 d0 (BitVec.ofNat 32 (512 * r.val))) a + S512x1024.size a ≤ S16384x1024.size a
  k0_off2_packedbf16 : ∀ d0 : Dev nD, ∀ (r : Fin 16), (Rect.unit (s := S16384x1024) (k0_off2 d0 (BitVec.ofNat 32 (512 * r.val))) S512x1024.size (k0_off2_inb d0 r)).PackedRows (EltTy.packing .bf16)
  k0_off3_inb : ∀ d0 : Dev nD, ∀ (r : Fin 16), ∀ a, (k0_off3 d0 (BitVec.ofNat 32 (512 * r.val))) a + S512x1024.size a ≤ S32768x1024.size a
  k0_off1_wordsbf16 : ∀ d0 : Dev nD, ∀ (r : Fin 16), (Rect.unit (s := S16384x1024) (k0_off1 d0 (BitVec.ofNat 32 (512 * r.val))) S512x1024.size (k0_off1_inb d0 r)).WholeWords (EltTy.packing .bf16)
  k0_off3_wordsbf16 : ∀ d0 : Dev nD, ∀ (r : Fin 16), (Rect.unit (s := S32768x1024) (k0_off3 d0 (BitVec.ofNat 32 (512 * r.val))) S512x1024.size (k0_off3_inb d0 r)).WholeWords (EltTy.packing .bf16)
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_off4_inb : ∀ d0 : Dev nD, ∀ (r : Fin 16), ∀ a, (k0_off4 d0 (BitVec.ofNat 32 (512 * r.val))) a + S512x1024.size a ≤ S16384x1024.size a
  k0_dev18_lt : ∀ d0 : Dev nD, (k0_dev18 d0) < nD
  k0_off5_inb : ∀ d0 : Dev nD, ∀ (r : Fin 16), ∀ a, (k0_off5 d0 (BitVec.ofNat 32 (512 * r.val))) a + S512x1024.size a ≤ S32768x1024.size a
  k0_off5_wordsbf16 : ∀ d0 : Dev nD, ∀ (r : Fin 16), (Rect.unit (s := S32768x1024) (k0_off5 d0 (BitVec.ofNat 32 (512 * r.val))) S512x1024.size (k0_off5_inb d0 r)).WholeWords (EltTy.packing .bf16)
  k0_dev19_lt : ∀ d0 : Dev nD, (k0_dev19 d0) < nD
  k0_off6_inb : ∀ d0 : Dev nD, ∀ (r : Fin 16), ∀ a, (k0_off6 d0 (BitVec.ofNat 32 (512 * r.val))) a + S512x1024.size a ≤ S16384x1024.size a
  k0_off6_packedbf16 : ∀ d0 : Dev nD, ∀ (r : Fin 16), (Rect.unit (s := S16384x1024) (k0_off6 d0 (BitVec.ofNat 32 (512 * r.val))) S512x1024.size (k0_off6_inb d0 r)).PackedRows (EltTy.packing .bf16)
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_off7_inb : ∀ d0 : Dev nD, ∀ a, (k0_off7 d0) a + S16384x1024.size a ≤ S32768x1024.size a
  k0_off7_wordsbf16 : ∀ d0 : Dev nD, (Rect.unit (s := S32768x1024) (k0_off7 d0) S16384x1024.size (k0_off7_inb d0)).WholeWords (EltTy.packing .bf16)
  k0_dev35_lt : ∀ d0 : Dev nD, (k0_dev35 d0) < nD
  k0_dev36_lt : ∀ d0 : Dev nD, (k0_dev36 d0) < nD

variable [Facts₀]

abbrev cc0_scoped0 : Sems sig S_ := SemArray.consecutive 1 S_ hcc0_scoped0
abbrev cc0_scratch2 : DmaSems sig S2 := SemArray.consecutive 0 S2 hcc0_scratch2
abbrev cc0_scratch3 : DmaSems sig S_ := SemArray.consecutive 2 S_ hcc0_scratch3
abbrev cc0_scratch4 : DmaSems sig S16 := SemArray.consecutive 3 S16 hcc0_scratch4
abbrev cc0_scratch5 : DmaSems sig S16 := SemArray.consecutive 19 S16 hcc0_scratch5
abbrev cc0_scratch6 : DmaSems sig S16 := SemArray.consecutive 35 S16 hcc0_scratch6
abbrev cc0_scratch7 : DmaSems sig S16 := SemArray.consecutive 51 S16 hcc0_scratch7

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S32768x1024 : Shape := ⟨2, ![32768, 1024]⟩

abbrev nBuf : Space → Nat
  | .hbm => 2
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.Proto.lean ====
import proofs.«900094_g7700000000000095_dist_ag_v7x_xy2x2_y_m16384_n1024_bf16_1_alg».proof.Proof.Gen.KernelIdeal.Frame
import proofs.«900094_g7700000000000095_dist_ag_v7x_xy2x2_y_m16384_n1024_bf16_1_alg».proof.Proof.Gen.KernelIdeal.Skeleton
import Idealize.ShloMosaic.Lib.Pipeline.Launch
import Idealize.ShloMosaic.Lib.Pipeline.Kit
import Idealize.ShloMosaic.Lib.Tactic
import Idealize.ShloMosaic.Lib.ValueIdx

/-!
# The all-gather's protocol on the 2×2 mesh

Device `d` sits at mesh position `(d / 2, d % 2)`. Its y-neighbour `yn d` shares the first coordinate, its
x-neighbour `xn d` the second; both maps are involutions and they commute. A device converts its own block of the
input to the narrow format, writes it to its own block of the result, sends the half of it that its first coordinate
names to the y-neighbour, and forwards what it receives from the y-neighbour to the x-neighbour. Every transfer has a
send cell and a receive cell of its own; the entry handshake and the exit handshake are one unit from each neighbour.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the rounds library's, duties named by `Bool` -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh neighbours -/

def yn (c : Dev nD) : Dev nD := ⟨(2 * (c.val / 2) + 1) - (c.val % 2), by have h : c.val < 4 := c.isLt; show _ < 4; omega⟩
def xn (c : Dev nD) : Dev nD := ⟨((c.val % 2) + 2) - 2 * (c.val / 2), by have h : c.val < 4 := c.isLt; show _ < 4; omega⟩

theorem yn_yn (c : Dev nD) : yn (yn c) = c := by revert c; decide
theorem xn_xn (c : Dev nD) : xn (xn c) = c := by revert c; decide
theorem xn_yn (c : Dev nD) : xn (yn c) = yn (xn c) := by revert c; decide
theorem yn_ne_xn (c : Dev nD) : yn c ≠ xn c := by revert c; decide
theorem yn_ne (c : Dev nD) : yn c ≠ c := by revert c; decide
theorem xn_ne (c : Dev nD) : xn c ≠ c := by revert c; decide

def ynE : Dev nD ≃ Dev nD := ⟨yn, yn, yn_yn, yn_yn⟩
def xnE : Dev nD ≃ Dev nD := ⟨xn, xn, xn_xn, xn_xn⟩

/-- The printed device chains: those whose closed form is the y-neighbour's, and those whose is the x-neighbour's. -/
theorem devY (k : Dev nD → Nat) (hk : ∀ d, k d < nD) (h : ∀ d, k d = (2 * (d.val / 2) + 1) - (d.val % 2)) (c : Dev nD) :
    (⟨k c, hk c⟩ : Dev nD) = yn c := Fin.ext (h c)
theorem devX (k : Dev nD → Nat) (hk : ∀ d, k d < nD) (h : ∀ d, k d = ((d.val % 2) + 2) - 2 * (d.val / 2)) (c : Dev nD) :
    (⟨k c, hk c⟩ : Dev nD) = xn c := Fin.ext (h c)

/-! ## The semaphores and the cells -/

/-- The runtime's barrier semaphore and the exit handshake's scoped one. -/
abbrev barS : Sem sig := (SemArray.scalar (sig.barrier 0 rfl) : Sems sig S_).sem
abbrev exitS : Sem sig := (cc0_scoped0 : Sems sig S_).sem

/-- The semaphores of chunk `j`: the y-transfer's send and receive, the forward's send and receive. -/
def ysendS (j : Fin 16) : DmaSem sig := ⟨3 + j.val, by have := j.isLt; show 3 + j.val < 67; omega⟩
def yrecvS (j : Fin 16) : DmaSem sig := ⟨19 + j.val, by have := j.isLt; show 19 + j.val < 67; omega⟩
def xsendS (j : Fin 16) : DmaSem sig := ⟨35 + j.val, by have := j.isLt; show 35 + j.val < 67; omega⟩
def xrecvS (j : Fin 16) : DmaSem sig := ⟨51 + j.val, by have := j.isLt; show 51 + j.val < 67; omega⟩

/-- The semaphores of the local copies: the two load slots' and the one of the store of the whole shard. -/
def lsemS (s : Fin 2) : DmaSem sig := ⟨s.val, by have := s.isLt; show s.val < 67; omega⟩
def ssemS : DmaSem sig := ⟨2, by show 2 < 67; omega⟩

abbrev barCell (c : Dev nD) : GSem nD τ sig := ((c : Thread nD τ), .reg barS)
abbrev exitCell (c : Dev nD) : GSem nD τ sig := ((c : Thread nD τ), .reg exitS)
abbrev ldCell (c : Dev nD) (s : Fin 2) : GSem nD τ sig := ((c : Thread nD τ), .dma (lsemS s))
abbrev stCell (c : Dev nD) : GSem nD τ sig := ((c : Thread nD τ), .dma ssemS)
abbrev ysendCell (c : Dev nD) (j : Fin 16) : GSem nD τ sig := ((c : Thread nD τ), .dma (ysendS j))
abbrev yrecvCell (c : Dev nD) (j : Fin 16) : GSem nD τ sig := ((c : Thread nD τ), .dma (yrecvS j))
abbrev xsendCell (c : Dev nD) (j : Fin 16) : GSem nD τ sig := ((c : Thread nD τ), .dma (xsendS j))
abbrev xrecvCell (c : Dev nD) (j : Fin 16) : GSem nD τ sig := ((c : Thread nD τ), .dma (xrecvS j))

/-! ## The buffers, and the chunks the transfers move -/

abbrev xM : Memref sig .tc .hbm S16384x1024 .f32 := Memref.whole main_arg0
abbrev oM : Memref sig .tc .hbm S32768x1024 .bf16 := Memref.whole main_v1
abbrev vsM : Memref sig .tc .vmem S16384x1024 .bf16 := Memref.whole cc0_scratch0
abbrev vlM : Memref sig .tc .vmem S2x512x1024 .f32 := Memref.whole cc0_scratch1

/-- A chunk of 512 rows of the result array, and of the converted shard. -/
abbrev oSl (off : Fin 2 → Nat) (h : ∀ a, off a + S512x1024.size a ≤ S32768x1024.size a) : Memref sig .tc .hbm S512x1024 .bf16 :=
  oM.slice (Rect.unit (s := S32768x1024) off S512x1024.size h) (fun _ => rfl)
abbrev vSl (off : Fin 2 → Nat) (h : ∀ a, off a + S512x1024.size a ≤ S16384x1024.size a) : Memref sig .tc .vmem S512x1024 .bf16 :=
  vsM.slice (Rect.unit (s := S16384x1024) off S512x1024.size h) (fun _ => rfl)

/-- The chunk constant the printed offsets take. -/
abbrev cw (j : Fin 16) : BitVec 32 := BitVec.ofNat 32 (512 * j.val)

/-- Chunk `j` of the y-transfer device `d` fires: its source in `d`'s converted shard, its destination rows (on the y-neighbour). -/
abbrev srcY (d : Dev nD) (j : Fin 16) : Memref sig .tc .vmem S512x1024 .bf16 := vSl (k0_off1 d (cw j)) (k0_off1_inb d j)
abbrev dstY (d : Dev nD) (j : Fin 16) : Memref sig .tc .hbm S512x1024 .bf16 := oSl (k0_off3 d (cw j)) (k0_off3_inb d j)
/-- Chunk `j` of the forward device `d` fires: the same rows of the result array at both ends. -/
abbrev fwM (d : Dev nD) (j : Fin 16) : Memref sig .tc .hbm S512x1024 .bf16 := oSl (k0_off5 d (cw j)) (k0_off5_inb d j)
/-- A device's own block of the result array, written by its local copy of the whole converted shard. -/
abbrev ownM (d : Dev nD) : Memref sig .tc .hbm S16384x1024 .bf16 :=
  oM.slice (Rect.unit (s := S32768x1024) (k0_off7 d) S16384x1024.size (k0_off7_inb d)) (fun _ => rfl)

/-- A chunk of 512 rows of the device's input block. -/
abbrev xSl (off : Fin 2 → Nat) (h : ∀ a, off a + S512x1024.size a ≤ S16384x1024.size a) : Memref sig .tc .hbm S512x1024 .f32 :=
  xM.slice (Rect.unit (s := S16384x1024) off S512x1024.size h) (fun _ => rfl)

/-- The rows chunk `j` of a half is loaded from and stored to: the half the device's first coordinate names (`false`),
    converted first, then the other (`true`). -/
def ldOff (d : Dev nD) (h : Bool) (j : Fin 16) : Fin 2 → Nat := if h then k0_off4 d (cw j) else k0_off1 d (cw j)
def stOff (d : Dev nD) (h : Bool) (j : Fin 16) : Fin 2 → Nat := if h then k0_off6 d (cw j) else k0_off2 d (cw j)
theorem ldOff_inb (d : Dev nD) (h : Bool) (j : Fin 16) : ∀ a, ldOff d h j a + S512x1024.size a ≤ S16384x1024.size a := by
  cases h
  · exact k0_off1_inb d j
  · exact k0_off4_inb d j
theorem stOff_inb (d : Dev nD) (h : Bool) (j : Fin 16) : ∀ a, stOff d h j a + S512x1024.size a ≤ S16384x1024.size a := by
  cases h
  · exact k0_off2_inb d j
  · exact k0_off6_inb d j

/-- The source of load `(h, j)` in the input block, the load slot it lands in, and the chunk of the shard its conversion is stored to. -/
abbrev ldSrc (d : Dev nD) (h : Bool) (j : Fin 16) : Memref sig .tc .hbm S512x1024 .f32 := xSl (ldOff d h j) (ldOff_inb d h j)
abbrev vslot (s : Fin 2) : Memref sig .tc .vmem S512x1024 .f32 :=
  (vlM.slice (Rect.unit (s := S2x512x1024) ![s.val, 0, 0] S1x512x1024.size (by revert s; decide)) (fun _ => rfl)).squeeze S512x1024 squeezes_S1x512x1024_S512x1024
abbrev stRect (d : Dev nD) (h : Bool) (j : Fin 16) : Rect S16384x1024 := Rect.unit (s := S16384x1024) (stOff d h j) S512x1024.size (stOff_inb d h j)
/-- The slot of load `(h, j)` and its round on that slot's cell: loads alternate slots, sixteen to a slot. -/
def slotOf (j : Fin 16) : Fin 2 := ⟨j.val % 2, Nat.mod_lt _ (by decide)⟩
def roundOf (h : Bool) (j : Fin 16) : ℕ := (if h then 8 else 0) + j.val / 2

/-- What a remote transfer of one chunk credits each of its two cells; a load its slot's cell; the shard's store its cell. -/
abbrev N : ℕ := (oSl ![0, 0] (by decide)).view.dmaCredit
theorem N_pos : 0 < N := View.dmaCredit_pos _ (by decide)
abbrev NL : ℕ := (vslot 0).view.dmaCredit
theorem NL_pos : 0 < NL := View.dmaCredit_pos _ (by decide)
abbrev NS : ℕ := (ownM 0).view.dmaCredit
theorem NS_pos : 0 < NS := View.dmaCredit_pos _ (by decide)

/-! ## Contents -/

variable (m : (ℓ : Loc nD τ sig) → Buf (Elt F) ℓ)

/-- One entry narrowed. -/
def cv (x : F .f32) : F .bf16 := FloatOps.truncf .bf16 bitsLt_bf16_f32 x

/-- Device `c`'s converted shard: its block of the input, every entry narrowed. -/
def VS (c : Dev nD) : Buf (Elt F) ((c : Thread nD τ).loc cc0_scratch0) :=
  fun i => cv (m ((c : Thread nD τ).loc main_arg0) i)

/-- Device `c`'s result array at the end: its own block from its own shard; of the other block, the half its first
    coordinate names from the y-neighbour's shard, the other half from the shard of the device diagonally across
    (forwarded by the x-neighbour). -/
def OUT (c : Dev nD) : Buf (Elt F) ((c : Thread nD τ).loc main_v1) :=
  fun i =>
    let r : Nat := (i 0).val
    let i' : S16384x1024.Idx := ValueIdx.ix2 (⟨r % 16384, Nat.mod_lt _ (by decide)⟩ : Fin 16384) (i 1 : Fin 1024)
    if r / 16384 = c.val % 2 then VS m c i'
    else if (r % 16384) / 8192 = c.val / 2 then VS m (yn c) i'
    else VS m (xn (yn c)) i'

/-- What load `(h, j)` leaves in its slot: the rows of the input block it copies, whichever the slot. -/
def SLOT (c : Dev nD) (h : Bool) (j : Fin 16) : Buf (Elt F) ((c : Thread nD τ).loc cc0_scratch1) :=
  fun i => m ((c : Thread nD τ).loc main_arg0)
    (ValueIdx.ix2 (⟨(ldOff c h j 0 + (i 1).val) % 16384, Nat.mod_lt _ (by decide)⟩ : Fin 16384) (i 2 : Fin 1024))

/-! ## The schedule -/

/-- Which of the protocol's cells a semaphore is. -/
inductive Kind where
  | bar | exit
  | ld (s : Fin 2) | st
  | ysend (j : Fin 16) | yrecv (j : Fin 16) | xsend (j : Fin 16) | xrecv (j : Fin 16)
deriving DecidableEq, Fintype

def kindOf : SemLoc sig → Option Kind
  | .reg s => if s = barS then some .bar else if s = exitS then some .exit else none
  | .dma q =>
    if h : q.val < 2 then some (.ld ⟨q.val, h⟩)
    else if q.val = 2 then some .st
    else if h : 3 ≤ q.val ∧ q.val < 19 then some (.ysend ⟨q.val - 3, by omega⟩)
    else if h : 19 ≤ q.val ∧ q.val < 35 then some (.yrecv ⟨q.val - 19, by omega⟩)
    else if h : 35 ≤ q.val ∧ q.val < 51 then some (.xsend ⟨q.val - 35, by omega⟩)
    else if h : 51 ≤ q.val ∧ q.val < 67 then some (.xrecv ⟨q.val - 51, by omega⟩)
    else none

/-- The y-neighbour's entry signal hands device `c` the rows of the neighbour's result array its y-transfers write; -/
def barPayY (c : Dev nD) : sProp 𝕄 :=
  bigSep Finset.univ fun j : Fin 16 => iprop(∃ f, (dstY c j).view.loc (yn c : Thread nD τ) ↦[(dstY c j).view.set]{fullShare} f)
/-- the x-neighbour's, the rows of that neighbour's result array its forwards write. -/
def barPayX (c : Dev nD) : sProp 𝕄 :=
  bigSep Finset.univ fun j : Fin 16 => iprop(∃ f, (fwM c j).view.loc (xn c : Thread nD τ) ↦[(fwM c j).view.set]{fullShare} f)
/-- A y-transfer's landing: chunk `j` of the half the y-neighbour fills, at its final contents; -/
def yrecvPay (c : Dev nD) (j : Fin 16) : sProp 𝕄 :=
  (fwM c j).view.loc (c : Thread nD τ) ↦[(fwM c j).view.set]{fullShare} OUT m c
/-- a forward's landing: chunk `j` of the half the x-neighbour fills. -/
def xrecvPay (c : Dev nD) (j : Fin 16) : sProp 𝕄 :=
  (fwM (xn c) j).view.loc (c : Thread nD τ) ↦[(fwM (xn c) j).view.set]{fullShare} OUT m c
/-- A y-transfer's source comes back: the share of the chunk of the converted shard it was lent; -/
def ysendPay (c : Dev nD) (j : Fin 16) : sProp 𝕄 :=
  (srcY c j).view.loc (c : Thread nD τ) ↦[(srcY c j).view.set]{fullShare.left} VS m c
/-- a forward's source comes back: the chunk of the result array it read. -/
def xsendPay (c : Dev nD) (j : Fin 16) : sProp 𝕄 :=
  (fwM c j).view.loc (c : Thread nD τ) ↦[(fwM c j).view.set]{fullShare} OUT m c

/-- A load's landing: its slot at the rows it copied, and the rows of the input block back. Round `r` of slot `s` is load
    `(r ≥ 8, 2·(r % 8) + s)`. -/
def ldPayAt (c : Dev nD) (h : Bool) (j : Fin 16) : sProp 𝕄 :=
  iprop(((vslot (slotOf j)).view.loc (c : Thread nD τ) ↦[(vslot (slotOf j)).view.set]{fullShare} SLOT m c h j)
    ∗ ((ldSrc c h j).view.loc (c : Thread nD τ) ↦[(ldSrc c h j).view.set]{fullShare} m ((c : Thread nD τ).loc main_arg0)))
def ldPay (c : Dev nD) (s : Fin 2) (r : ℕ) : sProp 𝕄 :=
  ldPayAt m c (decide (8 ≤ r)) ⟨(2 * (r % 8) + s.val) % 16, Nat.mod_lt _ (by decide)⟩
/-- The shard's store landing: the device's own block of the result array at its final contents, and the shard's share back. -/
def stPay (c : Dev nD) : sProp 𝕄 :=
  iprop(((ownM c).view.loc (c : Thread nD τ) ↦[(ownM c).view.set]{fullShare} OUT m c)
    ∗ (vsM.view.loc (c : Thread nD τ) ↦[vsM.view.set]{fullShare.right} VS m c))

/-- Round 0 for every cell but the load slots', which have sixteen rounds. The entry and the exit cell have two duties of one unit, `false` paid by the y-neighbour and
    `true` by the x-neighbour; every transfer cell has the one duty `false` of a chunk's credit. -/
def sched : Rounds.Schedule (GSem nD τ sig) Bool 𝕄 where
  duties g r :=
    if g.1.2 = .tc then
      (match kindOf g.2 with
        | some .bar => if r = 0 then Finset.univ else ∅
        | some .exit => if r = 0 then Finset.univ else ∅
        | some (.ld _) => if r < 16 then {false} else ∅
        | some _ => if r = 0 then {false} else ∅
        | none => ∅)
    else ∅
  unitless _ := False
  amount g _ _ := match kindOf g.2 with
    | some .bar => 1 | some .exit => 1
    | some (.ld _) => NL | some .st => NS
    | _ => N
  payload g r d := match kindOf g.2 with
    | some .bar => if d then barPayX g.1.1 else barPayY g.1.1
    | some .exit => iprop(emp)
    | some (.ld s) => ldPay m g.1.1 s r
    | some .st => stPay m g.1.1
    | some (.ysend j) => ysendPay m g.1.1 j
    | some (.yrecv j) => yrecvPay m g.1.1 j
    | some (.xsend j) => xsendPay m g.1.1 j
    | some (.xrecv j) => xrecvPay m g.1.1 j
    | none => iprop(emp)
  amount_pos g _ _ _ := by
    show 0 < (match kindOf g.2 with
      | some .bar => 1 | some .exit => 1
      | some (.ld _) => NL | some .st => NS
      | _ => N)
    split <;> first | exact Nat.one_pos | exact NL_pos | exact NS_pos | exact N_pos

/-! ## What each device owes at launch; the levels -/

/-- The chunks' receive credits a device still owes once `k` of its y-transfers, resp. forwards, are under way. -/
def owedY (c : Dev nD) (k : ℕ) : CellTallies nD τ sig Unit :=
  ∑ j ∈ Finset.univ.filter (fun j : Fin 16 => k ≤ j.val), tallyAt (yrecvCell (yn c) j) () N
def owedX (c : Dev nD) (k : ℕ) : CellTallies nD τ sig Unit :=
  ∑ j ∈ Finset.univ.filter (fun j : Fin 16 => k ≤ j.val), tallyAt (xrecvCell (xn c) j) () N
/-- The exit handshake's two units. -/
def owedExit (c : Dev nD) : CellTallies nD τ sig Unit := tallyAt (exitCell (xn c)) () 1 + tallyAt (exitCell (yn c)) () 1

/-- After the entry handshake: every chunk's receive credit at both neighbours, and the exit handshake. -/
def O₂ (c : Dev nD) : CellTallies nD τ sig Unit := owedExit c + owedX c 0 + owedY c 0
def O₁ (c : Dev nD) : CellTallies nD τ sig Unit := O₂ c + tallyAt (barCell (xn c)) () 1
def O₀ (c : Dev nD) : CellTallies nD τ sig Unit := O₁ c + tallyAt (barCell (yn c)) () 1

def L (g : GSem nD τ sig) : Finset Unit := if g.1.2 = .tc then {()} else ∅
/-- The local copies' cells and the send cells wait at 0, the entry cell at 1, the y-receive cells at 2, the forward-receive
    cells at 3, the exit cell at 4: each wait is below everything its device still owes then. -/
def lv (g : GSem nD τ sig) (_ : Unit) : ℕ :=
  match kindOf g.2 with
  | some .bar => 1 | some (.yrecv _) => 2 | some (.xrecv _) => 3 | some .exit => 4 | _ => 0

/-! ## The ghost state a device's body starts from -/

def cellOfKind (c : Dev nD) : Kind → GSem nD τ sig
  | .bar => barCell c | .exit => exitCell c
  | .ld s => ldCell c s | .st => stCell c
  | .ysend j => ysendCell c j | .yrecv j => yrecvCell c j
  | .xsend j => xsendCell c j | .xrecv j => xrecvCell c j
abbrev cellAt (ck : Dev nD × Kind) : GSem nD τ sig := cellOfKind ck.1 ck.2

/-- Every cell's invariant, under the names `K` the launch allocated them at, and that every cell has reached round 0:
    persistent, so every device holds the whole record. -/
def records (K : Dev nD × Kind → ℕ) : sProp 𝕄 :=
  iprop((bigSep Finset.univ fun ck : Dev nD × Kind => cellInv ER (sched m) (K ck) (cellAt ck))
    ∗ bigSep Finset.univ fun ck : Dev nD × Kind => reached ER (cellAt ck) 0)

instance records_persistent (K : Dev nD × Kind → ℕ) : BI.Persistent (records m K) := by unfold records; infer_instance

/-- A device's positions on its own cells, all at the start of round 0. -/
def positions (c : Dev nD) : sProp 𝕄 := bigSep Finset.univ fun k : Kind => atPos ER (cellOfKind c k) 0 ∅ 0

/-- The tokens of the duties device `c` pays: the y-neighbour's entry and exit duty `false`, the x-neighbour's `true`;
    each chunk's receive duty at the neighbour it goes to; each chunk's two send duties of its own; every round's duty of
    its two load slots; the duty of its shard's store. -/
def payToks (c : Dev nD) : sProp 𝕄 :=
  iprop(dutyTok ER (barCell (yn c)) 0 false ∗ dutyTok ER (barCell (xn c)) 0 true
    ∗ dutyTok ER (exitCell (yn c)) 0 false ∗ dutyTok ER (exitCell (xn c)) 0 true
    ∗ (bigSep Finset.univ fun j : Fin 16 => dutyTok ER (yrecvCell (yn c) j) 0 false)
    ∗ (bigSep Finset.univ fun j : Fin 16 => dutyTok ER (xrecvCell (xn c) j) 0 false)
    ∗ (bigSep Finset.univ fun j : Fin 16 => dutyTok ER (ysendCell c j) 0 false)
    ∗ (bigSep Finset.univ fun j : Fin 16 => dutyTok ER (xsendCell c j) 0 false)
    ∗ (bigSep Finset.univ fun sr : Fin 2 × Fin 16 => dutyTok ER (ldCell c sr.1) sr.2.val false)
    ∗ dutyTok ER (stCell c) 0 false)

def ghost (K : Dev nD × Kind → ℕ) (c : Dev nD) : sProp 𝕄 := iprop(records m K ∗ positions c ∗ payToks c)

/-- The credit a device's own waits spend: two units on its entry and on its exit cell, a chunk's credit on each of
    its receive cells. -/
def creds (c : Dev nD) : sProp 𝕄 :=
  iprop(cred (tallyAt (barCell c) () 2) ∗ cred (tallyAt (exitCell c) () 2)
    ∗ (bigSep Finset.univ fun j : Fin 16 => cred (tallyAt (yrecvCell c j) () N))
    ∗ (bigSep Finset.univ fun j : Fin 16 => cred (tallyAt (xrecvCell c j) () N)))

/-- What a device's body starts from, the scratch buffers apart. -/
def start (c : Dev nD) : sProp 𝕄 :=
  iprop((∃ K, ghost m K c) ∗ creds c ∗ levAts L lv
    ∗ (((c : Thread nD τ).loc main_arg0) ↦{fullShare} m ((c : Thread nD τ).loc main_arg0))
    ∗ (((c : Thread nD τ).loc main_v1) ↦{fullShare} m ((c : Thread nD τ).loc main_v1)))

def scratchBufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratchBufs c)

/-- The kernel's own semaphores back at zero, every one of its cells closed. -/
def closedSems (c : Dev nD) : sProp 𝕄 :=
  iprop(semVal (exitCell c) 0
    ∗ (bigSep Finset.univ fun j : Fin 16 => semVal (ysendCell c j) 0) ∗ (bigSep Finset.univ fun j : Fin 16 => semVal (yrecvCell c j) 0)
    ∗ (bigSep Finset.univ fun j : Fin 16 => semVal (xsendCell c j) 0) ∗ (bigSep Finset.univ fun j : Fin 16 => semVal (xrecvCell c j) 0)
    ∗ semVal (ldCell c 0) 0 ∗ semVal (ldCell c 1) 0 ∗ semVal (stCell c) 0)

/-- After the body: the input untouched, the result array whole at its final contents, the semaphores closed, the scratch back. -/
def Φ₁ (c : Dev nD) : sProp 𝕄 :=
  iprop((((c : Thread nD τ).loc main_arg0) ↦{fullShare} m ((c : Thread nD τ).loc main_arg0))
    ∗ (((c : Thread nD τ).loc main_v1) ↦{fullShare} OUT m c)
    ∗ closedSems c ∗ scratchBufs c)

theorem cfg0_W : cfg0.W = 0 := rfl

def dats (_ : Fin 1) (c : Dev nD) : Dat τ (Elt F) Unit ℕ UU ℕ cfg0 c where
  A w := (Fin.elim0 (cfg0_W ▸ w))
  after w := (Fin.elim0 (cfg0_W ▸ w))
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.AG

end
-- ==== Proof.State.lean ====
import proofs.«900094_g7700000000000095_dist_ag_v7x_xy2x2_y_m16384_n1024_bf16_1_alg».proof.Proof.Proto

/-!
# One device's state, piece by piece, and what each operation of the body does to it

The body is a fixed sequence of some three hundred memory operations, transfers, signals and waits. Its state is kept
as a dozen independent assertions, each indexed by how far one strand of the protocol has got: the loads into the two
slots, the chunks of the converted shard, the y-transfers, the forwards, the store of the device's own block, the entry
and the exit handshake. Each operation moves one strand one step, and touches only the assertions of the strands it
concerns.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Indices -/

/-- The chunks at or past a count, and those before it. -/
abbrev ge16 (n : ℕ) : Finset (Fin 16) := Finset.univ.filter fun j => n ≤ j.val
abbrev lt16 (n : ℕ) : Finset (Fin 16) := Finset.univ.filter fun j => j.val < n
abbrev ge32 (n : ℕ) : Finset (Fin 32) := Finset.univ.filter fun i => n ≤ i.val

/-- Load `i` of the thirty-two, in the order they are issued: the half it belongs to, its chunk, its slot, its round. -/
def hOf (i : Fin 32) : Bool := decide (16 ≤ i.val)
def jOf (i : Fin 32) : Fin 16 := ⟨i.val % 16, Nat.mod_lt _ (by decide)⟩
def sOf (i : Fin 32) : Fin 2 := ⟨i.val % 2, Nat.mod_lt _ (by decide)⟩
def rOf (i : Fin 32) : ℕ := i.val / 2

/-- The body's conversion of one loaded slot: every stored value of the thirty-two is this function of its load. -/
def pay (v : Vec F S1x512x1024 .f32) : FVec F S512x1024 .bf16 :=
  shapeCast S512x1024 (truncf .bf16 (shapeCast S512x1024 v shapeCasts_S1x512x1024_S512x1024) bitsLt_bf16_f32) shapeCasts_S512x1024_S512x1024

/-- The rectangle a slot is read through, and what the read of load `i`'s slot delivers. -/
abbrev slotRect (s : Fin 2) : Rect S2x512x1024 := Rect.unit (s := S2x512x1024) ![s.val, 0, 0] S1x512x1024.size (by revert s; decide)
def slotVal (c : Dev nD) (i : Fin 32) : Vec F S1x512x1024 .f32 :=
  (vlM : Memref sig .tc .vmem S2x512x1024 .f32).view.readAt (Elt F) (slotRect (sOf i)).toLoadRect (SLOT m c (hOf i) (jOf i))

/-! ## What the device owes, strand by strand -/

def barO (c : Dev nD) : ℕ → CellTallies nD τ sig Unit
  | 0 => tallyAt (barCell (xn c)) () 1 + tallyAt (barCell (yn c)) () 1
  | 1 => tallyAt (barCell (xn c)) () 1
  | _ => 0
def exitO (c : Dev nD) : ℕ → CellTallies nD τ sig Unit
  | 0 => tallyAt (exitCell (xn c)) () 1 + tallyAt (exitCell (yn c)) () 1
  | 1 => tallyAt (exitCell (xn c)) () 1
  | _ => 0
/-- Everything owed when `nB` entry signals, `nY` y-transfers, `nF` forwards and `nE` exit signals have been issued. -/
def owedAt (c : Dev nD) (nB nY nF nE : ℕ) : CellTallies nD τ sig Unit := exitO c nE + owedX c nF + owedY c nY + barO c nB
def Ow (c : Dev nD) (O : CellTallies nD τ sig Unit) : sProp 𝕄 := iprop(∃ W, owes (c : Thread nD τ) O W)

/-! ## The strands -/

/-- The entry handshake: the tokens of the two signals still to send, the device's own position and credit until it has waited. -/
def StBar (c : Dev nD) (n : ℕ) : sProp 𝕄 :=
  iprop((if n < 1 then dutyTok ER (barCell (yn c)) 0 false else iprop(emp))
    ∗ (if n < 2 then dutyTok ER (barCell (xn c)) 0 true else iprop(emp))
    ∗ (if n < 3 then iprop(atPos ER (barCell c) 0 ∅ 0 ∗ cred (tallyAt (barCell c) () 2)) else iprop(emp)))
/-- The exit handshake, likewise; once waited, its cell closed. -/
def StExit (c : Dev nD) (n : ℕ) : sProp 𝕄 :=
  iprop((if n < 1 then dutyTok ER (exitCell (yn c)) 0 false else iprop(emp))
    ∗ (if n < 2 then dutyTok ER (exitCell (xn c)) 0 true else iprop(emp))
    ∗ (if n < 3 then iprop(atPos ER (exitCell c) 0 ∅ 0 ∗ cred (tallyAt (exitCell c) () 2)) else semVal (exitCell c) 0))

/-- How many of the first `b` loads went to slot `s`. -/
def wcount (b : ℕ) (s : Fin 2) : ℕ := (b + 1 - s.val) / 2
/-- What slot `s` holds when `b` loads have been waited for: its launch contents `fv`, or its last load. -/
def slotC (c : Dev nD) (fv : Buf (Elt F) ((c : Thread nD τ).loc cc0_scratch1)) (b : ℕ) (s : Fin 2) : Buf (Elt F) ((c : Thread nD τ).loc cc0_scratch1) :=
  if h : wcount b s = 0 then fv
  else SLOT m c (decide (16 ≤ 2 * (wcount b s - 1) + s.val)) ⟨(2 * (wcount b s - 1) + s.val) % 16, Nat.mod_lt _ (by decide)⟩

/-- The loads: `a` started, `b` waited for. Tokens of those to start; the rows of the input of those not in flight; the
    credit of those in flight; each slot's position, and its buffer unless a load into it is in flight. -/
def StLd (c : Dev nD) (fv : Buf (Elt F) ((c : Thread nD τ).loc cc0_scratch1)) (a b : ℕ) : sProp 𝕄 :=
  iprop((bigSep (ge32 a) fun i => dutyTok ER (ldCell c (sOf i)) (rOf i) false)
    ∗ (bigSep (Finset.univ.filter fun i : Fin 32 => i.val < b ∨ a ≤ i.val) fun i =>
        (ldSrc c (hOf i) (jOf i)).view.loc (c : Thread nD τ) ↦[(ldSrc c (hOf i) (jOf i)).view.set]{fullShare} m ((c : Thread nD τ).loc main_arg0))
    ∗ (bigSep (Finset.univ.filter fun i : Fin 32 => b ≤ i.val ∧ i.val < a) fun i => cred (tallyAt (ldCell c (sOf i)) () NL))
    ∗ (bigSep Finset.univ fun s : Fin 2 => iprop(atPos ER (ldCell c s) (wcount b s) ∅ 0 ∗ reached ER (ldCell c s) (wcount b s)
        ∗ (if wcount a s = wcount b s then
            ((vslot s).view.loc (c : Thread nD τ) ↦[(vslot s).view.set]{fullShare} slotC m c fv b s) else iprop(emp)))))

/-- The chunk of the shard conversion `i` stores. -/
abbrev vsSet (c : Dev nD) (i : Fin 32) := ((vsM : Memref sig .tc .vmem S16384x1024 .bf16).access (stRect c (hOf i) (jOf i))).set

/-- The converted shard. Before its store to the result array is issued (`mode = 0`): every chunk, converted (`i < nC`) or
    at its launch contents `fs`, at the full share, or at the right half if its y-transfer is under way (`i < nY`).
    While the store is in flight (`1`): the left halves of the chunks no y-transfer still holds. After it (`2`):
    those and the right half of the whole shard. -/
def StVs (c : Dev nD) (fs : Buf (Elt F) ((c : Thread nD τ).loc cc0_scratch0)) (mode nC nY nYS : ℕ) : sProp 𝕄 :=
  match mode with
  | 0 => bigSep Finset.univ fun i : Fin 32 =>
      (vsM.view.loc (c : Thread nD τ) ↦[vsSet c i]{if i.val < nY then fullShare.right else fullShare} (if i.val < nC then VS m c else fs))
  | 1 => bigSep (Finset.univ.filter fun i : Fin 32 => 16 ≤ i.val ∨ i.val < nYS) fun i =>
      (vsM.view.loc (c : Thread nD τ) ↦[vsSet c i]{fullShare.left} VS m c)
  | _ => iprop((bigSep (Finset.univ.filter fun i : Fin 32 => 16 ≤ i.val ∨ i.val < nYS) fun i =>
      (vsM.view.loc (c : Thread nD τ) ↦[vsSet c i]{fullShare.left} VS m c))
      ∗ (vsM.view.loc (c : Thread nD τ) ↦[vsM.view.set]{fullShare.right} VS m c))

/-- A family of sixteen send cells, `n` transfers issued and `w` of them waited for: untouched, holding the issue's
    credit, or closed. -/
def sendCells (cell : Fin 16 → GSem nD τ sig) (n w : ℕ) : sProp 𝕄 :=
  bigSep Finset.univ fun j : Fin 16 =>
    if j.val < w then semVal (cell j) 0
    else if j.val < n then iprop(atPos ER (cell j) 0 ∅ 0 ∗ cred (tallyAt (cell j) () N))
    else atPos ER (cell j) 0 ∅ 0
/-- A family of sixteen receive cells, `w` waited for: position and launch credit, or closed. -/
def recvCells (cell : Fin 16 → GSem nD τ sig) (w : ℕ) : sProp 𝕄 :=
  bigSep Finset.univ fun j : Fin 16 =>
    if j.val < w then semVal (cell j) 0 else iprop(atPos ER (cell j) 0 ∅ 0 ∗ cred (tallyAt (cell j) () N))

/-- The y-transfers still to issue: their two tokens each; and, once the entry wait is through, their destination rows on the y-neighbour. -/
def StYtok (c : Dev nD) (n : ℕ) : sProp 𝕄 :=
  bigSep (ge16 n) fun j => iprop(dutyTok ER (yrecvCell (yn c) j) 0 false ∗ dutyTok ER (ysendCell c j) 0 false)
def StYreg (c : Dev nD) (n : ℕ) : sProp 𝕄 :=
  bigSep (ge16 n) fun j => iprop(∃ f, (dstY c j).view.loc (yn c : Thread nD τ) ↦[(dstY c j).view.set]{fullShare} f)
/-- The forwards still to issue, likewise, on the x-neighbour. -/
def StFtok (c : Dev nD) (n : ℕ) : sProp 𝕄 :=
  bigSep (ge16 n) fun j => iprop(dutyTok ER (xrecvCell (xn c) j) 0 false ∗ dutyTok ER (xsendCell c j) 0 false)
def StFreg (c : Dev nD) (n : ℕ) : sProp 𝕄 :=
  bigSep (ge16 n) fun j => iprop(∃ f, (fwM c j).view.loc (xn c : Thread nD τ) ↦[(fwM c j).view.set]{fullShare} f)

/-- The half of the other block the y-neighbour fills. Until the first entry signal the device holds it at its launch
    contents `fo`; then chunk `j` is with the neighbour until its landing is waited for (`j < nYR`), with the forward
    from its issue (`j < nF`) until the forward's send is waited for (`j < nXS`), and the device's otherwise, at its final contents. -/
def StB (c : Dev nD) (fo : Buf (Elt F) ((c : Thread nD τ).loc main_v1)) (given : Bool) (nYR nF nXS : ℕ) : sProp 𝕄 :=
  if given then
    bigSep Finset.univ fun j : Fin 16 =>
      if j.val < nXS ∨ (nF ≤ j.val ∧ j.val < nYR) then
        ((fwM c j).view.loc (c : Thread nD τ) ↦[(fwM c j).view.set]{fullShare} OUT m c)
      else iprop(emp)
  else bigSep Finset.univ fun j : Fin 16 => ((fwM c j).view.loc (c : Thread nD τ) ↦[(fwM c j).view.set]{fullShare} fo)
/-- The half the x-neighbour fills: the device's until the second entry signal, and again, chunk by chunk, from the wait for its landing. -/
def StC (c : Dev nD) (fo : Buf (Elt F) ((c : Thread nD τ).loc main_v1)) (given : Bool) (nXR : ℕ) : sProp 𝕄 :=
  if given then
    bigSep (lt16 nXR) fun j => ((fwM (xn c) j).view.loc (c : Thread nD τ) ↦[(fwM (xn c) j).view.set]{fullShare} OUT m c)
  else bigSep Finset.univ fun j : Fin 16 => ((fwM (xn c) j).view.loc (c : Thread nD τ) ↦[(fwM (xn c) j).view.set]{fullShare} fo)

/-- The store of the shard to the device's own block: before it (`0`) its token, its cell's position and the block at its
    launch contents; in flight (`1`) the position and the issue's credit; after it (`2`) the cell closed and the block final. -/
def StSt (c : Dev nD) (fo : Buf (Elt F) ((c : Thread nD τ).loc main_v1)) : ℕ → sProp 𝕄
  | 0 => iprop(dutyTok ER (stCell c) 0 false ∗ atPos ER (stCell c) 0 ∅ 0
      ∗ ((ownM c).view.loc (c : Thread nD τ) ↦[(ownM c).view.set]{fullShare} fo))
  | 1 => iprop(atPos ER (stCell c) 0 ∅ 0 ∗ cred (tallyAt (stCell c) () NS))
  | _ => iprop(semVal (stCell c) 0 ∗ ((ownM c).view.loc (c : Thread nD τ) ↦[(ownM c).view.set]{fullShare} OUT m c))

/-- What never changes: every cell's invariant and round 0, and the levels. -/
def Pers (K : Dev nD × Kind → ℕ) : sProp 𝕄 := iprop(records m K ∗ levAts L lv)
instance Pers_persistent (K : Dev nD × Kind → ℕ) : BI.Persistent (Pers m K) := by unfold Pers; infer_instance

end Cert.KernelIdeal.AG

end
-- ==== Proof.LibBig.lean ====
import proofs.«900094_g7700000000000095_dist_ag_v7x_xy2x2_y_m16384_n1024_bf16_1_alg».proof.Proof.State

/-!
# Products over chunk counts, and a buffer cut into bands of rows

General facts the step lemmas share: a product over the chunks at or past a count peels its first chunk; a product
whose terms switch at a count changes one term when the count moves; a whole points-to is the product of the
points-tos over bands of rows that are pairwise disjoint and cover the buffer.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Products over the chunks at or past a count -/

/-- The chunks at or past `n` are chunk `n` and those at or past `n + 1`. -/
theorem ge16_succ (n : ℕ) (hn : n < 16) (Φ : Fin 16 → sProp 𝕄) :
    bigSep (ge16 n) Φ = iprop(Φ ⟨n, hn⟩ ∗ bigSep (ge16 (n + 1)) Φ) := by
  have h : ge16 n = insert (⟨n, hn⟩ : Fin 16) (ge16 (n + 1)) := by
    ext j
    simp only [Finset.mem_filter, Finset.mem_univ, true_and, Finset.mem_insert, Fin.ext_iff]
    omega
  rw [h, bigSep_insert (by simp only [Finset.mem_filter, Finset.mem_univ, true_and]; omega)]
  rfl

/-- The same for the thirty-two loads. -/
theorem ge32_succ (n : ℕ) (hn : n < 32) (Φ : Fin 32 → sProp 𝕄) :
    bigSep (ge32 n) Φ = iprop(Φ ⟨n, hn⟩ ∗ bigSep (ge32 (n + 1)) Φ) := by
  have h : ge32 n = insert (⟨n, hn⟩ : Fin 32) (ge32 (n + 1)) := by
    ext j
    simp only [Finset.mem_filter, Finset.mem_univ, true_and, Finset.mem_insert, Fin.ext_iff]
    omega
  rw [h, bigSep_insert (by simp only [Finset.mem_filter, Finset.mem_univ, true_and]; omega)]
  rfl

/-- The chunks before `n + 1` are chunk `n` and those before `n`. -/
theorem lt16_succ (n : ℕ) (hn : n < 16) (Φ : Fin 16 → sProp 𝕄) :
    bigSep (lt16 (n + 1)) Φ = iprop(Φ ⟨n, hn⟩ ∗ bigSep (lt16 n) Φ) := by
  have h : lt16 (n + 1) = insert (⟨n, hn⟩ : Fin 16) (lt16 n) := by
    ext j
    simp only [Finset.mem_filter, Finset.mem_univ, true_and, Finset.mem_insert, Fin.ext_iff]
    omega
  rw [h, bigSep_insert (by simp only [Finset.mem_filter, Finset.mem_univ, true_and]; omega)]
  rfl

/-- No chunk is at or past sixteen, every chunk at or past zero; none before zero, every one before sixteen. -/
theorem ge16_sixteen : ge16 16 = ∅ := by
  ext j; simp only [Finset.mem_filter, Finset.mem_univ, true_and, Finset.notMem_empty, iff_false]; omega
theorem ge16_zero : ge16 0 = Finset.univ := by
  ext j; simp only [Finset.mem_filter, Finset.mem_univ, true_and, iff_true]; omega
theorem lt16_zero : lt16 0 = ∅ := by
  ext j; simp only [Finset.mem_filter, Finset.mem_univ, true_and, Finset.notMem_empty, iff_false]; omega
theorem lt16_sixteen : lt16 16 = Finset.univ := by
  ext j; simp only [Finset.mem_filter, Finset.mem_univ, true_and, iff_true]; omega
theorem ge32_zero : ge32 0 = Finset.univ := by
  ext j; simp only [Finset.mem_filter, Finset.mem_univ, true_and, iff_true]; omega
theorem ge32_thirtytwo : ge32 32 = ∅ := by
  ext j; simp only [Finset.mem_filter, Finset.mem_univ, true_and, Finset.notMem_empty, iff_false]; omega

/-- A product over all sixteen chunks whose terms switch at a count: moving the count by one changes only the term
    at the count, from `B` to `A`. -/
theorem switch16_succ (n : ℕ) (hn : n < 16) (A B : Fin 16 → sProp 𝕄) :
    (bigSep Finset.univ fun j : Fin 16 => if j.val < n then A j else B j)
      = iprop(B ⟨n, hn⟩ ∗ bigSep (Finset.univ.erase (⟨n, hn⟩ : Fin 16)) fun j : Fin 16 => if j.val < n + 1 then A j else B j) := by
  rw [bigSep_univ_split (⟨n, hn⟩ : Fin 16), if_neg (by simp)]
  refine congrArg (fun P => iprop(B ⟨n, hn⟩ ∗ P)) (bigSep_congr fun j hj => ?_)
  have hne : j.val ≠ n := fun e => (Finset.mem_erase.mp hj).1 (Fin.ext e)
  by_cases h : j.val < n
  · rw [if_pos h, if_pos (by omega)]
  · rw [if_neg h, if_neg (by omega)]
theorem switch16_succ' (n : ℕ) (hn : n < 16) (A B : Fin 16 → sProp 𝕄) :
    (bigSep Finset.univ fun j : Fin 16 => if j.val < n + 1 then A j else B j)
      = iprop(A ⟨n, hn⟩ ∗ bigSep (Finset.univ.erase (⟨n, hn⟩ : Fin 16)) fun j : Fin 16 => if j.val < n + 1 then A j else B j) := by
  rw [bigSep_univ_split (⟨n, hn⟩ : Fin 16), if_pos (by simp)]
  rfl

/-! ## A buffer cut into bands of rows -/

/-- A whole points-to is the product of the points-tos over a family of sets, each the elements whose row lies in an
    interval, the intervals pairwise disjoint and covering every row. -/
theorem pointsTo_bands {ℓ : Loc nD τ sig} {T : Type} [DecidableEq T] [Fintype T] (K : T → Finset (Idx ℓ))
    (row : Idx ℓ → ℕ) (lo len : T → ℕ)
    (hmem : ∀ t x, x ∈ K t ↔ lo t ≤ row x ∧ row x < lo t + len t)
    (hd : ∀ t t', t ≠ t' → lo t + len t ≤ lo t' ∨ lo t' + len t' ≤ lo t)
    (hc : ∀ x, ∃ t, lo t ≤ row x ∧ row x < lo t + len t)
    (q : PosShare TreeShare) (f : Buf (Elt F) ℓ) :
    (ℓ ↦{q} f : sProp 𝕄) = bigSep Finset.univ fun t => ℓ ↦[K t]{q} f := by
  have hu : (Finset.univ : Finset (Idx ℓ)) = Finset.univ.biUnion K := by
    ext x
    simp only [Finset.mem_univ, Finset.mem_biUnion, true_and, true_iff]
    obtain ⟨t, ht⟩ := hc x
    exact ⟨t, (hmem t x).mpr ht⟩
  have hdis : ∀ t ∈ (Finset.univ : Finset T), ∀ t' ∈ (Finset.univ : Finset T), t ≠ t' → Disjoint (K t) (K t') := by
    intro t _ t' _ hne
    refine Finset.disjoint_left.mpr fun x hx hx' => ?_
    have h1 := (hmem t x).mp hx
    have h2 := (hmem t' x).mp hx'
    rcases hd t t' hne with h | h <;> omega
  show pointsTo ℓ Finset.univ q f = _
  rw [hu, pointsTo_biUnion Finset.univ K hdis]

/-- The elements of a band of `n` rows of a two-dimensional array, all columns. -/
theorem mem_rows {R C n : ℕ} (off : Fin 2 → ℕ)
    (inb : ∀ a, off a + (![n, C] : Fin 2 → ℕ) a ≤ (⟨2, ![R, C]⟩ : Shape).size a)
    (h1 : off 1 = 0) (x : (⟨2, ![R, C]⟩ : Shape).Idx) :
    x ∈ (Rect.unit (s := ⟨2, ![R, C]⟩) off ![n, C] inb).set ↔ off 0 ≤ (x 0).val ∧ (x 0).val < off 0 + n := by
  rw [Rect.mem_set_unit, Fin.forall_fin_two]
  have hx : (x 1).val < C := (x 1).isLt
  simp only [Matrix.cons_val_zero, Matrix.cons_val_one, h1]
  omega

end Cert.KernelIdeal.AG

end
-- ==== Proof.OwedLv.lean ====
import proofs.«900094_g7700000000000095_dist_ag_v7x_xy2x2_y_m16384_n1024_bf16_1_alg».proof.Proof.State

/-!
# What is owed, count by count, and where it sits in the levels

What a device owes is the sum of four strands: the exit handshake's units, the forwards' receive credits, the
y-transfers' receive credits, the entry handshake's units. Each signal or transfer peels one summand off its strand;
when every strand is through nothing is owed. Once the entry handshake is through, everything still owed sits at a
receive cell or an exit cell, strictly above the entry cell and above the cells that wait at level zero.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## One summand off a strand -/

private theorem ge16_succ (n : ℕ) (h : n < 16) : ge16 n = insert (⟨n, h⟩ : Fin 16) (ge16 (n + 1)) := by
  ext j
  simp only [Finset.mem_filter, Finset.mem_univ, true_and, Finset.mem_insert, Fin.ext_iff]
  omega
private theorem not_mem_ge16_succ (n : ℕ) (h : n < 16) : (⟨n, h⟩ : Fin 16) ∉ ge16 (n + 1) := by
  simp only [Finset.mem_filter, Finset.mem_univ, true_and]
  omega
private theorem ge16_done : ge16 16 = ∅ := Finset.filter_eq_empty_iff.mpr fun j _ => by have := j.isLt; omega

private theorem owedY_succ (c : Dev nD) (n : ℕ) (h : n < 16) : owedY c n = owedY c (n + 1) + tallyAt (yrecvCell (yn c) ⟨n, h⟩) () N := by
  unfold owedY
  rw [show (Finset.univ.filter fun j : Fin 16 => n ≤ j.val) = insert (⟨n, h⟩ : Fin 16) (ge16 (n + 1)) from ge16_succ n h,
    Finset.sum_insert (not_mem_ge16_succ n h), add_comm]
private theorem owedX_succ (c : Dev nD) (n : ℕ) (h : n < 16) : owedX c n = owedX c (n + 1) + tallyAt (xrecvCell (xn c) ⟨n, h⟩) () N := by
  unfold owedX
  rw [show (Finset.univ.filter fun j : Fin 16 => n ≤ j.val) = insert (⟨n, h⟩ : Fin 16) (ge16 (n + 1)) from ge16_succ n h,
    Finset.sum_insert (not_mem_ge16_succ n h), add_comm]
private theorem owedY_done (c : Dev nD) : owedY c 16 = 0 := by
  unfold owedY; rw [show (Finset.univ.filter fun j : Fin 16 => 16 ≤ j.val) = ∅ from ge16_done]; exact Finset.sum_empty
private theorem owedX_done (c : Dev nD) : owedX c 16 = 0 := by
  unfold owedX; rw [show (Finset.univ.filter fun j : Fin 16 => 16 ≤ j.val) = ∅ from ge16_done]; exact Finset.sum_empty

/-- The first entry signal pays the y-neighbour's unit; -/
theorem owedAt_bar0 (c : Dev nD) (nY nF nE : ℕ) : owedAt c 0 nY nF nE = owedAt c 1 nY nF nE + tallyAt (barCell (yn c)) () 1 :=
  (add_assoc _ _ _).symm
/-- the second the x-neighbour's. -/
theorem owedAt_bar1 (c : Dev nD) (nY nF nE : ℕ) : owedAt c 1 nY nF nE = owedAt c 2 nY nF nE + tallyAt (barCell (xn c)) () 1 := by
  show exitO c nE + owedX c nF + owedY c nY + tallyAt (barCell (xn c)) () 1
    = exitO c nE + owedX c nF + owedY c nY + 0 + tallyAt (barCell (xn c)) () 1
  rw [add_zero]

/-- A y-transfer pays its chunk's receive credit at the y-neighbour; -/
theorem owedAt_y (c : Dev nD) (nB nY nF nE : ℕ) (h : nY < 16) :
    owedAt c nB nY nF nE = owedAt c nB (nY + 1) nF nE + tallyAt (yrecvCell (yn c) ⟨nY, h⟩) () N := by
  unfold owedAt
  rw [owedY_succ c nY h, ← add_assoc (exitO c nE + owedX c nF), add_right_comm (exitO c nE + owedX c nF + owedY c (nY + 1))]
/-- a forward its chunk's at the x-neighbour. -/
theorem owedAt_x (c : Dev nD) (nB nY nF nE : ℕ) (h : nF < 16) :
    owedAt c nB nY nF nE = owedAt c nB nY (nF + 1) nE + tallyAt (xrecvCell (xn c) ⟨nF, h⟩) () N := by
  unfold owedAt
  rw [owedX_succ c nF h, ← add_assoc (exitO c nE), add_right_comm (exitO c nE + owedX c (nF + 1)),
    add_right_comm (exitO c nE + owedX c (nF + 1) + owedY c nY)]

/-- The first exit signal pays the y-neighbour's unit; -/
theorem owedAt_exit0 (c : Dev nD) (nB nY nF : ℕ) : owedAt c nB nY nF 0 = owedAt c nB nY nF 1 + tallyAt (exitCell (yn c)) () 1 := by
  show tallyAt (exitCell (xn c)) () 1 + tallyAt (exitCell (yn c)) () 1 + owedX c nF + owedY c nY + barO c nB
    = tallyAt (exitCell (xn c)) () 1 + owedX c nF + owedY c nY + barO c nB + tallyAt (exitCell (yn c)) () 1
  rw [add_right_comm (tallyAt (exitCell (xn c)) () 1), add_right_comm (tallyAt (exitCell (xn c)) () 1 + owedX c nF),
    add_right_comm (tallyAt (exitCell (xn c)) () 1 + owedX c nF + owedY c nY)]
/-- the second the x-neighbour's. -/
theorem owedAt_exit1 (c : Dev nD) (nB nY nF : ℕ) : owedAt c nB nY nF 1 = owedAt c nB nY nF 2 + tallyAt (exitCell (xn c)) () 1 := by
  show tallyAt (exitCell (xn c)) () 1 + owedX c nF + owedY c nY + barO c nB
    = 0 + owedX c nF + owedY c nY + barO c nB + tallyAt (exitCell (xn c)) () 1
  rw [zero_add, add_comm (tallyAt (exitCell (xn c)) () 1) (owedX c nF), add_right_comm (owedX c nF),
    add_right_comm (owedX c nF + owedY c nY)]

/-- Every strand through, nothing is owed. -/
theorem owedAt_done (c : Dev nD) (n : ℕ) (hn : 2 ≤ n) : owedAt c n 16 16 2 = 0 := by
  rcases n with _ | _ | n
  · omega
  · omega
  · show (0 : CellTallies nD τ sig Unit) + owedX c 16 + owedY c 16 + 0 = 0
    rw [owedX_done, owedY_done]; simp only [add_zero]

/-- What a device owes at launch is the four strands untouched. -/
theorem O₀_eq (c : Dev nD) : O₀ c = owedAt c 0 0 0 0 := by
  unfold O₀ O₁ O₂ owedExit
  exact add_assoc _ _ _

/-! ## Where what is owed sits -/

private theorem lv_kindOf_exit : kindOf (.reg exitS) = some .exit := by decide
private theorem lv_kindOf_yrecv (j : Fin 16) : kindOf (.dma (yrecvS j)) = some (.yrecv j) := by revert j; decide
private theorem lv_kindOf_xrecv (j : Fin 16) : kindOf (.dma (xrecvS j)) = some (.xrecv j) := by revert j; decide

private theorem exitO_pos {c : Dev nD} {n : ℕ} {g : GSem nD τ sig} {u : Unit} (h : 0 < exitO c n g u) :
    g = exitCell (xn c) ∨ g = exitCell (yn c) := by
  rcases n with _ | _ | n
  · have h' : 0 < (tallyAt (exitCell (xn c)) () 1 + tallyAt (exitCell (yn c)) () 1 : CellTallies nD τ sig Unit) g u := h
    rw [Pi.add_apply, Finsupp.add_apply] at h'
    rcases (by omega : 0 < (tallyAt (exitCell (xn c)) () 1 : CellTallies nD τ sig Unit) g u
        ∨ 0 < (tallyAt (exitCell (yn c)) () 1 : CellTallies nD τ sig Unit) g u) with h1 | h1
    · exact Or.inl (Pipeline.tallyAt_pos h1).1
    · exact Or.inr (Pipeline.tallyAt_pos h1).1
  · exact Or.inl (Pipeline.tallyAt_pos (show 0 < (tallyAt (exitCell (xn c)) () 1 : CellTallies nD τ sig Unit) g u from h)).1
  · exact absurd (show 0 < (0 : CellTallies nD τ sig Unit) g u from h) (Nat.lt_irrefl 0)

private theorem owedX_pos {c : Dev nD} {n : ℕ} {g : GSem nD τ sig} {u : Unit} (h : 0 < owedX c n g u) : ∃ j : Fin 16, g = xrecvCell (xn c) j := by
  unfold owedX at h
  rw [Finset.sum_apply, Finsupp.finsetSum_apply] at h
  obtain ⟨j, -, hj⟩ := Finset.exists_ne_zero_of_sum_ne_zero (Nat.ne_of_gt h)
  exact ⟨j, (Pipeline.tallyAt_pos (Nat.pos_of_ne_zero hj)).1⟩
private theorem owedY_pos {c : Dev nD} {n : ℕ} {g : GSem nD τ sig} {u : Unit} (h : 0 < owedY c n g u) : ∃ j : Fin 16, g = yrecvCell (yn c) j := by
  unfold owedY at h
  rw [Finset.sum_apply, Finsupp.finsetSum_apply] at h
  obtain ⟨j, -, hj⟩ := Finset.exists_ne_zero_of_sum_ne_zero (Nat.ne_of_gt h)
  exact ⟨j, (Pipeline.tallyAt_pos (Nat.pos_of_ne_zero hj)).1⟩

/-- Once the entry handshake is through, everything still owed is at a TensorCore's y-receive cell, forward-receive cell
    or exit cell: at level two or more. -/
theorem owedAt_lv_two_le (c : Dev nD) (nY nF nE : ℕ) : ∀ g u, 0 < owedAt c 2 nY nF nE g u → g.1.2 = .tc ∧ 2 ≤ lv g u := by
  intro g u h
  have h' : 0 < (exitO c nE + owedX c nF + owedY c nY + 0 : CellTallies nD τ sig Unit) g u := h
  rw [add_zero, Pi.add_apply, Finsupp.add_apply, Pi.add_apply, Finsupp.add_apply] at h'
  rcases (by omega : 0 < exitO c nE g u ∨ 0 < owedX c nF g u ∨ 0 < owedY c nY g u) with h1 | h1 | h1
  · rcases exitO_pos h1 with rfl | rfl
    · refine ⟨rfl, ?_⟩; dsimp only [lv]; rw [lv_kindOf_exit]; show (2 : ℕ) ≤ 4; decide
    · refine ⟨rfl, ?_⟩; dsimp only [lv]; rw [lv_kindOf_exit]; show (2 : ℕ) ≤ 4; decide
  · obtain ⟨j, rfl⟩ := owedX_pos h1
    refine ⟨rfl, ?_⟩; dsimp only [lv]; rw [lv_kindOf_xrecv]; show (2 : ℕ) ≤ 3; decide
  · obtain ⟨j, rfl⟩ := owedY_pos h1
    refine ⟨rfl, ?_⟩; dsimp only [lv]; rw [lv_kindOf_yrecv]

/-- In particular strictly above level zero. -/
theorem owedAt_lv_pos (c : Dev nD) (nY nF nE : ℕ) : ∀ g u, 0 < owedAt c 2 nY nF nE g u → g.1.2 = .tc ∧ 0 < lv g u :=
  fun g u h => ⟨(owedAt_lv_two_le c nY nF nE g u h).1, Nat.lt_of_lt_of_le (by decide) (owedAt_lv_two_le c nY nF nE g u h).2⟩

end Cert.KernelIdeal.AG

end
-- ==== Proof.StepsEdge.lean ====
import proofs.«900094_g7700000000000095_dist_ag_v7x_xy2x2_y_m16384_n1024_bf16_1_alg».proof.Proof.LibBig
import proofs.«900094_g7700000000000095_dist_ag_v7x_xy2x2_y_m16384_n1024_bf16_1_alg».proof.Proof.OwedLv

/-!
# Into the strands and out of them

What the launch hands a device is cut into the strands' starting assertions: the ghost state's products over cells
become the strands' own products, the input block is cut into the thirty-two chunks the loads read, the load buffer
into its two slots, the shard into its thirty-two chunks, the result array into the device's own block and the
thirty-two chunks the neighbours fill. At the end the pieces are joined again.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The bands the buffers are cut into -/

/-- The first row of chunk `i` of the thirty-two, in a device's block of the input and in its shard alike. -/
def StepsEdge_rowOf (c : Dev nD) (i : Fin 32) : ℕ :=
  if 16 ≤ i.val then (512 * (i.val % 16) + 8192) - 8192 * (c.val / 2) else 8192 * (c.val / 2) + 512 * (i.val % 16)

theorem StepsEdge_ldOff_eq (c : Dev nD) (i : Fin 32) : ldOff c (hOf i) (jOf i) = ![StepsEdge_rowOf c i, 0] := by
  unfold ldOff hOf StepsEdge_rowOf
  by_cases h : 16 ≤ i.val
  · rw [decide_eq_true h, if_pos rfl, if_pos h]; exact k0_off4_eq c (jOf i)
  · rw [decide_eq_false h, if_neg Bool.false_ne_true, if_neg h]; exact k0_off1_eq c (jOf i)

theorem StepsEdge_stOff_eq (c : Dev nD) (i : Fin 32) : stOff c (hOf i) (jOf i) = ![StepsEdge_rowOf c i, 0] := by
  unfold stOff hOf StepsEdge_rowOf
  by_cases h : 16 ≤ i.val
  · rw [decide_eq_true h, if_pos rfl, if_pos h]; exact k0_off6_eq c (jOf i)
  · rw [decide_eq_false h, if_neg Bool.false_ne_true, if_neg h]; exact k0_off2_eq c (jOf i)

theorem StepsEdge_mem_ldSrc (c : Dev nD) (i : Fin 32) (x : S16384x1024.Idx) :
    x ∈ (ldSrc c (hOf i) (jOf i)).view.set ↔ StepsEdge_rowOf c i ≤ (x 0).val ∧ (x 0).val < StepsEdge_rowOf c i + 512 := by
  have e : (ldSrc c (hOf i) (jOf i)).view.set
      = (Rect.unit (s := S16384x1024) (ldOff c (hOf i) (jOf i)) S512x1024.size (ldOff_inb c _ _)).set := View.set_slice_whole main_arg0 _
  have h0 : ldOff c (hOf i) (jOf i) 0 = StepsEdge_rowOf c i := by rw [StepsEdge_ldOff_eq]; rfl
  rw [e]
  exact (mem_rows (R := 16384) (C := 1024) (n := 512) (ldOff c (hOf i) (jOf i)) (ldOff_inb c _ _) (by rw [StepsEdge_ldOff_eq]; rfl) x).trans (by rw [h0])

theorem StepsEdge_mem_vsSet (c : Dev nD) (i : Fin 32) (x : S16384x1024.Idx) :
    x ∈ vsSet c i ↔ StepsEdge_rowOf c i ≤ (x 0).val ∧ (x 0).val < StepsEdge_rowOf c i + 512 := by
  have e : vsSet c i = (stRect c (hOf i) (jOf i)).set := View.set_slice_whole cc0_scratch0 _
  have h0 : stOff c (hOf i) (jOf i) 0 = StepsEdge_rowOf c i := by rw [StepsEdge_stOff_eq]; rfl
  rw [e]
  exact (mem_rows (R := 16384) (C := 1024) (n := 512) (stOff c (hOf i) (jOf i)) (stOff_inb c _ _) (by rw [StepsEdge_stOff_eq]; rfl) x).trans (by rw [h0])

theorem StepsEdge_rowOf_disj (c : Dev nD) (i i' : Fin 32) (h : i ≠ i') :
    StepsEdge_rowOf c i + 512 ≤ StepsEdge_rowOf c i' ∨ StepsEdge_rowOf c i' + 512 ≤ StepsEdge_rowOf c i := by
  have hc := c.isLt
  have hi := i.isLt
  have hi' := i'.isLt
  have hne : i.val ≠ i'.val := fun e => h (Fin.ext e)
  unfold StepsEdge_rowOf
  change c.val < 4 at hc
  split_ifs <;> omega

theorem StepsEdge_rowOf_cover (c : Dev nD) (r : ℕ) (hr : r < 16384) :
    ∃ i : Fin 32, StepsEdge_rowOf c i ≤ r ∧ r < StepsEdge_rowOf c i + 512 := by
  have hc := c.isLt
  change c.val < 4 at hc
  obtain ⟨k, hk32, hk⟩ : ∃ k, k < 32 ∧ k = (r / 512 + 16 * (c.val / 2)) % 32 := ⟨_, Nat.mod_lt _ (by decide), rfl⟩
  refine ⟨⟨k, hk32⟩, ?_⟩
  unfold StepsEdge_rowOf
  dsimp only
  split_ifs <;> omega

/-- The block of the input is its thirty-two chunks; -/
theorem StepsEdge_cut_x (c : Dev nD) (q : PosShare TreeShare) (f : Buf (Elt F) ((c : Thread nD τ).loc main_arg0)) :
    (((c : Thread nD τ).loc main_arg0) ↦{q} f : sProp 𝕄)
      = bigSep Finset.univ fun i : Fin 32 =>
          (ldSrc c (hOf i) (jOf i)).view.loc (c : Thread nD τ) ↦[(ldSrc c (hOf i) (jOf i)).view.set]{q} f :=
  pointsTo_bands (ℓ := (c : Thread nD τ).loc main_arg0) (fun i : Fin 32 => (ldSrc c (hOf i) (jOf i)).view.set)
    (fun x => (x 0).val) (StepsEdge_rowOf c) (fun _ => 512)
    (fun i x => StepsEdge_mem_ldSrc c i x) (fun i i' h => StepsEdge_rowOf_disj c i i' h)
    (fun x => StepsEdge_rowOf_cover c _ (x 0).isLt) q f

/-- the shard its thirty-two chunks; -/
theorem StepsEdge_cut_vs (c : Dev nD) (q : PosShare TreeShare) (f : Buf (Elt F) ((c : Thread nD τ).loc cc0_scratch0)) :
    (((c : Thread nD τ).loc cc0_scratch0) ↦{q} f : sProp 𝕄)
      = bigSep Finset.univ fun i : Fin 32 => vsM.view.loc (c : Thread nD τ) ↦[vsSet c i]{q} f :=
  pointsTo_bands (ℓ := (c : Thread nD τ).loc cc0_scratch0) (fun i : Fin 32 => vsSet c i)
    (fun x => (x 0).val) (StepsEdge_rowOf c) (fun _ => 512)
    (fun i x => StepsEdge_mem_vsSet c i x) (fun i i' h => StepsEdge_rowOf_disj c i i' h)
    (fun x => StepsEdge_rowOf_cover c _ (x 0).isLt) q f

theorem StepsEdge_mem_vslot (s : Fin 2) (x : S2x512x1024.Idx) :
    x ∈ (vslot s).view.set ↔ s.val ≤ (x 0).val ∧ (x 0).val < s.val + 1 := by
  have e : (vslot s).view.set = (slotRect s).set := (View.set_reshape _ _).trans (View.set_slice_whole cc0_scratch1 _)
  rw [e, Rect.mem_set_unit]
  constructor
  · intro h; have := h 0; simp at this; omega
  · intro h a; fin_cases a <;> simp <;> omega

/-- the load buffer its two slots; -/
theorem StepsEdge_cut_vl (c : Dev nD) (q : PosShare TreeShare) (f : Buf (Elt F) ((c : Thread nD τ).loc cc0_scratch1)) :
    (((c : Thread nD τ).loc cc0_scratch1) ↦{q} f : sProp 𝕄)
      = bigSep Finset.univ fun s : Fin 2 => (vslot s).view.loc (c : Thread nD τ) ↦[(vslot s).view.set]{q} f :=
  pointsTo_bands (ℓ := (c : Thread nD τ).loc cc0_scratch1) (fun s : Fin 2 => (vslot s).view.set)
    (fun x => (x 0).val) (fun s => s.val) (fun _ => 1)
    (fun s x => StepsEdge_mem_vslot s x) (fun s s' h => by have : s.val ≠ s'.val := fun e => h (Fin.ext e); omega)
    (fun x => ⟨⟨(x 0).val, (x 0).isLt⟩, by show (x 0).val ≤ (x 0).val ∧ (x 0).val < (x 0).val + 1; omega⟩) q f

theorem StepsEdge_mem_fwM (d : Dev nD) (j : Fin 16) (x : S32768x1024.Idx) :
    x ∈ (fwM d j).view.set ↔ (8192 * (d.val / 2) + 512 * j.val + 16384) - 16384 * (d.val % 2) ≤ (x 0).val
      ∧ (x 0).val < (8192 * (d.val / 2) + 512 * j.val + 16384) - 16384 * (d.val % 2) + 512 := by
  have e : (fwM d j).view.set = (Rect.unit (s := S32768x1024) (k0_off5 d (cw j)) S512x1024.size (k0_off5_inb d j)).set :=
    View.set_slice_whole main_v1 _
  have h0 : k0_off5 d (cw j) 0 = (8192 * (d.val / 2) + 512 * j.val + 16384) - 16384 * (d.val % 2) := by rw [k0_off5_eq]; rfl
  rw [e]
  exact (mem_rows (R := 32768) (C := 1024) (n := 512) (k0_off5 d (cw j)) (k0_off5_inb d j) (by rw [k0_off5_eq]; rfl) x).trans (by rw [h0])

theorem StepsEdge_mem_ownM (d : Dev nD) (x : S32768x1024.Idx) :
    x ∈ (ownM d).view.set ↔ 16384 * (d.val % 2) ≤ (x 0).val ∧ (x 0).val < 16384 * (d.val % 2) + 16384 := by
  have e : (ownM d).view.set = (Rect.unit (s := S32768x1024) (k0_off7 d) S16384x1024.size (k0_off7_inb d)).set :=
    View.set_slice_whole main_v1 _
  have h0 : k0_off7 d 0 = 16384 * (d.val % 2) := by rw [k0_off7_eq]; rfl
  rw [e]
  exact (mem_rows (R := 32768) (C := 1024) (n := 16384) (k0_off7 d) (k0_off7_inb d) (by rw [k0_off7_eq]; rfl) x).trans (by rw [h0])

theorem StepsEdge_xn_div (c : Dev nD) : (xn c).val / 2 = 1 - c.val / 2 := by revert c; decide
theorem StepsEdge_xn_mod (c : Dev nD) : (xn c).val % 2 = c.val % 2 := by revert c; decide

/-- The bands of the result array: the device's own block, the sixteen chunks the y-neighbour fills, the sixteen the
    x-neighbour fills. -/
def StepsEdge_oLo (c : Dev nD) : Unit ⊕ (Fin 16 ⊕ Fin 16) → ℕ
  | .inl _ => 16384 * (c.val % 2)
  | .inr (.inl j) => (8192 * (c.val / 2) + 512 * j.val + 16384) - 16384 * (c.val % 2)
  | .inr (.inr j) => (8192 * ((xn c).val / 2) + 512 * j.val + 16384) - 16384 * ((xn c).val % 2)
def StepsEdge_oLen : Unit ⊕ (Fin 16 ⊕ Fin 16) → ℕ
  | .inl _ => 16384
  | .inr _ => 512
def StepsEdge_oSet (c : Dev nD) : Unit ⊕ (Fin 16 ⊕ Fin 16) → Finset (Idx ((c : Thread nD τ).loc main_v1))
  | .inl _ => (ownM c).view.set
  | .inr (.inl j) => (fwM c j).view.set
  | .inr (.inr j) => (fwM (xn c) j).view.set

/-- the result array its own block and the thirty-two chunks the neighbours fill. -/
theorem StepsEdge_cut_o (c : Dev nD) (q : PosShare TreeShare) (f : Buf (Elt F) ((c : Thread nD τ).loc main_v1)) :
    (((c : Thread nD τ).loc main_v1) ↦{q} f : sProp 𝕄)
      = iprop(((ownM c).view.loc (c : Thread nD τ) ↦[(ownM c).view.set]{q} f)
          ∗ (bigSep Finset.univ fun j : Fin 16 => (fwM c j).view.loc (c : Thread nD τ) ↦[(fwM c j).view.set]{q} f)
          ∗ (bigSep Finset.univ fun j : Fin 16 => (fwM (xn c) j).view.loc (c : Thread nD τ) ↦[(fwM (xn c) j).view.set]{q} f)) := by
  have hc4 : c.val < 4 := c.isLt
  have h2 : c.val / 2 = 0 ∨ c.val / 2 = 1 := by omega
  have hm : c.val % 2 = 0 ∨ c.val % 2 = 1 := by omega
  have hx2 : (xn c).val / 2 = 1 - c.val / 2 := StepsEdge_xn_div c
  have hxm : (xn c).val % 2 = c.val % 2 := StepsEdge_xn_mod c
  have hmem : ∀ t x, x ∈ StepsEdge_oSet c t ↔ StepsEdge_oLo c t ≤ (x 0).val ∧ (x 0).val < StepsEdge_oLo c t + StepsEdge_oLen t := by
    rintro (u | j | j) x
    · exact StepsEdge_mem_ownM c x
    · exact StepsEdge_mem_fwM c j x
    · exact StepsEdge_mem_fwM (xn c) j x
  have hd : ∀ t t', t ≠ t' → StepsEdge_oLo c t + StepsEdge_oLen t ≤ StepsEdge_oLo c t' ∨ StepsEdge_oLo c t' + StepsEdge_oLen t' ≤ StepsEdge_oLo c t := by
    rintro (u | j | j) (u' | j' | j') hne
    · exact absurd rfl hne
    · have := j'.isLt; simp only [StepsEdge_oLo, StepsEdge_oLen, hx2, hxm]; rcases h2 with h2 | h2 <;> rcases hm with hm | hm <;> simp only [h2, hm] <;> omega
    · have := j'.isLt; simp only [StepsEdge_oLo, StepsEdge_oLen, hx2, hxm]; rcases h2 with h2 | h2 <;> rcases hm with hm | hm <;> simp only [h2, hm] <;> omega
    · have := j.isLt; simp only [StepsEdge_oLo, StepsEdge_oLen, hx2, hxm]; rcases h2 with h2 | h2 <;> rcases hm with hm | hm <;> simp only [h2, hm] <;> omega
    · have := j.isLt; have := j'.isLt
      have hn : j.val ≠ j'.val := fun e => hne (by rw [Fin.ext e])
      simp only [StepsEdge_oLo, StepsEdge_oLen, hx2, hxm]; rcases h2 with h2 | h2 <;> rcases hm with hm | hm <;> simp only [h2, hm] <;> omega
    · have := j.isLt; have := j'.isLt; simp only [StepsEdge_oLo, StepsEdge_oLen, hx2, hxm]; rcases h2 with h2 | h2 <;> rcases hm with hm | hm <;> simp only [h2, hm] <;> omega
    · have := j.isLt; simp only [StepsEdge_oLo, StepsEdge_oLen, hx2, hxm]; rcases h2 with h2 | h2 <;> rcases hm with hm | hm <;> simp only [h2, hm] <;> omega
    · have := j.isLt; have := j'.isLt; simp only [StepsEdge_oLo, StepsEdge_oLen, hx2, hxm]; rcases h2 with h2 | h2 <;> rcases hm with hm | hm <;> simp only [h2, hm] <;> omega
    · have := j.isLt; have := j'.isLt
      have hn : j.val ≠ j'.val := fun e => hne (by rw [Fin.ext e])
      simp only [StepsEdge_oLo, StepsEdge_oLen, hx2, hxm]; rcases h2 with h2 | h2 <;> rcases hm with hm | hm <;> simp only [h2, hm] <;> omega
  have hc : ∀ x : Idx ((c : Thread nD τ).loc main_v1), ∃ t, StepsEdge_oLo c t ≤ (x 0).val ∧ (x 0).val < StepsEdge_oLo c t + StepsEdge_oLen t := by
    intro x
    have hr : (x 0).val < 32768 := (x 0).isLt
    by_cases k1 : (x 0).val / 16384 = c.val % 2
    · refine ⟨.inl (), ?_⟩; simp only [StepsEdge_oLo, StepsEdge_oLen, hx2, hxm]; rcases h2 with h2 | h2 <;> rcases hm with hm | hm <;> simp only [h2, hm] <;> omega
    · by_cases k2 : ((x 0).val % 16384) / 8192 = c.val / 2
      · refine ⟨.inr (.inl ⟨((x 0).val % 8192) / 512, by omega⟩), ?_⟩; simp only [StepsEdge_oLo, StepsEdge_oLen, hx2, hxm]; rcases h2 with h2 | h2 <;> rcases hm with hm | hm <;> simp only [h2, hm] <;> omega
      · refine ⟨.inr (.inr ⟨((x 0).val % 8192) / 512, by omega⟩), ?_⟩; simp only [StepsEdge_oLo, StepsEdge_oLen, hx2, hxm]; rcases h2 with h2 | h2 <;> rcases hm with hm | hm <;> simp only [h2, hm] <;> omega
  rw [pointsTo_bands (ℓ := (c : Thread nD τ).loc main_v1) (StepsEdge_oSet c) (fun x => (x 0).val) (StepsEdge_oLo c) StepsEdge_oLen
      hmem hd hc q f, bigSep_univ_sum, bigSep_univ_sum, bigSep_univ_of_subsingleton ()]
  rfl

/-! ## The ghost state's products, strand by strand -/

/-- The cells of one device, kind by kind. -/
def StepsEdge_kindE : (Unit ⊕ Unit ⊕ Fin 2 ⊕ Unit ⊕ Fin 16 ⊕ Fin 16 ⊕ Fin 16 ⊕ Fin 16) ≃ Kind where
  toFun
    | .inl _ => .bar
    | .inr (.inl _) => .exit
    | .inr (.inr (.inl s)) => .ld s
    | .inr (.inr (.inr (.inl _))) => .st
    | .inr (.inr (.inr (.inr (.inl j)))) => .ysend j
    | .inr (.inr (.inr (.inr (.inr (.inl j))))) => .yrecv j
    | .inr (.inr (.inr (.inr (.inr (.inr (.inl j)))))) => .xsend j
    | .inr (.inr (.inr (.inr (.inr (.inr (.inr j)))))) => .xrecv j
  invFun
    | .bar => .inl ()
    | .exit => .inr (.inl ())
    | .ld s => .inr (.inr (.inl s))
    | .st => .inr (.inr (.inr (.inl ())))
    | .ysend j => .inr (.inr (.inr (.inr (.inl j))))
    | .yrecv j => .inr (.inr (.inr (.inr (.inr (.inl j)))))
    | .xsend j => .inr (.inr (.inr (.inr (.inr (.inr (.inl j))))))
    | .xrecv j => .inr (.inr (.inr (.inr (.inr (.inr (.inr j))))))
  left_inv := by rintro (_ | _ | _ | _ | _ | _ | _ | _) <;> rfl
  right_inv := by intro k; cases k <;> rfl

/-- A product over a device's cells is the product of its kinds' products. -/
theorem StepsEdge_kinds (Φ : Kind → sProp 𝕄) :
    bigSep Finset.univ Φ
      = iprop(Φ .bar ∗ Φ .exit ∗ (bigSep Finset.univ fun s : Fin 2 => Φ (.ld s)) ∗ Φ .st
          ∗ (bigSep Finset.univ fun j : Fin 16 => Φ (.ysend j)) ∗ (bigSep Finset.univ fun j : Fin 16 => Φ (.yrecv j))
          ∗ (bigSep Finset.univ fun j : Fin 16 => Φ (.xsend j)) ∗ (bigSep Finset.univ fun j : Fin 16 => Φ (.xrecv j))) := by
  rw [bigSep_univ_equiv StepsEdge_kindE, bigSep_univ_sum, bigSep_univ_sum, bigSep_univ_sum, bigSep_univ_sum, bigSep_univ_sum,
    bigSep_univ_sum, bigSep_univ_sum, bigSep_univ_of_subsingleton (), bigSep_univ_of_subsingleton (), bigSep_univ_of_subsingleton ()]
  rfl

/-- The thirty-two loads in the order they are issued are the sixteen rounds of the two slots. -/
def StepsEdge_ldE : Fin 32 ≃ Fin 2 × Fin 16 where
  toFun i := (sOf i, ⟨rOf i, by have := i.isLt; unfold rOf; omega⟩)
  invFun sr := ⟨2 * sr.2.val + sr.1.val, by have := sr.1.isLt; have := sr.2.isLt; omega⟩
  left_inv i := Fin.ext (by show 2 * (i.val / 2) + i.val % 2 = i.val; omega)
  right_inv sr := Prod.ext (Fin.ext (by have := sr.1.isLt; show (2 * sr.2.val + sr.1.val) % 2 = sr.1.val; omega))
    (Fin.ext (by have := sr.1.isLt; show (2 * sr.2.val + sr.1.val) / 2 = sr.2.val; omega))

theorem StepsEdge_ldToks (c : Dev nD) :
    (bigSep Finset.univ fun sr : Fin 2 × Fin 16 => dutyTok ER (ldCell c sr.1) sr.2.val false : sProp 𝕄)
      = bigSep (ge32 0) fun i => dutyTok ER (ldCell c (sOf i)) (rOf i) false := by
  rw [ge32_zero, bigSep_univ_equiv StepsEdge_ldE]
  rfl

/-- A product over the two slots. -/
theorem StepsEdge_fin_two (Φ : Fin 2 → sProp 𝕄) : bigSep Finset.univ Φ = iprop(Φ 0 ∗ Φ 1) := bigSep_fin_two Φ

/-! ## The strands at their starts -/

theorem StepsEdge_positions (c : Dev nD) :
    (positions c : sProp 𝕄)
      = iprop(atPos ER (barCell c) 0 ∅ 0 ∗ atPos ER (exitCell c) 0 ∅ 0
          ∗ (bigSep Finset.univ fun s : Fin 2 => atPos ER (ldCell c s) 0 ∅ 0) ∗ atPos ER (stCell c) 0 ∅ 0
          ∗ (bigSep Finset.univ fun j : Fin 16 => atPos ER (ysendCell c j) 0 ∅ 0)
          ∗ (bigSep Finset.univ fun j : Fin 16 => atPos ER (yrecvCell c j) 0 ∅ 0)
          ∗ (bigSep Finset.univ fun j : Fin 16 => atPos ER (xsendCell c j) 0 ∅ 0)
          ∗ (bigSep Finset.univ fun j : Fin 16 => atPos ER (xrecvCell c j) 0 ∅ 0)) := by
  unfold positions
  rw [StepsEdge_kinds]
  rfl

theorem StepsEdge_StBar_start (c : Dev nD) :
    (StBar c 0 : sProp 𝕄) = iprop(dutyTok ER (barCell (yn c)) 0 false ∗ dutyTok ER (barCell (xn c)) 0 true
      ∗ (atPos ER (barCell c) 0 ∅ 0 ∗ cred (tallyAt (barCell c) () 2))) := by
  unfold StBar; rw [if_pos (by decide), if_pos (by decide), if_pos (by decide)]
theorem StepsEdge_StExit_start (c : Dev nD) :
    (StExit c 0 : sProp 𝕄) = iprop(dutyTok ER (exitCell (yn c)) 0 false ∗ dutyTok ER (exitCell (xn c)) 0 true
      ∗ (atPos ER (exitCell c) 0 ∅ 0 ∗ cred (tallyAt (exitCell c) () 2))) := by
  unfold StExit; rw [if_pos (by decide), if_pos (by decide), if_pos (by decide)]

theorem StepsEdge_wcount_zero (s : Fin 2) : wcount 0 s = 0 := by have := s.isLt; unfold wcount; omega

theorem StepsEdge_StLd_start (c : Dev nD) (fv : Buf (Elt F) ((c : Thread nD τ).loc cc0_scratch1)) :
    StLd m c fv 0 0
      = iprop((bigSep (ge32 0) fun i => dutyTok ER (ldCell c (sOf i)) (rOf i) false)
        ∗ (bigSep Finset.univ fun i : Fin 32 =>
            (ldSrc c (hOf i) (jOf i)).view.loc (c : Thread nD τ) ↦[(ldSrc c (hOf i) (jOf i)).view.set]{fullShare} m ((c : Thread nD τ).loc main_arg0))
        ∗ emp
        ∗ ((bigSep Finset.univ fun s : Fin 2 => atPos ER (ldCell c s) 0 ∅ 0)
          ∗ (bigSep Finset.univ fun s : Fin 2 => reached ER (ldCell c s) 0)
          ∗ (bigSep Finset.univ fun s : Fin 2 => (vslot s).view.loc (c : Thread nD τ) ↦[(vslot s).view.set]{fullShare} fv))) := by
  have h1 : (Finset.univ.filter fun i : Fin 32 => i.val < 0 ∨ 0 ≤ i.val) = Finset.univ :=
    Finset.filter_true_of_mem fun i _ => Or.inr (Nat.zero_le _)
  have h2 : (Finset.univ.filter fun i : Fin 32 => 0 ≤ i.val ∧ i.val < 0) = ∅ :=
    Finset.filter_false_of_mem fun i _ h => Nat.not_lt_zero _ h.2
  have hX : (bigSep Finset.univ fun s : Fin 2 => iprop(atPos ER (ldCell c s) (wcount 0 s) ∅ 0 ∗ reached ER (ldCell c s) (wcount 0 s)
        ∗ (if wcount 0 s = wcount 0 s then
            ((vslot s).view.loc (c : Thread nD τ) ↦[(vslot s).view.set]{fullShare} slotC m c fv 0 s) else iprop(emp))))
      = iprop((bigSep Finset.univ fun s : Fin 2 => atPos ER (ldCell c s) 0 ∅ 0)
          ∗ (bigSep Finset.univ fun s : Fin 2 => reached ER (ldCell c s) 0)
          ∗ (bigSep Finset.univ fun s : Fin 2 => (vslot s).view.loc (c : Thread nD τ) ↦[(vslot s).view.set]{fullShare} fv)) := by
    refine (bigSep_congr fun s _ => ?_).trans ((bigSep_sep _ _ _).trans (congrArg (BI.sep _) (bigSep_sep _ _ _)))
    rw [if_pos rfl, StepsEdge_wcount_zero s]
    unfold slotC
    rw [dif_pos (StepsEdge_wcount_zero s)]
    rfl
  unfold StLd
  rw [h1, h2, bigSep_empty, hX]
  rfl

theorem StepsEdge_StVs_start (c : Dev nD) (fs : Buf (Elt F) ((c : Thread nD τ).loc cc0_scratch0)) :
    StVs m c fs 0 0 0 0 = bigSep Finset.univ fun i : Fin 32 => vsM.view.loc (c : Thread nD τ) ↦[vsSet c i]{fullShare} fs := by
  show (bigSep Finset.univ fun i : Fin 32 =>
      (vsM.view.loc (c : Thread nD τ) ↦[vsSet c i]{if i.val < 0 then fullShare.right else fullShare} (if i.val < 0 then VS m c else fs))) = _
  refine bigSep_congr fun i _ => ?_
  rw [if_neg (Nat.not_lt_zero _), if_neg (Nat.not_lt_zero _)]

theorem StepsEdge_sendCells_start (cell : Fin 16 → GSem nD τ sig) :
    (sendCells cell 0 0 : sProp 𝕄) = bigSep Finset.univ fun j : Fin 16 => atPos ER (cell j) 0 ∅ 0 := by
  unfold sendCells
  refine bigSep_congr fun j _ => ?_
  rw [if_neg (Nat.not_lt_zero _), if_neg (Nat.not_lt_zero _)]
theorem StepsEdge_recvCells_start (cell : Fin 16 → GSem nD τ sig) :
    (recvCells cell 0 : sProp 𝕄) = iprop((bigSep Finset.univ fun j : Fin 16 => atPos ER (cell j) 0 ∅ 0)
      ∗ (bigSep Finset.univ fun j : Fin 16 => cred (tallyAt (cell j) () N))) := by
  unfold recvCells
  refine (bigSep_congr fun j _ => ?_).trans (bigSep_sep _ _ _)
  rw [if_neg (Nat.not_lt_zero _)]
  rfl

theorem StepsEdge_StYtok_start (c : Dev nD) :
    (StYtok c 0 : sProp 𝕄) = iprop((bigSep Finset.univ fun j : Fin 16 => dutyTok ER (yrecvCell (yn c) j) 0 false)
      ∗ (bigSep Finset.univ fun j : Fin 16 => dutyTok ER (ysendCell c j) 0 false)) := by
  unfold StYtok; rw [ge16_zero]; exact bigSep_sep _ _ _
theorem StepsEdge_StFtok_start (c : Dev nD) :
    (StFtok c 0 : sProp 𝕄) = iprop((bigSep Finset.univ fun j : Fin 16 => dutyTok ER (xrecvCell (xn c) j) 0 false)
      ∗ (bigSep Finset.univ fun j : Fin 16 => dutyTok ER (xsendCell c j) 0 false)) := by
  unfold StFtok; rw [ge16_zero]; exact bigSep_sep _ _ _

theorem StepsEdge_StSt_start (c : Dev nD) (fo : Buf (Elt F) ((c : Thread nD τ).loc main_v1)) :
    StSt m c fo 0 = iprop(dutyTok ER (stCell c) 0 false ∗ atPos ER (stCell c) 0 ∅ 0
      ∗ ((ownM c).view.loc (c : Thread nD τ) ↦[(ownM c).view.set]{fullShare} fo)) := rfl
theorem StepsEdge_StB_start (c : Dev nD) (fo : Buf (Elt F) ((c : Thread nD τ).loc main_v1)) (a b d : ℕ) :
    StB m c fo false a b d
      = bigSep Finset.univ fun j : Fin 16 => ((fwM c j).view.loc (c : Thread nD τ) ↦[(fwM c j).view.set]{fullShare} fo) := rfl
theorem StepsEdge_StC_start (c : Dev nD) (fo : Buf (Elt F) ((c : Thread nD τ).loc main_v1)) (a : ℕ) :
    StC m c fo false a
      = bigSep Finset.univ fun j : Fin 16 => ((fwM (xn c) j).view.loc (c : Thread nD τ) ↦[(fwM (xn c) j).view.set]{fullShare} fo) := rfl

/-- The record holds every cell's invariant and that it has reached round 0. -/
theorem StepsEdge_records_reached (K : Dev nD × Kind → ℕ) (ck : Dev nD × Kind) : records m K ⊢ reached ER (cellAt ck) 0 :=
  Laws.sep_and.trans (and_elimR.trans (bigSep_elim (Finset.mem_univ ck)))
theorem StepsEdge_records_inv (K : Dev nD × Kind → ℕ) (ck : Dev nD × Kind) :
    records m K ⊢ cellInv ER (sched m) (K ck) (cellAt ck) :=
  Laws.sep_and.trans (and_elimL.trans (bigSep_elim (Finset.mem_univ ck)))
theorem StepsEdge_reached_ld (K : Dev nD × Kind → ℕ) (c : Dev nD) (s : Fin 2) : records m K ⊢ reached ER (ldCell c s) 0 :=
  StepsEdge_records_reached m K (c, .ld s)
theorem StepsEdge_inv_ld (K : Dev nD × Kind → ℕ) (c : Dev nD) (s : Fin 2) :
    records m K ⊢ cellInv ER (sched m) (K (c, .ld s)) (ldCell c s) :=
  StepsEdge_records_inv m K (c, .ld s)

/-- The launch's state with its existentials opened, cut into the strands at their starts. -/
theorem StepsEdge_init_aux (K : Dev nD × Kind → ℕ) (c : Dev nD)
    (fv : Buf (Elt F) ((c : Thread nD τ).loc cc0_scratch1)) (fs : Buf (Elt F) ((c : Thread nD τ).loc cc0_scratch0))
    (W : Waits sig Unit) :
    iprop(ghost m K c ∗ creds c ∗ levAts L lv
        ∗ (((c : Thread nD τ).loc main_arg0) ↦{fullShare} m ((c : Thread nD τ).loc main_arg0))
        ∗ (((c : Thread nD τ).loc main_v1) ↦{fullShare} m ((c : Thread nD τ).loc main_v1))
        ∗ (((c : Thread nD τ).loc cc0_scratch0) ↦{fullShare} fs)
        ∗ (((c : Thread nD τ).loc cc0_scratch1) ↦{fullShare} fv)
        ∗ owes (c : Thread nD τ) (O₀ c) W)
      ⊢ iprop(Pers m K ∗ StBar c 0 ∗ StExit c 0 ∗ StLd m c fv 0 0 ∗ StVs m c fs 0 0 0 0
          ∗ StYtok c 0 ∗ sendCells (ysendCell c) 0 0 ∗ recvCells (yrecvCell c) 0
          ∗ StFtok c 0 ∗ sendCells (xsendCell c) 0 0 ∗ recvCells (xrecvCell c) 0
          ∗ StB m c (m ((c : Thread nD τ).loc main_v1)) false 0 0 0 ∗ StC m c (m ((c : Thread nD τ).loc main_v1)) false 0
          ∗ StSt m c (m ((c : Thread nD τ).loc main_v1)) 0 ∗ Ow c (owedAt c 0 0 0 0)) := by
  unfold ghost creds payToks
  rw [StepsEdge_positions, StepsEdge_ldToks, StepsEdge_cut_x c fullShare, StepsEdge_cut_o c fullShare,
    StepsEdge_cut_vs c fullShare fs, StepsEdge_cut_vl c fullShare fv, O₀_eq,
    StepsEdge_StBar_start, StepsEdge_StExit_start, StepsEdge_StLd_start, StepsEdge_StVs_start, StepsEdge_StYtok_start,
    StepsEdge_sendCells_start, StepsEdge_recvCells_start, StepsEdge_StFtok_start, StepsEdge_sendCells_start,
    StepsEdge_recvCells_start, StepsEdge_StB_start, StepsEdge_StC_start, StepsEdge_StSt_start,
    StepsEdge_fin_two (fun s : Fin 2 => reached ER (ldCell c s) 0)]
  unfold Pers Ow
  iintro ⟨⟨#Hrec, ⟨Pbar, Pexit, Pld, Pst, Pys, Pyr, Pxs, Pxr⟩, Hby, Hbx, Hey, Hex, Hyr, Hxr, Hys, Hxs, Hld, Hst⟩, ⟨Hcb, Hce, Hcy, Hcx⟩, #Hlev, Hx, ⟨Hown, HB, HC⟩, Hs, Hv, Hw⟩
  ihave #R0 := (StepsEdge_reached_ld m K c 0) $$ Hrec
  ihave #R1 := (StepsEdge_reached_ld m K c 1) $$ Hrec
  iframe
  isplitr
  · isplitr
    · iexact Hrec
    · iexact Hlev
  isplitr
  · isplitr
    · iexact R0
    · iexact R1
  iexists W
  iexact Hw

/-! ## The strands at their ends -/

theorem StepsEdge_StExit_end (c : Dev nD) :
    (StExit c 3 : sProp 𝕄) = iprop(emp ∗ emp ∗ semVal (exitCell c) 0) := by
  unfold StExit; rw [if_neg (by decide), if_neg (by decide), if_neg (by decide)]

theorem StepsEdge_wcount_end (s : Fin 2) : wcount 32 s = 16 := by have := s.isLt; unfold wcount; omega

theorem StepsEdge_StLd_end (c : Dev nD) (fv : Buf (Elt F) ((c : Thread nD τ).loc cc0_scratch1)) :
    StLd m c fv 32 32
      = iprop(emp
        ∗ (bigSep Finset.univ fun i : Fin 32 =>
            (ldSrc c (hOf i) (jOf i)).view.loc (c : Thread nD τ) ↦[(ldSrc c (hOf i) (jOf i)).view.set]{fullShare} m ((c : Thread nD τ).loc main_arg0))
        ∗ emp
        ∗ ((bigSep Finset.univ fun s : Fin 2 => atPos ER (ldCell c s) 16 ∅ 0)
          ∗ (bigSep Finset.univ fun s : Fin 2 => reached ER (ldCell c s) 16)
          ∗ (bigSep Finset.univ fun s : Fin 2 =>
              (vslot s).view.loc (c : Thread nD τ) ↦[(vslot s).view.set]{fullShare} slotC m c fv 32 s))) := by
  have h1 : (Finset.univ.filter fun i : Fin 32 => i.val < 32 ∨ 32 ≤ i.val) = Finset.univ :=
    Finset.filter_true_of_mem fun i _ => Or.inl i.isLt
  have h2 : (Finset.univ.filter fun i : Fin 32 => 32 ≤ i.val ∧ i.val < 32) = ∅ :=
    Finset.filter_false_of_mem fun i _ h => (Nat.not_lt.mpr h.1) h.2
  have hX : (bigSep Finset.univ fun s : Fin 2 => iprop(atPos ER (ldCell c s) (wcount 32 s) ∅ 0 ∗ reached ER (ldCell c s) (wcount 32 s)
        ∗ (if wcount 32 s = wcount 32 s then
            ((vslot s).view.loc (c : Thread nD τ) ↦[(vslot s).view.set]{fullShare} slotC m c fv 32 s) else iprop(emp))))
      = iprop((bigSep Finset.univ fun s : Fin 2 => atPos ER (ldCell c s) 16 ∅ 0)
          ∗ (bigSep Finset.univ fun s : Fin 2 => reached ER (ldCell c s) 16)
          ∗ (bigSep Finset.univ fun s : Fin 2 =>
              (vslot s).view.loc (c : Thread nD τ) ↦[(vslot s).view.set]{fullShare} slotC m c fv 32 s)) := by
    refine (bigSep_congr fun s _ => ?_).trans ((bigSep_sep _ _ _).trans (congrArg (BI.sep _) (bigSep_sep _ _ _)))
    rw [if_pos rfl, StepsEdge_wcount_end s]
    rfl
  unfold StLd
  rw [ge32_thirtytwo, h1, h2, bigSep_empty, bigSep_empty, hX]
  rfl

theorem StepsEdge_StVs_end (c : Dev nD) (fs : Buf (Elt F) ((c : Thread nD τ).loc cc0_scratch0)) :
    StVs m c fs 2 32 16 16
      = iprop((bigSep Finset.univ fun i : Fin 32 => vsM.view.loc (c : Thread nD τ) ↦[vsSet c i]{fullShare.left} VS m c)
          ∗ (((c : Thread nD τ).loc cc0_scratch0) ↦{fullShare.right} VS m c)) := by
  have h1 : (Finset.univ.filter fun i : Fin 32 => 16 ≤ i.val ∨ i.val < 16) = Finset.univ :=
    Finset.filter_true_of_mem fun i _ => by omega
  show iprop((bigSep (Finset.univ.filter fun i : Fin 32 => 16 ≤ i.val ∨ i.val < 16) fun i =>
      (vsM.view.loc (c : Thread nD τ) ↦[vsSet c i]{fullShare.left} VS m c))
      ∗ (vsM.view.loc (c : Thread nD τ) ↦[vsM.view.set]{fullShare.right} VS m c)) = _
  rw [h1, show (vsM : Memref sig .tc .vmem S16384x1024 .bf16).view.set = Finset.univ from View.set_whole cc0_scratch0]

theorem StepsEdge_sendCells_end (cell : Fin 16 → GSem nD τ sig) :
    (sendCells cell 16 16 : sProp 𝕄) = bigSep Finset.univ fun j : Fin 16 => semVal (cell j) 0 := by
  unfold sendCells; exact bigSep_congr fun j _ => if_pos j.isLt
theorem StepsEdge_recvCells_end (cell : Fin 16 → GSem nD τ sig) :
    (recvCells cell 16 : sProp 𝕄) = bigSep Finset.univ fun j : Fin 16 => semVal (cell j) 0 := by
  unfold recvCells; exact bigSep_congr fun j _ => if_pos j.isLt

theorem StepsEdge_StB_end (c : Dev nD) (fo : Buf (Elt F) ((c : Thread nD τ).loc main_v1)) :
    StB m c fo true 16 16 16
      = bigSep Finset.univ fun j : Fin 16 => ((fwM c j).view.loc (c : Thread nD τ) ↦[(fwM c j).view.set]{fullShare} OUT m c) := by
  show (bigSep Finset.univ fun j : Fin 16 => if j.val < 16 ∨ (16 ≤ j.val ∧ j.val < 16) then
      ((fwM c j).view.loc (c : Thread nD τ) ↦[(fwM c j).view.set]{fullShare} OUT m c) else iprop(emp)) = _
  exact bigSep_congr fun j _ => if_pos (Or.inl j.isLt)
theorem StepsEdge_StC_end (c : Dev nD) (fo : Buf (Elt F) ((c : Thread nD τ).loc main_v1)) :
    StC m c fo true 16
      = bigSep Finset.univ fun j : Fin 16 => ((fwM (xn c) j).view.loc (c : Thread nD τ) ↦[(fwM (xn c) j).view.set]{fullShare} OUT m c) := by
  show (bigSep (lt16 16) fun j : Fin 16 =>
      ((fwM (xn c) j).view.loc (c : Thread nD τ) ↦[(fwM (xn c) j).view.set]{fullShare} OUT m c)) = _
  rw [lt16_sixteen]
theorem StepsEdge_StSt_end (c : Dev nD) (fo : Buf (Elt F) ((c : Thread nD τ).loc main_v1)) :
    StSt m c fo 2 = iprop(semVal (stCell c) 0 ∗ ((ownM c).view.loc (c : Thread nD τ) ↦[(ownM c).view.set]{fullShare} OUT m c)) := rfl

/-! ## Joining the pieces -/

/-- Bands of rows held at whatever contents join to the whole buffer at some contents. -/
theorem StepsEdge_pointsTo_bands_join {ℓ : Loc nD τ sig} {T : Type} [DecidableEq T] [Fintype T] (K : T → Finset (Idx ℓ))
    (row : Idx ℓ → ℕ) (lo len : T → ℕ)
    (hmem : ∀ t x, x ∈ K t ↔ lo t ≤ row x ∧ row x < lo t + len t)
    (hd : ∀ t t', t ≠ t' → lo t + len t ≤ lo t' ∨ lo t' + len t' ≤ lo t)
    (hc : ∀ x, ∃ t, lo t ≤ row x ∧ row x < lo t + len t)
    (q : PosShare TreeShare) (fs : T → Buf (Elt F) ℓ) (f₀ : Buf (Elt F) ℓ) :
    (bigSep Finset.univ fun t => ℓ ↦[K t]{q} fs t) ⊢ (iprop(∃ g, ℓ ↦{q} g) : sProp 𝕄) := by
  have hu : (Finset.univ : Finset (Idx ℓ)) = Finset.univ.biUnion K := by
    ext x
    simp only [Finset.mem_univ, Finset.mem_biUnion, true_and, true_iff]
    obtain ⟨t, ht⟩ := hc x
    exact ⟨t, (hmem t x).mpr ht⟩
  have hdis : ∀ t ∈ (Finset.univ : Finset T), ∀ t' ∈ (Finset.univ : Finset T), t ≠ t' → Disjoint (K t) (K t') := by
    intro t _ t' _ hne
    refine Finset.disjoint_left.mpr fun x hx hx' => ?_
    have h1 := (hmem t x).mp hx
    have h2 := (hmem t' x).mp hx'
    rcases hd t t' hne with h | h <;> omega
  have h : (bigSep Finset.univ (fun t => ℓ ↦[K t]{q} fs t)
      ⊢ (iprop(∃ g, ⌜∀ t ∈ Finset.univ, ∀ i ∈ K t, g i = fs t i⌝ ∗ ℓ ↦[Finset.univ.biUnion K]{q} g) : sProp 𝕄)) :=
    pointsTo_biUnion_join Finset.univ K fs f₀ hdis
  rw [← hu] at h
  refine h.trans ?_
  iintro ⟨%g, %hg, H⟩
  iexists g
  iexact H

theorem StepsEdge_join_vl (c : Dev nD) (g : Fin 2 → Buf (Elt F) ((c : Thread nD τ).loc cc0_scratch1)) :
    (bigSep Finset.univ fun s : Fin 2 => (vslot s).view.loc (c : Thread nD τ) ↦[(vslot s).view.set]{fullShare} g s)
      ⊢ (iprop(∃ f : Buf (Elt F) ((c : Thread nD τ).loc cc0_scratch1), ((c : Thread nD τ).loc cc0_scratch1) ↦{fullShare} f) : sProp 𝕄) :=
  StepsEdge_pointsTo_bands_join (ℓ := (c : Thread nD τ).loc cc0_scratch1) (fun s : Fin 2 => (vslot s).view.set)
    (fun x => (x 0).val) (fun s => s.val) (fun _ => 1)
    (fun s x => StepsEdge_mem_vslot s x) (fun s s' h => by have : s.val ≠ s'.val := fun e => h (Fin.ext e); omega)
    (fun x => ⟨⟨(x 0).val, (x 0).isLt⟩, by show (x 0).val ≤ (x 0).val ∧ (x 0).val < (x 0).val + 1; omega⟩) fullShare g (g 0)

theorem StepsEdge_join_vs (c : Dev nD) :
    iprop((bigSep Finset.univ fun i : Fin 32 => vsM.view.loc (c : Thread nD τ) ↦[vsSet c i]{fullShare.left} VS m c)
        ∗ (((c : Thread nD τ).loc cc0_scratch0) ↦{fullShare.right} VS m c))
      ⊢ (((c : Thread nD τ).loc cc0_scratch0) ↦{fullShare} VS m c : sProp 𝕄) := by
  rw [← StepsEdge_cut_vs c fullShare.left (VS m c)]
  exact (pointsTo_share (PosShare.mem_left_op_right fullShare)).2

theorem StepsEdge_kindOf_ld (s : Fin 2) : kindOf (.dma (lsemS s)) = some (.ld s) := by
  have h : (lsemS s).val < 2 := s.isLt
  show (if h : (lsemS s).val < 2 then some (Kind.ld ⟨(lsemS s).val, h⟩) else _) = _
  rw [dif_pos h]; rfl
/-- A load slot's cell has no duty from round sixteen on. -/
theorem StepsEdge_duties_ld_later (c : Dev nD) (s : Fin 2) (r : ℕ) (hr : 16 ≤ r) :
    (sched (F := F) m).duties (ldCell c s) r = ∅ := by
  dsimp only [sched]; rw [if_pos rfl, StepsEdge_kindOf_ld]; exact if_neg (by omega)

section Steps

variable (K : Dev nD × Kind → ℕ) (c : Dev nD)
variable (fv : Buf (Elt F) ((c : Thread nD τ).loc cc0_scratch1)) (fs : Buf (Elt F) ((c : Thread nD τ).loc cc0_scratch0))
variable (fo : Buf (Elt F) ((c : Thread nD τ).loc main_v1))

local notation "WP" => wp frame (wpE (defs₀ (F := F)) 𝒱₀ (c : Thread nD τ) none) Set.univ

/-- From what the launch hands over to the strands at their starts. -/
theorem st_init (W : Waits sig Unit) :
    iprop(Φ₀ m c ∗ owes (c : Thread nD τ) (O₀ c) W)
      ⊢ iprop(∃ K fv fs, Pers m K ∗ StBar c 0 ∗ StExit c 0 ∗ StLd m c fv 0 0 ∗ StVs m c fs 0 0 0 0
          ∗ StYtok c 0 ∗ sendCells (ysendCell c) 0 0 ∗ recvCells (yrecvCell c) 0
          ∗ StFtok c 0 ∗ sendCells (xsendCell c) 0 0 ∗ recvCells (xrecvCell c) 0
          ∗ StB m c (m ((c : Thread nD τ).loc main_v1)) false 0 0 0 ∗ StC m c (m ((c : Thread nD τ).loc main_v1)) false 0
          ∗ StSt m c (m ((c : Thread nD τ).loc main_v1)) 0 ∗ Ow c (owedAt c 0 0 0 0)) := by
  unfold Φ₀ start scratchBufs
  iintro ⟨⟨⟨⟨%K, Hg⟩, Hc, Hlev, Hx, Ho⟩, ⟨%fs, Hs⟩, ⟨%fv, Hv⟩⟩, Hw⟩
  iexists K, fv, fs
  iapply (StepsEdge_init_aux m K c fv fs W)
  iframe

/-- From the strands at their ends to what the device hands back. -/
theorem st_final (n : ℕ) (hn : 2 ≤ n) :
    iprop(Pers m K ∗ StExit c 3 ∗ StLd m c fv 32 32 ∗ StVs m c fs 2 32 16 16
        ∗ sendCells (ysendCell c) 16 16 ∗ recvCells (yrecvCell c) 16 ∗ sendCells (xsendCell c) 16 16 ∗ recvCells (xrecvCell c) 16
        ∗ StB m c fo true 16 16 16 ∗ StC m c fo true 16 ∗ StSt m c fo 2 ∗ Ow c (owedAt c n 16 16 2))
      ⊢ iprop(|={Set.univ}=> (Φ₁ m c ∗ ∃ W', owes (c : Thread nD τ) 0 W')) := by
  rw [StepsEdge_StExit_end, StepsEdge_StLd_end, StepsEdge_StVs_end, StepsEdge_sendCells_end, StepsEdge_recvCells_end,
    StepsEdge_sendCells_end, StepsEdge_recvCells_end, StepsEdge_StB_end, StepsEdge_StC_end, StepsEdge_StSt_end,
    owedAt_done c n hn, StepsEdge_fin_two (fun s : Fin 2 => atPos ER (ldCell c s) 16 ∅ 0)]
  unfold Pers Ow Φ₁ closedSems scratchBufs
  iintro ⟨⟨#Hrec, #Hlev⟩, ⟨-, -, Hex⟩, ⟨-, Hx, -, ⟨Hat0, Hat1⟩, -, Hvl⟩, ⟨Hvs, Hvsr⟩, Hys, Hyr, Hxs, Hxr, HB, HC, ⟨Hst, Hown⟩, ⟨%W, Hw⟩⟩
  ihave #I0 := (StepsEdge_inv_ld m K c 0) $$ Hrec
  ihave #I1 := (StepsEdge_inv_ld m K c 1) $$ Hrec
  imod (Rounds.cell_close ER (sched m) (Set.mem_univ _) (fun h => h) (R := 16)
    (fun r hr => StepsEdge_duties_ld_later m c 0 r hr)) $$ [Hat0] with Hl0
  · isplitr
    · iexact I0
    · iexact Hat0
  imod (Rounds.cell_close ER (sched m) (Set.mem_univ _) (fun h => h) (R := 16)
    (fun r hr => StepsEdge_duties_ld_later m c 1 r hr)) $$ [Hat1] with Hl1
  · isplitr
    · iexact I1
    · iexact Hat1
  imodintro
  ihave Hxx := (Entails.of_eq (StepsEdge_cut_x c fullShare (m ((c : Thread nD τ).loc main_arg0))).symm) $$ Hx
  ihave Hoo := (Entails.of_eq (StepsEdge_cut_o c fullShare (OUT m c)).symm) $$ [Hown HB HC]
  · iframe
  ihave Hss := (StepsEdge_join_vs m c) $$ [Hvs Hvsr]
  · iframe
  ihave Hvv := (StepsEdge_join_vl c (fun s => slotC m c fv 32 s)) $$ Hvl
  icases Hvv with ⟨%g, Hvv⟩
  iframe
  isplitl [Hss Hvv]
  · isplitl [Hss]
    · iexists VS m c
      iexact Hss
    · iexists g
      iexact Hvv
  iexists W
  iexact Hw

end Steps

end Cert.KernelIdeal.AG

end

/-- info: 'Cert.KernelIdeal.AG.st_init' depends on axioms: [propext, Classical.choice, Quot.sound] -/
#guard_msgs in #print axioms Cert.KernelIdeal.AG.st_init

/-- info: 'Cert.KernelIdeal.AG.st_final' depends on axioms: [propext, Classical.choice, Quot.sound] -/
#guard_msgs in #print axioms Cert.KernelIdeal.AG.st_final
-- ==== Proof.Tables.lean ====
import proofs.«900094_g7700000000000095_dist_ag_v7x_xy2x2_y_m16384_n1024_bf16_1_alg».proof.Proof.Proto

/-!
# The schedule's tables and the waiting levels

Which of the protocol's cells each semaphore is, and the schedule read at each cell: its duties in each round, each
duty's amount, the units a round expects, each duty's payload, and the whole of a round's payloads. A load slot's cell
has sixteen rounds of one duty; every other cell the one round, the entry and the exit cell with two duties in it.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Which cell is which -/

theorem barS_ne_exitS : barS ≠ exitS := by decide
theorem exitS_ne_barS : exitS ≠ barS := by decide

theorem kindOf_reg (s : Sem sig) : kindOf (.reg s) = if s = barS then some .bar else if s = exitS then some .exit else none := rfl
theorem kindOf_dma (q : DmaSem sig) : kindOf (.dma q) =
    if h : q.val < 2 then some (.ld ⟨q.val, h⟩)
    else if q.val = 2 then some .st
    else if h : 3 ≤ q.val ∧ q.val < 19 then some (.ysend ⟨q.val - 3, by omega⟩)
    else if h : 19 ≤ q.val ∧ q.val < 35 then some (.yrecv ⟨q.val - 19, by omega⟩)
    else if h : 35 ≤ q.val ∧ q.val < 51 then some (.xsend ⟨q.val - 35, by omega⟩)
    else if h : 51 ≤ q.val ∧ q.val < 67 then some (.xrecv ⟨q.val - 51, by omega⟩)
    else none := rfl

theorem kindOf_bar : kindOf (.reg barS) = some .bar := by rw [kindOf_reg, if_pos rfl]
theorem kindOf_exit : kindOf (.reg exitS) = some .exit := by rw [kindOf_reg, if_neg exitS_ne_barS, if_pos rfl]

theorem kindOf_ld (s : Fin 2) : kindOf (.dma (lsemS s)) = some (.ld s) := by
  have h : (lsemS s).val < 2 := s.isLt
  rw [kindOf_dma, dif_pos h]; rfl
theorem kindOf_st : kindOf (.dma ssemS) = some .st := by
  have h : ¬ (ssemS.val < 2) := fun h => by change 2 < 2 at h; omega
  rw [kindOf_dma, dif_neg h, if_pos (show ssemS.val = 2 from rfl)]
theorem kindOf_ysend (j : Fin 16) : kindOf (.dma (ysendS j)) = some (.ysend j) := by
  have hj := j.isLt
  have ha : ¬ ((ysendS j).val < 2) := fun h => by change 3 + j.val < 2 at h; omega
  have hb : ¬ ((ysendS j).val = 2) := fun h => by change 3 + j.val = 2 at h; omega
  have h : 3 ≤ (ysendS j).val ∧ (ysendS j).val < 19 := ⟨by show 3 ≤ 3 + j.val; omega, by show 3 + j.val < 19; omega⟩
  rw [kindOf_dma, dif_neg ha, if_neg hb, dif_pos h]
  exact congrArg (fun i => some (Kind.ysend i)) (Fin.ext (show 3 + j.val - 3 = j.val from Nat.add_sub_cancel_left ..))
theorem kindOf_yrecv (j : Fin 16) : kindOf (.dma (yrecvS j)) = some (.yrecv j) := by
  have hj := j.isLt
  have ha : ¬ ((yrecvS j).val < 2) := fun h => by change 19 + j.val < 2 at h; omega
  have hb : ¬ ((yrecvS j).val = 2) := fun h => by change 19 + j.val = 2 at h; omega
  have h0 : ¬ (3 ≤ (yrecvS j).val ∧ (yrecvS j).val < 19) := fun h => by have := h.2; change 19 + j.val < 19 at this; omega
  have h : 19 ≤ (yrecvS j).val ∧ (yrecvS j).val < 35 := ⟨by show 19 ≤ 19 + j.val; omega, by show 19 + j.val < 35; omega⟩
  rw [kindOf_dma, dif_neg ha, if_neg hb, dif_neg h0, dif_pos h]
  exact congrArg (fun i => some (Kind.yrecv i)) (Fin.ext (show 19 + j.val - 19 = j.val from Nat.add_sub_cancel_left ..))
theorem kindOf_xsend (j : Fin 16) : kindOf (.dma (xsendS j)) = some (.xsend j) := by
  have hj := j.isLt
  have ha : ¬ ((xsendS j).val < 2) := fun h => by change 35 + j.val < 2 at h; omega
  have hb : ¬ ((xsendS j).val = 2) := fun h => by change 35 + j.val = 2 at h; omega
  have h0 : ¬ (3 ≤ (xsendS j).val ∧ (xsendS j).val < 19) := fun h => by have := h.2; change 35 + j.val < 19 at this; omega
  have h1 : ¬ (19 ≤ (xsendS j).val ∧ (xsendS j).val < 35) := fun h => by have := h.2; change 35 + j.val < 35 at this; omega
  have h : 35 ≤ (xsendS j).val ∧ (xsendS j).val < 51 := ⟨by show 35 ≤ 35 + j.val; omega, by show 35 + j.val < 51; omega⟩
  rw [kindOf_dma, dif_neg ha, if_neg hb, dif_neg h0, dif_neg h1, dif_pos h]
  exact congrArg (fun i => some (Kind.xsend i)) (Fin.ext (show 35 + j.val - 35 = j.val from Nat.add_sub_cancel_left ..))
theorem kindOf_xrecv (j : Fin 16) : kindOf (.dma (xrecvS j)) = some (.xrecv j) := by
  have hj := j.isLt
  have ha : ¬ ((xrecvS j).val < 2) := fun h => by change 51 + j.val < 2 at h; omega
  have hb : ¬ ((xrecvS j).val = 2) := fun h => by change 51 + j.val = 2 at h; omega
  have h0 : ¬ (3 ≤ (xrecvS j).val ∧ (xrecvS j).val < 19) := fun h => by have := h.2; change 51 + j.val < 19 at this; omega
  have h1 : ¬ (19 ≤ (xrecvS j).val ∧ (xrecvS j).val < 35) := fun h => by have := h.2; change 51 + j.val < 35 at this; omega
  have h2 : ¬ (35 ≤ (xrecvS j).val ∧ (xrecvS j).val < 51) := fun h => by have := h.2; change 51 + j.val < 51 at this; omega
  have h : 51 ≤ (xrecvS j).val ∧ (xrecvS j).val < 67 := ⟨by show 51 ≤ 51 + j.val; omega, by show 51 + j.val < 67; omega⟩
  rw [kindOf_dma, dif_neg ha, if_neg hb, dif_neg h0, dif_neg h1, dif_neg h2, dif_pos h]
  exact congrArg (fun i => some (Kind.xrecv i)) (Fin.ext (show 51 + j.val - 51 = j.val from Nat.add_sub_cancel_left ..))

/-- A cell's kind tells cells apart: two semaphores of different kinds differ. -/
theorem ne_of_kindOf_ne {a b : SemLoc sig} (h : kindOf a ≠ kindOf b) : a ≠ b := fun e => h (congrArg kindOf e)
/-- Every cell of the protocol is its kind's cell: the kind determines the semaphore. -/
theorem cellOfKind_kind (c : Dev nD) (k : Kind) : kindOf (cellOfKind c k).2 = some k := by
  cases k with
  | bar => exact kindOf_bar
  | exit => exact kindOf_exit
  | ld s => exact kindOf_ld s
  | st => exact kindOf_st
  | ysend j => exact kindOf_ysend j
  | yrecv j => exact kindOf_yrecv j
  | xsend j => exact kindOf_xsend j
  | xrecv j => exact kindOf_xrecv j

/-! ## The schedule at each cell -/

theorem duties_bar (m : (ℓ : Loc nD τ sig) → Buf (Elt F) ℓ) (c : Dev nD) : (sched (F := F) m).duties (barCell c) 0 = Finset.univ := by
  dsimp only [sched]; rw [if_pos rfl, kindOf_bar]; exact if_pos rfl
theorem duties_exit (m : (ℓ : Loc nD τ sig) → Buf (Elt F) ℓ) (c : Dev nD) : (sched (F := F) m).duties (exitCell c) 0 = Finset.univ := by
  dsimp only [sched]; rw [if_pos rfl, kindOf_exit]; exact if_pos rfl
theorem duties_ld (m : (ℓ : Loc nD τ sig) → Buf (Elt F) ℓ) (c : Dev nD) (s : Fin 2) (r : ℕ) (hr : r < 16) : (sched (F := F) m).duties (ldCell c s) r = {false} := by
  dsimp only [sched]; rw [if_pos rfl, kindOf_ld]; exact if_pos hr
theorem duties_ld_later (m : (ℓ : Loc nD τ sig) → Buf (Elt F) ℓ) (c : Dev nD) (s : Fin 2) (r : ℕ) (hr : 16 ≤ r) : (sched (F := F) m).duties (ldCell c s) r = ∅ := by
  dsimp only [sched]; rw [if_pos rfl, kindOf_ld]; exact if_neg (by omega)
theorem duties_st (m : (ℓ : Loc nD τ sig) → Buf (Elt F) ℓ) (c : Dev nD) : (sched (F := F) m).duties (stCell c) 0 = {false} := by
  dsimp only [sched]; rw [if_pos rfl, kindOf_st]; exact if_pos rfl
theorem duties_ysend (m : (ℓ : Loc nD τ sig) → Buf (Elt F) ℓ) (c : Dev nD) (j : Fin 16) : (sched (F := F) m).duties (ysendCell c j) 0 = {false} := by
  dsimp only [sched]; rw [if_pos rfl, kindOf_ysend]; exact if_pos rfl
theorem duties_yrecv (m : (ℓ : Loc nD τ sig) → Buf (Elt F) ℓ) (c : Dev nD) (j : Fin 16) : (sched (F := F) m).duties (yrecvCell c j) 0 = {false} := by
  dsimp only [sched]; rw [if_pos rfl, kindOf_yrecv]; exact if_pos rfl
theorem duties_xsend (m : (ℓ : Loc nD τ sig) → Buf (Elt F) ℓ) (c : Dev nD) (j : Fin 16) : (sched (F := F) m).duties (xsendCell c j) 0 = {false} := by
  dsimp only [sched]; rw [if_pos rfl, kindOf_xsend]; exact if_pos rfl
theorem duties_xrecv (m : (ℓ : Loc nD τ sig) → Buf (Elt F) ℓ) (c : Dev nD) (j : Fin 16) : (sched (F := F) m).duties (xrecvCell c j) 0 = {false} := by
  dsimp only [sched]; rw [if_pos rfl, kindOf_xrecv]; exact if_pos rfl
/-- Every cell but the load slots' has the one round. -/
theorem duties_later (m : (ℓ : Loc nD τ sig) → Buf (Elt F) ℓ) (g : GSem nD τ sig) (hg : ∀ s, kindOf g.2 ≠ some (.ld s)) (r : ℕ) (hr : 1 ≤ r) :
    (sched (F := F) m).duties g r = ∅ := by
  have h0 : ¬ r = 0 := by omega
  dsimp only [sched]
  split
  · split
    all_goals first | rfl | exact if_neg h0 | (rename_i s hs; exact absurd hs (hg s)) | trace_state
  · rfl
theorem duties_bar_later (m : (ℓ : Loc nD τ sig) → Buf (Elt F) ℓ) (c : Dev nD) (r : ℕ) (hr : 1 ≤ r) : (sched (F := F) m).duties (barCell c) r = ∅ :=
  duties_later m (barCell c) (fun s h => by rw [kindOf_bar] at h; cases h) r hr
theorem duties_exit_later (m : (ℓ : Loc nD τ sig) → Buf (Elt F) ℓ) (c : Dev nD) (r : ℕ) (hr : 1 ≤ r) : (sched (F := F) m).duties (exitCell c) r = ∅ :=
  duties_later m (exitCell c) (fun s h => by rw [kindOf_exit] at h; cases h) r hr
theorem duties_st_later (m : (ℓ : Loc nD τ sig) → Buf (Elt F) ℓ) (c : Dev nD) (r : ℕ) (hr : 1 ≤ r) : (sched (F := F) m).duties (stCell c) r = ∅ :=
  duties_later m (stCell c) (fun s h => by rw [kindOf_st] at h; cases h) r hr
theorem duties_ysend_later (m : (ℓ : Loc nD τ sig) → Buf (Elt F) ℓ) (c : Dev nD) (j : Fin 16) (r : ℕ) (hr : 1 ≤ r) : (sched (F := F) m).duties (ysendCell c j) r = ∅ :=
  duties_later m (ysendCell c j) (fun s h => by rw [kindOf_ysend] at h; cases h) r hr
theorem duties_yrecv_later (m : (ℓ : Loc nD τ sig) → Buf (Elt F) ℓ) (c : Dev nD) (j : Fin 16) (r : ℕ) (hr : 1 ≤ r) : (sched (F := F) m).duties (yrecvCell c j) r = ∅ :=
  duties_later m (yrecvCell c j) (fun s h => by rw [kindOf_yrecv] at h; cases h) r hr
theorem duties_xsend_later (m : (ℓ : Loc nD τ sig) → Buf (Elt F) ℓ) (c : Dev nD) (j : Fin 16) (r : ℕ) (hr : 1 ≤ r) : (sched (F := F) m).duties (xsendCell c j) r = ∅ :=
  duties_later m (xsendCell c j) (fun s h => by rw [kindOf_xsend] at h; cases h) r hr
theorem duties_xrecv_later (m : (ℓ : Loc nD τ sig) → Buf (Elt F) ℓ) (c : Dev nD) (j : Fin 16) (r : ℕ) (hr : 1 ≤ r) : (sched (F := F) m).duties (xrecvCell c j) r = ∅ :=
  duties_later m (xrecvCell c j) (fun s h => by rw [kindOf_xrecv] at h; cases h) r hr

theorem amount_bar (m : (ℓ : Loc nD τ sig) → Buf (Elt F) ℓ) (c : Dev nD) (d : Bool) : (sched (F := F) m).amount (barCell c) 0 d = 1 := by
  dsimp only [sched]; rw [kindOf_bar]
theorem amount_exit (m : (ℓ : Loc nD τ sig) → Buf (Elt F) ℓ) (c : Dev nD) (d : Bool) : (sched (F := F) m).amount (exitCell c) 0 d = 1 := by
  dsimp only [sched]; rw [kindOf_exit]
theorem amount_ld (m : (ℓ : Loc nD τ sig) → Buf (Elt F) ℓ) (c : Dev nD) (s : Fin 2) (r : ℕ) (d : Bool) : (sched (F := F) m).amount (ldCell c s) r d = NL := by
  dsimp only [sched]; rw [kindOf_ld]
theorem amount_st (m : (ℓ : Loc nD τ sig) → Buf (Elt F) ℓ) (c : Dev nD) (d : Bool) : (sched (F := F) m).amount (stCell c) 0 d = NS := by
  dsimp only [sched]; rw [kindOf_st]
theorem amount_ysend (m : (ℓ : Loc nD τ sig) → Buf (Elt F) ℓ) (c : Dev nD) (j : Fin 16) (d : Bool) : (sched (F := F) m).amount (ysendCell c j) 0 d = N := by
  dsimp only [sched]; rw [kindOf_ysend]
theorem amount_yrecv (m : (ℓ : Loc nD τ sig) → Buf (Elt F) ℓ) (c : Dev nD) (j : Fin 16) (d : Bool) : (sched (F := F) m).amount (yrecvCell c j) 0 d = N := by
  dsimp only [sched]; rw [kindOf_yrecv]
theorem amount_xsend (m : (ℓ : Loc nD τ sig) → Buf (Elt F) ℓ) (c : Dev nD) (j : Fin 16) (d : Bool) : (sched (F := F) m).amount (xsendCell c j) 0 d = N := by
  dsimp only [sched]; rw [kindOf_xsend]
theorem amount_xrecv (m : (ℓ : Loc nD τ sig) → Buf (Elt F) ℓ) (c : Dev nD) (j : Fin 16) (d : Bool) : (sched (F := F) m).amount (xrecvCell c j) 0 d = N := by
  dsimp only [sched]; rw [kindOf_xrecv]

theorem expect_bar (m : (ℓ : Loc nD τ sig) → Buf (Elt F) ℓ) (c : Dev nD) : (sched (F := F) m).expect (barCell c) 0 = 2 := by
  show ∑ d ∈ (sched (F := F) m).duties (barCell c) 0, (sched (F := F) m).amount (barCell c) 0 d = 2
  rw [duties_bar]
  simp only [amount_bar, Finset.sum_const, Finset.card_univ, Fintype.card_bool, smul_eq_mul]
theorem expect_exit (m : (ℓ : Loc nD τ sig) → Buf (Elt F) ℓ) (c : Dev nD) : (sched (F := F) m).expect (exitCell c) 0 = 2 := by
  show ∑ d ∈ (sched (F := F) m).duties (exitCell c) 0, (sched (F := F) m).amount (exitCell c) 0 d = 2
  rw [duties_exit]
  simp only [amount_exit, Finset.sum_const, Finset.card_univ, Fintype.card_bool, smul_eq_mul]
/-- A cell with one duty expects that duty's amount. -/
theorem expect_of_single (Rd : Rounds.Schedule (GSem nD τ sig) Bool 𝕄) (g : GSem nD τ sig) (r : ℕ) (d : Bool) (n : ℕ)
    (hd : Rd.duties g r = {d}) (ha : Rd.amount g r d = n) : Rd.expect g r = n := by
  unfold Schedule.expect Schedule.amountOf; rw [hd, Finset.sum_singleton, ha]
theorem expect_ld (m : (ℓ : Loc nD τ sig) → Buf (Elt F) ℓ) (c : Dev nD) (s : Fin 2) (r : ℕ) (hr : r < 16) : (sched (F := F) m).expect (ldCell c s) r = NL :=
  expect_of_single _ _ _ _ _ (duties_ld m c s r hr) (amount_ld m c s r false)
theorem expect_st (m : (ℓ : Loc nD τ sig) → Buf (Elt F) ℓ) (c : Dev nD) : (sched (F := F) m).expect (stCell c) 0 = NS :=
  expect_of_single _ _ _ _ _ (duties_st m c) (amount_st m c false)
theorem expect_ysend (m : (ℓ : Loc nD τ sig) → Buf (Elt F) ℓ) (c : Dev nD) (j : Fin 16) : (sched (F := F) m).expect (ysendCell c j) 0 = N :=
  expect_of_single _ _ _ _ _ (duties_ysend m c j) (amount_ysend m c j false)
theorem expect_yrecv (m : (ℓ : Loc nD τ sig) → Buf (Elt F) ℓ) (c : Dev nD) (j : Fin 16) : (sched (F := F) m).expect (yrecvCell c j) 0 = N :=
  expect_of_single _ _ _ _ _ (duties_yrecv m c j) (amount_yrecv m c j false)
theorem expect_xsend (m : (ℓ : Loc nD τ sig) → Buf (Elt F) ℓ) (c : Dev nD) (j : Fin 16) : (sched (F := F) m).expect (xsendCell c j) 0 = N :=
  expect_of_single _ _ _ _ _ (duties_xsend m c j) (amount_xsend m c j false)
theorem expect_xrecv (m : (ℓ : Loc nD τ sig) → Buf (Elt F) ℓ) (c : Dev nD) (j : Fin 16) : (sched (F := F) m).expect (xrecvCell c j) 0 = N :=
  expect_of_single _ _ _ _ _ (duties_xrecv m c j) (amount_xrecv m c j false)

theorem payload_bar_false (m : (ℓ : Loc nD τ sig) → Buf (Elt F) ℓ) (c : Dev nD) : (sched (F := F) m).payload (barCell c) 0 false = barPayY c := by
  dsimp only [sched]; rw [kindOf_bar]; rfl
theorem payload_bar_true (m : (ℓ : Loc nD τ sig) → Buf (Elt F) ℓ) (c : Dev nD) : (sched (F := F) m).payload (barCell c) 0 true = barPayX c := by
  dsimp only [sched]; rw [kindOf_bar]; rfl
theorem payload_exit (m : (ℓ : Loc nD τ sig) → Buf (Elt F) ℓ) (c : Dev nD) (d : Bool) : (sched (F := F) m).payload (exitCell c) 0 d = iprop(emp) := by
  dsimp only [sched]; rw [kindOf_exit]
theorem payload_ld (m : (ℓ : Loc nD τ sig) → Buf (Elt F) ℓ) (c : Dev nD) (s : Fin 2) (r : ℕ) (d : Bool) : (sched (F := F) m).payload (ldCell c s) r d = ldPay m c s r := by
  dsimp only [sched]; rw [kindOf_ld]
theorem payload_st (m : (ℓ : Loc nD τ sig) → Buf (Elt F) ℓ) (c : Dev nD) (d : Bool) : (sched (F := F) m).payload (stCell c) 0 d = stPay m c := by
  dsimp only [sched]; rw [kindOf_st]
theorem payload_ysend (m : (ℓ : Loc nD τ sig) → Buf (Elt F) ℓ) (c : Dev nD) (j : Fin 16) (d : Bool) : (sched (F := F) m).payload (ysendCell c j) 0 d = ysendPay m c j := by
  dsimp only [sched]; rw [kindOf_ysend]
theorem payload_yrecv (m : (ℓ : Loc nD τ sig) → Buf (Elt F) ℓ) (c : Dev nD) (j : Fin 16) (d : Bool) : (sched (F := F) m).payload (yrecvCell c j) 0 d = yrecvPay m c j := by
  dsimp only [sched]; rw [kindOf_yrecv]
theorem payload_xsend (m : (ℓ : Loc nD τ sig) → Buf (Elt F) ℓ) (c : Dev nD) (j : Fin 16) (d : Bool) : (sched (F := F) m).payload (xsendCell c j) 0 d = xsendPay m c j := by
  dsimp only [sched]; rw [kindOf_xsend]
theorem payload_xrecv (m : (ℓ : Loc nD τ sig) → Buf (Elt F) ℓ) (c : Dev nD) (j : Fin 16) (d : Bool) : (sched (F := F) m).payload (xrecvCell c j) 0 d = xrecvPay m c j := by
  dsimp only [sched]; rw [kindOf_xrecv]

/-- Round `roundOf h j` of slot `slotOf j` is load `(h, j)`: loads alternate slots, eight of a half to a slot. -/
theorem ldPay_eq (m : (ℓ : Loc nD τ sig) → Buf (Elt F) ℓ) (c : Dev nD) (h : Bool) (j : Fin 16) : ldPay m c (slotOf j) (roundOf h j) = ldPayAt m c h j := by
  have hj := j.isLt
  unfold ldPay
  congr 1
  · cases h <;> simp [roundOf] <;> omega
  · apply Fin.ext; cases h <;> simp [roundOf, slotOf] <;> omega

/-- The whole of the entry cell's round, no duty taken: what the y-neighbour hands over and what the x-neighbour does. -/
theorem rest_bar (m : (ℓ : Loc nD τ sig) → Buf (Elt F) ℓ) (c : Dev nD) :
    bigSep ((sched (F := F) m).duties (barCell c) 0 \ ∅) (fun d => (sched (F := F) m).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
theorem rest_exit (m : (ℓ : Loc nD τ sig) → Buf (Elt F) ℓ) (c : Dev nD) :
    bigSep ((sched (F := F) m).duties (exitCell c) 0 \ ∅) (fun d => (sched (F := F) m).payload (exitCell c) 0 d) = iprop(emp ∗ emp) := by
  rw [Finset.sdiff_empty, duties_exit, bigSep_univ_eq_bigSepL [false, true] (by decide) (by decide), bigSepL_cons_cons, bigSepL_singleton,
    payload_exit, payload_exit]
  rfl
theorem rest_ld (m : (ℓ : Loc nD τ sig) → Buf (Elt F) ℓ) (c : Dev nD) (s : Fin 2) (r : ℕ) (hr : r < 16) :
    bigSep ((sched (F := F) m).duties (ldCell c s) r \ ∅) (fun d => (sched (F := F) m).payload (ldCell c s) r d) = ldPay m c s r := by
  rw [Finset.sdiff_empty, duties_ld m c s r hr, bigSep_singleton, payload_ld]
theorem rest_st (m : (ℓ : Loc nD τ sig) → Buf (Elt F) ℓ) (c : Dev nD) :
    bigSep ((sched (F := F) m).duties (stCell c) 0 \ ∅) (fun d => (sched (F := F) m).payload (stCell c) 0 d) = stPay m c := by
  rw [Finset.sdiff_empty, duties_st, bigSep_singleton, payload_st]
theorem rest_ysend (m : (ℓ : Loc nD τ sig) → Buf (Elt F) ℓ) (c : Dev nD) (j : Fin 16) :
    bigSep ((sched (F := F) m).duties (ysendCell c j) 0 \ ∅) (fun d => (sched (F := F) m).payload (ysendCell c j) 0 d) = ysendPay m c j := by
  rw [Finset.sdiff_empty, duties_ysend, bigSep_singleton, payload_ysend]
theorem rest_yrecv (m : (ℓ : Loc nD τ sig) → Buf (Elt F) ℓ) (c : Dev nD) (j : Fin 16) :
    bigSep ((sched (F := F) m).duties (yrecvCell c j) 0 \ ∅) (fun d => (sched (F := F) m).payload (yrecvCell c j) 0 d) = yrecvPay m c j := by
  rw [Finset.sdiff_empty, duties_yrecv, bigSep_singleton, payload_yrecv]
theorem rest_xsend (m : (ℓ : Loc nD τ sig) → Buf (Elt F) ℓ) (c : Dev nD) (j : Fin 16) :
    bigSep ((sched (F := F) m).duties (xsendCell c j) 0 \ ∅) (fun d => (sched (F := F) m).payload (xsendCell c j) 0 d) = xsendPay m c j := by
  rw [Finset.sdiff_empty, duties_xsend, bigSep_singleton, payload_xsend]
theorem rest_xrecv (m : (ℓ : Loc nD τ sig) → Buf (Elt F) ℓ) (c : Dev nD) (j : Fin 16) :
    bigSep ((sched (F := F) m).duties (xrecvCell c j) 0 \ ∅) (fun d => (sched (F := F) m).payload (xrecvCell c j) 0 d) = xrecvPay m c j := by
  rw [Finset.sdiff_empty, duties_xrecv, bigSep_singleton, payload_xrecv]

attribute [sl_rounds] duties_bar duties_exit duties_ld duties_ld_later duties_st duties_ysend duties_yrecv duties_xsend duties_xrecv duties_bar_later duties_exit_later duties_st_later duties_ysend_later duties_yrecv_later duties_xsend_later duties_xrecv_later amount_bar
  amount_exit amount_ld amount_st amount_ysend amount_yrecv amount_xsend amount_xrecv expect_bar expect_exit expect_ld expect_st expect_ysend expect_yrecv expect_xsend expect_xrecv payload_bar_false payload_bar_true
  payload_exit payload_ld payload_st payload_ysend payload_yrecv payload_xsend payload_xrecv rest_bar rest_exit rest_ld rest_st rest_ysend rest_yrecv rest_xsend rest_xrecv

end Cert.KernelIdeal.AG

end

/-- info: 'Cert.KernelIdeal.AG.rest_bar' depends on axioms: [propext, Classical.choice, Quot.sound] -/
#guard_msgs in #print axioms Cert.KernelIdeal.AG.rest_bar
-- ==== Proof.StepsHand.lean ====
import proofs.«900094_g7700000000000095_dist_ag_v7x_xy2x2_y_m16384_n1024_bf16_1_alg».proof.Proof.State
import proofs.«900094_g7700000000000095_dist_ag_v7x_xy2x2_y_m16384_n1024_bf16_1_alg».proof.Proof.OwedLv
import proofs.«900094_g7700000000000095_dist_ag_v7x_xy2x2_y_m16384_n1024_bf16_1_alg».proof.Proof.Tables

/-!
# The two handshakes

One unit to each neighbour, a wait for two: on the way in the signals carry the halves of the result array the
neighbours fill, and the wait brings the rows of theirs this device writes; on the way out they carry nothing.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Counts at their ends -/

private theorem hand_ge16_zero : ge16 0 = Finset.univ := Finset.filter_true_of_mem fun _ _ => Nat.zero_le _
private theorem hand_lt16_zero : lt16 0 = ∅ := Finset.filter_eq_empty_iff.mpr fun j _ => Nat.not_lt_zero _

/-! ## The entry wait sits below everything still owed -/

private theorem hand_L_tc (c : Dev nD) (sm : SemLoc sig) : L ((c : Thread nD τ), sm) = {()} := if_pos rfl

private theorem hand_mayWait_bar (c : Dev nD) :
    (levAts L lv : sProp 𝕄) ⊢ MayWait (c : Thread nD τ) (.reg barS) () (owedAt c 2 0 0 0) :=
  MayOwe.of_cut (L := L) (lev := lv) 1
    (fun p hp => by rw [Finset.mem_singleton.mp hp, hand_L_tc]; exact Finset.mem_singleton_self _)
    (fun g u hg => by unfold L; rw [if_pos (owedAt_lv_two_le c 0 0 0 g u hg).1]; exact Finset.mem_singleton_self _)
    (fun p hp => by rw [Finset.mem_singleton.mp hp]; dsimp only [lv]; rw [kindOf_bar])
    (fun g u hg => (owedAt_lv_two_le c 0 0 0 g u hg).2)

/-! ## The halves of the result array the entry signals hand over -/

/-- The rows a device's forwards write are the rows its y-neighbour's y-transfers write. -/
private theorem hand_off_eq (c' : Dev nD) (j : Fin 16) : k0_off5 (yn c') (cw j) = k0_off3 c' (cw j) := by
  rw [show cw j = BitVec.ofNat 32 (512 * j.val) from rfl, k0_off5_eq, k0_off3_eq]
  revert c' j; decide

private theorem hand_oSl_congr {off off' : Fin 2 → Nat} (e : off = off') (h : ∀ a, off a + S512x1024.size a ≤ S32768x1024.size a)
    (h' : ∀ a, off' a + S512x1024.size a ≤ S32768x1024.size a) : oSl off h = oSl off' h' := by subst e; rfl

private theorem hand_fwM_yn (c' : Dev nD) (j : Fin 16) : fwM (yn c') j = dstY c' j := hand_oSl_congr (hand_off_eq c' j) _ _

omit [FloatOps F] in
/-- A points-to through a memref is one through any equal memref, at some contents. -/
private theorem hand_pt_congr {sh : Shape} (M M' : Memref sig .tc .hbm sh .bf16) (e : M = M') (t : Dev nD) (f : Buf (Elt F) (M.view.loc (t : Thread nD τ))) :
    (M.view.loc (t : Thread nD τ) ↦[M.view.set]{fullShare} f : sProp 𝕄) ⊢ iprop(∃ f', M'.view.loc (t : Thread nD τ) ↦[M'.view.set]{fullShare} f') := by
  subst e; iintro H; iexists f; iexact H

omit [FloatOps F] in
private theorem hand_barPayY (c c' : Dev nD) (hc : c = yn c') (fo : Buf (Elt F) ((c : Thread nD τ).loc main_v1)) :
    (bigSep Finset.univ fun j : Fin 16 => ((fwM c j).view.loc (c : Thread nD τ) ↦[(fwM c j).view.set]{fullShare} fo : sProp 𝕄)) ⊢ barPayY c' := by
  subst hc
  unfold barPayY
  exact bigSep_mono fun j _ => hand_pt_congr (fwM (yn c') j) (dstY c' j) (hand_fwM_yn c' j) _ fo

omit [FloatOps F] in
private theorem hand_barPayX (c c' : Dev nD) (hc : c = xn c') (fo : Buf (Elt F) ((c : Thread nD τ).loc main_v1)) :
    (bigSep Finset.univ fun j : Fin 16 => ((fwM c' j).view.loc (c : Thread nD τ) ↦[(fwM c' j).view.set]{fullShare} fo : sProp 𝕄)) ⊢ barPayX c' := by
  subst hc
  unfold barPayX
  exact bigSep_mono fun j _ => hand_pt_congr (fwM c' j) (fwM c' j) rfl _ fo

/-! ## A cell's record out of the whole -/

private theorem hand_inv_at (K : Dev nD × Kind → ℕ) (ck : Dev nD × Kind) :
    (bigSep Finset.univ fun ck : Dev nD × Kind => (cellInv ER (sched m) (K ck) (cellAt ck) : sProp 𝕄)) ⊢ cellInv ER (sched m) (K ck) (cellAt ck) :=
  bigSep_elim (Finset.mem_univ ck)
omit [FloatOps F] in
private theorem hand_reached_at (ck : Dev nD × Kind) :
    (bigSep Finset.univ fun ck : Dev nD × Kind => (reached ER (cellAt ck) 0 : sProp 𝕄)) ⊢ reached ER (cellAt ck) 0 :=
  bigSep_elim (Finset.mem_univ ck)

section Steps

variable (K : Dev nD × Kind → ℕ) (c : Dev nD)
variable (fv : Buf (Elt F) ((c : Thread nD τ).loc cc0_scratch1)) (fs : Buf (Elt F) ((c : Thread nD τ).loc cc0_scratch0))
variable (fo : Buf (Elt F) ((c : Thread nD τ).loc main_v1))

local notation "WP" => wp frame (wpE (defs₀ (F := F)) 𝒱₀ (c : Thread nD τ) none) Set.univ

variable {α : Type}

/-- Once the half is given and nothing has come back, the device holds none of it. -/
private theorem hand_StB_given : (emp : sProp 𝕄) ⊢ StB m c fo true 0 0 0 := by
  unfold StB
  rw [if_pos rfl]
  refine (Entails.of_eq (bigSep_emp_const Finset.univ).symm).trans (bigSep_mono fun j _ => ?_)
  rw [if_neg (by omega)]
  exact BI.Entails.refl _

private theorem hand_StC_given : (emp : sProp 𝕄) ⊢ StC m c fo true 0 := by
  unfold StC
  rw [if_pos rfl, hand_lt16_zero, bigSep_empty]
  exact BI.Entails.refl _

/-- The first entry signal, to the y-neighbour, hands it the half it fills. -/
theorem s_sig_bar_y (nY nF nE : ℕ) {k : PUnit → Prog (TpuEff nD τ sig (Elt F) Λ₀ .tc) α} {Q : α → sProp 𝕄} (d : Dev nD) (hd : d = yn c) :
    iprop(Pers m K ∗ StBar c 0 ∗ StB m c fo false 0 0 0 ∗ Ow c (owedAt c 0 nY nF nE)
        ∗ ((StBar c 1 ∗ StB m c fo true 0 0 0 ∗ Ow c (owedAt c 1 nY nF nE)) -∗ WP (k ⟨⟩) Q))
      ⊢ WP (.op (.semSignal (Dev.tc d : Thread nD τ) barS 1) k) Q := by
  subst hd
  unfold Pers records Ow
  rw [show (StBar c 0 : sProp 𝕄) = iprop(dutyTok ER (barCell (yn c)) 0 false ∗ dutyTok ER (barCell (xn c)) 0 true
      ∗ iprop(atPos ER (barCell c) 0 ∅ 0 ∗ cred (tallyAt (barCell c) () 2))) from rfl,
    show (StBar c 1 : sProp 𝕄) = iprop(emp ∗ dutyTok ER (barCell (xn c)) 0 true
      ∗ iprop(atPos ER (barCell c) 0 ∅ 0 ∗ cred (tallyAt (barCell c) () 2))) from rfl,
    show (StB m c fo false 0 0 0 : sProp 𝕄)
      = bigSep Finset.univ (fun j : Fin 16 => ((fwM c j).view.loc (c : Thread nD τ) ↦[(fwM c j).view.set]{fullShare} fo)) from rfl]
  iintro ⟨⟨⟨#HI, #HR⟩, #Hlev⟩, ⟨Ht1, Ht2, Hp⟩, HB, ⟨%W, HO⟩, Hk⟩
  iapply (Rounds.wp_signal 𝒱₀ ER (sched m) (c : Thread nD τ) none (dst := (yn c : Thread nD τ)) (sem := barS) (r := 0) (d := false) (k' := 1)
      (κ := K (yn c, .bar)) (by rw [duties_bar]; exact Finset.mem_univ _) (amount_bar m (yn c) false) () (owedAt c 1 nY nF nE)
      (owedAt_bar0 c nY nF nE)) $$ [HO Ht1 HB]
  · isplitr; · iapply (hand_inv_at m K (yn c, .bar)); iexact HI
    isplitl [HO]; · iexact HO
    isplitl [Ht1]; · iexact Ht1
    isplitl [HB]
    · rw [payload_bar_false]
      iapply (hand_barPayY c (yn c) (yn_yn c).symm fo); iexact HB
    · iapply (hand_reached_at (F := F) (yn c, .bar)); iexact HR
  iintro HO
  iapply Hk
  isplitl [Ht2 Hp]
  · isplitr; · iempintro
    isplitl [Ht2]; · iexact Ht2
    iexact Hp
  isplitr
  · iapply (hand_StB_given m c fo); iempintro
  iexists W; iexact HO

/-- The second, to the x-neighbour, the other half. -/
theorem s_sig_bar_x (nY nF nE : ℕ) {k : PUnit → Prog (TpuEff nD τ sig (Elt F) Λ₀ .tc) α} {Q : α → sProp 𝕄} (d : Dev nD) (hd : d = xn c) :
    iprop(Pers m K ∗ StBar c 1 ∗ StC m c fo false 0 ∗ Ow c (owedAt c 1 nY nF nE)
        ∗ ((StBar c 2 ∗ StC m c fo true 0 ∗ Ow c (owedAt c 2 nY nF nE)) -∗ WP (k ⟨⟩) Q))
      ⊢ WP (.op (.semSignal (Dev.tc d : Thread nD τ) barS 1) k) Q := by
  subst hd
  unfold Pers records Ow
  rw [show (StBar c 1 : sProp 𝕄) = iprop(emp ∗ dutyTok ER (barCell (xn c)) 0 true
      ∗ iprop(atPos ER (barCell c) 0 ∅ 0 ∗ cred (tallyAt (barCell c) () 2))) from rfl,
    show (StBar c 2 : sProp 𝕄) = iprop(emp ∗ emp ∗ iprop(atPos ER (barCell c) 0 ∅ 0 ∗ cred (tallyAt (barCell c) () 2))) from rfl,
    show (StC m c fo false 0 : sProp 𝕄)
      = bigSep Finset.univ (fun j : Fin 16 => ((fwM (xn c) j).view.loc (c : Thread nD τ) ↦[(fwM (xn c) j).view.set]{fullShare} fo)) from rfl]
  iintro ⟨⟨⟨#HI, #HR⟩, #Hlev⟩, ⟨-, Ht2, Hp⟩, HC, ⟨%W, HO⟩, Hk⟩
  iapply (Rounds.wp_signal 𝒱₀ ER (sched m) (c : Thread nD τ) none (dst := (xn c : Thread nD τ)) (sem := barS) (r := 0) (d := true) (k' := 1)
      (κ := K (xn c, .bar)) (by rw [duties_bar]; exact Finset.mem_univ _) (amount_bar m (xn c) true) () (owedAt c 2 nY nF nE)
      (owedAt_bar1 c nY nF nE)) $$ [HO Ht2 HC]
  · isplitr; · iapply (hand_inv_at m K (xn c, .bar)); iexact HI
    isplitl [HO]; · iexact HO
    isplitl [Ht2]; · iexact Ht2
    isplitl [HC]
    · rw [payload_bar_true]
      iapply (hand_barPayX c (xn c) (xn_xn c).symm fo); iexact HC
    · iapply (hand_reached_at (F := F) (xn c, .bar)); iexact HR
  iintro HO
  iapply Hk
  isplitl [Hp]
  · isplitr; · iempintro
    isplitr; · iempintro
    iexact Hp
  isplitr
  · iapply (hand_StC_given m c fo); iempintro
  iexists W; iexact HO

/-- The entry wait brings the rows of both neighbours' result arrays this device writes. -/
theorem s_wait_bar {k : PUnit → Prog (TpuEff nD τ sig (Elt F) Λ₀ .tc) α} {Q : α → sProp 𝕄} :
    iprop(Pers m K ∗ StBar c 2 ∗ Ow c (owedAt c 2 0 0 0)
        ∗ ((StBar c 3 ∗ StYreg c 0 ∗ StFreg c 0 ∗ Ow c (owedAt c 2 0 0 0)) -∗ WP (k ⟨⟩) Q))
      ⊢ WP (.op (.semWait barS 2) k) Q := by
  unfold Pers records Ow StYreg StFreg
  rw [show (StBar c 2 : sProp 𝕄) = iprop(emp ∗ emp ∗ iprop(atPos ER (barCell c) 0 ∅ 0 ∗ cred (tallyAt (barCell c) () 2))) from rfl,
    show (StBar c 3 : sProp 𝕄) = iprop(emp ∗ emp ∗ emp) from rfl, hand_ge16_zero]
  iintro ⟨⟨⟨#HI, #HR⟩, #Hlev⟩, ⟨-, -, Hat, Hcr⟩, ⟨%W, HO⟩, Hk⟩
  iapply (Rounds.wp_wait_rest_token 𝒱₀ ER (sched m) (c : Thread nD τ) none (κ := K (c, .bar))
      (wpE_semWait_eq 𝒱₀ (c : Thread nD τ) none Set.univ) (Set.mem_univ _) () (O := owedAt c 2 0 0 0) (W := W) (R := 0) (m := 0) (T := ∅)
      (by rw [expect_bar])) $$ [Hcr HO Hat]
  · isplitr; · iapply (hand_inv_at m K (c, .bar)); iexact HI
    isplitl [Hcr]; · iexact Hcr
    isplitl [HO]; · iexact HO
    isplitr; · iapply (hand_mayWait_bar c); iexact Hlev
    iexact Hat
  iintro ⟨HO, -, -, Hpay⟩
  ihave Hp := (Entails.of_eq (rest_bar m c)) $$ Hpay
  unfold barPayY barPayX
  icases Hp with ⟨Hy, Hx⟩
  iapply Hk
  isplitr
  · isplitr; · iempintro
    isplitr <;> iempintro
  isplitl [Hy]; · iexact Hy
  isplitl [Hx]; · iexact Hx
  iexists _; iexact HO

/-- The exit signals and the exit wait. -/
theorem s_sig_exit_y {k : PUnit → Prog (TpuEff nD τ sig (Elt F) Λ₀ .tc) α} {Q : α → sProp 𝕄} (d : Dev nD) (hd : d = yn c) :
    iprop(Pers m K ∗ StExit c 0 ∗ Ow c (owedAt c 2 16 16 0) ∗ ((StExit c 1 ∗ Ow c (owedAt c 2 16 16 1)) -∗ WP (k ⟨⟩) Q))
      ⊢ WP (.op (.semSignal (Dev.tc d : Thread nD τ) exitS 1) k) Q := by
  subst hd
  unfold Pers records Ow
  rw [show (StExit c 0 : sProp 𝕄) = iprop(dutyTok ER (exitCell (yn c)) 0 false ∗ dutyTok ER (exitCell (xn c)) 0 true
      ∗ iprop(atPos ER (exitCell c) 0 ∅ 0 ∗ cred (tallyAt (exitCell c) () 2))) from rfl,
    show (StExit c 1 : sProp 𝕄) = iprop(emp ∗ dutyTok ER (exitCell (xn c)) 0 true
      ∗ iprop(atPos ER (exitCell c) 0 ∅ 0 ∗ cred (tallyAt (exitCell c) () 2))) from rfl]
  iintro ⟨⟨⟨#HI, #HR⟩, #Hlev⟩, ⟨Ht1, Ht2, Hp⟩, ⟨%W, HO⟩, Hk⟩
  iapply (Rounds.wp_signal 𝒱₀ ER (sched m) (c : Thread nD τ) none (dst := (yn c : Thread nD τ)) (sem := exitS) (r := 0) (d := false) (k' := 1)
      (κ := K (yn c, .exit)) (by rw [duties_exit]; exact Finset.mem_univ _) (amount_exit m (yn c) false) () (owedAt c 2 16 16 1)
      (owedAt_exit0 c 2 16 16)) $$ [HO Ht1]
  · isplitr; · iapply (hand_inv_at m K (yn c, .exit)); iexact HI
    isplitl [HO]; · iexact HO
    isplitl [Ht1]; · iexact Ht1
    isplitr; · rw [payload_exit]; iempintro
    iapply (hand_reached_at (F := F) (yn c, .exit)); iexact HR
  iintro HO
  iapply Hk
  isplitl [Ht2 Hp]
  · isplitr; · iempintro
    isplitl [Ht2]; · iexact Ht2
    iexact Hp
  iexists W; iexact HO

theorem s_sig_exit_x {k : PUnit → Prog (TpuEff nD τ sig (Elt F) Λ₀ .tc) α} {Q : α → sProp 𝕄} (d : Dev nD) (hd : d = xn c) :
    iprop(Pers m K ∗ StExit c 1 ∗ Ow c (owedAt c 2 16 16 1) ∗ ((StExit c 2 ∗ Ow c (owedAt c 2 16 16 2)) -∗ WP (k ⟨⟩) Q))
      ⊢ WP (.op (.semSignal (Dev.tc d : Thread nD τ) exitS 1) k) Q := by
  subst hd
  unfold Pers records Ow
  rw [show (StExit c 1 : sProp 𝕄) = iprop(emp ∗ dutyTok ER (exitCell (xn c)) 0 true
      ∗ iprop(atPos ER (exitCell c) 0 ∅ 0 ∗ cred (tallyAt (exitCell c) () 2))) from rfl,
    show (StExit c 2 : sProp 𝕄) = iprop(emp ∗ emp ∗ iprop(atPos ER (exitCell c) 0 ∅ 0 ∗ cred (tallyAt (exitCell c) () 2))) from rfl]
  iintro ⟨⟨⟨#HI, #HR⟩, #Hlev⟩, ⟨-, Ht2, Hp⟩, ⟨%W, HO⟩, Hk⟩
  iapply (Rounds.wp_signal 𝒱₀ ER (sched m) (c : Thread nD τ) none (dst := (xn c : Thread nD τ)) (sem := exitS) (r := 0) (d := true) (k' := 1)
      (κ := K (xn c, .exit)) (by rw [duties_exit]; exact Finset.mem_univ _) (amount_exit m (xn c) true) () (owedAt c 2 16 16 2)
      (owedAt_exit1 c 2 16 16)) $$ [HO Ht2]
  · isplitr; · iapply (hand_inv_at m K (xn c, .exit)); iexact HI
    isplitl [HO]; · iexact HO
    isplitl [Ht2]; · iexact Ht2
    isplitr; · rw [payload_exit]; iempintro
    iapply (hand_reached_at (F := F) (xn c, .exit)); iexact HR
  iintro HO
  iapply Hk
  isplitl [Hp]
  · isplitr; · iempintro
    isplitr; · iempintro
    iexact Hp
  iexists W; iexact HO

theorem s_wait_exit {k : PUnit → Prog (TpuEff nD τ sig (Elt F) Λ₀ .tc) α} {Q : α → sProp 𝕄} :
    iprop(Pers m K ∗ StExit c 2 ∗ Ow c (owedAt c 2 16 16 2) ∗ ((StExit c 3 ∗ Ow c (owedAt c 2 16 16 2)) -∗ WP (k ⟨⟩) Q))
      ⊢ WP (.op (.semWait exitS 2) k) Q := by
  unfold Pers records Ow
  rw [show (StExit c 2 : sProp 𝕄) = iprop(emp ∗ emp ∗ iprop(atPos ER (exitCell c) 0 ∅ 0 ∗ cred (tallyAt (exitCell c) () 2))) from rfl,
    show (StExit c 3 : sProp 𝕄) = iprop(emp ∗ emp ∗ semVal (exitCell c) 0) from rfl]
  iintro ⟨⟨⟨#HI, #HR⟩, #Hlev⟩, ⟨-, -, Hat, Hcr⟩, ⟨%W, HO⟩, Hk⟩
  iapply (Rounds.wp_wait_rest_token 𝒱₀ ER (sched m) (c : Thread nD τ) none (κ := K (c, .exit))
      (wpE_semWait_eq 𝒱₀ (c : Thread nD τ) none Set.univ) (Set.mem_univ _) () (O := owedAt c 2 16 16 2) (W := W) (R := 0) (m := 0) (T := ∅)
      (by rw [expect_exit])) $$ [Hcr HO Hat]
  · isplitr; · iapply (hand_inv_at m K (c, .exit)); iexact HI
    isplitl [Hcr]; · iexact Hcr
    isplitl [HO]; · iexact HO
    isplitr; · rw [owedAt_done c 2 (Nat.le_refl 2), MayWait_zero]; iempintro
    iexact Hat
  iintro ⟨HO, Hat, -, -⟩
  imod (Rounds.cell_close ER (sched m) (Set.mem_univ (K (c, .exit))) (fun h => h) (R := 0 + 1) (duties_exit_later m c)) $$ [Hat] with Hz
  · isplitr; · iapply (hand_inv_at m K (c, .exit)); iexact HI
    iexact Hat
  iapply Hk
  isplitl [Hz]
  · isplitr; · iempintro
    isplitr; · iempintro
    iexact Hz
  iexists _; iexact HO

end Steps

/-- info: 'Cert.KernelIdeal.AG.s_sig_bar_y' depends on axioms: [propext, Classical.choice, Quot.sound] -/
#guard_msgs in #print axioms s_sig_bar_y

/-- info: 'Cert.KernelIdeal.AG.s_sig_bar_x' depends on axioms: [propext, Classical.choice, Quot.sound] -/
#guard_msgs in #print axioms s_sig_bar_x

/-- info: 'Cert.KernelIdeal.AG.s_wait_bar' depends on axioms: [propext, Classical.choice, Quot.sound] -/
#guard_msgs in #print axioms s_wait_bar

/-- info: 'Cert.KernelIdeal.AG.s_sig_exit_y' depends on axioms: [propext, Classical.choice, Quot.sound] -/
#guard_msgs in #print axioms s_sig_exit_y

/-- info: 'Cert.KernelIdeal.AG.s_sig_exit_x' depends on axioms: [propext, Classical.choice, Quot.sound] -/
#guard_msgs in #print axioms s_sig_exit_x

/-- info: 'Cert.KernelIdeal.AG.s_wait_exit' depends on axioms: [propext, Classical.choice, Quot.sound] -/
#guard_msgs in #print axioms s_wait_exit

end Cert.KernelIdeal.AG

end
-- ==== Proof.StepsLocal.lean ====
import proofs.«900094_g7700000000000095_dist_ag_v7x_xy2x2_y_m16384_n1024_bf16_1_alg».proof.Proof.State
import proofs.«900094_g7700000000000095_dist_ag_v7x_xy2x2_y_m16384_n1024_bf16_1_alg».proof.Proof.LibBig
import proofs.«900094_g7700000000000095_dist_ag_v7x_xy2x2_y_m16384_n1024_bf16_1_alg».proof.Proof.OwedLv
import proofs.«900094_g7700000000000095_dist_ag_v7x_xy2x2_y_m16384_n1024_bf16_1_alg».proof.Proof.Tables
import Idealize.ShloMosaic.Lib.ValueLayout
import Idealize.ShloMosaic.Lib.Pipeline.Value

/-!
# The loads, the conversions and the shard

Each load copies 512 rows of the input block into one of two slots; its conversion reads the slot, narrows every entry
and stores the chunk of the shard. The shard as a whole is then copied to the device's own block of the result array.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Products over a filtered index set, one index at a time -/

omit [FloatOps F] in
/-- A product over the indices satisfying `p'`, which are those satisfying `p` and one more, `i`. -/
private theorem stepsLocal_bigSep_filter_insert {I : Type} [Fintype I] [DecidableEq I] (p p' : I → Prop) [DecidablePred p] [DecidablePred p']
    (i : I) (hi : ¬ p i) (h : ∀ x, p' x ↔ (x = i ∨ p x)) (Φ : I → sProp 𝕄) :
    bigSep (Finset.univ.filter p') Φ = iprop(Φ i ∗ bigSep (Finset.univ.filter p) Φ) := by
  have e : Finset.univ.filter p' = insert i (Finset.univ.filter p) := by
    ext x; simp only [Finset.mem_filter, Finset.mem_univ, true_and, Finset.mem_insert]; exact h x
  rw [e, bigSep_insert (by simp only [Finset.mem_filter, Finset.mem_univ, true_and]; exact hi)]
  rfl

/-! ## Waiting below what is owed -/

private theorem stepsLocal_lv_ld (d : Dev nD) (s : Fin 2) : lv (ldCell d s) () = 0 := by unfold lv; rw [kindOf_ld]
private theorem stepsLocal_lv_st (d : Dev nD) : lv (stCell d) () = 0 := by unfold lv; rw [kindOf_st]
private theorem stepsLocal_lv_ysend (d : Dev nD) (j : Fin 16) : lv (ysendCell d j) () = 0 := by unfold lv; rw [kindOf_ysend]

omit [FloatOps F] in
/-- A wait on a cell of level zero sits below whatever the device owes, all of it being owed at positive levels. -/
private theorem stepsLocal_mayWait (c : Dev nD) (sm : SemLoc sig) (O : CellTallies nD τ sig Unit)
    (h0 : lv ((c : Thread nD τ), sm) () = 0) (hO : ∀ g u, 0 < O g u → g.1.2 = .tc ∧ 0 < lv g u) :
    (levAts L lv : sProp 𝕄) ⊢ MayWait (c : Thread nD τ) sm () O :=
  Pipeline.mayWait_of_levAts (by unfold L; rw [if_pos rfl]; exact Finset.mem_singleton_self _)
    (fun g i hg => ⟨by unfold L; rw [if_pos (hO g i hg).1]; exact Finset.mem_singleton_self _, by rw [h0]; exact (hO g i hg).2⟩)

/-! ## A product over a whole index type, one term changed -/

omit [FloatOps F] in
private theorem stepsLocal_bigSep_update {I : Type} [Fintype I] [DecidableEq I] (Φ Ψ : I → sProp 𝕄) (i : I) (A B : sProp 𝕄)
    (hΦ : Φ i = A) (hΨ : Ψ i = B) (h : ∀ j, j ≠ i → Ψ j = Φ j) :
    bigSep Finset.univ Φ ⊢ iprop(A ∗ (B -∗ bigSep Finset.univ Ψ)) := by
  subst hΦ; subst hΨ; exact bigSep_univ_update i h

omit [FloatOps F] in
/-- One term of a product. -/
private theorem stepsLocal_bigSep_elim {I : Type} [DecidableEq I] {s : Finset I} {i : I} (hi : i ∈ s) (Φ : I → sProp 𝕄) :
    bigSep s Φ ⊢ Φ i := bigSep_elim hi

omit [FloatOps F] in
private theorem stepsLocal_ite_intro (p : Prop) [Decidable p] (P : sProp 𝕄) : P ⊢ (if p then P else iprop(emp)) := by
  by_cases h : p
  · rw [if_pos h]
  · rw [if_neg h]; iintro -; iempintro

/-! ## The dma credit of a view is its shape's and element type's -/

omit [FloatOps F] in
private theorem stepsLocal_credit_N {sp : Space} (dst : Memref sig .tc sp S512x1024 .bf16) : dst.view.dmaCredit = N := rfl
omit [FloatOps F] in
private theorem stepsLocal_credit_NL {sp : Space} (dst : Memref sig .tc sp S512x1024 .f32) : dst.view.dmaCredit = NL := rfl
omit [FloatOps F] in
private theorem stepsLocal_credit_NS {sp : Space} (dst : Memref sig .tc sp S16384x1024 .bf16) : dst.view.dmaCredit = NS := rfl

/-! ## The y-transfer's source is its chunk of the shard -/

omit [FloatOps F] in
private theorem stepsLocal_slice_unit_set_congr {κ : Idealize.ShloMosaic.Kind} {sp : Space} {s : Shape} {e : EltTy} (v : View sig κ sp s e) (o o' sz : Fin s.rank → Nat) (h : o = o')
    (inb : ∀ a, o a + sz a ≤ s.size a) (inb' : ∀ a, o' a + sz a ≤ s.size a) :
    (v.slice (Rect.unit o sz inb)).set = (v.slice (Rect.unit o' sz inb')).set := by subst h; rfl

/-- Chunk `j` of the first half, as one of the thirty-two. -/
def stepsLocal_lo (j : Fin 16) : Fin 32 := ⟨j.val, by have := j.isLt; omega⟩

/-- The source of y-transfer `j` is chunk `j` of the shard: what its send's wait gives back is that chunk's left half. -/
private theorem stepsLocal_ysendPay_eq (c : Dev nD) (j : Fin 16) :
    ysendPay m c j = (vsM.view.loc (c : Thread nD τ) ↦[vsSet c (stepsLocal_lo j)]{fullShare.left} VS m c : sProp 𝕄) := by
  have hj := j.isLt
  have h1 : hOf (stepsLocal_lo j) = false := by unfold hOf; exact decide_eq_false (by show ¬ 16 ≤ j.val; omega)
  have h2 : jOf (stepsLocal_lo j) = j := Fin.ext (by show j.val % 16 = j.val; omega)
  have hoff : k0_off1 c (cw j) = stOff c false j := (k0_off1_eq c j).trans (k0_off2_eq c j).symm
  unfold ysendPay
  show ((vsM.view.loc (c : Thread nD τ) ↦[(vsM.view.slice (Rect.unit (s := S16384x1024) (k0_off1 c (cw j)) S512x1024.size (k0_off1_inb c j))).set]{fullShare.left} VS m c : sProp 𝕄))
    = (vsM.view.loc (c : Thread nD τ) ↦[(vsM.view.slice (stRect c (hOf (stepsLocal_lo j)) (jOf (stepsLocal_lo j)))).set]{fullShare.left} VS m c)
  rw [h1, h2]
  rw [stepsLocal_slice_unit_set_congr vsM.view _ _ _ hoff (k0_off1_inb c j) (stOff_inb c false j)]

/-! ## Slots and counts -/

omit [FloatOps F] in
theorem stepsLocal_sOf_val (i : Fin 32) : (sOf i).val = i.val % 2 := rfl

/-- After load `i` is waited for, its slot holds the rows it copied. -/
private theorem stepsLocal_slotC_after (c : Dev nD) (fv : Buf (Elt F) ((c : Thread nD τ).loc cc0_scratch1)) (i : Fin 32) (b : ℕ) (hb : b = i.val + 1) :
    slotC m c fv b (sOf i) = SLOT m c (hOf i) (jOf i) := by
  have hi := i.isLt
  have hv : 2 * (wcount b (sOf i) - 1) + (sOf i).val = i.val := by
    unfold wcount; rw [stepsLocal_sOf_val, hb]; omega
  have h0 : ¬ wcount b (sOf i) = 0 := by
    unfold wcount; rw [stepsLocal_sOf_val, hb]; omega
  unfold slotC
  rw [dif_neg h0]
  simp only [hv]
  rfl

omit [FloatOps F] in
theorem stepsLocal_rOf_lt (i : Fin 32) : rOf i < 16 := by have := i.isLt; unfold rOf; omega
omit [FloatOps F] in
/-- Load `i` is round `i / 2` of its slot: that many loads into the slot came before it. -/
theorem stepsLocal_wcount_self (i : Fin 32) : wcount i.val (sOf i) = rOf i := by
  unfold wcount rOf; rw [stepsLocal_sOf_val]; omega
omit [FloatOps F] in
theorem stepsLocal_wcount_succ (i : Fin 32) : wcount (i.val + 1) (sOf i) = rOf i + 1 := by
  unfold wcount rOf; rw [stepsLocal_sOf_val]; omega
omit [FloatOps F] in
/-- The other slot's count does not move. -/
theorem stepsLocal_wcount_other (i : Fin 32) (s : Fin 2) (hs : s ≠ sOf i) : wcount (i.val + 1) s = wcount i.val s := by
  have h1 : s.val ≠ i.val % 2 := fun h => hs (Fin.ext (h.trans (stepsLocal_sOf_val i).symm))
  have h2 := s.isLt
  unfold wcount; omega

private theorem stepsLocal_slotC_congr (c : Dev nD) (fv : Buf (Elt F) ((c : Thread nD τ).loc cc0_scratch1)) (b b' : ℕ) (s : Fin 2)
    (h : wcount b s = wcount b' s) : slotC m c fv b s = slotC m c fv b' s := by
  have key : ∀ w w' : ℕ, w = w' →
      (if h : w = 0 then fv else SLOT m c (decide (16 ≤ 2 * (w - 1) + s.val)) ⟨(2 * (w - 1) + s.val) % 16, Nat.mod_lt _ (by decide)⟩)
        = (if h : w' = 0 then fv else SLOT m c (decide (16 ≤ 2 * (w' - 1) + s.val)) ⟨(2 * (w' - 1) + s.val) % 16, Nat.mod_lt _ (by decide)⟩) := by
    intro w w' e; subst e; rfl
  exact key _ _ h

omit [FloatOps F] in
theorem stepsLocal_slotOf_jOf (i : Fin 32) : slotOf (jOf i) = sOf i := Fin.ext (by show (i.val % 16) % 2 = i.val % 2; omega)
omit [FloatOps F] in
theorem stepsLocal_roundOf (i : Fin 32) : roundOf (hOf i) (jOf i) = rOf i := by
  have hi := i.isLt
  unfold roundOf hOf rOf
  by_cases h : 16 ≤ i.val
  · rw [decide_eq_true h, if_pos rfl]; show 8 + (i.val % 16) / 2 = i.val / 2; omega
  · rw [decide_eq_false h, if_neg (by decide)]; show 0 + (i.val % 16) / 2 = i.val / 2; omega

/-- What round `i / 2` of load `i`'s slot delivers: the slot at the rows load `i` copied, and those rows of the input. -/
private theorem stepsLocal_ldPay_at (c : Dev nD) (i : Fin 32) :
    ldPay m c (sOf i) (rOf i) = iprop(((vslot (sOf i)).view.loc (c : Thread nD τ) ↦[(vslot (sOf i)).view.set]{fullShare} SLOT m c (hOf i) (jOf i))
      ∗ ((ldSrc c (hOf i) (jOf i)).view.loc (c : Thread nD τ) ↦[(ldSrc c (hOf i) (jOf i)).view.set]{fullShare} m ((c : Thread nD τ).loc main_arg0))) := by
  have h := ldPay_eq m c (hOf i) (jOf i)
  rw [stepsLocal_roundOf] at h
  unfold ldPayAt at h
  rw [stepsLocal_slotOf_jOf] at h
  exact h

/-- The buffer of a slot no load into which is in flight, taken out of the loads' state and put back. -/
private theorem stepsLocal_StLd_slot (c : Dev nD) (fv : Buf (Elt F) ((c : Thread nD τ).loc cc0_scratch1)) (s : Fin 2) (a b : ℕ)
    (hw : wcount a s = wcount b s) :
    StLd m c fv a b ⊢ iprop(((vslot s).view.loc (c : Thread nD τ) ↦[(vslot s).view.set]{fullShare} slotC m c fv b s)
      ∗ (((vslot s).view.loc (c : Thread nD τ) ↦[(vslot s).view.set]{fullShare} slotC m c fv b s) -∗ StLd m c fv a b)) := by
  unfold StLd
  iintro ⟨H1, H2, H3, H4⟩
  ihave H4' := (bigSep_univ_update (Ψ := fun s : Fin 2 => iprop(atPos ER (ldCell c s) (wcount b s) ∅ 0 ∗ reached ER (ldCell c s) (wcount b s)
        ∗ (if wcount a s = wcount b s then
            ((vslot s).view.loc (c : Thread nD τ) ↦[(vslot s).view.set]{fullShare} slotC m c fv b s) else iprop(emp)))) s (fun _ _ => rfl)) $$ H4
  icases H4' with ⟨H4s, Hback⟩
  rw [if_pos hw]
  icases H4s with ⟨Hat, Hr, Hs⟩
  isplitl [Hs]; · iexact Hs
  iintro Hs
  isplitl [H1]; · iexact H1
  isplitl [H2]; · iexact H2
  isplitl [H3]; · iexact H3
  iapply Hback
  isplitl [Hat]; · iexact Hat
  isplitl [Hr]; · iexact Hr
  iexact Hs

/-! ## Contents: what the loads, the conversions and the shard's copy leave; the chunks tile the shard -/

omit [FloatOps F] in
/-- Load and store of one chunk name the same rows, a band of 512 inside the block, all columns. -/
theorem stepsLocal_offs (c : Dev nD) (h : Bool) (j : Fin 16) :
    ldOff c h j = stOff c h j ∧ stOff c h j 1 = 0 ∧ stOff c h j 0 + 512 ≤ 16384 := by
  have hj := j.isLt
  have hc : c.val < 4 := c.isLt
  cases h
  · have e1 : ldOff c false j = ![8192 * (c.val / 2) + 512 * j.val, 0] := k0_off1_eq c j
    have e2 : stOff c false j = ![8192 * (c.val / 2) + 512 * j.val, 0] := k0_off2_eq c j
    refine ⟨e1.trans e2.symm, ?_, ?_⟩
    · rw [e2]; rfl
    · rw [e2]; show 8192 * (c.val / 2) + 512 * j.val + 512 ≤ 16384; omega
  · have e1 : ldOff c true j = ![(512 * j.val + 8192) - 8192 * (c.val / 2), 0] := k0_off4_eq c j
    have e2 : stOff c true j = ![(512 * j.val + 8192) - 8192 * (c.val / 2), 0] := k0_off6_eq c j
    refine ⟨e1.trans e2.symm, ?_, ?_⟩
    · rw [e2]; rfl
    · rw [e2]; show (512 * j.val + 8192) - 8192 * (c.val / 2) + 512 ≤ 16384; omega

/-- Entry by entry, the conversion of load `i`'s slot is the converted shard on chunk `i`. -/
theorem stepsLocal_entry (c : Dev nD) (i : Fin 32) (x : S512x1024.Idx) :
    pay (slotVal m c i) x = VS m c ((stRect c (hOf i) (jOf i)).emb x) := by
  obtain ⟨hld, h1, hlt⟩ := stepsLocal_offs c (hOf i) (jOf i)
  have hx : x = ValueIdx.ix2 (x 0) (x 1) := ValueIdx.eq_ix2 x
  unfold pay
  rw [shapeCast_self]
  show FloatOps.truncf .bf16 bitsLt_bf16_f32 (shapeCast S512x1024 (slotVal m c i) shapeCasts_S1x512x1024_S512x1024 x)
    = FloatOps.truncf .bf16 bitsLt_bf16_f32 (m ((c : Thread nD τ).loc main_arg0) ((stRect c (hOf i) (jOf i)).emb x))
  congr 1
  rw [hx]
  refine (ValueIdx.shapeCast_1ab_ab_apply (a := 512) (b := 1024) (slotVal m c i) shapeCasts_S1x512x1024_S512x1024 (x 0) (x 1)).trans ?_
  show SLOT m c (hOf i) (jOf i) ((slotRect (sOf i)).emb (ValueIdx.ix3 (0 : Fin 1) (x 0) (x 1))) = _
  unfold SLOT
  congr 1
  funext a
  apply Fin.ext
  match a with
  | ⟨0, _⟩ =>
    show (ldOff c (hOf i) (jOf i) 0 + (0 + 1 * (x 0).val)) % 16384 = stOff c (hOf i) (jOf i) 0 + 1 * (x 0).val
    have hx0 : (x 0).val < 512 := (x 0).isLt
    rw [hld]; omega
  | ⟨1, _⟩ =>
    show 0 + 1 * (x 1).val = stOff c (hOf i) (jOf i) 1 + 1 * (x 1).val
    rw [h1]

/-- What the store of conversion `i` leaves under its chunk is the converted shard there. -/
theorem stepsLocal_store_congr (c : Dev nD) (fs : Buf (Elt F) ((c : Thread nD τ).loc cc0_scratch0)) (i : Fin 32)
    (w : Vec F S512x1024 .bf16) (hw : w = pay (slotVal m c i)) :
    (vsM.view.loc (c : Thread nD τ) ↦[vsSet c i]{fullShare}
        ((vsM : Memref sig .tc .vmem S16384x1024 .bf16).access (stRect c (hOf i) (jOf i))).write (Elt F) fs w Finset.univ : sProp 𝕄)
      = (vsM.view.loc (c : Thread nD τ) ↦[vsSet c i]{fullShare} VS m c) := by
  subst hw
  refine pointsTo_congr fun idx hidx => ?_
  obtain ⟨x, -, rfl⟩ := Finset.mem_map.mp (show idx ∈ Finset.univ.map ((vsM : Memref sig .tc .vmem S16384x1024 .bf16).access (stRect c (hOf i) (jOf i))).emb from hidx)
  rw [View.write_emb_of_mem _ _ (Finset.mem_univ x)]
  exact stepsLocal_entry m c i x

/-- What load `i` leaves in its slot, whatever was there: the rows it copies. -/
theorem stepsLocal_land_congr (c : Dev nD) (fv : Buf (Elt F) ((c : Thread nD τ).loc cc0_scratch1)) (i : Fin 32) (b : ℕ) :
    ((vslot (sOf i)).view.loc (c : Thread nD τ) ↦[(vslot (sOf i)).view.set]{fullShare}
        ((vslot (sOf i)).view.write (Elt F) (slotC m c fv b (sOf i)) ((ldSrc c (hOf i) (jOf i)).view.read (Elt F) (m ((c : Thread nD τ).loc main_arg0))) Finset.univ) : sProp 𝕄)
      = ((vslot (sOf i)).view.loc (c : Thread nD τ) ↦[(vslot (sOf i)).view.set]{fullShare} SLOT m c (hOf i) (jOf i)) := by
  obtain ⟨hld, h1, hlt⟩ := stepsLocal_offs c (hOf i) (jOf i)
  refine pointsTo_congr fun idx hidx => ?_
  obtain ⟨y, -, rfl⟩ := Finset.mem_map.mp (show idx ∈ Finset.univ.map (vslot (sOf i)).view.emb from hidx)
  rw [View.write_emb_of_mem _ _ (Finset.mem_univ y)]
  have hy : y = ValueIdx.ix2 (y 0) (y 1) := ValueIdx.eq_ix2 y
  have hre : Shape.reshapeEquiv (s := S1x512x1024) (s' := S512x1024) squeezes_S1x512x1024_S512x1024.numel_eq (ValueIdx.ix2 (y 0) (y 1)) = ValueIdx.ix3 (0 : Fin 1) (y 0) (y 1) :=
    ValueIdx.shapeCast_1ab_ab_apply (a := 512) (b := 1024) (fun z => z) shapeCasts_S1x512x1024_S512x1024 (y 0) (y 1)
  have hz : Shape.reshapeEquiv (s := S1x512x1024) (s' := S512x1024) squeezes_S1x512x1024_S512x1024.numel_eq y = ValueIdx.ix3 (0 : Fin 1) (y 0) (y 1) :=
    (congrArg (Shape.reshapeEquiv (s := S1x512x1024) (s' := S512x1024) squeezes_S1x512x1024_S512x1024.numel_eq) hy).trans hre
  show m ((c : Thread nD τ).loc main_arg0) ((Rect.unit (s := S16384x1024) (ldOff c (hOf i) (jOf i)) S512x1024.size (ldOff_inb c (hOf i) (jOf i))).emb y)
    = SLOT m c (hOf i) (jOf i) ((slotRect (sOf i)).emb (Shape.reshapeEquiv (s := S1x512x1024) (s' := S512x1024) squeezes_S1x512x1024_S512x1024.numel_eq y))
  refine Eq.trans ?_ (congrArg (fun z => SLOT m c (hOf i) (jOf i) ((slotRect (sOf i)).emb z)) hz).symm
  show m ((c : Thread nD τ).loc main_arg0) ((Rect.unit (s := S16384x1024) (ldOff c (hOf i) (jOf i)) S512x1024.size (ldOff_inb c (hOf i) (jOf i))).emb y)
    = SLOT m c (hOf i) (jOf i) ((slotRect (sOf i)).emb (ValueIdx.ix3 (0 : Fin 1) (y 0) (y 1)))
  unfold SLOT
  congr 1
  funext a
  apply Fin.ext
  have hy0 : (y 0).val < 512 := (y 0).isLt
  match a with
  | ⟨0, _⟩ =>
    show ldOff c (hOf i) (jOf i) 0 + 1 * (y 0).val = (ldOff c (hOf i) (jOf i) 0 + (0 + 1 * (y 0).val)) % 16384
    rw [hld]; omega
  | ⟨1, _⟩ =>
    show ldOff c (hOf i) (jOf i) 1 + 1 * (y 1).val = 0 + 1 * (y 1).val
    rw [hld, h1]

/-- What the copy of the whole shard leaves in the device's own block is the result array there. -/
theorem stepsLocal_own_congr (c : Dev nD) (fo : Buf (Elt F) ((c : Thread nD τ).loc main_v1)) :
    ((ownM c).view.loc (c : Thread nD τ) ↦[(ownM c).view.set]{fullShare}
        ((ownM c).view.write (Elt F) fo ((vsM : Memref sig .tc .vmem S16384x1024 .bf16).view.read (Elt F) (VS m c)) Finset.univ) : sProp 𝕄)
      = ((ownM c).view.loc (c : Thread nD τ) ↦[(ownM c).view.set]{fullShare} OUT m c) := by
  have hc : c.val < 4 := c.isLt
  have e7 : k0_off7 c = ![16384 * (c.val % 2), 0] := k0_off7_eq c
  refine pointsTo_congr fun idx hidx => ?_
  obtain ⟨x, -, rfl⟩ := Finset.mem_map.mp (show idx ∈ Finset.univ.map (ownM c).view.emb from hidx)
  rw [View.write_emb_of_mem _ _ (Finset.mem_univ x)]
  have hx0 : (x 0).val < 16384 := (x 0).isLt
  have h0 : (((ownM c).view.emb x) 0).val = 16384 * (c.val % 2) + (x 0).val := by
    show k0_off7 c 0 + 1 * (x 0).val = _
    rw [e7]; show 16384 * (c.val % 2) + 1 * (x 0).val = _; omega
  have h1 : (((ownM c).view.emb x) 1).val = (x 1).val := by
    show k0_off7 c 1 + 1 * (x 1).val = _
    rw [e7]; show 0 + 1 * (x 1).val = _; omega
  show VS m c x = OUT m c ((ownM c).view.emb x)
  unfold OUT
  dsimp only
  rw [if_pos (by rw [h0]; omega)]
  congr 1
  funext a
  apply Fin.ext
  match a with
  | ⟨0, _⟩ => show (x 0).val = (((ownM c).view.emb x) 0).val % 16384; rw [h0]; omega
  | ⟨1, _⟩ => show (x 1).val = (((ownM c).view.emb x) 1).val; rw [h1]

omit [FloatOps F] in
/-- The first row of chunk `i` of the shard, in closed form. -/
theorem stepsLocal_lo0_eq (c : Dev nD) (i : Fin 32) :
    stOff c (hOf i) (jOf i) 0 = if i.val < 16 then 8192 * (c.val / 2) + 512 * i.val else 512 * (i.val - 16) + 8192 - 8192 * (c.val / 2) := by
  have hi := i.isLt
  have hc : c.val < 4 := c.isLt
  by_cases h : i.val < 16
  · have hh : hOf i = false := decide_eq_false (by omega)
    rw [if_pos h, hh]
    have e2 : stOff c false (jOf i) = ![8192 * (c.val / 2) + 512 * (jOf i).val, 0] := k0_off2_eq c (jOf i)
    rw [e2]; show 8192 * (c.val / 2) + 512 * (i.val % 16) = _; omega
  · have hh : hOf i = true := decide_eq_true (by omega)
    rw [if_neg h, hh]
    have e2 : stOff c true (jOf i) = ![(512 * (jOf i).val + 8192) - 8192 * (c.val / 2), 0] := k0_off6_eq c (jOf i)
    rw [e2]; show (512 * (i.val % 16) + 8192) - 8192 * (c.val / 2) = _; omega

/-- The thirty-two chunks tile the shard: the whole shard at one share is the product of its chunks at that share. -/
theorem stepsLocal_shard_whole (c : Dev nD) (q : PosShare TreeShare) :
    (vsM.view.loc (c : Thread nD τ) ↦[vsM.view.set]{q} VS m c : sProp 𝕄)
      = bigSep Finset.univ fun i : Fin 32 => (vsM.view.loc (c : Thread nD τ) ↦[vsSet c i]{q} VS m c : sProp 𝕄) := by
  have hc : c.val < 4 := c.isLt
  rw [show (vsM : Memref sig .tc .vmem S16384x1024 .bf16).view.set = Finset.univ from View.set_whole _]
  refine pointsTo_bands (F := F) (ℓ := vsM.view.loc (c : Thread nD τ)) (vsSet c) (fun x => (x 0).val) (fun i => stOff c (hOf i) (jOf i) 0) (fun _ => 512) ?_ ?_ ?_ q (VS m c)
  · intro t x
    obtain ⟨-, h1, -⟩ := stepsLocal_offs c (hOf t) (jOf t)
    show x ∈ ((View.whole cc0_scratch0 : View sig .tc _ _ _).slice (stRect c (hOf t) (jOf t))).set ↔ _
    rw [View.set_slice_whole]
    exact mem_rows (R := 16384) (C := 1024) (n := 512) (stOff c (hOf t) (jOf t)) (stOff_inb c (hOf t) (jOf t)) h1 x
  · intro t t' hne
    have hne' : t.val ≠ t'.val := fun h => hne (Fin.ext h)
    have ht := t.isLt; have ht' := t'.isLt
    show stOff c (hOf t) (jOf t) 0 + 512 ≤ stOff c (hOf t') (jOf t') 0 ∨ stOff c (hOf t') (jOf t') 0 + 512 ≤ stOff c (hOf t) (jOf t) 0
    rw [stepsLocal_lo0_eq, stepsLocal_lo0_eq]
    split_ifs <;> omega
  · intro x
    have hx0 : (x 0).val < 16384 := (x 0).isLt
    refine ⟨⟨((x 0).val / 512 + 16 * (c.val / 2)) % 32, Nat.mod_lt _ (by decide)⟩, ?_⟩
    show stOff c (hOf _) (jOf _) 0 ≤ (x 0).val ∧ (x 0).val < stOff c (hOf _) (jOf _) 0 + 512
    rw [stepsLocal_lo0_eq]
    show (if ((x 0).val / 512 + 16 * (c.val / 2)) % 32 < 16 then 8192 * (c.val / 2) + 512 * (((x 0).val / 512 + 16 * (c.val / 2)) % 32)
        else 512 * (((x 0).val / 512 + 16 * (c.val / 2)) % 32 - 16) + 8192 - 8192 * (c.val / 2)) ≤ (x 0).val
      ∧ (x 0).val < (if ((x 0).val / 512 + 16 * (c.val / 2)) % 32 < 16 then 8192 * (c.val / 2) + 512 * (((x 0).val / 512 + 16 * (c.val / 2)) % 32)
        else 512 * (((x 0).val / 512 + 16 * (c.val / 2)) % 32 - 16) + 8192 - 8192 * (c.val / 2)) + 512
    split_ifs <;> omega

/-- The shard before its copy to the result array: its right half whole, and the left halves no y-transfer holds. -/
theorem stepsLocal_shard_split (c : Dev nD) (fs : Buf (Elt F) ((c : Thread nD τ).loc cc0_scratch0)) :
    StVs m c fs 0 32 16 0 ⊢ iprop((vsM.view.loc (c : Thread nD τ) ↦[vsM.view.set]{fullShare.right} VS m c) ∗ StVs m c fs 1 32 16 0) := by
  have hA : ∀ i ∈ (Finset.univ : Finset (Fin 32)),
      (vsM.view.loc (c : Thread nD τ) ↦[vsSet c i]{if i.val < 16 then fullShare.right else fullShare} (if i.val < 32 then VS m c else fs) : sProp 𝕄)
      ⊢ iprop((vsM.view.loc (c : Thread nD τ) ↦[vsSet c i]{fullShare.right} VS m c)
          ∗ (if (16 ≤ i.val ∨ i.val < 0) then (vsM.view.loc (c : Thread nD τ) ↦[vsSet c i]{fullShare.left} VS m c) else emp)) := by
    intro i _
    rw [if_pos i.isLt]
    by_cases h : i.val < 16
    · rw [if_pos h, if_neg (by omega)]; exact (sep_emp (PROP := sProp 𝕄)).2
    · rw [if_neg h, if_pos (by omega)]
      exact (pointsTo_share (PosShare.mem_left_op_right fullShare)).1.trans sep_comm.1
  have e0 : StVs m c fs 0 32 16 0 = bigSep Finset.univ fun i : Fin 32 =>
      (vsM.view.loc (c : Thread nD τ) ↦[vsSet c i]{if i.val < 16 then fullShare.right else fullShare} (if i.val < 32 then VS m c else fs) : sProp 𝕄) := rfl
  have e1 : StVs m c fs 1 32 16 0 = bigSep (Finset.univ.filter fun i : Fin 32 => 16 ≤ i.val ∨ i.val < 0) fun i =>
      (vsM.view.loc (c : Thread nD τ) ↦[vsSet c i]{fullShare.left} VS m c : sProp 𝕄) := rfl
  rw [e0, e1, bigSep_filter, stepsLocal_shard_whole m c fullShare.right]
  exact (bigSep_mono hA).trans (Entails.of_eq (bigSep_sep' _ _ _))

section Steps

variable (K : Dev nD × Kind → ℕ) (c : Dev nD)
variable (fv : Buf (Elt F) ((c : Thread nD τ).loc cc0_scratch1)) (fs : Buf (Elt F) ((c : Thread nD τ).loc cc0_scratch0))
variable (fo : Buf (Elt F) ((c : Thread nD τ).loc main_v1))

local notation "WP" => wp frame (wpE (defs₀ (F := F)) 𝒱₀ (c : Thread nD τ) none) Set.univ

variable {α : Type} {Q : α → sProp 𝕄}

/-- Load `i` is issued. -/
theorem s_ld_start (i : Fin 32) (a b : ℕ) (ha : a = i.val) (hb : i.val ≤ b + 1) (hb' : b ≤ i.val)
    {hsrc hdst hsem} {k : PUnit → Prog (TpuEff nD τ sig (Elt F) Λ₀ .tc) α} {Q : α → sProp 𝕄} :
    iprop(Pers m K ∗ StLd m c fv a b ∗ (StLd m c fv (a + 1) b -∗ WP (k ⟨⟩) Q))
      ⊢ WP (.op (.enqueueDma (ldSrc c (hOf i) (jOf i)) (.here (vslot (sOf i))) (.dma (lsemS (sOf i))) hsrc hdst hsem) k) Q := by
  subst ha
  have hi := i.isLt
  have hr16 := stepsLocal_rOf_lt i
  have hwa := stepsLocal_wcount_self i
  have hwa1 := stepsLocal_wcount_succ i
  have hwb : wcount b (sOf i) = rOf i := by
    unfold wcount rOf; rw [stepsLocal_sOf_val]; omega
  -- the token of load i
  have e1 := stepsLocal_bigSep_filter_insert (F := F) (fun x : Fin 32 => i.val + 1 ≤ x.val) (fun x : Fin 32 => i.val ≤ x.val)
      i (by omega) (fun x => by rw [Fin.ext_iff]; omega) (fun x : Fin 32 => dutyTok ER (ldCell c (sOf x)) (rOf x) false)
  -- the rows of load i out of those not in flight
  have e2 := stepsLocal_bigSep_filter_insert (F := F) (fun x : Fin 32 => x.val < b ∨ i.val + 1 ≤ x.val) (fun x : Fin 32 => x.val < b ∨ i.val ≤ x.val)
      i (by omega) (fun x => by rw [Fin.ext_iff]; omega)
      (fun x : Fin 32 => ((ldSrc c (hOf x) (jOf x)).view.loc (c : Thread nD τ) ↦[(ldSrc c (hOf x) (jOf x)).view.set]{fullShare} m ((c : Thread nD τ).loc main_arg0) : sProp 𝕄))
  -- its credit among those in flight
  have e3 := stepsLocal_bigSep_filter_insert (F := F) (fun x : Fin 32 => b ≤ x.val ∧ x.val < i.val) (fun x : Fin 32 => b ≤ x.val ∧ x.val < i.val + 1)
      i (by omega) (fun x => by rw [Fin.ext_iff]; omega) (fun x : Fin 32 => cred (tallyAt (ldCell c (sOf x)) () NL))
  have h4 := stepsLocal_bigSep_update (F := F)
    (fun s : Fin 2 => iprop(atPos ER (ldCell c s) (wcount b s) ∅ 0 ∗ reached ER (ldCell c s) (wcount b s)
        ∗ (if wcount i.val s = wcount b s then
            ((vslot s).view.loc (c : Thread nD τ) ↦[(vslot s).view.set]{fullShare} slotC m c fv b s) else iprop(emp))))
    (fun s : Fin 2 => iprop(atPos ER (ldCell c s) (wcount b s) ∅ 0 ∗ reached ER (ldCell c s) (wcount b s)
        ∗ (if wcount (i.val + 1) s = wcount b s then
            ((vslot s).view.loc (c : Thread nD τ) ↦[(vslot s).view.set]{fullShare} slotC m c fv b s) else iprop(emp))))
    (sOf i)
    iprop(atPos ER (ldCell c (sOf i)) (rOf i) ∅ 0 ∗ reached ER (ldCell c (sOf i)) (rOf i)
        ∗ ((vslot (sOf i)).view.loc (c : Thread nD τ) ↦[(vslot (sOf i)).view.set]{fullShare} slotC m c fv b (sOf i)))
    iprop(atPos ER (ldCell c (sOf i)) (rOf i) ∅ 0 ∗ reached ER (ldCell c (sOf i)) (rOf i) ∗ emp)
    (by simp only [hwa, hwb, if_true])
    (by simp only [hwa1, hwb, if_neg (show ¬ rOf i + 1 = rOf i by omega)])
    (fun s hs => by rw [stepsLocal_wcount_other i s hs])
  have hpay : iprop(((vslot (sOf i)).view.loc (c : Thread nD τ) ↦[(vslot (sOf i)).view.set]{fullShare}
        ((vslot (sOf i)).view.write (Elt F) (slotC m c fv b (sOf i)) ((ldSrc c (hOf i) (jOf i)).view.read (Elt F) (m ((c : Thread nD τ).loc main_arg0))) Finset.univ))
      ∗ ((ldSrc c (hOf i) (jOf i)).view.loc (c : Thread nD τ) ↦[(ldSrc c (hOf i) (jOf i)).view.set]{fullShare} m ((c : Thread nD τ).loc main_arg0)))
      ⊢ (sched m).payload (ldCell c (sOf i)) (rOf i) false := by
    rw [payload_ld, stepsLocal_ldPay_at m c i, stepsLocal_land_congr m c fv i b]
  unfold Pers records StLd
  iintro ⟨⟨⟨#HI, #HR0⟩, #Hlev⟩, ⟨H1, H2, H3, H4⟩, Hk⟩
  ihave #HIs := (stepsLocal_bigSep_elim (F := F) (Φ := fun ck : Dev nD × Kind => cellInv ER (sched m) (K ck) (cellAt ck)) (Finset.mem_univ ((c, Kind.ld (sOf i)) : Dev nD × Kind))) $$ HI
  ihave H1 := (Entails.of_eq e1) $$ H1
  icases H1 with ⟨Htok, H1⟩
  ihave H2 := (Entails.of_eq e2) $$ H2
  icases H2 with ⟨Hsrc, H2⟩
  ihave H4 := h4 $$ H4
  icases H4 with ⟨⟨Hat, #Hr, Hs⟩, H4b⟩
  iapply (Rounds.wp_copy_pointsTo 𝒱₀ ER (sched m) (c : Thread nD τ) none (κ := K (c, Kind.ld (sOf i))) (r := rOf i) (d := false)
      (src := ldSrc c (hOf i) (jOf i)) (dst := vslot (sOf i)) (sem := .dma (lsemS (sOf i)))
      (q := fullShare) (fs := m ((c : Thread nD τ).loc main_arg0)) (fd := slotC m c fv b (sOf i))
      (by rw [duties_ld m c (sOf i) (rOf i) hr16]; exact Finset.mem_singleton_self _) () NL (stepsLocal_credit_NL (vslot (sOf i)))
      (amount_ld m c (sOf i) (rOf i) false) hpay)
    $$ [Hsrc Hs Htok]
  · isplitr; · iexact HIs
    isplitl [Hsrc]; · iexact Hsrc
    isplitl [Hs]; · iexact Hs
    isplitl [Htok]; · iexact Htok
    iexact Hr
  iintro Hc
  iapply Hk
  rw [e3]
  isplitl [H1]; · iexact H1
  isplitl [H2]; · iexact H2
  isplitl [Hc H3]
  · isplitl [Hc]; · iexact Hc
    iexact H3
  iapply H4b
  isplitl [Hat]; · iexact Hat
  isplitr; · iexact Hr
  iempintro

/-- Load `i` is waited for: its slot holds the rows it copied. -/
theorem s_ld_wait (i : Fin 32) (a b : ℕ) (hb : b = i.val) (ha : i.val < a) (O : CellTallies nD τ sig Unit)
    (hO : ∀ g u, 0 < O g u → g.1.2 = .tc ∧ 0 < lv g u)
    {s' : Shape} {e' : EltTy} {sp' : _} {src : Memref sig .tc sp' s' e'} {sp : _} {dst : Memref sig .tc sp S512x1024 .f32} {hsrc hdst}
    {k : PUnit → Prog (TpuEff nD τ sig (Elt F) Λ₀ .tc) α} {Q : α → sProp 𝕄} :
    iprop(Pers m K ∗ StLd m c fv a b ∗ Ow c O ∗ ((StLd m c fv a (b + 1) ∗ Ow c O) -∗ WP (k ⟨⟩) Q))
      ⊢ WP (.op (.waitDma2 (lsemS (sOf i)) src dst hsrc hdst) k) Q := by
  subst hb
  have hi := i.isLt
  have hN := stepsLocal_credit_NL dst
  have hr16 := stepsLocal_rOf_lt i
  have hw0 := stepsLocal_wcount_self i
  have hw1 := stepsLocal_wcount_succ i
  -- the credit of load i out of those in flight
  have e3 := stepsLocal_bigSep_filter_insert (F := F) (fun x : Fin 32 => i.val + 1 ≤ x.val ∧ x.val < a) (fun x : Fin 32 => i.val ≤ x.val ∧ x.val < a)
      i (by omega) (fun x => by rw [Fin.ext_iff]; omega) (fun x : Fin 32 => cred (tallyAt (ldCell c (sOf x)) () NL))
  -- the rows of load i back among those not in flight
  have e2 := stepsLocal_bigSep_filter_insert (F := F) (fun x : Fin 32 => x.val < i.val ∨ a ≤ x.val) (fun x : Fin 32 => x.val < i.val + 1 ∨ a ≤ x.val)
      i (by omega) (fun x => by rw [Fin.ext_iff]; omega)
      (fun x : Fin 32 => ((ldSrc c (hOf x) (jOf x)).view.loc (c : Thread nD τ) ↦[(ldSrc c (hOf x) (jOf x)).view.set]{fullShare} m ((c : Thread nD τ).loc main_arg0) : sProp 𝕄))
  have h4 := stepsLocal_bigSep_update (F := F)
    (fun s : Fin 2 => iprop(atPos ER (ldCell c s) (wcount i.val s) ∅ 0 ∗ reached ER (ldCell c s) (wcount i.val s)
        ∗ (if wcount a s = wcount i.val s then
            ((vslot s).view.loc (c : Thread nD τ) ↦[(vslot s).view.set]{fullShare} slotC m c fv i.val s) else iprop(emp))))
    (fun s : Fin 2 => iprop(atPos ER (ldCell c s) (wcount (i.val + 1) s) ∅ 0 ∗ reached ER (ldCell c s) (wcount (i.val + 1) s)
        ∗ (if wcount a s = wcount (i.val + 1) s then
            ((vslot s).view.loc (c : Thread nD τ) ↦[(vslot s).view.set]{fullShare} slotC m c fv (i.val + 1) s) else iprop(emp))))
    (sOf i) _ _ rfl rfl
    (fun s hs => by
      have h := stepsLocal_wcount_other i s hs
      rw [h, stepsLocal_slotC_congr m c fv _ _ s h])
  unfold Pers records Ow StLd
  iintro ⟨⟨⟨#HI, #HR0⟩, #Hlev⟩, ⟨H1, H2, H3, H4⟩, ⟨%W, HO⟩, Hk⟩
  ihave #HIs := (stepsLocal_bigSep_elim (F := F) (Φ := fun ck : Dev nD × Kind => cellInv ER (sched m) (K ck) (cellAt ck)) (Finset.mem_univ ((c, Kind.ld (sOf i)) : Dev nD × Kind))) $$ HI
  ihave H3 := (Entails.of_eq e3) $$ H3
  icases H3 with ⟨Hc, H3⟩
  ihave H4 := h4 $$ H4
  icases H4 with ⟨⟨Hat, -, -⟩, H4b⟩
  iapply (Rounds.wp_wait_rest_token 𝒱₀ ER (sched m) (c : Thread nD τ) none (κ := K (c, Kind.ld (sOf i)))
      (wpE_waitDma2_eq 𝒱₀ (c : Thread nD τ) none Set.univ) (Set.mem_univ _) () (O := O) (W := W) (R := wcount i.val (sOf i)) (m := 0) (T := ∅)
      (by rw [Nat.zero_add, hw0, expect_ld m c (sOf i) (rOf i) hr16, hN])) $$ [Hc HO Hat]
  · isplitr; · iexact HIs
    isplitl [Hc]; · rw [hN]; iexact Hc
    isplitl [HO]; · iexact HO
    isplitr; · iapply (stepsLocal_mayWait (F := F) c (.dma (lsemS (sOf i))) _ (stepsLocal_lv_ld c (sOf i)) hO); iexact Hlev
    iexact Hat
  iintro ⟨HO, Hat, Hr, Hpay⟩
  rw [hw0]
  ihave Hp := (Entails.of_eq ((rest_ld m c (sOf i) (rOf i) hr16).trans (stepsLocal_ldPay_at m c i))) $$ Hpay
  icases Hp with ⟨Hs, Hsrc⟩
  iapply Hk
  isplitr [HO]
  · rw [e2]
    isplitl [H1]; · iexact H1
    isplitl [H2 Hsrc]
    · isplitl [Hsrc]; · iexact Hsrc
      iexact H2
    isplitl [H3]; · iexact H3
    iapply H4b
    rw [hw1, stepsLocal_slotC_after m c fv i (i.val + 1) rfl]
    isplitl [Hat]; · iexact Hat
    isplitl [Hr]; · iexact Hr
    iapply (stepsLocal_ite_intro (F := F)); iexact Hs
  iexists _; iexact HO

/-- The vector load of load `i`'s slot, after its wait and before the next load into that slot is issued. -/
theorem s_vload (i : Fin 32) (a b : ℕ) (hb : b = i.val + 1) (ha : a ≤ i.val + 2) (hab : i.val + 1 ≤ a)
    {hl} {k : Vec F S1x512x1024 .f32 → Prog (TpuEff nD τ sig (Elt F) Λ₀ .tc) α} {Q : α → sProp 𝕄} :
    iprop(StLd m c fv a b ∗ (StLd m c fv a b -∗ WP (k (slotVal m c i)) Q))
      ⊢ WP (.op (.load (vlM : Memref sig .tc .vmem S2x512x1024 .f32) (slotRect (sOf i)).toLoadRect hl) k) Q := by
  have hw : wcount a (sOf i) = wcount b (sOf i) := by
    unfold wcount; rw [stepsLocal_sOf_val, hb]; omega
  unfold slotVal
  iintro ⟨H, Hk⟩
  ihave H' := (stepsLocal_StLd_slot m c fv (sOf i) a b hw) $$ H
  icases H' with ⟨Hs, Hback⟩
  rw [stepsLocal_slotC_after m c fv i b hb]
  iapply (wp_load_rect 𝒱₀ (c : Thread nD τ) none Set.univ (m := vlM) (r := slotRect (sOf i))
    (S := (vslot (sOf i)).view.set) (Finset.subset_of_eq (View.set_reshape _ _).symm)) $$ Hs
  iintro Hs
  iapply Hk
  iapply Hback
  iexact Hs

/-- The vector load of the chunk about to be stored: its value is not used. -/
theorem s_vsload (i : Fin 32) (nC nY : ℕ) (hC : nC = i.val) (hY : nY ≤ i.val)
    {hl} {k : Vec F S512x1024 .bf16 → Prog (TpuEff nD τ sig (Elt F) Λ₀ .tc) α} {Q : α → sProp 𝕄} :
    iprop(StVs m c fs 0 nC nY 0 ∗ (∀ v, StVs m c fs 0 nC nY 0 -∗ WP (k v) Q))
      ⊢ WP (.op (.load (vsM : Memref sig .tc .vmem S16384x1024 .bf16) (stRect c (hOf i) (jOf i)).toLoadRect hl) k) Q := by
  have e : ∀ nC' : ℕ, StVs m c fs 0 nC' nY 0 = bigSep Finset.univ fun i : Fin 32 =>
      (vsM.view.loc (c : Thread nD τ) ↦[vsSet c i]{if i.val < nY then fullShare.right else fullShare} (if i.val < nC' then VS m c else fs)) :=
    fun _ => rfl
  rw [e]
  iintro ⟨H, Hk⟩
  ihave H2 := (bigSep_univ_update (Ψ := fun i : Fin 32 =>
      (vsM.view.loc (c : Thread nD τ) ↦[vsSet c i]{if i.val < nY then fullShare.right else fullShare} (if i.val < nC then VS m c else fs))) i (fun _ _ => rfl)) $$ H
  icases H2 with ⟨Hi, Hback⟩
  iapply (wp_load_rect 𝒱₀ (c : Thread nD τ) none Set.univ (m := vsM) (r := stRect c (hOf i) (jOf i)) (Finset.Subset.refl _)) $$ Hi
  iintro Hi
  iapply Hk
  iapply Hback
  iexact Hi

/-- Conversion `i` is stored. -/
theorem s_store (i : Fin 32) (nC nY : ℕ) (hC : nC = i.val) (hY : nY ≤ i.val) (w : Vec F S512x1024 .bf16) (hw : w = pay (slotVal m c i))
    {hx hm} {k : PUnit → Prog (TpuEff nD τ sig (Elt F) Λ₀ .tc) α} {Q : α → sProp 𝕄} :
    iprop(StVs m c fs 0 nC nY 0 ∗ (StVs m c fs 0 (nC + 1) nY 0 -∗ WP (k ⟨⟩) Q))
      ⊢ WP (.op (.store (vsM : Memref sig .tc .vmem S16384x1024 .bf16) (stRect c (hOf i) (jOf i)) w Finset.univ hx hm) k) Q := by
  subst hC
  have hi := i.isLt
  have e : ∀ nC' : ℕ, StVs m c fs 0 nC' nY 0 = bigSep Finset.univ fun i : Fin 32 =>
      (vsM.view.loc (c : Thread nD τ) ↦[vsSet c i]{if i.val < nY then fullShare.right else fullShare} (if i.val < nC' then VS m c else fs)) :=
    fun _ => rfl
  rw [e, e]
  iintro ⟨H, Hk⟩
  ihave H2 := (bigSep_univ_update (Ψ := fun i' : Fin 32 =>
      (vsM.view.loc (c : Thread nD τ) ↦[vsSet c i']{if i'.val < nY then fullShare.right else fullShare} (if i'.val < i.val + 1 then VS m c else fs))) i
      (fun j hj => by
        have hj' : j.val ≠ i.val := fun h => hj (Fin.ext h)
        by_cases h : j.val < i.val
        · rw [if_pos h, if_pos (show j.val < i.val + 1 by omega)]
        · rw [if_neg h, if_neg (show ¬ j.val < i.val + 1 by omega)])) $$ H
  icases H2 with ⟨Hi, Hback⟩
  rw [if_neg (show ¬ i.val < nY by omega), if_neg (lt_irrefl i.val), if_pos (Nat.lt_succ_self i.val)]
  iapply (wp_store 𝒱₀ (c : Thread nD τ) none Set.univ (m := vsM) (r := stRect c (hOf i) (jOf i)) (Mk := Finset.univ)
    (S := vsSet c i) (f := fs) (Finset.subset_of_eq (View.setOn_univ _))) $$ Hi
  iintro Hi
  iapply Hk
  iapply Hback
  ihave Hi := (Entails.of_eq (stepsLocal_store_congr m c fs i w hw)) $$ Hi
  iexact Hi

/-- The store of the whole shard to the device's own block is issued. -/
theorem s_st_start {hsrc hdst hsem} {k : PUnit → Prog (TpuEff nD τ sig (Elt F) Λ₀ .tc) α} {Q : α → sProp 𝕄} :
    iprop(Pers m K ∗ StVs m c fs 0 32 16 0 ∗ StSt m c fo 0 ∗ ((StVs m c fs 1 32 16 0 ∗ StSt m c fo 1) -∗ WP (k ⟨⟩) Q))
      ⊢ WP (.op (.enqueueDma (vsM : Memref sig .tc .vmem S16384x1024 .bf16) (.here (ownM c)) (.dma ssemS) hsrc hdst hsem) k) Q := by
  have hpay : iprop(((ownM c).view.loc (c : Thread nD τ) ↦[(ownM c).view.set]{fullShare}
        ((ownM c).view.write (Elt F) fo ((vsM : Memref sig .tc .vmem S16384x1024 .bf16).view.read (Elt F) (VS m c)) Finset.univ))
      ∗ ((vsM : Memref sig .tc .vmem S16384x1024 .bf16).view.loc (c : Thread nD τ) ↦[(vsM : Memref sig .tc .vmem S16384x1024 .bf16).view.set]{fullShare.right} VS m c))
      ⊢ (sched m).payload (stCell c) 0 false := by
    rw [payload_st, stepsLocal_own_congr m c fo]
    exact Entails.of_eq rfl
  rw [show StSt m c fo 0 = iprop(dutyTok ER (stCell c) 0 false ∗ atPos ER (stCell c) 0 ∅ 0
      ∗ ((ownM c).view.loc (c : Thread nD τ) ↦[(ownM c).view.set]{fullShare} fo)) from rfl,
    show StSt m c fo 1 = iprop(atPos ER (stCell c) 0 ∅ 0 ∗ cred (tallyAt (stCell c) () NS)) from rfl]
  unfold Pers records
  iintro ⟨⟨⟨#HI, #HR0⟩, #Hlev⟩, Hvs, ⟨Htok, Hat, Hown⟩, Hk⟩
  ihave #HIs := (stepsLocal_bigSep_elim (F := F) (Φ := fun ck : Dev nD × Kind => cellInv ER (sched m) (K ck) (cellAt ck)) (Finset.mem_univ ((c, Kind.st) : Dev nD × Kind))) $$ HI
  ihave #Hr := (stepsLocal_bigSep_elim (F := F) (Φ := fun ck : Dev nD × Kind => reached ER (cellAt ck) 0) (Finset.mem_univ ((c, Kind.st) : Dev nD × Kind))) $$ HR0
  ihave Hvs := (stepsLocal_shard_split m c fs) $$ Hvs
  icases Hvs with ⟨Hsrc, Hvs⟩
  iapply (Rounds.wp_copy_pointsTo 𝒱₀ ER (sched m) (c : Thread nD τ) none (κ := K (c, Kind.st)) (r := 0) (d := false)
      (src := (vsM : Memref sig .tc .vmem S16384x1024 .bf16)) (dst := ownM c) (sem := .dma ssemS)
      (q := fullShare.right) (fs := VS m c) (fd := fo)
      (by rw [duties_st m c]; exact Finset.mem_singleton_self _) () NS (stepsLocal_credit_NS (ownM c)) (amount_st m c false) hpay)
    $$ [Hsrc Hown Htok]
  · isplitr; · iexact HIs
    isplitl [Hsrc]; · iexact Hsrc
    isplitl [Hown]; · iexact Hown
    isplitl [Htok]; · iexact Htok
    iexact Hr
  iintro Hc
  iapply Hk
  isplitl [Hvs]; · iexact Hvs
  isplitl [Hat]; · iexact Hat
  iexact Hc

/-- The store of the shard is waited for: the device's own block is final, the shard's right half back. -/
theorem s_st_wait (nYS nE : ℕ) {s' : Shape} {e' : EltTy} {sp' : _} {src : Memref sig .tc sp' s' e'} {sp : _} {dst : Memref sig .tc sp S16384x1024 .bf16} {hsrc hdst}
    {k : PUnit → Prog (TpuEff nD τ sig (Elt F) Λ₀ .tc) α} {Q : α → sProp 𝕄} :
    iprop(Pers m K ∗ StSt m c fo 1 ∗ StVs m c fs 1 32 16 nYS ∗ Ow c (owedAt c 2 16 16 nE)
        ∗ ((StSt m c fo 2 ∗ StVs m c fs 2 32 16 nYS ∗ Ow c (owedAt c 2 16 16 nE)) -∗ WP (k ⟨⟩) Q))
      ⊢ WP (.op (.waitDma2 ssemS src dst hsrc hdst) k) Q := by
  have hN := stepsLocal_credit_NS dst
  rw [show StSt m c fo 1 = iprop(atPos ER (stCell c) 0 ∅ 0 ∗ cred (tallyAt (stCell c) () NS)) from rfl,
    show StSt m c fo 2 = iprop(semVal (stCell c) 0 ∗ ((ownM c).view.loc (c : Thread nD τ) ↦[(ownM c).view.set]{fullShare} OUT m c)) from rfl,
    show StVs m c fs 2 32 16 nYS = iprop(StVs m c fs 1 32 16 nYS ∗ (vsM.view.loc (c : Thread nD τ) ↦[vsM.view.set]{fullShare.right} VS m c)) from rfl]
  unfold Pers records Ow
  iintro ⟨⟨⟨#HI, #HR0⟩, #Hlev⟩, ⟨Hat, Hc⟩, Hvs, ⟨%W, HO⟩, Hk⟩
  ihave #HIs := (stepsLocal_bigSep_elim (F := F) (Φ := fun ck : Dev nD × Kind => cellInv ER (sched m) (K ck) (cellAt ck)) (Finset.mem_univ ((c, Kind.st) : Dev nD × Kind))) $$ HI
  iapply (Rounds.wp_wait_rest_token 𝒱₀ ER (sched m) (c : Thread nD τ) none (κ := K (c, Kind.st))
      (wpE_waitDma2_eq 𝒱₀ (c : Thread nD τ) none Set.univ) (Set.mem_univ _) () (O := owedAt c 2 16 16 nE) (W := W) (R := 0) (m := 0) (T := ∅)
      (by rw [Nat.zero_add, expect_st, hN])) $$ [Hc HO Hat]
  · isplitr; · iexact HIs
    isplitl [Hc]; · rw [hN]; iexact Hc
    isplitl [HO]; · iexact HO
    isplitr; · iapply (stepsLocal_mayWait (F := F) c (.dma ssemS) _ (stepsLocal_lv_st c) (owedAt_lv_pos c 16 16 nE)); iexact Hlev
    iexact Hat
  iintro ⟨HO, Hat, -, Hpay⟩
  ihave Hp := (Entails.of_eq (rest_st m c)) $$ Hpay
  unfold stPay
  icases Hp with ⟨Hown, Hvr⟩
  imod (Rounds.cell_close ER (sched m) (Set.mem_univ (K (c, Kind.st))) (fun h => h) (R := 0 + 1) (duties_st_later m c)) $$ [Hat] with Hz
  · isplitr; · iexact HIs
    iexact Hat
  iapply Hk
  isplitl [Hz Hown]
  · isplitl [Hz]; · iexact Hz
    iexact Hown
  isplitl [Hvs Hvr]
  · isplitl [Hvs]; · iexact Hvs
    iexact Hvr
  iexists _; iexact HO

/-- The send of y-transfer `j` is waited for: the chunk's left half is back. -/
theorem s_ysend_wait (j : Fin 16) (mode nYS nE : ℕ) (hS : nYS = j.val) (hm : mode = 1 ∨ mode = 2)
    {s' : Shape} {e' : EltTy} {sp' : _} {src : Memref sig .tc sp' s' e'} {sp : _} {dst : Memref sig .tc sp S512x1024 .bf16} {hsrc hdst}
    {k : PUnit → Prog (TpuEff nD τ sig (Elt F) Λ₀ .tc) α} {Q : α → sProp 𝕄} :
    iprop(Pers m K ∗ sendCells (ysendCell c) 16 nYS ∗ StVs m c fs mode 32 16 nYS ∗ Ow c (owedAt c 2 16 16 nE)
        ∗ ((sendCells (ysendCell c) 16 (nYS + 1) ∗ StVs m c fs mode 32 16 (nYS + 1) ∗ Ow c (owedAt c 2 16 16 nE)) -∗ WP (k ⟨⟩) Q))
      ⊢ WP (.op (.waitDma2 (ysendS j) src dst hsrc hdst) k) Q := by
  subst hS
  have hj := j.isLt
  have hN := stepsLocal_credit_N dst
  have eΦ : (if j.val < j.val then semVal (ysendCell c j) 0
      else if j.val < 16 then iprop(atPos ER (ysendCell c j) 0 ∅ 0 ∗ cred (tallyAt (ysendCell c j) () N))
      else atPos ER (ysendCell c j) 0 ∅ 0 : sProp 𝕄)
      = iprop(atPos ER (ysendCell c j) 0 ∅ 0 ∗ cred (tallyAt (ysendCell c j) () N)) := by
    rw [if_neg (lt_irrefl j.val), if_pos hj]
  have eΨ : (if j.val < j.val + 1 then semVal (ysendCell c j) 0
      else if j.val < 16 then iprop(atPos ER (ysendCell c j) 0 ∅ 0 ∗ cred (tallyAt (ysendCell c j) () N))
      else atPos ER (ysendCell c j) 0 ∅ 0 : sProp 𝕄) = semVal (ysendCell c j) 0 := by
    rw [if_pos (Nat.lt_succ_self j.val)]
  have hsc := stepsLocal_bigSep_update (F := F)
    (fun j' : Fin 16 => (if j'.val < j.val then semVal (ysendCell c j') 0
      else if j'.val < 16 then iprop(atPos ER (ysendCell c j') 0 ∅ 0 ∗ cred (tallyAt (ysendCell c j') () N))
      else atPos ER (ysendCell c j') 0 ∅ 0 : sProp 𝕄))
    (fun j' : Fin 16 => (if j'.val < j.val + 1 then semVal (ysendCell c j') 0
      else if j'.val < 16 then iprop(atPos ER (ysendCell c j') 0 ∅ 0 ∗ cred (tallyAt (ysendCell c j') () N))
      else atPos ER (ysendCell c j') 0 ∅ 0 : sProp 𝕄)) j _ _ eΦ eΨ
    (fun j' hj' => by
      have hne : j'.val ≠ j.val := fun h => hj' (Fin.ext h)
      by_cases h : j'.val < j.val
      · rw [if_pos h, if_pos (show j'.val < j.val + 1 by omega)]
      · rw [if_neg h, if_neg (show ¬ j'.val < j.val + 1 by omega)])
  have evs1 : StVs m c fs 1 32 16 (j.val + 1) = iprop(ysendPay m c j ∗ StVs m c fs 1 32 16 j.val) := by
    rw [stepsLocal_ysendPay_eq m c j]
    exact stepsLocal_bigSep_filter_insert (F := F) (fun i : Fin 32 => 16 ≤ i.val ∨ i.val < j.val) (fun i : Fin 32 => 16 ≤ i.val ∨ i.val < j.val + 1)
      (stepsLocal_lo j) (by show ¬ (16 ≤ j.val ∨ j.val < j.val); omega)
      (fun x => by rw [Fin.ext_iff]; show (16 ≤ x.val ∨ x.val < j.val + 1) ↔ (x.val = j.val ∨ (16 ≤ x.val ∨ x.val < j.val)); omega)
      (fun i : Fin 32 => (vsM.view.loc (c : Thread nD τ) ↦[vsSet c i]{fullShare.left} VS m c : sProp 𝕄))
  have hvs : iprop(ysendPay m c j ∗ StVs m c fs mode 32 16 j.val) ⊢ StVs m c fs mode 32 16 (j.val + 1) := by
    rcases hm with rfl | rfl
    · exact Entails.of_eq evs1.symm
    · rw [show StVs m c fs 2 32 16 (j.val + 1) = iprop(StVs m c fs 1 32 16 (j.val + 1) ∗ (vsM.view.loc (c : Thread nD τ) ↦[vsM.view.set]{fullShare.right} VS m c)) from rfl,
        show StVs m c fs 2 32 16 j.val = iprop(StVs m c fs 1 32 16 j.val ∗ (vsM.view.loc (c : Thread nD τ) ↦[vsM.view.set]{fullShare.right} VS m c)) from rfl, evs1]
      iintro ⟨Hp, Hvs, Hr⟩
      isplitl [Hp Hvs]
      · isplitl [Hp]; · iexact Hp
        iexact Hvs
      iexact Hr
  unfold Pers records Ow sendCells
  iintro ⟨⟨⟨#HI, #HR0⟩, #Hlev⟩, Hsc, Hvs, ⟨%W, HO⟩, Hk⟩
  ihave #HIj := (stepsLocal_bigSep_elim (F := F) (Φ := fun ck : Dev nD × Kind => cellInv ER (sched m) (K ck) (cellAt ck)) (Finset.mem_univ ((c, Kind.ysend j) : Dev nD × Kind))) $$ HI
  ihave Hsc' := hsc $$ Hsc
  icases Hsc' with ⟨⟨Hat, Hc⟩, Hscb⟩
  iapply (Rounds.wp_wait_rest_token 𝒱₀ ER (sched m) (c : Thread nD τ) none (κ := K (c, Kind.ysend j))
      (wpE_waitDma2_eq 𝒱₀ (c : Thread nD τ) none Set.univ) (Set.mem_univ _) () (O := owedAt c 2 16 16 nE) (W := W) (R := 0) (m := 0) (T := ∅)
      (by rw [Nat.zero_add, expect_ysend, hN])) $$ [Hc HO Hat]
  · isplitr; · iexact HIj
    isplitl [Hc]; · rw [hN]; iexact Hc
    isplitl [HO]; · iexact HO
    isplitr; · iapply (stepsLocal_mayWait (F := F) c (.dma (ysendS j)) _ (stepsLocal_lv_ysend c j) (owedAt_lv_pos c 16 16 nE)); iexact Hlev
    iexact Hat
  iintro ⟨HO, Hat, -, Hpay⟩
  ihave Hp := (Entails.of_eq (rest_ysend m c j)) $$ Hpay
  imod (Rounds.cell_close ER (sched m) (Set.mem_univ (K (c, Kind.ysend j))) (fun h => h) (R := 0 + 1) (duties_ysend_later m c j)) $$ [Hat] with Hz
  · isplitr; · iexact HIj
    iexact Hat
  iapply Hk
  isplitl [Hz Hscb]
  · iapply Hscb; iexact Hz
  isplitl [Hvs Hp]
  · iapply hvs
    isplitl [Hp]; · iexact Hp
    iexact Hvs
  iexists _; iexact HO

end Steps

end Cert.KernelIdeal.AG

end

/-- info: 'Cert.KernelIdeal.AG.s_ld_start' depends on axioms: [propext, Classical.choice, Quot.sound] -/
#guard_msgs in #print axioms Cert.KernelIdeal.AG.s_ld_start

/-- info: 'Cert.KernelIdeal.AG.s_ld_wait' depends on axioms: [propext, Classical.choice, Quot.sound] -/
#guard_msgs in #print axioms Cert.KernelIdeal.AG.s_ld_wait

/-- info: 'Cert.KernelIdeal.AG.s_vload' depends on axioms: [propext, Classical.choice, Quot.sound] -/
#guard_msgs in #print axioms Cert.KernelIdeal.AG.s_vload

/-- info: 'Cert.KernelIdeal.AG.s_vsload' depends on axioms: [propext, Classical.choice, Quot.sound] -/
#guard_msgs in #print axioms Cert.KernelIdeal.AG.s_vsload

/-- info: 'Cert.KernelIdeal.AG.s_store' depends on axioms: [propext, Classical.choice, Quot.sound] -/
#guard_msgs in #print axioms Cert.KernelIdeal.AG.s_store

/-- info: 'Cert.KernelIdeal.AG.s_st_start' depends on axioms: [propext, Classical.choice, Quot.sound] -/
#guard_msgs in #print axioms Cert.KernelIdeal.AG.s_st_start

/-- info: 'Cert.KernelIdeal.AG.s_st_wait' depends on axioms: [propext, Classical.choice, Quot.sound] -/
#guard_msgs in #print axioms Cert.KernelIdeal.AG.s_st_wait

/-- info: 'Cert.KernelIdeal.AG.s_ysend_wait' depends on axioms: [propext, Classical.choice, Quot.sound] -/
#guard_msgs in #print axioms Cert.KernelIdeal.AG.s_ysend_wait
-- ==== Proof.StepsRemote.lean ====
import proofs.«900094_g7700000000000095_dist_ag_v7x_xy2x2_y_m16384_n1024_bf16_1_alg».proof.Proof.State
import proofs.«900094_g7700000000000095_dist_ag_v7x_xy2x2_y_m16384_n1024_bf16_1_alg».proof.Proof.Tables

/-!
# The transfers to the neighbours

A y-transfer carries a chunk of the shard to the y-neighbour's result array; a forward carries a chunk that arrived
from the y-neighbour on to the x-neighbour's. Each lands at the final contents of the rows it writes.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Products over the chunks at or past a count, and before it -/

private theorem sr_lt16_succ (j : Fin 16) : lt16 (j.val + 1) = insert j (lt16 j.val) := by
  ext i
  simp only [Finset.mem_filter, Finset.mem_univ, true_and, Finset.mem_insert, Fin.ext_iff]
  omega
private theorem sr_not_mem_lt16 (j : Fin 16) : j ∉ lt16 j.val := by
  simp only [Finset.mem_filter, Finset.mem_univ, true_and]; omega
private theorem sr_ge16_eq (j : Fin 16) : ge16 j.val = insert j (ge16 (j.val + 1)) := by
  ext i
  simp only [Finset.mem_filter, Finset.mem_univ, true_and, Finset.mem_insert, Fin.ext_iff]
  omega
private theorem sr_not_mem_ge16 (j : Fin 16) : j ∉ ge16 (j.val + 1) := by
  simp only [Finset.mem_filter, Finset.mem_univ, true_and]; omega

/-- The product over the chunks from `j` on is the term at `j` and the product over the chunks past it. -/
private theorem sr_bigSep_ge16 (j : Fin 16) (Φ : Fin 16 → sProp 𝕄) :
    bigSep (ge16 j.val) Φ = iprop(Φ j ∗ bigSep (ge16 (j.val + 1)) Φ) :=
  (congrArg (fun s => bigSep s Φ) (sr_ge16_eq j)).trans (bigSep_insert (sr_not_mem_ge16 j))
/-- The product over the chunks up to and with `j` is the term at `j` and the product over the chunks before it. -/
private theorem sr_bigSep_lt16 (j : Fin 16) (Φ : Fin 16 → sProp 𝕄) :
    bigSep (lt16 (j.val + 1)) Φ = iprop(Φ j ∗ bigSep (lt16 j.val) Φ) :=
  (congrArg (fun s => bigSep s Φ) (sr_lt16_succ j)).trans (bigSep_insert (sr_not_mem_lt16 j))

/-! ## The credit of a chunk -/

private theorem sr_credit_eq {sp : Space} (dst : Memref sig .tc sp S512x1024 .bf16) : dst.view.dmaCredit = N := rfl

/-! ## The cells' families, one step -/

/-- Waiting for receive `j`: its position and credit out, its closed cell in. -/
private theorem sr_recvCells_step (cell : Fin 16 → GSem nD τ sig) (j : Fin 16) :
    (recvCells (F := F) cell j.val) ⊢ iprop((atPos ER (cell j) 0 ∅ 0 ∗ cred (tallyAt (cell j) () N))
      ∗ (semVal (cell j) 0 -∗ recvCells (F := F) cell (j.val + 1))) := by
  unfold recvCells
  refine (bigSep_univ_update (Ψ := fun i : Fin 16 => if i.val < j.val + 1 then semVal (cell i) 0
      else iprop(atPos ER (cell i) 0 ∅ 0 ∗ cred (tallyAt (cell i) () N))) j (fun i hi => ?_)).trans ?_
  · have hne : i.val ≠ j.val := fun h => hi (Fin.ext h)
    by_cases h : i.val < j.val
    · rw [if_pos h, if_pos (by omega)]
    · rw [if_neg h, if_neg (by omega)]
  · rw [if_neg (Nat.lt_irrefl _), if_pos (Nat.lt_succ_self _)]

/-- Issuing send `j`: the issue's credit joins its position. -/
private theorem sr_sendCells_issue (cell : Fin 16 → GSem nD τ sig) (j : Fin 16) :
    (sendCells (F := F) cell j.val 0) ⊢ iprop(cred (tallyAt (cell j) () N) -∗ sendCells (F := F) cell (j.val + 1) 0) := by
  unfold sendCells
  refine (bigSep_univ_update (Ψ := fun i : Fin 16 => if i.val < 0 then semVal (cell i) 0
      else if i.val < j.val + 1 then iprop(atPos ER (cell i) 0 ∅ 0 ∗ cred (tallyAt (cell i) () N))
      else atPos ER (cell i) 0 ∅ 0) j (fun i hi => ?_)).trans ?_
  · have hne : i.val ≠ j.val := fun h => hi (Fin.ext h)
    rw [if_neg (Nat.not_lt_zero _), if_neg (Nat.not_lt_zero _)]
    by_cases h : i.val < j.val
    · rw [if_pos h, if_pos (by omega)]
    · rw [if_neg h, if_neg (by omega)]
  · rw [if_neg (Nat.not_lt_zero _), if_neg (Nat.not_lt_zero _), if_neg (Nat.lt_irrefl _), if_pos (Nat.lt_succ_self _)]
    iintro ⟨Hat, Hw⟩ Hc
    iapply Hw
    isplitl [Hat] <;> iassumption

/-- Waiting for send `j` of sixteen issued: its position and credit out, its closed cell in. -/
private theorem sr_sendCells_wait (cell : Fin 16 → GSem nD τ sig) (j : Fin 16) :
    (sendCells (F := F) cell 16 j.val) ⊢ iprop((atPos ER (cell j) 0 ∅ 0 ∗ cred (tallyAt (cell j) () N))
      ∗ (semVal (cell j) 0 -∗ sendCells (F := F) cell 16 (j.val + 1))) := by
  unfold sendCells
  refine (bigSep_univ_update (Ψ := fun i : Fin 16 => if i.val < j.val + 1 then semVal (cell i) 0
      else if i.val < 16 then iprop(atPos ER (cell i) 0 ∅ 0 ∗ cred (tallyAt (cell i) () N))
      else atPos ER (cell i) 0 ∅ 0) j (fun i hi => ?_)).trans ?_
  · have hne : i.val ≠ j.val := fun h => hi (Fin.ext h)
    by_cases h : i.val < j.val
    · rw [if_pos h, if_pos (by omega)]
    · rw [if_neg h, if_neg (by omega)]
  · rw [if_neg (Nat.lt_irrefl _), if_pos j.isLt, if_pos (Nat.lt_succ_self _)]

/-! ## What never changes, piece by piece -/

private theorem sr_Pers_inv (K : Dev nD × Kind → ℕ) (d : Dev nD) (k : Kind) :
    Pers m K ⊢ cellInv ER (sched m) (K (d, k)) (cellOfKind d k) := by
  unfold Pers records
  refine BIBase.Entails.trans ?_ (bigSep_elim (Φ := fun ck : Dev nD × Kind => cellInv ER (sched m) (K ck) (cellAt ck)) (Finset.mem_univ ((d, k) : Dev nD × Kind)))
  iintro ⟨⟨H, -⟩, -⟩
  iexact H
private theorem sr_Pers_reached (K : Dev nD × Kind → ℕ) (d : Dev nD) (k : Kind) :
    Pers m K ⊢ reached ER (cellOfKind d k) 0 := by
  unfold Pers records
  refine BIBase.Entails.trans ?_ (bigSep_elim (Φ := fun ck : Dev nD × Kind => reached ER (cellAt ck) 0) (Finset.mem_univ ((d, k) : Dev nD × Kind)))
  iintro ⟨⟨-, H⟩, -⟩
  iexact H
private theorem sr_Pers_lev (K : Dev nD × Kind → ℕ) : Pers m K ⊢ (levAts L lv : sProp 𝕄) := by
  unfold Pers
  iintro ⟨-, H⟩
  iexact H

/-! ## A wait sits below what is still owed -/

/-- Everything owed is owed to a cell of a device's own processor, at a level above `b`. -/
private def sr_Above (b : ℕ) (O : CellTallies nD τ sig Unit) : Prop :=
  ∀ (g : GSem nD τ sig) (u : Unit), 0 < O g u → g.1.2 = .tc ∧ b < lv g u

private theorem sr_above_zero (b : ℕ) : sr_Above b 0 := fun g u h => absurd h (Nat.lt_irrefl 0)
private theorem sr_above_add {b : ℕ} {A B : CellTallies nD τ sig Unit} (hA : sr_Above b A) (hB : sr_Above b B) : sr_Above b (A + B) := fun g u h => by
  rw [Pi.add_apply, Finsupp.add_apply] at h
  rcases Nat.eq_zero_or_pos (A g u) with h0 | h0
  · exact hB g u (by omega)
  · exact hA g u h0
private theorem sr_above_tally {b : ℕ} (g' : GSem nD τ sig) (k : ℕ) (h1 : g'.1.2 = .tc) (h2 : b < lv g' ()) : sr_Above b (tallyAt g' () k) := fun g u h => by
  rw [tallyAt_apply] at h
  by_cases hg : g = g' ∧ u = ()
  · rw [hg.1]; exact ⟨h1, h2⟩
  · rw [if_neg hg] at h; exact absurd h (Nat.lt_irrefl 0)
private theorem sr_above_sum {b : ℕ} {ι : Type} [DecidableEq ι] (s : Finset ι) (f : ι → CellTallies nD τ sig Unit) (h : ∀ i ∈ s, sr_Above b (f i)) :
    sr_Above b (∑ i ∈ s, f i) := by
  induction s using Finset.induction_on with
  | empty => rw [Finset.sum_empty]; exact sr_above_zero b
  | insert i s hi ih =>
    rw [Finset.sum_insert hi]
    exact sr_above_add (h i (Finset.mem_insert_self i s)) (ih fun i' hi' => h i' (Finset.mem_insert_of_mem hi'))

private theorem sr_mayWait_of_above (c : Dev nD) (sm : SemLoc sig) (b : ℕ) (O : CellTallies nD τ sig Unit)
    (hb : lv ((c : Thread nD τ), sm) () ≤ b) (hO : sr_Above b O) :
    (levAts L lv : sProp 𝕄) ⊢ MayWait (c : Thread nD τ) sm () O :=
  MayOwe.of_cut (L := L) (lev := lv) b
    (fun p hp => by rw [Finset.mem_singleton.mp hp]; show () ∈ L ((c : Thread nD τ), sm); unfold L; rw [if_pos rfl]; exact Finset.mem_singleton_self _)
    (fun g u hg => by unfold L; rw [if_pos (hO g u hg).1]; exact Finset.mem_singleton_self _)
    (fun p hp => by rw [Finset.mem_singleton.mp hp]; exact hb)
    (fun g u hg => (hO g u hg).2)

private theorem sr_lv_exit (d : Dev nD) : lv (exitCell d) () = 4 := by unfold lv; rw [kindOf_exit]
private theorem sr_lv_xrecv (d : Dev nD) (j : Fin 16) : lv (xrecvCell d j) () = 3 := by unfold lv; rw [kindOf_xrecv]
private theorem sr_lv_yrecv (d : Dev nD) (j : Fin 16) : lv (yrecvCell d j) () = 2 := by unfold lv; rw [kindOf_yrecv]
private theorem sr_lv_xsend (d : Dev nD) (j : Fin 16) : lv (xsendCell d j) () = 0 := by unfold lv; rw [kindOf_xsend]

private theorem sr_above_exitO (c : Dev nD) (n : ℕ) : sr_Above 3 (exitO c n) := by
  match n with
  | 0 => exact sr_above_add (sr_above_tally _ _ rfl (by rw [sr_lv_exit]; decide)) (sr_above_tally _ _ rfl (by rw [sr_lv_exit]; decide))
  | 1 => exact sr_above_tally _ _ rfl (by rw [sr_lv_exit]; decide)
  | (n + 2) => exact sr_above_zero 3
private theorem sr_above_owedX (c : Dev nD) (n : ℕ) : sr_Above 2 (owedX c n) :=
  sr_above_sum _ _ fun j _ => sr_above_tally _ _ rfl (by rw [sr_lv_xrecv]; decide)
private theorem sr_above_mono {a b : ℕ} (hab : a ≤ b) {O : CellTallies nD τ sig Unit} (h : sr_Above b O) : sr_Above a O :=
  fun g u hg => ⟨(h g u hg).1, lt_of_le_of_lt hab (h g u hg).2⟩
private theorem sr_owedY_16 (c : Dev nD) : owedY c 16 = 0 :=
  Finset.sum_eq_zero fun j hj => absurd (Finset.mem_filter.mp hj).2 (by have := j.isLt; omega)
private theorem sr_owedX_16 (c : Dev nD) : owedX c 16 = 0 :=
  Finset.sum_eq_zero fun j hj => absurd (Finset.mem_filter.mp hj).2 (by have := j.isLt; omega)
/-- Once both entry signals and every y-transfer are issued, what is owed is the forwards' landings and the exit. -/
private theorem sr_above_late (c : Dev nD) (nF nE : ℕ) : sr_Above 2 (owedAt c 2 16 nF nE) := by
  unfold owedAt
  rw [sr_owedY_16]
  exact sr_above_add (sr_above_add (sr_above_add (sr_above_mono (by decide) (sr_above_exitO c nE)) (sr_above_owedX c nF)) (sr_above_zero 2)) (sr_above_zero 2)
private theorem sr_above_last (c : Dev nD) (nE : ℕ) : sr_Above 3 (owedAt c 2 16 16 nE) := by
  unfold owedAt
  rw [sr_owedY_16, sr_owedX_16]
  exact sr_above_add (sr_above_add (sr_above_add (sr_above_exitO c nE) (sr_above_zero 3)) (sr_above_zero 3)) (sr_above_zero 3)

/-! ## The halves of the other block, one step -/

private theorem sr_StC_succ (c : Dev nD) (fo : Buf (Elt F) ((c : Thread nD τ).loc main_v1)) (j : Fin 16) :
    StC m c fo true (j.val + 1) = iprop(xrecvPay m c j ∗ StC m c fo true j.val) := by
  unfold StC xrecvPay
  rw [if_pos rfl, if_pos rfl]
  exact sr_bigSep_lt16 j _

/-- The y-neighbour's chunk `j` has landed: it is the device's, at its final contents. -/
private theorem sr_StB_yrecv (c : Dev nD) (fo : Buf (Elt F) ((c : Thread nD τ).loc main_v1)) (j : Fin 16) (nF nXS : ℕ) (hF : nF ≤ j.val) :
    StB m c fo true j.val nF nXS ⊢ iprop(yrecvPay m c j -∗ StB m c fo true (j.val + 1) nF nXS) := by
  unfold StB yrecvPay
  rw [if_pos rfl, if_pos rfl]
  refine (bigSep_univ_update (Ψ := fun i : Fin 16 => if i.val < nXS ∨ (nF ≤ i.val ∧ i.val < j.val + 1) then
      ((fwM c i).view.loc (c : Thread nD τ) ↦[(fwM c i).view.set]{fullShare} OUT m c) else iprop(emp)) j (fun i hi => ?_)).trans ?_
  · have hne : i.val ≠ j.val := fun h => hi (Fin.ext h)
    have : (i.val < nXS ∨ (nF ≤ i.val ∧ i.val < j.val + 1)) ↔ (i.val < nXS ∨ (nF ≤ i.val ∧ i.val < j.val)) := by omega
    exact if_congr this rfl rfl
  · rw [if_pos (show j.val < nXS ∨ (nF ≤ j.val ∧ j.val < j.val + 1) from Or.inr ⟨hF, Nat.lt_succ_self _⟩)]
    iintro ⟨-, Hw⟩ Hp
    iapply Hw
    iexact Hp

/-- The forward of chunk `j` takes it. -/
private theorem sr_StB_fw (c : Dev nD) (fo : Buf (Elt F) ((c : Thread nD τ).loc main_v1)) (j : Fin 16) (nYR nXS : ℕ) (hR : j.val < nYR) (hS : nXS ≤ j.val) :
    StB m c fo true nYR j.val nXS ⊢ iprop(xsendPay m c j ∗ StB m c fo true nYR (j.val + 1) nXS) := by
  unfold StB xsendPay
  rw [if_pos rfl, if_pos rfl]
  refine (bigSep_univ_update (Ψ := fun i : Fin 16 => if i.val < nXS ∨ (j.val + 1 ≤ i.val ∧ i.val < nYR) then
      ((fwM c i).view.loc (c : Thread nD τ) ↦[(fwM c i).view.set]{fullShare} OUT m c) else iprop(emp)) j (fun i hi => ?_)).trans ?_
  · have hne : i.val ≠ j.val := fun h => hi (Fin.ext h)
    have : (i.val < nXS ∨ (j.val + 1 ≤ i.val ∧ i.val < nYR)) ↔ (i.val < nXS ∨ (j.val ≤ i.val ∧ i.val < nYR)) := by omega
    exact if_congr this rfl rfl
  · rw [if_pos (show j.val < nXS ∨ (j.val ≤ j.val ∧ j.val < nYR) from Or.inr ⟨Nat.le_refl _, hR⟩),
      if_neg (show ¬ (j.val < nXS ∨ (j.val + 1 ≤ j.val ∧ j.val < nYR)) by omega)]
    iintro ⟨Hp, Hw⟩
    isplitl [Hp]; · iexact Hp
    iapply Hw
    iempintro

/-- The forward of chunk `j` has read it: it is the device's again. -/
private theorem sr_StB_xsend (c : Dev nD) (fo : Buf (Elt F) ((c : Thread nD τ).loc main_v1)) (j : Fin 16) :
    StB m c fo true 16 16 j.val ⊢ iprop(xsendPay m c j -∗ StB m c fo true 16 16 (j.val + 1)) := by
  unfold StB xsendPay
  rw [if_pos rfl, if_pos rfl]
  refine (bigSep_univ_update (Ψ := fun i : Fin 16 => if i.val < j.val + 1 ∨ (16 ≤ i.val ∧ i.val < 16) then
      ((fwM c i).view.loc (c : Thread nD τ) ↦[(fwM c i).view.set]{fullShare} OUT m c) else iprop(emp)) j (fun i hi => ?_)).trans ?_
  · have hne : i.val ≠ j.val := fun h => hi (Fin.ext h)
    have : (i.val < j.val + 1 ∨ (16 ≤ i.val ∧ i.val < 16)) ↔ (i.val < j.val ∨ (16 ≤ i.val ∧ i.val < 16)) := by omega
    exact if_congr this rfl rfl
  · rw [if_pos (show j.val < j.val + 1 ∨ (16 ≤ j.val ∧ j.val < 16) from Or.inl (Nat.lt_succ_self _))]
    iintro ⟨-, Hw⟩ Hp
    iapply Hw
    iexact Hp

/-! ## What is owed, one transfer fewer -/

private theorem sr_owedY_succ (c : Dev nD) (j : Fin 16) : owedY c j.val = owedY c (j.val + 1) + tallyAt (yrecvCell (yn c) j) () N := by
  unfold owedY
  rw [show (Finset.univ.filter fun i : Fin 16 => j.val ≤ i.val) = insert j (Finset.univ.filter fun i : Fin 16 => j.val + 1 ≤ i.val) from sr_ge16_eq j,
    Finset.sum_insert (sr_not_mem_ge16 j), add_comm]
private theorem sr_owedX_succ (c : Dev nD) (j : Fin 16) : owedX c j.val = owedX c (j.val + 1) + tallyAt (xrecvCell (xn c) j) () N := by
  unfold owedX
  rw [show (Finset.univ.filter fun i : Fin 16 => j.val ≤ i.val) = insert j (Finset.univ.filter fun i : Fin 16 => j.val + 1 ≤ i.val) from sr_ge16_eq j,
    Finset.sum_insert (sr_not_mem_ge16 j), add_comm]
private theorem sr_add_shuffle_y {M : Type*} [AddCommMonoid M] (e x y t b : M) : e + x + (y + t) + b = e + x + y + b + t := by
  rw [← add_assoc, add_right_comm (e + x + y) t b]
private theorem sr_add_shuffle_x {M : Type*} [AddCommMonoid M] (e x t y b : M) : e + (x + t) + y + b = e + x + y + b + t := by
  rw [← add_assoc, add_right_comm (e + x) t y, add_right_comm (e + x + y) t b]
private theorem sr_owedAt_y (c : Dev nD) (j : Fin 16) (nB nF nE : ℕ) :
    owedAt c nB j.val nF nE = owedAt c nB (j.val + 1) nF nE + tallyAt (yrecvCell (yn c) j) () N := by
  unfold owedAt
  rw [sr_owedY_succ]
  exact sr_add_shuffle_y _ _ _ _ _
private theorem sr_owedAt_x (c : Dev nD) (j : Fin 16) (nB nY nE : ℕ) :
    owedAt c nB nY j.val nE = owedAt c nB nY (j.val + 1) nE + tallyAt (xrecvCell (xn c) j) () N := by
  unfold owedAt
  rw [sr_owedX_succ]
  exact sr_add_shuffle_x _ _ _ _ _

/-! ## The tokens and the destination rows of the transfers still to issue, one step -/

private theorem sr_StYtok_step (c : Dev nD) (j : Fin 16) :
    (StYtok (F := F) c j.val) ⊢ iprop((dutyTok ER (yrecvCell (yn c) j) 0 false ∗ dutyTok ER (ysendCell c j) 0 false) ∗ StYtok (F := F) c (j.val + 1)) :=
  Entails.of_eq (sr_bigSep_ge16 j _)
private theorem sr_StYreg_step (c : Dev nD) (j : Fin 16) :
    (StYreg (F := F) c j.val) ⊢ iprop((∃ f, (dstY c j).view.loc (yn c : Thread nD τ) ↦[(dstY c j).view.set]{fullShare} f) ∗ StYreg (F := F) c (j.val + 1)) :=
  Entails.of_eq (sr_bigSep_ge16 j _)
private theorem sr_StFtok_step (c : Dev nD) (j : Fin 16) :
    (StFtok (F := F) c j.val) ⊢ iprop((dutyTok ER (xrecvCell (xn c) j) 0 false ∗ dutyTok ER (xsendCell c j) 0 false) ∗ StFtok (F := F) c (j.val + 1)) :=
  Entails.of_eq (sr_bigSep_ge16 j _)
private theorem sr_StFreg_step (c : Dev nD) (j : Fin 16) :
    (StFreg (F := F) c j.val) ⊢ iprop((∃ f, (fwM c j).view.loc (xn c : Thread nD τ) ↦[(fwM c j).view.set]{fullShare} f) ∗ StFreg (F := F) c (j.val + 1)) :=
  Entails.of_eq (sr_bigSep_ge16 j _)

/-! ## The mesh, by coordinates -/

private theorem sr_yn_fst : ∀ c : Dev nD, (yn c).val / 2 = c.val / 2 := by decide
private theorem sr_yn_snd : ∀ c : Dev nD, (yn c).val % 2 = 1 - c.val % 2 := by decide
private theorem sr_xn_fst : ∀ c : Dev nD, (xn c).val / 2 = 1 - c.val / 2 := by decide
private theorem sr_xn_snd : ∀ c : Dev nD, (xn c).val % 2 = c.val % 2 := by decide
private theorem sr_xn_yn_xn : ∀ c : Dev nD, xn (yn (xn c)) = yn c := by decide

/-! ## The final contents on the rows the transfers write -/

/-- On the half of the other block that the y-neighbour fills, the x-neighbour's final contents are the device's own. -/
private theorem sr_OUT_fw_rows (c : Dev nD) (i : S32768x1024.Idx) (h : (i 0).val / 16384 = 1 - c.val % 2)
    (hh : ((i 0).val % 16384) / 8192 = c.val / 2) : OUT m (xn c) i = OUT m c i := by
  have hc : c.val % 2 < 2 := Nat.mod_lt _ (by decide)
  have hc' : c.val / 2 < 2 := by have := c.isLt; show c.val / 2 < 2; omega
  unfold OUT
  dsimp only
  rw [if_neg (show ¬ ((i 0).val / 16384 = (xn c).val % 2) by rw [sr_xn_snd]; omega),
    if_neg (show ¬ (((i 0).val % 16384) / 8192 = (xn c).val / 2) by rw [sr_xn_fst]; omega),
    if_neg (show ¬ ((i 0).val / 16384 = c.val % 2) by omega), if_pos hh, sr_xn_yn_xn]

/-- On the rows a device's y-transfers write, the y-neighbour's final contents are the device's converted shard. -/
private theorem sr_OUT_y_rows (c : Dev nD) (i : S32768x1024.Idx) (i' : S16384x1024.Idx)
    (h0 : (i 0).val = 16384 * (c.val % 2) + (i' 0).val) (hh : (i' 0).val / 8192 = c.val / 2) (h1 : (i 1).val = (i' 1).val) :
    OUT m (yn c) i = VS m c i' := by
  have hc : c.val % 2 < 2 := Nat.mod_lt _ (by decide)
  have hi' : (i' 0).val < 16384 := (i' 0).isLt
  unfold OUT
  dsimp only
  rw [if_neg (show ¬ ((i 0).val / 16384 = (yn c).val % 2) by rw [sr_yn_snd]; omega),
    if_pos (show ((i 0).val % 16384) / 8192 = (yn c).val / 2 by rw [sr_yn_fst]; omega), yn_yn]
  congr 1
  funext a
  apply Fin.ext
  match a with
  | ⟨0, _⟩ => show (i 0).val % 16384 = (i' 0).val; omega
  | ⟨1, _⟩ => exact h1

/-! ## The chunks' rows and what lands on them -/

private theorem sr_exists_emb {κ : Idealize.ShloMosaic.Kind} {sp : Space} {s : Shape} {e : EltTy} (v : View sig κ sp s e) {i : v.ty.Idx} (h : i ∈ v.set) :
    ∃ y : s.Idx, v.emb y = i := by
  obtain ⟨y, -, e⟩ := Finset.mem_map.mp h; exact ⟨y, e⟩

/-- Where entry `y` of a chunk of the result array at offsets `off` is. -/
private theorem sr_oSl_emb (off : Fin 2 → Nat) (h : ∀ a, off a + S512x1024.size a ≤ S32768x1024.size a) (y : S512x1024.Idx) (a : Fin 2) :
    ((((oSl off h).view.emb y : S32768x1024.Idx) a : Fin _) : ℕ) = off a + 1 * (y a).val := rfl
/-- Where entry `y` of a chunk of the converted shard at offsets `off` is. -/
private theorem sr_vSl_emb (off : Fin 2 → Nat) (h : ∀ a, off a + S512x1024.size a ≤ S16384x1024.size a) (y : S512x1024.Idx) (a : Fin 2) :
    ((((vSl off h).view.emb y : S16384x1024.Idx) a : Fin _) : ℕ) = off a + 1 * (y a).val := rfl

private theorem sr_fw_emb0 (c : Dev nD) (j : Fin 16) (y : S512x1024.Idx) :
    ((((fwM c j).view.emb y : S32768x1024.Idx) 0 : Fin _) : ℕ) = (8192 * (c.val / 2) + 512 * j.val + 16384) - 16384 * (c.val % 2) + 1 * (y 0).val := by
  have h5 : k0_off5 c (cw j) 0 = (8192 * (c.val / 2) + 512 * j.val + 16384) - 16384 * (c.val % 2) := congrFun (k0_off5_eq c j) 0
  exact (sr_oSl_emb (k0_off5 c (cw j)) (k0_off5_inb c j) y 0).trans (congrArg (· + 1 * (y 0).val) h5)

/-- What a chunk written from the same rows of another copy of the array holds. -/
private theorem sr_write_read_self {κ : Idealize.ShloMosaic.Kind} {sp : Space} {s : Shape} {e : EltTy} (v : View sig κ sp s e)
    (fd f : v.ty.Contents (Elt F)) (y : s.Idx) :
    v.write (Elt F) fd (v.read (Elt F) f) Finset.univ (v.emb y) = f (v.emb y) := by
  rw [View.write_emb_of_mem _ _ (Finset.mem_univ y), View.read_apply, cast_cast, cast_eq]

/-- A forward's landing on the x-neighbour is that neighbour's final contents there. -/
private theorem sr_land_fw (c : Dev nD) (j : Fin 16) (fd : Buf (Elt F) ((fwM c j).view.loc (xn c : Thread nD τ))) :
    ((fwM c j).view.loc (xn c : Thread nD τ) ↦[(fwM c j).view.set]{fullShare}
        ((fwM c j).view.write (Elt F) fd ((fwM c j).view.read (Elt F) (OUT m c)) Finset.univ) : sProp 𝕄)
      = xrecvPay m (xn c) j := by
  unfold xrecvPay
  rw [xn_xn]
  refine pointsTo_congr fun i hi => ?_
  obtain ⟨y, rfl⟩ := sr_exists_emb _ hi
  have hj := j.isLt
  have hy : (y 0).val < 512 := (y 0).isLt
  have hc : c.val % 2 < 2 := Nat.mod_lt _ (by decide)
  have hc4 : c.val < 4 := c.isLt
  have e0 := sr_fw_emb0 c j y
  refine (sr_write_read_self (fwM c j).view fd (OUT m c) y).trans ?_
  refine (sr_OUT_fw_rows m c ((fwM c j).view.emb y : S32768x1024.Idx) ?_ ?_).symm
  · rw [e0]; omega
  · rw [e0]; omega

/-- Two chunks of the result array at equal offsets are the same rows, and points-tos on them with contents that agree there are equal. -/
private theorem sr_pts_oSl_congr (d : Dev nD) {off off' : Fin 2 → ℕ} (h : ∀ a, off a + S512x1024.size a ≤ S32768x1024.size a)
    (h' : ∀ a, off' a + S512x1024.size a ≤ S32768x1024.size a) (e : off = off') (f g : Buf (Elt F) ((d : Thread nD τ).loc main_v1))
    (hfg : ∀ i ∈ (oSl off h).view.set, f i = g i) :
    ((oSl off h).view.loc (d : Thread nD τ) ↦[(oSl off h).view.set]{fullShare} f : sProp 𝕄)
      = ((oSl off' h').view.loc (d : Thread nD τ) ↦[(oSl off' h').view.set]{fullShare} g) := by
  subst e
  exact pointsTo_congr hfg

/-- A y-transfer's landing on the y-neighbour is that neighbour's final contents there. -/
private theorem sr_land_y (c : Dev nD) (j : Fin 16) (fd : Buf (Elt F) ((dstY c j).view.loc (yn c : Thread nD τ))) :
    ((dstY c j).view.loc (yn c : Thread nD τ) ↦[(dstY c j).view.set]{fullShare}
        ((dstY c j).view.write (Elt F) fd ((srcY c j).view.read (Elt F) (VS m c)) Finset.univ) : sProp 𝕄)
      = yrecvPay m (yn c) j := by
  have hj := j.isLt
  have hc : c.val % 2 < 2 := Nat.mod_lt _ (by decide)
  have hoff : k0_off3 c (cw j) = k0_off5 (yn c) (cw j) := by
    rw [k0_off5_eq, k0_off3_eq, sr_yn_fst, sr_yn_snd]
    exact congrArg (fun x : ℕ => ![x, 0]) (by omega)
  unfold yrecvPay
  refine sr_pts_oSl_congr (yn c) _ _ hoff _ _ fun i hi => ?_
  obtain ⟨y, rfl⟩ := sr_exists_emb _ hi
  have hy : (y 0).val < 512 := (y 0).isLt
  have hc4 : c.val < 4 := c.isLt
  have h30 : k0_off3 c (cw j) 0 = 16384 * (c.val % 2) + 8192 * (c.val / 2) + 512 * j.val := congrFun (k0_off3_eq c j) 0
  have h31 : k0_off3 c (cw j) 1 = 0 := congrFun (k0_off3_eq c j) 1
  have h10 : k0_off1 c (cw j) 0 = 8192 * (c.val / 2) + 512 * j.val := congrFun (k0_off1_eq c j) 0
  have h11 : k0_off1 c (cw j) 1 = 0 := congrFun (k0_off1_eq c j) 1
  have d0 := (sr_oSl_emb (k0_off3 c (cw j)) (k0_off3_inb c j) y 0).trans (congrArg (· + 1 * (y 0).val) h30)
  have d1 := (sr_oSl_emb (k0_off3 c (cw j)) (k0_off3_inb c j) y 1).trans (congrArg (· + 1 * (y 1).val) h31)
  have s0 := (sr_vSl_emb (k0_off1 c (cw j)) (k0_off1_inb c j) y 0).trans (congrArg (· + 1 * (y 0).val) h10)
  have s1 := (sr_vSl_emb (k0_off1 c (cw j)) (k0_off1_inb c j) y 1).trans (congrArg (· + 1 * (y 1).val) h11)
  refine (View.write_emb_of_mem _ _ (Finset.mem_univ y)).trans ?_
  rw [View.read_apply, cast_cast, cast_eq]
  refine (sr_OUT_y_rows m c ((dstY c j).view.emb y : S32768x1024.Idx) ((srcY c j).view.emb y : S16384x1024.Idx) ?_ ?_ ?_).symm
  · rw [d0, s0]; omega
  · rw [s0]; omega
  · rw [d1, s1]

/-! ## The chunk of the shard a y-transfer reads -/

private theorem sr_slice_set_congr {κ : Idealize.ShloMosaic.Kind} {sp : Space} {s : Shape} {e : EltTy} (v : View sig κ sp s e) {off off' size : Fin s.rank → ℕ} (h : off = off')
    (p : ∀ a, off a + size a ≤ s.size a) (p' : ∀ a, off' a + size a ≤ s.size a) :
    (v.slice (Rect.unit off size p)).set = (v.slice (Rect.unit off' size p')).set := by
  subst h; rfl

private abbrev sr_i32 (j : Fin 16) : Fin 32 := ⟨j.val, by have := j.isLt; omega⟩

private theorem sr_vsSet_eq (c : Dev nD) (j : Fin 16) : vsSet c (sr_i32 j) = (srcY c j).view.set := by
  have hj := j.isLt
  have h1 : hOf (sr_i32 j) = false := by unfold hOf; exact decide_eq_false (by show ¬ 16 ≤ j.val; omega)
  have h2 : jOf (sr_i32 j) = j := Fin.ext (Nat.mod_eq_of_lt j.isLt)
  have h3 : stOff c (hOf (sr_i32 j)) (jOf (sr_i32 j)) = k0_off1 c (cw j) := by
    rw [h1, h2]; show k0_off2 c (cw j) = k0_off1 c (cw j); rw [k0_off2_eq, k0_off1_eq]
  exact sr_slice_set_congr _ h3 _ _

/-- The y-transfer of chunk `j` borrows the left half of the chunk of the shard. -/
private theorem sr_StVs_ystart (c : Dev nD) (fs : Buf (Elt F) ((c : Thread nD τ).loc cc0_scratch0)) (j : Fin 16) (nC : ℕ) (hC : j.val < nC) :
    StVs m c fs 0 nC j.val 0 ⊢ iprop(ysendPay m c j ∗ StVs m c fs 0 nC (j.val + 1) 0) := by
  show (bigSep Finset.univ fun i : Fin 32 =>
      (vsM.view.loc (c : Thread nD τ) ↦[vsSet c i]{if i.val < j.val then fullShare.right else fullShare} (if i.val < nC then VS m c else fs)))
    ⊢ iprop(ysendPay m c j ∗ bigSep Finset.univ fun i : Fin 32 =>
      (vsM.view.loc (c : Thread nD τ) ↦[vsSet c i]{if i.val < j.val + 1 then fullShare.right else fullShare} (if i.val < nC then VS m c else fs)))
  refine (bigSep_univ_update (Ψ := fun i : Fin 32 =>
      (vsM.view.loc (c : Thread nD τ) ↦[vsSet c i]{if i.val < j.val + 1 then fullShare.right else fullShare} (if i.val < nC then VS m c else fs)))
      (sr_i32 j) (fun i hi => ?_)).trans ?_
  · have hne : i.val ≠ j.val := fun h => hi (Fin.ext h)
    by_cases h : i.val < j.val
    · rw [if_pos h, if_pos (show i.val < j.val + 1 by omega)]
    · rw [if_neg h, if_neg (show ¬ i.val < j.val + 1 by omega)]
  · rw [if_neg (show ¬ (sr_i32 j).val < j.val from Nat.lt_irrefl _), if_pos (show (sr_i32 j).val < nC from hC),
      if_pos (show (sr_i32 j).val < j.val + 1 from Nat.lt_succ_self _)]
    iintro ⟨Hp, Hw⟩
    ihave Hp' := (pointsTo_share (PosShare.mem_left_op_right fullShare)).1 $$ Hp
    icases Hp' with ⟨Hl, Hr⟩
    isplitl [Hl]
    · unfold ysendPay
      rw [← sr_vsSet_eq]
      iexact Hl
    · iapply Hw
      iexact Hr
section Steps

variable (K : Dev nD × Kind → ℕ) (c : Dev nD)
variable (fv : Buf (Elt F) ((c : Thread nD τ).loc cc0_scratch1)) (fs : Buf (Elt F) ((c : Thread nD τ).loc cc0_scratch0))
variable (fo : Buf (Elt F) ((c : Thread nD τ).loc main_v1))

local notation "WP" => wp frame (wpE (defs₀ (F := F)) 𝒱₀ (c : Thread nD τ) none) Set.univ

variable {α : Type}

/-- The y-transfer of chunk `j` is issued: the left half of the chunk of the shard goes with it. -/
theorem s_y_start (j : Fin 16) (nC nY nB nF nE : ℕ) (hY : nY = j.val) (hC : j.val < nC) (d : Dev nD) (hd : d = yn c)
    {hsc hsrc hdst hsem} {k : PUnit → Prog (TpuEff nD τ sig (Elt F) Λ₀ .tc) α} {Q : α → sProp 𝕄} :
    iprop(Pers m K ∗ StVs m c fs 0 nC nY 0 ∗ StYtok c nY ∗ StYreg c nY ∗ sendCells (ysendCell c) nY 0 ∗ Ow c (owedAt c nB nY nF nE)
        ∗ ((StVs m c fs 0 nC (nY + 1) 0 ∗ StYtok c (nY + 1) ∗ StYreg c (nY + 1) ∗ sendCells (ysendCell c) (nY + 1) 0
              ∗ Ow c (owedAt c nB (nY + 1) nF nE)) -∗ WP (k ⟨⟩) Q))
      ⊢ WP (.op (.enqueueDma (srcY c j) (.remote (Dev.tc d : Thread nD τ) (dstY c j) (.dma (ysendS j)) hsc) (.dma (yrecvS j)) hsrc hdst hsem) k) Q := by
  subst hY
  subst hd
  unfold Ow
  iintro ⟨#HP, HV, Htok, Hreg, Hsc, ⟨%W, HO⟩, Hk⟩
  ihave #HI1 := (show Pers m K ⊢ cellInv ER (sched m) (K (c, .ysend j)) (ysendCell c j) from sr_Pers_inv m K c (.ysend j)) $$ HP
  ihave #HI2 := (show Pers m K ⊢ cellInv ER (sched m) (K (yn c, .yrecv j)) (yrecvCell (yn c) j) from sr_Pers_inv m K (yn c) (.yrecv j)) $$ HP
  ihave #HR1 := (show Pers m K ⊢ reached ER (ysendCell c j) 0 from sr_Pers_reached m K c (.ysend j)) $$ HP
  ihave #HR2 := (show Pers m K ⊢ reached ER (yrecvCell (yn c) j) 0 from sr_Pers_reached m K (yn c) (.yrecv j)) $$ HP
  ihave HV' := (sr_StVs_ystart m c fs j nC hC) $$ HV
  icases HV' with ⟨Hsrc, HV⟩
  ihave Htok' := (sr_StYtok_step c j) $$ Htok
  icases Htok' with ⟨⟨HtR, HtS⟩, Htok⟩
  ihave Hreg' := (sr_StYreg_step c j) $$ Hreg
  icases Hreg' with ⟨⟨%fd, Hdst⟩, Hreg⟩
  unfold ysendPay
  iapply (Rounds.wp_send_pointsTo 𝒱₀ ER (sched m) (c : Thread nD τ) none (κ₁ := K (c, .ysend j)) (κ₂ := K (yn c, .yrecv j))
      (r₁ := 0) (r₂ := 0) (d₁ := false) (d₂ := false) (q := fullShare.left) (fs := VS m c) (fd := fd)
      (by rw [duties_ysend]; exact Finset.mem_singleton_self _) (by rw [duties_yrecv]; exact Finset.mem_singleton_self _)
      () () N rfl (amount_ysend m c j false) (amount_yrecv m (yn c) j false) (owedAt c nB (j.val + 1) nF nE) (sr_owedAt_y c j nB nF nE) (W := W)
      (by rw [payload_ysend]; exact .rfl)
      (by rw [payload_yrecv]; exact Entails.of_eq (sr_land_y m c j fd))) $$ [Hsrc Hdst HO HtS HtR]
  · isplitr; · iexact HI1
    isplitr; · iexact HI2
    isplitl [Hsrc]; · iexact Hsrc
    isplitl [Hdst]; · iexact Hdst
    isplitl [HO]; · iexact HO
    isplitl [HtS]; · iexact HtS
    isplitr; · iexact HR1
    isplitl [HtR]; · iexact HtR
    iexact HR2
  iintro ⟨Hcr, HO⟩
  iapply Hk
  isplitl [HV]; · iexact HV
  isplitl [Htok]; · iexact Htok
  isplitl [Hreg]; · iexact Hreg
  isplitl [Hsc Hcr]; · iapply (sr_sendCells_issue (ysendCell c) j) $$ Hsc Hcr
  iexists _; iexact HO

/-- The landing of the y-neighbour's chunk `j` is waited for. -/
theorem s_yrecv_wait (j : Fin 16) (nYR nF nXS nE : ℕ) (hR : nYR = j.val) (hF : nF ≤ j.val)
    {s' : Shape} {e' : EltTy} {sp' : _} {src : Memref sig .tc sp' s' e'} {sp : _} {dst : Memref sig .tc sp S512x1024 .bf16} {hsrc hdst}
    {k : PUnit → Prog (TpuEff nD τ sig (Elt F) Λ₀ .tc) α} {Q : α → sProp 𝕄} :
    iprop(Pers m K ∗ recvCells (yrecvCell c) nYR ∗ StB m c fo true nYR nF nXS ∗ Ow c (owedAt c 2 16 nF nE)
        ∗ ((recvCells (yrecvCell c) (nYR + 1) ∗ StB m c fo true (nYR + 1) nF nXS ∗ Ow c (owedAt c 2 16 nF nE)) -∗ WP (k ⟨⟩) Q))
      ⊢ WP (.op (.waitDma2 (yrecvS j) src dst hsrc hdst) k) Q := by
  subst hR
  unfold Ow
  iintro ⟨#HP, Hrc, HB, ⟨%W, HO⟩, Hk⟩
  ihave #HI := (show Pers m K ⊢ cellInv ER (sched m) (K (c, .yrecv j)) (yrecvCell c j) from sr_Pers_inv m K c (.yrecv j)) $$ HP
  ihave #Hlev := (sr_Pers_lev m K) $$ HP
  ihave Hrc' := (sr_recvCells_step (yrecvCell c) j) $$ Hrc
  icases Hrc' with ⟨⟨Hat, Hcr⟩, Hrc⟩
  iapply (Rounds.wp_wait_rest_token 𝒱₀ ER (sched m) (c : Thread nD τ) none (κ := K (c, .yrecv j))
      (wpE_waitDma2_eq 𝒱₀ (c : Thread nD τ) none Set.univ) (Set.mem_univ _) () (O := owedAt c 2 16 nF nE) (W := W) (R := 0) (m := 0) (T := ∅)
      (by rw [Nat.zero_add, expect_yrecv])) $$ [Hcr HO Hat]
  · isplitr; · iexact HI
    isplitl [Hcr]; · iexact Hcr
    isplitl [HO]; · iexact HO
    isplitr
    · iapply (sr_mayWait_of_above c (.dma (yrecvS j)) 2 _ (by rw [sr_lv_yrecv]) (sr_above_late c nF nE)); iexact Hlev
    iexact Hat
  iintro ⟨HO, Hat, -, Hpay⟩
  ihave Hp := (Entails.of_eq (rest_yrecv m c j)) $$ Hpay
  imod (Rounds.cell_close ER (sched m) (Set.mem_univ (K (c, .yrecv j))) (fun h => h) (R := 0 + 1) (duties_yrecv_later m c j)) $$ [Hat] with Hz
  · isplitr; · iexact HI
    iexact Hat
  iapply Hk
  isplitl [Hrc Hz]; · iapply Hrc; iexact Hz
  isplitl [HB Hp]
  · iapply (sr_StB_yrecv m c fo j nF nXS hF) $$ HB Hp
  · iexists _; iexact HO

/-- The forward of chunk `j` is issued. -/
theorem s_fw_start (j : Fin 16) (nYR nF nXS nE : ℕ) (hF : nF = j.val) (hR : j.val < nYR) (hS : nXS ≤ j.val) (d : Dev nD) (hd : d = xn c)
    {hsc hsrc hdst hsem} {k : PUnit → Prog (TpuEff nD τ sig (Elt F) Λ₀ .tc) α} {Q : α → sProp 𝕄} :
    iprop(Pers m K ∗ StB m c fo true nYR nF nXS ∗ StFtok c nF ∗ StFreg c nF ∗ sendCells (xsendCell c) nF 0 ∗ Ow c (owedAt c 2 16 nF nE)
        ∗ ((StB m c fo true nYR (nF + 1) nXS ∗ StFtok c (nF + 1) ∗ StFreg c (nF + 1) ∗ sendCells (xsendCell c) (nF + 1) 0
              ∗ Ow c (owedAt c 2 16 (nF + 1) nE)) -∗ WP (k ⟨⟩) Q))
      ⊢ WP (.op (.enqueueDma (fwM c j) (.remote (Dev.tc d : Thread nD τ) (fwM c j) (.dma (xsendS j)) hsc) (.dma (xrecvS j)) hsrc hdst hsem) k) Q := by
  subst hF
  subst hd
  unfold Ow
  iintro ⟨#HP, HB, Htok, Hreg, Hsc, ⟨%W, HO⟩, Hk⟩
  ihave #HI1 := (show Pers m K ⊢ cellInv ER (sched m) (K (c, .xsend j)) (xsendCell c j) from sr_Pers_inv m K c (.xsend j)) $$ HP
  ihave #HI2 := (show Pers m K ⊢ cellInv ER (sched m) (K (xn c, .xrecv j)) (xrecvCell (xn c) j) from sr_Pers_inv m K (xn c) (.xrecv j)) $$ HP
  ihave #HR1 := (show Pers m K ⊢ reached ER (xsendCell c j) 0 from sr_Pers_reached m K c (.xsend j)) $$ HP
  ihave #HR2 := (show Pers m K ⊢ reached ER (xrecvCell (xn c) j) 0 from sr_Pers_reached m K (xn c) (.xrecv j)) $$ HP
  ihave HB' := (sr_StB_fw m c fo j nYR nXS hR hS) $$ HB
  icases HB' with ⟨Hsrc, HB⟩
  ihave Htok' := (sr_StFtok_step c j) $$ Htok
  icases Htok' with ⟨⟨HtR, HtS⟩, Htok⟩
  ihave Hreg' := (sr_StFreg_step c j) $$ Hreg
  icases Hreg' with ⟨⟨%fd, Hdst⟩, Hreg⟩
  unfold xsendPay
  iapply (Rounds.wp_send_pointsTo 𝒱₀ ER (sched m) (c : Thread nD τ) none (κ₁ := K (c, .xsend j)) (κ₂ := K (xn c, .xrecv j))
      (r₁ := 0) (r₂ := 0) (d₁ := false) (d₂ := false) (q := fullShare) (fs := OUT m c) (fd := fd)
      (by rw [duties_xsend]; exact Finset.mem_singleton_self _) (by rw [duties_xrecv]; exact Finset.mem_singleton_self _)
      () () N rfl (amount_xsend m c j false) (amount_xrecv m (xn c) j false) (owedAt c 2 16 (j.val + 1) nE) (sr_owedAt_x c j 2 16 nE) (W := W)
      (by rw [payload_xsend]; exact .rfl)
      (by rw [payload_xrecv]; exact Entails.of_eq (sr_land_fw m c j fd))) $$ [Hsrc Hdst HO HtS HtR]
  · isplitr; · iexact HI1
    isplitr; · iexact HI2
    isplitl [Hsrc]; · iexact Hsrc
    isplitl [Hdst]; · iexact Hdst
    isplitl [HO]; · iexact HO
    isplitl [HtS]; · iexact HtS
    isplitr; · iexact HR1
    isplitl [HtR]; · iexact HtR
    iexact HR2
  iintro ⟨Hcr, HO⟩
  iapply Hk
  isplitl [HB]; · iexact HB
  isplitl [Htok]; · iexact Htok
  isplitl [Hreg]; · iexact Hreg
  isplitl [Hsc Hcr]; · iapply (sr_sendCells_issue (xsendCell c) j) $$ Hsc Hcr
  iexists _; iexact HO

/-- The send of forward `j` is waited for: the chunk it read is back. -/
theorem s_xsend_wait (j : Fin 16) (nXS nE : ℕ) (hS : nXS = j.val)
    {s' : Shape} {e' : EltTy} {sp' : _} {src : Memref sig .tc sp' s' e'} {sp : _} {dst : Memref sig .tc sp S512x1024 .bf16} {hsrc hdst}
    {k : PUnit → Prog (TpuEff nD τ sig (Elt F) Λ₀ .tc) α} {Q : α → sProp 𝕄} :
    iprop(Pers m K ∗ sendCells (xsendCell c) 16 nXS ∗ StB m c fo true 16 16 nXS ∗ Ow c (owedAt c 2 16 16 nE)
        ∗ ((sendCells (xsendCell c) 16 (nXS + 1) ∗ StB m c fo true 16 16 (nXS + 1) ∗ Ow c (owedAt c 2 16 16 nE)) -∗ WP (k ⟨⟩) Q))
      ⊢ WP (.op (.waitDma2 (xsendS j) src dst hsrc hdst) k) Q := by
  subst hS
  unfold Ow
  iintro ⟨#HP, Hsc, HB, ⟨%W, HO⟩, Hk⟩
  ihave #HI := (show Pers m K ⊢ cellInv ER (sched m) (K (c, .xsend j)) (xsendCell c j) from sr_Pers_inv m K c (.xsend j)) $$ HP
  ihave #Hlev := (sr_Pers_lev m K) $$ HP
  ihave Hsc' := (sr_sendCells_wait (xsendCell c) j) $$ Hsc
  icases Hsc' with ⟨⟨Hat, Hcr⟩, Hsc⟩
  iapply (Rounds.wp_wait_rest_token 𝒱₀ ER (sched m) (c : Thread nD τ) none (κ := K (c, .xsend j))
      (wpE_waitDma2_eq 𝒱₀ (c : Thread nD τ) none Set.univ) (Set.mem_univ _) () (O := owedAt c 2 16 16 nE) (W := W) (R := 0) (m := 0) (T := ∅)
      (by rw [Nat.zero_add, expect_xsend])) $$ [Hcr HO Hat]
  · isplitr; · iexact HI
    isplitl [Hcr]; · iexact Hcr
    isplitl [HO]; · iexact HO
    isplitr
    · iapply (sr_mayWait_of_above c (.dma (xsendS j)) 3 _ (by rw [sr_lv_xsend]; decide) (sr_above_last c nE)); iexact Hlev
    iexact Hat
  iintro ⟨HO, Hat, -, Hpay⟩
  ihave Hp := (Entails.of_eq (rest_xsend m c j)) $$ Hpay
  imod (Rounds.cell_close ER (sched m) (Set.mem_univ (K (c, .xsend j))) (fun h => h) (R := 0 + 1) (duties_xsend_later m c j)) $$ [Hat] with Hz
  · isplitr; · iexact HI
    iexact Hat
  iapply Hk
  isplitl [Hsc Hz]; · iapply Hsc; iexact Hz
  isplitl [HB Hp]
  · iapply (sr_StB_xsend m c fo j) $$ HB Hp
  · iexists _; iexact HO

/-- The landing of the x-neighbour's forward `j` is waited for. -/
theorem s_xrecv_wait (j : Fin 16) (nXR nE : ℕ) (hR : nXR = j.val)
    {s' : Shape} {e' : EltTy} {sp' : _} {src : Memref sig .tc sp' s' e'} {sp : _} {dst : Memref sig .tc sp S512x1024 .bf16} {hsrc hdst}
    {k : PUnit → Prog (TpuEff nD τ sig (Elt F) Λ₀ .tc) α} {Q : α → sProp 𝕄} :
    iprop(Pers m K ∗ recvCells (xrecvCell c) nXR ∗ StC m c fo true nXR ∗ Ow c (owedAt c 2 16 16 nE)
        ∗ ((recvCells (xrecvCell c) (nXR + 1) ∗ StC m c fo true (nXR + 1) ∗ Ow c (owedAt c 2 16 16 nE)) -∗ WP (k ⟨⟩) Q))
      ⊢ WP (.op (.waitDma2 (xrecvS j) src dst hsrc hdst) k) Q := by
  subst hR
  unfold Ow
  iintro ⟨#HP, Hrc, HC, ⟨%W, HO⟩, Hk⟩
  ihave #HI := (show Pers m K ⊢ cellInv ER (sched m) (K (c, .xrecv j)) (xrecvCell c j) from sr_Pers_inv m K c (.xrecv j)) $$ HP
  ihave #Hlev := (sr_Pers_lev m K) $$ HP
  ihave Hrc' := (sr_recvCells_step (xrecvCell c) j) $$ Hrc
  icases Hrc' with ⟨⟨Hat, Hcr⟩, Hrc⟩
  iapply (Rounds.wp_wait_rest_token 𝒱₀ ER (sched m) (c : Thread nD τ) none (κ := K (c, .xrecv j))
      (wpE_waitDma2_eq 𝒱₀ (c : Thread nD τ) none Set.univ) (Set.mem_univ _) () (O := owedAt c 2 16 16 nE) (W := W) (R := 0) (m := 0) (T := ∅)
      (by rw [Nat.zero_add, expect_xrecv])) $$ [Hcr HO Hat]
  · isplitr; · iexact HI
    isplitl [Hcr]; · iexact Hcr
    isplitl [HO]; · iexact HO
    isplitr
    · iapply (sr_mayWait_of_above c (.dma (xrecvS j)) 3 _ (by rw [sr_lv_xrecv]) (sr_above_last c nE)); iexact Hlev
    iexact Hat
  iintro ⟨HO, Hat, -, Hpay⟩
  ihave Hp := (Entails.of_eq (rest_xrecv m c j)) $$ Hpay
  imod (Rounds.cell_close ER (sched m) (Set.mem_univ (K (c, .xrecv j))) (fun h => h) (R := 0 + 1) (duties_xrecv_later m c j)) $$ [Hat] with Hz
  · isplitr; · iexact HI
    iexact Hat
  iapply Hk
  isplitl [Hrc Hz]; · iapply Hrc; iexact Hz
  isplitl [HC Hp]
  · rw [sr_StC_succ]
    isplitl [Hp]; · iexact Hp
    iexact HC
  · iexists _; iexact HO

end Steps

end Cert.KernelIdeal.AG

end

/-- info: 'Cert.KernelIdeal.AG.s_y_start' depends on axioms: [propext, Classical.choice, Quot.sound] -/
#guard_msgs in #print axioms Cert.KernelIdeal.AG.s_y_start

/-- info: 'Cert.KernelIdeal.AG.s_yrecv_wait' depends on axioms: [propext, Classical.choice, Quot.sound] -/
#guard_msgs in #print axioms Cert.KernelIdeal.AG.s_yrecv_wait

/-- info: 'Cert.KernelIdeal.AG.s_fw_start' depends on axioms: [propext, Classical.choice, Quot.sound] -/
#guard_msgs in #print axioms Cert.KernelIdeal.AG.s_fw_start

/-- info: 'Cert.KernelIdeal.AG.s_xsend_wait' depends on axioms: [propext, Classical.choice, Quot.sound] -/
#guard_msgs in #print axioms Cert.KernelIdeal.AG.s_xsend_wait

/-- info: 'Cert.KernelIdeal.AG.s_xrecv_wait' depends on axioms: [propext, Classical.choice, Quot.sound] -/
#guard_msgs in #print axioms Cert.KernelIdeal.AG.s_xrecv_wait
-- ==== Proof.LibChain.lean ====
import proofs.«900094_g7700000000000095_dist_ag_v7x_xy2x2_y_m16384_n1024_bf16_1_alg».proof.Proof.State

/-!
# Steps in front of a frame

A step lemma reads 'what it takes ∗ (what it gives back -∗ the rest runs) ⊢ the operation and the rest run'. Applied to
a state that holds more than the step takes, the surplus is carried across: these are the combinators that do so, with
the two weakest preconditions as variables, so that the program never enters the separation-logic context.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
/-- A step that takes 1 strand and gives 1 back, applied in front of a frame. -/
theorem chain_1_1 {P A1 B1 Fr W W' : sProp 𝕄} [BI.Persistent P]
    (hstep : iprop(P ∗ A1 ∗ (B1 -∗ W')) ⊢ W)
    (hrest : iprop(P ∗ B1 ∗ Fr) ⊢ W') :
    iprop(P ∗ A1 ∗ Fr) ⊢ W := by
  iintro ⟨#HP, H1, HF⟩
  iapply hstep
  isplitr; · iexact HP
  isplitl [H1]; · iexact H1
  iintro G1
  iapply hrest
  isplitr; · iexact HP
  isplitl [G1]; · iexact G1
  iexact HF

omit [FloatOps F] in
/-- A step that takes 1 strand and gives 2 back, applied in front of a frame. -/
theorem chain_1_2 {P A1 B1 B2 Fr W W' : sProp 𝕄} [BI.Persistent P]
    (hstep : iprop(P ∗ A1 ∗ ((B1 ∗ B2) -∗ W')) ⊢ W)
    (hrest : iprop(P ∗ B1 ∗ B2 ∗ Fr) ⊢ W') :
    iprop(P ∗ A1 ∗ Fr) ⊢ W := by
  iintro ⟨#HP, H1, HF⟩
  iapply hstep
  isplitr; · iexact HP
  isplitl [H1]; · iexact H1
  iintro ⟨G1, G2⟩
  iapply hrest
  isplitr; · iexact HP
  isplitl [G1]; · iexact G1
  isplitl [G2]; · iexact G2
  iexact HF

omit [FloatOps F] in
/-- A step that takes 1 strand and gives 3 back, applied in front of a frame. -/
theorem chain_1_3 {P A1 B1 B2 B3 Fr W W' : sProp 𝕄} [BI.Persistent P]
    (hstep : iprop(P ∗ A1 ∗ ((B1 ∗ B2 ∗ B3) -∗ W')) ⊢ W)
    (hrest : iprop(P ∗ B1 ∗ B2 ∗ B3 ∗ Fr) ⊢ W') :
    iprop(P ∗ A1 ∗ Fr) ⊢ W := by
  iintro ⟨#HP, H1, HF⟩
  iapply hstep
  isplitr; · iexact HP
  isplitl [H1]; · iexact H1
  iintro ⟨G1, G2, G3⟩
  iapply hrest
  isplitr; · iexact HP
  isplitl [G1]; · iexact G1
  isplitl [G2]; · iexact G2
  isplitl [G3]; · iexact G3
  iexact HF

omit [FloatOps F] in
/-- A step that takes 1 strand and gives 4 back, applied in front of a frame. -/
theorem chain_1_4 {P A1 B1 B2 B3 B4 Fr W W' : sProp 𝕄} [BI.Persistent P]
    (hstep : iprop(P ∗ A1 ∗ ((B1 ∗ B2 ∗ B3 ∗ B4) -∗ W')) ⊢ W)
    (hrest : iprop(P ∗ B1 ∗ B2 ∗ B3 ∗ B4 ∗ Fr) ⊢ W') :
    iprop(P ∗ A1 ∗ Fr) ⊢ W := by
  iintro ⟨#HP, H1, HF⟩
  iapply hstep
  isplitr; · iexact HP
  isplitl [H1]; · iexact H1
  iintro ⟨G1, G2, G3, G4⟩
  iapply hrest
  isplitr; · iexact HP
  isplitl [G1]; · iexact G1
  isplitl [G2]; · iexact G2
  isplitl [G3]; · iexact G3
  isplitl [G4]; · iexact G4
  iexact HF

omit [FloatOps F] in
/-- A step that takes 1 strand and gives 5 back, applied in front of a frame. -/
theorem chain_1_5 {P A1 B1 B2 B3 B4 B5 Fr W W' : sProp 𝕄} [BI.Persistent P]
    (hstep : iprop(P ∗ A1 ∗ ((B1 ∗ B2 ∗ B3 ∗ B4 ∗ B5) -∗ W')) ⊢ W)
    (hrest : iprop(P ∗ B1 ∗ B2 ∗ B3 ∗ B4 ∗ B5 ∗ Fr) ⊢ W') :
    iprop(P ∗ A1 ∗ Fr) ⊢ W := by
  iintro ⟨#HP, H1, HF⟩
  iapply hstep
  isplitr; · iexact HP
  isplitl [H1]; · iexact H1
  iintro ⟨G1, G2, G3, G4, G5⟩
  iapply hrest
  isplitr; · iexact HP
  isplitl [G1]; · iexact G1
  isplitl [G2]; · iexact G2
  isplitl [G3]; · iexact G3
  isplitl [G4]; · iexact G4
  isplitl [G5]; · iexact G5
  iexact HF

omit [FloatOps F] in
/-- A step that takes 2 strands and gives 1 back, applied in front of a frame. -/
theorem chain_2_1 {P A1 A2 B1 Fr W W' : sProp 𝕄} [BI.Persistent P]
    (hstep : iprop(P ∗ A1 ∗ A2 ∗ (B1 -∗ W')) ⊢ W)
    (hrest : iprop(P ∗ B1 ∗ Fr) ⊢ W') :
    iprop(P ∗ A1 ∗ A2 ∗ Fr) ⊢ W := by
  iintro ⟨#HP, H1, H2, HF⟩
  iapply hstep
  isplitr; · iexact HP
  isplitl [H1]; · iexact H1
  isplitl [H2]; · iexact H2
  iintro G1
  iapply hrest
  isplitr; · iexact HP
  isplitl [G1]; · iexact G1
  iexact HF

omit [FloatOps F] in
/-- A step that takes 2 strands and gives 2 back, applied in front of a frame. -/
theorem chain_2_2 {P A1 A2 B1 B2 Fr W W' : sProp 𝕄} [BI.Persistent P]
    (hstep : iprop(P ∗ A1 ∗ A2 ∗ ((B1 ∗ B2) -∗ W')) ⊢ W)
    (hrest : iprop(P ∗ B1 ∗ B2 ∗ Fr) ⊢ W') :
    iprop(P ∗ A1 ∗ A2 ∗ Fr) ⊢ W := by
  iintro ⟨#HP, H1, H2, HF⟩
  iapply hstep
  isplitr; · iexact HP
  isplitl [H1]; · iexact H1
  isplitl [H2]; · iexact H2
  iintro ⟨G1, G2⟩
  iapply hrest
  isplitr; · iexact HP
  isplitl [G1]; · iexact G1
  isplitl [G2]; · iexact G2
  iexact HF

omit [FloatOps F] in
/-- A step that takes 2 strands and gives 3 back, applied in front of a frame. -/
theorem chain_2_3 {P A1 A2 B1 B2 B3 Fr W W' : sProp 𝕄} [BI.Persistent P]
    (hstep : iprop(P ∗ A1 ∗ A2 ∗ ((B1 ∗ B2 ∗ B3) -∗ W')) ⊢ W)
    (hrest : iprop(P ∗ B1 ∗ B2 ∗ B3 ∗ Fr) ⊢ W') :
    iprop(P ∗ A1 ∗ A2 ∗ Fr) ⊢ W := by
  iintro ⟨#HP, H1, H2, HF⟩
  iapply hstep
  isplitr; · iexact HP
  isplitl [H1]; · iexact H1
  isplitl [H2]; · iexact H2
  iintro ⟨G1, G2, G3⟩
  iapply hrest
  isplitr; · iexact HP
  isplitl [G1]; · iexact G1
  isplitl [G2]; · iexact G2
  isplitl [G3]; · iexact G3
  iexact HF

omit [FloatOps F] in
/-- A step that takes 2 strands and gives 4 back, applied in front of a frame. -/
theorem chain_2_4 {P A1 A2 B1 B2 B3 B4 Fr W W' : sProp 𝕄} [BI.Persistent P]
    (hstep : iprop(P ∗ A1 ∗ A2 ∗ ((B1 ∗ B2 ∗ B3 ∗ B4) -∗ W')) ⊢ W)
    (hrest : iprop(P ∗ B1 ∗ B2 ∗ B3 ∗ B4 ∗ Fr) ⊢ W') :
    iprop(P ∗ A1 ∗ A2 ∗ Fr) ⊢ W := by
  iintro ⟨#HP, H1, H2, HF⟩
  iapply hstep
  isplitr; · iexact HP
  isplitl [H1]; · iexact H1
  isplitl [H2]; · iexact H2
  iintro ⟨G1, G2, G3, G4⟩
  iapply hrest
  isplitr; · iexact HP
  isplitl [G1]; · iexact G1
  isplitl [G2]; · iexact G2
  isplitl [G3]; · iexact G3
  isplitl [G4]; · iexact G4
  iexact HF

omit [FloatOps F] in
/-- A step that takes 2 strands and gives 5 back, applied in front of a frame. -/
theorem chain_2_5 {P A1 A2 B1 B2 B3 B4 B5 Fr W W' : sProp 𝕄} [BI.Persistent P]
    (hstep : iprop(P ∗ A1 ∗ A2 ∗ ((B1 ∗ B2 ∗ B3 ∗ B4 ∗ B5) -∗ W')) ⊢ W)
    (hrest : iprop(P ∗ B1 ∗ B2 ∗ B3 ∗ B4 ∗ B5 ∗ Fr) ⊢ W') :
    iprop(P ∗ A1 ∗ A2 ∗ Fr) ⊢ W := by
  iintro ⟨#HP, H1, H2, HF⟩
  iapply hstep
  isplitr; · iexact HP
  isplitl [H1]; · iexact H1
  isplitl [H2]; · iexact H2
  iintro ⟨G1, G2, G3, G4, G5⟩
  iapply hrest
  isplitr; · iexact HP
  isplitl [G1]; · iexact G1
  isplitl [G2]; · iexact G2
  isplitl [G3]; · iexact G3
  isplitl [G4]; · iexact G4
  isplitl [G5]; · iexact G5
  iexact HF

omit [FloatOps F] in
/-- A step that takes 3 strands and gives 1 back, applied in front of a frame. -/
theorem chain_3_1 {P A1 A2 A3 B1 Fr W W' : sProp 𝕄} [BI.Persistent P]
    (hstep : iprop(P ∗ A1 ∗ A2 ∗ A3 ∗ (B1 -∗ W')) ⊢ W)
    (hrest : iprop(P ∗ B1 ∗ Fr) ⊢ W') :
    iprop(P ∗ A1 ∗ A2 ∗ A3 ∗ Fr) ⊢ W := by
  iintro ⟨#HP, H1, H2, H3, HF⟩
  iapply hstep
  isplitr; · iexact HP
  isplitl [H1]; · iexact H1
  isplitl [H2]; · iexact H2
  isplitl [H3]; · iexact H3
  iintro G1
  iapply hrest
  isplitr; · iexact HP
  isplitl [G1]; · iexact G1
  iexact HF

omit [FloatOps F] in
/-- A step that takes 3 strands and gives 2 back, applied in front of a frame. -/
theorem chain_3_2 {P A1 A2 A3 B1 B2 Fr W W' : sProp 𝕄} [BI.Persistent P]
    (hstep : iprop(P ∗ A1 ∗ A2 ∗ A3 ∗ ((B1 ∗ B2) -∗ W')) ⊢ W)
    (hrest : iprop(P ∗ B1 ∗ B2 ∗ Fr) ⊢ W') :
    iprop(P ∗ A1 ∗ A2 ∗ A3 ∗ Fr) ⊢ W := by
  iintro ⟨#HP, H1, H2, H3, HF⟩
  iapply hstep
  isplitr; · iexact HP
  isplitl [H1]; · iexact H1
  isplitl [H2]; · iexact H2
  isplitl [H3]; · iexact H3
  iintro ⟨G1, G2⟩
  iapply hrest
  isplitr; · iexact HP
  isplitl [G1]; · iexact G1
  isplitl [G2]; · iexact G2
  iexact HF

omit [FloatOps F] in
/-- A step that takes 3 strands and gives 3 back, applied in front of a frame. -/
theorem chain_3_3 {P A1 A2 A3 B1 B2 B3 Fr W W' : sProp 𝕄} [BI.Persistent P]
    (hstep : iprop(P ∗ A1 ∗ A2 ∗ A3 ∗ ((B1 ∗ B2 ∗ B3) -∗ W')) ⊢ W)
    (hrest : iprop(P ∗ B1 ∗ B2 ∗ B3 ∗ Fr) ⊢ W') :
    iprop(P ∗ A1 ∗ A2 ∗ A3 ∗ Fr) ⊢ W := by
  iintro ⟨#HP, H1, H2, H3, HF⟩
  iapply hstep
  isplitr; · iexact HP
  isplitl [H1]; · iexact H1
  isplitl [H2]; · iexact H2
  isplitl [H3]; · iexact H3
  iintro ⟨G1, G2, G3⟩
  iapply hrest
  isplitr; · iexact HP
  isplitl [G1]; · iexact G1
  isplitl [G2]; · iexact G2
  isplitl [G3]; · iexact G3
  iexact HF

omit [FloatOps F] in
/-- A step that takes 3 strands and gives 4 back, applied in front of a frame. -/
theorem chain_3_4 {P A1 A2 A3 B1 B2 B3 B4 Fr W W' : sProp 𝕄} [BI.Persistent P]
    (hstep : iprop(P ∗ A1 ∗ A2 ∗ A3 ∗ ((B1 ∗ B2 ∗ B3 ∗ B4) -∗ W')) ⊢ W)
    (hrest : iprop(P ∗ B1 ∗ B2 ∗ B3 ∗ B4 ∗ Fr) ⊢ W') :
    iprop(P ∗ A1 ∗ A2 ∗ A3 ∗ Fr) ⊢ W := by
  iintro ⟨#HP, H1, H2, H3, HF⟩
  iapply hstep
  isplitr; · iexact HP
  isplitl [H1]; · iexact H1
  isplitl [H2]; · iexact H2
  isplitl [H3]; · iexact H3
  iintro ⟨G1, G2, G3, G4⟩
  iapply hrest
  isplitr; · iexact HP
  isplitl [G1]; · iexact G1
  isplitl [G2]; · iexact G2
  isplitl [G3]; · iexact G3
  isplitl [G4]; · iexact G4
  iexact HF

omit [FloatOps F] in
/-- A step that takes 3 strands and gives 5 back, applied in front of a frame. -/
theorem chain_3_5 {P A1 A2 A3 B1 B2 B3 B4 B5 Fr W W' : sProp 𝕄} [BI.Persistent P]
    (hstep : iprop(P ∗ A1 ∗ A2 ∗ A3 ∗ ((B1 ∗ B2 ∗ B3 ∗ B4 ∗ B5) -∗ W')) ⊢ W)
    (hrest : iprop(P ∗ B1 ∗ B2 ∗ B3 ∗ B4 ∗ B5 ∗ Fr) ⊢ W') :
    iprop(P ∗ A1 ∗ A2 ∗ A3 ∗ Fr) ⊢ W := by
  iintro ⟨#HP, H1, H2, H3, HF⟩
  iapply hstep
  isplitr; · iexact HP
  isplitl [H1]; · iexact H1
  isplitl [H2]; · iexact H2
  isplitl [H3]; · iexact H3
  iintro ⟨G1, G2, G3, G4, G5⟩
  iapply hrest
  isplitr; · iexact HP
  isplitl [G1]; · iexact G1
  isplitl [G2]; · iexact G2
  isplitl [G3]; · iexact G3
  isplitl [G4]; · iexact G4
  isplitl [G5]; · iexact G5
  iexact HF

omit [FloatOps F] in
/-- A step that takes 4 strands and gives 1 back, applied in front of a frame. -/
theorem chain_4_1 {P A1 A2 A3 A4 B1 Fr W W' : sProp 𝕄} [BI.Persistent P]
    (hstep : iprop(P ∗ A1 ∗ A2 ∗ A3 ∗ A4 ∗ (B1 -∗ W')) ⊢ W)
    (hrest : iprop(P ∗ B1 ∗ Fr) ⊢ W') :
    iprop(P ∗ A1 ∗ A2 ∗ A3 ∗ A4 ∗ Fr) ⊢ W := by
  iintro ⟨#HP, H1, H2, H3, H4, HF⟩
  iapply hstep
  isplitr; · iexact HP
  isplitl [H1]; · iexact H1
  isplitl [H2]; · iexact H2
  isplitl [H3]; · iexact H3
  isplitl [H4]; · iexact H4
  iintro G1
  iapply hrest
  isplitr; · iexact HP
  isplitl [G1]; · iexact G1
  iexact HF

omit [FloatOps F] in
/-- A step that takes 4 strands and gives 2 back, applied in front of a frame. -/
theorem chain_4_2 {P A1 A2 A3 A4 B1 B2 Fr W W' : sProp 𝕄} [BI.Persistent P]
    (hstep : iprop(P ∗ A1 ∗ A2 ∗ A3 ∗ A4 ∗ ((B1 ∗ B2) -∗ W')) ⊢ W)
    (hrest : iprop(P ∗ B1 ∗ B2 ∗ Fr) ⊢ W') :
    iprop(P ∗ A1 ∗ A2 ∗ A3 ∗ A4 ∗ Fr) ⊢ W := by
  iintro ⟨#HP, H1, H2, H3, H4, HF⟩
  iapply hstep
  isplitr; · iexact HP
  isplitl [H1]; · iexact H1
  isplitl [H2]; · iexact H2
  isplitl [H3]; · iexact H3
  isplitl [H4]; · iexact H4
  iintro ⟨G1, G2⟩
  iapply hrest
  isplitr; · iexact HP
  isplitl [G1]; · iexact G1
  isplitl [G2]; · iexact G2
  iexact HF

omit [FloatOps F] in
/-- A step that takes 4 strands and gives 3 back, applied in front of a frame. -/
theorem chain_4_3 {P A1 A2 A3 A4 B1 B2 B3 Fr W W' : sProp 𝕄} [BI.Persistent P]
    (hstep : iprop(P ∗ A1 ∗ A2 ∗ A3 ∗ A4 ∗ ((B1 ∗ B2 ∗ B3) -∗ W')) ⊢ W)
    (hrest : iprop(P ∗ B1 ∗ B2 ∗ B3 ∗ Fr) ⊢ W') :
    iprop(P ∗ A1 ∗ A2 ∗ A3 ∗ A4 ∗ Fr) ⊢ W := by
  iintro ⟨#HP, H1, H2, H3, H4, HF⟩
  iapply hstep
  isplitr; · iexact HP
  isplitl [H1]; · iexact H1
  isplitl [H2]; · iexact H2
  isplitl [H3]; · iexact H3
  isplitl [H4]; · iexact H4
  iintro ⟨G1, G2, G3⟩
  iapply hrest
  isplitr; · iexact HP
  isplitl [G1]; · iexact G1
  isplitl [G2]; · iexact G2
  isplitl [G3]; · iexact G3
  iexact HF

omit [FloatOps F] in
/-- A step that takes 4 strands and gives 4 back, applied in front of a frame. -/
theorem chain_4_4 {P A1 A2 A3 A4 B1 B2 B3 B4 Fr W W' : sProp 𝕄} [BI.Persistent P]
    (hstep : iprop(P ∗ A1 ∗ A2 ∗ A3 ∗ A4 ∗ ((B1 ∗ B2 ∗ B3 ∗ B4) -∗ W')) ⊢ W)
    (hrest : iprop(P ∗ B1 ∗ B2 ∗ B3 ∗ B4 ∗ Fr) ⊢ W') :
    iprop(P ∗ A1 ∗ A2 ∗ A3 ∗ A4 ∗ Fr) ⊢ W := by
  iintro ⟨#HP, H1, H2, H3, H4, HF⟩
  iapply hstep
  isplitr; · iexact HP
  isplitl [H1]; · iexact H1
  isplitl [H2]; · iexact H2
  isplitl [H3]; · iexact H3
  isplitl [H4]; · iexact H4
  iintro ⟨G1, G2, G3, G4⟩
  iapply hrest
  isplitr; · iexact HP
  isplitl [G1]; · iexact G1
  isplitl [G2]; · iexact G2
  isplitl [G3]; · iexact G3
  isplitl [G4]; · iexact G4
  iexact HF

omit [FloatOps F] in
/-- A step that takes 4 strands and gives 5 back, applied in front of a frame. -/
theorem chain_4_5 {P A1 A2 A3 A4 B1 B2 B3 B4 B5 Fr W W' : sProp 𝕄} [BI.Persistent P]
    (hstep : iprop(P ∗ A1 ∗ A2 ∗ A3 ∗ A4 ∗ ((B1 ∗ B2 ∗ B3 ∗ B4 ∗ B5) -∗ W')) ⊢ W)
    (hrest : iprop(P ∗ B1 ∗ B2 ∗ B3 ∗ B4 ∗ B5 ∗ Fr) ⊢ W') :
    iprop(P ∗ A1 ∗ A2 ∗ A3 ∗ A4 ∗ Fr) ⊢ W := by
  iintro ⟨#HP, H1, H2, H3, H4, HF⟩
  iapply hstep
  isplitr; · iexact HP
  isplitl [H1]; · iexact H1
  isplitl [H2]; · iexact H2
  isplitl [H3]; · iexact H3
  isplitl [H4]; · iexact H4
  iintro ⟨G1, G2, G3, G4, G5⟩
  iapply hrest
  isplitr; · iexact HP
  isplitl [G1]; · iexact G1
  isplitl [G2]; · iexact G2
  isplitl [G3]; · iexact G3
  isplitl [G4]; · iexact G4
  isplitl [G5]; · iexact G5
  iexact HF

omit [FloatOps F] in
/-- A step that takes 5 strands and gives 1 back, applied in front of a frame. -/
theorem chain_5_1 {P A1 A2 A3 A4 A5 B1 Fr W W' : sProp 𝕄} [BI.Persistent P]
    (hstep : iprop(P ∗ A1 ∗ A2 ∗ A3 ∗ A4 ∗ A5 ∗ (B1 -∗ W')) ⊢ W)
    (hrest : iprop(P ∗ B1 ∗ Fr) ⊢ W') :
    iprop(P ∗ A1 ∗ A2 ∗ A3 ∗ A4 ∗ A5 ∗ Fr) ⊢ W := by
  iintro ⟨#HP, H1, H2, H3, H4, H5, HF⟩
  iapply hstep
  isplitr; · iexact HP
  isplitl [H1]; · iexact H1
  isplitl [H2]; · iexact H2
  isplitl [H3]; · iexact H3
  isplitl [H4]; · iexact H4
  isplitl [H5]; · iexact H5
  iintro G1
  iapply hrest
  isplitr; · iexact HP
  isplitl [G1]; · iexact G1
  iexact HF

omit [FloatOps F] in
/-- A step that takes 5 strands and gives 2 back, applied in front of a frame. -/
theorem chain_5_2 {P A1 A2 A3 A4 A5 B1 B2 Fr W W' : sProp 𝕄} [BI.Persistent P]
    (hstep : iprop(P ∗ A1 ∗ A2 ∗ A3 ∗ A4 ∗ A5 ∗ ((B1 ∗ B2) -∗ W')) ⊢ W)
    (hrest : iprop(P ∗ B1 ∗ B2 ∗ Fr) ⊢ W') :
    iprop(P ∗ A1 ∗ A2 ∗ A3 ∗ A4 ∗ A5 ∗ Fr) ⊢ W := by
  iintro ⟨#HP, H1, H2, H3, H4, H5, HF⟩
  iapply hstep
  isplitr; · iexact HP
  isplitl [H1]; · iexact H1
  isplitl [H2]; · iexact H2
  isplitl [H3]; · iexact H3
  isplitl [H4]; · iexact H4
  isplitl [H5]; · iexact H5
  iintro ⟨G1, G2⟩
  iapply hrest
  isplitr; · iexact HP
  isplitl [G1]; · iexact G1
  isplitl [G2]; · iexact G2
  iexact HF

omit [FloatOps F] in
/-- A step that takes 5 strands and gives 3 back, applied in front of a frame. -/
theorem chain_5_3 {P A1 A2 A3 A4 A5 B1 B2 B3 Fr W W' : sProp 𝕄} [BI.Persistent P]
    (hstep : iprop(P ∗ A1 ∗ A2 ∗ A3 ∗ A4 ∗ A5 ∗ ((B1 ∗ B2 ∗ B3) -∗ W')) ⊢ W)
    (hrest : iprop(P ∗ B1 ∗ B2 ∗ B3 ∗ Fr) ⊢ W') :
    iprop(P ∗ A1 ∗ A2 ∗ A3 ∗ A4 ∗ A5 ∗ Fr) ⊢ W := by
  iintro ⟨#HP, H1, H2, H3, H4, H5, HF⟩
  iapply hstep
  isplitr; · iexact HP
  isplitl [H1]; · iexact H1
  isplitl [H2]; · iexact H2
  isplitl [H3]; · iexact H3
  isplitl [H4]; · iexact H4
  isplitl [H5]; · iexact H5
  iintro ⟨G1, G2, G3⟩
  iapply hrest
  isplitr; · iexact HP
  isplitl [G1]; · iexact G1
  isplitl [G2]; · iexact G2
  isplitl [G3]; · iexact G3
  iexact HF

omit [FloatOps F] in
/-- A step that takes 5 strands and gives 4 back, applied in front of a frame. -/
theorem chain_5_4 {P A1 A2 A3 A4 A5 B1 B2 B3 B4 Fr W W' : sProp 𝕄} [BI.Persistent P]
    (hstep : iprop(P ∗ A1 ∗ A2 ∗ A3 ∗ A4 ∗ A5 ∗ ((B1 ∗ B2 ∗ B3 ∗ B4) -∗ W')) ⊢ W)
    (hrest : iprop(P ∗ B1 ∗ B2 ∗ B3 ∗ B4 ∗ Fr) ⊢ W') :
    iprop(P ∗ A1 ∗ A2 ∗ A3 ∗ A4 ∗ A5 ∗ Fr) ⊢ W := by
  iintro ⟨#HP, H1, H2, H3, H4, H5, HF⟩
  iapply hstep
  isplitr; · iexact HP
  isplitl [H1]; · iexact H1
  isplitl [H2]; · iexact H2
  isplitl [H3]; · iexact H3
  isplitl [H4]; · iexact H4
  isplitl [H5]; · iexact H5
  iintro ⟨G1, G2, G3, G4⟩
  iapply hrest
  isplitr; · iexact HP
  isplitl [G1]; · iexact G1
  isplitl [G2]; · iexact G2
  isplitl [G3]; · iexact G3
  isplitl [G4]; · iexact G4
  iexact HF

omit [FloatOps F] in
/-- A step that takes 5 strands and gives 5 back, applied in front of a frame. -/
theorem chain_5_5 {P A1 A2 A3 A4 A5 B1 B2 B3 B4 B5 Fr W W' : sProp 𝕄} [BI.Persistent P]
    (hstep : iprop(P ∗ A1 ∗ A2 ∗ A3 ∗ A4 ∗ A5 ∗ ((B1 ∗ B2 ∗ B3 ∗ B4 ∗ B5) -∗ W')) ⊢ W)
    (hrest : iprop(P ∗ B1 ∗ B2 ∗ B3 ∗ B4 ∗ B5 ∗ Fr) ⊢ W') :
    iprop(P ∗ A1 ∗ A2 ∗ A3 ∗ A4 ∗ A5 ∗ Fr) ⊢ W := by
  iintro ⟨#HP, H1, H2, H3, H4, H5, HF⟩
  iapply hstep
  isplitr; · iexact HP
  isplitl [H1]; · iexact H1
  isplitl [H2]; · iexact H2
  isplitl [H3]; · iexact H3
  isplitl [H4]; · iexact H4
  isplitl [H5]; · iexact H5
  iintro ⟨G1, G2, G3, G4, G5⟩
  iapply hrest
  isplitr; · iexact HP
  isplitl [G1]; · iexact G1
  isplitl [G2]; · iexact G2
  isplitl [G3]; · iexact G3
  isplitl [G4]; · iexact G4
  isplitl [G5]; · iexact G5
  iexact HF

omit [FloatOps F] in
/-- A step that needs nothing persistent: one strand in, one out, the persistent part carried with the frame. -/
theorem chain0_1_1 {P A B Fr W W' : sProp 𝕄}
    (hstep : iprop(A ∗ (B -∗ W')) ⊢ W)
    (hrest : iprop(P ∗ B ∗ Fr) ⊢ W') :
    iprop(P ∗ A ∗ Fr) ⊢ W := by
  iintro ⟨HP, H1, HF⟩
  iapply hstep
  isplitl [H1]; · iexact H1
  iintro G1
  iapply hrest
  isplitl [HP]; · iexact HP
  isplitl [G1]; · iexact G1
  iexact HF

omit [FloatOps F] in
/-- The same when the rest depends on a value the step delivers. -/
theorem chain0v_1_1 {β : Type} {P A B Fr W : sProp 𝕄} {W' : β → sProp 𝕄}
    (hstep : iprop(A ∗ (∀ v, B -∗ W' v)) ⊢ W)
    (hrest : ∀ v, iprop(P ∗ B ∗ Fr) ⊢ W' v) :
    iprop(P ∗ A ∗ Fr) ⊢ W := by
  iintro ⟨HP, H1, HF⟩
  iapply hstep
  isplitl [H1]; · iexact H1
  iintro %v G1
  iapply (hrest v)
  isplitl [HP]; · iexact HP
  isplitl [G1]; · iexact G1
  iexact HF

omit [FloatOps F] in
/-- A state regrouped before a step: the regrouping is an entailment between strands alone. -/
theorem regroup {X X' W : sProp 𝕄} (h : X ⊢ X') (hrest : X' ⊢ W) : X ⊢ W := h.trans hrest

omit [FloatOps F] in
/-- A whole part in front of a frame: the part takes the state `A` as one assertion and hands `B r` to what follows,
    which may depend on the value `r` the part returns. -/
theorem chain_part {P A Fr W : sProp 𝕄} {α : Type} {B W' : α → sProp 𝕄} [BI.Persistent P]
    (hstep : iprop(P ∗ A ∗ (∀ r, B r -∗ W' r)) ⊢ W)
    (hrest : ∀ r, iprop(P ∗ B r ∗ Fr) ⊢ W' r) :
    iprop(P ∗ A ∗ Fr) ⊢ W := by
  iintro ⟨#HP, HA, HF⟩
  iapply hstep
  isplitr; · iexact HP
  isplitl [HA]; · iexact HA
  iintro %r HB
  iapply (hrest r)
  isplitr; · iexact HP
  isplitl [HB]; · iexact HB
  iexact HF

omit [FloatOps F] in
/-- A pure fact carried in the state comes out as a hypothesis. -/
theorem chain_pure {P S Fr W : sProp 𝕄} {φ : Prop} (h : φ → (iprop(P ∗ S ∗ Fr) ⊢ W)) :
    iprop(P ∗ (⌜φ⌝ ∗ S) ∗ Fr) ⊢ W := by
  iintro ⟨HP, ⟨%hφ, HS⟩, HF⟩
  iapply (h hφ)
  isplitl [HP]; · iexact HP
  isplitl [HS]; · iexact HS
  iexact HF

end Cert.KernelIdeal.AG

end
-- ==== Proof.BodyP1.lean ====
import proofs.«900094_g7700000000000095_dist_ag_v7x_xy2x2_y_m16384_n1024_bf16_1_alg».proof.Proof.StepsEdge
import proofs.«900094_g7700000000000095_dist_ag_v7x_xy2x2_y_m16384_n1024_bf16_1_alg».proof.Proof.StepsHand
import proofs.«900094_g7700000000000095_dist_ag_v7x_xy2x2_y_m16384_n1024_bf16_1_alg».proof.Proof.StepsLocal
import proofs.«900094_g7700000000000095_dist_ag_v7x_xy2x2_y_m16384_n1024_bf16_1_alg».proof.Proof.StepsRemote
import proofs.«900094_g7700000000000095_dist_ag_v7x_xy2x2_y_m16384_n1024_bf16_1_alg».proof.Proof.OwedLv
import proofs.«900094_g7700000000000095_dist_ag_v7x_xy2x2_y_m16384_n1024_bf16_1_alg».proof.Proof.LibChain

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
theorem part_1 (K : Dev nD × Kind → ℕ) (c : Dev nD) (fv : Buf (Elt F) ((c : Thread nD τ).loc cc0_scratch1)) (fs : Buf (Elt F) ((c : Thread nD τ).loc cc0_scratch0))
      {Q : (Σ' (d0 : Dev nD) (v2 : BitVec 32) (v5 : BitVec 32) (v6 : BitVec 32) (v7 : BitVec 32) (v17 : BitVec 32), BitVec 32) → sProp 𝕄} :
    iprop(Pers m K ∗ StBar c 0 ∗ StLd m c fv 0 0 ∗ StB m c (m ((c : Thread nD τ).loc main_v1)) false 0 0 0 ∗ StC m c (m ((c : Thread nD τ).loc main_v1)) false 0 ∗ Ow c (owedAt c 0 0 0 0) ∗ (∀ (v2 : BitVec 32) (v5 : BitVec 32) (v6 : BitVec 32) (v7 : BitVec 32) (v17 : BitVec 32) (rl : BitVec 32), (StBar c 3 ∗ StLd m c fv 1 0 ∗ StYreg c 0 ∗ StFreg c 0 ∗ StB m c (m ((c : Thread nD τ).loc main_v1)) true 0 0 0 ∗ StC m c (m ((c : Thread nD τ).loc main_v1)) true 0 ∗ Ow c (owedAt c 2 0 0 0)) -∗ Q ⟨c, v2, v5, v6, v7, v17, rl⟩))
      ⊢ wp frame (wpE (defs₀ (F := F)) 𝒱₀ (c : Thread nD τ) none) Set.univ (k0_part1 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 ) Q := by
  iintro ⟨#HP, HBar, HLd, HB, HC, HOw, Hk⟩
  rw [k0_part1_eq_skeleton]; unfold k0_part1_skel
  simp only [Prog.lift, Prog.bind_op, Prog.bind_ret, Prog.pure_eq_ret, semSignalWord, semWaitWord, wp_deviceId]
  iapply (s_sig_bar_y (m := m) (K := K) (c := c) (fo := m ((c : Thread nD τ).loc main_v1)) 0 0 0 _ (devY k0_dev1 k0_dev1_lt k0_dev1_eq c))
  isplitr; · iexact HP
  isplitl [HBar]; · iexact HBar
  isplitl [HB]; · iexact HB
  isplitl [HOw]; · iexact HOw
  iintro ⟨HBar, HB, HOw⟩
  iapply (s_sig_bar_x (m := m) (K := K) (c := c) (fo := m ((c : Thread nD τ).loc main_v1)) 0 0 0 _ (devX k0_dev2 k0_dev2_lt k0_dev2_eq c))
  isplitr; · iexact HP
  isplitl [HBar]; · iexact HBar
  isplitl [HC]; · iexact HC
  isplitl [HOw]; · iexact HOw
  iintro ⟨HBar, HC, HOw⟩
  iapply (s_wait_bar (m := m) (K := K) (c := c))
  isplitr; · iexact HP
  isplitl [HBar]; · iexact HBar
  isplitl [HOw]; · iexact HOw
  iintro ⟨HBar, HYg, HFg, HOw⟩
  iapply (s_ld_start (m := m) (K := K) (c := c) (fv := fv) (0 : Fin 32) 0 0 rfl (by decide) (by decide))
  isplitr; · iexact HP
  isplitl [HLd]; · iexact HLd
  iintro HLd
  rw [wp_ret]; imodintro
  iapply Hk
  isplitl [HBar]; · iexact HBar
  isplitl [HLd]; · iexact HLd
  isplitl [HYg]; · iexact HYg
  isplitl [HFg]; · iexact HFg
  isplitl [HB]; · iexact HB
  isplitl [HC]; · iexact HC
  iexact HOw

theorem part_2 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (BitVec 32) → sProp 𝕄} :
    iprop(Pers m K ∗ StLd m c fv 1 0 ∗ StVs m c fs 0 0 0 0 ∗ StYtok c 0 ∗ StYreg c 0 ∗ sendCells (ysendCell c) 0 0 ∗ Ow c (owedAt c 2 0 0 0) ∗ (∀ (r : BitVec 32), (StLd m c fv 2 1 ∗ StVs m c fs 0 1 1 0 ∗ StYtok c 1 ∗ StYreg c 1 ∗ sendCells (ysendCell c) 1 0 ∗ Ow c (owedAt c 2 1 0 0)) -∗ Q r))
      ⊢ wp frame (wpE (defs₀ (F := F)) 𝒱₀ (c : Thread nD τ) none) Set.univ (k0_part2 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q := by
  iintro ⟨#HP, HLd, HVs, HYt, HYg, HYs, HOw, Hk⟩
  rw [k0_part2_eq_skeleton]; unfold k0_part2_skel
  simp only [Prog.lift, Prog.bind_op, Prog.bind_ret, Prog.pure_eq_ret, semSignalWord, semWaitWord, wp_deviceId]
  iapply (s_ld_start (m := m) (K := K) (c := c) (fv := fv) (1 : Fin 32) 1 0 rfl (by decide) (by decide))
  isplitr; · iexact HP
  isplitl [HLd]; · iexact HLd
  iintro HLd
  iapply (s_ld_wait (m := m) (K := K) (c := c) (fv := fv) (0 : Fin 32) 2 0 rfl (by decide) (owedAt c 2 0 0 0) (owedAt_lv_pos c _ _ _))
  isplitr; · iexact HP
  isplitl [HLd]; · iexact HLd
  isplitl [HOw]; · iexact HOw
  iintro ⟨HLd, HOw⟩
  iapply (s_vload (m := m) (c := c) (fv := fv) (0 : Fin 32) 2 1 rfl (by decide) (by decide))
  isplitl [HLd]; · iexact HLd
  iintro HLd
  iapply (s_vsload (m := m) (c := c) (fs := fs) (0 : Fin 32) 0 0 rfl (by decide))
  isplitl [HVs]; · iexact HVs
  iintro %_v HVs
  iapply (s_store (m := m) (c := c) (fs := fs) (0 : Fin 32) 0 0 rfl (by decide) _ rfl)
  isplitl [HVs]; · iexact HVs
  iintro HVs
  iapply (s_y_start (m := m) (K := K) (c := c) (fs := fs) (0 : Fin 16) 1 0 2 0 0 rfl (by decide) _ (devY k0_dev3 k0_dev3_lt k0_dev3_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  rw [wp_ret]; imodintro
  iapply Hk
  isplitl [HLd]; · iexact HLd
  isplitl [HVs]; · iexact HVs
  isplitl [HYt]; · iexact HYt
  isplitl [HYg]; · iexact HYg
  isplitl [HYs]; · iexact HYs
  iexact HOw

theorem part_3 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} {c1024_i32 : BitVec 32}  {Q : (PUnit) → sProp 𝕄} :
    iprop(Pers m K ∗ StLd m c fv 2 1 ∗ StVs m c fs 0 1 1 0 ∗ Ow c (owedAt c 2 1 0 0) ∗ (∀ (r : PUnit), (StLd m c fv 3 2 ∗ StVs m c fs 0 2 1 0 ∗ Ow c (owedAt c 2 1 0 0)) -∗ Q r))
      ⊢ wp frame (wpE (defs₀ (F := F)) 𝒱₀ (c : Thread nD τ) none) Set.univ (k0_part3 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 c1024_i32) Q := by
  iintro ⟨#HP, HLd, HVs, HOw, Hk⟩
  rw [k0_part3_eq_skeleton]; unfold k0_part3_skel
  simp only [Prog.lift, Prog.bind_op, Prog.bind_ret, Prog.pure_eq_ret, semSignalWord, semWaitWord, wp_deviceId]
  iapply (s_ld_start (m := m) (K := K) (c := c) (fv := fv) (2 : Fin 32) 2 1 rfl (by decide) (by decide))
  isplitr; · iexact HP
  isplitl [HLd]; · iexact HLd
  iintro HLd
  iapply (s_ld_wait (m := m) (K := K) (c := c) (fv := fv) (1 : Fin 32) 3 1 rfl (by decide) (owedAt c 2 1 0 0) (owedAt_lv_pos c _ _ _))
  isplitr; · iexact HP
  isplitl [HLd]; · iexact HLd
  isplitl [HOw]; · iexact HOw
  iintro ⟨HLd, HOw⟩
  iapply (s_vload (m := m) (c := c) (fv := fv) (1 : Fin 32) 3 2 rfl (by decide) (by decide))
  isplitl [HLd]; · iexact HLd
  iintro HLd
  iapply (s_vsload (m := m) (c := c) (fs := fs) (1 : Fin 32) 1 1 rfl (by decide))
  isplitl [HVs]; · iexact HVs
  iintro %_v HVs
  iapply (s_store (m := m) (c := c) (fs := fs) (1 : Fin 32) 1 1 rfl (by decide) _ rfl)
  isplitl [HVs]; · iexact HVs
  iintro HVs
  rw [wp_ret]; imodintro
  iapply Hk
  isplitl [HLd]; · iexact HLd
  isplitl [HVs]; · iexact HVs
  iexact HOw

theorem part_4 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (PUnit) → sProp 𝕄} :
    iprop(Pers m K ∗ StLd m c fv 3 2 ∗ StVs m c fs 0 2 1 0 ∗ StYtok c 1 ∗ StYreg c 1 ∗ sendCells (ysendCell c) 1 0 ∗ Ow c (owedAt c 2 1 0 0) ∗ (∀ (r : PUnit), (StLd m c fv 4 3 ∗ StVs m c fs 0 3 2 0 ∗ StYtok c 2 ∗ StYreg c 2 ∗ sendCells (ysendCell c) 2 0 ∗ Ow c (owedAt c 2 2 0 0)) -∗ Q r))
      ⊢ wp frame (wpE (defs₀ (F := F)) 𝒱₀ (c : Thread nD τ) none) Set.univ (k0_part4 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q := by
  iintro ⟨#HP, HLd, HVs, HYt, HYg, HYs, HOw, Hk⟩
  rw [k0_part4_eq_skeleton]; unfold k0_part4_skel
  simp only [Prog.lift, Prog.bind_op, Prog.bind_ret, Prog.pure_eq_ret, semSignalWord, semWaitWord, wp_deviceId]
  iapply (s_y_start (m := m) (K := K) (c := c) (fs := fs) (1 : Fin 16) 2 1 2 0 0 rfl (by decide) _ (devY k0_dev4 k0_dev4_lt k0_dev4_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (3 : Fin 32) 3 2 rfl (by decide) (by decide))
  isplitr; · iexact HP
  isplitl [HLd]; · iexact HLd
  iintro HLd
  iapply (s_ld_wait (m := m) (K := K) (c := c) (fv := fv) (2 : Fin 32) 4 2 rfl (by decide) (owedAt c 2 2 0 0) (owedAt_lv_pos c _ _ _))
  isplitr; · iexact HP
  isplitl [HLd]; · iexact HLd
  isplitl [HOw]; · iexact HOw
  iintro ⟨HLd, HOw⟩
  iapply (s_vload (m := m) (c := c) (fv := fv) (2 : Fin 32) 4 3 rfl (by decide) (by decide))
  isplitl [HLd]; · iexact HLd
  iintro HLd
  iapply (s_vsload (m := m) (c := c) (fs := fs) (2 : Fin 32) 2 2 rfl (by decide))
  isplitl [HVs]; · iexact HVs
  iintro %_v HVs
  iapply (s_store (m := m) (c := c) (fs := fs) (2 : Fin 32) 2 2 rfl (by decide) _ rfl)
  isplitl [HVs]; · iexact HVs
  iintro HVs
  rw [wp_ret]; imodintro
  iapply Hk
  isplitl [HLd]; · iexact HLd
  isplitl [HVs]; · iexact HVs
  isplitl [HYt]; · iexact HYt
  isplitl [HYg]; · iexact HYg
  isplitl [HYs]; · iexact HYs
  iexact HOw

theorem part_5 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (PUnit) → sProp 𝕄} :
    iprop(Pers m K ∗ StLd m c fv 4 3 ∗ StVs m c fs 0 3 2 0 ∗ StYtok c 2 ∗ StYreg c 2 ∗ sendCells (ysendCell c) 2 0 ∗ Ow c (owedAt c 2 2 0 0) ∗ (∀ (r : PUnit), (StLd m c fv 5 4 ∗ StVs m c fs 0 4 3 0 ∗ StYtok c 3 ∗ StYreg c 3 ∗ sendCells (ysendCell c) 3 0 ∗ Ow c (owedAt c 2 3 0 0)) -∗ Q r))
      ⊢ wp frame (wpE (defs₀ (F := F)) 𝒱₀ (c : Thread nD τ) none) Set.univ (k0_part5 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q := by
  iintro ⟨#HP, HLd, HVs, HYt, HYg, HYs, HOw, Hk⟩
  rw [k0_part5_eq_skeleton]; unfold k0_part5_skel
  simp only [Prog.lift, Prog.bind_op, Prog.bind_ret, Prog.pure_eq_ret, semSignalWord, semWaitWord, wp_deviceId]
  iapply (s_y_start (m := m) (K := K) (c := c) (fs := fs) (2 : Fin 16) 3 2 2 0 0 rfl (by decide) _ (devY k0_dev5 k0_dev5_lt k0_dev5_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (4 : Fin 32) 4 3 rfl (by decide) (by decide))
  isplitr; · iexact HP
  isplitl [HLd]; · iexact HLd
  iintro HLd
  iapply (s_ld_wait (m := m) (K := K) (c := c) (fv := fv) (3 : Fin 32) 5 3 rfl (by decide) (owedAt c 2 3 0 0) (owedAt_lv_pos c _ _ _))
  isplitr; · iexact HP
  isplitl [HLd]; · iexact HLd
  isplitl [HOw]; · iexact HOw
  iintro ⟨HLd, HOw⟩
  iapply (s_vload (m := m) (c := c) (fv := fv) (3 : Fin 32) 5 4 rfl (by decide) (by decide))
  isplitl [HLd]; · iexact HLd
  iintro HLd
  iapply (s_vsload (m := m) (c := c) (fs := fs) (3 : Fin 32) 3 3 rfl (by decide))
  isplitl [HVs]; · iexact HVs
  iintro %_v HVs
  iapply (s_store (m := m) (c := c) (fs := fs) (3 : Fin 32) 3 3 rfl (by decide) _ rfl)
  isplitl [HVs]; · iexact HVs
  iintro HVs
  rw [wp_ret]; imodintro
  iapply Hk
  isplitl [HLd]; · iexact HLd
  isplitl [HVs]; · iexact HVs
  isplitl [HYt]; · iexact HYt
  isplitl [HYg]; · iexact HYg
  isplitl [HYs]; · iexact HYs
  iexact HOw

theorem part_6 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v17 : BitVec 32}  {Q : (Σ' (v182 : BitVec 32), BitVec 32) → sProp 𝕄} :
    iprop(Pers m K ∗ StLd m c fv 5 4 ∗ StVs m c fs 0 4 3 0 ∗ StYtok c 3 ∗ StYreg c 3 ∗ sendCells (ysendCell c) 3 0 ∗ Ow c (owedAt c 2 3 0 0) ∗ (∀ (v182 : BitVec 32) (rl : BitVec 32), (StLd m c fv 6 5 ∗ StVs m c fs 0 5 4 0 ∗ StYtok c 4 ∗ StYreg c 4 ∗ sendCells (ysendCell c) 4 0 ∗ Ow c (owedAt c 2 4 0 0)) -∗ Q ⟨v182, rl⟩))
      ⊢ wp frame (wpE (defs₀ (F := F)) 𝒱₀ (c : Thread nD τ) none) Set.univ (k0_part6 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v17) Q := by
  iintro ⟨#HP, HLd, HVs, HYt, HYg, HYs, HOw, Hk⟩
  rw [k0_part6_eq_skeleton]; unfold k0_part6_skel
  simp only [Prog.lift, Prog.bind_op, Prog.bind_ret, Prog.pure_eq_ret, semSignalWord, semWaitWord, wp_deviceId]
  iapply (s_y_start (m := m) (K := K) (c := c) (fs := fs) (3 : Fin 16) 4 3 2 0 0 rfl (by decide) _ (devY k0_dev6 k0_dev6_lt k0_dev6_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (5 : Fin 32) 5 4 rfl (by decide) (by decide))
  isplitr; · iexact HP
  isplitl [HLd]; · iexact HLd
  iintro HLd
  iapply (s_ld_wait (m := m) (K := K) (c := c) (fv := fv) (4 : Fin 32) 6 4 rfl (by decide) (owedAt c 2 4 0 0) (owedAt_lv_pos c _ _ _))
  isplitr; · iexact HP
  isplitl [HLd]; · iexact HLd
  isplitl [HOw]; · iexact HOw
  iintro ⟨HLd, HOw⟩
  iapply (s_vload (m := m) (c := c) (fv := fv) (4 : Fin 32) 6 5 rfl (by decide) (by decide))
  isplitl [HLd]; · iexact HLd
  iintro HLd
  iapply (s_vsload (m := m) (c := c) (fs := fs) (4 : Fin 32) 4 4 rfl (by decide))
  isplitl [HVs]; · iexact HVs
  iintro %_v HVs
  iapply (s_store (m := m) (c := c) (fs := fs) (4 : Fin 32) 4 4 rfl (by decide) _ rfl)
  isplitl [HVs]; · iexact HVs
  iintro HVs
  rw [wp_ret]; imodintro
  iapply Hk
  isplitl [HLd]; · iexact HLd
  isplitl [HVs]; · iexact HVs
  isplitl [HYt]; · iexact HYt
  isplitl [HYg]; · iexact HYg
  isplitl [HYs]; · iexact HYs
  iexact HOw

theorem part_7 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} {v182 : BitVec 32} {c1_i32_137 : BitVec 32}  {Q : (BitVec 32) → sProp 𝕄} :
    iprop(Pers m K ∗ StLd m c fv 6 5 ∗ StVs m c fs 0 5 4 0 ∗ StYtok c 4 ∗ StYreg c 4 ∗ sendCells (ysendCell c) 4 0 ∗ Ow c (owedAt c 2 4 0 0) ∗ (∀ (r : BitVec 32), (StLd m c fv 7 6 ∗ StVs m c fs 0 6 5 0 ∗ StYtok c 5 ∗ StYreg c 5 ∗ sendCells (ysendCell c) 5 0 ∗ Ow c (owedAt c 2 5 0 0)) -∗ Q r))
      ⊢ wp frame (wpE (defs₀ (F := F)) 𝒱₀ (c : Thread nD τ) none) Set.univ (k0_part7 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v182 c1_i32_137) Q := by
  iintro ⟨#HP, HLd, HVs, HYt, HYg, HYs, HOw, Hk⟩
  rw [k0_part7_eq_skeleton]; unfold k0_part7_skel
  simp only [Prog.lift, Prog.bind_op, Prog.bind_ret, Prog.pure_eq_ret, semSignalWord, semWaitWord, wp_deviceId]
  iapply (s_y_start (m := m) (K := K) (c := c) (fs := fs) (4 : Fin 16) 5 4 2 0 0 rfl (by decide) _ (devY k0_dev7 k0_dev7_lt k0_dev7_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (6 : Fin 32) 6 5 rfl (by decide) (by decide))
  isplitr; · iexact HP
  isplitl [HLd]; · iexact HLd
  iintro HLd
  iapply (s_ld_wait (m := m) (K := K) (c := c) (fv := fv) (5 : Fin 32) 7 5 rfl (by decide) (owedAt c 2 5 0 0) (owedAt_lv_pos c _ _ _))
  isplitr; · iexact HP
  isplitl [HLd]; · iexact HLd
  isplitl [HOw]; · iexact HOw
  iintro ⟨HLd, HOw⟩
  iapply (s_vload (m := m) (c := c) (fv := fv) (5 : Fin 32) 7 6 rfl (by decide) (by decide))
  isplitl [HLd]; · iexact HLd
  iintro HLd
  iapply (s_vsload (m := m) (c := c) (fs := fs) (5 : Fin 32) 5 5 rfl (by decide))
  isplitl [HVs]; · iexact HVs
  iintro %_v HVs
  iapply (s_store (m := m) (c := c) (fs := fs) (5 : Fin 32) 5 5 rfl (by decide) _ rfl)
  isplitl [HVs]; · iexact HVs
  iintro HVs
  rw [wp_ret]; imodintro
  iapply Hk
  isplitl [HLd]; · iexact HLd
  isplitl [HVs]; · iexact HVs
  isplitl [HYt]; · iexact HYt
  isplitl [HYg]; · iexact HYg
  isplitl [HYs]; · iexact HYs
  iexact HOw

theorem part_8 (K : Dev nD × Kind → ℕ) (c : Dev nD) (fv : Buf (Elt F) ((c : Thread nD τ).loc cc0_scratch1)) (fs : Buf (Elt F) ((c : Thread nD τ).loc cc0_scratch0))
    {v5 : BitVec 32} {v6 : BitVec 32} {v17 : BitVec 32} {v214 : BitVec 32}  {Q : (PUnit) → sProp 𝕄} :
    iprop(Pers m K ∗ StLd m c fv 7 6 ∗ StVs m c fs 0 6 5 0 ∗ StYtok c 5 ∗ StYreg c 5 ∗ sendCells (ysendCell c) 5 0 ∗ Ow c (owedAt c 2 5 0 0) ∗ (∀ (r : PUnit), (StLd m c fv 8 7 ∗ StVs m c fs 0 7 6 0 ∗ StYtok c 6 ∗ StYreg c 6 ∗ sendCells (ysendCell c) 6 0 ∗ Ow c (owedAt c 2 6 0 0)) -∗ Q r))
      ⊢ wp frame (wpE (defs₀ (F := F)) 𝒱₀ (c : Thread nD τ) none) Set.univ (k0_part8 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v6 v17 v214) Q := by
  iintro ⟨#HP, HLd, HVs, HYt, HYg, HYs, HOw, Hk⟩
  rw [k0_part8_eq_skeleton]; unfold k0_part8_skel
  simp only [Prog.lift, Prog.bind_op, Prog.bind_ret, Prog.pure_eq_ret, semSignalWord, semWaitWord, wp_deviceId]
  iapply (s_y_start (m := m) (K := K) (c := c) (fs := fs) (5 : Fin 16) 6 5 2 0 0 rfl (by decide) _ (devY k0_dev8 k0_dev8_lt k0_dev8_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (7 : Fin 32) 7 6 rfl (by decide) (by decide))
  isplitr; · iexact HP
  isplitl [HLd]; · iexact HLd
  iintro HLd
  iapply (s_ld_wait (m := m) (K := K) (c := c) (fv := fv) (6 : Fin 32) 8 6 rfl (by decide) (owedAt c 2 6 0 0) (owedAt_lv_pos c _ _ _))
  isplitr; · iexact HP
  isplitl [HLd]; · iexact HLd
  isplitl [HOw]; · iexact HOw
  iintro ⟨HLd, HOw⟩
  iapply (s_vload (m := m) (c := c) (fv := fv) (6 : Fin 32) 8 7 rfl (by decide) (by decide))
  isplitl [HLd]; · iexact HLd
  iintro HLd
  iapply (s_vsload (m := m) (c := c) (fs := fs) (6 : Fin 32) 6 6 rfl (by decide))
  isplitl [HVs]; · iexact HVs
  iintro %_v HVs
  iapply (s_store (m := m) (c := c) (fs := fs) (6 : Fin 32) 6 6 rfl (by decide) _ rfl)
  isplitl [HVs]; · iexact HVs
  iintro HVs
  rw [wp_ret]; imodintro
  iapply Hk
  isplitl [HLd]; · iexact HLd
  isplitl [HVs]; · iexact HVs
  isplitl [HYt]; · iexact HYt
  isplitl [HYg]; · iexact HYg
  isplitl [HYs]; · iexact HYs
  iexact HOw

theorem part_9 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (BitVec 32) → sProp 𝕄} :
    iprop(Pers m K ∗ StLd m c fv 8 7 ∗ StVs m c fs 0 7 6 0 ∗ StYtok c 6 ∗ StYreg c 6 ∗ sendCells (ysendCell c) 6 0 ∗ Ow c (owedAt c 2 6 0 0) ∗ (∀ (r : BitVec 32), (StLd m c fv 9 8 ∗ StVs m c fs 0 8 7 0 ∗ StYtok c 7 ∗ StYreg c 7 ∗ sendCells (ysendCell c) 7 0 ∗ Ow c (owedAt c 2 7 0 0)) -∗ Q r))
      ⊢ wp frame (wpE (defs₀ (F := F)) 𝒱₀ (c : Thread nD τ) none) Set.univ (k0_part9 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q := by
  iintro ⟨#HP, HLd, HVs, HYt, HYg, HYs, HOw, Hk⟩
  rw [k0_part9_eq_skeleton]; unfold k0_part9_skel
  simp only [Prog.lift, Prog.bind_op, Prog.bind_ret, Prog.pure_eq_ret, semSignalWord, semWaitWord, wp_deviceId]
  iapply (s_y_start (m := m) (K := K) (c := c) (fs := fs) (6 : Fin 16) 7 6 2 0 0 rfl (by decide) _ (devY k0_dev9 k0_dev9_lt k0_dev9_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (8 : Fin 32) 8 7 rfl (by decide) (by decide))
  isplitr; · iexact HP
  isplitl [HLd]; · iexact HLd
  iintro HLd
  iapply (s_ld_wait (m := m) (K := K) (c := c) (fv := fv) (7 : Fin 32) 9 7 rfl (by decide) (owedAt c 2 7 0 0) (owedAt_lv_pos c _ _ _))
  isplitr; · iexact HP
  isplitl [HLd]; · iexact HLd
  isplitl [HOw]; · iexact HOw
  iintro ⟨HLd, HOw⟩
  iapply (s_vload (m := m) (c := c) (fv := fv) (7 : Fin 32) 9 8 rfl (by decide) (by decide))
  isplitl [HLd]; · iexact HLd
  iintro HLd
  iapply (s_vsload (m := m) (c := c) (fs := fs) (7 : Fin 32) 7 7 rfl (by decide))
  isplitl [HVs]; · iexact HVs
  iintro %_v HVs
  iapply (s_store (m := m) (c := c) (fs := fs) (7 : Fin 32) 7 7 rfl (by decide) _ rfl)
  isplitl [HVs]; · iexact HVs
  iintro HVs
  rw [wp_ret]; imodintro
  iapply Hk
  isplitl [HLd]; · iexact HLd
  isplitl [HVs]; · iexact HVs
  isplitl [HYt]; · iexact HYt
  isplitl [HYg]; · iexact HYg
  isplitl [HYs]; · iexact HYs
  iexact HOw

theorem part_10 (K : Dev nD × Kind → ℕ) (c : Dev nD) (fv : Buf (Elt F) ((c : Thread nD τ).loc cc0_scratch1)) (fs : Buf (Elt F) ((c : Thread nD τ).loc cc0_scratch0))
    {v2 : BitVec 32} {v6 : BitVec 32} {v17 : BitVec 32} {v278 : BitVec 32}  {Q : (PUnit) → sProp 𝕄} :
    iprop(Pers m K ∗ StLd m c fv 9 8 ∗ StVs m c fs 0 8 7 0 ∗ StYtok c 7 ∗ StYreg c 7 ∗ sendCells (ysendCell c) 7 0 ∗ Ow c (owedAt c 2 7 0 0) ∗ (∀ (r : PUnit), (StLd m c fv 10 9 ∗ StVs m c fs 0 9 8 0 ∗ StYtok c 8 ∗ StYreg c 8 ∗ sendCells (ysendCell c) 8 0 ∗ Ow c (owedAt c 2 8 0 0)) -∗ Q r))
      ⊢ wp frame (wpE (defs₀ (F := F)) 𝒱₀ (c : Thread nD τ) none) Set.univ (k0_part10 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v6 v17 v278) Q := by
  iintro ⟨#HP, HLd, HVs, HYt, HYg, HYs, HOw, Hk⟩
  rw [k0_part10_eq_skeleton]; unfold k0_part10_skel
  simp only [Prog.lift, Prog.bind_op, Prog.bind_ret, Prog.pure_eq_ret, semSignalWord, semWaitWord, wp_deviceId]
  iapply (s_y_start (m := m) (K := K) (c := c) (fs := fs) (7 : Fin 16) 8 7 2 0 0 rfl (by decide) _ (devY k0_dev10 k0_dev10_lt k0_dev10_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (9 : Fin 32) 9 8 rfl (by decide) (by decide))
  isplitr; · iexact HP
  isplitl [HLd]; · iexact HLd
  iintro HLd
  iapply (s_ld_wait (m := m) (K := K) (c := c) (fv := fv) (8 : Fin 32) 10 8 rfl (by decide) (owedAt c 2 8 0 0) (owedAt_lv_pos c _ _ _))
  isplitr; · iexact HP
  isplitl [HLd]; · iexact HLd
  isplitl [HOw]; · iexact HOw
  iintro ⟨HLd, HOw⟩
  iapply (s_vload (m := m) (c := c) (fv := fv) (8 : Fin 32) 10 9 rfl (by decide) (by decide))
  isplitl [HLd]; · iexact HLd
  iintro HLd
  iapply (s_vsload (m := m) (c := c) (fs := fs) (8 : Fin 32) 8 8 rfl (by decide))
  isplitl [HVs]; · iexact HVs
  iintro %_v HVs
  iapply (s_store (m := m) (c := c) (fs := fs) (8 : Fin 32) 8 8 rfl (by decide) _ rfl)
  isplitl [HVs]; · iexact HVs
  iintro HVs
  rw [wp_ret]; imodintro
  iapply Hk
  isplitl [HLd]; · iexact HLd
  isplitl [HVs]; · iexact HVs
  isplitl [HYt]; · iexact HYt
  isplitl [HYg]; · iexact HYg
  isplitl [HYs]; · iexact HYs
  iexact HOw

theorem part_11 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (FVec F S512x1024 .bf16) → sProp 𝕄} :
    iprop(Pers m K ∗ StLd m c fv 10 9 ∗ StVs m c fs 0 9 8 0 ∗ StYtok c 8 ∗ StYreg c 8 ∗ sendCells (ysendCell c) 8 0 ∗ Ow c (owedAt c 2 8 0 0) ∗ (∀ (r : FVec F S512x1024 .bf16), ⌜r = pay (slotVal m c (9 : Fin 32))⌝ -∗ (StLd m c fv 11 10 ∗ StVs m c fs 0 9 9 0 ∗ StYtok c 9 ∗ StYreg c 9 ∗ sendCells (ysendCell c) 9 0 ∗ Ow c (owedAt c 2 9 0 0)) -∗ Q r))
      ⊢ wp frame (wpE (defs₀ (F := F)) 𝒱₀ (c : Thread nD τ) none) Set.univ (k0_part11 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q := by
  iintro ⟨#HP, HLd, HVs, HYt, HYg, HYs, HOw, Hk⟩
  rw [k0_part11_eq_skeleton]; unfold k0_part11_skel
  simp only [Prog.lift, Prog.bind_op, Prog.bind_ret, Prog.pure_eq_ret, semSignalWord, semWaitWord, wp_deviceId]
  iapply (s_y_start (m := m) (K := K) (c := c) (fs := fs) (8 : Fin 16) 9 8 2 0 0 rfl (by decide) _ (devY k0_dev11 k0_dev11_lt k0_dev11_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (10 : Fin 32) 10 9 rfl (by decide) (by decide))
  isplitr; · iexact HP
  isplitl [HLd]; · iexact HLd
  iintro HLd
  iapply (s_ld_wait (m := m) (K := K) (c := c) (fv := fv) (9 : Fin 32) 11 9 rfl (by decide) (owedAt c 2 9 0 0) (owedAt_lv_pos c _ _ _))
  isplitr; · iexact HP
  isplitl [HLd]; · iexact HLd
  isplitl [HOw]; · iexact HOw
  iintro ⟨HLd, HOw⟩
  iapply (s_vload (m := m) (c := c) (fv := fv) (9 : Fin 32) 11 10 rfl (by decide) (by decide))
  isplitl [HLd]; · iexact HLd
  iintro HLd
  iapply (s_vsload (m := m) (c := c) (fs := fs) (9 : Fin 32) 9 9 rfl (by decide))
  isplitl [HVs]; · iexact HVs
  iintro %_v HVs
  rw [wp_ret]; imodintro
  iapply Hk
  · ipureintro; rfl
  isplitl [HLd]; · iexact HLd
  isplitl [HVs]; · iexact HVs
  isplitl [HYt]; · iexact HYt
  isplitl [HYg]; · iexact HYg
  isplitl [HYs]; · iexact HYs
  iexact HOw

theorem part_12 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} (v341 : FVec F S512x1024 .bf16) (hw : v341 = pay (slotVal m c (9 : Fin 32))) {Q : (FVec F S512x1024 .bf16) → sProp 𝕄} :
    iprop(Pers m K ∗ StLd m c fv 11 10 ∗ StVs m c fs 0 9 9 0 ∗ StYtok c 9 ∗ StYreg c 9 ∗ sendCells (ysendCell c) 9 0 ∗ Ow c (owedAt c 2 9 0 0) ∗ (∀ (r : FVec F S512x1024 .bf16), ⌜(k0_pay12 r) = pay (slotVal m c (10 : Fin 32))⌝ -∗ (StLd m c fv 12 11 ∗ StVs m c fs 0 10 10 0 ∗ StYtok c 10 ∗ StYreg c 10 ∗ sendCells (ysendCell c) 10 0 ∗ Ow c (owedAt c 2 10 0 0)) -∗ Q r))
      ⊢ wp frame (wpE (defs₀ (F := F)) 𝒱₀ (c : Thread nD τ) none) Set.univ (k0_part12 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v341) Q := by
  iintro ⟨#HP, HLd, HVs, HYt, HYg, HYs, HOw, Hk⟩
  rw [k0_part12_eq_skeleton]; unfold k0_part12_skel
  simp only [Prog.lift, Prog.bind_op, Prog.bind_ret, Prog.pure_eq_ret, semSignalWord, semWaitWord, wp_deviceId]
  iapply (s_store (m := m) (c := c) (fs := fs) (9 : Fin 32) 9 9 rfl (by decide) _ hw)
  isplitl [HVs]; · iexact HVs
  iintro HVs
  iapply (s_y_start (m := m) (K := K) (c := c) (fs := fs) (9 : Fin 16) 10 9 2 0 0 rfl (by decide) _ (devY k0_dev12 k0_dev12_lt k0_dev12_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (11 : Fin 32) 11 10 rfl (by decide) (by decide))
  isplitr; · iexact HP
  isplitl [HLd]; · iexact HLd
  iintro HLd
  iapply (s_ld_wait (m := m) (K := K) (c := c) (fv := fv) (10 : Fin 32) 12 10 rfl (by decide) (owedAt c 2 10 0 0) (owedAt_lv_pos c _ _ _))
  isplitr; · iexact HP
  isplitl [HLd]; · iexact HLd
  isplitl [HOw]; · iexact HOw
  iintro ⟨HLd, HOw⟩
  iapply (s_vload (m := m) (c := c) (fv := fv) (10 : Fin 32) 12 11 rfl (by decide) (by decide))
  isplitl [HLd]; · iexact HLd
  iintro HLd
  rw [wp_ret]; imodintro
  iapply Hk
  · ipureintro; rfl
  isplitl [HLd]; · iexact HLd
  isplitl [HVs]; · iexact HVs
  isplitl [HYt]; · iexact HYt
  isplitl [HYg]; · iexact HYg
  isplitl [HYs]; · iexact HYs
  iexact HOw

theorem part_13 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} (v369 : FVec F S512x1024 .bf16) (hw : (k0_pay12 v369) = pay (slotVal m c (10 : Fin 32))) {Q : (Σ' (v402 : FVec F S512x1024 .bf16), BitVec 32) → sProp 𝕄} :
    iprop(Pers m K ∗ StLd m c fv 12 11 ∗ StVs m c fs 0 10 10 0 ∗ StYtok c 10 ∗ StYreg c 10 ∗ sendCells (ysendCell c) 10 0 ∗ Ow c (owedAt c 2 10 0 0) ∗ (∀ (v402 : FVec F S512x1024 .bf16) (rl : BitVec 32), ⌜(k0_pay14 v402) = pay (slotVal m c (11 : Fin 32))⌝ -∗ (StLd m c fv 13 12 ∗ StVs m c fs 0 11 11 0 ∗ StYtok c 11 ∗ StYreg c 11 ∗ sendCells (ysendCell c) 11 0 ∗ Ow c (owedAt c 2 11 0 0)) -∗ Q ⟨v402, rl⟩))
      ⊢ wp frame (wpE (defs₀ (F := F)) 𝒱₀ (c : Thread nD τ) none) Set.univ (k0_part13 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v369) Q := by
  iintro ⟨#HP, HLd, HVs, HYt, HYg, HYs, HOw, Hk⟩
  rw [k0_part13_eq_skeleton]; unfold k0_part13_skel
  simp only [Prog.lift, Prog.bind_op, Prog.bind_ret, Prog.pure_eq_ret, semSignalWord, semWaitWord, wp_deviceId]
  iapply (s_vsload (m := m) (c := c) (fs := fs) (10 : Fin 32) 10 10 rfl (by decide))
  isplitl [HVs]; · iexact HVs
  iintro %_v HVs
  iapply (s_store (m := m) (c := c) (fs := fs) (10 : Fin 32) 10 10 rfl (by decide) _ hw)
  isplitl [HVs]; · iexact HVs
  iintro HVs
  iapply (s_y_start (m := m) (K := K) (c := c) (fs := fs) (10 : Fin 16) 11 10 2 0 0 rfl (by decide) _ (devY k0_dev13 k0_dev13_lt k0_dev13_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (12 : Fin 32) 12 11 rfl (by decide) (by decide))
  isplitr; · iexact HP
  isplitl [HLd]; · iexact HLd
  iintro HLd
  iapply (s_ld_wait (m := m) (K := K) (c := c) (fv := fv) (11 : Fin 32) 13 11 rfl (by decide) (owedAt c 2 11 0 0) (owedAt_lv_pos c _ _ _))
  isplitr; · iexact HP
  isplitl [HLd]; · iexact HLd
  isplitl [HOw]; · iexact HOw
  iintro ⟨HLd, HOw⟩
  iapply (s_vload (m := m) (c := c) (fv := fv) (11 : Fin 32) 13 12 rfl (by decide) (by decide))
  isplitl [HLd]; · iexact HLd
  iintro HLd
  rw [wp_ret]; imodintro
  iapply Hk
  · ipureintro; rfl
  isplitl [HLd]; · iexact HLd
  isplitl [HVs]; · iexact HVs
  isplitl [HYt]; · iexact HYt
  isplitl [HYg]; · iexact HYg
  isplitl [HYs]; · iexact HYs
  iexact HOw

theorem part_14 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} {c5632_i32_297 : BitVec 32} (v402 : FVec F S512x1024 .bf16) (hw : (k0_pay14 v402) = pay (slotVal m c (11 : Fin 32))) {Q : (Vec F S1x512x1024 .f32) → sProp 𝕄} :
    iprop(Pers m K ∗ StLd m c fv 13 12 ∗ StVs m c fs 0 11 11 0 ∗ StYtok c 11 ∗ StYreg c 11 ∗ sendCells (ysendCell c) 11 0 ∗ Ow c (owedAt c 2 11 0 0) ∗ (∀ (r : Vec F S1x512x1024 .f32), ⌜(k0_pay15 r) = pay (slotVal m c (12 : Fin 32))⌝ -∗ (StLd m c fv 14 13 ∗ StVs m c fs 0 12 12 0 ∗ StYtok c 12 ∗ StYreg c 12 ∗ sendCells (ysendCell c) 12 0 ∗ Ow c (owedAt c 2 12 0 0)) -∗ Q r))
      ⊢ wp frame (wpE (defs₀ (F := F)) 𝒱₀ (c : Thread nD τ) none) Set.univ (k0_part14 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v402 c5632_i32_297) Q := by
  iintro ⟨#HP, HLd, HVs, HYt, HYg, HYs, HOw, Hk⟩
  rw [k0_part14_eq_skeleton]; unfold k0_part14_skel
  simp only [Prog.lift, Prog.bind_op, Prog.bind_ret, Prog.pure_eq_ret, semSignalWord, semWaitWord, wp_deviceId]
  iapply (s_vsload (m := m) (c := c) (fs := fs) (11 : Fin 32) 11 11 rfl (by decide))
  isplitl [HVs]; · iexact HVs
  iintro %_v HVs
  iapply (s_store (m := m) (c := c) (fs := fs) (11 : Fin 32) 11 11 rfl (by decide) _ hw)
  isplitl [HVs]; · iexact HVs
  iintro HVs
  iapply (s_y_start (m := m) (K := K) (c := c) (fs := fs) (11 : Fin 16) 12 11 2 0 0 rfl (by decide) _ (devY k0_dev14 k0_dev14_lt k0_dev14_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (13 : Fin 32) 13 12 rfl (by decide) (by decide))
  isplitr; · iexact HP
  isplitl [HLd]; · iexact HLd
  iintro HLd
  iapply (s_ld_wait (m := m) (K := K) (c := c) (fv := fv) (12 : Fin 32) 14 12 rfl (by decide) (owedAt c 2 12 0 0) (owedAt_lv_pos c _ _ _))
  isplitr; · iexact HP
  isplitl [HLd]; · iexact HLd
  isplitl [HOw]; · iexact HOw
  iintro ⟨HLd, HOw⟩
  iapply (s_vload (m := m) (c := c) (fv := fv) (12 : Fin 32) 14 13 rfl (by decide) (by decide))
  isplitl [HLd]; · iexact HLd
  iintro HLd
  rw [wp_ret]; imodintro
  iapply Hk
  · ipureintro; rfl
  isplitl [HLd]; · iexact HLd
  isplitl [HVs]; · iexact HVs
  isplitl [HYt]; · iexact HYt
  isplitl [HYg]; · iexact HYg
  isplitl [HYs]; · iexact HYs
  iexact HOw

theorem part_15 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} (v433 : Vec F S1x512x1024 .f32) (hw : (k0_pay15 v433) = pay (slotVal m c (12 : Fin 32))) {Q : (PUnit) → sProp 𝕄} :
    iprop(Pers m K ∗ StLd m c fv 14 13 ∗ StVs m c fs 0 12 12 0 ∗ StYtok c 12 ∗ StYreg c 12 ∗ sendCells (ysendCell c) 12 0 ∗ Ow c (owedAt c 2 12 0 0) ∗ (∀ (r : PUnit), (StLd m c fv 15 14 ∗ StVs m c fs 0 13 13 0 ∗ StYtok c 13 ∗ StYreg c 13 ∗ sendCells (ysendCell c) 13 0 ∗ Ow c (owedAt c 2 13 0 0)) -∗ Q r))
      ⊢ wp frame (wpE (defs₀ (F := F)) 𝒱₀ (c : Thread nD τ) none) Set.univ (k0_part15 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v433) Q := by
  iintro ⟨#HP, HLd, HVs, HYt, HYg, HYs, HOw, Hk⟩
  rw [k0_part15_eq_skeleton]; unfold k0_part15_skel
  simp only [Prog.lift, Prog.bind_op, Prog.bind_ret, Prog.pure_eq_ret, semSignalWord, semWaitWord, wp_deviceId]
  iapply (s_vsload (m := m) (c := c) (fs := fs) (12 : Fin 32) 12 12 rfl (by decide))
  isplitl [HVs]; · iexact HVs
  iintro %_v HVs
  iapply (s_store (m := m) (c := c) (fs := fs) (12 : Fin 32) 12 12 rfl (by decide) _ hw)
  isplitl [HVs]; · iexact HVs
  iintro HVs
  iapply (s_y_start (m := m) (K := K) (c := c) (fs := fs) (12 : Fin 16) 13 12 2 0 0 rfl (by decide) _ (devY k0_dev15 k0_dev15_lt k0_dev15_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (14 : Fin 32) 14 13 rfl (by decide) (by decide))
  isplitr; · iexact HP
  isplitl [HLd]; · iexact HLd
  iintro HLd
  iapply (s_ld_wait (m := m) (K := K) (c := c) (fv := fv) (13 : Fin 32) 15 13 rfl (by decide) (owedAt c 2 13 0 0) (owedAt_lv_pos c _ _ _))
  isplitr; · iexact HP
  isplitl [HLd]; · iexact HLd
  isplitl [HOw]; · iexact HOw
  iintro ⟨HLd, HOw⟩
  rw [wp_ret]; imodintro
  iapply Hk
  isplitl [HLd]; · iexact HLd
  isplitl [HVs]; · iexact HVs
  isplitl [HYt]; · iexact HYt
  isplitl [HYg]; · iexact HYg
  isplitl [HYs]; · iexact HYs
  iexact HOw

theorem part_16 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (PUnit) → sProp 𝕄} :
    iprop(Pers m K ∗ StLd m c fv 15 14 ∗ StVs m c fs 0 13 13 0 ∗ StYtok c 13 ∗ StYreg c 13 ∗ sendCells (ysendCell c) 13 0 ∗ Ow c (owedAt c 2 13 0 0) ∗ (∀ (r : PUnit), (StLd m c fv 16 14 ∗ StVs m c fs 0 14 14 0 ∗ StYtok c 14 ∗ StYreg c 14 ∗ sendCells (ysendCell c) 14 0 ∗ Ow c (owedAt c 2 14 0 0)) -∗ Q r))
      ⊢ wp frame (wpE (defs₀ (F := F)) 𝒱₀ (c : Thread nD τ) none) Set.univ (k0_part16 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q := by
  iintro ⟨#HP, HLd, HVs, HYt, HYg, HYs, HOw, Hk⟩
  rw [k0_part16_eq_skeleton]; unfold k0_part16_skel
  simp only [Prog.lift, Prog.bind_op, Prog.bind_ret, Prog.pure_eq_ret, semSignalWord, semWaitWord, wp_deviceId]
  iapply (s_vload (m := m) (c := c) (fv := fv) (13 : Fin 32) 15 14 rfl (by decide) (by decide))
  isplitl [HLd]; · iexact HLd
  iintro HLd
  iapply (s_vsload (m := m) (c := c) (fs := fs) (13 : Fin 32) 13 13 rfl (by decide))
  isplitl [HVs]; · iexact HVs
  iintro %_v HVs
  iapply (s_store (m := m) (c := c) (fs := fs) (13 : Fin 32) 13 13 rfl (by decide) _ rfl)
  isplitl [HVs]; · iexact HVs
  iintro HVs
  iapply (s_y_start (m := m) (K := K) (c := c) (fs := fs) (13 : Fin 16) 14 13 2 0 0 rfl (by decide) _ (devY k0_dev16 k0_dev16_lt k0_dev16_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (15 : Fin 32) 15 14 rfl (by decide) (by decide))
  isplitr; · iexact HP
  isplitl [HLd]; · iexact HLd
  iintro HLd
  rw [wp_ret]; imodintro
  iapply Hk
  isplitl [HLd]; · iexact HLd
  isplitl [HVs]; · iexact HVs
  isplitl [HYt]; · iexact HYt
  isplitl [HYg]; · iexact HYg
  isplitl [HYs]; · iexact HYs
  iexact HOw

end Cert.KernelIdeal.AG

end
-- ==== Proof.BodyP2.lean ====
import proofs.«900094_g7700000000000095_dist_ag_v7x_xy2x2_y_m16384_n1024_bf16_1_alg».proof.Proof.StepsEdge
import proofs.«900094_g7700000000000095_dist_ag_v7x_xy2x2_y_m16384_n1024_bf16_1_alg».proof.Proof.StepsHand
import proofs.«900094_g7700000000000095_dist_ag_v7x_xy2x2_y_m16384_n1024_bf16_1_alg».proof.Proof.StepsLocal
import proofs.«900094_g7700000000000095_dist_ag_v7x_xy2x2_y_m16384_n1024_bf16_1_alg».proof.Proof.StepsRemote
import proofs.«900094_g7700000000000095_dist_ag_v7x_xy2x2_y_m16384_n1024_bf16_1_alg».proof.Proof.OwedLv
import proofs.«900094_g7700000000000095_dist_ag_v7x_xy2x2_y_m16384_n1024_bf16_1_alg».proof.Proof.LibChain

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
theorem part_17 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} {v19 : BitVec 32}  {Q : (PUnit) → sProp 𝕄} :
    iprop(Pers m K ∗ StLd m c fv 16 14 ∗ StVs m c fs 0 14 14 0 ∗ StYtok c 14 ∗ StYreg c 14 ∗ sendCells (ysendCell c) 14 0 ∗ Ow c (owedAt c 2 14 0 0) ∗ (∀ (r : PUnit), (StLd m c fv 17 15 ∗ StVs m c fs 0 15 15 0 ∗ StYtok c 15 ∗ StYreg c 15 ∗ sendCells (ysendCell c) 15 0 ∗ Ow c (owedAt c 2 15 0 0)) -∗ Q r))
      ⊢ wp frame (wpE (defs₀ (F := F)) 𝒱₀ (c : Thread nD τ) none) Set.univ (k0_part17 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v19) Q := by
  iintro ⟨#HP, HLd, HVs, HYt, HYg, HYs, HOw, Hk⟩
  rw [k0_part17_eq_skeleton]; unfold k0_part17_skel
  simp only [Prog.lift, Prog.bind_op, Prog.bind_ret, Prog.pure_eq_ret, semSignalWord, semWaitWord, wp_deviceId]
  iapply (s_ld_wait (m := m) (K := K) (c := c) (fv := fv) (14 : Fin 32) 16 14 rfl (by decide) (owedAt c 2 14 0 0) (owedAt_lv_pos c _ _ _))
  isplitr; · iexact HP
  isplitl [HLd]; · iexact HLd
  isplitl [HOw]; · iexact HOw
  iintro ⟨HLd, HOw⟩
  iapply (s_vload (m := m) (c := c) (fv := fv) (14 : Fin 32) 16 15 rfl (by decide) (by decide))
  isplitl [HLd]; · iexact HLd
  iintro HLd
  iapply (s_vsload (m := m) (c := c) (fs := fs) (14 : Fin 32) 14 14 rfl (by decide))
  isplitl [HVs]; · iexact HVs
  iintro %_v HVs
  iapply (s_store (m := m) (c := c) (fs := fs) (14 : Fin 32) 14 14 rfl (by decide) _ rfl)
  isplitl [HVs]; · iexact HVs
  iintro HVs
  iapply (s_y_start (m := m) (K := K) (c := c) (fs := fs) (14 : Fin 16) 15 14 2 0 0 rfl (by decide) _ (devY k0_dev17 k0_dev17_lt k0_dev17_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (16 : Fin 32) 16 15 rfl (by decide) (by decide))
  isplitr; · iexact HP
  isplitl [HLd]; · iexact HLd
  iintro HLd
  rw [wp_ret]; imodintro
  iapply Hk
  isplitl [HLd]; · iexact HLd
  isplitl [HVs]; · iexact HVs
  isplitl [HYt]; · iexact HYt
  isplitl [HYg]; · iexact HYg
  isplitl [HYs]; · iexact HYs
  iexact HOw

theorem part_18 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (PUnit) → sProp 𝕄} :
    iprop(Pers m K ∗ StLd m c fv 17 15 ∗ StVs m c fs 0 15 15 0 ∗ StYtok c 15 ∗ StYreg c 15 ∗ sendCells (ysendCell c) 15 0 ∗ recvCells (yrecvCell c) 0 ∗ StB m c (m ((c : Thread nD τ).loc main_v1)) true 0 0 0 ∗ Ow c (owedAt c 2 15 0 0) ∗ (∀ (r : PUnit), (StLd m c fv 17 16 ∗ StVs m c fs 0 16 16 0 ∗ StYtok c 16 ∗ StYreg c 16 ∗ sendCells (ysendCell c) 16 0 ∗ recvCells (yrecvCell c) 1 ∗ StB m c (m ((c : Thread nD τ).loc main_v1)) true 1 0 0 ∗ Ow c (owedAt c 2 16 0 0)) -∗ Q r))
      ⊢ wp frame (wpE (defs₀ (F := F)) 𝒱₀ (c : Thread nD τ) none) Set.univ (k0_part18 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q := by
  iintro ⟨#HP, HLd, HVs, HYt, HYg, HYs, HYr, HB, HOw, Hk⟩
  rw [k0_part18_eq_skeleton]; unfold k0_part18_skel
  simp only [Prog.lift, Prog.bind_op, Prog.bind_ret, Prog.pure_eq_ret, semSignalWord, semWaitWord, wp_deviceId]
  iapply (s_ld_wait (m := m) (K := K) (c := c) (fv := fv) (15 : Fin 32) 17 15 rfl (by decide) (owedAt c 2 15 0 0) (owedAt_lv_pos c _ _ _))
  isplitr; · iexact HP
  isplitl [HLd]; · iexact HLd
  isplitl [HOw]; · iexact HOw
  iintro ⟨HLd, HOw⟩
  iapply (s_vload (m := m) (c := c) (fv := fv) (15 : Fin 32) 17 16 rfl (by decide) (by decide))
  isplitl [HLd]; · iexact HLd
  iintro HLd
  iapply (s_vsload (m := m) (c := c) (fs := fs) (15 : Fin 32) 15 15 rfl (by decide))
  isplitl [HVs]; · iexact HVs
  iintro %_v HVs
  iapply (s_store (m := m) (c := c) (fs := fs) (15 : Fin 32) 15 15 rfl (by decide) _ rfl)
  isplitl [HVs]; · iexact HVs
  iintro HVs
  iapply (s_y_start (m := m) (K := K) (c := c) (fs := fs) (15 : Fin 16) 16 15 2 0 0 rfl (by decide) _ (devY k0_dev18 k0_dev18_lt k0_dev18_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_yrecv_wait (m := m) (K := K) (c := c) (fo := m ((c : Thread nD τ).loc main_v1)) (0 : Fin 16) 0 0 0 0 rfl (by decide))
  isplitr; · iexact HP
  isplitl [HYr]; · iexact HYr
  isplitl [HB]; · iexact HB
  isplitl [HOw]; · iexact HOw
  iintro ⟨HYr, HB, HOw⟩
  rw [wp_ret]; imodintro
  iapply Hk
  isplitl [HLd]; · iexact HLd
  isplitl [HVs]; · iexact HVs
  isplitl [HYt]; · iexact HYt
  isplitl [HYg]; · iexact HYg
  isplitl [HYs]; · iexact HYs
  isplitl [HYr]; · iexact HYr
  isplitl [HB]; · iexact HB
  iexact HOw

theorem part_19 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32} {v17 : BitVec 32} {v19 : BitVec 32}  {Q : (Σ' (v589 : FVec F S512x1024 .bf16), Vec F S512x1024 .bf16) → sProp 𝕄} :
    iprop(Pers m K ∗ StLd m c fv 17 16 ∗ StVs m c fs 0 16 16 0 ∗ StFtok c 0 ∗ StFreg c 0 ∗ sendCells (xsendCell c) 0 0 ∗ StB m c (m ((c : Thread nD τ).loc main_v1)) true 1 0 0 ∗ Ow c (owedAt c 2 16 0 0) ∗ (∀ (v589 : FVec F S512x1024 .bf16) (rl : Vec F S512x1024 .bf16), ⌜(k0_pay20 v589) = pay (slotVal m c (16 : Fin 32))⌝ -∗ (StLd m c fv 18 17 ∗ StVs m c fs 0 16 16 0 ∗ StFtok c 1 ∗ StFreg c 1 ∗ sendCells (xsendCell c) 1 0 ∗ StB m c (m ((c : Thread nD τ).loc main_v1)) true 1 1 0 ∗ Ow c (owedAt c 2 16 1 0)) -∗ Q ⟨v589, rl⟩))
      ⊢ wp frame (wpE (defs₀ (F := F)) 𝒱₀ (c : Thread nD τ) none) Set.univ (k0_part19 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7 v17 v19) Q := by
  iintro ⟨#HP, HLd, HVs, HFt, HFg, HFs, HB, HOw, Hk⟩
  rw [k0_part19_eq_skeleton]; unfold k0_part19_skel
  simp only [Prog.lift, Prog.bind_op, Prog.bind_ret, Prog.pure_eq_ret, semSignalWord, semWaitWord, wp_deviceId]
  iapply (s_fw_start (m := m) (K := K) (c := c) (fo := m ((c : Thread nD τ).loc main_v1)) (0 : Fin 16) 1 0 0 0 rfl (by decide) (by decide) _ (devX k0_dev19 k0_dev19_lt k0_dev19_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  iapply (s_ld_start (m := m) (K := K) (c := c) (fv := fv) (17 : Fin 32) 17 16 rfl (by decide) (by decide))
  isplitr; · iexact HP
  isplitl [HLd]; · iexact HLd
  iintro HLd
  iapply (s_ld_wait (m := m) (K := K) (c := c) (fv := fv) (16 : Fin 32) 18 16 rfl (by decide) (owedAt c 2 16 1 0) (owedAt_lv_pos c _ _ _))
  isplitr; · iexact HP
  isplitl [HLd]; · iexact HLd
  isplitl [HOw]; · iexact HOw
  iintro ⟨HLd, HOw⟩
  iapply (s_vload (m := m) (c := c) (fv := fv) (16 : Fin 32) 18 17 rfl (by decide) (by decide))
  isplitl [HLd]; · iexact HLd
  iintro HLd
  iapply (s_vsload (m := m) (c := c) (fs := fs) (16 : Fin 32) 16 16 rfl (by decide))
  isplitl [HVs]; · iexact HVs
  iintro %_v HVs
  rw [wp_ret]; imodintro
  iapply Hk
  · ipureintro; rfl
  isplitl [HLd]; · iexact HLd
  isplitl [HVs]; · iexact HVs
  isplitl [HFt]; · iexact HFt
  isplitl [HFg]; · iexact HFg
  isplitl [HFs]; · iexact HFs
  isplitl [HB]; · iexact HB
  iexact HOw

theorem part_20 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32} (v589 : FVec F S512x1024 .bf16) (v592 : Vec F S512x1024 .bf16) (hw : (k0_pay20 v589) = pay (slotVal m c (16 : Fin 32))) {Q : (PUnit) → sProp 𝕄} :
    iprop(Pers m K ∗ StLd m c fv 18 17 ∗ StVs m c fs 0 16 16 0 ∗ recvCells (yrecvCell c) 1 ∗ StFtok c 1 ∗ StFreg c 1 ∗ sendCells (xsendCell c) 1 0 ∗ StB m c (m ((c : Thread nD τ).loc main_v1)) true 1 1 0 ∗ Ow c (owedAt c 2 16 1 0) ∗ (∀ (r : PUnit), (StLd m c fv 19 17 ∗ StVs m c fs 0 17 16 0 ∗ recvCells (yrecvCell c) 2 ∗ StFtok c 2 ∗ StFreg c 2 ∗ sendCells (xsendCell c) 2 0 ∗ StB m c (m ((c : Thread nD τ).loc main_v1)) true 2 2 0 ∗ Ow c (owedAt c 2 16 2 0)) -∗ Q r))
      ⊢ wp frame (wpE (defs₀ (F := F)) 𝒱₀ (c : Thread nD τ) none) Set.univ (k0_part20 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19 v589 v592) Q := by
  iintro ⟨#HP, HLd, HVs, HYr, HFt, HFg, HFs, HB, HOw, Hk⟩
  rw [k0_part20_eq_skeleton]; unfold k0_part20_skel
  simp only [Prog.lift, Prog.bind_op, Prog.bind_ret, Prog.pure_eq_ret, semSignalWord, semWaitWord, wp_deviceId]
  iapply (s_store (m := m) (c := c) (fs := fs) (16 : Fin 32) 16 16 rfl (by decide) _ hw)
  isplitl [HVs]; · iexact HVs
  iintro HVs
  iapply (s_yrecv_wait (m := m) (K := K) (c := c) (fo := m ((c : Thread nD τ).loc main_v1)) (1 : Fin 16) 1 1 0 0 rfl (by decide))
  isplitr; · iexact HP
  isplitl [HYr]; · iexact HYr
  isplitl [HB]; · iexact HB
  isplitl [HOw]; · iexact HOw
  iintro ⟨HYr, HB, HOw⟩
  iapply (s_fw_start (m := m) (K := K) (c := c) (fo := m ((c : Thread nD τ).loc main_v1)) (1 : Fin 16) 2 1 0 0 rfl (by decide) (by decide) _ (devX k0_dev20 k0_dev20_lt k0_dev20_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  iapply (s_ld_start (m := m) (K := K) (c := c) (fv := fv) (18 : Fin 32) 18 17 rfl (by decide) (by decide))
  isplitr; · iexact HP
  isplitl [HLd]; · iexact HLd
  iintro HLd
  rw [wp_ret]; imodintro
  iapply Hk
  isplitl [HLd]; · iexact HLd
  isplitl [HVs]; · iexact HVs
  isplitl [HYr]; · iexact HYr
  isplitl [HFt]; · iexact HFt
  isplitl [HFg]; · iexact HFg
  isplitl [HFs]; · iexact HFs
  isplitl [HB]; · iexact HB
  iexact HOw

theorem part_21 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (PUnit) → sProp 𝕄} :
    iprop(Pers m K ∗ StLd m c fv 19 17 ∗ StVs m c fs 0 17 16 0 ∗ recvCells (yrecvCell c) 2 ∗ StB m c (m ((c : Thread nD τ).loc main_v1)) true 2 2 0 ∗ Ow c (owedAt c 2 16 2 0) ∗ (∀ (r : PUnit), (StLd m c fv 19 18 ∗ StVs m c fs 0 18 16 0 ∗ recvCells (yrecvCell c) 3 ∗ StB m c (m ((c : Thread nD τ).loc main_v1)) true 3 2 0 ∗ Ow c (owedAt c 2 16 2 0)) -∗ Q r))
      ⊢ wp frame (wpE (defs₀ (F := F)) 𝒱₀ (c : Thread nD τ) none) Set.univ (k0_part21 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q := by
  iintro ⟨#HP, HLd, HVs, HYr, HB, HOw, Hk⟩
  rw [k0_part21_eq_skeleton]; unfold k0_part21_skel
  simp only [Prog.lift, Prog.bind_op, Prog.bind_ret, Prog.pure_eq_ret, semSignalWord, semWaitWord, wp_deviceId]
  iapply (s_ld_wait (m := m) (K := K) (c := c) (fv := fv) (17 : Fin 32) 19 17 rfl (by decide) (owedAt c 2 16 2 0) (owedAt_lv_pos c _ _ _))
  isplitr; · iexact HP
  isplitl [HLd]; · iexact HLd
  isplitl [HOw]; · iexact HOw
  iintro ⟨HLd, HOw⟩
  iapply (s_vload (m := m) (c := c) (fv := fv) (17 : Fin 32) 19 18 rfl (by decide) (by decide))
  isplitl [HLd]; · iexact HLd
  iintro HLd
  iapply (s_vsload (m := m) (c := c) (fs := fs) (17 : Fin 32) 17 16 rfl (by decide))
  isplitl [HVs]; · iexact HVs
  iintro %_v HVs
  iapply (s_store (m := m) (c := c) (fs := fs) (17 : Fin 32) 17 16 rfl (by decide) _ rfl)
  isplitl [HVs]; · iexact HVs
  iintro HVs
  iapply (s_yrecv_wait (m := m) (K := K) (c := c) (fo := m ((c : Thread nD τ).loc main_v1)) (2 : Fin 16) 2 2 0 0 rfl (by decide))
  isplitr; · iexact HP
  isplitl [HYr]; · iexact HYr
  isplitl [HB]; · iexact HB
  isplitl [HOw]; · iexact HOw
  iintro ⟨HYr, HB, HOw⟩
  rw [wp_ret]; imodintro
  iapply Hk
  isplitl [HLd]; · iexact HLd
  isplitl [HVs]; · iexact HVs
  isplitl [HYr]; · iexact HYr
  isplitl [HB]; · iexact HB
  iexact HOw

theorem part_22 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v19 : BitVec 32}  {Q : (Σ' (v685 : BitVec 32), BitVec 32) → sProp 𝕄} :
    iprop(Pers m K ∗ StLd m c fv 19 18 ∗ StVs m c fs 0 18 16 0 ∗ recvCells (yrecvCell c) 3 ∗ StFtok c 2 ∗ StFreg c 2 ∗ sendCells (xsendCell c) 2 0 ∗ StB m c (m ((c : Thread nD τ).loc main_v1)) true 3 2 0 ∗ Ow c (owedAt c 2 16 2 0) ∗ (∀ (v685 : BitVec 32) (rl : BitVec 32), (StLd m c fv 20 19 ∗ StVs m c fs 0 19 16 0 ∗ recvCells (yrecvCell c) 4 ∗ StFtok c 3 ∗ StFreg c 3 ∗ sendCells (xsendCell c) 3 0 ∗ StB m c (m ((c : Thread nD τ).loc main_v1)) true 4 3 0 ∗ Ow c (owedAt c 2 16 3 0)) -∗ Q ⟨v685, rl⟩))
      ⊢ wp frame (wpE (defs₀ (F := F)) 𝒱₀ (c : Thread nD τ) none) Set.univ (k0_part22 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v19) Q := by
  iintro ⟨#HP, HLd, HVs, HYr, HFt, HFg, HFs, HB, HOw, Hk⟩
  rw [k0_part22_eq_skeleton]; unfold k0_part22_skel
  simp only [Prog.lift, Prog.bind_op, Prog.bind_ret, Prog.pure_eq_ret, semSignalWord, semWaitWord, wp_deviceId]
  iapply (s_fw_start (m := m) (K := K) (c := c) (fo := m ((c : Thread nD τ).loc main_v1)) (2 : Fin 16) 3 2 0 0 rfl (by decide) (by decide) _ (devX k0_dev21 k0_dev21_lt k0_dev21_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  iapply (s_ld_start (m := m) (K := K) (c := c) (fv := fv) (19 : Fin 32) 19 18 rfl (by decide) (by decide))
  isplitr; · iexact HP
  isplitl [HLd]; · iexact HLd
  iintro HLd
  iapply (s_ld_wait (m := m) (K := K) (c := c) (fv := fv) (18 : Fin 32) 20 18 rfl (by decide) (owedAt c 2 16 3 0) (owedAt_lv_pos c _ _ _))
  isplitr; · iexact HP
  isplitl [HLd]; · iexact HLd
  isplitl [HOw]; · iexact HOw
  iintro ⟨HLd, HOw⟩
  iapply (s_vload (m := m) (c := c) (fv := fv) (18 : Fin 32) 20 19 rfl (by decide) (by decide))
  isplitl [HLd]; · iexact HLd
  iintro HLd
  iapply (s_vsload (m := m) (c := c) (fs := fs) (18 : Fin 32) 18 16 rfl (by decide))
  isplitl [HVs]; · iexact HVs
  iintro %_v HVs
  iapply (s_store (m := m) (c := c) (fs := fs) (18 : Fin 32) 18 16 rfl (by decide) _ rfl)
  isplitl [HVs]; · iexact HVs
  iintro HVs
  iapply (s_yrecv_wait (m := m) (K := K) (c := c) (fo := m ((c : Thread nD τ).loc main_v1)) (3 : Fin 16) 3 3 0 0 rfl (by decide))
  isplitr; · iexact HP
  isplitl [HYr]; · iexact HYr
  isplitl [HB]; · iexact HB
  isplitl [HOw]; · iexact HOw
  iintro ⟨HYr, HB, HOw⟩
  rw [wp_ret]; imodintro
  iapply Hk
  isplitl [HLd]; · iexact HLd
  isplitl [HVs]; · iexact HVs
  isplitl [HYr]; · iexact HYr
  isplitl [HFt]; · iexact HFt
  isplitl [HFg]; · iexact HFg
  isplitl [HFs]; · iexact HFs
  isplitl [HB]; · iexact HB
  iexact HOw

theorem part_23 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32} {v17 : BitVec 32} {v19 : BitVec 32} {v685 : BitVec 32} {c16384_i32_512 : BitVec 32}  {Q : (PUnit) → sProp 𝕄} :
    iprop(Pers m K ∗ StLd m c fv 20 19 ∗ StVs m c fs 0 19 16 0 ∗ StFtok c 3 ∗ StFreg c 3 ∗ sendCells (xsendCell c) 3 0 ∗ StB m c (m ((c : Thread nD τ).loc main_v1)) true 4 3 0 ∗ Ow c (owedAt c 2 16 3 0) ∗ (∀ (r : PUnit), (StLd m c fv 21 20 ∗ StVs m c fs 0 20 16 0 ∗ StFtok c 4 ∗ StFreg c 4 ∗ sendCells (xsendCell c) 4 0 ∗ StB m c (m ((c : Thread nD τ).loc main_v1)) true 4 4 0 ∗ Ow c (owedAt c 2 16 4 0)) -∗ Q r))
      ⊢ wp frame (wpE (defs₀ (F := F)) 𝒱₀ (c : Thread nD τ) none) Set.univ (k0_part23 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7 v17 v19 v685 c16384_i32_512) Q := by
  iintro ⟨#HP, HLd, HVs, HFt, HFg, HFs, HB, HOw, Hk⟩
  rw [k0_part23_eq_skeleton]; unfold k0_part23_skel
  simp only [Prog.lift, Prog.bind_op, Prog.bind_ret, Prog.pure_eq_ret, semSignalWord, semWaitWord, wp_deviceId]
  iapply (s_fw_start (m := m) (K := K) (c := c) (fo := m ((c : Thread nD τ).loc main_v1)) (3 : Fin 16) 4 3 0 0 rfl (by decide) (by decide) _ (devX k0_dev22 k0_dev22_lt k0_dev22_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  iapply (s_ld_start (m := m) (K := K) (c := c) (fv := fv) (20 : Fin 32) 20 19 rfl (by decide) (by decide))
  isplitr; · iexact HP
  isplitl [HLd]; · iexact HLd
  iintro HLd
  iapply (s_ld_wait (m := m) (K := K) (c := c) (fv := fv) (19 : Fin 32) 21 19 rfl (by decide) (owedAt c 2 16 4 0) (owedAt_lv_pos c _ _ _))
  isplitr; · iexact HP
  isplitl [HLd]; · iexact HLd
  isplitl [HOw]; · iexact HOw
  iintro ⟨HLd, HOw⟩
  iapply (s_vload (m := m) (c := c) (fv := fv) (19 : Fin 32) 21 20 rfl (by decide) (by decide))
  isplitl [HLd]; · iexact HLd
  iintro HLd
  iapply (s_vsload (m := m) (c := c) (fs := fs) (19 : Fin 32) 19 16 rfl (by decide))
  isplitl [HVs]; · iexact HVs
  iintro %_v HVs
  iapply (s_store (m := m) (c := c) (fs := fs) (19 : Fin 32) 19 16 rfl (by decide) _ rfl)
  isplitl [HVs]; · iexact HVs
  iintro HVs
  rw [wp_ret]; imodintro
  iapply Hk
  isplitl [HLd]; · iexact HLd
  isplitl [HVs]; · iexact HVs
  isplitl [HFt]; · iexact HFt
  isplitl [HFg]; · iexact HFg
  isplitl [HFs]; · iexact HFs
  isplitl [HB]; · iexact HB
  iexact HOw

theorem part_24 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (PUnit) → sProp 𝕄} :
    iprop(Pers m K ∗ StLd m c fv 21 20 ∗ recvCells (yrecvCell c) 4 ∗ StFtok c 4 ∗ StFreg c 4 ∗ sendCells (xsendCell c) 4 0 ∗ StB m c (m ((c : Thread nD τ).loc main_v1)) true 4 4 0 ∗ Ow c (owedAt c 2 16 4 0) ∗ (∀ (r : PUnit), (StLd m c fv 22 20 ∗ recvCells (yrecvCell c) 5 ∗ StFtok c 5 ∗ StFreg c 5 ∗ sendCells (xsendCell c) 5 0 ∗ StB m c (m ((c : Thread nD τ).loc main_v1)) true 5 5 0 ∗ Ow c (owedAt c 2 16 5 0)) -∗ Q r))
      ⊢ wp frame (wpE (defs₀ (F := F)) 𝒱₀ (c : Thread nD τ) none) Set.univ (k0_part24 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q := by
  iintro ⟨#HP, HLd, HYr, HFt, HFg, HFs, HB, HOw, Hk⟩
  rw [k0_part24_eq_skeleton]; unfold k0_part24_skel
  simp only [Prog.lift, Prog.bind_op, Prog.bind_ret, Prog.pure_eq_ret, semSignalWord, semWaitWord, wp_deviceId]
  iapply (s_yrecv_wait (m := m) (K := K) (c := c) (fo := m ((c : Thread nD τ).loc main_v1)) (4 : Fin 16) 4 4 0 0 rfl (by decide))
  isplitr; · iexact HP
  isplitl [HYr]; · iexact HYr
  isplitl [HB]; · iexact HB
  isplitl [HOw]; · iexact HOw
  iintro ⟨HYr, HB, HOw⟩
  iapply (s_fw_start (m := m) (K := K) (c := c) (fo := m ((c : Thread nD τ).loc main_v1)) (4 : Fin 16) 5 4 0 0 rfl (by decide) (by decide) _ (devX k0_dev23 k0_dev23_lt k0_dev23_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  iapply (s_ld_start (m := m) (K := K) (c := c) (fv := fv) (21 : Fin 32) 21 20 rfl (by decide) (by decide))
  isplitr; · iexact HP
  isplitl [HLd]; · iexact HLd
  iintro HLd
  rw [wp_ret]; imodintro
  iapply Hk
  isplitl [HLd]; · iexact HLd
  isplitl [HYr]; · iexact HYr
  isplitl [HFt]; · iexact HFt
  isplitl [HFg]; · iexact HFg
  isplitl [HFs]; · iexact HFs
  isplitl [HB]; · iexact HB
  iexact HOw

end Cert.KernelIdeal.AG

end
-- ==== Proof.BodyP3.lean ====
import proofs.«900094_g7700000000000095_dist_ag_v7x_xy2x2_y_m16384_n1024_bf16_1_alg».proof.Proof.StepsEdge
import proofs.«900094_g7700000000000095_dist_ag_v7x_xy2x2_y_m16384_n1024_bf16_1_alg».proof.Proof.StepsHand
import proofs.«900094_g7700000000000095_dist_ag_v7x_xy2x2_y_m16384_n1024_bf16_1_alg».proof.Proof.StepsLocal
import proofs.«900094_g7700000000000095_dist_ag_v7x_xy2x2_y_m16384_n1024_bf16_1_alg».proof.Proof.StepsRemote
import proofs.«900094_g7700000000000095_dist_ag_v7x_xy2x2_y_m16384_n1024_bf16_1_alg».proof.Proof.OwedLv
import proofs.«900094_g7700000000000095_dist_ag_v7x_xy2x2_y_m16384_n1024_bf16_1_alg».proof.Proof.LibChain

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
theorem part_25 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (PUnit) → sProp 𝕄} :
    iprop(Pers m K ∗ StLd m c fv 22 20 ∗ StVs m c fs 0 20 16 0 ∗ recvCells (yrecvCell c) 5 ∗ StFtok c 5 ∗ StFreg c 5 ∗ sendCells (xsendCell c) 5 0 ∗ StB m c (m ((c : Thread nD τ).loc main_v1)) true 5 5 0 ∗ Ow c (owedAt c 2 16 5 0) ∗ (∀ (r : PUnit), (StLd m c fv 22 21 ∗ StVs m c fs 0 21 16 0 ∗ recvCells (yrecvCell c) 6 ∗ StFtok c 6 ∗ StFreg c 6 ∗ sendCells (xsendCell c) 6 0 ∗ StB m c (m ((c : Thread nD τ).loc main_v1)) true 6 6 0 ∗ Ow c (owedAt c 2 16 6 0)) -∗ Q r))
      ⊢ wp frame (wpE (defs₀ (F := F)) 𝒱₀ (c : Thread nD τ) none) Set.univ (k0_part25 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q := by
  iintro ⟨#HP, HLd, HVs, HYr, HFt, HFg, HFs, HB, HOw, Hk⟩
  rw [k0_part25_eq_skeleton]; unfold k0_part25_skel
  simp only [Prog.lift, Prog.bind_op, Prog.bind_ret, Prog.pure_eq_ret, semSignalWord, semWaitWord, wp_deviceId]
  iapply (s_ld_wait (m := m) (K := K) (c := c) (fv := fv) (20 : Fin 32) 22 20 rfl (by decide) (owedAt c 2 16 5 0) (owedAt_lv_pos c _ _ _))
  isplitr; · iexact HP
  isplitl [HLd]; · iexact HLd
  isplitl [HOw]; · iexact HOw
  iintro ⟨HLd, HOw⟩
  iapply (s_vload (m := m) (c := c) (fv := fv) (20 : Fin 32) 22 21 rfl (by decide) (by decide))
  isplitl [HLd]; · iexact HLd
  iintro HLd
  iapply (s_vsload (m := m) (c := c) (fs := fs) (20 : Fin 32) 20 16 rfl (by decide))
  isplitl [HVs]; · iexact HVs
  iintro %_v HVs
  iapply (s_store (m := m) (c := c) (fs := fs) (20 : Fin 32) 20 16 rfl (by decide) _ rfl)
  isplitl [HVs]; · iexact HVs
  iintro HVs
  iapply (s_yrecv_wait (m := m) (K := K) (c := c) (fo := m ((c : Thread nD τ).loc main_v1)) (5 : Fin 16) 5 5 0 0 rfl (by decide))
  isplitr; · iexact HP
  isplitl [HYr]; · iexact HYr
  isplitl [HB]; · iexact HB
  isplitl [HOw]; · iexact HOw
  iintro ⟨HYr, HB, HOw⟩
  iapply (s_fw_start (m := m) (K := K) (c := c) (fo := m ((c : Thread nD τ).loc main_v1)) (5 : Fin 16) 6 5 0 0 rfl (by decide) (by decide) _ (devX k0_dev24 k0_dev24_lt k0_dev24_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  rw [wp_ret]; imodintro
  iapply Hk
  isplitl [HLd]; · iexact HLd
  isplitl [HVs]; · iexact HVs
  isplitl [HYr]; · iexact HYr
  isplitl [HFt]; · iexact HFt
  isplitl [HFg]; · iexact HFg
  isplitl [HFs]; · iexact HFs
  isplitl [HB]; · iexact HB
  iexact HOw

theorem part_26 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} {v19 : BitVec 32}  {Q : (Σ' (v810 : BitVec 32), BitVec 32) → sProp 𝕄} :
    iprop(Pers m K ∗ StLd m c fv 22 21 ∗ StVs m c fs 0 21 16 0 ∗ recvCells (yrecvCell c) 6 ∗ StB m c (m ((c : Thread nD τ).loc main_v1)) true 6 6 0 ∗ Ow c (owedAt c 2 16 6 0) ∗ (∀ (v810 : BitVec 32) (rl : BitVec 32), (StLd m c fv 23 22 ∗ StVs m c fs 0 22 16 0 ∗ recvCells (yrecvCell c) 7 ∗ StB m c (m ((c : Thread nD τ).loc main_v1)) true 7 6 0 ∗ Ow c (owedAt c 2 16 6 0)) -∗ Q ⟨v810, rl⟩))
      ⊢ wp frame (wpE (defs₀ (F := F)) 𝒱₀ (c : Thread nD τ) none) Set.univ (k0_part26 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v19) Q := by
  iintro ⟨#HP, HLd, HVs, HYr, HB, HOw, Hk⟩
  rw [k0_part26_eq_skeleton]; unfold k0_part26_skel
  simp only [Prog.lift, Prog.bind_op, Prog.bind_ret, Prog.pure_eq_ret, semSignalWord, semWaitWord, wp_deviceId]
  iapply (s_ld_start (m := m) (K := K) (c := c) (fv := fv) (22 : Fin 32) 22 21 rfl (by decide) (by decide))
  isplitr; · iexact HP
  isplitl [HLd]; · iexact HLd
  iintro HLd
  iapply (s_ld_wait (m := m) (K := K) (c := c) (fv := fv) (21 : Fin 32) 23 21 rfl (by decide) (owedAt c 2 16 6 0) (owedAt_lv_pos c _ _ _))
  isplitr; · iexact HP
  isplitl [HLd]; · iexact HLd
  isplitl [HOw]; · iexact HOw
  iintro ⟨HLd, HOw⟩
  iapply (s_vload (m := m) (c := c) (fv := fv) (21 : Fin 32) 23 22 rfl (by decide) (by decide))
  isplitl [HLd]; · iexact HLd
  iintro HLd
  iapply (s_vsload (m := m) (c := c) (fs := fs) (21 : Fin 32) 21 16 rfl (by decide))
  isplitl [HVs]; · iexact HVs
  iintro %_v HVs
  iapply (s_store (m := m) (c := c) (fs := fs) (21 : Fin 32) 21 16 rfl (by decide) _ rfl)
  isplitl [HVs]; · iexact HVs
  iintro HVs
  iapply (s_yrecv_wait (m := m) (K := K) (c := c) (fo := m ((c : Thread nD τ).loc main_v1)) (6 : Fin 16) 6 6 0 0 rfl (by decide))
  isplitr; · iexact HP
  isplitl [HYr]; · iexact HYr
  isplitl [HB]; · iexact HB
  isplitl [HOw]; · iexact HOw
  iintro ⟨HYr, HB, HOw⟩
  rw [wp_ret]; imodintro
  iapply Hk
  isplitl [HLd]; · iexact HLd
  isplitl [HVs]; · iexact HVs
  isplitl [HYr]; · iexact HYr
  isplitl [HB]; · iexact HB
  iexact HOw

theorem part_27 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32} {v19 : BitVec 32} {v810 : BitVec 32} {c3072_i32_612 : BitVec 32}  {Q : (BitVec 32) → sProp 𝕄} :
    iprop(Pers m K ∗ StLd m c fv 23 22 ∗ StVs m c fs 0 22 16 0 ∗ StFtok c 6 ∗ StFreg c 6 ∗ sendCells (xsendCell c) 6 0 ∗ StB m c (m ((c : Thread nD τ).loc main_v1)) true 7 6 0 ∗ Ow c (owedAt c 2 16 6 0) ∗ (∀ (r : BitVec 32), (StLd m c fv 24 23 ∗ StVs m c fs 0 23 16 0 ∗ StFtok c 7 ∗ StFreg c 7 ∗ sendCells (xsendCell c) 7 0 ∗ StB m c (m ((c : Thread nD τ).loc main_v1)) true 7 7 0 ∗ Ow c (owedAt c 2 16 7 0)) -∗ Q r))
      ⊢ wp frame (wpE (defs₀ (F := F)) 𝒱₀ (c : Thread nD τ) none) Set.univ (k0_part27 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7 v19 v810 c3072_i32_612) Q := by
  iintro ⟨#HP, HLd, HVs, HFt, HFg, HFs, HB, HOw, Hk⟩
  rw [k0_part27_eq_skeleton]; unfold k0_part27_skel
  simp only [Prog.lift, Prog.bind_op, Prog.bind_ret, Prog.pure_eq_ret, semSignalWord, semWaitWord, wp_deviceId]
  iapply (s_fw_start (m := m) (K := K) (c := c) (fo := m ((c : Thread nD τ).loc main_v1)) (6 : Fin 16) 7 6 0 0 rfl (by decide) (by decide) _ (devX k0_dev25 k0_dev25_lt k0_dev25_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  iapply (s_ld_start (m := m) (K := K) (c := c) (fv := fv) (23 : Fin 32) 23 22 rfl (by decide) (by decide))
  isplitr; · iexact HP
  isplitl [HLd]; · iexact HLd
  iintro HLd
  iapply (s_ld_wait (m := m) (K := K) (c := c) (fv := fv) (22 : Fin 32) 24 22 rfl (by decide) (owedAt c 2 16 7 0) (owedAt_lv_pos c _ _ _))
  isplitr; · iexact HP
  isplitl [HLd]; · iexact HLd
  isplitl [HOw]; · iexact HOw
  iintro ⟨HLd, HOw⟩
  iapply (s_vload (m := m) (c := c) (fv := fv) (22 : Fin 32) 24 23 rfl (by decide) (by decide))
  isplitl [HLd]; · iexact HLd
  iintro HLd
  iapply (s_vsload (m := m) (c := c) (fs := fs) (22 : Fin 32) 22 16 rfl (by decide))
  isplitl [HVs]; · iexact HVs
  iintro %_v HVs
  iapply (s_store (m := m) (c := c) (fs := fs) (22 : Fin 32) 22 16 rfl (by decide) _ rfl)
  isplitl [HVs]; · iexact HVs
  iintro HVs
  rw [wp_ret]; imodintro
  iapply Hk
  isplitl [HLd]; · iexact HLd
  isplitl [HVs]; · iexact HVs
  isplitl [HFt]; · iexact HFt
  isplitl [HFg]; · iexact HFg
  isplitl [HFs]; · iexact HFs
  isplitl [HB]; · iexact HB
  iexact HOw

theorem part_28 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32} {c2_i32_638 : BitVec 32}  {Q : (PUnit) → sProp 𝕄} :
    iprop(Pers m K ∗ StLd m c fv 24 23 ∗ recvCells (yrecvCell c) 7 ∗ StFtok c 7 ∗ StFreg c 7 ∗ sendCells (xsendCell c) 7 0 ∗ StB m c (m ((c : Thread nD τ).loc main_v1)) true 7 7 0 ∗ Ow c (owedAt c 2 16 7 0) ∗ (∀ (r : PUnit), (StLd m c fv 25 23 ∗ recvCells (yrecvCell c) 8 ∗ StFtok c 8 ∗ StFreg c 8 ∗ sendCells (xsendCell c) 8 0 ∗ StB m c (m ((c : Thread nD τ).loc main_v1)) true 8 8 0 ∗ Ow c (owedAt c 2 16 8 0)) -∗ Q r))
      ⊢ wp frame (wpE (defs₀ (F := F)) 𝒱₀ (c : Thread nD τ) none) Set.univ (k0_part28 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19 c2_i32_638) Q := by
  iintro ⟨#HP, HLd, HYr, HFt, HFg, HFs, HB, HOw, Hk⟩
  rw [k0_part28_eq_skeleton]; unfold k0_part28_skel
  simp only [Prog.lift, Prog.bind_op, Prog.bind_ret, Prog.pure_eq_ret, semSignalWord, semWaitWord, wp_deviceId]
  iapply (s_yrecv_wait (m := m) (K := K) (c := c) (fo := m ((c : Thread nD τ).loc main_v1)) (7 : Fin 16) 7 7 0 0 rfl (by decide))
  isplitr; · iexact HP
  isplitl [HYr]; · iexact HYr
  isplitl [HB]; · iexact HB
  isplitl [HOw]; · iexact HOw
  iintro ⟨HYr, HB, HOw⟩
  iapply (s_fw_start (m := m) (K := K) (c := c) (fo := m ((c : Thread nD τ).loc main_v1)) (7 : Fin 16) 8 7 0 0 rfl (by decide) (by decide) _ (devX k0_dev26 k0_dev26_lt k0_dev26_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  iapply (s_ld_start (m := m) (K := K) (c := c) (fv := fv) (24 : Fin 32) 24 23 rfl (by decide) (by decide))
  isplitr; · iexact HP
  isplitl [HLd]; · iexact HLd
  iintro HLd
  rw [wp_ret]; imodintro
  iapply Hk
  isplitl [HLd]; · iexact HLd
  isplitl [HYr]; · iexact HYr
  isplitl [HFt]; · iexact HFt
  isplitl [HFg]; · iexact HFg
  isplitl [HFs]; · iexact HFs
  isplitl [HB]; · iexact HB
  iexact HOw

theorem part_29 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (PUnit) → sProp 𝕄} :
    iprop(Pers m K ∗ StLd m c fv 25 23 ∗ StVs m c fs 0 23 16 0 ∗ recvCells (yrecvCell c) 8 ∗ StFtok c 8 ∗ StFreg c 8 ∗ sendCells (xsendCell c) 8 0 ∗ StB m c (m ((c : Thread nD τ).loc main_v1)) true 8 8 0 ∗ Ow c (owedAt c 2 16 8 0) ∗ (∀ (r : PUnit), (StLd m c fv 25 24 ∗ StVs m c fs 0 24 16 0 ∗ recvCells (yrecvCell c) 9 ∗ StFtok c 9 ∗ StFreg c 9 ∗ sendCells (xsendCell c) 9 0 ∗ StB m c (m ((c : Thread nD τ).loc main_v1)) true 9 9 0 ∗ Ow c (owedAt c 2 16 9 0)) -∗ Q r))
      ⊢ wp frame (wpE (defs₀ (F := F)) 𝒱₀ (c : Thread nD τ) none) Set.univ (k0_part29 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q := by
  iintro ⟨#HP, HLd, HVs, HYr, HFt, HFg, HFs, HB, HOw, Hk⟩
  rw [k0_part29_eq_skeleton]; unfold k0_part29_skel
  simp only [Prog.lift, Prog.bind_op, Prog.bind_ret, Prog.pure_eq_ret, semSignalWord, semWaitWord, wp_deviceId]
  iapply (s_ld_wait (m := m) (K := K) (c := c) (fv := fv) (23 : Fin 32) 25 23 rfl (by decide) (owedAt c 2 16 8 0) (owedAt_lv_pos c _ _ _))
  isplitr; · iexact HP
  isplitl [HLd]; · iexact HLd
  isplitl [HOw]; · iexact HOw
  iintro ⟨HLd, HOw⟩
  iapply (s_vload (m := m) (c := c) (fv := fv) (23 : Fin 32) 25 24 rfl (by decide) (by decide))
  isplitl [HLd]; · iexact HLd
  iintro HLd
  iapply (s_vsload (m := m) (c := c) (fs := fs) (23 : Fin 32) 23 16 rfl (by decide))
  isplitl [HVs]; · iexact HVs
  iintro %_v HVs
  iapply (s_store (m := m) (c := c) (fs := fs) (23 : Fin 32) 23 16 rfl (by decide) _ rfl)
  isplitl [HVs]; · iexact HVs
  iintro HVs
  iapply (s_yrecv_wait (m := m) (K := K) (c := c) (fo := m ((c : Thread nD τ).loc main_v1)) (8 : Fin 16) 8 8 0 0 rfl (by decide))
  isplitr; · iexact HP
  isplitl [HYr]; · iexact HYr
  isplitl [HB]; · iexact HB
  isplitl [HOw]; · iexact HOw
  iintro ⟨HYr, HB, HOw⟩
  iapply (s_fw_start (m := m) (K := K) (c := c) (fo := m ((c : Thread nD τ).loc main_v1)) (8 : Fin 16) 9 8 0 0 rfl (by decide) (by decide) _ (devX k0_dev27 k0_dev27_lt k0_dev27_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  rw [wp_ret]; imodintro
  iapply Hk
  isplitl [HLd]; · iexact HLd
  isplitl [HVs]; · iexact HVs
  isplitl [HYr]; · iexact HYr
  isplitl [HFt]; · iexact HFt
  isplitl [HFg]; · iexact HFg
  isplitl [HFs]; · iexact HFs
  isplitl [HB]; · iexact HB
  iexact HOw

theorem part_30 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} {v19 : BitVec 32}  {Q : (PUnit) → sProp 𝕄} :
    iprop(Pers m K ∗ StLd m c fv 25 24 ∗ StVs m c fs 0 24 16 0 ∗ recvCells (yrecvCell c) 9 ∗ StB m c (m ((c : Thread nD τ).loc main_v1)) true 9 9 0 ∗ Ow c (owedAt c 2 16 9 0) ∗ (∀ (r : PUnit), (StLd m c fv 26 25 ∗ StVs m c fs 0 25 16 0 ∗ recvCells (yrecvCell c) 10 ∗ StB m c (m ((c : Thread nD τ).loc main_v1)) true 10 9 0 ∗ Ow c (owedAt c 2 16 9 0)) -∗ Q r))
      ⊢ wp frame (wpE (defs₀ (F := F)) 𝒱₀ (c : Thread nD τ) none) Set.univ (k0_part30 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v19) Q := by
  iintro ⟨#HP, HLd, HVs, HYr, HB, HOw, Hk⟩
  rw [k0_part30_eq_skeleton]; unfold k0_part30_skel
  simp only [Prog.lift, Prog.bind_op, Prog.bind_ret, Prog.pure_eq_ret, semSignalWord, semWaitWord, wp_deviceId]
  iapply (s_ld_start (m := m) (K := K) (c := c) (fv := fv) (25 : Fin 32) 25 24 rfl (by decide) (by decide))
  isplitr; · iexact HP
  isplitl [HLd]; · iexact HLd
  iintro HLd
  iapply (s_ld_wait (m := m) (K := K) (c := c) (fv := fv) (24 : Fin 32) 26 24 rfl (by decide) (owedAt c 2 16 9 0) (owedAt_lv_pos c _ _ _))
  isplitr; · iexact HP
  isplitl [HLd]; · iexact HLd
  isplitl [HOw]; · iexact HOw
  iintro ⟨HLd, HOw⟩
  iapply (s_vload (m := m) (c := c) (fv := fv) (24 : Fin 32) 26 25 rfl (by decide) (by decide))
  isplitl [HLd]; · iexact HLd
  iintro HLd
  iapply (s_vsload (m := m) (c := c) (fs := fs) (24 : Fin 32) 24 16 rfl (by decide))
  isplitl [HVs]; · iexact HVs
  iintro %_v HVs
  iapply (s_store (m := m) (c := c) (fs := fs) (24 : Fin 32) 24 16 rfl (by decide) _ rfl)
  isplitl [HVs]; · iexact HVs
  iintro HVs
  iapply (s_yrecv_wait (m := m) (K := K) (c := c) (fo := m ((c : Thread nD τ).loc main_v1)) (9 : Fin 16) 9 9 0 0 rfl (by decide))
  isplitr; · iexact HP
  isplitl [HYr]; · iexact HYr
  isplitl [HB]; · iexact HB
  isplitl [HOw]; · iexact HOw
  iintro ⟨HYr, HB, HOw⟩
  rw [wp_ret]; imodintro
  iapply Hk
  isplitl [HLd]; · iexact HLd
  isplitl [HVs]; · iexact HVs
  isplitl [HYr]; · iexact HYr
  isplitl [HB]; · iexact HB
  iexact HOw

theorem part_31 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v7 : BitVec 32} {v19 : BitVec 32}  {Q : (BitVec 32) → sProp 𝕄} :
    iprop(Pers m K ∗ StLd m c fv 26 25 ∗ StVs m c fs 0 25 16 0 ∗ StFtok c 9 ∗ StFreg c 9 ∗ sendCells (xsendCell c) 9 0 ∗ StB m c (m ((c : Thread nD τ).loc main_v1)) true 10 9 0 ∗ Ow c (owedAt c 2 16 9 0) ∗ (∀ (r : BitVec 32), (StLd m c fv 27 26 ∗ StVs m c fs 0 26 16 0 ∗ StFtok c 10 ∗ StFreg c 10 ∗ sendCells (xsendCell c) 10 0 ∗ StB m c (m ((c : Thread nD τ).loc main_v1)) true 10 10 0 ∗ Ow c (owedAt c 2 16 10 0)) -∗ Q r))
      ⊢ wp frame (wpE (defs₀ (F := F)) 𝒱₀ (c : Thread nD τ) none) Set.univ (k0_part31 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v7 v19) Q := by
  iintro ⟨#HP, HLd, HVs, HFt, HFg, HFs, HB, HOw, Hk⟩
  rw [k0_part31_eq_skeleton]; unfold k0_part31_skel
  simp only [Prog.lift, Prog.bind_op, Prog.bind_ret, Prog.pure_eq_ret, semSignalWord, semWaitWord, wp_deviceId]
  iapply (s_fw_start (m := m) (K := K) (c := c) (fo := m ((c : Thread nD τ).loc main_v1)) (9 : Fin 16) 10 9 0 0 rfl (by decide) (by decide) _ (devX k0_dev28 k0_dev28_lt k0_dev28_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  iapply (s_ld_start (m := m) (K := K) (c := c) (fv := fv) (26 : Fin 32) 26 25 rfl (by decide) (by decide))
  isplitr; · iexact HP
  isplitl [HLd]; · iexact HLd
  iintro HLd
  iapply (s_ld_wait (m := m) (K := K) (c := c) (fv := fv) (25 : Fin 32) 27 25 rfl (by decide) (owedAt c 2 16 10 0) (owedAt_lv_pos c _ _ _))
  isplitr; · iexact HP
  isplitl [HLd]; · iexact HLd
  isplitl [HOw]; · iexact HOw
  iintro ⟨HLd, HOw⟩
  iapply (s_vload (m := m) (c := c) (fv := fv) (25 : Fin 32) 27 26 rfl (by decide) (by decide))
  isplitl [HLd]; · iexact HLd
  iintro HLd
  iapply (s_vsload (m := m) (c := c) (fs := fs) (25 : Fin 32) 25 16 rfl (by decide))
  isplitl [HVs]; · iexact HVs
  iintro %_v HVs
  iapply (s_store (m := m) (c := c) (fs := fs) (25 : Fin 32) 25 16 rfl (by decide) _ rfl)
  isplitl [HVs]; · iexact HVs
  iintro HVs
  rw [wp_ret]; imodintro
  iapply Hk
  isplitl [HLd]; · iexact HLd
  isplitl [HVs]; · iexact HVs
  isplitl [HFt]; · iexact HFt
  isplitl [HFg]; · iexact HFg
  isplitl [HFs]; · iexact HFs
  isplitl [HB]; · iexact HB
  iexact HOw

theorem part_32 (K : Dev nD × Kind → ℕ) (c : Dev nD) (fv : Buf (Elt F) ((c : Thread nD τ).loc cc0_scratch1)) (fs : Buf (Elt F) ((c : Thread nD τ).loc cc0_scratch0))
    {v5 : BitVec 32} {v6 : BitVec 32} {v7 : BitVec 32} {v17 : BitVec 32} {v19 : BitVec 32} {v965 : BitVec 32}  {Q : (PUnit) → sProp 𝕄} :
    iprop(Pers m K ∗ StLd m c fv 27 26 ∗ recvCells (yrecvCell c) 10 ∗ StFtok c 10 ∗ StFreg c 10 ∗ sendCells (xsendCell c) 10 0 ∗ StB m c (m ((c : Thread nD τ).loc main_v1)) true 10 10 0 ∗ Ow c (owedAt c 2 16 10 0) ∗ (∀ (r : PUnit), (StLd m c fv 28 27 ∗ recvCells (yrecvCell c) 11 ∗ StFtok c 11 ∗ StFreg c 11 ∗ sendCells (xsendCell c) 11 0 ∗ StB m c (m ((c : Thread nD τ).loc main_v1)) true 11 11 0 ∗ Ow c (owedAt c 2 16 11 0)) -∗ Q r))
      ⊢ wp frame (wpE (defs₀ (F := F)) 𝒱₀ (c : Thread nD τ) none) Set.univ (k0_part32 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v6 v7 v17 v19 v965) Q := by
  iintro ⟨#HP, HLd, HYr, HFt, HFg, HFs, HB, HOw, Hk⟩
  rw [k0_part32_eq_skeleton]; unfold k0_part32_skel
  simp only [Prog.lift, Prog.bind_op, Prog.bind_ret, Prog.pure_eq_ret, semSignalWord, semWaitWord, wp_deviceId]
  iapply (s_yrecv_wait (m := m) (K := K) (c := c) (fo := m ((c : Thread nD τ).loc main_v1)) (10 : Fin 16) 10 10 0 0 rfl (by decide))
  isplitr; · iexact HP
  isplitl [HYr]; · iexact HYr
  isplitl [HB]; · iexact HB
  isplitl [HOw]; · iexact HOw
  iintro ⟨HYr, HB, HOw⟩
  iapply (s_fw_start (m := m) (K := K) (c := c) (fo := m ((c : Thread nD τ).loc main_v1)) (10 : Fin 16) 11 10 0 0 rfl (by decide) (by decide) _ (devX k0_dev29 k0_dev29_lt k0_dev29_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  iapply (s_ld_start (m := m) (K := K) (c := c) (fv := fv) (27 : Fin 32) 27 26 rfl (by decide) (by decide))
  isplitr; · iexact HP
  isplitl [HLd]; · iexact HLd
  iintro HLd
  iapply (s_ld_wait (m := m) (K := K) (c := c) (fv := fv) (26 : Fin 32) 28 26 rfl (by decide) (owedAt c 2 16 11 0) (owedAt_lv_pos c _ _ _))
  isplitr; · iexact HP
  isplitl [HLd]; · iexact HLd
  isplitl [HOw]; · iexact HOw
  iintro ⟨HLd, HOw⟩
  rw [wp_ret]; imodintro
  iapply Hk
  isplitl [HLd]; · iexact HLd
  isplitl [HYr]; · iexact HYr
  isplitl [HFt]; · iexact HFt
  isplitl [HFg]; · iexact HFg
  isplitl [HFs]; · iexact HFs
  isplitl [HB]; · iexact HB
  iexact HOw

end Cert.KernelIdeal.AG

end
-- ==== Proof.BodyP4.lean ====
import proofs.«900094_g7700000000000095_dist_ag_v7x_xy2x2_y_m16384_n1024_bf16_1_alg».proof.Proof.StepsEdge
import proofs.«900094_g7700000000000095_dist_ag_v7x_xy2x2_y_m16384_n1024_bf16_1_alg».proof.Proof.StepsHand
import proofs.«900094_g7700000000000095_dist_ag_v7x_xy2x2_y_m16384_n1024_bf16_1_alg».proof.Proof.StepsLocal
import proofs.«900094_g7700000000000095_dist_ag_v7x_xy2x2_y_m16384_n1024_bf16_1_alg».proof.Proof.StepsRemote
import proofs.«900094_g7700000000000095_dist_ag_v7x_xy2x2_y_m16384_n1024_bf16_1_alg».proof.Proof.OwedLv
import proofs.«900094_g7700000000000095_dist_ag_v7x_xy2x2_y_m16384_n1024_bf16_1_alg».proof.Proof.LibChain

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
theorem part_33 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (PUnit) → sProp 𝕄} :
    iprop(Pers m K ∗ StLd m c fv 28 27 ∗ StVs m c fs 0 26 16 0 ∗ recvCells (yrecvCell c) 11 ∗ StFtok c 11 ∗ StFreg c 11 ∗ sendCells (xsendCell c) 11 0 ∗ StB m c (m ((c : Thread nD τ).loc main_v1)) true 11 11 0 ∗ Ow c (owedAt c 2 16 11 0) ∗ (∀ (r : PUnit), (StLd m c fv 28 27 ∗ StVs m c fs 0 27 16 0 ∗ recvCells (yrecvCell c) 12 ∗ StFtok c 12 ∗ StFreg c 12 ∗ sendCells (xsendCell c) 12 0 ∗ StB m c (m ((c : Thread nD τ).loc main_v1)) true 12 12 0 ∗ Ow c (owedAt c 2 16 12 0)) -∗ Q r))
      ⊢ wp frame (wpE (defs₀ (F := F)) 𝒱₀ (c : Thread nD τ) none) Set.univ (k0_part33 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q := by
  iintro ⟨#HP, HLd, HVs, HYr, HFt, HFg, HFs, HB, HOw, Hk⟩
  rw [k0_part33_eq_skeleton]; unfold k0_part33_skel
  simp only [Prog.lift, Prog.bind_op, Prog.bind_ret, Prog.pure_eq_ret, semSignalWord, semWaitWord, wp_deviceId]
  iapply (s_vload (m := m) (c := c) (fv := fv) (26 : Fin 32) 28 27 rfl (by decide) (by decide))
  isplitl [HLd]; · iexact HLd
  iintro HLd
  iapply (s_vsload (m := m) (c := c) (fs := fs) (26 : Fin 32) 26 16 rfl (by decide))
  isplitl [HVs]; · iexact HVs
  iintro %_v HVs
  iapply (s_store (m := m) (c := c) (fs := fs) (26 : Fin 32) 26 16 rfl (by decide) _ rfl)
  isplitl [HVs]; · iexact HVs
  iintro HVs
  iapply (s_yrecv_wait (m := m) (K := K) (c := c) (fo := m ((c : Thread nD τ).loc main_v1)) (11 : Fin 16) 11 11 0 0 rfl (by decide))
  isplitr; · iexact HP
  isplitl [HYr]; · iexact HYr
  isplitl [HB]; · iexact HB
  isplitl [HOw]; · iexact HOw
  iintro ⟨HYr, HB, HOw⟩
  iapply (s_fw_start (m := m) (K := K) (c := c) (fo := m ((c : Thread nD τ).loc main_v1)) (11 : Fin 16) 12 11 0 0 rfl (by decide) (by decide) _ (devX k0_dev30 k0_dev30_lt k0_dev30_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  rw [wp_ret]; imodintro
  iapply Hk
  isplitl [HLd]; · iexact HLd
  isplitl [HVs]; · iexact HVs
  isplitl [HYr]; · iexact HYr
  isplitl [HFt]; · iexact HFt
  isplitl [HFg]; · iexact HFg
  isplitl [HFs]; · iexact HFs
  isplitl [HB]; · iexact HB
  iexact HOw

theorem part_34 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (Σ' (v1058 : BitVec 32), BitVec 32) → sProp 𝕄} :
    iprop(Pers m K ∗ StLd m c fv 28 27 ∗ StVs m c fs 0 27 16 0 ∗ recvCells (yrecvCell c) 12 ∗ StB m c (m ((c : Thread nD τ).loc main_v1)) true 12 12 0 ∗ Ow c (owedAt c 2 16 12 0) ∗ (∀ (v1058 : BitVec 32) (rl : BitVec 32), (StLd m c fv 29 28 ∗ StVs m c fs 0 28 16 0 ∗ recvCells (yrecvCell c) 13 ∗ StB m c (m ((c : Thread nD τ).loc main_v1)) true 13 12 0 ∗ Ow c (owedAt c 2 16 12 0)) -∗ Q ⟨v1058, rl⟩))
      ⊢ wp frame (wpE (defs₀ (F := F)) 𝒱₀ (c : Thread nD τ) none) Set.univ (k0_part34 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q := by
  iintro ⟨#HP, HLd, HVs, HYr, HB, HOw, Hk⟩
  rw [k0_part34_eq_skeleton]; unfold k0_part34_skel
  simp only [Prog.lift, Prog.bind_op, Prog.bind_ret, Prog.pure_eq_ret, semSignalWord, semWaitWord, wp_deviceId]
  iapply (s_ld_start (m := m) (K := K) (c := c) (fv := fv) (28 : Fin 32) 28 27 rfl (by decide) (by decide))
  isplitr; · iexact HP
  isplitl [HLd]; · iexact HLd
  iintro HLd
  iapply (s_ld_wait (m := m) (K := K) (c := c) (fv := fv) (27 : Fin 32) 29 27 rfl (by decide) (owedAt c 2 16 12 0) (owedAt_lv_pos c _ _ _))
  isplitr; · iexact HP
  isplitl [HLd]; · iexact HLd
  isplitl [HOw]; · iexact HOw
  iintro ⟨HLd, HOw⟩
  iapply (s_vload (m := m) (c := c) (fv := fv) (27 : Fin 32) 29 28 rfl (by decide) (by decide))
  isplitl [HLd]; · iexact HLd
  iintro HLd
  iapply (s_vsload (m := m) (c := c) (fs := fs) (27 : Fin 32) 27 16 rfl (by decide))
  isplitl [HVs]; · iexact HVs
  iintro %_v HVs
  iapply (s_store (m := m) (c := c) (fs := fs) (27 : Fin 32) 27 16 rfl (by decide) _ rfl)
  isplitl [HVs]; · iexact HVs
  iintro HVs
  iapply (s_yrecv_wait (m := m) (K := K) (c := c) (fo := m ((c : Thread nD τ).loc main_v1)) (12 : Fin 16) 12 12 0 0 rfl (by decide))
  isplitr; · iexact HP
  isplitl [HYr]; · iexact HYr
  isplitl [HB]; · iexact HB
  isplitl [HOw]; · iexact HOw
  iintro ⟨HYr, HB, HOw⟩
  rw [wp_ret]; imodintro
  iapply Hk
  isplitl [HLd]; · iexact HLd
  isplitl [HVs]; · iexact HVs
  isplitl [HYr]; · iexact HYr
  isplitl [HB]; · iexact HB
  iexact HOw

theorem part_35 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v19 : BitVec 32} {v1058 : BitVec 32} {c0_i32_814 : BitVec 32}  {Q : (PUnit) → sProp 𝕄} :
    iprop(Pers m K ∗ StLd m c fv 29 28 ∗ StVs m c fs 0 28 16 0 ∗ StFtok c 12 ∗ StFreg c 12 ∗ sendCells (xsendCell c) 12 0 ∗ StB m c (m ((c : Thread nD τ).loc main_v1)) true 13 12 0 ∗ Ow c (owedAt c 2 16 12 0) ∗ (∀ (r : PUnit), (StLd m c fv 30 29 ∗ StVs m c fs 0 29 16 0 ∗ StFtok c 13 ∗ StFreg c 13 ∗ sendCells (xsendCell c) 13 0 ∗ StB m c (m ((c : Thread nD τ).loc main_v1)) true 13 13 0 ∗ Ow c (owedAt c 2 16 13 0)) -∗ Q r))
      ⊢ wp frame (wpE (defs₀ (F := F)) 𝒱₀ (c : Thread nD τ) none) Set.univ (k0_part35 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v19 v1058 c0_i32_814) Q := by
  iintro ⟨#HP, HLd, HVs, HFt, HFg, HFs, HB, HOw, Hk⟩
  rw [k0_part35_eq_skeleton]; unfold k0_part35_skel
  simp only [Prog.lift, Prog.bind_op, Prog.bind_ret, Prog.pure_eq_ret, semSignalWord, semWaitWord, wp_deviceId]
  iapply (s_fw_start (m := m) (K := K) (c := c) (fo := m ((c : Thread nD τ).loc main_v1)) (12 : Fin 16) 13 12 0 0 rfl (by decide) (by decide) _ (devX k0_dev31 k0_dev31_lt k0_dev31_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  iapply (s_ld_start (m := m) (K := K) (c := c) (fv := fv) (29 : Fin 32) 29 28 rfl (by decide) (by decide))
  isplitr; · iexact HP
  isplitl [HLd]; · iexact HLd
  iintro HLd
  iapply (s_ld_wait (m := m) (K := K) (c := c) (fv := fv) (28 : Fin 32) 30 28 rfl (by decide) (owedAt c 2 16 13 0) (owedAt_lv_pos c _ _ _))
  isplitr; · iexact HP
  isplitl [HLd]; · iexact HLd
  isplitl [HOw]; · iexact HOw
  iintro ⟨HLd, HOw⟩
  iapply (s_vload (m := m) (c := c) (fv := fv) (28 : Fin 32) 30 29 rfl (by decide) (by decide))
  isplitl [HLd]; · iexact HLd
  iintro HLd
  iapply (s_vsload (m := m) (c := c) (fs := fs) (28 : Fin 32) 28 16 rfl (by decide))
  isplitl [HVs]; · iexact HVs
  iintro %_v HVs
  iapply (s_store (m := m) (c := c) (fs := fs) (28 : Fin 32) 28 16 rfl (by decide) _ rfl)
  isplitl [HVs]; · iexact HVs
  iintro HVs
  rw [wp_ret]; imodintro
  iapply Hk
  isplitl [HLd]; · iexact HLd
  isplitl [HVs]; · iexact HVs
  isplitl [HFt]; · iexact HFt
  isplitl [HFg]; · iexact HFg
  isplitl [HFs]; · iexact HFs
  isplitl [HB]; · iexact HB
  iexact HOw

theorem part_36 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32} {v17 : BitVec 32} {v19 : BitVec 32}  {Q : (Vec F S1x512x1024 .f32) → sProp 𝕄} :
    iprop(Pers m K ∗ StLd m c fv 30 29 ∗ recvCells (yrecvCell c) 13 ∗ StFtok c 13 ∗ StFreg c 13 ∗ sendCells (xsendCell c) 13 0 ∗ StB m c (m ((c : Thread nD τ).loc main_v1)) true 13 13 0 ∗ Ow c (owedAt c 2 16 13 0) ∗ (∀ (r : Vec F S1x512x1024 .f32), ⌜(k0_pay33 r) = pay (slotVal m c (29 : Fin 32))⌝ -∗ (StLd m c fv 31 30 ∗ recvCells (yrecvCell c) 14 ∗ StFtok c 14 ∗ StFreg c 14 ∗ sendCells (xsendCell c) 14 0 ∗ StB m c (m ((c : Thread nD τ).loc main_v1)) true 14 14 0 ∗ Ow c (owedAt c 2 16 14 0)) -∗ Q r))
      ⊢ wp frame (wpE (defs₀ (F := F)) 𝒱₀ (c : Thread nD τ) none) Set.univ (k0_part36 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7 v17 v19) Q := by
  iintro ⟨#HP, HLd, HYr, HFt, HFg, HFs, HB, HOw, Hk⟩
  rw [k0_part36_eq_skeleton]; unfold k0_part36_skel
  simp only [Prog.lift, Prog.bind_op, Prog.bind_ret, Prog.pure_eq_ret, semSignalWord, semWaitWord, wp_deviceId]
  iapply (s_yrecv_wait (m := m) (K := K) (c := c) (fo := m ((c : Thread nD τ).loc main_v1)) (13 : Fin 16) 13 13 0 0 rfl (by decide))
  isplitr; · iexact HP
  isplitl [HYr]; · iexact HYr
  isplitl [HB]; · iexact HB
  isplitl [HOw]; · iexact HOw
  iintro ⟨HYr, HB, HOw⟩
  iapply (s_fw_start (m := m) (K := K) (c := c) (fo := m ((c : Thread nD τ).loc main_v1)) (13 : Fin 16) 14 13 0 0 rfl (by decide) (by decide) _ (devX k0_dev32 k0_dev32_lt k0_dev32_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  iapply (s_ld_start (m := m) (K := K) (c := c) (fv := fv) (30 : Fin 32) 30 29 rfl (by decide) (by decide))
  isplitr; · iexact HP
  isplitl [HLd]; · iexact HLd
  iintro HLd
  iapply (s_ld_wait (m := m) (K := K) (c := c) (fv := fv) (29 : Fin 32) 31 29 rfl (by decide) (owedAt c 2 16 14 0) (owedAt_lv_pos c _ _ _))
  isplitr; · iexact HP
  isplitl [HLd]; · iexact HLd
  isplitl [HOw]; · iexact HOw
  iintro ⟨HLd, HOw⟩
  iapply (s_vload (m := m) (c := c) (fv := fv) (29 : Fin 32) 31 30 rfl (by decide) (by decide))
  isplitl [HLd]; · iexact HLd
  iintro HLd
  rw [wp_ret]; imodintro
  iapply Hk
  · ipureintro; rfl
  isplitl [HLd]; · iexact HLd
  isplitl [HYr]; · iexact HYr
  isplitl [HFt]; · iexact HFt
  isplitl [HFg]; · iexact HFg
  isplitl [HFs]; · iexact HFs
  isplitl [HB]; · iexact HB
  iexact HOw

theorem part_37 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32} (v1120 : Vec F S1x512x1024 .f32) (hw : (k0_pay33 v1120) = pay (slotVal m c (29 : Fin 32))) {Q : (PUnit) → sProp 𝕄} :
    iprop(Pers m K ∗ StVs m c fs 0 29 16 0 ∗ recvCells (yrecvCell c) 14 ∗ StFtok c 14 ∗ StFreg c 14 ∗ sendCells (xsendCell c) 14 0 ∗ StB m c (m ((c : Thread nD τ).loc main_v1)) true 14 14 0 ∗ Ow c (owedAt c 2 16 14 0) ∗ (∀ (r : PUnit), (StVs m c fs 0 30 16 0 ∗ recvCells (yrecvCell c) 15 ∗ StFtok c 15 ∗ StFreg c 15 ∗ sendCells (xsendCell c) 15 0 ∗ StB m c (m ((c : Thread nD τ).loc main_v1)) true 15 15 0 ∗ Ow c (owedAt c 2 16 15 0)) -∗ Q r))
      ⊢ wp frame (wpE (defs₀ (F := F)) 𝒱₀ (c : Thread nD τ) none) Set.univ (k0_part37 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19 v1120) Q := by
  iintro ⟨#HP, HVs, HYr, HFt, HFg, HFs, HB, HOw, Hk⟩
  rw [k0_part37_eq_skeleton]; unfold k0_part37_skel
  simp only [Prog.lift, Prog.bind_op, Prog.bind_ret, Prog.pure_eq_ret, semSignalWord, semWaitWord, wp_deviceId]
  iapply (s_vsload (m := m) (c := c) (fs := fs) (29 : Fin 32) 29 16 rfl (by decide))
  isplitl [HVs]; · iexact HVs
  iintro %_v HVs
  iapply (s_store (m := m) (c := c) (fs := fs) (29 : Fin 32) 29 16 rfl (by decide) _ hw)
  isplitl [HVs]; · iexact HVs
  iintro HVs
  iapply (s_yrecv_wait (m := m) (K := K) (c := c) (fo := m ((c : Thread nD τ).loc main_v1)) (14 : Fin 16) 14 14 0 0 rfl (by decide))
  isplitr; · iexact HP
  isplitl [HYr]; · iexact HYr
  isplitl [HB]; · iexact HB
  isplitl [HOw]; · iexact HOw
  iintro ⟨HYr, HB, HOw⟩
  iapply (s_fw_start (m := m) (K := K) (c := c) (fo := m ((c : Thread nD τ).loc main_v1)) (14 : Fin 16) 15 14 0 0 rfl (by decide) (by decide) _ (devX k0_dev33 k0_dev33_lt k0_dev33_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  rw [wp_ret]; imodintro
  iapply Hk
  isplitl [HVs]; · iexact HVs
  isplitl [HYr]; · iexact HYr
  isplitl [HFt]; · iexact HFt
  isplitl [HFg]; · iexact HFg
  isplitl [HFs]; · iexact HFs
  isplitl [HB]; · iexact HB
  iexact HOw

theorem part_38 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (Σ' (v1182 : BitVec 32), BitVec 32) → sProp 𝕄} :
    iprop(Pers m K ∗ StLd m c fv 31 30 ∗ StVs m c fs 0 30 16 0 ∗ recvCells (yrecvCell c) 15 ∗ StB m c (m ((c : Thread nD τ).loc main_v1)) true 15 15 0 ∗ Ow c (owedAt c 2 16 15 0) ∗ (∀ (v1182 : BitVec 32) (rl : BitVec 32), (StLd m c fv 32 31 ∗ StVs m c fs 0 31 16 0 ∗ recvCells (yrecvCell c) 16 ∗ StB m c (m ((c : Thread nD τ).loc main_v1)) true 16 15 0 ∗ Ow c (owedAt c 2 16 15 0)) -∗ Q ⟨v1182, rl⟩))
      ⊢ wp frame (wpE (defs₀ (F := F)) 𝒱₀ (c : Thread nD τ) none) Set.univ (k0_part38 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q := by
  iintro ⟨#HP, HLd, HVs, HYr, HB, HOw, Hk⟩
  rw [k0_part38_eq_skeleton]; unfold k0_part38_skel
  simp only [Prog.lift, Prog.bind_op, Prog.bind_ret, Prog.pure_eq_ret, semSignalWord, semWaitWord, wp_deviceId]
  iapply (s_ld_start (m := m) (K := K) (c := c) (fv := fv) (31 : Fin 32) 31 30 rfl (by decide) (by decide))
  isplitr; · iexact HP
  isplitl [HLd]; · iexact HLd
  iintro HLd
  iapply (s_ld_wait (m := m) (K := K) (c := c) (fv := fv) (30 : Fin 32) 32 30 rfl (by decide) (owedAt c 2 16 15 0) (owedAt_lv_pos c _ _ _))
  isplitr; · iexact HP
  isplitl [HLd]; · iexact HLd
  isplitl [HOw]; · iexact HOw
  iintro ⟨HLd, HOw⟩
  iapply (s_vload (m := m) (c := c) (fv := fv) (30 : Fin 32) 32 31 rfl (by decide) (by decide))
  isplitl [HLd]; · iexact HLd
  iintro HLd
  iapply (s_vsload (m := m) (c := c) (fs := fs) (30 : Fin 32) 30 16 rfl (by decide))
  isplitl [HVs]; · iexact HVs
  iintro %_v HVs
  iapply (s_store (m := m) (c := c) (fs := fs) (30 : Fin 32) 30 16 rfl (by decide) _ rfl)
  isplitl [HVs]; · iexact HVs
  iintro HVs
  iapply (s_yrecv_wait (m := m) (K := K) (c := c) (fo := m ((c : Thread nD τ).loc main_v1)) (15 : Fin 16) 15 15 0 0 rfl (by decide))
  isplitr; · iexact HP
  isplitl [HYr]; · iexact HYr
  isplitl [HB]; · iexact HB
  isplitl [HOw]; · iexact HOw
  iintro ⟨HYr, HB, HOw⟩
  rw [wp_ret]; imodintro
  iapply Hk
  isplitl [HLd]; · iexact HLd
  isplitl [HVs]; · iexact HVs
  isplitl [HYr]; · iexact HYr
  isplitl [HB]; · iexact HB
  iexact HOw

end Cert.KernelIdeal.AG

end
-- ==== Proof.BodyP5.lean ====
import proofs.«900094_g7700000000000095_dist_ag_v7x_xy2x2_y_m16384_n1024_bf16_1_alg».proof.Proof.StepsEdge
import proofs.«900094_g7700000000000095_dist_ag_v7x_xy2x2_y_m16384_n1024_bf16_1_alg».proof.Proof.StepsHand
import proofs.«900094_g7700000000000095_dist_ag_v7x_xy2x2_y_m16384_n1024_bf16_1_alg».proof.Proof.StepsLocal
import proofs.«900094_g7700000000000095_dist_ag_v7x_xy2x2_y_m16384_n1024_bf16_1_alg».proof.Proof.StepsRemote
import proofs.«900094_g7700000000000095_dist_ag_v7x_xy2x2_y_m16384_n1024_bf16_1_alg».proof.Proof.OwedLv
import proofs.«900094_g7700000000000095_dist_ag_v7x_xy2x2_y_m16384_n1024_bf16_1_alg».proof.Proof.LibChain

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
theorem part_39 (K : Dev nD × Kind → ℕ) (c : Dev nD) (fv : Buf (Elt F) ((c : Thread nD τ).loc cc0_scratch1)) (fs : Buf (Elt F) ((c : Thread nD τ).loc cc0_scratch0))
    {v5 : BitVec 32} {v19 : BitVec 32} {v1182 : BitVec 32} {v1183 : BitVec 32}  {Q : (PUnit) → sProp 𝕄} :
    iprop(Pers m K ∗ StLd m c fv 32 31 ∗ StVs m c fs 0 31 16 0 ∗ sendCells (ysendCell c) 16 0 ∗ StFtok c 15 ∗ StFreg c 15 ∗ sendCells (xsendCell c) 15 0 ∗ StB m c (m ((c : Thread nD τ).loc main_v1)) true 16 15 0 ∗ StSt m c (m ((c : Thread nD τ).loc main_v1)) 0 ∗ Ow c (owedAt c 2 16 15 0) ∗ (∀ (r : PUnit), (StLd m c fv 32 32 ∗ StVs m c fs 1 32 16 2 ∗ sendCells (ysendCell c) 16 2 ∗ StFtok c 16 ∗ StFreg c 16 ∗ sendCells (xsendCell c) 16 0 ∗ StB m c (m ((c : Thread nD τ).loc main_v1)) true 16 16 0 ∗ StSt m c (m ((c : Thread nD τ).loc main_v1)) 1 ∗ Ow c (owedAt c 2 16 16 0)) -∗ Q r))
      ⊢ wp frame (wpE (defs₀ (F := F)) 𝒱₀ (c : Thread nD τ) none) Set.univ (k0_part39 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v19 v1182 v1183) Q := by
  iintro ⟨#HP, HLd, HVs, HYs, HFt, HFg, HFs, HB, HSt, HOw, Hk⟩
  rw [k0_part39_eq_skeleton]; unfold k0_part39_skel
  simp only [Prog.lift, Prog.bind_op, Prog.bind_ret, Prog.pure_eq_ret, semSignalWord, semWaitWord, wp_deviceId]
  iapply (s_fw_start (m := m) (K := K) (c := c) (fo := m ((c : Thread nD τ).loc main_v1)) (15 : Fin 16) 16 15 0 0 rfl (by decide) (by decide) _ (devX k0_dev34 k0_dev34_lt k0_dev34_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  iapply (s_ld_wait (m := m) (K := K) (c := c) (fv := fv) (31 : Fin 32) 32 31 rfl (by decide) (owedAt c 2 16 16 0) (owedAt_lv_pos c _ _ _))
  isplitr; · iexact HP
  isplitl [HLd]; · iexact HLd
  isplitl [HOw]; · iexact HOw
  iintro ⟨HLd, HOw⟩
  iapply (s_vload (m := m) (c := c) (fv := fv) (31 : Fin 32) 32 32 rfl (by decide) (by decide))
  isplitl [HLd]; · iexact HLd
  iintro HLd
  iapply (s_vsload (m := m) (c := c) (fs := fs) (31 : Fin 32) 31 16 rfl (by decide))
  isplitl [HVs]; · iexact HVs
  iintro %_v HVs
  iapply (s_store (m := m) (c := c) (fs := fs) (31 : Fin 32) 31 16 rfl (by decide) _ rfl)
  isplitl [HVs]; · iexact HVs
  iintro HVs
  iapply (s_st_start (m := m) (K := K) (c := c) (fs := fs) (fo := m ((c : Thread nD τ).loc main_v1)))
  isplitr; · iexact HP
  isplitl [HVs]; · iexact HVs
  isplitl [HSt]; · iexact HSt
  iintro ⟨HVs, HSt⟩
  iapply (s_ysend_wait (m := m) (K := K) (c := c) (fs := fs) (0 : Fin 16) 1 0 0 rfl (Or.inl rfl))
  isplitr; · iexact HP
  isplitl [HYs]; · iexact HYs
  isplitl [HVs]; · iexact HVs
  isplitl [HOw]; · iexact HOw
  iintro ⟨HYs, HVs, HOw⟩
  iapply (s_ysend_wait (m := m) (K := K) (c := c) (fs := fs) (1 : Fin 16) 1 1 0 rfl (Or.inl rfl))
  isplitr; · iexact HP
  isplitl [HYs]; · iexact HYs
  isplitl [HVs]; · iexact HVs
  isplitl [HOw]; · iexact HOw
  iintro ⟨HYs, HVs, HOw⟩
  rw [wp_ret]; imodintro
  iapply Hk
  isplitl [HLd]; · iexact HLd
  isplitl [HVs]; · iexact HVs
  isplitl [HYs]; · iexact HYs
  isplitl [HFt]; · iexact HFt
  isplitl [HFg]; · iexact HFg
  isplitl [HFs]; · iexact HFs
  isplitl [HB]; · iexact HB
  isplitl [HSt]; · iexact HSt
  iexact HOw

theorem part_40 (K : Dev nD × Kind → ℕ) (c : Dev nD) (fv : Buf (Elt F) ((c : Thread nD τ).loc cc0_scratch1)) (fs : Buf (Elt F) ((c : Thread nD τ).loc cc0_scratch0))
      {Q : (PUnit) → sProp 𝕄} :
    iprop(Pers m K ∗ StVs m c fs 1 32 16 2 ∗ sendCells (ysendCell c) 16 2 ∗ Ow c (owedAt c 2 16 16 0) ∗ (∀ (r : PUnit), (StVs m c fs 1 32 16 8 ∗ sendCells (ysendCell c) 16 8 ∗ Ow c (owedAt c 2 16 16 0)) -∗ Q r))
      ⊢ wp frame (wpE (defs₀ (F := F)) 𝒱₀ (c : Thread nD τ) none) Set.univ (k0_part40 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c) Q := by
  iintro ⟨#HP, HVs, HYs, HOw, Hk⟩
  rw [k0_part40_eq_skeleton]; unfold k0_part40_skel
  simp only [Prog.lift, Prog.bind_op, Prog.bind_ret, Prog.pure_eq_ret, semSignalWord, semWaitWord, wp_deviceId]
  iapply (s_ysend_wait (m := m) (K := K) (c := c) (fs := fs) (2 : Fin 16) 1 2 0 rfl (Or.inl rfl))
  isplitr; · iexact HP
  isplitl [HYs]; · iexact HYs
  isplitl [HVs]; · iexact HVs
  isplitl [HOw]; · iexact HOw
  iintro ⟨HYs, HVs, HOw⟩
  iapply (s_ysend_wait (m := m) (K := K) (c := c) (fs := fs) (3 : Fin 16) 1 3 0 rfl (Or.inl rfl))
  isplitr; · iexact HP
  isplitl [HYs]; · iexact HYs
  isplitl [HVs]; · iexact HVs
  isplitl [HOw]; · iexact HOw
  iintro ⟨HYs, HVs, HOw⟩
  iapply (s_ysend_wait (m := m) (K := K) (c := c) (fs := fs) (4 : Fin 16) 1 4 0 rfl (Or.inl rfl))
  isplitr; · iexact HP
  isplitl [HYs]; · iexact HYs
  isplitl [HVs]; · iexact HVs
  isplitl [HOw]; · iexact HOw
  iintro ⟨HYs, HVs, HOw⟩
  iapply (s_ysend_wait (m := m) (K := K) (c := c) (fs := fs) (5 : Fin 16) 1 5 0 rfl (Or.inl rfl))
  isplitr; · iexact HP
  isplitl [HYs]; · iexact HYs
  isplitl [HVs]; · iexact HVs
  isplitl [HOw]; · iexact HOw
  iintro ⟨HYs, HVs, HOw⟩
  iapply (s_ysend_wait (m := m) (K := K) (c := c) (fs := fs) (6 : Fin 16) 1 6 0 rfl (Or.inl rfl))
  isplitr; · iexact HP
  isplitl [HYs]; · iexact HYs
  isplitl [HVs]; · iexact HVs
  isplitl [HOw]; · iexact HOw
  iintro ⟨HYs, HVs, HOw⟩
  iapply (s_ysend_wait (m := m) (K := K) (c := c) (fs := fs) (7 : Fin 16) 1 7 0 rfl (Or.inl rfl))
  isplitr; · iexact HP
  isplitl [HYs]; · iexact HYs
  isplitl [HVs]; · iexact HVs
  isplitl [HOw]; · iexact HOw
  iintro ⟨HYs, HVs, HOw⟩
  rw [wp_ret]; imodintro
  iapply Hk
  isplitl [HVs]; · iexact HVs
  isplitl [HYs]; · iexact HYs
  iexact HOw

theorem part_41 (K : Dev nD × Kind → ℕ) (c : Dev nD) (fv : Buf (Elt F) ((c : Thread nD τ).loc cc0_scratch1)) (fs : Buf (Elt F) ((c : Thread nD τ).loc cc0_scratch0))
      {Q : (PUnit) → sProp 𝕄} :
    iprop(Pers m K ∗ StVs m c fs 1 32 16 8 ∗ sendCells (ysendCell c) 16 8 ∗ Ow c (owedAt c 2 16 16 0) ∗ (∀ (r : PUnit), (StVs m c fs 1 32 16 14 ∗ sendCells (ysendCell c) 16 14 ∗ Ow c (owedAt c 2 16 16 0)) -∗ Q r))
      ⊢ wp frame (wpE (defs₀ (F := F)) 𝒱₀ (c : Thread nD τ) none) Set.univ (k0_part41 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c) Q := by
  iintro ⟨#HP, HVs, HYs, HOw, Hk⟩
  rw [k0_part41_eq_skeleton]; unfold k0_part41_skel
  simp only [Prog.lift, Prog.bind_op, Prog.bind_ret, Prog.pure_eq_ret, semSignalWord, semWaitWord, wp_deviceId]
  iapply (s_ysend_wait (m := m) (K := K) (c := c) (fs := fs) (8 : Fin 16) 1 8 0 rfl (Or.inl rfl))
  isplitr; · iexact HP
  isplitl [HYs]; · iexact HYs
  isplitl [HVs]; · iexact HVs
  isplitl [HOw]; · iexact HOw
  iintro ⟨HYs, HVs, HOw⟩
  iapply (s_ysend_wait (m := m) (K := K) (c := c) (fs := fs) (9 : Fin 16) 1 9 0 rfl (Or.inl rfl))
  isplitr; · iexact HP
  isplitl [HYs]; · iexact HYs
  isplitl [HVs]; · iexact HVs
  isplitl [HOw]; · iexact HOw
  iintro ⟨HYs, HVs, HOw⟩
  iapply (s_ysend_wait (m := m) (K := K) (c := c) (fs := fs) (10 : Fin 16) 1 10 0 rfl (Or.inl rfl))
  isplitr; · iexact HP
  isplitl [HYs]; · iexact HYs
  isplitl [HVs]; · iexact HVs
  isplitl [HOw]; · iexact HOw
  iintro ⟨HYs, HVs, HOw⟩
  iapply (s_ysend_wait (m := m) (K := K) (c := c) (fs := fs) (11 : Fin 16) 1 11 0 rfl (Or.inl rfl))
  isplitr; · iexact HP
  isplitl [HYs]; · iexact HYs
  isplitl [HVs]; · iexact HVs
  isplitl [HOw]; · iexact HOw
  iintro ⟨HYs, HVs, HOw⟩
  iapply (s_ysend_wait (m := m) (K := K) (c := c) (fs := fs) (12 : Fin 16) 1 12 0 rfl (Or.inl rfl))
  isplitr; · iexact HP
  isplitl [HYs]; · iexact HYs
  isplitl [HVs]; · iexact HVs
  isplitl [HOw]; · iexact HOw
  iintro ⟨HYs, HVs, HOw⟩
  iapply (s_ysend_wait (m := m) (K := K) (c := c) (fs := fs) (13 : Fin 16) 1 13 0 rfl (Or.inl rfl))
  isplitr; · iexact HP
  isplitl [HYs]; · iexact HYs
  isplitl [HVs]; · iexact HVs
  isplitl [HOw]; · iexact HOw
  iintro ⟨HYs, HVs, HOw⟩
  rw [wp_ret]; imodintro
  iapply Hk
  isplitl [HVs]; · iexact HVs
  isplitl [HYs]; · iexact HYs
  iexact HOw

end Cert.KernelIdeal.AG

end
-- ==== Proof.BodyP6.lean ====
import proofs.«900094_g7700000000000095_dist_ag_v7x_xy2x2_y_m16384_n1024_bf16_1_alg».proof.Proof.StepsEdge
import proofs.«900094_g7700000000000095_dist_ag_v7x_xy2x2_y_m16384_n1024_bf16_1_alg».proof.Proof.StepsHand
import proofs.«900094_g7700000000000095_dist_ag_v7x_xy2x2_y_m16384_n1024_bf16_1_alg».proof.Proof.StepsLocal
import proofs.«900094_g7700000000000095_dist_ag_v7x_xy2x2_y_m16384_n1024_bf16_1_alg».proof.Proof.StepsRemote
import proofs.«900094_g7700000000000095_dist_ag_v7x_xy2x2_y_m16384_n1024_bf16_1_alg».proof.Proof.OwedLv
import proofs.«900094_g7700000000000095_dist_ag_v7x_xy2x2_y_m16384_n1024_bf16_1_alg».proof.Proof.LibChain

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
theorem part_42 (K : Dev nD × Kind → ℕ) (c : Dev nD) (fv : Buf (Elt F) ((c : Thread nD τ).loc cc0_scratch1)) (fs : Buf (Elt F) ((c : Thread nD τ).loc cc0_scratch0))
      {Q : (PUnit) → sProp 𝕄} :
    iprop(Pers m K ∗ StVs m c fs 1 32 16 14 ∗ sendCells (ysendCell c) 16 14 ∗ sendCells (xsendCell c) 16 0 ∗ StB m c (m ((c : Thread nD τ).loc main_v1)) true 16 16 0 ∗ Ow c (owedAt c 2 16 16 0) ∗ (∀ (r : PUnit), (StVs m c fs 1 32 16 16 ∗ sendCells (ysendCell c) 16 16 ∗ sendCells (xsendCell c) 16 4 ∗ StB m c (m ((c : Thread nD τ).loc main_v1)) true 16 16 4 ∗ Ow c (owedAt c 2 16 16 0)) -∗ Q r))
      ⊢ wp frame (wpE (defs₀ (F := F)) 𝒱₀ (c : Thread nD τ) none) Set.univ (k0_part42 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c) Q := by
  iintro ⟨#HP, HVs, HYs, HFs, HB, HOw, Hk⟩
  rw [k0_part42_eq_skeleton]; unfold k0_part42_skel
  simp only [Prog.lift, Prog.bind_op, Prog.bind_ret, Prog.pure_eq_ret, semSignalWord, semWaitWord, wp_deviceId]
  iapply (s_ysend_wait (m := m) (K := K) (c := c) (fs := fs) (14 : Fin 16) 1 14 0 rfl (Or.inl rfl))
  isplitr; · iexact HP
  isplitl [HYs]; · iexact HYs
  isplitl [HVs]; · iexact HVs
  isplitl [HOw]; · iexact HOw
  iintro ⟨HYs, HVs, HOw⟩
  iapply (s_ysend_wait (m := m) (K := K) (c := c) (fs := fs) (15 : Fin 16) 1 15 0 rfl (Or.inl rfl))
  isplitr; · iexact HP
  isplitl [HYs]; · iexact HYs
  isplitl [HVs]; · iexact HVs
  isplitl [HOw]; · iexact HOw
  iintro ⟨HYs, HVs, HOw⟩
  iapply (s_xsend_wait (m := m) (K := K) (c := c) (fo := m ((c : Thread nD τ).loc main_v1)) (0 : Fin 16) 0 0 rfl)
  isplitr; · iexact HP
  isplitl [HFs]; · iexact HFs
  isplitl [HB]; · iexact HB
  isplitl [HOw]; · iexact HOw
  iintro ⟨HFs, HB, HOw⟩
  iapply (s_xsend_wait (m := m) (K := K) (c := c) (fo := m ((c : Thread nD τ).loc main_v1)) (1 : Fin 16) 1 0 rfl)
  isplitr; · iexact HP
  isplitl [HFs]; · iexact HFs
  isplitl [HB]; · iexact HB
  isplitl [HOw]; · iexact HOw
  iintro ⟨HFs, HB, HOw⟩
  iapply (s_xsend_wait (m := m) (K := K) (c := c) (fo := m ((c : Thread nD τ).loc main_v1)) (2 : Fin 16) 2 0 rfl)
  isplitr; · iexact HP
  isplitl [HFs]; · iexact HFs
  isplitl [HB]; · iexact HB
  isplitl [HOw]; · iexact HOw
  iintro ⟨HFs, HB, HOw⟩
  iapply (s_xsend_wait (m := m) (K := K) (c := c) (fo := m ((c : Thread nD τ).loc main_v1)) (3 : Fin 16) 3 0 rfl)
  isplitr; · iexact HP
  isplitl [HFs]; · iexact HFs
  isplitl [HB]; · iexact HB
  isplitl [HOw]; · iexact HOw
  iintro ⟨HFs, HB, HOw⟩
  rw [wp_ret]; imodintro
  iapply Hk
  isplitl [HVs]; · iexact HVs
  isplitl [HYs]; · iexact HYs
  isplitl [HFs]; · iexact HFs
  isplitl [HB]; · iexact HB
  iexact HOw

end Cert.KernelIdeal.AG

end
-- ==== Proof.BodyP7.lean ====
import proofs.«900094_g7700000000000095_dist_ag_v7x_xy2x2_y_m16384_n1024_bf16_1_alg».proof.Proof.StepsEdge
import proofs.«900094_g7700000000000095_dist_ag_v7x_xy2x2_y_m16384_n1024_bf16_1_alg».proof.Proof.StepsHand
import proofs.«900094_g7700000000000095_dist_ag_v7x_xy2x2_y_m16384_n1024_bf16_1_alg».proof.Proof.StepsLocal
import proofs.«900094_g7700000000000095_dist_ag_v7x_xy2x2_y_m16384_n1024_bf16_1_alg».proof.Proof.StepsRemote
import proofs.«900094_g7700000000000095_dist_ag_v7x_xy2x2_y_m16384_n1024_bf16_1_alg».proof.Proof.OwedLv
import proofs.«900094_g7700000000000095_dist_ag_v7x_xy2x2_y_m16384_n1024_bf16_1_alg».proof.Proof.LibChain

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
theorem part_43 (K : Dev nD × Kind → ℕ) (c : Dev nD) (fv : Buf (Elt F) ((c : Thread nD τ).loc cc0_scratch1)) (fs : Buf (Elt F) ((c : Thread nD τ).loc cc0_scratch0))
      {Q : (PUnit) → sProp 𝕄} :
    iprop(Pers m K ∗ sendCells (xsendCell c) 16 4 ∗ StB m c (m ((c : Thread nD τ).loc main_v1)) true 16 16 4 ∗ Ow c (owedAt c 2 16 16 0) ∗ (∀ (r : PUnit), (sendCells (xsendCell c) 16 10 ∗ StB m c (m ((c : Thread nD τ).loc main_v1)) true 16 16 10 ∗ Ow c (owedAt c 2 16 16 0)) -∗ Q r))
      ⊢ wp frame (wpE (defs₀ (F := F)) 𝒱₀ (c : Thread nD τ) none) Set.univ (k0_part43 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c) Q := by
  rw [k0_part43_eq_skeleton]; unfold k0_part43_skel
  simp only [Prog.lift, Prog.bind_op, Prog.bind_ret, Prog.pure_eq_ret, semSignalWord, semWaitWord, wp_deviceId]
  refine chain_3_3 (s_xsend_wait (m := m) (K := K) (c := c) (fo := m ((c : Thread nD τ).loc main_v1)) (4 : Fin 16) 4 0 rfl) ?_
  refine chain_3_3 (s_xsend_wait (m := m) (K := K) (c := c) (fo := m ((c : Thread nD τ).loc main_v1)) (5 : Fin 16) 5 0 rfl) ?_
  refine chain_3_3 (s_xsend_wait (m := m) (K := K) (c := c) (fo := m ((c : Thread nD τ).loc main_v1)) (6 : Fin 16) 6 0 rfl) ?_
  refine chain_3_3 (s_xsend_wait (m := m) (K := K) (c := c) (fo := m ((c : Thread nD τ).loc main_v1)) (7 : Fin 16) 7 0 rfl) ?_
  refine chain_3_3 (s_xsend_wait (m := m) (K := K) (c := c) (fo := m ((c : Thread nD τ).loc main_v1)) (8 : Fin 16) 8 0 rfl) ?_
  refine chain_3_3 (s_xsend_wait (m := m) (K := K) (c := c) (fo := m ((c : Thread nD τ).loc main_v1)) (9 : Fin 16) 9 0 rfl) ?_
  iintro ⟨#HP, HFs, HB, HOw, Hk⟩
  rw [wp_ret]; imodintro
  iapply Hk
  isplitl [HFs]; · iexact HFs
  isplitl [HB]; · iexact HB
  iexact HOw

end Cert.KernelIdeal.AG

end
-- ==== Proof.BodyP8.lean ====
import proofs.«900094_g7700000000000095_dist_ag_v7x_xy2x2_y_m16384_n1024_bf16_1_alg».proof.Proof.StepsEdge
import proofs.«900094_g7700000000000095_dist_ag_v7x_xy2x2_y_m16384_n1024_bf16_1_alg».proof.Proof.StepsHand
import proofs.«900094_g7700000000000095_dist_ag_v7x_xy2x2_y_m16384_n1024_bf16_1_alg».proof.Proof.StepsLocal
import proofs.«900094_g7700000000000095_dist_ag_v7x_xy2x2_y_m16384_n1024_bf16_1_alg».proof.Proof.StepsRemote
import proofs.«900094_g7700000000000095_dist_ag_v7x_xy2x2_y_m16384_n1024_bf16_1_alg».proof.Proof.OwedLv
import proofs.«900094_g7700000000000095_dist_ag_v7x_xy2x2_y_m16384_n1024_bf16_1_alg».proof.Proof.LibChain

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
theorem part_44 (K : Dev nD × Kind → ℕ) (c : Dev nD) (fv : Buf (Elt F) ((c : Thread nD τ).loc cc0_scratch1)) (fs : Buf (Elt F) ((c : Thread nD τ).loc cc0_scratch0))
      {Q : (PUnit) → sProp 𝕄} :
    iprop(Pers m K ∗ sendCells (xsendCell c) 16 10 ∗ StB m c (m ((c : Thread nD τ).loc main_v1)) true 16 16 10 ∗ Ow c (owedAt c 2 16 16 0) ∗ (∀ (r : PUnit), (sendCells (xsendCell c) 16 16 ∗ StB m c (m ((c : Thread nD τ).loc main_v1)) true 16 16 16 ∗ Ow c (owedAt c 2 16 16 0)) -∗ Q r))
      ⊢ wp frame (wpE (defs₀ (F := F)) 𝒱₀ (c : Thread nD τ) none) Set.univ (k0_part44 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c) Q := by
  rw [k0_part44_eq_skeleton]; unfold k0_part44_skel
  simp only [Prog.lift, Prog.bind_op, Prog.bind_ret, Prog.pure_eq_ret, semSignalWord, semWaitWord, wp_deviceId]
  refine chain_3_3 (s_xsend_wait (m := m) (K := K) (c := c) (fo := m ((c : Thread nD τ).loc main_v1)) (10 : Fin 16) 10 0 rfl) ?_
  refine chain_3_3 (s_xsend_wait (m := m) (K := K) (c := c) (fo := m ((c : Thread nD τ).loc main_v1)) (11 : Fin 16) 11 0 rfl) ?_
  refine chain_3_3 (s_xsend_wait (m := m) (K := K) (c := c) (fo := m ((c : Thread nD τ).loc main_v1)) (12 : Fin 16) 12 0 rfl) ?_
  refine chain_3_3 (s_xsend_wait (m := m) (K := K) (c := c) (fo := m ((c : Thread nD τ).loc main_v1)) (13 : Fin 16) 13 0 rfl) ?_
  refine chain_3_3 (s_xsend_wait (m := m) (K := K) (c := c) (fo := m ((c : Thread nD τ).loc main_v1)) (14 : Fin 16) 14 0 rfl) ?_
  refine chain_3_3 (s_xsend_wait (m := m) (K := K) (c := c) (fo := m ((c : Thread nD τ).loc main_v1)) (15 : Fin 16) 15 0 rfl) ?_
  iintro ⟨#HP, HFs, HB, HOw, Hk⟩
  rw [wp_ret]; imodintro
  iapply Hk
  isplitl [HFs]; · iexact HFs
  isplitl [HB]; · iexact HB
  iexact HOw

end Cert.KernelIdeal.AG

end
-- ==== Proof.BodyP9.lean ====
import proofs.«900094_g7700000000000095_dist_ag_v7x_xy2x2_y_m16384_n1024_bf16_1_alg».proof.Proof.StepsEdge
import proofs.«900094_g7700000000000095_dist_ag_v7x_xy2x2_y_m16384_n1024_bf16_1_alg».proof.Proof.StepsHand
import proofs.«900094_g7700000000000095_dist_ag_v7x_xy2x2_y_m16384_n1024_bf16_1_alg».proof.Proof.StepsLocal
import proofs.«900094_g7700000000000095_dist_ag_v7x_xy2x2_y_m16384_n1024_bf16_1_alg».proof.Proof.StepsRemote
import proofs.«900094_g7700000000000095_dist_ag_v7x_xy2x2_y_m16384_n1024_bf16_1_alg».proof.Proof.OwedLv
import proofs.«900094_g7700000000000095_dist_ag_v7x_xy2x2_y_m16384_n1024_bf16_1_alg».proof.Proof.LibChain

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
theorem part_45 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32}  {Q : (PUnit) → sProp 𝕄} :
    iprop(Pers m K ∗ recvCells (xrecvCell c) 0 ∗ StC m c (m ((c : Thread nD τ).loc main_v1)) true 0 ∗ Ow c (owedAt c 2 16 16 0) ∗ (∀ (r : PUnit), (recvCells (xrecvCell c) 3 ∗ StC m c (m ((c : Thread nD τ).loc main_v1)) true 3 ∗ Ow c (owedAt c 2 16 16 0)) -∗ Q r))
      ⊢ wp frame (wpE (defs₀ (F := F)) 𝒱₀ (c : Thread nD τ) none) Set.univ (k0_part45 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7) Q := by
  rw [k0_part45_eq_skeleton]; unfold k0_part45_skel
  simp only [Prog.lift, Prog.bind_op, Prog.bind_ret, Prog.pure_eq_ret, semSignalWord, semWaitWord, wp_deviceId]
  refine chain_3_3 (s_xrecv_wait (m := m) (K := K) (c := c) (fo := m ((c : Thread nD τ).loc main_v1)) (0 : Fin 16) 0 0 rfl) ?_
  refine chain_3_3 (s_xrecv_wait (m := m) (K := K) (c := c) (fo := m ((c : Thread nD τ).loc main_v1)) (1 : Fin 16) 1 0 rfl) ?_
  refine chain_3_3 (s_xrecv_wait (m := m) (K := K) (c := c) (fo := m ((c : Thread nD τ).loc main_v1)) (2 : Fin 16) 2 0 rfl) ?_
  iintro ⟨#HP, HXr, HC, HOw, Hk⟩
  rw [wp_ret]; imodintro
  iapply Hk
  isplitl [HXr]; · iexact HXr
  isplitl [HC]; · iexact HC
  iexact HOw

end Cert.KernelIdeal.AG

end
-- ==== Proof.BodyP10.lean ====
import proofs.«900094_g7700000000000095_dist_ag_v7x_xy2x2_y_m16384_n1024_bf16_1_alg».proof.Proof.StepsEdge
import proofs.«900094_g7700000000000095_dist_ag_v7x_xy2x2_y_m16384_n1024_bf16_1_alg».proof.Proof.StepsHand
import proofs.«900094_g7700000000000095_dist_ag_v7x_xy2x2_y_m16384_n1024_bf16_1_alg».proof.Proof.StepsLocal
import proofs.«900094_g7700000000000095_dist_ag_v7x_xy2x2_y_m16384_n1024_bf16_1_alg».proof.Proof.StepsRemote
import proofs.«900094_g7700000000000095_dist_ag_v7x_xy2x2_y_m16384_n1024_bf16_1_alg».proof.Proof.OwedLv
import proofs.«900094_g7700000000000095_dist_ag_v7x_xy2x2_y_m16384_n1024_bf16_1_alg».proof.Proof.LibChain

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
theorem part_46 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32}  {Q : (Σ' (v1391 : BitVec 32), BitVec 32) → sProp 𝕄} :
    iprop(Pers m K ∗ recvCells (xrecvCell c) 3 ∗ StC m c (m ((c : Thread nD τ).loc main_v1)) true 3 ∗ Ow c (owedAt c 2 16 16 0) ∗ (∀ (v1391 : BitVec 32) (rl : BitVec 32), (recvCells (xrecvCell c) 7 ∗ StC m c (m ((c : Thread nD τ).loc main_v1)) true 7 ∗ Ow c (owedAt c 2 16 16 0)) -∗ Q ⟨v1391, rl⟩))
      ⊢ wp frame (wpE (defs₀ (F := F)) 𝒱₀ (c : Thread nD τ) none) Set.univ (k0_part46 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7) Q := by
  rw [k0_part46_eq_skeleton]; unfold k0_part46_skel
  simp only [Prog.lift, Prog.bind_op, Prog.bind_ret, Prog.pure_eq_ret, semSignalWord, semWaitWord, wp_deviceId]
  refine chain_3_3 (s_xrecv_wait (m := m) (K := K) (c := c) (fo := m ((c : Thread nD τ).loc main_v1)) (3 : Fin 16) 3 0 rfl) ?_
  refine chain_3_3 (s_xrecv_wait (m := m) (K := K) (c := c) (fo := m ((c : Thread nD τ).loc main_v1)) (4 : Fin 16) 4 0 rfl) ?_
  refine chain_3_3 (s_xrecv_wait (m := m) (K := K) (c := c) (fo := m ((c : Thread nD τ).loc main_v1)) (5 : Fin 16) 5 0 rfl) ?_
  refine chain_3_3 (s_xrecv_wait (m := m) (K := K) (c := c) (fo := m ((c : Thread nD τ).loc main_v1)) (6 : Fin 16) 6 0 rfl) ?_
  iintro ⟨#HP, HXr, HC, HOw, Hk⟩
  rw [wp_ret]; imodintro
  iapply Hk
  isplitl [HXr]; · iexact HXr
  isplitl [HC]; · iexact HC
  iexact HOw

end Cert.KernelIdeal.AG

end
-- ==== Proof.BodyP11.lean ====
import proofs.«900094_g7700000000000095_dist_ag_v7x_xy2x2_y_m16384_n1024_bf16_1_alg».proof.Proof.StepsEdge
import proofs.«900094_g7700000000000095_dist_ag_v7x_xy2x2_y_m16384_n1024_bf16_1_alg».proof.Proof.StepsHand
import proofs.«900094_g7700000000000095_dist_ag_v7x_xy2x2_y_m16384_n1024_bf16_1_alg».proof.Proof.StepsLocal
import proofs.«900094_g7700000000000095_dist_ag_v7x_xy2x2_y_m16384_n1024_bf16_1_alg».proof.Proof.StepsRemote
import proofs.«900094_g7700000000000095_dist_ag_v7x_xy2x2_y_m16384_n1024_bf16_1_alg».proof.Proof.OwedLv
import proofs.«900094_g7700000000000095_dist_ag_v7x_xy2x2_y_m16384_n1024_bf16_1_alg».proof.Proof.LibChain

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
theorem part_47 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32} {v1391 : BitVec 32} {v1392 : BitVec 32}  {Q : (BitVec 32) → sProp 𝕄} :
    iprop(Pers m K ∗ recvCells (xrecvCell c) 7 ∗ StC m c (m ((c : Thread nD τ).loc main_v1)) true 7 ∗ Ow c (owedAt c 2 16 16 0) ∗ (∀ (r : BitVec 32), (recvCells (xrecvCell c) 11 ∗ StC m c (m ((c : Thread nD τ).loc main_v1)) true 11 ∗ Ow c (owedAt c 2 16 16 0)) -∗ Q r))
      ⊢ wp frame (wpE (defs₀ (F := F)) 𝒱₀ (c : Thread nD τ) none) Set.univ (k0_part47 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7 v1391 v1392) Q := by
  rw [k0_part47_eq_skeleton]; unfold k0_part47_skel
  simp only [Prog.lift, Prog.bind_op, Prog.bind_ret, Prog.pure_eq_ret, semSignalWord, semWaitWord, wp_deviceId]
  refine chain_3_3 (s_xrecv_wait (m := m) (K := K) (c := c) (fo := m ((c : Thread nD τ).loc main_v1)) (7 : Fin 16) 7 0 rfl) ?_
  refine chain_3_3 (s_xrecv_wait (m := m) (K := K) (c := c) (fo := m ((c : Thread nD τ).loc main_v1)) (8 : Fin 16) 8 0 rfl) ?_
  refine chain_3_3 (s_xrecv_wait (m := m) (K := K) (c := c) (fo := m ((c : Thread nD τ).loc main_v1)) (9 : Fin 16) 9 0 rfl) ?_
  refine chain_3_3 (s_xrecv_wait (m := m) (K := K) (c := c) (fo := m ((c : Thread nD τ).loc main_v1)) (10 : Fin 16) 10 0 rfl) ?_
  iintro ⟨#HP, HXr, HC, HOw, Hk⟩
  rw [wp_ret]; imodintro
  iapply Hk
  isplitl [HXr]; · iexact HXr
  isplitl [HC]; · iexact HC
  iexact HOw

end Cert.KernelIdeal.AG

end
-- ==== Proof.BodyP12.lean ====
import proofs.«900094_g7700000000000095_dist_ag_v7x_xy2x2_y_m16384_n1024_bf16_1_alg».proof.Proof.StepsEdge
import proofs.«900094_g7700000000000095_dist_ag_v7x_xy2x2_y_m16384_n1024_bf16_1_alg».proof.Proof.StepsHand
import proofs.«900094_g7700000000000095_dist_ag_v7x_xy2x2_y_m16384_n1024_bf16_1_alg».proof.Proof.StepsLocal
import proofs.«900094_g7700000000000095_dist_ag_v7x_xy2x2_y_m16384_n1024_bf16_1_alg».proof.Proof.StepsRemote
import proofs.«900094_g7700000000000095_dist_ag_v7x_xy2x2_y_m16384_n1024_bf16_1_alg».proof.Proof.OwedLv
import proofs.«900094_g7700000000000095_dist_ag_v7x_xy2x2_y_m16384_n1024_bf16_1_alg».proof.Proof.LibChain

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
theorem part_48 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32} {v1422 : BitVec 32}  {Q : (PUnit) → sProp 𝕄} :
    iprop(Pers m K ∗ recvCells (xrecvCell c) 11 ∗ StC m c (m ((c : Thread nD τ).loc main_v1)) true 11 ∗ Ow c (owedAt c 2 16 16 0) ∗ (∀ (r : PUnit), (recvCells (xrecvCell c) 15 ∗ StC m c (m ((c : Thread nD τ).loc main_v1)) true 15 ∗ Ow c (owedAt c 2 16 16 0)) -∗ Q r))
      ⊢ wp frame (wpE (defs₀ (F := F)) 𝒱₀ (c : Thread nD τ) none) Set.univ (k0_part48 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7 v1422) Q := by
  rw [k0_part48_eq_skeleton]; unfold k0_part48_skel
  simp only [Prog.lift, Prog.bind_op, Prog.bind_ret, Prog.pure_eq_ret, semSignalWord, semWaitWord, wp_deviceId]
  refine chain_3_3 (s_xrecv_wait (m := m) (K := K) (c := c) (fo := m ((c : Thread nD τ).loc main_v1)) (11 : Fin 16) 11 0 rfl) ?_
  refine chain_3_3 (s_xrecv_wait (m := m) (K := K) (c := c) (fo := m ((c : Thread nD τ).loc main_v1)) (12 : Fin 16) 12 0 rfl) ?_
  refine chain_3_3 (s_xrecv_wait (m := m) (K := K) (c := c) (fo := m ((c : Thread nD τ).loc main_v1)) (13 : Fin 16) 13 0 rfl) ?_
  refine chain_3_3 (s_xrecv_wait (m := m) (K := K) (c := c) (fo := m ((c : Thread nD τ).loc main_v1)) (14 : Fin 16) 14 0 rfl) ?_
  iintro ⟨#HP, HXr, HC, HOw, Hk⟩
  rw [wp_ret]; imodintro
  iapply Hk
  isplitl [HXr]; · iexact HXr
  isplitl [HC]; · iexact HC
  iexact HOw

end Cert.KernelIdeal.AG

end
-- ==== Proof.BodyF.lean ====
import proofs.«900094_g7700000000000095_dist_ag_v7x_xy2x2_y_m16384_n1024_bf16_1_alg».proof.Proof.BodyP1
import proofs.«900094_g7700000000000095_dist_ag_v7x_xy2x2_y_m16384_n1024_bf16_1_alg».proof.Proof.BodyP2
import proofs.«900094_g7700000000000095_dist_ag_v7x_xy2x2_y_m16384_n1024_bf16_1_alg».proof.Proof.BodyP3
import proofs.«900094_g7700000000000095_dist_ag_v7x_xy2x2_y_m16384_n1024_bf16_1_alg».proof.Proof.BodyP4
import proofs.«900094_g7700000000000095_dist_ag_v7x_xy2x2_y_m16384_n1024_bf16_1_alg».proof.Proof.BodyP5
import proofs.«900094_g7700000000000095_dist_ag_v7x_xy2x2_y_m16384_n1024_bf16_1_alg».proof.Proof.BodyP6
import proofs.«900094_g7700000000000095_dist_ag_v7x_xy2x2_y_m16384_n1024_bf16_1_alg».proof.Proof.BodyP7
import proofs.«900094_g7700000000000095_dist_ag_v7x_xy2x2_y_m16384_n1024_bf16_1_alg».proof.Proof.BodyP8
import proofs.«900094_g7700000000000095_dist_ag_v7x_xy2x2_y_m16384_n1024_bf16_1_alg».proof.Proof.BodyP9
import proofs.«900094_g7700000000000095_dist_ag_v7x_xy2x2_y_m16384_n1024_bf16_1_alg».proof.Proof.BodyP10
import proofs.«900094_g7700000000000095_dist_ag_v7x_xy2x2_y_m16384_n1024_bf16_1_alg».proof.Proof.BodyP11
import proofs.«900094_g7700000000000095_dist_ag_v7x_xy2x2_y_m16384_n1024_bf16_1_alg».proof.Proof.BodyP12

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
omit [FloatOps F] in
theorem frm_n16_2_3_4_5_6_15_u {P : sProp 𝕄} [BI.Persistent P] {S0 S1 S2 S3 S4 S5 S6 S7 S8 S9 S10 S11 S12 S13 S14 S15 : sProp 𝕄} {T2 T3 T4 T5 T6 T15 : sProp 𝕄} {α : Type} {W : sProp 𝕄} {Q : α → sProp 𝕄}
    (h : iprop(P ∗ S2 ∗ S3 ∗ S4 ∗ S5 ∗ S6 ∗ S15 ∗ (∀ r : α, (T2 ∗ T3 ∗ T4 ∗ T5 ∗ T6 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜True⌝ ∗ (S0 ∗ S1 ∗ T2 ∗ T3 ∗ T4 ∗ T5 ∗ T6 ∗ S7 ∗ S8 ∗ S9 ∗ S10 ∗ S11 ∗ S12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H3]; · iexact H3
  isplitl [H4]; · iexact H4
  isplitl [H5]; · iexact H5
  isplitl [H6]; · iexact H6
  isplitl [H15]; · iexact H15
  iintro %r ⟨H2, H3, H4, H5, H6, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_3_15_u {P : sProp 𝕄} [BI.Persistent P] {S0 S1 S2 S3 S4 S5 S6 S7 S8 S9 S10 S11 S12 S13 S14 S15 : sProp 𝕄} {T2 T3 T15 : sProp 𝕄} {α : Type} {W : sProp 𝕄} {Q : α → sProp 𝕄}
    (h : iprop(P ∗ S2 ∗ S3 ∗ S15 ∗ (∀ r : α, (T2 ∗ T3 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜True⌝ ∗ (S0 ∗ S1 ∗ T2 ∗ T3 ∗ S4 ∗ S5 ∗ S6 ∗ S7 ∗ S8 ∗ S9 ∗ S10 ∗ S11 ∗ S12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H3]; · iexact H3
  isplitl [H15]; · iexact H15
  iintro %r ⟨H2, H3, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_3_4_5_6_15_s {P : sProp 𝕄} [BI.Persistent P] {S0 S1 S2 S3 S4 S5 S6 S7 S8 S9 S10 S11 S12 S13 S14 S15 : sProp 𝕄} {T2 T3 T4 T5 T6 T15 : sProp 𝕄} {A B : Type} {W : sProp 𝕄} {Q : (Σ' (_ : A), B) → sProp 𝕄}
    (h : iprop(P ∗ S2 ∗ S3 ∗ S4 ∗ S5 ∗ S6 ∗ S15 ∗ (∀ (a : A) (b : B), (T2 ∗ T3 ∗ T4 ∗ T5 ∗ T6 ∗ T15) -∗ Q ⟨a, b⟩)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : (Σ' (_ : A), B), (⌜True⌝ ∗ (S0 ∗ S1 ∗ T2 ∗ T3 ∗ T4 ∗ T5 ∗ T6 ∗ S7 ∗ S8 ∗ S9 ∗ S10 ∗ S11 ∗ S12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H3]; · iexact H3
  isplitl [H4]; · iexact H4
  isplitl [H5]; · iexact H5
  isplitl [H6]; · iexact H6
  isplitl [H15]; · iexact H15
  iintro %a %b ⟨H2, H3, H4, H5, H6, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_3_4_5_6_15_f {P : sProp 𝕄} [BI.Persistent P] {S0 S1 S2 S3 S4 S5 S6 S7 S8 S9 S10 S11 S12 S13 S14 S15 : sProp 𝕄} {T2 T3 T4 T5 T6 T15 : sProp 𝕄} {α : Type} {Fp : α → Prop} {W : sProp 𝕄} {Q : α → sProp 𝕄}
    (h : iprop(P ∗ S2 ∗ S3 ∗ S4 ∗ S5 ∗ S6 ∗ S15 ∗ (∀ r : α, ⌜Fp r⌝ -∗ (T2 ∗ T3 ∗ T4 ∗ T5 ∗ T6 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜Fp r⌝ ∗ (S0 ∗ S1 ∗ T2 ∗ T3 ∗ T4 ∗ T5 ∗ T6 ∗ S7 ∗ S8 ∗ S9 ∗ S10 ∗ S11 ∗ S12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H3]; · iexact H3
  isplitl [H4]; · iexact H4
  isplitl [H5]; · iexact H5
  isplitl [H6]; · iexact H6
  isplitl [H15]; · iexact H15
  iintro %r %hf ⟨H2, H3, H4, H5, H6, H15⟩
  iapply Hk
  isplitr; · ipureintro; exact hf
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_3_4_5_6_15_sf {P : sProp 𝕄} [BI.Persistent P] {S0 S1 S2 S3 S4 S5 S6 S7 S8 S9 S10 S11 S12 S13 S14 S15 : sProp 𝕄} {T2 T3 T4 T5 T6 T15 : sProp 𝕄} {A B : Type} {Fp : (Σ' (_ : A), B) → Prop} {W : sProp 𝕄} {Q : (Σ' (_ : A), B) → sProp 𝕄}
    (h : iprop(P ∗ S2 ∗ S3 ∗ S4 ∗ S5 ∗ S6 ∗ S15 ∗ (∀ (a : A) (b : B), ⌜Fp ⟨a, b⟩⌝ -∗ (T2 ∗ T3 ∗ T4 ∗ T5 ∗ T6 ∗ T15) -∗ Q ⟨a, b⟩)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : (Σ' (_ : A), B), (⌜Fp r⌝ ∗ (S0 ∗ S1 ∗ T2 ∗ T3 ∗ T4 ∗ T5 ∗ T6 ∗ S7 ∗ S8 ∗ S9 ∗ S10 ∗ S11 ∗ S12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H3]; · iexact H3
  isplitl [H4]; · iexact H4
  isplitl [H5]; · iexact H5
  isplitl [H6]; · iexact H6
  isplitl [H15]; · iexact H15
  iintro %a %b %hf ⟨H2, H3, H4, H5, H6, H15⟩
  iapply Hk
  isplitr; · ipureintro; exact hf
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_3_4_5_6_7_12_15_u {P : sProp 𝕄} [BI.Persistent P] {S0 S1 S2 S3 S4 S5 S6 S7 S8 S9 S10 S11 S12 S13 S14 S15 : sProp 𝕄} {T2 T3 T4 T5 T6 T7 T12 T15 : sProp 𝕄} {α : Type} {W : sProp 𝕄} {Q : α → sProp 𝕄}
    (h : iprop(P ∗ S2 ∗ S3 ∗ S4 ∗ S5 ∗ S6 ∗ S7 ∗ S12 ∗ S15 ∗ (∀ r : α, (T2 ∗ T3 ∗ T4 ∗ T5 ∗ T6 ∗ T7 ∗ T12 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜True⌝ ∗ (S0 ∗ S1 ∗ T2 ∗ T3 ∗ T4 ∗ T5 ∗ T6 ∗ T7 ∗ S8 ∗ S9 ∗ S10 ∗ S11 ∗ T12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H3]; · iexact H3
  isplitl [H4]; · iexact H4
  isplitl [H5]; · iexact H5
  isplitl [H6]; · iexact H6
  isplitl [H7]; · iexact H7
  isplitl [H12]; · iexact H12
  isplitl [H15]; · iexact H15
  iintro %r ⟨H2, H3, H4, H5, H6, H7, H12, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_3_8_9_10_12_15_sf {P : sProp 𝕄} [BI.Persistent P] {S0 S1 S2 S3 S4 S5 S6 S7 S8 S9 S10 S11 S12 S13 S14 S15 : sProp 𝕄} {T2 T3 T8 T9 T10 T12 T15 : sProp 𝕄} {A B : Type} {Fp : (Σ' (_ : A), B) → Prop} {W : sProp 𝕄} {Q : (Σ' (_ : A), B) → sProp 𝕄}
    (h : iprop(P ∗ S2 ∗ S3 ∗ S8 ∗ S9 ∗ S10 ∗ S12 ∗ S15 ∗ (∀ (a : A) (b : B), ⌜Fp ⟨a, b⟩⌝ -∗ (T2 ∗ T3 ∗ T8 ∗ T9 ∗ T10 ∗ T12 ∗ T15) -∗ Q ⟨a, b⟩)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : (Σ' (_ : A), B), (⌜Fp r⌝ ∗ (S0 ∗ S1 ∗ T2 ∗ T3 ∗ S4 ∗ S5 ∗ S6 ∗ S7 ∗ T8 ∗ T9 ∗ T10 ∗ S11 ∗ T12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H3]; · iexact H3
  isplitl [H8]; · iexact H8
  isplitl [H9]; · iexact H9
  isplitl [H10]; · iexact H10
  isplitl [H12]; · iexact H12
  isplitl [H15]; · iexact H15
  iintro %a %b %hf ⟨H2, H3, H8, H9, H10, H12, H15⟩
  iapply Hk
  isplitr; · ipureintro; exact hf
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_3_7_8_9_10_12_15_u {P : sProp 𝕄} [BI.Persistent P] {S0 S1 S2 S3 S4 S5 S6 S7 S8 S9 S10 S11 S12 S13 S14 S15 : sProp 𝕄} {T2 T3 T7 T8 T9 T10 T12 T15 : sProp 𝕄} {α : Type} {W : sProp 𝕄} {Q : α → sProp 𝕄}
    (h : iprop(P ∗ S2 ∗ S3 ∗ S7 ∗ S8 ∗ S9 ∗ S10 ∗ S12 ∗ S15 ∗ (∀ r : α, (T2 ∗ T3 ∗ T7 ∗ T8 ∗ T9 ∗ T10 ∗ T12 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜True⌝ ∗ (S0 ∗ S1 ∗ T2 ∗ T3 ∗ S4 ∗ S5 ∗ S6 ∗ T7 ∗ T8 ∗ T9 ∗ T10 ∗ S11 ∗ T12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H3]; · iexact H3
  isplitl [H7]; · iexact H7
  isplitl [H8]; · iexact H8
  isplitl [H9]; · iexact H9
  isplitl [H10]; · iexact H10
  isplitl [H12]; · iexact H12
  isplitl [H15]; · iexact H15
  iintro %r ⟨H2, H3, H7, H8, H9, H10, H12, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_3_7_12_15_u {P : sProp 𝕄} [BI.Persistent P] {S0 S1 S2 S3 S4 S5 S6 S7 S8 S9 S10 S11 S12 S13 S14 S15 : sProp 𝕄} {T2 T3 T7 T12 T15 : sProp 𝕄} {α : Type} {W : sProp 𝕄} {Q : α → sProp 𝕄}
    (h : iprop(P ∗ S2 ∗ S3 ∗ S7 ∗ S12 ∗ S15 ∗ (∀ r : α, (T2 ∗ T3 ∗ T7 ∗ T12 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜True⌝ ∗ (S0 ∗ S1 ∗ T2 ∗ T3 ∗ S4 ∗ S5 ∗ S6 ∗ T7 ∗ S8 ∗ S9 ∗ S10 ∗ S11 ∗ T12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H3]; · iexact H3
  isplitl [H7]; · iexact H7
  isplitl [H12]; · iexact H12
  isplitl [H15]; · iexact H15
  iintro %r ⟨H2, H3, H7, H12, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_3_7_8_9_10_12_15_s {P : sProp 𝕄} [BI.Persistent P] {S0 S1 S2 S3 S4 S5 S6 S7 S8 S9 S10 S11 S12 S13 S14 S15 : sProp 𝕄} {T2 T3 T7 T8 T9 T10 T12 T15 : sProp 𝕄} {A B : Type} {W : sProp 𝕄} {Q : (Σ' (_ : A), B) → sProp 𝕄}
    (h : iprop(P ∗ S2 ∗ S3 ∗ S7 ∗ S8 ∗ S9 ∗ S10 ∗ S12 ∗ S15 ∗ (∀ (a : A) (b : B), (T2 ∗ T3 ∗ T7 ∗ T8 ∗ T9 ∗ T10 ∗ T12 ∗ T15) -∗ Q ⟨a, b⟩)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : (Σ' (_ : A), B), (⌜True⌝ ∗ (S0 ∗ S1 ∗ T2 ∗ T3 ∗ S4 ∗ S5 ∗ S6 ∗ T7 ∗ T8 ∗ T9 ∗ T10 ∗ S11 ∗ T12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H3]; · iexact H3
  isplitl [H7]; · iexact H7
  isplitl [H8]; · iexact H8
  isplitl [H9]; · iexact H9
  isplitl [H10]; · iexact H10
  isplitl [H12]; · iexact H12
  isplitl [H15]; · iexact H15
  iintro %a %b ⟨H2, H3, H7, H8, H9, H10, H12, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_3_8_9_10_12_15_u {P : sProp 𝕄} [BI.Persistent P] {S0 S1 S2 S3 S4 S5 S6 S7 S8 S9 S10 S11 S12 S13 S14 S15 : sProp 𝕄} {T2 T3 T8 T9 T10 T12 T15 : sProp 𝕄} {α : Type} {W : sProp 𝕄} {Q : α → sProp 𝕄}
    (h : iprop(P ∗ S2 ∗ S3 ∗ S8 ∗ S9 ∗ S10 ∗ S12 ∗ S15 ∗ (∀ r : α, (T2 ∗ T3 ∗ T8 ∗ T9 ∗ T10 ∗ T12 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜True⌝ ∗ (S0 ∗ S1 ∗ T2 ∗ T3 ∗ S4 ∗ S5 ∗ S6 ∗ S7 ∗ T8 ∗ T9 ∗ T10 ∗ S11 ∗ T12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H3]; · iexact H3
  isplitl [H8]; · iexact H8
  isplitl [H9]; · iexact H9
  isplitl [H10]; · iexact H10
  isplitl [H12]; · iexact H12
  isplitl [H15]; · iexact H15
  iintro %r ⟨H2, H3, H8, H9, H10, H12, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_7_8_9_10_12_15_u {P : sProp 𝕄} [BI.Persistent P] {S0 S1 S2 S3 S4 S5 S6 S7 S8 S9 S10 S11 S12 S13 S14 S15 : sProp 𝕄} {T2 T7 T8 T9 T10 T12 T15 : sProp 𝕄} {α : Type} {W : sProp 𝕄} {Q : α → sProp 𝕄}
    (h : iprop(P ∗ S2 ∗ S7 ∗ S8 ∗ S9 ∗ S10 ∗ S12 ∗ S15 ∗ (∀ r : α, (T2 ∗ T7 ∗ T8 ∗ T9 ∗ T10 ∗ T12 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜True⌝ ∗ (S0 ∗ S1 ∗ T2 ∗ S3 ∗ S4 ∗ S5 ∗ S6 ∗ T7 ∗ T8 ∗ T9 ∗ T10 ∗ S11 ∗ T12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H7]; · iexact H7
  isplitl [H8]; · iexact H8
  isplitl [H9]; · iexact H9
  isplitl [H10]; · iexact H10
  isplitl [H12]; · iexact H12
  isplitl [H15]; · iexact H15
  iintro %r ⟨H2, H7, H8, H9, H10, H12, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_3_7_12_15_s {P : sProp 𝕄} [BI.Persistent P] {S0 S1 S2 S3 S4 S5 S6 S7 S8 S9 S10 S11 S12 S13 S14 S15 : sProp 𝕄} {T2 T3 T7 T12 T15 : sProp 𝕄} {A B : Type} {W : sProp 𝕄} {Q : (Σ' (_ : A), B) → sProp 𝕄}
    (h : iprop(P ∗ S2 ∗ S3 ∗ S7 ∗ S12 ∗ S15 ∗ (∀ (a : A) (b : B), (T2 ∗ T3 ∗ T7 ∗ T12 ∗ T15) -∗ Q ⟨a, b⟩)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : (Σ' (_ : A), B), (⌜True⌝ ∗ (S0 ∗ S1 ∗ T2 ∗ T3 ∗ S4 ∗ S5 ∗ S6 ∗ T7 ∗ S8 ∗ S9 ∗ S10 ∗ S11 ∗ T12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H3]; · iexact H3
  isplitl [H7]; · iexact H7
  isplitl [H12]; · iexact H12
  isplitl [H15]; · iexact H15
  iintro %a %b ⟨H2, H3, H7, H12, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_7_8_9_10_12_15_f {P : sProp 𝕄} [BI.Persistent P] {S0 S1 S2 S3 S4 S5 S6 S7 S8 S9 S10 S11 S12 S13 S14 S15 : sProp 𝕄} {T2 T7 T8 T9 T10 T12 T15 : sProp 𝕄} {α : Type} {Fp : α → Prop} {W : sProp 𝕄} {Q : α → sProp 𝕄}
    (h : iprop(P ∗ S2 ∗ S7 ∗ S8 ∗ S9 ∗ S10 ∗ S12 ∗ S15 ∗ (∀ r : α, ⌜Fp r⌝ -∗ (T2 ∗ T7 ∗ T8 ∗ T9 ∗ T10 ∗ T12 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜Fp r⌝ ∗ (S0 ∗ S1 ∗ T2 ∗ S3 ∗ S4 ∗ S5 ∗ S6 ∗ T7 ∗ T8 ∗ T9 ∗ T10 ∗ S11 ∗ T12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H7]; · iexact H7
  isplitl [H8]; · iexact H8
  isplitl [H9]; · iexact H9
  isplitl [H10]; · iexact H10
  isplitl [H12]; · iexact H12
  isplitl [H15]; · iexact H15
  iintro %r %hf ⟨H2, H7, H8, H9, H10, H12, H15⟩
  iapply Hk
  isplitr; · ipureintro; exact hf
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_3_7_8_9_10_12_15_u {P : sProp 𝕄} [BI.Persistent P] {S0 S1 S2 S3 S4 S5 S6 S7 S8 S9 S10 S11 S12 S13 S14 S15 : sProp 𝕄} {T3 T7 T8 T9 T10 T12 T15 : sProp 𝕄} {α : Type} {W : sProp 𝕄} {Q : α → sProp 𝕄}
    (h : iprop(P ∗ S3 ∗ S7 ∗ S8 ∗ S9 ∗ S10 ∗ S12 ∗ S15 ∗ (∀ r : α, (T3 ∗ T7 ∗ T8 ∗ T9 ∗ T10 ∗ T12 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜True⌝ ∗ (S0 ∗ S1 ∗ S2 ∗ T3 ∗ S4 ∗ S5 ∗ S6 ∗ T7 ∗ T8 ∗ T9 ∗ T10 ∗ S11 ∗ T12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H3]; · iexact H3
  isplitl [H7]; · iexact H7
  isplitl [H8]; · iexact H8
  isplitl [H9]; · iexact H9
  isplitl [H10]; · iexact H10
  isplitl [H12]; · iexact H12
  isplitl [H15]; · iexact H15
  iintro %r ⟨H3, H7, H8, H9, H10, H12, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_3_6_8_9_10_12_14_15_u {P : sProp 𝕄} [BI.Persistent P] {S0 S1 S2 S3 S4 S5 S6 S7 S8 S9 S10 S11 S12 S13 S14 S15 : sProp 𝕄} {T2 T3 T6 T8 T9 T10 T12 T14 T15 : sProp 𝕄} {α : Type} {W : sProp 𝕄} {Q : α → sProp 𝕄}
    (h : iprop(P ∗ S2 ∗ S3 ∗ S6 ∗ S8 ∗ S9 ∗ S10 ∗ S12 ∗ S14 ∗ S15 ∗ (∀ r : α, (T2 ∗ T3 ∗ T6 ∗ T8 ∗ T9 ∗ T10 ∗ T12 ∗ T14 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜True⌝ ∗ (S0 ∗ S1 ∗ T2 ∗ T3 ∗ S4 ∗ S5 ∗ T6 ∗ S7 ∗ T8 ∗ T9 ∗ T10 ∗ S11 ∗ T12 ∗ S13 ∗ T14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H3]; · iexact H3
  isplitl [H6]; · iexact H6
  isplitl [H8]; · iexact H8
  isplitl [H9]; · iexact H9
  isplitl [H10]; · iexact H10
  isplitl [H12]; · iexact H12
  isplitl [H14]; · iexact H14
  isplitl [H15]; · iexact H15
  iintro %r ⟨H2, H3, H6, H8, H9, H10, H12, H14, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_3_6_15_u {P : sProp 𝕄} [BI.Persistent P] {S0 S1 S2 S3 S4 S5 S6 S7 S8 S9 S10 S11 S12 S13 S14 S15 : sProp 𝕄} {T3 T6 T15 : sProp 𝕄} {α : Type} {W : sProp 𝕄} {Q : α → sProp 𝕄}
    (h : iprop(P ∗ S3 ∗ S6 ∗ S15 ∗ (∀ r : α, (T3 ∗ T6 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜True⌝ ∗ (S0 ∗ S1 ∗ S2 ∗ T3 ∗ S4 ∗ S5 ∗ T6 ∗ S7 ∗ S8 ∗ S9 ∗ S10 ∗ S11 ∗ S12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H3]; · iexact H3
  isplitl [H6]; · iexact H6
  isplitl [H15]; · iexact H15
  iintro %r ⟨H3, H6, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_3_6_10_12_15_u {P : sProp 𝕄} [BI.Persistent P] {S0 S1 S2 S3 S4 S5 S6 S7 S8 S9 S10 S11 S12 S13 S14 S15 : sProp 𝕄} {T3 T6 T10 T12 T15 : sProp 𝕄} {α : Type} {W : sProp 𝕄} {Q : α → sProp 𝕄}
    (h : iprop(P ∗ S3 ∗ S6 ∗ S10 ∗ S12 ∗ S15 ∗ (∀ r : α, (T3 ∗ T6 ∗ T10 ∗ T12 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜True⌝ ∗ (S0 ∗ S1 ∗ S2 ∗ T3 ∗ S4 ∗ S5 ∗ T6 ∗ S7 ∗ S8 ∗ S9 ∗ T10 ∗ S11 ∗ T12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H3]; · iexact H3
  isplitl [H6]; · iexact H6
  isplitl [H10]; · iexact H10
  isplitl [H12]; · iexact H12
  isplitl [H15]; · iexact H15
  iintro %r ⟨H3, H6, H10, H12, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_10_12_15_u {P : sProp 𝕄} [BI.Persistent P] {S0 S1 S2 S3 S4 S5 S6 S7 S8 S9 S10 S11 S12 S13 S14 S15 : sProp 𝕄} {T10 T12 T15 : sProp 𝕄} {α : Type} {W : sProp 𝕄} {Q : α → sProp 𝕄}
    (h : iprop(P ∗ S10 ∗ S12 ∗ S15 ∗ (∀ r : α, (T10 ∗ T12 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜True⌝ ∗ (S0 ∗ S1 ∗ S2 ∗ S3 ∗ S4 ∗ S5 ∗ S6 ∗ S7 ∗ S8 ∗ S9 ∗ T10 ∗ S11 ∗ T12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H10]; · iexact H10
  isplitl [H12]; · iexact H12
  isplitl [H15]; · iexact H15
  iintro %r ⟨H10, H12, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_11_13_15_u {P : sProp 𝕄} [BI.Persistent P] {S0 S1 S2 S3 S4 S5 S6 S7 S8 S9 S10 S11 S12 S13 S14 S15 : sProp 𝕄} {T11 T13 T15 : sProp 𝕄} {α : Type} {W : sProp 𝕄} {Q : α → sProp 𝕄}
    (h : iprop(P ∗ S11 ∗ S13 ∗ S15 ∗ (∀ r : α, (T11 ∗ T13 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜True⌝ ∗ (S0 ∗ S1 ∗ S2 ∗ S3 ∗ S4 ∗ S5 ∗ S6 ∗ S7 ∗ S8 ∗ S9 ∗ S10 ∗ T11 ∗ S12 ∗ T13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H11]; · iexact H11
  isplitl [H13]; · iexact H13
  isplitl [H15]; · iexact H15
  iintro %r ⟨H11, H13, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_11_13_15_s {P : sProp 𝕄} [BI.Persistent P] {S0 S1 S2 S3 S4 S5 S6 S7 S8 S9 S10 S11 S12 S13 S14 S15 : sProp 𝕄} {T11 T13 T15 : sProp 𝕄} {A B : Type} {W : sProp 𝕄} {Q : (Σ' (_ : A), B) → sProp 𝕄}
    (h : iprop(P ∗ S11 ∗ S13 ∗ S15 ∗ (∀ (a : A) (b : B), (T11 ∗ T13 ∗ T15) -∗ Q ⟨a, b⟩)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : (Σ' (_ : A), B), (⌜True⌝ ∗ (S0 ∗ S1 ∗ S2 ∗ S3 ∗ S4 ∗ S5 ∗ S6 ∗ S7 ∗ S8 ∗ S9 ∗ S10 ∗ T11 ∗ S12 ∗ T13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H11]; · iexact H11
  isplitl [H13]; · iexact H13
  isplitl [H15]; · iexact H15
  iintro %a %b ⟨H11, H13, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem fpart_1 (K : Dev nD × Kind → ℕ) (c : Dev nD) (fv : Buf (Elt F) ((c : Thread nD τ).loc cc0_scratch1)) (fs : Buf (Elt F) ((c : Thread nD τ).loc cc0_scratch0))
      {Q : (Σ' (d0 : Dev nD) (v2 : BitVec 32) (v5 : BitVec 32) (v6 : BitVec 32) (v7 : BitVec 32) (v17 : BitVec 32), BitVec 32) → sProp 𝕄} :
    iprop(Pers m K ∗ (StBar c 0 ∗ StExit c 0 ∗ StLd m c fv 0 0 ∗ StVs m c fs 0 0 0 0 ∗ StYtok c 0 ∗ sendCells (ysendCell c) 0 0 ∗ recvCells (yrecvCell c) 0 ∗ StFtok c 0 ∗ sendCells (xsendCell c) 0 0 ∗ recvCells (xrecvCell c) 0 ∗ StB m c (m ((c : Thread nD τ).loc main_v1)) false 0 0 0 ∗ StC m c (m ((c : Thread nD τ).loc main_v1)) false 0 ∗ StSt m c (m ((c : Thread nD τ).loc main_v1)) 0 ∗ Ow c (owedAt c 0 0 0 0)) ∗ (∀ r : (Σ' (d0 : Dev nD) (v2 : BitVec 32) (v5 : BitVec 32) (v6 : BitVec 32) (v7 : BitVec 32) (v17 : BitVec 32), BitVec 32), (⌜r.1 = c⌝ ∗ (StBar c 3 ∗ StExit c 0 ∗ StLd m c fv 1 0 ∗ StVs m c fs 0 0 0 0 ∗ StYtok c 0 ∗ StYreg c 0 ∗ sendCells (ysendCell c) 0 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 0 0 0))) -∗ Q r))
      ⊢ wp frame (wpE (defs₀ (F := F)) 𝒱₀ (c : Thread nD τ) none) Set.univ (k0_part1 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 ) Q := by
  iintro ⟨#HP, ⟨HBar, HExit, HLd, HVs, HYt, HYs, HYr, HFt, HFs, HXr, HB, HC, HSt, HOw⟩, Hk⟩
  iapply (part_1 (m := m) K c fv fs)
  isplitr; · iexact HP
  isplitl [HBar]; · iexact HBar
  isplitl [HLd]; · iexact HLd
  isplitl [HB]; · iexact HB
  isplitl [HC]; · iexact HC
  isplitl [HOw]; · iexact HOw
  iintro %v2 %v5 %v6 %v7 %v17 %rl ⟨HBar, HLd, HYg, HFg, HB, HC, HOw⟩
  iapply Hk
  isplitr; · ipureintro; rfl
  isplitl [HBar]; · iexact HBar
  isplitl [HExit]; · iexact HExit
  isplitl [HLd]; · iexact HLd
  isplitl [HVs]; · iexact HVs
  isplitl [HYt]; · iexact HYt
  isplitl [HYg]; · iexact HYg
  isplitl [HYs]; · iexact HYs
  isplitl [HYr]; · iexact HYr
  isplitl [HFt]; · iexact HFt
  isplitl [HFg]; · iexact HFg
  isplitl [HFs]; · iexact HFs
  isplitl [HXr]; · iexact HXr
  isplitl [HB]; · iexact HB
  isplitl [HC]; · iexact HC
  isplitl [HSt]; · iexact HSt
  iexact HOw

theorem fpart_2 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (BitVec 32) → sProp 𝕄} :
    iprop(Pers m K ∗ (StBar c 3 ∗ StExit c 0 ∗ StLd m c fv 1 0 ∗ StVs m c fs 0 0 0 0 ∗ StYtok c 0 ∗ StYreg c 0 ∗ sendCells (ysendCell c) 0 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 0 0 0)) ∗ (∀ r : (BitVec 32), (⌜True⌝ ∗ (StBar c 3 ∗ StExit c 0 ∗ StLd m c fv 2 1 ∗ StVs m c fs 0 1 1 0 ∗ StYtok c 1 ∗ StYreg c 1 ∗ sendCells (ysendCell c) 1 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 1 0 0))) -∗ Q r))
      ⊢ wp frame (wpE (defs₀ (F := F)) 𝒱₀ (c : Thread nD τ) none) Set.univ (k0_part2 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q :=
  frm_n16_2_3_4_5_6_15_u (part_2 (m := m) K c fv fs)

theorem fpart_3 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} {c1024_i32 : BitVec 32}  {Q : (PUnit) → sProp 𝕄} :
    iprop(Pers m K ∗ (StBar c 3 ∗ StExit c 0 ∗ StLd m c fv 2 1 ∗ StVs m c fs 0 1 1 0 ∗ StYtok c 1 ∗ StYreg c 1 ∗ sendCells (ysendCell c) 1 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 1 0 0)) ∗ (∀ r : (PUnit), (⌜True⌝ ∗ (StBar c 3 ∗ StExit c 0 ∗ StLd m c fv 3 2 ∗ StVs m c fs 0 2 1 0 ∗ StYtok c 1 ∗ StYreg c 1 ∗ sendCells (ysendCell c) 1 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 1 0 0))) -∗ Q r))
      ⊢ wp frame (wpE (defs₀ (F := F)) 𝒱₀ (c : Thread nD τ) none) Set.univ (k0_part3 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 c1024_i32) Q :=
  frm_n16_2_3_15_u (part_3 (m := m) K c fv fs)

theorem fpart_4 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (PUnit) → sProp 𝕄} :
    iprop(Pers m K ∗ (StBar c 3 ∗ StExit c 0 ∗ StLd m c fv 3 2 ∗ StVs m c fs 0 2 1 0 ∗ StYtok c 1 ∗ StYreg c 1 ∗ sendCells (ysendCell c) 1 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 1 0 0)) ∗ (∀ r : (PUnit), (⌜True⌝ ∗ (StBar c 3 ∗ StExit c 0 ∗ StLd m c fv 4 3 ∗ StVs m c fs 0 3 2 0 ∗ StYtok c 2 ∗ StYreg c 2 ∗ sendCells (ysendCell c) 2 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 2 0 0))) -∗ Q r))
      ⊢ wp frame (wpE (defs₀ (F := F)) 𝒱₀ (c : Thread nD τ) none) Set.univ (k0_part4 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q :=
  frm_n16_2_3_4_5_6_15_u (part_4 (m := m) K c fv fs)

theorem fpart_5 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (PUnit) → sProp 𝕄} :
    iprop(Pers m K ∗ (StBar c 3 ∗ StExit c 0 ∗ StLd m c fv 4 3 ∗ StVs m c fs 0 3 2 0 ∗ StYtok c 2 ∗ StYreg c 2 ∗ sendCells (ysendCell c) 2 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 2 0 0)) ∗ (∀ r : (PUnit), (⌜True⌝ ∗ (StBar c 3 ∗ StExit c 0 ∗ StLd m c fv 5 4 ∗ StVs m c fs 0 4 3 0 ∗ StYtok c 3 ∗ StYreg c 3 ∗ sendCells (ysendCell c) 3 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 3 0 0))) -∗ Q r))
      ⊢ wp frame (wpE (defs₀ (F := F)) 𝒱₀ (c : Thread nD τ) none) Set.univ (k0_part5 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q :=
  frm_n16_2_3_4_5_6_15_u (part_5 (m := m) K c fv fs)

theorem fpart_6 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v17 : BitVec 32}  {Q : (Σ' (v182 : BitVec 32), BitVec 32) → sProp 𝕄} :
    iprop(Pers m K ∗ (StBar c 3 ∗ StExit c 0 ∗ StLd m c fv 5 4 ∗ StVs m c fs 0 4 3 0 ∗ StYtok c 3 ∗ StYreg c 3 ∗ sendCells (ysendCell c) 3 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 3 0 0)) ∗ (∀ r : (Σ' (v182 : BitVec 32), BitVec 32), (⌜True⌝ ∗ (StBar c 3 ∗ StExit c 0 ∗ StLd m c fv 6 5 ∗ StVs m c fs 0 5 4 0 ∗ StYtok c 4 ∗ StYreg c 4 ∗ sendCells (ysendCell c) 4 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 4 0 0))) -∗ Q r))
      ⊢ wp frame (wpE (defs₀ (F := F)) 𝒱₀ (c : Thread nD τ) none) Set.univ (k0_part6 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v17) Q :=
  frm_n16_2_3_4_5_6_15_s (part_6 (m := m) K c fv fs)

theorem fpart_7 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} {v182 : BitVec 32} {c1_i32_137 : BitVec 32}  {Q : (BitVec 32) → sProp 𝕄} :
    iprop(Pers m K ∗ (StBar c 3 ∗ StExit c 0 ∗ StLd m c fv 6 5 ∗ StVs m c fs 0 5 4 0 ∗ StYtok c 4 ∗ StYreg c 4 ∗ sendCells (ysendCell c) 4 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 4 0 0)) ∗ (∀ r : (BitVec 32), (⌜True⌝ ∗ (StBar c 3 ∗ StExit c 0 ∗ StLd m c fv 7 6 ∗ StVs m c fs 0 6 5 0 ∗ StYtok c 5 ∗ StYreg c 5 ∗ sendCells (ysendCell c) 5 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 5 0 0))) -∗ Q r))
      ⊢ wp frame (wpE (defs₀ (F := F)) 𝒱₀ (c : Thread nD τ) none) Set.univ (k0_part7 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v182 c1_i32_137) Q :=
  frm_n16_2_3_4_5_6_15_u (part_7 (m := m) K c fv fs)

theorem fpart_8 (K : Dev nD × Kind → ℕ) (c : Dev nD) (fv : Buf (Elt F) ((c : Thread nD τ).loc cc0_scratch1)) (fs : Buf (Elt F) ((c : Thread nD τ).loc cc0_scratch0))
    {v5 : BitVec 32} {v6 : BitVec 32} {v17 : BitVec 32} {v214 : BitVec 32}  {Q : (PUnit) → sProp 𝕄} :
    iprop(Pers m K ∗ (StBar c 3 ∗ StExit c 0 ∗ StLd m c fv 7 6 ∗ StVs m c fs 0 6 5 0 ∗ StYtok c 5 ∗ StYreg c 5 ∗ sendCells (ysendCell c) 5 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 5 0 0)) ∗ (∀ r : (PUnit), (⌜True⌝ ∗ (StBar c 3 ∗ StExit c 0 ∗ StLd m c fv 8 7 ∗ StVs m c fs 0 7 6 0 ∗ StYtok c 6 ∗ StYreg c 6 ∗ sendCells (ysendCell c) 6 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 6 0 0))) -∗ Q r))
      ⊢ wp frame (wpE (defs₀ (F := F)) 𝒱₀ (c : Thread nD τ) none) Set.univ (k0_part8 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v6 v17 v214) Q :=
  frm_n16_2_3_4_5_6_15_u (part_8 (m := m) K c fv fs)

theorem fpart_9 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (BitVec 32) → sProp 𝕄} :
    iprop(Pers m K ∗ (StBar c 3 ∗ StExit c 0 ∗ StLd m c fv 8 7 ∗ StVs m c fs 0 7 6 0 ∗ StYtok c 6 ∗ StYreg c 6 ∗ sendCells (ysendCell c) 6 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 6 0 0)) ∗ (∀ r : (BitVec 32), (⌜True⌝ ∗ (StBar c 3 ∗ StExit c 0 ∗ StLd m c fv 9 8 ∗ StVs m c fs 0 8 7 0 ∗ StYtok c 7 ∗ StYreg c 7 ∗ sendCells (ysendCell c) 7 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 7 0 0))) -∗ Q r))
      ⊢ wp frame (wpE (defs₀ (F := F)) 𝒱₀ (c : Thread nD τ) none) Set.univ (k0_part9 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q :=
  frm_n16_2_3_4_5_6_15_u (part_9 (m := m) K c fv fs)

theorem fpart_10 (K : Dev nD × Kind → ℕ) (c : Dev nD) (fv : Buf (Elt F) ((c : Thread nD τ).loc cc0_scratch1)) (fs : Buf (Elt F) ((c : Thread nD τ).loc cc0_scratch0))
    {v2 : BitVec 32} {v6 : BitVec 32} {v17 : BitVec 32} {v278 : BitVec 32}  {Q : (PUnit) → sProp 𝕄} :
    iprop(Pers m K ∗ (StBar c 3 ∗ StExit c 0 ∗ StLd m c fv 9 8 ∗ StVs m c fs 0 8 7 0 ∗ StYtok c 7 ∗ StYreg c 7 ∗ sendCells (ysendCell c) 7 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 7 0 0)) ∗ (∀ r : (PUnit), (⌜True⌝ ∗ (StBar c 3 ∗ StExit c 0 ∗ StLd m c fv 10 9 ∗ StVs m c fs 0 9 8 0 ∗ StYtok c 8 ∗ StYreg c 8 ∗ sendCells (ysendCell c) 8 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 8 0 0))) -∗ Q r))
      ⊢ wp frame (wpE (defs₀ (F := F)) 𝒱₀ (c : Thread nD τ) none) Set.univ (k0_part10 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v6 v17 v278) Q :=
  frm_n16_2_3_4_5_6_15_u (part_10 (m := m) K c fv fs)

theorem fpart_11 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (FVec F S512x1024 .bf16) → sProp 𝕄} :
    iprop(Pers m K ∗ (StBar c 3 ∗ StExit c 0 ∗ StLd m c fv 10 9 ∗ StVs m c fs 0 9 8 0 ∗ StYtok c 8 ∗ StYreg c 8 ∗ sendCells (ysendCell c) 8 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 8 0 0)) ∗ (∀ r : (FVec F S512x1024 .bf16), (⌜r = pay (slotVal m c (9 : Fin 32))⌝ ∗ (StBar c 3 ∗ StExit c 0 ∗ StLd m c fv 11 10 ∗ StVs m c fs 0 9 9 0 ∗ StYtok c 9 ∗ StYreg c 9 ∗ sendCells (ysendCell c) 9 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 9 0 0))) -∗ Q r))
      ⊢ wp frame (wpE (defs₀ (F := F)) 𝒱₀ (c : Thread nD τ) none) Set.univ (k0_part11 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q :=
  frm_n16_2_3_4_5_6_15_f (part_11 (m := m) K c fv fs)

theorem fpart_12 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} (v341 : FVec F S512x1024 .bf16) (hw : v341 = pay (slotVal m c (9 : Fin 32))) {Q : (FVec F S512x1024 .bf16) → sProp 𝕄} :
    iprop(Pers m K ∗ (StBar c 3 ∗ StExit c 0 ∗ StLd m c fv 11 10 ∗ StVs m c fs 0 9 9 0 ∗ StYtok c 9 ∗ StYreg c 9 ∗ sendCells (ysendCell c) 9 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 9 0 0)) ∗ (∀ r : (FVec F S512x1024 .bf16), (⌜(k0_pay12 r) = pay (slotVal m c (10 : Fin 32))⌝ ∗ (StBar c 3 ∗ StExit c 0 ∗ StLd m c fv 12 11 ∗ StVs m c fs 0 10 10 0 ∗ StYtok c 10 ∗ StYreg c 10 ∗ sendCells (ysendCell c) 10 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 10 0 0))) -∗ Q r))
      ⊢ wp frame (wpE (defs₀ (F := F)) 𝒱₀ (c : Thread nD τ) none) Set.univ (k0_part12 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v341) Q :=
  frm_n16_2_3_4_5_6_15_f (part_12 (m := m) K c fv fs v341 hw)

theorem fpart_13 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} (v369 : FVec F S512x1024 .bf16) (hw : (k0_pay12 v369) = pay (slotVal m c (10 : Fin 32))) {Q : (Σ' (v402 : FVec F S512x1024 .bf16), BitVec 32) → sProp 𝕄} :
    iprop(Pers m K ∗ (StBar c 3 ∗ StExit c 0 ∗ StLd m c fv 12 11 ∗ StVs m c fs 0 10 10 0 ∗ StYtok c 10 ∗ StYreg c 10 ∗ sendCells (ysendCell c) 10 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 10 0 0)) ∗ (∀ r : (Σ' (v402 : FVec F S512x1024 .bf16), BitVec 32), (⌜(k0_pay14 r.1) = pay (slotVal m c (11 : Fin 32))⌝ ∗ (StBar c 3 ∗ StExit c 0 ∗ StLd m c fv 13 12 ∗ StVs m c fs 0 11 11 0 ∗ StYtok c 11 ∗ StYreg c 11 ∗ sendCells (ysendCell c) 11 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 11 0 0))) -∗ Q r))
      ⊢ wp frame (wpE (defs₀ (F := F)) 𝒱₀ (c : Thread nD τ) none) Set.univ (k0_part13 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v369) Q :=
  frm_n16_2_3_4_5_6_15_sf (part_13 (m := m) K c fv fs v369 hw)

theorem fpart_14 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} {c5632_i32_297 : BitVec 32} (v402 : FVec F S512x1024 .bf16) (hw : (k0_pay14 v402) = pay (slotVal m c (11 : Fin 32))) {Q : (Vec F S1x512x1024 .f32) → sProp 𝕄} :
    iprop(Pers m K ∗ (StBar c 3 ∗ StExit c 0 ∗ StLd m c fv 13 12 ∗ StVs m c fs 0 11 11 0 ∗ StYtok c 11 ∗ StYreg c 11 ∗ sendCells (ysendCell c) 11 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 11 0 0)) ∗ (∀ r : (Vec F S1x512x1024 .f32), (⌜(k0_pay15 r) = pay (slotVal m c (12 : Fin 32))⌝ ∗ (StBar c 3 ∗ StExit c 0 ∗ StLd m c fv 14 13 ∗ StVs m c fs 0 12 12 0 ∗ StYtok c 12 ∗ StYreg c 12 ∗ sendCells (ysendCell c) 12 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 12 0 0))) -∗ Q r))
      ⊢ wp frame (wpE (defs₀ (F := F)) 𝒱₀ (c : Thread nD τ) none) Set.univ (k0_part14 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v402 c5632_i32_297) Q :=
  frm_n16_2_3_4_5_6_15_f (part_14 (m := m) K c fv fs v402 hw)

theorem fpart_15 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} (v433 : Vec F S1x512x1024 .f32) (hw : (k0_pay15 v433) = pay (slotVal m c (12 : Fin 32))) {Q : (PUnit) → sProp 𝕄} :
    iprop(Pers m K ∗ (StBar c 3 ∗ StExit c 0 ∗ StLd m c fv 14 13 ∗ StVs m c fs 0 12 12 0 ∗ StYtok c 12 ∗ StYreg c 12 ∗ sendCells (ysendCell c) 12 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 12 0 0)) ∗ (∀ r : (PUnit), (⌜True⌝ ∗ (StBar c 3 ∗ StExit c 0 ∗ StLd m c fv 15 14 ∗ StVs m c fs 0 13 13 0 ∗ StYtok c 13 ∗ StYreg c 13 ∗ sendCells (ysendCell c) 13 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 13 0 0))) -∗ Q r))
      ⊢ wp frame (wpE (defs₀ (F := F)) 𝒱₀ (c : Thread nD τ) none) Set.univ (k0_part15 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v433) Q :=
  frm_n16_2_3_4_5_6_15_u (part_15 (m := m) K c fv fs v433 hw)

theorem fpart_16 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (PUnit) → sProp 𝕄} :
    iprop(Pers m K ∗ (StBar c 3 ∗ StExit c 0 ∗ StLd m c fv 15 14 ∗ StVs m c fs 0 13 13 0 ∗ StYtok c 13 ∗ StYreg c 13 ∗ sendCells (ysendCell c) 13 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 13 0 0)) ∗ (∀ r : (PUnit), (⌜True⌝ ∗ (StBar c 3 ∗ StExit c 0 ∗ StLd m c fv 16 14 ∗ StVs m c fs 0 14 14 0 ∗ StYtok c 14 ∗ StYreg c 14 ∗ sendCells (ysendCell c) 14 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 14 0 0))) -∗ Q r))
      ⊢ wp frame (wpE (defs₀ (F := F)) 𝒱₀ (c : Thread nD τ) none) Set.univ (k0_part16 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q :=
  frm_n16_2_3_4_5_6_15_u (part_16 (m := m) K c fv fs)

theorem fpart_17 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} {v19 : BitVec 32}  {Q : (PUnit) → sProp 𝕄} :
    iprop(Pers m K ∗ (StBar c 3 ∗ StExit c 0 ∗ StLd m c fv 16 14 ∗ StVs m c fs 0 14 14 0 ∗ StYtok c 14 ∗ StYreg c 14 ∗ sendCells (ysendCell c) 14 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 14 0 0)) ∗ (∀ r : (PUnit), (⌜True⌝ ∗ (StBar c 3 ∗ StExit c 0 ∗ StLd m c fv 17 15 ∗ StVs m c fs 0 15 15 0 ∗ StYtok c 15 ∗ StYreg c 15 ∗ sendCells (ysendCell c) 15 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 15 0 0))) -∗ Q r))
      ⊢ wp frame (wpE (defs₀ (F := F)) 𝒱₀ (c : Thread nD τ) none) Set.univ (k0_part17 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v19) Q :=
  frm_n16_2_3_4_5_6_15_u (part_17 (m := m) K c fv fs)

theorem fpart_18 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (PUnit) → sProp 𝕄} :
    iprop(Pers m K ∗ (StBar c 3 ∗ StExit c 0 ∗ StLd m c fv 17 15 ∗ StVs m c fs 0 15 15 0 ∗ StYtok c 15 ∗ StYreg c 15 ∗ sendCells (ysendCell c) 15 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 15 0 0)) ∗ (∀ r : (PUnit), (⌜True⌝ ∗ (StBar c 3 ∗ StExit c 0 ∗ StLd m c fv 17 16 ∗ StVs m c fs 0 16 16 0 ∗ StYtok c 16 ∗ StYreg c 16 ∗ sendCells (ysendCell c) 16 0 ∗ recvCells (yrecvCell c) 1 ∗ StFtok c 0 ∗ StFreg c 0 ∗ sendCells (xsendCell c) 0 0 ∗ recvCells (xrecvCell c) 0 ∗ StB m c (m ((c : Thread nD τ).loc main_v1)) true 1 0 0 ∗ StC m c (m ((c : Thread nD τ).loc main_v1)) true 0 ∗ StSt m c (m ((c : Thread nD τ).loc main_v1)) 0 ∗ Ow c (owedAt c 2 16 0 0))) -∗ Q r))
      ⊢ wp frame (wpE (defs₀ (F := F)) 𝒱₀ (c : Thread nD τ) none) Set.univ (k0_part18 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q :=
  frm_n16_2_3_4_5_6_7_12_15_u (part_18 (m := m) K c fv fs)

theorem fpart_19 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32} {v17 : BitVec 32} {v19 : BitVec 32}  {Q : (Σ' (v589 : FVec F S512x1024 .bf16), Vec F S512x1024 .bf16) → sProp 𝕄} :
    iprop(Pers m K ∗ (StBar c 3 ∗ StExit c 0 ∗ StLd m c fv 17 16 ∗ StVs m c fs 0 16 16 0 ∗ StYtok c 16 ∗ StYreg c 16 ∗ sendCells (ysendCell c) 16 0 ∗ recvCells (yrecvCell c) 1 ∗ StFtok c 0 ∗ StFreg c 0 ∗ sendCells (xsendCell c) 0 0 ∗ recvCells (xrecvCell c) 0 ∗ StB m c (m ((c : Thread nD τ).loc main_v1)) true 1 0 0 ∗ StC m c (m ((c : Thread nD τ).loc main_v1)) true 0 ∗ StSt m c (m ((c : Thread nD τ).loc main_v1)) 0 ∗ Ow c (owedAt c 2 16 0 0)) ∗ (∀ r : (Σ' (v589 : FVec F S512x1024 .bf16), Vec F S512x1024 .bf16), (⌜(k0_pay20 r.1) = pay (slotVal m c (16 : Fin 32))⌝ ∗ (StBar c 3 ∗ StExit c 0 ∗ StLd m c fv 18 17 ∗ StVs m c fs 0 16 16 0 ∗ StYtok c 16 ∗ StYreg c 16 ∗ sendCells (ysendCell c) 16 0 ∗ recvCells (yrecvCell c) 1 ∗ StFtok c 1 ∗ StFreg c 1 ∗ sendCells (xsendCell c) 1 0 ∗ recvCells (xrecvCell c) 0 ∗ StB m c (m ((c : Thread nD τ).loc main_v1)) true 1 1 0 ∗ StC m c (m ((c : Thread nD τ).loc main_v1)) true 0 ∗ StSt m c (m ((c : Thread nD τ).loc main_v1)) 0 ∗ Ow c (owedAt c 2 16 1 0))) -∗ Q r))
      ⊢ wp frame (wpE (defs₀ (F := F)) 𝒱₀ (c : Thread nD τ) none) Set.univ (k0_part19 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7 v17 v19) Q :=
  frm_n16_2_3_8_9_10_12_15_sf (part_19 (m := m) K c fv fs)

theorem fpart_20 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32} (v589 : FVec F S512x1024 .bf16) (v592 : Vec F S512x1024 .bf16) (hw : (k0_pay20 v589) = pay (slotVal m c (16 : Fin 32))) {Q : (PUnit) → sProp 𝕄} :
    iprop(Pers m K ∗ (StBar c 3 ∗ StExit c 0 ∗ StLd m c fv 18 17 ∗ StVs m c fs 0 16 16 0 ∗ StYtok c 16 ∗ StYreg c 16 ∗ sendCells (ysendCell c) 16 0 ∗ recvCells (yrecvCell c) 1 ∗ StFtok c 1 ∗ StFreg c 1 ∗ sendCells (xsendCell c) 1 0 ∗ recvCells (xrecvCell c) 0 ∗ StB m c (m ((c : Thread nD τ).loc main_v1)) true 1 1 0 ∗ StC m c (m ((c : Thread nD τ).loc main_v1)) true 0 ∗ StSt m c (m ((c : Thread nD τ).loc main_v1)) 0 ∗ Ow c (owedAt c 2 16 1 0)) ∗ (∀ r : (PUnit), (⌜True⌝ ∗ (StBar c 3 ∗ StExit c 0 ∗ StLd m c fv 19 17 ∗ StVs m c fs 0 17 16 0 ∗ StYtok c 16 ∗ StYreg c 16 ∗ sendCells (ysendCell c) 16 0 ∗ recvCells (yrecvCell c) 2 ∗ StFtok c 2 ∗ StFreg c 2 ∗ sendCells (xsendCell c) 2 0 ∗ recvCells (xrecvCell c) 0 ∗ StB m c (m ((c : Thread nD τ).loc main_v1)) true 2 2 0 ∗ StC m c (m ((c : Thread nD τ).loc main_v1)) true 0 ∗ StSt m c (m ((c : Thread nD τ).loc main_v1)) 0 ∗ Ow c (owedAt c 2 16 2 0))) -∗ Q r))
      ⊢ wp frame (wpE (defs₀ (F := F)) 𝒱₀ (c : Thread nD τ) none) Set.univ (k0_part20 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19 v589 v592) Q :=
  frm_n16_2_3_7_8_9_10_12_15_u (part_20 (m := m) K c fv fs v589 v592 hw)

theorem fpart_21 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (PUnit) → sProp 𝕄} :
    iprop(Pers m K ∗ (StBar c 3 ∗ StExit c 0 ∗ StLd m c fv 19 17 ∗ StVs m c fs 0 17 16 0 ∗ StYtok c 16 ∗ StYreg c 16 ∗ sendCells (ysendCell c) 16 0 ∗ recvCells (yrecvCell c) 2 ∗ StFtok c 2 ∗ StFreg c 2 ∗ sendCells (xsendCell c) 2 0 ∗ recvCells (xrecvCell c) 0 ∗ StB m c (m ((c : Thread nD τ).loc main_v1)) true 2 2 0 ∗ StC m c (m ((c : Thread nD τ).loc main_v1)) true 0 ∗ StSt m c (m ((c : Thread nD τ).loc main_v1)) 0 ∗ Ow c (owedAt c 2 16 2 0)) ∗ (∀ r : (PUnit), (⌜True⌝ ∗ (StBar c 3 ∗ StExit c 0 ∗ StLd m c fv 19 18 ∗ StVs m c fs 0 18 16 0 ∗ StYtok c 16 ∗ StYreg c 16 ∗ sendCells (ysendCell c) 16 0 ∗ recvCells (yrecvCell c) 3 ∗ StFtok c 2 ∗ StFreg c 2 ∗ sendCells (xsendCell c) 2 0 ∗ recvCells (xrecvCell c) 0 ∗ StB m c (m ((c : Thread nD τ).loc main_v1)) true 3 2 0 ∗ StC m c (m ((c : Thread nD τ).loc main_v1)) true 0 ∗ StSt m c (m ((c : Thread nD τ).loc main_v1)) 0 ∗ Ow c (owedAt c 2 16 2 0))) -∗ Q r))
      ⊢ wp frame (wpE (defs₀ (F := F)) 𝒱₀ (c : Thread nD τ) none) Set.univ (k0_part21 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q :=
  frm_n16_2_3_7_12_15_u (part_21 (m := m) K c fv fs)

theorem fpart_22 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v19 : BitVec 32}  {Q : (Σ' (v685 : BitVec 32), BitVec 32) → sProp 𝕄} :
    iprop(Pers m K ∗ (StBar c 3 ∗ StExit c 0 ∗ StLd m c fv 19 18 ∗ StVs m c fs 0 18 16 0 ∗ StYtok c 16 ∗ StYreg c 16 ∗ sendCells (ysendCell c) 16 0 ∗ recvCells (yrecvCell c) 3 ∗ StFtok c 2 ∗ StFreg c 2 ∗ sendCells (xsendCell c) 2 0 ∗ recvCells (xrecvCell c) 0 ∗ StB m c (m ((c : Thread nD τ).loc main_v1)) true 3 2 0 ∗ StC m c (m ((c : Thread nD τ).loc main_v1)) true 0 ∗ StSt m c (m ((c : Thread nD τ).loc main_v1)) 0 ∗ Ow c (owedAt c 2 16 2 0)) ∗ (∀ r : (Σ' (v685 : BitVec 32), BitVec 32), (⌜True⌝ ∗ (StBar c 3 ∗ StExit c 0 ∗ StLd m c fv 20 19 ∗ StVs m c fs 0 19 16 0 ∗ StYtok c 16 ∗ StYreg c 16 ∗ sendCells (ysendCell c) 16 0 ∗ recvCells (yrecvCell c) 4 ∗ StFtok c 3 ∗ StFreg c 3 ∗ sendCells (xsendCell c) 3 0 ∗ recvCells (xrecvCell c) 0 ∗ StB m c (m ((c : Thread nD τ).loc main_v1)) true 4 3 0 ∗ StC m c (m ((c : Thread nD τ).loc main_v1)) true 0 ∗ StSt m c (m ((c : Thread nD τ).loc main_v1)) 0 ∗ Ow c (owedAt c 2 16 3 0))) -∗ Q r))
      ⊢ wp frame (wpE (defs₀ (F := F)) 𝒱₀ (c : Thread nD τ) none) Set.univ (k0_part22 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v19) Q :=
  frm_n16_2_3_7_8_9_10_12_15_s (part_22 (m := m) K c fv fs)

theorem fpart_23 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32} {v17 : BitVec 32} {v19 : BitVec 32} {v685 : BitVec 32} {c16384_i32_512 : BitVec 32}  {Q : (PUnit) → sProp 𝕄} :
    iprop(Pers m K ∗ (StBar c 3 ∗ StExit c 0 ∗ StLd m c fv 20 19 ∗ StVs m c fs 0 19 16 0 ∗ StYtok c 16 ∗ StYreg c 16 ∗ sendCells (ysendCell c) 16 0 ∗ recvCells (yrecvCell c) 4 ∗ StFtok c 3 ∗ StFreg c 3 ∗ sendCells (xsendCell c) 3 0 ∗ recvCells (xrecvCell c) 0 ∗ StB m c (m ((c : Thread nD τ).loc main_v1)) true 4 3 0 ∗ StC m c (m ((c : Thread nD τ).loc main_v1)) true 0 ∗ StSt m c (m ((c : Thread nD τ).loc main_v1)) 0 ∗ Ow c (owedAt c 2 16 3 0)) ∗ (∀ r : (PUnit), (⌜True⌝ ∗ (StBar c 3 ∗ StExit c 0 ∗ StLd m c fv 21 20 ∗ StVs m c fs 0 20 16 0 ∗ StYtok c 16 ∗ StYreg c 16 ∗ sendCells (ysendCell c) 16 0 ∗ recvCells (yrecvCell c) 4 ∗ StFtok c 4 ∗ StFreg c 4 ∗ sendCells (xsendCell c) 4 0 ∗ recvCells (xrecvCell c) 0 ∗ StB m c (m ((c : Thread nD τ).loc main_v1)) true 4 4 0 ∗ StC m c (m ((c : Thread nD τ).loc main_v1)) true 0 ∗ StSt m c (m ((c : Thread nD τ).loc main_v1)) 0 ∗ Ow c (owedAt c 2 16 4 0))) -∗ Q r))
      ⊢ wp frame (wpE (defs₀ (F := F)) 𝒱₀ (c : Thread nD τ) none) Set.univ (k0_part23 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7 v17 v19 v685 c16384_i32_512) Q :=
  frm_n16_2_3_8_9_10_12_15_u (part_23 (m := m) K c fv fs)

theorem fpart_24 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (PUnit) → sProp 𝕄} :
    iprop(Pers m K ∗ (StBar c 3 ∗ StExit c 0 ∗ StLd m c fv 21 20 ∗ StVs m c fs 0 20 16 0 ∗ StYtok c 16 ∗ StYreg c 16 ∗ sendCells (ysendCell c) 16 0 ∗ recvCells (yrecvCell c) 4 ∗ StFtok c 4 ∗ StFreg c 4 ∗ sendCells (xsendCell c) 4 0 ∗ recvCells (xrecvCell c) 0 ∗ StB m c (m ((c : Thread nD τ).loc main_v1)) true 4 4 0 ∗ StC m c (m ((c : Thread nD τ).loc main_v1)) true 0 ∗ StSt m c (m ((c : Thread nD τ).loc main_v1)) 0 ∗ Ow c (owedAt c 2 16 4 0)) ∗ (∀ r : (PUnit), (⌜True⌝ ∗ (StBar c 3 ∗ StExit c 0 ∗ StLd m c fv 22 20 ∗ StVs m c fs 0 20 16 0 ∗ StYtok c 16 ∗ StYreg c 16 ∗ sendCells (ysendCell c) 16 0 ∗ recvCells (yrecvCell c) 5 ∗ StFtok c 5 ∗ StFreg c 5 ∗ sendCells (xsendCell c) 5 0 ∗ recvCells (xrecvCell c) 0 ∗ StB m c (m ((c : Thread nD τ).loc main_v1)) true 5 5 0 ∗ StC m c (m ((c : Thread nD τ).loc main_v1)) true 0 ∗ StSt m c (m ((c : Thread nD τ).loc main_v1)) 0 ∗ Ow c (owedAt c 2 16 5 0))) -∗ Q r))
      ⊢ wp frame (wpE (defs₀ (F := F)) 𝒱₀ (c : Thread nD τ) none) Set.univ (k0_part24 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q :=
  frm_n16_2_7_8_9_10_12_15_u (part_24 (m := m) K c fv fs)

theorem fpart_25 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (PUnit) → sProp 𝕄} :
    iprop(Pers m K ∗ (StBar c 3 ∗ StExit c 0 ∗ StLd m c fv 22 20 ∗ StVs m c fs 0 20 16 0 ∗ StYtok c 16 ∗ StYreg c 16 ∗ sendCells (ysendCell c) 16 0 ∗ recvCells (yrecvCell c) 5 ∗ StFtok c 5 ∗ StFreg c 5 ∗ sendCells (xsendCell c) 5 0 ∗ recvCells (xrecvCell c) 0 ∗ StB m c (m ((c : Thread nD τ).loc main_v1)) true 5 5 0 ∗ StC m c (m ((c : Thread nD τ).loc main_v1)) true 0 ∗ StSt m c (m ((c : Thread nD τ).loc main_v1)) 0 ∗ Ow c (owedAt c 2 16 5 0)) ∗ (∀ r : (PUnit), (⌜True⌝ ∗ (StBar c 3 ∗ StExit c 0 ∗ StLd m c fv 22 21 ∗ StVs m c fs 0 21 16 0 ∗ StYtok c 16 ∗ StYreg c 16 ∗ sendCells (ysendCell c) 16 0 ∗ recvCells (yrecvCell c) 6 ∗ StFtok c 6 ∗ StFreg c 6 ∗ sendCells (xsendCell c) 6 0 ∗ recvCells (xrecvCell c) 0 ∗ StB m c (m ((c : Thread nD τ).loc main_v1)) true 6 6 0 ∗ StC m c (m ((c : Thread nD τ).loc main_v1)) true 0 ∗ StSt m c (m ((c : Thread nD τ).loc main_v1)) 0 ∗ Ow c (owedAt c 2 16 6 0))) -∗ Q r))
      ⊢ wp frame (wpE (defs₀ (F := F)) 𝒱₀ (c : Thread nD τ) none) Set.univ (k0_part25 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q :=
  frm_n16_2_3_7_8_9_10_12_15_u (part_25 (m := m) K c fv fs)

theorem fpart_26 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} {v19 : BitVec 32}  {Q : (Σ' (v810 : BitVec 32), BitVec 32) → sProp 𝕄} :
    iprop(Pers m K ∗ (StBar c 3 ∗ StExit c 0 ∗ StLd m c fv 22 21 ∗ StVs m c fs 0 21 16 0 ∗ StYtok c 16 ∗ StYreg c 16 ∗ sendCells (ysendCell c) 16 0 ∗ recvCells (yrecvCell c) 6 ∗ StFtok c 6 ∗ StFreg c 6 ∗ sendCells (xsendCell c) 6 0 ∗ recvCells (xrecvCell c) 0 ∗ StB m c (m ((c : Thread nD τ).loc main_v1)) true 6 6 0 ∗ StC m c (m ((c : Thread nD τ).loc main_v1)) true 0 ∗ StSt m c (m ((c : Thread nD τ).loc main_v1)) 0 ∗ Ow c (owedAt c 2 16 6 0)) ∗ (∀ r : (Σ' (v810 : BitVec 32), BitVec 32), (⌜True⌝ ∗ (StBar c 3 ∗ StExit c 0 ∗ StLd m c fv 23 22 ∗ StVs m c fs 0 22 16 0 ∗ StYtok c 16 ∗ StYreg c 16 ∗ sendCells (ysendCell c) 16 0 ∗ recvCells (yrecvCell c) 7 ∗ StFtok c 6 ∗ StFreg c 6 ∗ sendCells (xsendCell c) 6 0 ∗ recvCells (xrecvCell c) 0 ∗ StB m c (m ((c : Thread nD τ).loc main_v1)) true 7 6 0 ∗ StC m c (m ((c : Thread nD τ).loc main_v1)) true 0 ∗ StSt m c (m ((c : Thread nD τ).loc main_v1)) 0 ∗ Ow c (owedAt c 2 16 6 0))) -∗ Q r))
      ⊢ wp frame (wpE (defs₀ (F := F)) 𝒱₀ (c : Thread nD τ) none) Set.univ (k0_part26 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v19) Q :=
  frm_n16_2_3_7_12_15_s (part_26 (m := m) K c fv fs)

theorem fpart_27 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32} {v19 : BitVec 32} {v810 : BitVec 32} {c3072_i32_612 : BitVec 32}  {Q : (BitVec 32) → sProp 𝕄} :
    iprop(Pers m K ∗ (StBar c 3 ∗ StExit c 0 ∗ StLd m c fv 23 22 ∗ StVs m c fs 0 22 16 0 ∗ StYtok c 16 ∗ StYreg c 16 ∗ sendCells (ysendCell c) 16 0 ∗ recvCells (yrecvCell c) 7 ∗ StFtok c 6 ∗ StFreg c 6 ∗ sendCells (xsendCell c) 6 0 ∗ recvCells (xrecvCell c) 0 ∗ StB m c (m ((c : Thread nD τ).loc main_v1)) true 7 6 0 ∗ StC m c (m ((c : Thread nD τ).loc main_v1)) true 0 ∗ StSt m c (m ((c : Thread nD τ).loc main_v1)) 0 ∗ Ow c (owedAt c 2 16 6 0)) ∗ (∀ r : (BitVec 32), (⌜True⌝ ∗ (StBar c 3 ∗ StExit c 0 ∗ StLd m c fv 24 23 ∗ StVs m c fs 0 23 16 0 ∗ StYtok c 16 ∗ StYreg c 16 ∗ sendCells (ysendCell c) 16 0 ∗ recvCells (yrecvCell c) 7 ∗ StFtok c 7 ∗ StFreg c 7 ∗ sendCells (xsendCell c) 7 0 ∗ recvCells (xrecvCell c) 0 ∗ StB m c (m ((c : Thread nD τ).loc main_v1)) true 7 7 0 ∗ StC m c (m ((c : Thread nD τ).loc main_v1)) true 0 ∗ StSt m c (m ((c : Thread nD τ).loc main_v1)) 0 ∗ Ow c (owedAt c 2 16 7 0))) -∗ Q r))
      ⊢ wp frame (wpE (defs₀ (F := F)) 𝒱₀ (c : Thread nD τ) none) Set.univ (k0_part27 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7 v19 v810 c3072_i32_612) Q :=
  frm_n16_2_3_8_9_10_12_15_u (part_27 (m := m) K c fv fs)

theorem fpart_28 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32} {c2_i32_638 : BitVec 32}  {Q : (PUnit) → sProp 𝕄} :
    iprop(Pers m K ∗ (StBar c 3 ∗ StExit c 0 ∗ StLd m c fv 24 23 ∗ StVs m c fs 0 23 16 0 ∗ StYtok c 16 ∗ StYreg c 16 ∗ sendCells (ysendCell c) 16 0 ∗ recvCells (yrecvCell c) 7 ∗ StFtok c 7 ∗ StFreg c 7 ∗ sendCells (xsendCell c) 7 0 ∗ recvCells (xrecvCell c) 0 ∗ StB m c (m ((c : Thread nD τ).loc main_v1)) true 7 7 0 ∗ StC m c (m ((c : Thread nD τ).loc main_v1)) true 0 ∗ StSt m c (m ((c : Thread nD τ).loc main_v1)) 0 ∗ Ow c (owedAt c 2 16 7 0)) ∗ (∀ r : (PUnit), (⌜True⌝ ∗ (StBar c 3 ∗ StExit c 0 ∗ StLd m c fv 25 23 ∗ StVs m c fs 0 23 16 0 ∗ StYtok c 16 ∗ StYreg c 16 ∗ sendCells (ysendCell c) 16 0 ∗ recvCells (yrecvCell c) 8 ∗ StFtok c 8 ∗ StFreg c 8 ∗ sendCells (xsendCell c) 8 0 ∗ recvCells (xrecvCell c) 0 ∗ StB m c (m ((c : Thread nD τ).loc main_v1)) true 8 8 0 ∗ StC m c (m ((c : Thread nD τ).loc main_v1)) true 0 ∗ StSt m c (m ((c : Thread nD τ).loc main_v1)) 0 ∗ Ow c (owedAt c 2 16 8 0))) -∗ Q r))
      ⊢ wp frame (wpE (defs₀ (F := F)) 𝒱₀ (c : Thread nD τ) none) Set.univ (k0_part28 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19 c2_i32_638) Q :=
  frm_n16_2_7_8_9_10_12_15_u (part_28 (m := m) K c fv fs)

theorem fpart_29 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (PUnit) → sProp 𝕄} :
    iprop(Pers m K ∗ (StBar c 3 ∗ StExit c 0 ∗ StLd m c fv 25 23 ∗ StVs m c fs 0 23 16 0 ∗ StYtok c 16 ∗ StYreg c 16 ∗ sendCells (ysendCell c) 16 0 ∗ recvCells (yrecvCell c) 8 ∗ StFtok c 8 ∗ StFreg c 8 ∗ sendCells (xsendCell c) 8 0 ∗ recvCells (xrecvCell c) 0 ∗ StB m c (m ((c : Thread nD τ).loc main_v1)) true 8 8 0 ∗ StC m c (m ((c : Thread nD τ).loc main_v1)) true 0 ∗ StSt m c (m ((c : Thread nD τ).loc main_v1)) 0 ∗ Ow c (owedAt c 2 16 8 0)) ∗ (∀ r : (PUnit), (⌜True⌝ ∗ (StBar c 3 ∗ StExit c 0 ∗ StLd m c fv 25 24 ∗ StVs m c fs 0 24 16 0 ∗ StYtok c 16 ∗ StYreg c 16 ∗ sendCells (ysendCell c) 16 0 ∗ recvCells (yrecvCell c) 9 ∗ StFtok c 9 ∗ StFreg c 9 ∗ sendCells (xsendCell c) 9 0 ∗ recvCells (xrecvCell c) 0 ∗ StB m c (m ((c : Thread nD τ).loc main_v1)) true 9 9 0 ∗ StC m c (m ((c : Thread nD τ).loc main_v1)) true 0 ∗ StSt m c (m ((c : Thread nD τ).loc main_v1)) 0 ∗ Ow c (owedAt c 2 16 9 0))) -∗ Q r))
      ⊢ wp frame (wpE (defs₀ (F := F)) 𝒱₀ (c : Thread nD τ) none) Set.univ (k0_part29 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q :=
  frm_n16_2_3_7_8_9_10_12_15_u (part_29 (m := m) K c fv fs)

theorem fpart_30 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} {v19 : BitVec 32}  {Q : (PUnit) → sProp 𝕄} :
    iprop(Pers m K ∗ (StBar c 3 ∗ StExit c 0 ∗ StLd m c fv 25 24 ∗ StVs m c fs 0 24 16 0 ∗ StYtok c 16 ∗ StYreg c 16 ∗ sendCells (ysendCell c) 16 0 ∗ recvCells (yrecvCell c) 9 ∗ StFtok c 9 ∗ StFreg c 9 ∗ sendCells (xsendCell c) 9 0 ∗ recvCells (xrecvCell c) 0 ∗ StB m c (m ((c : Thread nD τ).loc main_v1)) true 9 9 0 ∗ StC m c (m ((c : Thread nD τ).loc main_v1)) true 0 ∗ StSt m c (m ((c : Thread nD τ).loc main_v1)) 0 ∗ Ow c (owedAt c 2 16 9 0)) ∗ (∀ r : (PUnit), (⌜True⌝ ∗ (StBar c 3 ∗ StExit c 0 ∗ StLd m c fv 26 25 ∗ StVs m c fs 0 25 16 0 ∗ StYtok c 16 ∗ StYreg c 16 ∗ sendCells (ysendCell c) 16 0 ∗ recvCells (yrecvCell c) 10 ∗ StFtok c 9 ∗ StFreg c 9 ∗ sendCells (xsendCell c) 9 0 ∗ recvCells (xrecvCell c) 0 ∗ StB m c (m ((c : Thread nD τ).loc main_v1)) true 10 9 0 ∗ StC m c (m ((c : Thread nD τ).loc main_v1)) true 0 ∗ StSt m c (m ((c : Thread nD τ).loc main_v1)) 0 ∗ Ow c (owedAt c 2 16 9 0))) -∗ Q r))
      ⊢ wp frame (wpE (defs₀ (F := F)) 𝒱₀ (c : Thread nD τ) none) Set.univ (k0_part30 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v19) Q :=
  frm_n16_2_3_7_12_15_u (part_30 (m := m) K c fv fs)

theorem fpart_31 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v7 : BitVec 32} {v19 : BitVec 32}  {Q : (BitVec 32) → sProp 𝕄} :
    iprop(Pers m K ∗ (StBar c 3 ∗ StExit c 0 ∗ StLd m c fv 26 25 ∗ StVs m c fs 0 25 16 0 ∗ StYtok c 16 ∗ StYreg c 16 ∗ sendCells (ysendCell c) 16 0 ∗ recvCells (yrecvCell c) 10 ∗ StFtok c 9 ∗ StFreg c 9 ∗ sendCells (xsendCell c) 9 0 ∗ recvCells (xrecvCell c) 0 ∗ StB m c (m ((c : Thread nD τ).loc main_v1)) true 10 9 0 ∗ StC m c (m ((c : Thread nD τ).loc main_v1)) true 0 ∗ StSt m c (m ((c : Thread nD τ).loc main_v1)) 0 ∗ Ow c (owedAt c 2 16 9 0)) ∗ (∀ r : (BitVec 32), (⌜True⌝ ∗ (StBar c 3 ∗ StExit c 0 ∗ StLd m c fv 27 26 ∗ StVs m c fs 0 26 16 0 ∗ StYtok c 16 ∗ StYreg c 16 ∗ sendCells (ysendCell c) 16 0 ∗ recvCells (yrecvCell c) 10 ∗ StFtok c 10 ∗ StFreg c 10 ∗ sendCells (xsendCell c) 10 0 ∗ recvCells (xrecvCell c) 0 ∗ StB m c (m ((c : Thread nD τ).loc main_v1)) true 10 10 0 ∗ StC m c (m ((c : Thread nD τ).loc main_v1)) true 0 ∗ StSt m c (m ((c : Thread nD τ).loc main_v1)) 0 ∗ Ow c (owedAt c 2 16 10 0))) -∗ Q r))
      ⊢ wp frame (wpE (defs₀ (F := F)) 𝒱₀ (c : Thread nD τ) none) Set.univ (k0_part31 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v7 v19) Q :=
  frm_n16_2_3_8_9_10_12_15_u (part_31 (m := m) K c fv fs)

theorem fpart_32 (K : Dev nD × Kind → ℕ) (c : Dev nD) (fv : Buf (Elt F) ((c : Thread nD τ).loc cc0_scratch1)) (fs : Buf (Elt F) ((c : Thread nD τ).loc cc0_scratch0))
    {v5 : BitVec 32} {v6 : BitVec 32} {v7 : BitVec 32} {v17 : BitVec 32} {v19 : BitVec 32} {v965 : BitVec 32}  {Q : (PUnit) → sProp 𝕄} :
    iprop(Pers m K ∗ (StBar c 3 ∗ StExit c 0 ∗ StLd m c fv 27 26 ∗ StVs m c fs 0 26 16 0 ∗ StYtok c 16 ∗ StYreg c 16 ∗ sendCells (ysendCell c) 16 0 ∗ recvCells (yrecvCell c) 10 ∗ StFtok c 10 ∗ StFreg c 10 ∗ sendCells (xsendCell c) 10 0 ∗ recvCells (xrecvCell c) 0 ∗ StB m c (m ((c : Thread nD τ).loc main_v1)) true 10 10 0 ∗ StC m c (m ((c : Thread nD τ).loc main_v1)) true 0 ∗ StSt m c (m ((c : Thread nD τ).loc main_v1)) 0 ∗ Ow c (owedAt c 2 16 10 0)) ∗ (∀ r : (PUnit), (⌜True⌝ ∗ (StBar c 3 ∗ StExit c 0 ∗ StLd m c fv 28 27 ∗ StVs m c fs 0 26 16 0 ∗ StYtok c 16 ∗ StYreg c 16 ∗ sendCells (ysendCell c) 16 0 ∗ recvCells (yrecvCell c) 11 ∗ StFtok c 11 ∗ StFreg c 11 ∗ sendCells (xsendCell c) 11 0 ∗ recvCells (xrecvCell c) 0 ∗ StB m c (m ((c : Thread nD τ).loc main_v1)) true 11 11 0 ∗ StC m c (m ((c : Thread nD τ).loc main_v1)) true 0 ∗ StSt m c (m ((c : Thread nD τ).loc main_v1)) 0 ∗ Ow c (owedAt c 2 16 11 0))) -∗ Q r))
      ⊢ wp frame (wpE (defs₀ (F := F)) 𝒱₀ (c : Thread nD τ) none) Set.univ (k0_part32 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v6 v7 v17 v19 v965) Q :=
  frm_n16_2_7_8_9_10_12_15_u (part_32 (m := m) K c fv fs)

theorem fpart_33 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (PUnit) → sProp 𝕄} :
    iprop(Pers m K ∗ (StBar c 3 ∗ StExit c 0 ∗ StLd m c fv 28 27 ∗ StVs m c fs 0 26 16 0 ∗ StYtok c 16 ∗ StYreg c 16 ∗ sendCells (ysendCell c) 16 0 ∗ recvCells (yrecvCell c) 11 ∗ StFtok c 11 ∗ StFreg c 11 ∗ sendCells (xsendCell c) 11 0 ∗ recvCells (xrecvCell c) 0 ∗ StB m c (m ((c : Thread nD τ).loc main_v1)) true 11 11 0 ∗ StC m c (m ((c : Thread nD τ).loc main_v1)) true 0 ∗ StSt m c (m ((c : Thread nD τ).loc main_v1)) 0 ∗ Ow c (owedAt c 2 16 11 0)) ∗ (∀ r : (PUnit), (⌜True⌝ ∗ (StBar c 3 ∗ StExit c 0 ∗ StLd m c fv 28 27 ∗ StVs m c fs 0 27 16 0 ∗ StYtok c 16 ∗ StYreg c 16 ∗ sendCells (ysendCell c) 16 0 ∗ recvCells (yrecvCell c) 12 ∗ StFtok c 12 ∗ StFreg c 12 ∗ sendCells (xsendCell c) 12 0 ∗ recvCells (xrecvCell c) 0 ∗ StB m c (m ((c : Thread nD τ).loc main_v1)) true 12 12 0 ∗ StC m c (m ((c : Thread nD τ).loc main_v1)) true 0 ∗ StSt m c (m ((c : Thread nD τ).loc main_v1)) 0 ∗ Ow c (owedAt c 2 16 12 0))) -∗ Q r))
      ⊢ wp frame (wpE (defs₀ (F := F)) 𝒱₀ (c : Thread nD τ) none) Set.univ (k0_part33 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q :=
  frm_n16_2_3_7_8_9_10_12_15_u (part_33 (m := m) K c fv fs)

theorem fpart_34 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (Σ' (v1058 : BitVec 32), BitVec 32) → sProp 𝕄} :
    iprop(Pers m K ∗ (StBar c 3 ∗ StExit c 0 ∗ StLd m c fv 28 27 ∗ StVs m c fs 0 27 16 0 ∗ StYtok c 16 ∗ StYreg c 16 ∗ sendCells (ysendCell c) 16 0 ∗ recvCells (yrecvCell c) 12 ∗ StFtok c 12 ∗ StFreg c 12 ∗ sendCells (xsendCell c) 12 0 ∗ recvCells (xrecvCell c) 0 ∗ StB m c (m ((c : Thread nD τ).loc main_v1)) true 12 12 0 ∗ StC m c (m ((c : Thread nD τ).loc main_v1)) true 0 ∗ StSt m c (m ((c : Thread nD τ).loc main_v1)) 0 ∗ Ow c (owedAt c 2 16 12 0)) ∗ (∀ r : (Σ' (v1058 : BitVec 32), BitVec 32), (⌜True⌝ ∗ (StBar c 3 ∗ StExit c 0 ∗ StLd m c fv 29 28 ∗ StVs m c fs 0 28 16 0 ∗ StYtok c 16 ∗ StYreg c 16 ∗ sendCells (ysendCell c) 16 0 ∗ recvCells (yrecvCell c) 13 ∗ StFtok c 12 ∗ StFreg c 12 ∗ sendCells (xsendCell c) 12 0 ∗ recvCells (xrecvCell c) 0 ∗ StB m c (m ((c : Thread nD τ).loc main_v1)) true 13 12 0 ∗ StC m c (m ((c : Thread nD τ).loc main_v1)) true 0 ∗ StSt m c (m ((c : Thread nD τ).loc main_v1)) 0 ∗ Ow c (owedAt c 2 16 12 0))) -∗ Q r))
      ⊢ wp frame (wpE (defs₀ (F := F)) 𝒱₀ (c : Thread nD τ) none) Set.univ (k0_part34 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q :=
  frm_n16_2_3_7_12_15_s (part_34 (m := m) K c fv fs)

theorem fpart_35 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v19 : BitVec 32} {v1058 : BitVec 32} {c0_i32_814 : BitVec 32}  {Q : (PUnit) → sProp 𝕄} :
    iprop(Pers m K ∗ (StBar c 3 ∗ StExit c 0 ∗ StLd m c fv 29 28 ∗ StVs m c fs 0 28 16 0 ∗ StYtok c 16 ∗ StYreg c 16 ∗ sendCells (ysendCell c) 16 0 ∗ recvCells (yrecvCell c) 13 ∗ StFtok c 12 ∗ StFreg c 12 ∗ sendCells (xsendCell c) 12 0 ∗ recvCells (xrecvCell c) 0 ∗ StB m c (m ((c : Thread nD τ).loc main_v1)) true 13 12 0 ∗ StC m c (m ((c : Thread nD τ).loc main_v1)) true 0 ∗ StSt m c (m ((c : Thread nD τ).loc main_v1)) 0 ∗ Ow c (owedAt c 2 16 12 0)) ∗ (∀ r : (PUnit), (⌜True⌝ ∗ (StBar c 3 ∗ StExit c 0 ∗ StLd m c fv 30 29 ∗ StVs m c fs 0 29 16 0 ∗ StYtok c 16 ∗ StYreg c 16 ∗ sendCells (ysendCell c) 16 0 ∗ recvCells (yrecvCell c) 13 ∗ StFtok c 13 ∗ StFreg c 13 ∗ sendCells (xsendCell c) 13 0 ∗ recvCells (xrecvCell c) 0 ∗ StB m c (m ((c : Thread nD τ).loc main_v1)) true 13 13 0 ∗ StC m c (m ((c : Thread nD τ).loc main_v1)) true 0 ∗ StSt m c (m ((c : Thread nD τ).loc main_v1)) 0 ∗ Ow c (owedAt c 2 16 13 0))) -∗ Q r))
      ⊢ wp frame (wpE (defs₀ (F := F)) 𝒱₀ (c : Thread nD τ) none) Set.univ (k0_part35 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v19 v1058 c0_i32_814) Q :=
  frm_n16_2_3_8_9_10_12_15_u (part_35 (m := m) K c fv fs)

theorem fpart_36 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32} {v17 : BitVec 32} {v19 : BitVec 32}  {Q : (Vec F S1x512x1024 .f32) → sProp 𝕄} :
    iprop(Pers m K ∗ (StBar c 3 ∗ StExit c 0 ∗ StLd m c fv 30 29 ∗ StVs m c fs 0 29 16 0 ∗ StYtok c 16 ∗ StYreg c 16 ∗ sendCells (ysendCell c) 16 0 ∗ recvCells (yrecvCell c) 13 ∗ StFtok c 13 ∗ StFreg c 13 ∗ sendCells (xsendCell c) 13 0 ∗ recvCells (xrecvCell c) 0 ∗ StB m c (m ((c : Thread nD τ).loc main_v1)) true 13 13 0 ∗ StC m c (m ((c : Thread nD τ).loc main_v1)) true 0 ∗ StSt m c (m ((c : Thread nD τ).loc main_v1)) 0 ∗ Ow c (owedAt c 2 16 13 0)) ∗ (∀ r : (Vec F S1x512x1024 .f32), (⌜(k0_pay33 r) = pay (slotVal m c (29 : Fin 32))⌝ ∗ (StBar c 3 ∗ StExit c 0 ∗ StLd m c fv 31 30 ∗ StVs m c fs 0 29 16 0 ∗ StYtok c 16 ∗ StYreg c 16 ∗ sendCells (ysendCell c) 16 0 ∗ recvCells (yrecvCell c) 14 ∗ StFtok c 14 ∗ StFreg c 14 ∗ sendCells (xsendCell c) 14 0 ∗ recvCells (xrecvCell c) 0 ∗ StB m c (m ((c : Thread nD τ).loc main_v1)) true 14 14 0 ∗ StC m c (m ((c : Thread nD τ).loc main_v1)) true 0 ∗ StSt m c (m ((c : Thread nD τ).loc main_v1)) 0 ∗ Ow c (owedAt c 2 16 14 0))) -∗ Q r))
      ⊢ wp frame (wpE (defs₀ (F := F)) 𝒱₀ (c : Thread nD τ) none) Set.univ (k0_part36 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7 v17 v19) Q :=
  frm_n16_2_7_8_9_10_12_15_f (part_36 (m := m) K c fv fs)

theorem fpart_37 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32} (v1120 : Vec F S1x512x1024 .f32) (hw : (k0_pay33 v1120) = pay (slotVal m c (29 : Fin 32))) {Q : (PUnit) → sProp 𝕄} :
    iprop(Pers m K ∗ (StBar c 3 ∗ StExit c 0 ∗ StLd m c fv 31 30 ∗ StVs m c fs 0 29 16 0 ∗ StYtok c 16 ∗ StYreg c 16 ∗ sendCells (ysendCell c) 16 0 ∗ recvCells (yrecvCell c) 14 ∗ StFtok c 14 ∗ StFreg c 14 ∗ sendCells (xsendCell c) 14 0 ∗ recvCells (xrecvCell c) 0 ∗ StB m c (m ((c : Thread nD τ).loc main_v1)) true 14 14 0 ∗ StC m c (m ((c : Thread nD τ).loc main_v1)) true 0 ∗ StSt m c (m ((c : Thread nD τ).loc main_v1)) 0 ∗ Ow c (owedAt c 2 16 14 0)) ∗ (∀ r : (PUnit), (⌜True⌝ ∗ (StBar c 3 ∗ StExit c 0 ∗ StLd m c fv 31 30 ∗ StVs m c fs 0 30 16 0 ∗ StYtok c 16 ∗ StYreg c 16 ∗ sendCells (ysendCell c) 16 0 ∗ recvCells (yrecvCell c) 15 ∗ StFtok c 15 ∗ StFreg c 15 ∗ sendCells (xsendCell c) 15 0 ∗ recvCells (xrecvCell c) 0 ∗ StB m c (m ((c : Thread nD τ).loc main_v1)) true 15 15 0 ∗ StC m c (m ((c : Thread nD τ).loc main_v1)) true 0 ∗ StSt m c (m ((c : Thread nD τ).loc main_v1)) 0 ∗ Ow c (owedAt c 2 16 15 0))) -∗ Q r))
      ⊢ wp frame (wpE (defs₀ (F := F)) 𝒱₀ (c : Thread nD τ) none) Set.univ (k0_part37 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19 v1120) Q :=
  frm_n16_3_7_8_9_10_12_15_u (part_37 (m := m) K c fv fs v1120 hw)

theorem fpart_38 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (Σ' (v1182 : BitVec 32), BitVec 32) → sProp 𝕄} :
    iprop(Pers m K ∗ (StBar c 3 ∗ StExit c 0 ∗ StLd m c fv 31 30 ∗ StVs m c fs 0 30 16 0 ∗ StYtok c 16 ∗ StYreg c 16 ∗ sendCells (ysendCell c) 16 0 ∗ recvCells (yrecvCell c) 15 ∗ StFtok c 15 ∗ StFreg c 15 ∗ sendCells (xsendCell c) 15 0 ∗ recvCells (xrecvCell c) 0 ∗ StB m c (m ((c : Thread nD τ).loc main_v1)) true 15 15 0 ∗ StC m c (m ((c : Thread nD τ).loc main_v1)) true 0 ∗ StSt m c (m ((c : Thread nD τ).loc main_v1)) 0 ∗ Ow c (owedAt c 2 16 15 0)) ∗ (∀ r : (Σ' (v1182 : BitVec 32), BitVec 32), (⌜True⌝ ∗ (StBar c 3 ∗ StExit c 0 ∗ StLd m c fv 32 31 ∗ StVs m c fs 0 31 16 0 ∗ StYtok c 16 ∗ StYreg c 16 ∗ sendCells (ysendCell c) 16 0 ∗ recvCells (yrecvCell c) 16 ∗ StFtok c 15 ∗ StFreg c 15 ∗ sendCells (xsendCell c) 15 0 ∗ recvCells (xrecvCell c) 0 ∗ StB m c (m ((c : Thread nD τ).loc main_v1)) true 16 15 0 ∗ StC m c (m ((c : Thread nD τ).loc main_v1)) true 0 ∗ StSt m c (m ((c : Thread nD τ).loc main_v1)) 0 ∗ Ow c (owedAt c 2 16 15 0))) -∗ Q r))
      ⊢ wp frame (wpE (defs₀ (F := F)) 𝒱₀ (c : Thread nD τ) none) Set.univ (k0_part38 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q :=
  frm_n16_2_3_7_12_15_s (part_38 (m := m) K c fv fs)

theorem fpart_39 (K : Dev nD × Kind → ℕ) (c : Dev nD) (fv : Buf (Elt F) ((c : Thread nD τ).loc cc0_scratch1)) (fs : Buf (Elt F) ((c : Thread nD τ).loc cc0_scratch0))
    {v5 : BitVec 32} {v19 : BitVec 32} {v1182 : BitVec 32} {v1183 : BitVec 32}  {Q : (PUnit) → sProp 𝕄} :
    iprop(Pers m K ∗ (StBar c 3 ∗ StExit c 0 ∗ StLd m c fv 32 31 ∗ StVs m c fs 0 31 16 0 ∗ StYtok c 16 ∗ StYreg c 16 ∗ sendCells (ysendCell c) 16 0 ∗ recvCells (yrecvCell c) 16 ∗ StFtok c 15 ∗ StFreg c 15 ∗ sendCells (xsendCell c) 15 0 ∗ recvCells (xrecvCell c) 0 ∗ StB m c (m ((c : Thread nD τ).loc main_v1)) true 16 15 0 ∗ StC m c (m ((c : Thread nD τ).loc main_v1)) true 0 ∗ StSt m c (m ((c : Thread nD τ).loc main_v1)) 0 ∗ Ow c (owedAt c 2 16 15 0)) ∗ (∀ r : (PUnit), (⌜True⌝ ∗ (StBar c 3 ∗ StExit c 0 ∗ StLd m c fv 32 32 ∗ StVs m c fs 1 32 16 2 ∗ StYtok c 16 ∗ StYreg c 16 ∗ sendCells (ysendCell c) 16 2 ∗ recvCells (yrecvCell c) 16 ∗ StFtok c 16 ∗ StFreg c 16 ∗ sendCells (xsendCell c) 16 0 ∗ recvCells (xrecvCell c) 0 ∗ StB m c (m ((c : Thread nD τ).loc main_v1)) true 16 16 0 ∗ StC m c (m ((c : Thread nD τ).loc main_v1)) true 0 ∗ StSt m c (m ((c : Thread nD τ).loc main_v1)) 1 ∗ Ow c (owedAt c 2 16 16 0))) -∗ Q r))
      ⊢ wp frame (wpE (defs₀ (F := F)) 𝒱₀ (c : Thread nD τ) none) Set.univ (k0_part39 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v19 v1182 v1183) Q :=
  frm_n16_2_3_6_8_9_10_12_14_15_u (part_39 (m := m) K c fv fs)

theorem fpart_40 (K : Dev nD × Kind → ℕ) (c : Dev nD) (fv : Buf (Elt F) ((c : Thread nD τ).loc cc0_scratch1)) (fs : Buf (Elt F) ((c : Thread nD τ).loc cc0_scratch0))
      {Q : (PUnit) → sProp 𝕄} :
    iprop(Pers m K ∗ (StBar c 3 ∗ StExit c 0 ∗ StLd m c fv 32 32 ∗ StVs m c fs 1 32 16 2 ∗ StYtok c 16 ∗ StYreg c 16 ∗ sendCells (ysendCell c) 16 2 ∗ recvCells (yrecvCell c) 16 ∗ StFtok c 16 ∗ StFreg c 16 ∗ sendCells (xsendCell c) 16 0 ∗ recvCells (xrecvCell c) 0 ∗ StB m c (m ((c : Thread nD τ).loc main_v1)) true 16 16 0 ∗ StC m c (m ((c : Thread nD τ).loc main_v1)) true 0 ∗ StSt m c (m ((c : Thread nD τ).loc main_v1)) 1 ∗ Ow c (owedAt c 2 16 16 0)) ∗ (∀ r : (PUnit), (⌜True⌝ ∗ (StBar c 3 ∗ StExit c 0 ∗ StLd m c fv 32 32 ∗ StVs m c fs 1 32 16 8 ∗ StYtok c 16 ∗ StYreg c 16 ∗ sendCells (ysendCell c) 16 8 ∗ recvCells (yrecvCell c) 16 ∗ StFtok c 16 ∗ StFreg c 16 ∗ sendCells (xsendCell c) 16 0 ∗ recvCells (xrecvCell c) 0 ∗ StB m c (m ((c : Thread nD τ).loc main_v1)) true 16 16 0 ∗ StC m c (m ((c : Thread nD τ).loc main_v1)) true 0 ∗ StSt m c (m ((c : Thread nD τ).loc main_v1)) 1 ∗ Ow c (owedAt c 2 16 16 0))) -∗ Q r))
      ⊢ wp frame (wpE (defs₀ (F := F)) 𝒱₀ (c : Thread nD τ) none) Set.univ (k0_part40 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c) Q :=
  frm_n16_3_6_15_u (part_40 (m := m) K c fv fs)

theorem fpart_41 (K : Dev nD × Kind → ℕ) (c : Dev nD) (fv : Buf (Elt F) ((c : Thread nD τ).loc cc0_scratch1)) (fs : Buf (Elt F) ((c : Thread nD τ).loc cc0_scratch0))
      {Q : (PUnit) → sProp 𝕄} :
    iprop(Pers m K ∗ (StBar c 3 ∗ StExit c 0 ∗ StLd m c fv 32 32 ∗ StVs m c fs 1 32 16 8 ∗ StYtok c 16 ∗ StYreg c 16 ∗ sendCells (ysendCell c) 16 8 ∗ recvCells (yrecvCell c) 16 ∗ StFtok c 16 ∗ StFreg c 16 ∗ sendCells (xsendCell c) 16 0 ∗ recvCells (xrecvCell c) 0 ∗ StB m c (m ((c : Thread nD τ).loc main_v1)) true 16 16 0 ∗ StC m c (m ((c : Thread nD τ).loc main_v1)) true 0 ∗ StSt m c (m ((c : Thread nD τ).loc main_v1)) 1 ∗ Ow c (owedAt c 2 16 16 0)) ∗ (∀ r : (PUnit), (⌜True⌝ ∗ (StBar c 3 ∗ StExit c 0 ∗ StLd m c fv 32 32 ∗ StVs m c fs 1 32 16 14 ∗ StYtok c 16 ∗ StYreg c 16 ∗ sendCells (ysendCell c) 16 14 ∗ recvCells (yrecvCell c) 16 ∗ StFtok c 16 ∗ StFreg c 16 ∗ sendCells (xsendCell c) 16 0 ∗ recvCells (xrecvCell c) 0 ∗ StB m c (m ((c : Thread nD τ).loc main_v1)) true 16 16 0 ∗ StC m c (m ((c : Thread nD τ).loc main_v1)) true 0 ∗ StSt m c (m ((c : Thread nD τ).loc main_v1)) 1 ∗ Ow c (owedAt c 2 16 16 0))) -∗ Q r))
      ⊢ wp frame (wpE (defs₀ (F := F)) 𝒱₀ (c : Thread nD τ) none) Set.univ (k0_part41 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c) Q :=
  frm_n16_3_6_15_u (part_41 (m := m) K c fv fs)

theorem fpart_42 (K : Dev nD × Kind → ℕ) (c : Dev nD) (fv : Buf (Elt F) ((c : Thread nD τ).loc cc0_scratch1)) (fs : Buf (Elt F) ((c : Thread nD τ).loc cc0_scratch0))
      {Q : (PUnit) → sProp 𝕄} :
    iprop(Pers m K ∗ (StBar c 3 ∗ StExit c 0 ∗ StLd m c fv 32 32 ∗ StVs m c fs 1 32 16 14 ∗ StYtok c 16 ∗ StYreg c 16 ∗ sendCells (ysendCell c) 16 14 ∗ recvCells (yrecvCell c) 16 ∗ StFtok c 16 ∗ StFreg c 16 ∗ sendCells (xsendCell c) 16 0 ∗ recvCells (xrecvCell c) 0 ∗ StB m c (m ((c : Thread nD τ).loc main_v1)) true 16 16 0 ∗ StC m c (m ((c : Thread nD τ).loc main_v1)) true 0 ∗ StSt m c (m ((c : Thread nD τ).loc main_v1)) 1 ∗ Ow c (owedAt c 2 16 16 0)) ∗ (∀ r : (PUnit), (⌜True⌝ ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 4 ∗ recvCells (xrecvCell c) 0 ∗ StB m c (m ((c : Thread nD τ).loc main_v1)) true 16 16 4 ∗ StC m c (m ((c : Thread nD τ).loc main_v1)) true 0 ∗ StSt m c (m ((c : Thread nD τ).loc main_v1)) 1 ∗ Ow c (owedAt c 2 16 16 0))) -∗ Q r))
      ⊢ wp frame (wpE (defs₀ (F := F)) 𝒱₀ (c : Thread nD τ) none) Set.univ (k0_part42 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c) Q :=
  frm_n16_3_6_10_12_15_u (part_42 (m := m) K c fv fs)

theorem fpart_43 (K : Dev nD × Kind → ℕ) (c : Dev nD) (fv : Buf (Elt F) ((c : Thread nD τ).loc cc0_scratch1)) (fs : Buf (Elt F) ((c : Thread nD τ).loc cc0_scratch0))
      {Q : (PUnit) → sProp 𝕄} :
    iprop(Pers m K ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 4 ∗ recvCells (xrecvCell c) 0 ∗ StB m c (m ((c : Thread nD τ).loc main_v1)) true 16 16 4 ∗ StC m c (m ((c : Thread nD τ).loc main_v1)) true 0 ∗ StSt m c (m ((c : Thread nD τ).loc main_v1)) 1 ∗ Ow c (owedAt c 2 16 16 0)) ∗ (∀ r : (PUnit), (⌜True⌝ ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 10 ∗ recvCells (xrecvCell c) 0 ∗ StB m c (m ((c : Thread nD τ).loc main_v1)) true 16 16 10 ∗ StC m c (m ((c : Thread nD τ).loc main_v1)) true 0 ∗ StSt m c (m ((c : Thread nD τ).loc main_v1)) 1 ∗ Ow c (owedAt c 2 16 16 0))) -∗ Q r))
      ⊢ wp frame (wpE (defs₀ (F := F)) 𝒱₀ (c : Thread nD τ) none) Set.univ (k0_part43 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c) Q :=
  frm_n16_10_12_15_u (part_43 (m := m) K c fv fs)

theorem fpart_44 (K : Dev nD × Kind → ℕ) (c : Dev nD) (fv : Buf (Elt F) ((c : Thread nD τ).loc cc0_scratch1)) (fs : Buf (Elt F) ((c : Thread nD τ).loc cc0_scratch0))
      {Q : (PUnit) → sProp 𝕄} :
    iprop(Pers m K ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 10 ∗ recvCells (xrecvCell c) 0 ∗ StB m c (m ((c : Thread nD τ).loc main_v1)) true 16 16 10 ∗ StC m c (m ((c : Thread nD τ).loc main_v1)) true 0 ∗ StSt m c (m ((c : Thread nD τ).loc main_v1)) 1 ∗ Ow c (owedAt c 2 16 16 0)) ∗ (∀ r : (PUnit), (⌜True⌝ ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 16 ∗ recvCells (xrecvCell c) 0 ∗ StB m c (m ((c : Thread nD τ).loc main_v1)) true 16 16 16 ∗ StC m c (m ((c : Thread nD τ).loc main_v1)) true 0 ∗ StSt m c (m ((c : Thread nD τ).loc main_v1)) 1 ∗ Ow c (owedAt c 2 16 16 0))) -∗ Q r))
      ⊢ wp frame (wpE (defs₀ (F := F)) 𝒱₀ (c : Thread nD τ) none) Set.univ (k0_part44 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c) Q :=
  frm_n16_10_12_15_u (part_44 (m := m) K c fv fs)

theorem fpart_45 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32}  {Q : (PUnit) → sProp 𝕄} :
    iprop(Pers m K ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 16 ∗ recvCells (xrecvCell c) 0 ∗ StB m c (m ((c : Thread nD τ).loc main_v1)) true 16 16 16 ∗ StC m c (m ((c : Thread nD τ).loc main_v1)) true 0 ∗ StSt m c (m ((c : Thread nD τ).loc main_v1)) 1 ∗ Ow c (owedAt c 2 16 16 0)) ∗ (∀ r : (PUnit), (⌜True⌝ ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 16 ∗ recvCells (xrecvCell c) 3 ∗ StB m c (m ((c : Thread nD τ).loc main_v1)) true 16 16 16 ∗ StC m c (m ((c : Thread nD τ).loc main_v1)) true 3 ∗ StSt m c (m ((c : Thread nD τ).loc main_v1)) 1 ∗ Ow c (owedAt c 2 16 16 0))) -∗ Q r))
      ⊢ wp frame (wpE (defs₀ (F := F)) 𝒱₀ (c : Thread nD τ) none) Set.univ (k0_part45 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7) Q :=
  frm_n16_11_13_15_u (part_45 (m := m) K c fv fs)

theorem fpart_46 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32}  {Q : (Σ' (v1391 : BitVec 32), BitVec 32) → sProp 𝕄} :
    iprop(Pers m K ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 16 ∗ recvCells (xrecvCell c) 3 ∗ StB m c (m ((c : Thread nD τ).loc main_v1)) true 16 16 16 ∗ StC m c (m ((c : Thread nD τ).loc main_v1)) true 3 ∗ StSt m c (m ((c : Thread nD τ).loc main_v1)) 1 ∗ Ow c (owedAt c 2 16 16 0)) ∗ (∀ r : (Σ' (v1391 : BitVec 32), BitVec 32), (⌜True⌝ ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 16 ∗ recvCells (xrecvCell c) 7 ∗ StB m c (m ((c : Thread nD τ).loc main_v1)) true 16 16 16 ∗ StC m c (m ((c : Thread nD τ).loc main_v1)) true 7 ∗ StSt m c (m ((c : Thread nD τ).loc main_v1)) 1 ∗ Ow c (owedAt c 2 16 16 0))) -∗ Q r))
      ⊢ wp frame (wpE (defs₀ (F := F)) 𝒱₀ (c : Thread nD τ) none) Set.univ (k0_part46 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7) Q :=
  frm_n16_11_13_15_s (part_46 (m := m) K c fv fs)

theorem fpart_47 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32} {v1391 : BitVec 32} {v1392 : BitVec 32}  {Q : (BitVec 32) → sProp 𝕄} :
    iprop(Pers m K ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 16 ∗ recvCells (xrecvCell c) 7 ∗ StB m c (m ((c : Thread nD τ).loc main_v1)) true 16 16 16 ∗ StC m c (m ((c : Thread nD τ).loc main_v1)) true 7 ∗ StSt m c (m ((c : Thread nD τ).loc main_v1)) 1 ∗ Ow c (owedAt c 2 16 16 0)) ∗ (∀ r : (BitVec 32), (⌜True⌝ ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 16 ∗ recvCells (xrecvCell c) 11 ∗ StB m c (m ((c : Thread nD τ).loc main_v1)) true 16 16 16 ∗ StC m c (m ((c : Thread nD τ).loc main_v1)) true 11 ∗ StSt m c (m ((c : Thread nD τ).loc main_v1)) 1 ∗ Ow c (owedAt c 2 16 16 0))) -∗ Q r))
      ⊢ wp frame (wpE (defs₀ (F := F)) 𝒱₀ (c : Thread nD τ) none) Set.univ (k0_part47 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7 v1391 v1392) Q :=
  frm_n16_11_13_15_u (part_47 (m := m) K c fv fs)

theorem fpart_48 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32} {v1422 : BitVec 32}  {Q : (PUnit) → sProp 𝕄} :
    iprop(Pers m K ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 16 ∗ recvCells (xrecvCell c) 11 ∗ StB m c (m ((c : Thread nD τ).loc main_v1)) true 16 16 16 ∗ StC m c (m ((c : Thread nD τ).loc main_v1)) true 11 ∗ StSt m c (m ((c : Thread nD τ).loc main_v1)) 1 ∗ Ow c (owedAt c 2 16 16 0)) ∗ (∀ r : (PUnit), (⌜True⌝ ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 16 ∗ recvCells (xrecvCell c) 15 ∗ StB m c (m ((c : Thread nD τ).loc main_v1)) true 16 16 16 ∗ StC m c (m ((c : Thread nD τ).loc main_v1)) true 15 ∗ StSt m c (m ((c : Thread nD τ).loc main_v1)) 1 ∗ Ow c (owedAt c 2 16 16 0))) -∗ Q r))
      ⊢ wp frame (wpE (defs₀ (F := F)) 𝒱₀ (c : Thread nD τ) none) Set.univ (k0_part48 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7 v1422) Q :=
  frm_n16_11_13_15_u (part_48 (m := m) K c fv fs)

end Cert.KernelIdeal.AG

end
-- ==== Proof.Body.lean ====
import proofs.«900094_g7700000000000095_dist_ag_v7x_xy2x2_y_m16384_n1024_bf16_1_alg».proof.Proof.BodyF

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
set_option maxHeartbeats 4000000 in
/-- The forty-eight parts in the root's order: from the strands at their starts to the strands after the last part. -/
theorem parts_all (K : Dev nD × Kind → ℕ) (c : Dev nD) (fv : Buf (Elt F) ((c : Thread nD τ).loc cc0_scratch1)) (fs : Buf (Elt F) ((c : Thread nD τ).loc cc0_scratch0))
    {Q : (Σ' (d0 : Dev nD) (v2 : BitVec 32) (v5 : BitVec 32) (v6 : BitVec 32), BitVec 32) → sProp 𝕄} :
    iprop(Pers m K ∗ (StBar c 0 ∗ StExit c 0 ∗ StLd m c fv 0 0 ∗ StVs m c fs 0 0 0 0 ∗ StYtok c 0 ∗ sendCells (ysendCell c) 0 0 ∗ recvCells (yrecvCell c) 0 ∗ StFtok c 0 ∗ sendCells (xsendCell c) 0 0 ∗ recvCells (xrecvCell c) 0 ∗ StB m c (m ((c : Thread nD τ).loc main_v1)) false 0 0 0 ∗ StC m c (m ((c : Thread nD τ).loc main_v1)) false 0 ∗ StSt m c (m ((c : Thread nD τ).loc main_v1)) 0 ∗ Ow c (owedAt c 0 0 0 0)) ∗ (∀ r : (Σ' (d0 : Dev nD) (v2 : BitVec 32) (v5 : BitVec 32) (v6 : BitVec 32), BitVec 32), (⌜r.1 = c⌝ ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 16 ∗ recvCells (xrecvCell c) 15 ∗ StB m c (m ((c : Thread nD τ).loc main_v1)) true 16 16 16 ∗ StC m c (m ((c : Thread nD τ).loc main_v1)) true 15 ∗ StSt m c (m ((c : Thread nD τ).loc main_v1)) 1 ∗ Ow c (owedAt c 2 16 16 0))) -∗ Q r))
      ⊢ wp frame (wpE (defs₀ (F := F)) 𝒱₀ (c : Thread nD τ) none) Set.univ (k0_part49 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0) Q := by
  rw [k0_part49_eq_skeleton]; unfold k0_part49_skel
  -- k0_part1
  rw [wp_bind]
  refine chain_part (fpart_1 (m := m) K c fv fs) (fun r => ?_)
  obtain ⟨d0, v2, v5, v6, v7, v17, rl⟩ := r
  refine chain_pure (fun hd => ?_)
  have hd' : c = d0 := hd.symm
  subst hd'
  try dsimp only
  -- k0_part2
  rw [wp_bind]
  refine chain_part (fpart_2 (m := m) K c fv fs) (fun r => ?_)
  refine chain_pure (fun _ => ?_)
  try dsimp only
  -- k0_part3
  rw [wp_bind]
  refine chain_part (fpart_3 (m := m) K c fv fs) (fun r => ?_)
  refine chain_pure (fun _ => ?_)
  try dsimp only
  -- k0_part4
  rw [wp_bind]
  refine chain_part (fpart_4 (m := m) K c fv fs) (fun r => ?_)
  refine chain_pure (fun _ => ?_)
  try dsimp only
  -- k0_part5
  rw [wp_bind]
  refine chain_part (fpart_5 (m := m) K c fv fs) (fun r => ?_)
  refine chain_pure (fun _ => ?_)
  try dsimp only
  -- k0_part6
  rw [wp_bind]
  refine chain_part (fpart_6 (m := m) K c fv fs) (fun r => ?_)
  obtain ⟨v182, rl⟩ := r
  refine chain_pure (fun _ => ?_)
  try dsimp only
  -- k0_part7
  rw [wp_bind]
  refine chain_part (fpart_7 (m := m) K c fv fs) (fun r => ?_)
  refine chain_pure (fun _ => ?_)
  try dsimp only
  -- k0_part8
  rw [wp_bind]
  refine chain_part (fpart_8 (m := m) K c fv fs) (fun r => ?_)
  refine chain_pure (fun _ => ?_)
  try dsimp only
  -- k0_part9
  rw [wp_bind]
  refine chain_part (fpart_9 (m := m) K c fv fs) (fun r => ?_)
  refine chain_pure (fun _ => ?_)
  try dsimp only
  -- k0_part10
  rw [wp_bind]
  refine chain_part (fpart_10 (m := m) K c fv fs) (fun r => ?_)
  refine chain_pure (fun _ => ?_)
  try dsimp only
  -- k0_part11
  rw [wp_bind]
  refine chain_part (fpart_11 (m := m) K c fv fs) (fun vnext => ?_)
  refine chain_pure (fun hw => ?_)
  try dsimp only
  -- k0_part12
  rw [wp_bind]
  refine chain_part (fpart_12 (m := m) K c fv fs vnext hw) (fun vnext => ?_)
  refine chain_pure (fun hw => ?_)
  try dsimp only
  -- k0_part13
  rw [wp_bind]
  refine chain_part (fpart_13 (m := m) K c fv fs vnext hw) (fun r => ?_)
  obtain ⟨v402, rl⟩ := r
  refine chain_pure (fun hw => ?_)
  try dsimp only
  -- k0_part14
  rw [wp_bind]
  refine chain_part (fpart_14 (m := m) K c fv fs v402 hw) (fun vnext => ?_)
  refine chain_pure (fun hw => ?_)
  try dsimp only
  -- k0_part15
  rw [wp_bind]
  refine chain_part (fpart_15 (m := m) K c fv fs vnext hw) (fun r => ?_)
  refine chain_pure (fun _ => ?_)
  try dsimp only
  -- k0_part16
  rw [wp_bind]
  refine chain_part (fpart_16 (m := m) K c fv fs) (fun r => ?_)
  refine chain_pure (fun _ => ?_)
  try dsimp only
  -- k0_part17
  rw [wp_bind]
  refine chain_part (fpart_17 (m := m) K c fv fs) (fun r => ?_)
  refine chain_pure (fun _ => ?_)
  try dsimp only
  -- k0_part18
  rw [wp_bind]
  refine chain_part (fpart_18 (m := m) K c fv fs) (fun r => ?_)
  refine chain_pure (fun _ => ?_)
  try dsimp only
  -- k0_part19
  rw [wp_bind]
  refine chain_part (fpart_19 (m := m) K c fv fs) (fun r => ?_)
  obtain ⟨v589, rl⟩ := r
  refine chain_pure (fun hw => ?_)
  try dsimp only
  -- k0_part20
  rw [wp_bind]
  refine chain_part (fpart_20 (m := m) K c fv fs v589 rl hw) (fun r => ?_)
  refine chain_pure (fun _ => ?_)
  try dsimp only
  -- k0_part21
  rw [wp_bind]
  refine chain_part (fpart_21 (m := m) K c fv fs) (fun r => ?_)
  refine chain_pure (fun _ => ?_)
  try dsimp only
  -- k0_part22
  rw [wp_bind]
  refine chain_part (fpart_22 (m := m) K c fv fs) (fun r => ?_)
  obtain ⟨v685, rl⟩ := r
  refine chain_pure (fun _ => ?_)
  try dsimp only
  -- k0_part23
  rw [wp_bind]
  refine chain_part (fpart_23 (m := m) K c fv fs) (fun r => ?_)
  refine chain_pure (fun _ => ?_)
  try dsimp only
  -- k0_part24
  rw [wp_bind]
  refine chain_part (fpart_24 (m := m) K c fv fs) (fun r => ?_)
  refine chain_pure (fun _ => ?_)
  try dsimp only
  -- k0_part25
  rw [wp_bind]
  refine chain_part (fpart_25 (m := m) K c fv fs) (fun r => ?_)
  refine chain_pure (fun _ => ?_)
  try dsimp only
  -- k0_part26
  rw [wp_bind]
  refine chain_part (fpart_26 (m := m) K c fv fs) (fun r => ?_)
  obtain ⟨v810, rl⟩ := r
  refine chain_pure (fun _ => ?_)
  try dsimp only
  -- k0_part27
  rw [wp_bind]
  refine chain_part (fpart_27 (m := m) K c fv fs) (fun r => ?_)
  refine chain_pure (fun _ => ?_)
  try dsimp only
  -- k0_part28
  rw [wp_bind]
  refine chain_part (fpart_28 (m := m) K c fv fs) (fun r => ?_)
  refine chain_pure (fun _ => ?_)
  try dsimp only
  -- k0_part29
  rw [wp_bind]
  refine chain_part (fpart_29 (m := m) K c fv fs) (fun r => ?_)
  refine chain_pure (fun _ => ?_)
  try dsimp only
  -- k0_part30
  rw [wp_bind]
  refine chain_part (fpart_30 (m := m) K c fv fs) (fun r => ?_)
  refine chain_pure (fun _ => ?_)
  try dsimp only
  -- k0_part31
  rw [wp_bind]
  refine chain_part (fpart_31 (m := m) K c fv fs) (fun r => ?_)
  refine chain_pure (fun _ => ?_)
  try dsimp only
  -- k0_part32
  rw [wp_bind]
  refine chain_part (fpart_32 (m := m) K c fv fs) (fun r => ?_)
  refine chain_pure (fun _ => ?_)
  try dsimp only
  -- k0_part33
  rw [wp_bind]
  refine chain_part (fpart_33 (m := m) K c fv fs) (fun r => ?_)
  refine chain_pure (fun _ => ?_)
  try dsimp only
  -- k0_part34
  rw [wp_bind]
  refine chain_part (fpart_34 (m := m) K c fv fs) (fun r => ?_)
  obtain ⟨v1058, rl⟩ := r
  refine chain_pure (fun _ => ?_)
  try dsimp only
  -- k0_part35
  rw [wp_bind]
  refine chain_part (fpart_35 (m := m) K c fv fs) (fun r => ?_)
  refine chain_pure (fun _ => ?_)
  try dsimp only
  -- k0_part36
  rw [wp_bind]
  refine chain_part (fpart_36 (m := m) K c fv fs) (fun vnext => ?_)
  refine chain_pure (fun hw => ?_)
  try dsimp only
  -- k0_part37
  rw [wp_bind]
  refine chain_part (fpart_37 (m := m) K c fv fs vnext hw) (fun r => ?_)
  refine chain_pure (fun _ => ?_)
  try dsimp only
  -- k0_part38
  rw [wp_bind]
  refine chain_part (fpart_38 (m := m) K c fv fs) (fun r => ?_)
  obtain ⟨v1182, rl⟩ := r
  refine chain_pure (fun _ => ?_)
  try dsimp only
  -- k0_part39
  rw [wp_bind]
  refine chain_part (fpart_39 (m := m) K c fv fs) (fun r => ?_)
  refine chain_pure (fun _ => ?_)
  try dsimp only
  -- k0_part40
  rw [wp_bind]
  refine chain_part (fpart_40 (m := m) K c fv fs) (fun r => ?_)
  refine chain_pure (fun _ => ?_)
  try dsimp only
  -- k0_part41
  rw [wp_bind]
  refine chain_part (fpart_41 (m := m) K c fv fs) (fun r => ?_)
  refine chain_pure (fun _ => ?_)
  try dsimp only
  -- k0_part42
  rw [wp_bind]
  refine chain_part (fpart_42 (m := m) K c fv fs) (fun r => ?_)
  refine chain_pure (fun _ => ?_)
  try dsimp only
  -- k0_part43
  rw [wp_bind]
  refine chain_part (fpart_43 (m := m) K c fv fs) (fun r => ?_)
  refine chain_pure (fun _ => ?_)
  try dsimp only
  -- k0_part44
  rw [wp_bind]
  refine chain_part (fpart_44 (m := m) K c fv fs) (fun r => ?_)
  refine chain_pure (fun _ => ?_)
  try dsimp only
  -- k0_part45
  rw [wp_bind]
  refine chain_part (fpart_45 (m := m) K c fv fs) (fun r => ?_)
  refine chain_pure (fun _ => ?_)
  try dsimp only
  -- k0_part46
  rw [wp_bind]
  refine chain_part (fpart_46 (m := m) K c fv fs) (fun r => ?_)
  obtain ⟨v1391, rl⟩ := r
  refine chain_pure (fun _ => ?_)
  try dsimp only
  -- k0_part47
  rw [wp_bind]
  refine chain_part (fpart_47 (m := m) K c fv fs) (fun r => ?_)
  refine chain_pure (fun _ => ?_)
  try dsimp only
  -- k0_part48
  rw [wp_bind]
  refine chain_part (fpart_48 (m := m) K c fv fs) (fun r => ?_)
  refine chain_pure (fun _ => ?_)
  try dsimp only
  simp only [Prog.pure_eq_ret, wp_ret]
  iintro ⟨#HP, HS, Hk⟩
  imodintro
  iapply Hk
  isplitr; · ipureintro; rfl
  iexact HS

set_option maxHeartbeats 4000000 in
/-- The body on device `c`, from `Φ₀` and everything it owes, runs to `Φ₁` owing nothing. -/
theorem sound_body (c : Dev nD) (W : Waits sig Unit) (Kt : PUnit → sProp 𝕄) :
    iprop(Φ₀ m c ∗ owes (c : Thread nD τ) (O₀ c) W ∗ ((Φ₁ m c ∗ ∃ W', owes (c : Thread nD τ) 0 W') -∗ Kt ⟨⟩))
      ⊢ wp frame (wpE (defs₀ (F := F)) 𝒱₀ c none) Set.univ (bodyAt0 (F := F) t0_0) Kt := by
  iintro ⟨HΦ, HO, Hk⟩
  ihave Hs := (st_init m c W) $$ [HΦ HO]
  · isplitl [HΦ] <;> iassumption
  icases Hs with ⟨%K, %fv, %fs, #HP, HBar, HExit, HLd, HVs, HYt, HYs, HYr, HFt, HFs, HXr, HB, HC, HSt, HOw⟩
  unfold bodyAt0
  rw [cc0_body_eq_skeleton]; unfold cc0_body_skel
  rw [wp_bind]
  iapply (parts_all (m := m) K c fv fs)
  isplitr; · iexact HP
  isplitl [HBar HExit HLd HVs HYt HYs HYr HFt HFs HXr HB HC HSt HOw]
  · isplitl [HBar]; · iexact HBar
    isplitl [HExit]; · iexact HExit
    isplitl [HLd]; · iexact HLd
    isplitl [HVs]; · iexact HVs
    isplitl [HYt]; · iexact HYt
    isplitl [HYs]; · iexact HYs
    isplitl [HYr]; · iexact HYr
    isplitl [HFt]; · iexact HFt
    isplitl [HFs]; · iexact HFs
    isplitl [HXr]; · iexact HXr
    isplitl [HB]; · iexact HB
    isplitl [HC]; · iexact HC
    isplitl [HSt]; · iexact HSt
    iexact HOw
  iintro %r ⟨%hr, ⟨HBar, HExit, HLd, HVs, HYt, HYg, HYs, HYr, HFt, HFg, HFs, HXr, HB, HC, HSt, HOw⟩⟩
  obtain ⟨d0, v2, v5, v6, v7⟩ := r
  have hr' : c = d0 := hr.symm
  subst hr'
  try dsimp only
  try simp only [Prog.lift, Prog.bind_op, Prog.bind_ret, Prog.pure_eq_ret, semSignalWord, semWaitWord, wp_deviceId]
  iapply (s_xrecv_wait (m := m) (K := K) (c := c) (fo := m ((c : Thread nD τ).loc main_v1)) (15 : Fin 16) 15 0 rfl)
  isplitr; · iexact HP
  isplitl [HXr]; · iexact HXr
  isplitl [HC]; · iexact HC
  isplitl [HOw]; · iexact HOw
  iintro ⟨HXr, HC, HOw⟩
  iapply (s_st_wait (m := m) (K := K) (c := c) (fs := fs) (fo := m ((c : Thread nD τ).loc main_v1)) 16 0)
  isplitr; · iexact HP
  isplitl [HSt]; · iexact HSt
  isplitl [HVs]; · iexact HVs
  isplitl [HOw]; · iexact HOw
  iintro ⟨HSt, HVs, HOw⟩
  iapply (s_sig_exit_y (m := m) (K := K) (c := c) _ (devY k0_dev35 k0_dev35_lt k0_dev35_eq c))
  isplitr; · iexact HP
  isplitl [HExit]; · iexact HExit
  isplitl [HOw]; · iexact HOw
  iintro ⟨HExit, HOw⟩
  iapply (s_sig_exit_x (m := m) (K := K) (c := c) _ (devX k0_dev36 k0_dev36_lt k0_dev36_eq c))
  isplitr; · iexact HP
  isplitl [HExit]; · iexact HExit
  isplitl [HOw]; · iexact HOw
  iintro ⟨HExit, HOw⟩
  iapply (s_wait_exit (m := m) (K := K) (c := c))
  isplitr; · iexact HP
  isplitl [HExit]; · iexact HExit
  isplitl [HOw]; · iexact HOw
  iintro ⟨HExit, HOw⟩
  imod (st_final m K c fv fs (m ((c : Thread nD τ).loc main_v1)) 2 (by decide)) $$ [HExit HLd HVs HYs HYr HFs HXr HB HC HSt HOw] with Hfin
  · isplitr; · iexact HP
    isplitl [HExit]; · iexact HExit
    isplitl [HLd]; · iexact HLd
    isplitl [HVs]; · iexact HVs
    isplitl [HYs]; · iexact HYs
    isplitl [HYr]; · iexact HYr
    isplitl [HFs]; · iexact HFs
    isplitl [HXr]; · iexact HXr
    isplitl [HB]; · iexact HB
    isplitl [HC]; · iexact HC
    isplitl [HSt]; · iexact HSt
    iexact HOw
  rw [wp_ret]; imodintro
  iapply Hk; iexact Hfin
  -- END

end Cert.KernelIdeal.AG

end
-- ==== Proof.Launch.lean ====
import proofs.«900094_g7700000000000095_dist_ag_v7x_xy2x2_y_m16384_n1024_bf16_1_alg».proof.Proof.Body

/-!
# The launch of the all-gather on the 2×2 mesh

One device's thread meets the pipeline's body obligation; and from any memory with every counter at zero the four
threads, launched together, run to a state in which every device's result array holds the gathered narrowed blocks
and its input block is what it was. The launch allocates every device's sixty-six protocol cells under one update,
deals each duty's token to the device that pays it, and hands each device the credit its own waits spend.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

/-- The library's body obligation on device `c`: the program stages no window, so the obligation is the body's run
    from `Φ₀` and what the device owes to `Φ₁` owing nothing. -/
theorem body_obligation (c : Dev nD) : BodyObligation (dats (F := F) m 0 c) (defs₀ (F := F)) 𝒱₀ () Set.univ := fun t => by
  rw [fin_N0 t]
  show iprop(Φ₀ m c ∗ (dats (F := F) m 0 c).owesAt () (Fin.castSucc t0_0) ∗ bigSep (Finset.univ : Finset (Fin 0)) _)
    ⊢ wp frame (wpE (defs₀ (F := F)) 𝒱₀ c none) Set.univ (bodyAt0 (F := F) t0_0)
      (fun _ => iprop(Φ₁ m c ∗ (dats (F := F) m 0 c).owesAt () (Fin.succ t0_0) ∗ bigSep (Finset.univ : Finset (Fin 0)) _))
  iintro ⟨HΦ, ⟨%W, -, Ho⟩, -⟩
  iapply (sound_body m c W _)
  isplitl [HΦ]; · iexact HΦ
  isplitl [Ho]; · iexact Ho
  iintro ⟨HΦ, %W', Ho⟩
  isplitl [HΦ]; · iexact HΦ
  isplitl
  · iexists W'
    isplitr; · ipureintro; exact fun _ _ => Or.inl trivial
    iexact Ho
  · exact Entails.of_eq bigSep_empty.symm

/-! The launch's own definitions and lemmas live in a namespace of their own. -/
namespace Launch

/-! ## The cells, listed

The kinds are the entry cell and the kernel's own sixty-eight; a device's cell of a kind is its thread beside the kind's
semaphore, so a cell names its device and its kind. -/

/-- The kinds other than the entry cell's: the kernel's own semaphores. -/
abbrev OwnK : Type := Unit ⊕ (Fin 2 ⊕ (Unit ⊕ (Fin 16 ⊕ (Fin 16 ⊕ (Fin 16 ⊕ Fin 16)))))

def kindE : Kind ≃ Unit ⊕ OwnK where
  toFun
    | .bar => .inl ()
    | .exit => .inr (.inl ())
    | .ld s => .inr (.inr (.inl s))
    | .st => .inr (.inr (.inr (.inl ())))
    | .ysend j => .inr (.inr (.inr (.inr (.inl j))))
    | .yrecv j => .inr (.inr (.inr (.inr (.inr (.inl j)))))
    | .xsend j => .inr (.inr (.inr (.inr (.inr (.inr (.inl j))))))
    | .xrecv j => .inr (.inr (.inr (.inr (.inr (.inr (.inr j))))))
  invFun
    | .inl _ => .bar
    | .inr (.inl _) => .exit
    | .inr (.inr (.inl s)) => .ld s
    | .inr (.inr (.inr (.inl _))) => .st
    | .inr (.inr (.inr (.inr (.inl j)))) => .ysend j
    | .inr (.inr (.inr (.inr (.inr (.inl j))))) => .yrecv j
    | .inr (.inr (.inr (.inr (.inr (.inr (.inl j)))))) => .xsend j
    | .inr (.inr (.inr (.inr (.inr (.inr (.inr j)))))) => .xrecv j
  left_inv k := by cases k <;> rfl
  right_inv x := by rcases x with _ | _ | _ | _ | _ | _ | _ | _ <;> rfl

/-- A kind's semaphore. -/
def semOf : Kind → SemLoc sig
  | .bar => .reg barS | .exit => .reg exitS
  | .ld s => .dma (lsemS s) | .st => .dma ssemS
  | .ysend j => .dma (ysendS j) | .yrecv j => .dma (yrecvS j)
  | .xsend j => .dma (xsendS j) | .xrecv j => .dma (xrecvS j)

theorem cellOfKind_eq (c : Dev nD) (k : Kind) : cellOfKind c k = ((c : Thread nD τ), semOf k) := by cases k <;> rfl

theorem kindOf_semOf : ∀ k : Kind, kindOf (semOf k) = some k := by decide

theorem semOf_injective : Function.Injective semOf := fun k k' h =>
  Option.some.inj (by rw [← kindOf_semOf k, ← kindOf_semOf k', h])

theorem cellAt_injective : Function.Injective (cellAt : Dev nD × Kind → GSem nD τ sig) := by
  rintro ⟨c, k⟩ ⟨c', k'⟩ h
  simp only [cellAt, cellOfKind_eq] at h
  have h1 : c = c' := congrArg (fun g : GSem nD τ sig => g.1.1) h
  subst h1
  have h2 : k = k' := semOf_injective (congrArg Prod.snd h)
  subst h2; rfl

omit [FloatOps F] in
/-- A `bigSep` over the kinds, family by family. -/
theorem bigSep_kind (Φ : Kind → sProp 𝕄) :
    bigSep Finset.univ Φ = iprop(Φ .bar ∗ Φ .exit ∗ (bigSep Finset.univ fun s => Φ (.ld s)) ∗ Φ .st
      ∗ (bigSep Finset.univ fun j => Φ (.ysend j)) ∗ (bigSep Finset.univ fun j => Φ (.yrecv j))
      ∗ (bigSep Finset.univ fun j => Φ (.xsend j)) ∗ (bigSep Finset.univ fun j => Φ (.xrecv j))) := by
  rw [bigSep_univ_equiv kindE.symm Φ, bigSep_univ_sum, bigSep_univ_sum, bigSep_univ_sum, bigSep_univ_sum, bigSep_univ_sum, bigSep_univ_sum,
    bigSep_univ_sum, bigSep_univ_of_subsingleton (), bigSep_univ_of_subsingleton (), bigSep_univ_of_subsingleton ()]
  rfl

/-- The kernel's own semaphores, as the launch indexes them. -/
def osem (k : OwnK) : SemLoc sig := semOf (kindE.symm (.inr k))

theorem ownSemFacts : Pipeline.OwnSemFacts cfg0.spec osem :=
  ⟨by decide, fun k k' h => Sum.inr.inj (kindE.symm.injective (semOf_injective h)), fun k w => w.elim0⟩

/-! ## The launch element and what it funds -/

theorem share_eq (c : Dev nD) (w : Fin cfg0.W) : (dats (F := F) m 0 c).share w = fullShare := w.elim0

def ringCells : Finset (GSem nD τ sig) := Finset.univ.map ⟨cellAt, cellAt_injective⟩

/-- The duties of a device's own cells, as their tokens are minted: the entry cell's two, the exit cell's two, each
    receive and each send cell's one, a load slot's one in each of its sixteen rounds, the store's one. -/
abbrev TokK : Type := Bool ⊕ (Bool ⊕ (Fin 16 ⊕ (Fin 16 ⊕ (Fin 16 ⊕ (Fin 16 ⊕ ((Fin 2 × Fin 16) ⊕ Unit))))))

def tokKind : TokK → Kind
  | .inl _ => .bar
  | .inr (.inl _) => .exit
  | .inr (.inr (.inl j)) => .yrecv j
  | .inr (.inr (.inr (.inl j))) => .xrecv j
  | .inr (.inr (.inr (.inr (.inl j)))) => .ysend j
  | .inr (.inr (.inr (.inr (.inr (.inl j))))) => .xsend j
  | .inr (.inr (.inr (.inr (.inr (.inr (.inl sr)))))) => .ld sr.1
  | .inr (.inr (.inr (.inr (.inr (.inr (.inr _)))))) => .st
def tokRound : TokK → ℕ
  | .inr (.inr (.inr (.inr (.inr (.inr (.inl sr)))))) => sr.2.val
  | _ => 0
def tokDuty : TokK → Bool
  | .inl b => b
  | .inr (.inl b) => b
  | _ => false

theorem tok_ext : ∀ t t' : TokK, tokKind t = tokKind t' → tokRound t = tokRound t' → tokDuty t = tokDuty t' → t = t' := by
  rintro (b | b | j | j | j | j | ⟨s, r⟩ | _) (b' | b' | j' | j' | j' | j' | ⟨s', r'⟩ | _) hk hr hd
  all_goals first
    | rfl
    | (cases hk; done)
    | (cases hk; rfl)
    | exact congrArg Sum.inl hd
    | exact congrArg (fun b => Sum.inr (Sum.inl b)) hd
    | (cases hk; rw [show r = r' from Fin.ext hr])

abbrev tokOf (ct : Dev nD × TokK) : GSem nD τ sig × ℕ × Bool := (cellOfKind ct.1 (tokKind ct.2), tokRound ct.2, tokDuty ct.2)

theorem tokOf_injective : Function.Injective (tokOf : Dev nD × TokK → GSem nD τ sig × ℕ × Bool) := by
  rintro ⟨c, t⟩ ⟨c', t'⟩ h
  have hg : cellAt (c, tokKind t) = cellAt (c', tokKind t') := congrArg (fun x : GSem nD τ sig × ℕ × Bool => x.1) h
  have hck := cellAt_injective hg
  have h1 : c = c' := congrArg Prod.fst hck
  have h2 : tokKind t = tokKind t' := congrArg Prod.snd hck
  have h3 : tokRound t = tokRound t' := congrArg (fun x : GSem nD τ sig × ℕ × Bool => x.2.1) h
  have h4 : tokDuty t = tokDuty t' := congrArg (fun x : GSem nD τ sig × ℕ × Bool => x.2.2) h
  rw [h1, tok_ext t t' h2 h3 h4]

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((dutyTok ER (barCell c) 0 false ∗ dutyTok ER (barCell c) 0 true)
    ∗ (dutyTok ER (exitCell c) 0 false ∗ dutyTok ER (exitCell c) 0 true)
    ∗ (bigSep Finset.univ fun j : Fin 16 => dutyTok ER (yrecvCell c j) 0 false)
    ∗ (bigSep Finset.univ fun j : Fin 16 => dutyTok ER (xrecvCell c j) 0 false)
    ∗ (bigSep Finset.univ fun j : Fin 16 => dutyTok ER (ysendCell c j) 0 false)
    ∗ (bigSep Finset.univ fun j : Fin 16 => dutyTok ER (xsendCell c j) 0 false)
    ∗ (bigSep Finset.univ fun sr : Fin 2 × Fin 16 => dutyTok ER (ldCell c sr.1) sr.2.val false)
    ∗ dutyTok ER (stCell c) 0 false)

/-- What the launch element deals device `c`: each of its cells' round state at counter zero, its position at the start
    of round 0 and that round 0 is reached, and its cells' duty tokens. -/
def G (c : Dev nD) : sProp 𝕄 :=
  iprop((bigSep Finset.univ fun k : Kind => roundState ER (sched m) (cellOfKind c k) 0)
    ∗ (bigSep Finset.univ fun k : Kind => iprop(atPos ER (cellOfKind c k) 0 ∅ 0 ∗ reached ER (cellOfKind c k) 0)) ∗ toks c)

/-- What the global step makes of it. -/
def G' (c : Dev nD) : sProp 𝕄 := iprop(∃ K, ghost m K c)

omit [FloatOps F] in
theorem bigSep_bool (Φ : Bool → sProp 𝕄) : bigSep Finset.univ Φ = iprop(Φ false ∗ Φ true) :=
  bigSep_univ_eq_bigSepL [false, true] (by decide) (by decide) Φ

omit [FloatOps F] in
theorem toks_eq (c : Dev nD) : (bigSep Finset.univ fun t : TokK => (dutyTok ER (tokOf (c, t)).1 (tokOf (c, t)).2.1 (tokOf (c, t)).2.2 : sProp 𝕄)) = toks c := by
  unfold toks
  rw [bigSep_univ_sum, bigSep_univ_sum, bigSep_univ_sum, bigSep_univ_sum, bigSep_univ_sum, bigSep_univ_sum, bigSep_univ_sum,
    bigSep_bool, bigSep_bool, bigSep_univ_of_subsingleton ()]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Kind => Φ (cellOfKind c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every device's cells allocated under one update -/

omit [FloatOps F] in
/-- The entry semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A `bigSep` over the kinds: the entry cell's summand and the kernel's own. -/
theorem bigSep_kind_own (Φ : Kind → sProp 𝕄) :
    bigSep Finset.univ Φ = iprop(Φ .bar ∗ bigSep Finset.univ fun k : OwnK => Φ (kindE.symm (.inr k))) := by
  rw [bigSep_univ_equiv kindE.symm Φ, bigSep_univ_sum, bigSep_univ_of_subsingleton ()]
  rfl

omit [FloatOps F] in
/-- A device's own semaphores and its entry semaphore are its cells' counters. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Kind => semVal (cellOfKind c k) 0 : sProp 𝕄) := by
  have hO : (Pipeline.ownSems0 (Ix := Unit) (Name := ℕ) (U := UU) (Lvl := ℕ) (Val := Elt F) (τ := τ) osem c : sProp 𝕄)
      = bigSep Finset.univ fun k : OwnK => semVal (cellOfKind c (kindE.symm (.inr k))) 0 := by
    unfold Pipeline.ownSems0
    exact bigSep_congr fun k _ => by rw [cellOfKind_eq]; rfl
  rw [hO, unscopedSems0_eq, bigSep_kind_own]
  iintro ⟨Ho, Hb⟩
  isplitl [Hb]; · iexact Hb
  iexact Ho

private theorem sched_storable (g : GSem nD τ sig) (r : ℕ) (d : Bool) :
    BI.Storable (upEmb : UEmb _ 𝕄) ((sched (F := F) m).payload g r d) := by
  dsimp only [sched]
  unfold barPayY barPayX ysendPay yrecvPay xsendPay xrecvPay ldPay ldPayAt stPay
  (repeat' split) <;> infer_instance
attribute [local instance] sched_storable

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Kind => iprop(∃ κ : ℕ, cellInv ER (sched m) κ (cellOfKind c k)))
          ∗ (bigSep Finset.univ fun k : Kind => iprop(atPos ER (cellOfKind c k) 0 ∅ 0 ∗ reached ER (cellOfKind c k) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Kind => semVal (cellOfKind c k) 0) ∗ bigSep Finset.univ fun k : Kind => roundState ER (sched m) (cellOfKind c k) 0)
      ⊢ (|={Set.univ}=> bigSep Finset.univ fun k : Kind => iprop(∃ κ : ℕ, cellInv ER (sched m) κ (cellOfKind c k)) : sProp 𝕄) from by
        rw [← bigSep_sep']
        exact (bigSep_mono fun k _ => (Rounds.body_intro ER (sched m) (cellOfKind c k)).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt to the devices that pay them: the entry and the exit cell's duty `false` and a y-receive cell's duty to
    the y-neighbour, their duty `true` and a forward-receive cell's duty to the x-neighbour; the rest stay. -/
theorem toks_around : (bigSep Finset.univ fun c : Dev nD => (toks c : sProp 𝕄)) ⊢ bigSep Finset.univ fun c : Dev nD => payToks c := by
  unfold toks payToks
  simp only [bigSep_sep']
  rw [bigSep_univ_equiv ynE (fun c : Dev nD => (dutyTok ER (barCell c) 0 false : sProp 𝕄)),
    bigSep_univ_equiv xnE (fun c : Dev nD => (dutyTok ER (barCell c) 0 true : sProp 𝕄)),
    bigSep_univ_equiv ynE (fun c : Dev nD => (dutyTok ER (exitCell c) 0 false : sProp 𝕄)),
    bigSep_univ_equiv xnE (fun c : Dev nD => (dutyTok ER (exitCell c) 0 true : sProp 𝕄)),
    bigSep_univ_equiv ynE (fun c : Dev nD => (bigSep Finset.univ fun j : Fin 16 => dutyTok ER (yrecvCell c j) 0 false : sProp 𝕄)),
    bigSep_univ_equiv xnE (fun c : Dev nD => (bigSep Finset.univ fun j : Fin 16 => dutyTok ER (xrecvCell c j) 0 false : sProp 𝕄))]
  iintro ⟨⟨Hbf, Hbt⟩, ⟨Hef, Het⟩, Hyr, Hxr, Hys, Hxs, Hld, Hst⟩
  isplitl [Hbf]; · iexact Hbf
  isplitl [Hbt]; · iexact Hbt
  isplitl [Hef]; · iexact Hef
  isplitl [Het]; · iexact Het
  isplitl [Hyr]; · iexact Hyr
  isplitl [Hxr]; · iexact Hxr
  isplitl [Hys]; · iexact Hys
  isplitl [Hxs]; · iexact Hxs
  isplitl [Hld]; · iexact Hld
  iexact Hst

theorem ghost_intro (K : Dev nD × Kind → ℕ) (c : Dev nD) : iprop(records m K ∗ (positions c ∗ payToks c)) ⊢ G' m c := by
  unfold G' ghost
  iintro ⟨HR, HP, HT⟩
  iexists K
  isplitl [HR]; · iexact HR
  isplitl [HP]; · iexact HP
  iexact HT

theorem regroup :
    (bigSep Finset.univ fun c : Dev nD => iprop((bigSep Finset.univ fun k : Kind => iprop(∃ κ : ℕ, cellInv ER (sched m) κ (cellOfKind c k)))
          ∗ (bigSep Finset.univ fun k : Kind => iprop(atPos ER (cellOfKind c k) 0 ∅ 0 ∗ reached ER (cellOfKind c k) 0)) ∗ toks c) : sProp 𝕄)
      ⊢ bigSep Finset.univ (G' m) := by
  rw [bigSep_sep', bigSep_sep', ← bigSep_univ_prod (fun ck : Dev nD × Kind => iprop(∃ κ : ℕ, cellInv ER (sched m) κ (cellAt ck))),
    bigSep_congr (s := Finset.univ) (fun (c : Dev nD) _ => bigSep_sep' Finset.univ (fun k : Kind => (atPos ER (cellOfKind c k) 0 ∅ 0 : sProp 𝕄)) (fun k => reached ER (cellOfKind c k) 0)),
    bigSep_sep', ← bigSep_univ_prod (fun ck : Dev nD × Kind => (reached ER (cellAt ck) 0 : sProp 𝕄))]
  iintro ⟨HI, ⟨Hat, #HR⟩, Htok⟩
  ihave HK := (BI.bigSep_exists_pi Finset.univ (fun (ck : Dev nD × Kind) (κ : ℕ) => (cellInv ER (sched m) κ (cellAt ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply (Entails.of_eq (bigSep_sep' Finset.univ (fun c : Dev nD => positions c) payToks).symm)
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit

Summed over the devices, what is owed a device's entry cell and its exit cell is two units, one from each neighbour; what
is owed each of its receive cells is one chunk's credit, from the neighbour that sends the chunk; nothing else is owed. -/

theorem cell_eq_iff {a b : Dev nD} {k k' : Kind} : cellOfKind a k = cellOfKind b k' ↔ a = b ∧ k = k' :=
  ⟨fun h => by
    have h' := cellAt_injective (a₁ := (a, k)) (a₂ := (b, k')) h
    exact ⟨congrArg Prod.fst h', congrArg Prod.snd h'⟩, fun ⟨h1, h2⟩ => by rw [h1, h2]⟩

theorem eq_xn_iff {c d : Dev nD} : c = xn d ↔ d = xn c := ⟨fun h => by rw [h, xn_xn], fun h => by rw [h, xn_xn]⟩
theorem eq_yn_iff {c d : Dev nD} : c = yn d ↔ d = yn c := ⟨fun h => by rw [h, yn_yn], fun h => by rw [h, yn_yn]⟩

/-- What device `d` owes a cell at launch, summand by summand. -/
theorem O₀_apply (d : Dev nD) (g : GSem nD τ sig) :
    O₀ d g () = (if g = cellOfKind (xn d) .exit then 1 else 0) + (if g = cellOfKind (yn d) .exit then 1 else 0)
      + (∑ j : Fin 16, if g = cellOfKind (xn d) (.xrecv j) then N else 0) + (∑ j : Fin 16, if g = cellOfKind (yn d) (.yrecv j) then N else 0)
      + (if g = cellOfKind (xn d) .bar then 1 else 0) + (if g = cellOfKind (yn d) .bar then 1 else 0) := by
  unfold O₀ O₁ O₂ owedExit owedX owedY
  simp only [Pi.add_apply, Finsupp.add_apply, Finset.sum_apply, Finsupp.finsetSum_apply, tallyAt_apply, and_true, Nat.zero_le,
    Finset.filter_true]
  rfl

theorem owed_bar (d c : Dev nD) : O₀ d (barCell c) () = (if d = xn c then 1 else 0) + (if d = yn c then 1 else 0) := by
  rw [show barCell c = cellOfKind c .bar from rfl, O₀_apply]
  simp only [cell_eq_iff, reduceCtorEq, and_false, and_true, if_false, Finset.sum_const_zero, Nat.add_zero, Nat.zero_add,
    eq_xn_iff (c := c), eq_yn_iff (c := c)]

theorem owed_exit (d c : Dev nD) : O₀ d (exitCell c) () = (if d = xn c then 1 else 0) + (if d = yn c then 1 else 0) := by
  rw [show exitCell c = cellOfKind c .exit from rfl, O₀_apply]
  simp only [cell_eq_iff, reduceCtorEq, and_false, and_true, if_false, Finset.sum_const_zero, Nat.add_zero, Nat.zero_add,
    eq_xn_iff (c := c), eq_yn_iff (c := c)]

theorem owed_yrecv (d c : Dev nD) (j : Fin 16) : O₀ d (yrecvCell c j) () = if d = yn c then N else 0 := by
  rw [show yrecvCell c j = cellOfKind c (.yrecv j) from rfl, O₀_apply]
  simp only [cell_eq_iff, reduceCtorEq, and_false, if_false, Finset.sum_const_zero, Nat.add_zero, Nat.zero_add, Kind.yrecv.injEq,
    eq_yn_iff (c := c), ite_and, Finset.sum_ite_eq, Finset.mem_univ, if_true]
  split <;> simp

theorem owed_xrecv (d c : Dev nD) (j : Fin 16) : O₀ d (xrecvCell c j) () = if d = xn c then N else 0 := by
  rw [show xrecvCell c j = cellOfKind c (.xrecv j) from rfl, O₀_apply]
  simp only [cell_eq_iff, reduceCtorEq, and_false, if_false, Finset.sum_const_zero, Nat.add_zero, Nat.zero_add, Kind.xrecv.injEq,
    eq_xn_iff (c := c), ite_and, Finset.sum_ite_eq, Finset.mem_univ, if_true]
  split <;> simp

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xn c) fun _ => 1, Finset.sum_ite_eq' Finset.univ (yn c) fun _ => 1, if_pos (Finset.mem_univ _), if_pos (Finset.mem_univ _)]

theorem launch_exit (c : Dev nD) :
    tallyOn (exitCell c) (launchCredit (Pipeline.owing O₀) 0 (exitCell c)) = (tallyAt (exitCell c) () 2 : CellTallies nD τ sig Unit) := by
  unfold tallyAt; refine congrArg _ (Finsupp.ext fun u => ?_); cases u
  rw [Pipeline.launchCredit_owing, Finsupp.single_eq_same, Finset.sum_congr rfl fun d _ => owed_exit d c, Finset.sum_add_distrib,
    Finset.sum_ite_eq' Finset.univ (xn c) fun _ => 1, Finset.sum_ite_eq' Finset.univ (yn c) fun _ => 1, if_pos (Finset.mem_univ _), if_pos (Finset.mem_univ _)]

theorem launch_yrecv (c : Dev nD) (j : Fin 16) :
    tallyOn (yrecvCell c j) (launchCredit (Pipeline.owing O₀) 0 (yrecvCell c j)) = (tallyAt (yrecvCell c j) () N : CellTallies nD τ sig Unit) := by
  unfold tallyAt; refine congrArg _ (Finsupp.ext fun u => ?_); cases u
  rw [Pipeline.launchCredit_owing, Finsupp.single_eq_same, Finset.sum_congr rfl fun d _ => owed_yrecv d c j,
    Finset.sum_ite_eq' Finset.univ (yn c) fun _ => N, if_pos (Finset.mem_univ _)]

theorem launch_xrecv (c : Dev nD) (j : Fin 16) :
    tallyOn (xrecvCell c j) (launchCredit (Pipeline.owing O₀) 0 (xrecvCell c j)) = (tallyAt (xrecvCell c j) () N : CellTallies nD τ sig Unit) := by
  unfold tallyAt; refine congrArg _ (Finsupp.ext fun u => ?_); cases u
  rw [Pipeline.launchCredit_owing, Finsupp.single_eq_same, Finset.sum_congr rfl fun d _ => owed_xrecv d c j,
    Finset.sum_ite_eq' Finset.univ (xn c) fun _ => N, if_pos (Finset.mem_univ _)]

/-- The cells a device waits on with launch credit: its entry cell, its exit cell, its thirty-two receive cells. -/
abbrev CredK : Type := Unit ⊕ (Unit ⊕ (Fin 16 ⊕ Fin 16))
def credKind : CredK → Kind
  | .inl _ => .bar
  | .inr (.inl _) => .exit
  | .inr (.inr (.inl j)) => .yrecv j
  | .inr (.inr (.inr j)) => .xrecv j
theorem credKind_injective : Function.Injective credKind := by
  rintro (_ | _ | j | j) (_ | _ | j' | j') h
  all_goals first
    | rfl
    | (cases h; done)
    | (cases h; rfl)

omit [FloatOps F] in
theorem bigSep_credCells (Φ : SemLoc sig → sProp 𝕄) :
    bigSep Finset.univ Φ ⊢ iprop(Φ (.reg barS) ∗ Φ (.reg exitS) ∗ (bigSep Finset.univ fun j : Fin 16 => Φ (.dma (yrecvS j)))
      ∗ (bigSep Finset.univ fun j : Fin 16 => Φ (.dma (xrecvS j)))) := by
  refine (bigSep_subset (Finset.subset_univ (Finset.univ.map ⟨fun k : CredK => semOf (credKind k), semOf_injective.comp credKind_injective⟩))).trans ?_
  rw [bigSep_map, bigSep_univ_sum, bigSep_univ_sum, bigSep_univ_sum, bigSep_univ_of_subsingleton (), bigSep_univ_of_subsingleton ()]
  exact BI.Entails.refl _

omit [FloatOps F] in
theorem creds_intro (c : Dev nD) : (Pipeline.launchCred O₀ c : sProp 𝕄) ⊢ creds c := by
  unfold Pipeline.launchCred creds
  refine (bigSep_credCells _).trans ?_
  rw [← launch_bar c, ← launch_exit c]
  simp only [← launch_yrecv c, ← launch_xrecv c]
  exact .rfl

/-! ## The launch theorem's side conditions -/

theorem L_of_ne (g : GSem nD τ sig) (h : g.1.2 ≠ .tc) : L g = ∅ := if_neg h

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    isplitl [Hx]; · iexact Hx
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratchBufs
  iintro ⟨Hs, -, Hr⟩
  isplitl [Hs]; · iexact Hs
  iexact Hr

omit [FloatOps F] in
/-- The own semaphores at zero, family by family. -/
theorem ownSems0_eq (c : Dev nD) : (Pipeline.ownSems0 (Ix := Unit) (Name := ℕ) (U := UU) (Lvl := ℕ) (Val := Elt F) (τ := τ) osem c : sProp 𝕄)
    = iprop(semVal (exitCell c) 0 ∗ (bigSep Finset.univ fun s : Fin 2 => semVal (ldCell c s) 0) ∗ semVal (stCell c) 0
      ∗ (bigSep Finset.univ fun j : Fin 16 => semVal (ysendCell c j) 0) ∗ (bigSep Finset.univ fun j : Fin 16 => semVal (yrecvCell c j) 0)
      ∗ (bigSep Finset.univ fun j : Fin 16 => semVal (xsendCell c j) 0) ∗ (bigSep Finset.univ fun j : Fin 16 => semVal (xrecvCell c j) 0)) := by
  unfold Pipeline.ownSems0
  rw [bigSep_univ_sum, bigSep_univ_sum, bigSep_univ_sum, bigSep_univ_sum, bigSep_univ_sum, bigSep_univ_sum,
    bigSep_univ_of_subsingleton (), bigSep_univ_of_subsingleton ()]
  rfl

/-- What a device hands back at the end: its input block as it was and its result array at its final contents. -/
def Yout (c : Dev nD) : sProp 𝕄 :=
  iprop((((c : Thread nD τ).loc main_arg0) ↦{fullShare} m ((c : Thread nD τ).loc main_arg0))
    ∗ (((c : Thread nD τ).loc main_v1) ↦{fullShare} OUT m c))

theorem phi1_exit (c : Dev nD) :
    (dats m 0 c).Φ (Fin.last cfg0.N) ⊢ iprop(Yout m c ∗ Pipeline.ownSems0 osem c ∗ Pipeline.scopedRest cfg0.spec c) := by
  rw [show (dats m 0 c).Φ (Fin.last cfg0.N) = Φ₁ m c from rfl, scopedRest0_eq, ownSems0_eq, bigSep_univ_two]
  unfold Φ₁ closedSems scratchBufs Yout
  iintro ⟨Hx, Ho, ⟨He, Hys, Hyr, Hxs, Hxr, Hl0, Hl1, Hst⟩, Hr⟩
  isplitl [Hx Ho]
  · isplitl [Hx] <;> iassumption
  isplitr [Hr]
  · isplitl [He]; · iexact He
    isplitl [Hl0 Hl1]
    · isplitl [Hl0] <;> iassumption
    isplitl [Hst]; · iexact Hst
    isplitl [Hys]; · iexact Hys
    isplitl [Hyr]; · iexact Hyr
    isplitl [Hxs]; · iexact Hxs
    iexact Hxr
  iexact Hr

theorem waits (c : Dev nD) : (levAts L lv : sProp 𝕄) ⊢ Pipeline.cellsWaits cfgs (dats m) () 0 c :=
  Pipeline.cellsWaits_intro cfgs (dats m) () 0 c fun w s t => w.elim0

end Launch

/-! ## The run -/

open Launch in
set_option maxRecDepth 32768 in
/-- At the compiled mesh of four devices, for any float values, from any memory with zero counters: every weakly fair
    execution of the four threads terminates, and every final state has each device's result array at the gathered
    narrowed contents and its input block unchanged. -/
theorem run_main : θ_run defs (onTc (τ := τ) (main (F := F))) ⟨m, fun _ => 0, ρ⟩ (fun r => ∀ c : Dev nD,
    r.2.mem ((c : Thread nD τ).loc main_v1) = OUT m c ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => (main_chain c).trans rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := Yout m) (Z := fun _ => iprop(emp))
    (hX := start_intro m ρ) (hin := phi0_intro m) (hout := phi1_exit m)
    (QY := fun c s => s.mem ((c : Thread nD τ).loc main_v1) = OUT m c ∧ s.mem ((c : Thread nD τ).loc main_arg0) = m ((c : Thread nD τ).loc main_arg0))
    (hY := fun c s' => by
      unfold Yout
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun s h c => (h c).2.2)

/-- info: 'Cert.KernelIdeal.AG.run_main' depends on axioms: [propext, Classical.choice, Quot.sound] -/
#guard_msgs in #print axioms run_main

end Cert.KernelIdeal.AG

end
-- ==== Proof.KProto.lean ====
import proofs.«900094_g7700000000000095_dist_ag_v7x_xy2x2_y_m16384_n1024_bf16_1_alg».proof.Proof.Gen.Kernel.Frame
import proofs.«900094_g7700000000000095_dist_ag_v7x_xy2x2_y_m16384_n1024_bf16_1_alg».proof.Proof.Gen.Kernel.Skeleton
import Idealize.ShloMosaic.Lib.Pipeline.Launch
import Idealize.ShloMosaic.Lib.Pipeline.Kit
import Idealize.ShloMosaic.Lib.Tactic
import Idealize.ShloMosaic.Lib.ValueIdx

/-!
# The all-gather's protocol on the 2×2 mesh

Device `d` sits at mesh position `(d / 2, d % 2)`. Its y-neighbour `yn d` shares the first coordinate, its
x-neighbour `xn d` the second; both maps are involutions and they commute. A device converts its own block of the
input to the narrow format, writes it to its own block of the result, sends the half of it that its first coordinate
names to the y-neighbour, and forwards what it receives from the y-neighbour to the x-neighbour. Every transfer has a
send cell and a receive cell of its own; the entry handshake and the exit handshake are one unit from each neighbour.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the rounds library's, duties named by `Bool` -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh neighbours -/

def yn (c : Dev nD) : Dev nD := ⟨(2 * (c.val / 2) + 1) - (c.val % 2), by have h : c.val < 4 := c.isLt; show _ < 4; omega⟩
def xn (c : Dev nD) : Dev nD := ⟨((c.val % 2) + 2) - 2 * (c.val / 2), by have h : c.val < 4 := c.isLt; show _ < 4; omega⟩

theorem yn_yn (c : Dev nD) : yn (yn c) = c := by revert c; decide
theorem xn_xn (c : Dev nD) : xn (xn c) = c := by revert c; decide
theorem xn_yn (c : Dev nD) : xn (yn c) = yn (xn c) := by revert c; decide
theorem yn_ne_xn (c : Dev nD) : yn c ≠ xn c := by revert c; decide
theorem yn_ne (c : Dev nD) : yn c ≠ c := by revert c; decide
theorem xn_ne (c : Dev nD) : xn c ≠ c := by revert c; decide

def ynE : Dev nD ≃ Dev nD := ⟨yn, yn, yn_yn, yn_yn⟩
def xnE : Dev nD ≃ Dev nD := ⟨xn, xn, xn_xn, xn_xn⟩

/-- The printed device chains: those whose closed form is the y-neighbour's, and those whose is the x-neighbour's. -/
theorem devY (k : Dev nD → Nat) (hk : ∀ d, k d < nD) (h : ∀ d, k d = (2 * (d.val / 2) + 1) - (d.val % 2)) (c : Dev nD) :
    (⟨k c, hk c⟩ : Dev nD) = yn c := Fin.ext (h c)
theorem devX (k : Dev nD → Nat) (hk : ∀ d, k d < nD) (h : ∀ d, k d = ((d.val % 2) + 2) - 2 * (d.val / 2)) (c : Dev nD) :
    (⟨k c, hk c⟩ : Dev nD) = xn c := Fin.ext (h c)

/-! ## The semaphores and the cells -/

/-- The runtime's barrier semaphore and the exit handshake's scoped one. -/
abbrev barS : Sem sig := (SemArray.scalar (sig.barrier 0 rfl) : Sems sig S_).sem
abbrev exitS : Sem sig := (cc0_scoped0 : Sems sig S_).sem

/-- The semaphores of chunk `j`: the y-transfer's send and receive, the forward's send and receive. -/
def ysendS (j : Fin 16) : DmaSem sig := ⟨3 + j.val, by have := j.isLt; show 3 + j.val < 67; omega⟩
def yrecvS (j : Fin 16) : DmaSem sig := ⟨19 + j.val, by have := j.isLt; show 19 + j.val < 67; omega⟩
def xsendS (j : Fin 16) : DmaSem sig := ⟨35 + j.val, by have := j.isLt; show 35 + j.val < 67; omega⟩
def xrecvS (j : Fin 16) : DmaSem sig := ⟨51 + j.val, by have := j.isLt; show 51 + j.val < 67; omega⟩

/-- The semaphores of the local copies: the two load slots' and the one of the store of the whole shard. -/
def lsemS (s : Fin 2) : DmaSem sig := ⟨s.val, by have := s.isLt; show s.val < 67; omega⟩
def ssemS : DmaSem sig := ⟨2, by show 2 < 67; omega⟩

abbrev barCell (c : Dev nD) : GSem nD τ sig := ((c : Thread nD τ), .reg barS)
abbrev exitCell (c : Dev nD) : GSem nD τ sig := ((c : Thread nD τ), .reg exitS)
abbrev ldCell (c : Dev nD) (s : Fin 2) : GSem nD τ sig := ((c : Thread nD τ), .dma (lsemS s))
abbrev stCell (c : Dev nD) : GSem nD τ sig := ((c : Thread nD τ), .dma ssemS)
abbrev ysendCell (c : Dev nD) (j : Fin 16) : GSem nD τ sig := ((c : Thread nD τ), .dma (ysendS j))
abbrev yrecvCell (c : Dev nD) (j : Fin 16) : GSem nD τ sig := ((c : Thread nD τ), .dma (yrecvS j))
abbrev xsendCell (c : Dev nD) (j : Fin 16) : GSem nD τ sig := ((c : Thread nD τ), .dma (xsendS j))
abbrev xrecvCell (c : Dev nD) (j : Fin 16) : GSem nD τ sig := ((c : Thread nD τ), .dma (xrecvS j))

/-! ## The buffers, and the chunks the transfers move -/

abbrev xM : Memref sig .tc .hbm S16384x1024 .f32 := Memref.whole main_arg0
abbrev oM : Memref sig .tc .hbm S32768x1024 .bf16 := Memref.whole main_v1
abbrev vsM : Memref sig .tc .vmem S16384x1024 .bf16 := Memref.whole cc0_scratch0
abbrev vlM : Memref sig .tc .vmem S2x512x1024 .f32 := Memref.whole cc0_scratch1

/-- A chunk of 512 rows of the result array, and of the converted shard. -/
abbrev oSl (off : Fin 2 → Nat) (h : ∀ a, off a + S512x1024.size a ≤ S32768x1024.size a) : Memref sig .tc .hbm S512x1024 .bf16 :=
  oM.slice (Rect.unit (s := S32768x1024) off S512x1024.size h) (fun _ => rfl)
abbrev vSl (off : Fin 2 → Nat) (h : ∀ a, off a + S512x1024.size a ≤ S16384x1024.size a) : Memref sig .tc .vmem S512x1024 .bf16 :=
  vsM.slice (Rect.unit (s := S16384x1024) off S512x1024.size h) (fun _ => rfl)

/-- The chunk constant the printed offsets take. -/
abbrev cw (j : Fin 16) : BitVec 32 := BitVec.ofNat 32 (512 * j.val)

/-- Chunk `j` of the y-transfer device `d` fires: its source in `d`'s converted shard, its destination rows (on the y-neighbour). -/
abbrev srcY (d : Dev nD) (j : Fin 16) : Memref sig .tc .vmem S512x1024 .bf16 := vSl (k0_off1 d (cw j)) (k0_off1_inb d j)
abbrev dstY (d : Dev nD) (j : Fin 16) : Memref sig .tc .hbm S512x1024 .bf16 := oSl (k0_off3 d (cw j)) (k0_off3_inb d j)
/-- Chunk `j` of the forward device `d` fires: the same rows of the result array at both ends. -/
abbrev fwM (d : Dev nD) (j : Fin 16) : Memref sig .tc .hbm S512x1024 .bf16 := oSl (k0_off5 d (cw j)) (k0_off5_inb d j)
/-- A device's own block of the result array, written by its local copy of the whole converted shard. -/
abbrev ownM (d : Dev nD) : Memref sig .tc .hbm S16384x1024 .bf16 :=
  oM.slice (Rect.unit (s := S32768x1024) (k0_off7 d) S16384x1024.size (k0_off7_inb d)) (fun _ => rfl)

/-- A chunk of 512 rows of the device's input block. -/
abbrev xSl (off : Fin 2 → Nat) (h : ∀ a, off a + S512x1024.size a ≤ S16384x1024.size a) : Memref sig .tc .hbm S512x1024 .f32 :=
  xM.slice (Rect.unit (s := S16384x1024) off S512x1024.size h) (fun _ => rfl)

/-- The rows chunk `j` of a half is loaded from and stored to: the half the device's first coordinate names (`false`),
    converted first, then the other (`true`). -/
def ldOff (d : Dev nD) (h : Bool) (j : Fin 16) : Fin 2 → Nat := if h then k0_off4 d (cw j) else k0_off1 d (cw j)
def stOff (d : Dev nD) (h : Bool) (j : Fin 16) : Fin 2 → Nat := if h then k0_off6 d (cw j) else k0_off2 d (cw j)
theorem ldOff_inb (d : Dev nD) (h : Bool) (j : Fin 16) : ∀ a, ldOff d h j a + S512x1024.size a ≤ S16384x1024.size a := by
  cases h
  · exact k0_off1_inb d j
  · exact k0_off4_inb d j
theorem stOff_inb (d : Dev nD) (h : Bool) (j : Fin 16) : ∀ a, stOff d h j a + S512x1024.size a ≤ S16384x1024.size a := by
  cases h
  · exact k0_off2_inb d j
  · exact k0_off6_inb d j

/-- The source of load `(h, j)` in the input block, the load slot it lands in, and the chunk of the shard its conversion is stored to. -/
abbrev ldSrc (d : Dev nD) (h : Bool) (j : Fin 16) : Memref sig .tc .hbm S512x1024 .f32 := xSl (ldOff d h j) (ldOff_inb d h j)
abbrev vslot (s : Fin 2) : Memref sig .tc .vmem S512x1024 .f32 :=
  (vlM.slice (Rect.unit (s := S2x512x1024) ![s.val, 0, 0] S1x512x1024.size (by revert s; decide)) (fun _ => rfl)).squeeze S512x1024 squeezes_S1x512x1024_S512x1024
abbrev stRect (d : Dev nD) (h : Bool) (j : Fin 16) : Rect S16384x1024 := Rect.unit (s := S16384x1024) (stOff d h j) S512x1024.size (stOff_inb d h j)
/-- The slot of load `(h, j)` and its round on that slot's cell: loads alternate slots, sixteen to a slot. -/
def slotOf (j : Fin 16) : Fin 2 := ⟨j.val % 2, Nat.mod_lt _ (by decide)⟩
def roundOf (h : Bool) (j : Fin 16) : ℕ := (if h then 8 else 0) + j.val / 2

/-- What a remote transfer of one chunk credits each of its two cells; a load its slot's cell; the shard's store its cell. -/
abbrev N : ℕ := (oSl ![0, 0] (by decide)).view.dmaCredit
theorem N_pos : 0 < N := View.dmaCredit_pos _ (by decide)
abbrev NL : ℕ := (vslot 0).view.dmaCredit
theorem NL_pos : 0 < NL := View.dmaCredit_pos _ (by decide)
abbrev NS : ℕ := (ownM 0).view.dmaCredit
theorem NS_pos : 0 < NS := View.dmaCredit_pos _ (by decide)

/-! ## Contents -/

variable (m : (ℓ : Loc nD τ sig) → Buf (Elt F) ℓ)

/-- One entry narrowed. -/
def cv (x : F .f32) : F .bf16 := FloatOps.truncf .bf16 bitsLt_bf16_f32 x

/-- Device `c`'s converted shard: its block of the input, every entry narrowed. -/
def VS (c : Dev nD) : Buf (Elt F) ((c : Thread nD τ).loc cc0_scratch0) :=
  fun i => cv (m ((c : Thread nD τ).loc main_arg0) i)

/-- Device `c`'s result array at the end: its own block from its own shard; of the other block, the half its first
    coordinate names from the y-neighbour's shard, the other half from the shard of the device diagonally across
    (forwarded by the x-neighbour). -/
def OUT (c : Dev nD) : Buf (Elt F) ((c : Thread nD τ).loc main_v1) :=
  fun i =>
    let r : Nat := (i 0).val
    let i' : S16384x1024.Idx := ValueIdx.ix2 (⟨r % 16384, Nat.mod_lt _ (by decide)⟩ : Fin 16384) (i 1 : Fin 1024)
    if r / 16384 = c.val % 2 then VS m c i'
    else if (r % 16384) / 8192 = c.val / 2 then VS m (yn c) i'
    else VS m (xn (yn c)) i'

/-- What load `(h, j)` leaves in its slot: the rows of the input block it copies, whichever the slot. -/
def SLOT (c : Dev nD) (h : Bool) (j : Fin 16) : Buf (Elt F) ((c : Thread nD τ).loc cc0_scratch1) :=
  fun i => m ((c : Thread nD τ).loc main_arg0)
    (ValueIdx.ix2 (⟨(ldOff c h j 0 + (i 1).val) % 16384, Nat.mod_lt _ (by decide)⟩ : Fin 16384) (i 2 : Fin 1024))

/-! ## The schedule -/

/-- Which of the protocol's cells a semaphore is. -/
inductive Kind where
  | bar | exit
  | ld (s : Fin 2) | st
  | ysend (j : Fin 16) | yrecv (j : Fin 16) | xsend (j : Fin 16) | xrecv (j : Fin 16)
deriving DecidableEq, Fintype

def kindOf : SemLoc sig → Option Kind
  | .reg s => if s = barS then some .bar else if s = exitS then some .exit else none
  | .dma q =>
    if h : q.val < 2 then some (.ld ⟨q.val, h⟩)
    else if q.val = 2 then some .st
    else if h : 3 ≤ q.val ∧ q.val < 19 then some (.ysend ⟨q.val - 3, by omega⟩)
    else if h : 19 ≤ q.val ∧ q.val < 35 then some (.yrecv ⟨q.val - 19, by omega⟩)
    else if h : 35 ≤ q.val ∧ q.val < 51 then some (.xsend ⟨q.val - 35, by omega⟩)
    else if h : 51 ≤ q.val ∧ q.val < 67 then some (.xrecv ⟨q.val - 51, by omega⟩)
    else none

/-- The y-neighbour's entry signal hands device `c` the rows of the neighbour's result array its y-transfers write; -/
def barPayY (c : Dev nD) : sProp 𝕄 :=
  bigSep Finset.univ fun j : Fin 16 => iprop(∃ f, (dstY c j).view.loc (yn c : Thread nD τ) ↦[(dstY c j).view.set]{fullShare} f)
/-- the x-neighbour's, the rows of that neighbour's result array its forwards write. -/
def barPayX (c : Dev nD) : sProp 𝕄 :=
  bigSep Finset.univ fun j : Fin 16 => iprop(∃ f, (fwM c j).view.loc (xn c : Thread nD τ) ↦[(fwM c j).view.set]{fullShare} f)
/-- A y-transfer's landing: chunk `j` of the half the y-neighbour fills, at its final contents; -/
def yrecvPay (c : Dev nD) (j : Fin 16) : sProp 𝕄 :=
  (fwM c j).view.loc (c : Thread nD τ) ↦[(fwM c j).view.set]{fullShare} OUT m c
/-- a forward's landing: chunk `j` of the half the x-neighbour fills. -/
def xrecvPay (c : Dev nD) (j : Fin 16) : sProp 𝕄 :=
  (fwM (xn c) j).view.loc (c : Thread nD τ) ↦[(fwM (xn c) j).view.set]{fullShare} OUT m c
/-- A y-transfer's source comes back: the share of the chunk of the converted shard it was lent; -/
def ysendPay (c : Dev nD) (j : Fin 16) : sProp 𝕄 :=
  (srcY c j).view.loc (c : Thread nD τ) ↦[(srcY c j).view.set]{fullShare.left} VS m c
/-- a forward's source comes back: the chunk of the result array it read. -/
def xsendPay (c : Dev nD) (j : Fin 16) : sProp 𝕄 :=
  (fwM c j).view.loc (c : Thread nD τ) ↦[(fwM c j).view.set]{fullShare} OUT m c

/-- A load's landing: its slot at the rows it copied, and the rows of the input block back. Round `r` of slot `s` is load
    `(r ≥ 8, 2·(r % 8) + s)`. -/
def ldPayAt (c : Dev nD) (h : Bool) (j : Fin 16) : sProp 𝕄 :=
  iprop(((vslot (slotOf j)).view.loc (c : Thread nD τ) ↦[(vslot (slotOf j)).view.set]{fullShare} SLOT m c h j)
    ∗ ((ldSrc c h j).view.loc (c : Thread nD τ) ↦[(ldSrc c h j).view.set]{fullShare} m ((c : Thread nD τ).loc main_arg0)))
def ldPay (c : Dev nD) (s : Fin 2) (r : ℕ) : sProp 𝕄 :=
  ldPayAt m c (decide (8 ≤ r)) ⟨(2 * (r % 8) + s.val) % 16, Nat.mod_lt _ (by decide)⟩
/-- The shard's store landing: the device's own block of the result array at its final contents, and the shard's share back. -/
def stPay (c : Dev nD) : sProp 𝕄 :=
  iprop(((ownM c).view.loc (c : Thread nD τ) ↦[(ownM c).view.set]{fullShare} OUT m c)
    ∗ (vsM.view.loc (c : Thread nD τ) ↦[vsM.view.set]{fullShare.right} VS m c))

/-- Round 0 for every cell but the load slots', which have sixteen rounds. The entry and the exit cell have two duties of one unit, `false` paid by the y-neighbour and
    `true` by the x-neighbour; every transfer cell has the one duty `false` of a chunk's credit. -/
def sched : Rounds.Schedule (GSem nD τ sig) Bool 𝕄 where
  duties g r :=
    if g.1.2 = .tc then
      (match kindOf g.2 with
        | some .bar => if r = 0 then Finset.univ else ∅
        | some .exit => if r = 0 then Finset.univ else ∅
        | some (.ld _) => if r < 16 then {false} else ∅
        | some _ => if r = 0 then {false} else ∅
        | none => ∅)
    else ∅
  unitless _ := False
  amount g _ _ := match kindOf g.2 with
    | some .bar => 1 | some .exit => 1
    | some (.ld _) => NL | some .st => NS
    | _ => N
  payload g r d := match kindOf g.2 with
    | some .bar => if d then barPayX g.1.1 else barPayY g.1.1
    | some .exit => iprop(emp)
    | some (.ld s) => ldPay m g.1.1 s r
    | some .st => stPay m g.1.1
    | some (.ysend j) => ysendPay m g.1.1 j
    | some (.yrecv j) => yrecvPay m g.1.1 j
    | some (.xsend j) => xsendPay m g.1.1 j
    | some (.xrecv j) => xrecvPay m g.1.1 j
    | none => iprop(emp)
  amount_pos g _ _ _ := by
    show 0 < (match kindOf g.2 with
      | some .bar => 1 | some .exit => 1
      | some (.ld _) => NL | some .st => NS
      | _ => N)
    split <;> first | exact Nat.one_pos | exact NL_pos | exact NS_pos | exact N_pos

/-! ## What each device owes at launch; the levels -/

/-- The chunks' receive credits a device still owes once `k` of its y-transfers, resp. forwards, are under way. -/
def owedY (c : Dev nD) (k : ℕ) : CellTallies nD τ sig Unit :=
  ∑ j ∈ Finset.univ.filter (fun j : Fin 16 => k ≤ j.val), tallyAt (yrecvCell (yn c) j) () N
def owedX (c : Dev nD) (k : ℕ) : CellTallies nD τ sig Unit :=
  ∑ j ∈ Finset.univ.filter (fun j : Fin 16 => k ≤ j.val), tallyAt (xrecvCell (xn c) j) () N
/-- The exit handshake's two units. -/
def owedExit (c : Dev nD) : CellTallies nD τ sig Unit := tallyAt (exitCell (xn c)) () 1 + tallyAt (exitCell (yn c)) () 1

/-- After the entry handshake: every chunk's receive credit at both neighbours, and the exit handshake. -/
def O₂ (c : Dev nD) : CellTallies nD τ sig Unit := owedExit c + owedX c 0 + owedY c 0
def O₁ (c : Dev nD) : CellTallies nD τ sig Unit := O₂ c + tallyAt (barCell (xn c)) () 1
def O₀ (c : Dev nD) : CellTallies nD τ sig Unit := O₁ c + tallyAt (barCell (yn c)) () 1

def L (g : GSem nD τ sig) : Finset Unit := if g.1.2 = .tc then {()} else ∅
/-- The local copies' cells and the send cells wait at 0, the entry cell at 1, the y-receive cells at 2, the forward-receive
    cells at 3, the exit cell at 4: each wait is below everything its device still owes then. -/
def lv (g : GSem nD τ sig) (_ : Unit) : ℕ :=
  match kindOf g.2 with
  | some .bar => 1 | some (.yrecv _) => 2 | some (.xrecv _) => 3 | some .exit => 4 | _ => 0

/-! ## The ghost state a device's body starts from -/

def cellOfKind (c : Dev nD) : Kind → GSem nD τ sig
  | .bar => barCell c | .exit => exitCell c
  | .ld s => ldCell c s | .st => stCell c
  | .ysend j => ysendCell c j | .yrecv j => yrecvCell c j
  | .xsend j => xsendCell c j | .xrecv j => xrecvCell c j
abbrev cellAt (ck : Dev nD × Kind) : GSem nD τ sig := cellOfKind ck.1 ck.2

/-- Every cell's invariant, under the names `K` the launch allocated them at, and that every cell has reached round 0:
    persistent, so every device holds the whole record. -/
def records (K : Dev nD × Kind → ℕ) : sProp 𝕄 :=
  iprop((bigSep Finset.univ fun ck : Dev nD × Kind => cellInv ER (sched m) (K ck) (cellAt ck))
    ∗ bigSep Finset.univ fun ck : Dev nD × Kind => reached ER (cellAt ck) 0)

instance records_persistent (K : Dev nD × Kind → ℕ) : BI.Persistent (records m K) := by unfold records; infer_instance

/-- A device's positions on its own cells, all at the start of round 0. -/
def positions (c : Dev nD) : sProp 𝕄 := bigSep Finset.univ fun k : Kind => atPos ER (cellOfKind c k) 0 ∅ 0

/-- The tokens of the duties device `c` pays: the y-neighbour's entry and exit duty `false`, the x-neighbour's `true`;
    each chunk's receive duty at the neighbour it goes to; each chunk's two send duties of its own; every round's duty of
    its two load slots; the duty of its shard's store. -/
def payToks (c : Dev nD) : sProp 𝕄 :=
  iprop(dutyTok ER (barCell (yn c)) 0 false ∗ dutyTok ER (barCell (xn c)) 0 true
    ∗ dutyTok ER (exitCell (yn c)) 0 false ∗ dutyTok ER (exitCell (xn c)) 0 true
    ∗ (bigSep Finset.univ fun j : Fin 16 => dutyTok ER (yrecvCell (yn c) j) 0 false)
    ∗ (bigSep Finset.univ fun j : Fin 16 => dutyTok ER (xrecvCell (xn c) j) 0 false)
    ∗ (bigSep Finset.univ fun j : Fin 16 => dutyTok ER (ysendCell c j) 0 false)
    ∗ (bigSep Finset.univ fun j : Fin 16 => dutyTok ER (xsendCell c j) 0 false)
    ∗ (bigSep Finset.univ fun sr : Fin 2 × Fin 16 => dutyTok ER (ldCell c sr.1) sr.2.val false)
    ∗ dutyTok ER (stCell c) 0 false)

def ghost (K : Dev nD × Kind → ℕ) (c : Dev nD) : sProp 𝕄 := iprop(records m K ∗ positions c ∗ payToks c)

/-- The credit a device's own waits spend: two units on its entry and on its exit cell, a chunk's credit on each of
    its receive cells. -/
def creds (c : Dev nD) : sProp 𝕄 :=
  iprop(cred (tallyAt (barCell c) () 2) ∗ cred (tallyAt (exitCell c) () 2)
    ∗ (bigSep Finset.univ fun j : Fin 16 => cred (tallyAt (yrecvCell c j) () N))
    ∗ (bigSep Finset.univ fun j : Fin 16 => cred (tallyAt (xrecvCell c j) () N)))

/-- What a device's body starts from, the scratch buffers apart. -/
def start (c : Dev nD) : sProp 𝕄 :=
  iprop((∃ K, ghost m K c) ∗ creds c ∗ levAts L lv
    ∗ (((c : Thread nD τ).loc main_arg0) ↦{fullShare} m ((c : Thread nD τ).loc main_arg0))
    ∗ (((c : Thread nD τ).loc main_v1) ↦{fullShare} m ((c : Thread nD τ).loc main_v1)))

def scratchBufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratchBufs c)

/-- The kernel's own semaphores back at zero, every one of its cells closed. -/
def closedSems (c : Dev nD) : sProp 𝕄 :=
  iprop(semVal (exitCell c) 0
    ∗ (bigSep Finset.univ fun j : Fin 16 => semVal (ysendCell c j) 0) ∗ (bigSep Finset.univ fun j : Fin 16 => semVal (yrecvCell c j) 0)
    ∗ (bigSep Finset.univ fun j : Fin 16 => semVal (xsendCell c j) 0) ∗ (bigSep Finset.univ fun j : Fin 16 => semVal (xrecvCell c j) 0)
    ∗ semVal (ldCell c 0) 0 ∗ semVal (ldCell c 1) 0 ∗ semVal (stCell c) 0)

/-- After the body: the input untouched, the result array whole at its final contents, the semaphores closed, the scratch back. -/
def Φ₁ (c : Dev nD) : sProp 𝕄 :=
  iprop((((c : Thread nD τ).loc main_arg0) ↦{fullShare} m ((c : Thread nD τ).loc main_arg0))
    ∗ (((c : Thread nD τ).loc main_v1) ↦{fullShare} OUT m c)
    ∗ closedSems c ∗ scratchBufs c)

theorem cfg0_W : cfg0.W = 0 := rfl

def dats (_ : Fin 1) (c : Dev nD) : Dat τ (Elt F) Unit ℕ UU ℕ cfg0 c where
  A w := (Fin.elim0 (cfg0_W ▸ w))
  after w := (Fin.elim0 (cfg0_W ▸ w))
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.AG

end
-- ==== Proof.KState.lean ====
import proofs.«900094_g7700000000000095_dist_ag_v7x_xy2x2_y_m16384_n1024_bf16_1_alg».proof.Proof.KProto

/-!
# One device's state, piece by piece, and what each operation of the body does to it

The body is a fixed sequence of some three hundred memory operations, transfers, signals and waits. Its state is kept
as a dozen independent assertions, each indexed by how far one strand of the protocol has got: the loads into the two
slots, the chunks of the converted shard, the y-transfers, the forwards, the store of the device's own block, the entry
and the exit handshake. Each operation moves one strand one step, and touches only the assertions of the strands it
concerns.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Indices -/

/-- The chunks at or past a count, and those before it. -/
abbrev ge16 (n : ℕ) : Finset (Fin 16) := Finset.univ.filter fun j => n ≤ j.val
abbrev lt16 (n : ℕ) : Finset (Fin 16) := Finset.univ.filter fun j => j.val < n
abbrev ge32 (n : ℕ) : Finset (Fin 32) := Finset.univ.filter fun i => n ≤ i.val

/-- Load `i` of the thirty-two, in the order they are issued: the half it belongs to, its chunk, its slot, its round. -/
def hOf (i : Fin 32) : Bool := decide (16 ≤ i.val)
def jOf (i : Fin 32) : Fin 16 := ⟨i.val % 16, Nat.mod_lt _ (by decide)⟩
def sOf (i : Fin 32) : Fin 2 := ⟨i.val % 2, Nat.mod_lt _ (by decide)⟩
def rOf (i : Fin 32) : ℕ := i.val / 2

/-- The body's conversion of one loaded slot: every stored value of the thirty-two is this function of its load. -/
def pay (v : Vec F S1x512x1024 .f32) : FVec F S512x1024 .bf16 :=
  shapeCast S512x1024 (truncf .bf16 (shapeCast S512x1024 v shapeCasts_S1x512x1024_S512x1024) bitsLt_bf16_f32) shapeCasts_S512x1024_S512x1024

/-- The rectangle a slot is read through, and what the read of load `i`'s slot delivers. -/
abbrev slotRect (s : Fin 2) : Rect S2x512x1024 := Rect.unit (s := S2x512x1024) ![s.val, 0, 0] S1x512x1024.size (by revert s; decide)
def slotVal (c : Dev nD) (i : Fin 32) : Vec F S1x512x1024 .f32 :=
  (vlM : Memref sig .tc .vmem S2x512x1024 .f32).view.readAt (Elt F) (slotRect (sOf i)).toLoadRect (SLOT m c (hOf i) (jOf i))

/-! ## What the device owes, strand by strand -/

def barO (c : Dev nD) : ℕ → CellTallies nD τ sig Unit
  | 0 => tallyAt (barCell (xn c)) () 1 + tallyAt (barCell (yn c)) () 1
  | 1 => tallyAt (barCell (xn c)) () 1
  | _ => 0
def exitO (c : Dev nD) : ℕ → CellTallies nD τ sig Unit
  | 0 => tallyAt (exitCell (xn c)) () 1 + tallyAt (exitCell (yn c)) () 1
  | 1 => tallyAt (exitCell (xn c)) () 1
  | _ => 0
/-- Everything owed when `nB` entry signals, `nY` y-transfers, `nF` forwards and `nE` exit signals have been issued. -/
def owedAt (c : Dev nD) (nB nY nF nE : ℕ) : CellTallies nD τ sig Unit := exitO c nE + owedX c nF + owedY c nY + barO c nB
def Ow (c : Dev nD) (O : CellTallies nD τ sig Unit) : sProp 𝕄 := iprop(∃ W, owes (c : Thread nD τ) O W)

/-! ## The strands -/

/-- The entry handshake: the tokens of the two signals still to send, the device's own position and credit until it has waited. -/
def StBar (c : Dev nD) (n : ℕ) : sProp 𝕄 :=
  iprop((if n < 1 then dutyTok ER (barCell (yn c)) 0 false else iprop(emp))
    ∗ (if n < 2 then dutyTok ER (barCell (xn c)) 0 true else iprop(emp))
    ∗ (if n < 3 then iprop(atPos ER (barCell c) 0 ∅ 0 ∗ cred (tallyAt (barCell c) () 2)) else iprop(emp)))
/-- The exit handshake, likewise; once waited, its cell closed. -/
def StExit (c : Dev nD) (n : ℕ) : sProp 𝕄 :=
  iprop((if n < 1 then dutyTok ER (exitCell (yn c)) 0 false else iprop(emp))
    ∗ (if n < 2 then dutyTok ER (exitCell (xn c)) 0 true else iprop(emp))
    ∗ (if n < 3 then iprop(atPos ER (exitCell c) 0 ∅ 0 ∗ cred (tallyAt (exitCell c) () 2)) else semVal (exitCell c) 0))

/-- How many of the first `b` loads went to slot `s`. -/
def wcount (b : ℕ) (s : Fin 2) : ℕ := (b + 1 - s.val) / 2
/-- What slot `s` holds when `b` loads have been waited for: its launch contents `fv`, or its last load. -/
def slotC (c : Dev nD) (fv : Buf (Elt F) ((c : Thread nD τ).loc cc0_scratch1)) (b : ℕ) (s : Fin 2) : Buf (Elt F) ((c : Thread nD τ).loc cc0_scratch1) :=
  if h : wcount b s = 0 then fv
  else SLOT m c (decide (16 ≤ 2 * (wcount b s - 1) + s.val)) ⟨(2 * (wcount b s - 1) + s.val) % 16, Nat.mod_lt _ (by decide)⟩

/-- The loads: `a` started, `b` waited for. Tokens of those to start; the rows of the input of those not in flight; the
    credit of those in flight; each slot's position, and its buffer unless a load into it is in flight. -/
def StLd (c : Dev nD) (fv : Buf (Elt F) ((c : Thread nD τ).loc cc0_scratch1)) (a b : ℕ) : sProp 𝕄 :=
  iprop((bigSep (ge32 a) fun i => dutyTok ER (ldCell c (sOf i)) (rOf i) false)
    ∗ (bigSep (Finset.univ.filter fun i : Fin 32 => i.val < b ∨ a ≤ i.val) fun i =>
        (ldSrc c (hOf i) (jOf i)).view.loc (c : Thread nD τ) ↦[(ldSrc c (hOf i) (jOf i)).view.set]{fullShare} m ((c : Thread nD τ).loc main_arg0))
    ∗ (bigSep (Finset.univ.filter fun i : Fin 32 => b ≤ i.val ∧ i.val < a) fun i => cred (tallyAt (ldCell c (sOf i)) () NL))
    ∗ (bigSep Finset.univ fun s : Fin 2 => iprop(atPos ER (ldCell c s) (wcount b s) ∅ 0 ∗ reached ER (ldCell c s) (wcount b s)
        ∗ (if wcount a s = wcount b s then
            ((vslot s).view.loc (c : Thread nD τ) ↦[(vslot s).view.set]{fullShare} slotC m c fv b s) else iprop(emp)))))

/-- The chunk of the shard conversion `i` stores. -/
abbrev vsSet (c : Dev nD) (i : Fin 32) := ((vsM : Memref sig .tc .vmem S16384x1024 .bf16).access (stRect c (hOf i) (jOf i))).set

/-- The converted shard. Before its store to the result array is issued (`mode = 0`): every chunk, converted (`i < nC`) or
    at its launch contents `fs`, at the full share, or at the right half if its y-transfer is under way (`i < nY`).
    While the store is in flight (`1`): the left halves of the chunks no y-transfer still holds. After it (`2`):
    those and the right half of the whole shard. -/
def StVs (c : Dev nD) (fs : Buf (Elt F) ((c : Thread nD τ).loc cc0_scratch0)) (mode nC nY nYS : ℕ) : sProp 𝕄 :=
  match mode with
  | 0 => bigSep Finset.univ fun i : Fin 32 =>
      (vsM.view.loc (c : Thread nD τ) ↦[vsSet c i]{if i.val < nY then fullShare.right else fullShare} (if i.val < nC then VS m c else fs))
  | 1 => bigSep (Finset.univ.filter fun i : Fin 32 => 16 ≤ i.val ∨ i.val < nYS) fun i =>
      (vsM.view.loc (c : Thread nD τ) ↦[vsSet c i]{fullShare.left} VS m c)
  | _ => iprop((bigSep (Finset.univ.filter fun i : Fin 32 => 16 ≤ i.val ∨ i.val < nYS) fun i =>
      (vsM.view.loc (c : Thread nD τ) ↦[vsSet c i]{fullShare.left} VS m c))
      ∗ (vsM.view.loc (c : Thread nD τ) ↦[vsM.view.set]{fullShare.right} VS m c))

/-- A family of sixteen send cells, `n` transfers issued and `w` of them waited for: untouched, holding the issue's
    credit, or closed. -/
def sendCells (cell : Fin 16 → GSem nD τ sig) (n w : ℕ) : sProp 𝕄 :=
  bigSep Finset.univ fun j : Fin 16 =>
    if j.val < w then semVal (cell j) 0
    else if j.val < n then iprop(atPos ER (cell j) 0 ∅ 0 ∗ cred (tallyAt (cell j) () N))
    else atPos ER (cell j) 0 ∅ 0
/-- A family of sixteen receive cells, `w` waited for: position and launch credit, or closed. -/
def recvCells (cell : Fin 16 → GSem nD τ sig) (w : ℕ) : sProp 𝕄 :=
  bigSep Finset.univ fun j : Fin 16 =>
    if j.val < w then semVal (cell j) 0 else iprop(atPos ER (cell j) 0 ∅ 0 ∗ cred (tallyAt (cell j) () N))

/-- The y-transfers still to issue: their two tokens each; and, once the entry wait is through, their destination rows on the y-neighbour. -/
def StYtok (c : Dev nD) (n : ℕ) : sProp 𝕄 :=
  bigSep (ge16 n) fun j => iprop(dutyTok ER (yrecvCell (yn c) j) 0 false ∗ dutyTok ER (ysendCell c j) 0 false)
def StYreg (c : Dev nD) (n : ℕ) : sProp 𝕄 :=
  bigSep (ge16 n) fun j => iprop(∃ f, (dstY c j).view.loc (yn c : Thread nD τ) ↦[(dstY c j).view.set]{fullShare} f)
/-- The forwards still to issue, likewise, on the x-neighbour. -/
def StFtok (c : Dev nD) (n : ℕ) : sProp 𝕄 :=
  bigSep (ge16 n) fun j => iprop(dutyTok ER (xrecvCell (xn c) j) 0 false ∗ dutyTok ER (xsendCell c j) 0 false)
def StFreg (c : Dev nD) (n : ℕ) : sProp 𝕄 :=
  bigSep (ge16 n) fun j => iprop(∃ f, (fwM c j).view.loc (xn c : Thread nD τ) ↦[(fwM c j).view.set]{fullShare} f)

/-- The half of the other block the y-neighbour fills. Until the first entry signal the device holds it at its launch
    contents `fo`; then chunk `j` is with the neighbour until its landing is waited for (`j < nYR`), with the forward
    from its issue (`j < nF`) until the forward's send is waited for (`j < nXS`), and the device's otherwise, at its final contents. -/
def StB (c : Dev nD) (fo : Buf (Elt F) ((c : Thread nD τ).loc main_v1)) (given : Bool) (nYR nF nXS : ℕ) : sProp 𝕄 :=
  if given then
    bigSep Finset.univ fun j : Fin 16 =>
      if j.val < nXS ∨ (nF ≤ j.val ∧ j.val < nYR) then
        ((fwM c j).view.loc (c : Thread nD τ) ↦[(fwM c j).view.set]{fullShare} OUT m c)
      else iprop(emp)
  else bigSep Finset.univ fun j : Fin 16 => ((fwM c j).view.loc (c : Thread nD τ) ↦[(fwM c j).view.set]{fullShare} fo)
/-- The half the x-neighbour fills: the device's until the second entry signal, and again, chunk by chunk, from the wait for its landing. -/
def StC (c : Dev nD) (fo : Buf (Elt F) ((c : Thread nD τ).loc main_v1)) (given : Bool) (nXR : ℕ) : sProp 𝕄 :=
  if given then
    bigSep (lt16 nXR) fun j => ((fwM (xn c) j).view.loc (c : Thread nD τ) ↦[(fwM (xn c) j).view.set]{fullShare} OUT m c)
  else bigSep Finset.univ fun j : Fin 16 => ((fwM (xn c) j).view.loc (c : Thread nD τ) ↦[(fwM (xn c) j).view.set]{fullShare} fo)

/-- The store of the shard to the device's own block: before it (`0`) its token, its cell's position and the block at its
    launch contents; in flight (`1`) the position and the issue's credit; after it (`2`) the cell closed and the block final. -/
def StSt (c : Dev nD) (fo : Buf (Elt F) ((c : Thread nD τ).loc main_v1)) : ℕ → sProp 𝕄
  | 0 => iprop(dutyTok ER (stCell c) 0 false ∗ atPos ER (stCell c) 0 ∅ 0
      ∗ ((ownM c).view.loc (c : Thread nD τ) ↦[(ownM c).view.set]{fullShare} fo))
  | 1 => iprop(atPos ER (stCell c) 0 ∅ 0 ∗ cred (tallyAt (stCell c) () NS))
  | _ => iprop(semVal (stCell c) 0 ∗ ((ownM c).view.loc (c : Thread nD τ) ↦[(ownM c).view.set]{fullShare} OUT m c))

/-- What never changes: every cell's invariant and round 0, and the levels. -/
def Pers (K : Dev nD × Kind → ℕ) : sProp 𝕄 := iprop(records m K ∗ levAts L lv)
instance Pers_persistent (K : Dev nD × Kind → ℕ) : BI.Persistent (Pers m K) := by unfold Pers; infer_instance

end Cert.Kernel.AG

end
-- ==== Proof.KLibBig.lean ====
import proofs.«900094_g7700000000000095_dist_ag_v7x_xy2x2_y_m16384_n1024_bf16_1_alg».proof.Proof.KState

/-!
# Products over chunk counts, and a buffer cut into bands of rows

General facts the step lemmas share: a product over the chunks at or past a count peels its first chunk; a product
whose terms switch at a count changes one term when the count moves; a whole points-to is the product of the
points-tos over bands of rows that are pairwise disjoint and cover the buffer.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Products over the chunks at or past a count -/

/-- The chunks at or past `n` are chunk `n` and those at or past `n + 1`. -/
theorem ge16_succ (n : ℕ) (hn : n < 16) (Φ : Fin 16 → sProp 𝕄) :
    bigSep (ge16 n) Φ = iprop(Φ ⟨n, hn⟩ ∗ bigSep (ge16 (n + 1)) Φ) := by
  have h : ge16 n = insert (⟨n, hn⟩ : Fin 16) (ge16 (n + 1)) := by
    ext j
    simp only [Finset.mem_filter, Finset.mem_univ, true_and, Finset.mem_insert, Fin.ext_iff]
    omega
  rw [h, bigSep_insert (by simp only [Finset.mem_filter, Finset.mem_univ, true_and]; omega)]
  rfl

/-- The same for the thirty-two loads. -/
theorem ge32_succ (n : ℕ) (hn : n < 32) (Φ : Fin 32 → sProp 𝕄) :
    bigSep (ge32 n) Φ = iprop(Φ ⟨n, hn⟩ ∗ bigSep (ge32 (n + 1)) Φ) := by
  have h : ge32 n = insert (⟨n, hn⟩ : Fin 32) (ge32 (n + 1)) := by
    ext j
    simp only [Finset.mem_filter, Finset.mem_univ, true_and, Finset.mem_insert, Fin.ext_iff]
    omega
  rw [h, bigSep_insert (by simp only [Finset.mem_filter, Finset.mem_univ, true_and]; omega)]
  rfl

/-- The chunks before `n + 1` are chunk `n` and those before `n`. -/
theorem lt16_succ (n : ℕ) (hn : n < 16) (Φ : Fin 16 → sProp 𝕄) :
    bigSep (lt16 (n + 1)) Φ = iprop(Φ ⟨n, hn⟩ ∗ bigSep (lt16 n) Φ) := by
  have h : lt16 (n + 1) = insert (⟨n, hn⟩ : Fin 16) (lt16 n) := by
    ext j
    simp only [Finset.mem_filter, Finset.mem_univ, true_and, Finset.mem_insert, Fin.ext_iff]
    omega
  rw [h, bigSep_insert (by simp only [Finset.mem_filter, Finset.mem_univ, true_and]; omega)]
  rfl

/-- No chunk is at or past sixteen, every chunk at or past zero; none before zero, every one before sixteen. -/
theorem ge16_sixteen : ge16 16 = ∅ := by
  ext j; simp only [Finset.mem_filter, Finset.mem_univ, true_and, Finset.notMem_empty, iff_false]; omega
theorem ge16_zero : ge16 0 = Finset.univ := by
  ext j; simp only [Finset.mem_filter, Finset.mem_univ, true_and, iff_true]; omega
theorem lt16_zero : lt16 0 = ∅ := by
  ext j; simp only [Finset.mem_filter, Finset.mem_univ, true_and, Finset.notMem_empty, iff_false]; omega
theorem lt16_sixteen : lt16 16 = Finset.univ := by
  ext j; simp only [Finset.mem_filter, Finset.mem_univ, true_and, iff_true]; omega
theorem ge32_zero : ge32 0 = Finset.univ := by
  ext j; simp only [Finset.mem_filter, Finset.mem_univ, true_and, iff_true]; omega
theorem ge32_thirtytwo : ge32 32 = ∅ := by
  ext j; simp only [Finset.mem_filter, Finset.mem_univ, true_and, Finset.notMem_empty, iff_false]; omega

/-- A product over all sixteen chunks whose terms switch at a count: moving the count by one changes only the term
    at the count, from `B` to `A`. -/
theorem switch16_succ (n : ℕ) (hn : n < 16) (A B : Fin 16 → sProp 𝕄) :
    (bigSep Finset.univ fun j : Fin 16 => if j.val < n then A j else B j)
      = iprop(B ⟨n, hn⟩ ∗ bigSep (Finset.univ.erase (⟨n, hn⟩ : Fin 16)) fun j : Fin 16 => if j.val < n + 1 then A j else B j) := by
  rw [bigSep_univ_split (⟨n, hn⟩ : Fin 16), if_neg (by simp)]
  refine congrArg (fun P => iprop(B ⟨n, hn⟩ ∗ P)) (bigSep_congr fun j hj => ?_)
  have hne : j.val ≠ n := fun e => (Finset.mem_erase.mp hj).1 (Fin.ext e)
  by_cases h : j.val < n
  · rw [if_pos h, if_pos (by omega)]
  · rw [if_neg h, if_neg (by omega)]
theorem switch16_succ' (n : ℕ) (hn : n < 16) (A B : Fin 16 → sProp 𝕄) :
    (bigSep Finset.univ fun j : Fin 16 => if j.val < n + 1 then A j else B j)
      = iprop(A ⟨n, hn⟩ ∗ bigSep (Finset.univ.erase (⟨n, hn⟩ : Fin 16)) fun j : Fin 16 => if j.val < n + 1 then A j else B j) := by
  rw [bigSep_univ_split (⟨n, hn⟩ : Fin 16), if_pos (by simp)]
  rfl

/-! ## A buffer cut into bands of rows -/

/-- A whole points-to is the product of the points-tos over a family of sets, each the elements whose row lies in an
    interval, the intervals pairwise disjoint and covering every row. -/
theorem pointsTo_bands {ℓ : Loc nD τ sig} {T : Type} [DecidableEq T] [Fintype T] (K : T → Finset (Idx ℓ))
    (row : Idx ℓ → ℕ) (lo len : T → ℕ)
    (hmem : ∀ t x, x ∈ K t ↔ lo t ≤ row x ∧ row x < lo t + len t)
    (hd : ∀ t t', t ≠ t' → lo t + len t ≤ lo t' ∨ lo t' + len t' ≤ lo t)
    (hc : ∀ x, ∃ t, lo t ≤ row x ∧ row x < lo t + len t)
    (q : PosShare TreeShare) (f : Buf (Elt F) ℓ) :
    (ℓ ↦{q} f : sProp 𝕄) = bigSep Finset.univ fun t => ℓ ↦[K t]{q} f := by
  have hu : (Finset.univ : Finset (Idx ℓ)) = Finset.univ.biUnion K := by
    ext x
    simp only [Finset.mem_univ, Finset.mem_biUnion, true_and, true_iff]
    obtain ⟨t, ht⟩ := hc x
    exact ⟨t, (hmem t x).mpr ht⟩
  have hdis : ∀ t ∈ (Finset.univ : Finset T), ∀ t' ∈ (Finset.univ : Finset T), t ≠ t' → Disjoint (K t) (K t') := by
    intro t _ t' _ hne
    refine Finset.disjoint_left.mpr fun x hx hx' => ?_
    have h1 := (hmem t x).mp hx
    have h2 := (hmem t' x).mp hx'
    rcases hd t t' hne with h | h <;> omega
  show pointsTo ℓ Finset.univ q f = _
  rw [hu, pointsTo_biUnion Finset.univ K hdis]

/-- The elements of a band of `n` rows of a two-dimensional array, all columns. -/
theorem mem_rows {R C n : ℕ} (off : Fin 2 → ℕ)
    (inb : ∀ a, off a + (![n, C] : Fin 2 → ℕ) a ≤ (⟨2, ![R, C]⟩ : Shape).size a)
    (h1 : off 1 = 0) (x : (⟨2, ![R, C]⟩ : Shape).Idx) :
    x ∈ (Rect.unit (s := ⟨2, ![R, C]⟩) off ![n, C] inb).set ↔ off 0 ≤ (x 0).val ∧ (x 0).val < off 0 + n := by
  rw [Rect.mem_set_unit, Fin.forall_fin_two]
  have hx : (x 1).val < C := (x 1).isLt
  simp only [Matrix.cons_val_zero, Matrix.cons_val_one, h1]
  omega

end Cert.Kernel.AG

end
-- ==== Proof.KOwedLv.lean ====
import proofs.«900094_g7700000000000095_dist_ag_v7x_xy2x2_y_m16384_n1024_bf16_1_alg».proof.Proof.KState

/-!
# What is owed, count by count, and where it sits in the levels

What a device owes is the sum of four strands: the exit handshake's units, the forwards' receive credits, the
y-transfers' receive credits, the entry handshake's units. Each signal or transfer peels one summand off its strand;
when every strand is through nothing is owed. Once the entry handshake is through, everything still owed sits at a
receive cell or an exit cell, strictly above the entry cell and above the cells that wait at level zero.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## One summand off a strand -/

private theorem ge16_succ (n : ℕ) (h : n < 16) : ge16 n = insert (⟨n, h⟩ : Fin 16) (ge16 (n + 1)) := by
  ext j
  simp only [Finset.mem_filter, Finset.mem_univ, true_and, Finset.mem_insert, Fin.ext_iff]
  omega
private theorem not_mem_ge16_succ (n : ℕ) (h : n < 16) : (⟨n, h⟩ : Fin 16) ∉ ge16 (n + 1) := by
  simp only [Finset.mem_filter, Finset.mem_univ, true_and]
  omega
private theorem ge16_done : ge16 16 = ∅ := Finset.filter_eq_empty_iff.mpr fun j _ => by have := j.isLt; omega

private theorem owedY_succ (c : Dev nD) (n : ℕ) (h : n < 16) : owedY c n = owedY c (n + 1) + tallyAt (yrecvCell (yn c) ⟨n, h⟩) () N := by
  unfold owedY
  rw [show (Finset.univ.filter fun j : Fin 16 => n ≤ j.val) = insert (⟨n, h⟩ : Fin 16) (ge16 (n + 1)) from ge16_succ n h,
    Finset.sum_insert (not_mem_ge16_succ n h), add_comm]
private theorem owedX_succ (c : Dev nD) (n : ℕ) (h : n < 16) : owedX c n = owedX c (n + 1) + tallyAt (xrecvCell (xn c) ⟨n, h⟩) () N := by
  unfold owedX
  rw [show (Finset.univ.filter fun j : Fin 16 => n ≤ j.val) = insert (⟨n, h⟩ : Fin 16) (ge16 (n + 1)) from ge16_succ n h,
    Finset.sum_insert (not_mem_ge16_succ n h), add_comm]
private theorem owedY_done (c : Dev nD) : owedY c 16 = 0 := by
  unfold owedY; rw [show (Finset.univ.filter fun j : Fin 16 => 16 ≤ j.val) = ∅ from ge16_done]; exact Finset.sum_empty
private theorem owedX_done (c : Dev nD) : owedX c 16 = 0 := by
  unfold owedX; rw [show (Finset.univ.filter fun j : Fin 16 => 16 ≤ j.val) = ∅ from ge16_done]; exact Finset.sum_empty

/-- The first entry signal pays the y-neighbour's unit; -/
theorem owedAt_bar0 (c : Dev nD) (nY nF nE : ℕ) : owedAt c 0 nY nF nE = owedAt c 1 nY nF nE + tallyAt (barCell (yn c)) () 1 :=
  (add_assoc _ _ _).symm
/-- the second the x-neighbour's. -/
theorem owedAt_bar1 (c : Dev nD) (nY nF nE : ℕ) : owedAt c 1 nY nF nE = owedAt c 2 nY nF nE + tallyAt (barCell (xn c)) () 1 := by
  show exitO c nE + owedX c nF + owedY c nY + tallyAt (barCell (xn c)) () 1
    = exitO c nE + owedX c nF + owedY c nY + 0 + tallyAt (barCell (xn c)) () 1
  rw [add_zero]

/-- A y-transfer pays its chunk's receive credit at the y-neighbour; -/
theorem owedAt_y (c : Dev nD) (nB nY nF nE : ℕ) (h : nY < 16) :
    owedAt c nB nY nF nE = owedAt c nB (nY + 1) nF nE + tallyAt (yrecvCell (yn c) ⟨nY, h⟩) () N := by
  unfold owedAt
  rw [owedY_succ c nY h, ← add_assoc (exitO c nE + owedX c nF), add_right_comm (exitO c nE + owedX c nF + owedY c (nY + 1))]
/-- a forward its chunk's at the x-neighbour. -/
theorem owedAt_x (c : Dev nD) (nB nY nF nE : ℕ) (h : nF < 16) :
    owedAt c nB nY nF nE = owedAt c nB nY (nF + 1) nE + tallyAt (xrecvCell (xn c) ⟨nF, h⟩) () N := by
  unfold owedAt
  rw [owedX_succ c nF h, ← add_assoc (exitO c nE), add_right_comm (exitO c nE + owedX c (nF + 1)),
    add_right_comm (exitO c nE + owedX c (nF + 1) + owedY c nY)]

/-- The first exit signal pays the y-neighbour's unit; -/
theorem owedAt_exit0 (c : Dev nD) (nB nY nF : ℕ) : owedAt c nB nY nF 0 = owedAt c nB nY nF 1 + tallyAt (exitCell (yn c)) () 1 := by
  show tallyAt (exitCell (xn c)) () 1 + tallyAt (exitCell (yn c)) () 1 + owedX c nF + owedY c nY + barO c nB
    = tallyAt (exitCell (xn c)) () 1 + owedX c nF + owedY c nY + barO c nB + tallyAt (exitCell (yn c)) () 1
  rw [add_right_comm (tallyAt (exitCell (xn c)) () 1), add_right_comm (tallyAt (exitCell (xn c)) () 1 + owedX c nF),
    add_right_comm (tallyAt (exitCell (xn c)) () 1 + owedX c nF + owedY c nY)]
/-- the second the x-neighbour's. -/
theorem owedAt_exit1 (c : Dev nD) (nB nY nF : ℕ) : owedAt c nB nY nF 1 = owedAt c nB nY nF 2 + tallyAt (exitCell (xn c)) () 1 := by
  show tallyAt (exitCell (xn c)) () 1 + owedX c nF + owedY c nY + barO c nB
    = 0 + owedX c nF + owedY c nY + barO c nB + tallyAt (exitCell (xn c)) () 1
  rw [zero_add, add_comm (tallyAt (exitCell (xn c)) () 1) (owedX c nF), add_right_comm (owedX c nF),
    add_right_comm (owedX c nF + owedY c nY)]

/-- Every strand through, nothing is owed. -/
theorem owedAt_done (c : Dev nD) (n : ℕ) (hn : 2 ≤ n) : owedAt c n 16 16 2 = 0 := by
  rcases n with _ | _ | n
  · omega
  · omega
  · show (0 : CellTallies nD τ sig Unit) + owedX c 16 + owedY c 16 + 0 = 0
    rw [owedX_done, owedY_done]; simp only [add_zero]

/-- What a device owes at launch is the four strands untouched. -/
theorem O₀_eq (c : Dev nD) : O₀ c = owedAt c 0 0 0 0 := by
  unfold O₀ O₁ O₂ owedExit
  exact add_assoc _ _ _

/-! ## Where what is owed sits -/

private theorem lv_kindOf_exit : kindOf (.reg exitS) = some .exit := by decide
private theorem lv_kindOf_yrecv (j : Fin 16) : kindOf (.dma (yrecvS j)) = some (.yrecv j) := by revert j; decide
private theorem lv_kindOf_xrecv (j : Fin 16) : kindOf (.dma (xrecvS j)) = some (.xrecv j) := by revert j; decide

private theorem exitO_pos {c : Dev nD} {n : ℕ} {g : GSem nD τ sig} {u : Unit} (h : 0 < exitO c n g u) :
    g = exitCell (xn c) ∨ g = exitCell (yn c) := by
  rcases n with _ | _ | n
  · have h' : 0 < (tallyAt (exitCell (xn c)) () 1 + tallyAt (exitCell (yn c)) () 1 : CellTallies nD τ sig Unit) g u := h
    rw [Pi.add_apply, Finsupp.add_apply] at h'
    rcases (by omega : 0 < (tallyAt (exitCell (xn c)) () 1 : CellTallies nD τ sig Unit) g u
        ∨ 0 < (tallyAt (exitCell (yn c)) () 1 : CellTallies nD τ sig Unit) g u) with h1 | h1
    · exact Or.inl (Pipeline.tallyAt_pos h1).1
    · exact Or.inr (Pipeline.tallyAt_pos h1).1
  · exact Or.inl (Pipeline.tallyAt_pos (show 0 < (tallyAt (exitCell (xn c)) () 1 : CellTallies nD τ sig Unit) g u from h)).1
  · exact absurd (show 0 < (0 : CellTallies nD τ sig Unit) g u from h) (Nat.lt_irrefl 0)

private theorem owedX_pos {c : Dev nD} {n : ℕ} {g : GSem nD τ sig} {u : Unit} (h : 0 < owedX c n g u) : ∃ j : Fin 16, g = xrecvCell (xn c) j := by
  unfold owedX at h
  rw [Finset.sum_apply, Finsupp.finsetSum_apply] at h
  obtain ⟨j, -, hj⟩ := Finset.exists_ne_zero_of_sum_ne_zero (Nat.ne_of_gt h)
  exact ⟨j, (Pipeline.tallyAt_pos (Nat.pos_of_ne_zero hj)).1⟩
private theorem owedY_pos {c : Dev nD} {n : ℕ} {g : GSem nD τ sig} {u : Unit} (h : 0 < owedY c n g u) : ∃ j : Fin 16, g = yrecvCell (yn c) j := by
  unfold owedY at h
  rw [Finset.sum_apply, Finsupp.finsetSum_apply] at h
  obtain ⟨j, -, hj⟩ := Finset.exists_ne_zero_of_sum_ne_zero (Nat.ne_of_gt h)
  exact ⟨j, (Pipeline.tallyAt_pos (Nat.pos_of_ne_zero hj)).1⟩

/-- Once the entry handshake is through, everything still owed is at a TensorCore's y-receive cell, forward-receive cell
    or exit cell: at level two or more. -/
theorem owedAt_lv_two_le (c : Dev nD) (nY nF nE : ℕ) : ∀ g u, 0 < owedAt c 2 nY nF nE g u → g.1.2 = .tc ∧ 2 ≤ lv g u := by
  intro g u h
  have h' : 0 < (exitO c nE + owedX c nF + owedY c nY + 0 : CellTallies nD τ sig Unit) g u := h
  rw [add_zero, Pi.add_apply, Finsupp.add_apply, Pi.add_apply, Finsupp.add_apply] at h'
  rcases (by omega : 0 < exitO c nE g u ∨ 0 < owedX c nF g u ∨ 0 < owedY c nY g u) with h1 | h1 | h1
  · rcases exitO_pos h1 with rfl | rfl
    · refine ⟨rfl, ?_⟩; dsimp only [lv]; rw [lv_kindOf_exit]; show (2 : ℕ) ≤ 4; decide
    · refine ⟨rfl, ?_⟩; dsimp only [lv]; rw [lv_kindOf_exit]; show (2 : ℕ) ≤ 4; decide
  · obtain ⟨j, rfl⟩ := owedX_pos h1
    refine ⟨rfl, ?_⟩; dsimp only [lv]; rw [lv_kindOf_xrecv]; show (2 : ℕ) ≤ 3; decide
  · obtain ⟨j, rfl⟩ := owedY_pos h1
    refine ⟨rfl, ?_⟩; dsimp only [lv]; rw [lv_kindOf_yrecv]

/-- In particular strictly above level zero. -/
theorem owedAt_lv_pos (c : Dev nD) (nY nF nE : ℕ) : ∀ g u, 0 < owedAt c 2 nY nF nE g u → g.1.2 = .tc ∧ 0 < lv g u :=
  fun g u h => ⟨(owedAt_lv_two_le c nY nF nE g u h).1, Nat.lt_of_lt_of_le (by decide) (owedAt_lv_two_le c nY nF nE g u h).2⟩

end Cert.Kernel.AG

end
-- ==== Proof.KStepsEdge.lean ====
import proofs.«900094_g7700000000000095_dist_ag_v7x_xy2x2_y_m16384_n1024_bf16_1_alg».proof.Proof.KLibBig
import proofs.«900094_g7700000000000095_dist_ag_v7x_xy2x2_y_m16384_n1024_bf16_1_alg».proof.Proof.KOwedLv

/-!
# Into the strands and out of them

What the launch hands a device is cut into the strands' starting assertions: the ghost state's products over cells
become the strands' own products, the input block is cut into the thirty-two chunks the loads read, the load buffer
into its two slots, the shard into its thirty-two chunks, the result array into the device's own block and the
thirty-two chunks the neighbours fill. At the end the pieces are joined again.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The bands the buffers are cut into -/

/-- The first row of chunk `i` of the thirty-two, in a device's block of the input and in its shard alike. -/
def StepsEdge_rowOf (c : Dev nD) (i : Fin 32) : ℕ :=
  if 16 ≤ i.val then (512 * (i.val % 16) + 8192) - 8192 * (c.val / 2) else 8192 * (c.val / 2) + 512 * (i.val % 16)

theorem StepsEdge_ldOff_eq (c : Dev nD) (i : Fin 32) : ldOff c (hOf i) (jOf i) = ![StepsEdge_rowOf c i, 0] := by
  unfold ldOff hOf StepsEdge_rowOf
  by_cases h : 16 ≤ i.val
  · rw [decide_eq_true h, if_pos rfl, if_pos h]; exact k0_off4_eq c (jOf i)
  · rw [decide_eq_false h, if_neg Bool.false_ne_true, if_neg h]; exact k0_off1_eq c (jOf i)

theorem StepsEdge_stOff_eq (c : Dev nD) (i : Fin 32) : stOff c (hOf i) (jOf i) = ![StepsEdge_rowOf c i, 0] := by
  unfold stOff hOf StepsEdge_rowOf
  by_cases h : 16 ≤ i.val
  · rw [decide_eq_true h, if_pos rfl, if_pos h]; exact k0_off6_eq c (jOf i)
  · rw [decide_eq_false h, if_neg Bool.false_ne_true, if_neg h]; exact k0_off2_eq c (jOf i)

theorem StepsEdge_mem_ldSrc (c : Dev nD) (i : Fin 32) (x : S16384x1024.Idx) :
    x ∈ (ldSrc c (hOf i) (jOf i)).view.set ↔ StepsEdge_rowOf c i ≤ (x 0).val ∧ (x 0).val < StepsEdge_rowOf c i + 512 := by
  have e : (ldSrc c (hOf i) (jOf i)).view.set
      = (Rect.unit (s := S16384x1024) (ldOff c (hOf i) (jOf i)) S512x1024.size (ldOff_inb c _ _)).set := View.set_slice_whole main_arg0 _
  have h0 : ldOff c (hOf i) (jOf i) 0 = StepsEdge_rowOf c i := by rw [StepsEdge_ldOff_eq]; rfl
  rw [e]
  exact (mem_rows (R := 16384) (C := 1024) (n := 512) (ldOff c (hOf i) (jOf i)) (ldOff_inb c _ _) (by rw [StepsEdge_ldOff_eq]; rfl) x).trans (by rw [h0])

theorem StepsEdge_mem_vsSet (c : Dev nD) (i : Fin 32) (x : S16384x1024.Idx) :
    x ∈ vsSet c i ↔ StepsEdge_rowOf c i ≤ (x 0).val ∧ (x 0).val < StepsEdge_rowOf c i + 512 := by
  have e : vsSet c i = (stRect c (hOf i) (jOf i)).set := View.set_slice_whole cc0_scratch0 _
  have h0 : stOff c (hOf i) (jOf i) 0 = StepsEdge_rowOf c i := by rw [StepsEdge_stOff_eq]; rfl
  rw [e]
  exact (mem_rows (R := 16384) (C := 1024) (n := 512) (stOff c (hOf i) (jOf i)) (stOff_inb c _ _) (by rw [StepsEdge_stOff_eq]; rfl) x).trans (by rw [h0])

theorem StepsEdge_rowOf_disj (c : Dev nD) (i i' : Fin 32) (h : i ≠ i') :
    StepsEdge_rowOf c i + 512 ≤ StepsEdge_rowOf c i' ∨ StepsEdge_rowOf c i' + 512 ≤ StepsEdge_rowOf c i := by
  have hc := c.isLt
  have hi := i.isLt
  have hi' := i'.isLt
  have hne : i.val ≠ i'.val := fun e => h (Fin.ext e)
  unfold StepsEdge_rowOf
  change c.val < 4 at hc
  split_ifs <;> omega

theorem StepsEdge_rowOf_cover (c : Dev nD) (r : ℕ) (hr : r < 16384) :
    ∃ i : Fin 32, StepsEdge_rowOf c i ≤ r ∧ r < StepsEdge_rowOf c i + 512 := by
  have hc := c.isLt
  change c.val < 4 at hc
  obtain ⟨k, hk32, hk⟩ : ∃ k, k < 32 ∧ k = (r / 512 + 16 * (c.val / 2)) % 32 := ⟨_, Nat.mod_lt _ (by decide), rfl⟩
  refine ⟨⟨k, hk32⟩, ?_⟩
  unfold StepsEdge_rowOf
  dsimp only
  split_ifs <;> omega

/-- The block of the input is its thirty-two chunks; -/
theorem StepsEdge_cut_x (c : Dev nD) (q : PosShare TreeShare) (f : Buf (Elt F) ((c : Thread nD τ).loc main_arg0)) :
    (((c : Thread nD τ).loc main_arg0) ↦{q} f : sProp 𝕄)
      = bigSep Finset.univ fun i : Fin 32 =>
          (ldSrc c (hOf i) (jOf i)).view.loc (c : Thread nD τ) ↦[(ldSrc c (hOf i) (jOf i)).view.set]{q} f :=
  pointsTo_bands (ℓ := (c : Thread nD τ).loc main_arg0) (fun i : Fin 32 => (ldSrc c (hOf i) (jOf i)).view.set)
    (fun x => (x 0).val) (StepsEdge_rowOf c) (fun _ => 512)
    (fun i x => StepsEdge_mem_ldSrc c i x) (fun i i' h => StepsEdge_rowOf_disj c i i' h)
    (fun x => StepsEdge_rowOf_cover c _ (x 0).isLt) q f

/-- the shard its thirty-two chunks; -/
theorem StepsEdge_cut_vs (c : Dev nD) (q : PosShare TreeShare) (f : Buf (Elt F) ((c : Thread nD τ).loc cc0_scratch0)) :
    (((c : Thread nD τ).loc cc0_scratch0) ↦{q} f : sProp 𝕄)
      = bigSep Finset.univ fun i : Fin 32 => vsM.view.loc (c : Thread nD τ) ↦[vsSet c i]{q} f :=
  pointsTo_bands (ℓ := (c : Thread nD τ).loc cc0_scratch0) (fun i : Fin 32 => vsSet c i)
    (fun x => (x 0).val) (StepsEdge_rowOf c) (fun _ => 512)
    (fun i x => StepsEdge_mem_vsSet c i x) (fun i i' h => StepsEdge_rowOf_disj c i i' h)
    (fun x => StepsEdge_rowOf_cover c _ (x 0).isLt) q f

theorem StepsEdge_mem_vslot (s : Fin 2) (x : S2x512x1024.Idx) :
    x ∈ (vslot s).view.set ↔ s.val ≤ (x 0).val ∧ (x 0).val < s.val + 1 := by
  have e : (vslot s).view.set = (slotRect s).set := (View.set_reshape _ _).trans (View.set_slice_whole cc0_scratch1 _)
  rw [e, Rect.mem_set_unit]
  constructor
  · intro h; have := h 0; simp at this; omega
  · intro h a; fin_cases a <;> simp <;> omega

/-- the load buffer its two slots; -/
theorem StepsEdge_cut_vl (c : Dev nD) (q : PosShare TreeShare) (f : Buf (Elt F) ((c : Thread nD τ).loc cc0_scratch1)) :
    (((c : Thread nD τ).loc cc0_scratch1) ↦{q} f : sProp 𝕄)
      = bigSep Finset.univ fun s : Fin 2 => (vslot s).view.loc (c : Thread nD τ) ↦[(vslot s).view.set]{q} f :=
  pointsTo_bands (ℓ := (c : Thread nD τ).loc cc0_scratch1) (fun s : Fin 2 => (vslot s).view.set)
    (fun x => (x 0).val) (fun s => s.val) (fun _ => 1)
    (fun s x => StepsEdge_mem_vslot s x) (fun s s' h => by have : s.val ≠ s'.val := fun e => h (Fin.ext e); omega)
    (fun x => ⟨⟨(x 0).val, (x 0).isLt⟩, by show (x 0).val ≤ (x 0).val ∧ (x 0).val < (x 0).val + 1; omega⟩) q f

theorem StepsEdge_mem_fwM (d : Dev nD) (j : Fin 16) (x : S32768x1024.Idx) :
    x ∈ (fwM d j).view.set ↔ (8192 * (d.val / 2) + 512 * j.val + 16384) - 16384 * (d.val % 2) ≤ (x 0).val
      ∧ (x 0).val < (8192 * (d.val / 2) + 512 * j.val + 16384) - 16384 * (d.val % 2) + 512 := by
  have e : (fwM d j).view.set = (Rect.unit (s := S32768x1024) (k0_off5 d (cw j)) S512x1024.size (k0_off5_inb d j)).set :=
    View.set_slice_whole main_v1 _
  have h0 : k0_off5 d (cw j) 0 = (8192 * (d.val / 2) + 512 * j.val + 16384) - 16384 * (d.val % 2) := by rw [k0_off5_eq]; rfl
  rw [e]
  exact (mem_rows (R := 32768) (C := 1024) (n := 512) (k0_off5 d (cw j)) (k0_off5_inb d j) (by rw [k0_off5_eq]; rfl) x).trans (by rw [h0])

theorem StepsEdge_mem_ownM (d : Dev nD) (x : S32768x1024.Idx) :
    x ∈ (ownM d).view.set ↔ 16384 * (d.val % 2) ≤ (x 0).val ∧ (x 0).val < 16384 * (d.val % 2) + 16384 := by
  have e : (ownM d).view.set = (Rect.unit (s := S32768x1024) (k0_off7 d) S16384x1024.size (k0_off7_inb d)).set :=
    View.set_slice_whole main_v1 _
  have h0 : k0_off7 d 0 = 16384 * (d.val % 2) := by rw [k0_off7_eq]; rfl
  rw [e]
  exact (mem_rows (R := 32768) (C := 1024) (n := 16384) (k0_off7 d) (k0_off7_inb d) (by rw [k0_off7_eq]; rfl) x).trans (by rw [h0])

theorem StepsEdge_xn_div (c : Dev nD) : (xn c).val / 2 = 1 - c.val / 2 := by revert c; decide
theorem StepsEdge_xn_mod (c : Dev nD) : (xn c).val % 2 = c.val % 2 := by revert c; decide

/-- The bands of the result array: the device's own block, the sixteen chunks the y-neighbour fills, the sixteen the
    x-neighbour fills. -/
def StepsEdge_oLo (c : Dev nD) : Unit ⊕ (Fin 16 ⊕ Fin 16) → ℕ
  | .inl _ => 16384 * (c.val % 2)
  | .inr (.inl j) => (8192 * (c.val / 2) + 512 * j.val + 16384) - 16384 * (c.val % 2)
  | .inr (.inr j) => (8192 * ((xn c).val / 2) + 512 * j.val + 16384) - 16384 * ((xn c).val % 2)
def StepsEdge_oLen : Unit ⊕ (Fin 16 ⊕ Fin 16) → ℕ
  | .inl _ => 16384
  | .inr _ => 512
def StepsEdge_oSet (c : Dev nD) : Unit ⊕ (Fin 16 ⊕ Fin 16) → Finset (Idx ((c : Thread nD τ).loc main_v1))
  | .inl _ => (ownM c).view.set
  | .inr (.inl j) => (fwM c j).view.set
  | .inr (.inr j) => (fwM (xn c) j).view.set

/-- the result array its own block and the thirty-two chunks the neighbours fill. -/
theorem StepsEdge_cut_o (c : Dev nD) (q : PosShare TreeShare) (f : Buf (Elt F) ((c : Thread nD τ).loc main_v1)) :
    (((c : Thread nD τ).loc main_v1) ↦{q} f : sProp 𝕄)
      = iprop(((ownM c).view.loc (c : Thread nD τ) ↦[(ownM c).view.set]{q} f)
          ∗ (bigSep Finset.univ fun j : Fin 16 => (fwM c j).view.loc (c : Thread nD τ) ↦[(fwM c j).view.set]{q} f)
          ∗ (bigSep Finset.univ fun j : Fin 16 => (fwM (xn c) j).view.loc (c : Thread nD τ) ↦[(fwM (xn c) j).view.set]{q} f)) := by
  have hc4 : c.val < 4 := c.isLt
  have h2 : c.val / 2 = 0 ∨ c.val / 2 = 1 := by omega
  have hm : c.val % 2 = 0 ∨ c.val % 2 = 1 := by omega
  have hx2 : (xn c).val / 2 = 1 - c.val / 2 := StepsEdge_xn_div c
  have hxm : (xn c).val % 2 = c.val % 2 := StepsEdge_xn_mod c
  have hmem : ∀ t x, x ∈ StepsEdge_oSet c t ↔ StepsEdge_oLo c t ≤ (x 0).val ∧ (x 0).val < StepsEdge_oLo c t + StepsEdge_oLen t := by
    rintro (u | j | j) x
    · exact StepsEdge_mem_ownM c x
    · exact StepsEdge_mem_fwM c j x
    · exact StepsEdge_mem_fwM (xn c) j x
  have hd : ∀ t t', t ≠ t' → StepsEdge_oLo c t + StepsEdge_oLen t ≤ StepsEdge_oLo c t' ∨ StepsEdge_oLo c t' + StepsEdge_oLen t' ≤ StepsEdge_oLo c t := by
    rintro (u | j | j) (u' | j' | j') hne
    · exact absurd rfl hne
    · have := j'.isLt; simp only [StepsEdge_oLo, StepsEdge_oLen, hx2, hxm]; rcases h2 with h2 | h2 <;> rcases hm with hm | hm <;> simp only [h2, hm] <;> omega
    · have := j'.isLt; simp only [StepsEdge_oLo, StepsEdge_oLen, hx2, hxm]; rcases h2 with h2 | h2 <;> rcases hm with hm | hm <;> simp only [h2, hm] <;> omega
    · have := j.isLt; simp only [StepsEdge_oLo, StepsEdge_oLen, hx2, hxm]; rcases h2 with h2 | h2 <;> rcases hm with hm | hm <;> simp only [h2, hm] <;> omega
    · have := j.isLt; have := j'.isLt
      have hn : j.val ≠ j'.val := fun e => hne (by rw [Fin.ext e])
      simp only [StepsEdge_oLo, StepsEdge_oLen, hx2, hxm]; rcases h2 with h2 | h2 <;> rcases hm with hm | hm <;> simp only [h2, hm] <;> omega
    · have := j.isLt; have := j'.isLt; simp only [StepsEdge_oLo, StepsEdge_oLen, hx2, hxm]; rcases h2 with h2 | h2 <;> rcases hm with hm | hm <;> simp only [h2, hm] <;> omega
    · have := j.isLt; simp only [StepsEdge_oLo, StepsEdge_oLen, hx2, hxm]; rcases h2 with h2 | h2 <;> rcases hm with hm | hm <;> simp only [h2, hm] <;> omega
    · have := j.isLt; have := j'.isLt; simp only [StepsEdge_oLo, StepsEdge_oLen, hx2, hxm]; rcases h2 with h2 | h2 <;> rcases hm with hm | hm <;> simp only [h2, hm] <;> omega
    · have := j.isLt; have := j'.isLt
      have hn : j.val ≠ j'.val := fun e => hne (by rw [Fin.ext e])
      simp only [StepsEdge_oLo, StepsEdge_oLen, hx2, hxm]; rcases h2 with h2 | h2 <;> rcases hm with hm | hm <;> simp only [h2, hm] <;> omega
  have hc : ∀ x : Idx ((c : Thread nD τ).loc main_v1), ∃ t, StepsEdge_oLo c t ≤ (x 0).val ∧ (x 0).val < StepsEdge_oLo c t + StepsEdge_oLen t := by
    intro x
    have hr : (x 0).val < 32768 := (x 0).isLt
    by_cases k1 : (x 0).val / 16384 = c.val % 2
    · refine ⟨.inl (), ?_⟩; simp only [StepsEdge_oLo, StepsEdge_oLen, hx2, hxm]; rcases h2 with h2 | h2 <;> rcases hm with hm | hm <;> simp only [h2, hm] <;> omega
    · by_cases k2 : ((x 0).val % 16384) / 8192 = c.val / 2
      · refine ⟨.inr (.inl ⟨((x 0).val % 8192) / 512, by omega⟩), ?_⟩; simp only [StepsEdge_oLo, StepsEdge_oLen, hx2, hxm]; rcases h2 with h2 | h2 <;> rcases hm with hm | hm <;> simp only [h2, hm] <;> omega
      · refine ⟨.inr (.inr ⟨((x 0).val % 8192) / 512, by omega⟩), ?_⟩; simp only [StepsEdge_oLo, StepsEdge_oLen, hx2, hxm]; rcases h2 with h2 | h2 <;> rcases hm with hm | hm <;> simp only [h2, hm] <;> omega
  rw [pointsTo_bands (ℓ := (c : Thread nD τ).loc main_v1) (StepsEdge_oSet c) (fun x => (x 0).val) (StepsEdge_oLo c) StepsEdge_oLen
      hmem hd hc q f, bigSep_univ_sum, bigSep_univ_sum, bigSep_univ_of_subsingleton ()]
  rfl

/-! ## The ghost state's products, strand by strand -/

/-- The cells of one device, kind by kind. -/
def StepsEdge_kindE : (Unit ⊕ Unit ⊕ Fin 2 ⊕ Unit ⊕ Fin 16 ⊕ Fin 16 ⊕ Fin 16 ⊕ Fin 16) ≃ Kind where
  toFun
    | .inl _ => .bar
    | .inr (.inl _) => .exit
    | .inr (.inr (.inl s)) => .ld s
    | .inr (.inr (.inr (.inl _))) => .st
    | .inr (.inr (.inr (.inr (.inl j)))) => .ysend j
    | .inr (.inr (.inr (.inr (.inr (.inl j))))) => .yrecv j
    | .inr (.inr (.inr (.inr (.inr (.inr (.inl j)))))) => .xsend j
    | .inr (.inr (.inr (.inr (.inr (.inr (.inr j)))))) => .xrecv j
  invFun
    | .bar => .inl ()
    | .exit => .inr (.inl ())
    | .ld s => .inr (.inr (.inl s))
    | .st => .inr (.inr (.inr (.inl ())))
    | .ysend j => .inr (.inr (.inr (.inr (.inl j))))
    | .yrecv j => .inr (.inr (.inr (.inr (.inr (.inl j)))))
    | .xsend j => .inr (.inr (.inr (.inr (.inr (.inr (.inl j))))))
    | .xrecv j => .inr (.inr (.inr (.inr (.inr (.inr (.inr j))))))
  left_inv := by rintro (_ | _ | _ | _ | _ | _ | _ | _) <;> rfl
  right_inv := by intro k; cases k <;> rfl

/-- A product over a device's cells is the product of its kinds' products. -/
theorem StepsEdge_kinds (Φ : Kind → sProp 𝕄) :
    bigSep Finset.univ Φ
      = iprop(Φ .bar ∗ Φ .exit ∗ (bigSep Finset.univ fun s : Fin 2 => Φ (.ld s)) ∗ Φ .st
          ∗ (bigSep Finset.univ fun j : Fin 16 => Φ (.ysend j)) ∗ (bigSep Finset.univ fun j : Fin 16 => Φ (.yrecv j))
          ∗ (bigSep Finset.univ fun j : Fin 16 => Φ (.xsend j)) ∗ (bigSep Finset.univ fun j : Fin 16 => Φ (.xrecv j))) := by
  rw [bigSep_univ_equiv StepsEdge_kindE, bigSep_univ_sum, bigSep_univ_sum, bigSep_univ_sum, bigSep_univ_sum, bigSep_univ_sum,
    bigSep_univ_sum, bigSep_univ_sum, bigSep_univ_of_subsingleton (), bigSep_univ_of_subsingleton (), bigSep_univ_of_subsingleton ()]
  rfl

/-- The thirty-two loads in the order they are issued are the sixteen rounds of the two slots. -/
def StepsEdge_ldE : Fin 32 ≃ Fin 2 × Fin 16 where
  toFun i := (sOf i, ⟨rOf i, by have := i.isLt; unfold rOf; omega⟩)
  invFun sr := ⟨2 * sr.2.val + sr.1.val, by have := sr.1.isLt; have := sr.2.isLt; omega⟩
  left_inv i := Fin.ext (by show 2 * (i.val / 2) + i.val % 2 = i.val; omega)
  right_inv sr := Prod.ext (Fin.ext (by have := sr.1.isLt; show (2 * sr.2.val + sr.1.val) % 2 = sr.1.val; omega))
    (Fin.ext (by have := sr.1.isLt; show (2 * sr.2.val + sr.1.val) / 2 = sr.2.val; omega))

theorem StepsEdge_ldToks (c : Dev nD) :
    (bigSep Finset.univ fun sr : Fin 2 × Fin 16 => dutyTok ER (ldCell c sr.1) sr.2.val false : sProp 𝕄)
      = bigSep (ge32 0) fun i => dutyTok ER (ldCell c (sOf i)) (rOf i) false := by
  rw [ge32_zero, bigSep_univ_equiv StepsEdge_ldE]
  rfl

/-- A product over the two slots. -/
theorem StepsEdge_fin_two (Φ : Fin 2 → sProp 𝕄) : bigSep Finset.univ Φ = iprop(Φ 0 ∗ Φ 1) := bigSep_fin_two Φ

/-! ## The strands at their starts -/

theorem StepsEdge_positions (c : Dev nD) :
    (positions c : sProp 𝕄)
      = iprop(atPos ER (barCell c) 0 ∅ 0 ∗ atPos ER (exitCell c) 0 ∅ 0
          ∗ (bigSep Finset.univ fun s : Fin 2 => atPos ER (ldCell c s) 0 ∅ 0) ∗ atPos ER (stCell c) 0 ∅ 0
          ∗ (bigSep Finset.univ fun j : Fin 16 => atPos ER (ysendCell c j) 0 ∅ 0)
          ∗ (bigSep Finset.univ fun j : Fin 16 => atPos ER (yrecvCell c j) 0 ∅ 0)
          ∗ (bigSep Finset.univ fun j : Fin 16 => atPos ER (xsendCell c j) 0 ∅ 0)
          ∗ (bigSep Finset.univ fun j : Fin 16 => atPos ER (xrecvCell c j) 0 ∅ 0)) := by
  unfold positions
  rw [StepsEdge_kinds]
  rfl

theorem StepsEdge_StBar_start (c : Dev nD) :
    (StBar c 0 : sProp 𝕄) = iprop(dutyTok ER (barCell (yn c)) 0 false ∗ dutyTok ER (barCell (xn c)) 0 true
      ∗ (atPos ER (barCell c) 0 ∅ 0 ∗ cred (tallyAt (barCell c) () 2))) := by
  unfold StBar; rw [if_pos (by decide), if_pos (by decide), if_pos (by decide)]
theorem StepsEdge_StExit_start (c : Dev nD) :
    (StExit c 0 : sProp 𝕄) = iprop(dutyTok ER (exitCell (yn c)) 0 false ∗ dutyTok ER (exitCell (xn c)) 0 true
      ∗ (atPos ER (exitCell c) 0 ∅ 0 ∗ cred (tallyAt (exitCell c) () 2))) := by
  unfold StExit; rw [if_pos (by decide), if_pos (by decide), if_pos (by decide)]

theorem StepsEdge_wcount_zero (s : Fin 2) : wcount 0 s = 0 := by have := s.isLt; unfold wcount; omega

theorem StepsEdge_StLd_start (c : Dev nD) (fv : Buf (Elt F) ((c : Thread nD τ).loc cc0_scratch1)) :
    StLd m c fv 0 0
      = iprop((bigSep (ge32 0) fun i => dutyTok ER (ldCell c (sOf i)) (rOf i) false)
        ∗ (bigSep Finset.univ fun i : Fin 32 =>
            (ldSrc c (hOf i) (jOf i)).view.loc (c : Thread nD τ) ↦[(ldSrc c (hOf i) (jOf i)).view.set]{fullShare} m ((c : Thread nD τ).loc main_arg0))
        ∗ emp
        ∗ ((bigSep Finset.univ fun s : Fin 2 => atPos ER (ldCell c s) 0 ∅ 0)
          ∗ (bigSep Finset.univ fun s : Fin 2 => reached ER (ldCell c s) 0)
          ∗ (bigSep Finset.univ fun s : Fin 2 => (vslot s).view.loc (c : Thread nD τ) ↦[(vslot s).view.set]{fullShare} fv))) := by
  have h1 : (Finset.univ.filter fun i : Fin 32 => i.val < 0 ∨ 0 ≤ i.val) = Finset.univ :=
    Finset.filter_true_of_mem fun i _ => Or.inr (Nat.zero_le _)
  have h2 : (Finset.univ.filter fun i : Fin 32 => 0 ≤ i.val ∧ i.val < 0) = ∅ :=
    Finset.filter_false_of_mem fun i _ h => Nat.not_lt_zero _ h.2
  have hX : (bigSep Finset.univ fun s : Fin 2 => iprop(atPos ER (ldCell c s) (wcount 0 s) ∅ 0 ∗ reached ER (ldCell c s) (wcount 0 s)
        ∗ (if wcount 0 s = wcount 0 s then
            ((vslot s).view.loc (c : Thread nD τ) ↦[(vslot s).view.set]{fullShare} slotC m c fv 0 s) else iprop(emp))))
      = iprop((bigSep Finset.univ fun s : Fin 2 => atPos ER (ldCell c s) 0 ∅ 0)
          ∗ (bigSep Finset.univ fun s : Fin 2 => reached ER (ldCell c s) 0)
          ∗ (bigSep Finset.univ fun s : Fin 2 => (vslot s).view.loc (c : Thread nD τ) ↦[(vslot s).view.set]{fullShare} fv)) := by
    refine (bigSep_congr fun s _ => ?_).trans ((bigSep_sep _ _ _).trans (congrArg (BI.sep _) (bigSep_sep _ _ _)))
    rw [if_pos rfl, StepsEdge_wcount_zero s]
    unfold slotC
    rw [dif_pos (StepsEdge_wcount_zero s)]
    rfl
  unfold StLd
  rw [h1, h2, bigSep_empty, hX]
  rfl

theorem StepsEdge_StVs_start (c : Dev nD) (fs : Buf (Elt F) ((c : Thread nD τ).loc cc0_scratch0)) :
    StVs m c fs 0 0 0 0 = bigSep Finset.univ fun i : Fin 32 => vsM.view.loc (c : Thread nD τ) ↦[vsSet c i]{fullShare} fs := by
  show (bigSep Finset.univ fun i : Fin 32 =>
      (vsM.view.loc (c : Thread nD τ) ↦[vsSet c i]{if i.val < 0 then fullShare.right else fullShare} (if i.val < 0 then VS m c else fs))) = _
  refine bigSep_congr fun i _ => ?_
  rw [if_neg (Nat.not_lt_zero _), if_neg (Nat.not_lt_zero _)]

theorem StepsEdge_sendCells_start (cell : Fin 16 → GSem nD τ sig) :
    (sendCells cell 0 0 : sProp 𝕄) = bigSep Finset.univ fun j : Fin 16 => atPos ER (cell j) 0 ∅ 0 := by
  unfold sendCells
  refine bigSep_congr fun j _ => ?_
  rw [if_neg (Nat.not_lt_zero _), if_neg (Nat.not_lt_zero _)]
theorem StepsEdge_recvCells_start (cell : Fin 16 → GSem nD τ sig) :
    (recvCells cell 0 : sProp 𝕄) = iprop((bigSep Finset.univ fun j : Fin 16 => atPos ER (cell j) 0 ∅ 0)
      ∗ (bigSep Finset.univ fun j : Fin 16 => cred (tallyAt (cell j) () N))) := by
  unfold recvCells
  refine (bigSep_congr fun j _ => ?_).trans (bigSep_sep _ _ _)
  rw [if_neg (Nat.not_lt_zero _)]
  rfl

theorem StepsEdge_StYtok_start (c : Dev nD) :
    (StYtok c 0 : sProp 𝕄) = iprop((bigSep Finset.univ fun j : Fin 16 => dutyTok ER (yrecvCell (yn c) j) 0 false)
      ∗ (bigSep Finset.univ fun j : Fin 16 => dutyTok ER (ysendCell c j) 0 false)) := by
  unfold StYtok; rw [ge16_zero]; exact bigSep_sep _ _ _
theorem StepsEdge_StFtok_start (c : Dev nD) :
    (StFtok c 0 : sProp 𝕄) = iprop((bigSep Finset.univ fun j : Fin 16 => dutyTok ER (xrecvCell (xn c) j) 0 false)
      ∗ (bigSep Finset.univ fun j : Fin 16 => dutyTok ER (xsendCell c j) 0 false)) := by
  unfold StFtok; rw [ge16_zero]; exact bigSep_sep _ _ _

theorem StepsEdge_StSt_start (c : Dev nD) (fo : Buf (Elt F) ((c : Thread nD τ).loc main_v1)) :
    StSt m c fo 0 = iprop(dutyTok ER (stCell c) 0 false ∗ atPos ER (stCell c) 0 ∅ 0
      ∗ ((ownM c).view.loc (c : Thread nD τ) ↦[(ownM c).view.set]{fullShare} fo)) := rfl
theorem StepsEdge_StB_start (c : Dev nD) (fo : Buf (Elt F) ((c : Thread nD τ).loc main_v1)) (a b d : ℕ) :
    StB m c fo false a b d
      = bigSep Finset.univ fun j : Fin 16 => ((fwM c j).view.loc (c : Thread nD τ) ↦[(fwM c j).view.set]{fullShare} fo) := rfl
theorem StepsEdge_StC_start (c : Dev nD) (fo : Buf (Elt F) ((c : Thread nD τ).loc main_v1)) (a : ℕ) :
    StC m c fo false a
      = bigSep Finset.univ fun j : Fin 16 => ((fwM (xn c) j).view.loc (c : Thread nD τ) ↦[(fwM (xn c) j).view.set]{fullShare} fo) := rfl

/-- The record holds every cell's invariant and that it has reached round 0. -/
theorem StepsEdge_records_reached (K : Dev nD × Kind → ℕ) (ck : Dev nD × Kind) : records m K ⊢ reached ER (cellAt ck) 0 :=
  Laws.sep_and.trans (and_elimR.trans (bigSep_elim (Finset.mem_univ ck)))
theorem StepsEdge_records_inv (K : Dev nD × Kind → ℕ) (ck : Dev nD × Kind) :
    records m K ⊢ cellInv ER (sched m) (K ck) (cellAt ck) :=
  Laws.sep_and.trans (and_elimL.trans (bigSep_elim (Finset.mem_univ ck)))
theorem StepsEdge_reached_ld (K : Dev nD × Kind → ℕ) (c : Dev nD) (s : Fin 2) : records m K ⊢ reached ER (ldCell c s) 0 :=
  StepsEdge_records_reached m K (c, .ld s)
theorem StepsEdge_inv_ld (K : Dev nD × Kind → ℕ) (c : Dev nD) (s : Fin 2) :
    records m K ⊢ cellInv ER (sched m) (K (c, .ld s)) (ldCell c s) :=
  StepsEdge_records_inv m K (c, .ld s)

/-- The launch's state with its existentials opened, cut into the strands at their starts. -/
theorem StepsEdge_init_aux (K : Dev nD × Kind → ℕ) (c : Dev nD)
    (fv : Buf (Elt F) ((c : Thread nD τ).loc cc0_scratch1)) (fs : Buf (Elt F) ((c : Thread nD τ).loc cc0_scratch0))
    (W : Waits sig Unit) :
    iprop(ghost m K c ∗ creds c ∗ levAts L lv
        ∗ (((c : Thread nD τ).loc main_arg0) ↦{fullShare} m ((c : Thread nD τ).loc main_arg0))
        ∗ (((c : Thread nD τ).loc main_v1) ↦{fullShare} m ((c : Thread nD τ).loc main_v1))
        ∗ (((c : Thread nD τ).loc cc0_scratch0) ↦{fullShare} fs)
        ∗ (((c : Thread nD τ).loc cc0_scratch1) ↦{fullShare} fv)
        ∗ owes (c : Thread nD τ) (O₀ c) W)
      ⊢ iprop(Pers m K ∗ StBar c 0 ∗ StExit c 0 ∗ StLd m c fv 0 0 ∗ StVs m c fs 0 0 0 0
          ∗ StYtok c 0 ∗ sendCells (ysendCell c) 0 0 ∗ recvCells (yrecvCell c) 0
          ∗ StFtok c 0 ∗ sendCells (xsendCell c) 0 0 ∗ recvCells (xrecvCell c) 0
          ∗ StB m c (m ((c : Thread nD τ).loc main_v1)) false 0 0 0 ∗ StC m c (m ((c : Thread nD τ).loc main_v1)) false 0
          ∗ StSt m c (m ((c : Thread nD τ).loc main_v1)) 0 ∗ Ow c (owedAt c 0 0 0 0)) := by
  unfold ghost creds payToks
  rw [StepsEdge_positions, StepsEdge_ldToks, StepsEdge_cut_x c fullShare, StepsEdge_cut_o c fullShare,
    StepsEdge_cut_vs c fullShare fs, StepsEdge_cut_vl c fullShare fv, O₀_eq,
    StepsEdge_StBar_start, StepsEdge_StExit_start, StepsEdge_StLd_start, StepsEdge_StVs_start, StepsEdge_StYtok_start,
    StepsEdge_sendCells_start, StepsEdge_recvCells_start, StepsEdge_StFtok_start, StepsEdge_sendCells_start,
    StepsEdge_recvCells_start, StepsEdge_StB_start, StepsEdge_StC_start, StepsEdge_StSt_start,
    StepsEdge_fin_two (fun s : Fin 2 => reached ER (ldCell c s) 0)]
  unfold Pers Ow
  iintro ⟨⟨#Hrec, ⟨Pbar, Pexit, Pld, Pst, Pys, Pyr, Pxs, Pxr⟩, Hby, Hbx, Hey, Hex, Hyr, Hxr, Hys, Hxs, Hld, Hst⟩, ⟨Hcb, Hce, Hcy, Hcx⟩, #Hlev, Hx, ⟨Hown, HB, HC⟩, Hs, Hv, Hw⟩
  ihave #R0 := (StepsEdge_reached_ld m K c 0) $$ Hrec
  ihave #R1 := (StepsEdge_reached_ld m K c 1) $$ Hrec
  iframe
  isplitr
  · isplitr
    · iexact Hrec
    · iexact Hlev
  isplitr
  · isplitr
    · iexact R0
    · iexact R1
  iexists W
  iexact Hw

/-! ## The strands at their ends -/

theorem StepsEdge_StExit_end (c : Dev nD) :
    (StExit c 3 : sProp 𝕄) = iprop(emp ∗ emp ∗ semVal (exitCell c) 0) := by
  unfold StExit; rw [if_neg (by decide), if_neg (by decide), if_neg (by decide)]

theorem StepsEdge_wcount_end (s : Fin 2) : wcount 32 s = 16 := by have := s.isLt; unfold wcount; omega

theorem StepsEdge_StLd_end (c : Dev nD) (fv : Buf (Elt F) ((c : Thread nD τ).loc cc0_scratch1)) :
    StLd m c fv 32 32
      = iprop(emp
        ∗ (bigSep Finset.univ fun i : Fin 32 =>
            (ldSrc c (hOf i) (jOf i)).view.loc (c : Thread nD τ) ↦[(ldSrc c (hOf i) (jOf i)).view.set]{fullShare} m ((c : Thread nD τ).loc main_arg0))
        ∗ emp
        ∗ ((bigSep Finset.univ fun s : Fin 2 => atPos ER (ldCell c s) 16 ∅ 0)
          ∗ (bigSep Finset.univ fun s : Fin 2 => reached ER (ldCell c s) 16)
          ∗ (bigSep Finset.univ fun s : Fin 2 =>
              (vslot s).view.loc (c : Thread nD τ) ↦[(vslot s).view.set]{fullShare} slotC m c fv 32 s))) := by
  have h1 : (Finset.univ.filter fun i : Fin 32 => i.val < 32 ∨ 32 ≤ i.val) = Finset.univ :=
    Finset.filter_true_of_mem fun i _ => Or.inl i.isLt
  have h2 : (Finset.univ.filter fun i : Fin 32 => 32 ≤ i.val ∧ i.val < 32) = ∅ :=
    Finset.filter_false_of_mem fun i _ h => (Nat.not_lt.mpr h.1) h.2
  have hX : (bigSep Finset.univ fun s : Fin 2 => iprop(atPos ER (ldCell c s) (wcount 32 s) ∅ 0 ∗ reached ER (ldCell c s) (wcount 32 s)
        ∗ (if wcount 32 s = wcount 32 s then
            ((vslot s).view.loc (c : Thread nD τ) ↦[(vslot s).view.set]{fullShare} slotC m c fv 32 s) else iprop(emp))))
      = iprop((bigSep Finset.univ fun s : Fin 2 => atPos ER (ldCell c s) 16 ∅ 0)
          ∗ (bigSep Finset.univ fun s : Fin 2 => reached ER (ldCell c s) 16)
          ∗ (bigSep Finset.univ fun s : Fin 2 =>
              (vslot s).view.loc (c : Thread nD τ) ↦[(vslot s).view.set]{fullShare} slotC m c fv 32 s)) := by
    refine (bigSep_congr fun s _ => ?_).trans ((bigSep_sep _ _ _).trans (congrArg (BI.sep _) (bigSep_sep _ _ _)))
    rw [if_pos rfl, StepsEdge_wcount_end s]
    rfl
  unfold StLd
  rw [ge32_thirtytwo, h1, h2, bigSep_empty, bigSep_empty, hX]
  rfl

theorem StepsEdge_StVs_end (c : Dev nD) (fs : Buf (Elt F) ((c : Thread nD τ).loc cc0_scratch0)) :
    StVs m c fs 2 32 16 16
      = iprop((bigSep Finset.univ fun i : Fin 32 => vsM.view.loc (c : Thread nD τ) ↦[vsSet c i]{fullShare.left} VS m c)
          ∗ (((c : Thread nD τ).loc cc0_scratch0) ↦{fullShare.right} VS m c)) := by
  have h1 : (Finset.univ.filter fun i : Fin 32 => 16 ≤ i.val ∨ i.val < 16) = Finset.univ :=
    Finset.filter_true_of_mem fun i _ => by omega
  show iprop((bigSep (Finset.univ.filter fun i : Fin 32 => 16 ≤ i.val ∨ i.val < 16) fun i =>
      (vsM.view.loc (c : Thread nD τ) ↦[vsSet c i]{fullShare.left} VS m c))
      ∗ (vsM.view.loc (c : Thread nD τ) ↦[vsM.view.set]{fullShare.right} VS m c)) = _
  rw [h1, show (vsM : Memref sig .tc .vmem S16384x1024 .bf16).view.set = Finset.univ from View.set_whole cc0_scratch0]

theorem StepsEdge_sendCells_end (cell : Fin 16 → GSem nD τ sig) :
    (sendCells cell 16 16 : sProp 𝕄) = bigSep Finset.univ fun j : Fin 16 => semVal (cell j) 0 := by
  unfold sendCells; exact bigSep_congr fun j _ => if_pos j.isLt
theorem StepsEdge_recvCells_end (cell : Fin 16 → GSem nD τ sig) :
    (recvCells cell 16 : sProp 𝕄) = bigSep Finset.univ fun j : Fin 16 => semVal (cell j) 0 := by
  unfold recvCells; exact bigSep_congr fun j _ => if_pos j.isLt

theorem StepsEdge_StB_end (c : Dev nD) (fo : Buf (Elt F) ((c : Thread nD τ).loc main_v1)) :
    StB m c fo true 16 16 16
      = bigSep Finset.univ fun j : Fin 16 => ((fwM c j).view.loc (c : Thread nD τ) ↦[(fwM c j).view.set]{fullShare} OUT m c) := by
  show (bigSep Finset.univ fun j : Fin 16 => if j.val < 16 ∨ (16 ≤ j.val ∧ j.val < 16) then
      ((fwM c j).view.loc (c : Thread nD τ) ↦[(fwM c j).view.set]{fullShare} OUT m c) else iprop(emp)) = _
  exact bigSep_congr fun j _ => if_pos (Or.inl j.isLt)
theorem StepsEdge_StC_end (c : Dev nD) (fo : Buf (Elt F) ((c : Thread nD τ).loc main_v1)) :
    StC m c fo true 16
      = bigSep Finset.univ fun j : Fin 16 => ((fwM (xn c) j).view.loc (c : Thread nD τ) ↦[(fwM (xn c) j).view.set]{fullShare} OUT m c) := by
  show (bigSep (lt16 16) fun j : Fin 16 =>
      ((fwM (xn c) j).view.loc (c : Thread nD τ) ↦[(fwM (xn c) j).view.set]{fullShare} OUT m c)) = _
  rw [lt16_sixteen]
theorem StepsEdge_StSt_end (c : Dev nD) (fo : Buf (Elt F) ((c : Thread nD τ).loc main_v1)) :
    StSt m c fo 2 = iprop(semVal (stCell c) 0 ∗ ((ownM c).view.loc (c : Thread nD τ) ↦[(ownM c).view.set]{fullShare} OUT m c)) := rfl

/-! ## Joining the pieces -/

/-- Bands of rows held at whatever contents join to the whole buffer at some contents. -/
theorem StepsEdge_pointsTo_bands_join {ℓ : Loc nD τ sig} {T : Type} [DecidableEq T] [Fintype T] (K : T → Finset (Idx ℓ))
    (row : Idx ℓ → ℕ) (lo len : T → ℕ)
    (hmem : ∀ t x, x ∈ K t ↔ lo t ≤ row x ∧ row x < lo t + len t)
    (hd : ∀ t t', t ≠ t' → lo t + len t ≤ lo t' ∨ lo t' + len t' ≤ lo t)
    (hc : ∀ x, ∃ t, lo t ≤ row x ∧ row x < lo t + len t)
    (q : PosShare TreeShare) (fs : T → Buf (Elt F) ℓ) (f₀ : Buf (Elt F) ℓ) :
    (bigSep Finset.univ fun t => ℓ ↦[K t]{q} fs t) ⊢ (iprop(∃ g, ℓ ↦{q} g) : sProp 𝕄) := by
  have hu : (Finset.univ : Finset (Idx ℓ)) = Finset.univ.biUnion K := by
    ext x
    simp only [Finset.mem_univ, Finset.mem_biUnion, true_and, true_iff]
    obtain ⟨t, ht⟩ := hc x
    exact ⟨t, (hmem t x).mpr ht⟩
  have hdis : ∀ t ∈ (Finset.univ : Finset T), ∀ t' ∈ (Finset.univ : Finset T), t ≠ t' → Disjoint (K t) (K t') := by
    intro t _ t' _ hne
    refine Finset.disjoint_left.mpr fun x hx hx' => ?_
    have h1 := (hmem t x).mp hx
    have h2 := (hmem t' x).mp hx'
    rcases hd t t' hne with h | h <;> omega
  have h : (bigSep Finset.univ (fun t => ℓ ↦[K t]{q} fs t)
      ⊢ (iprop(∃ g, ⌜∀ t ∈ Finset.univ, ∀ i ∈ K t, g i = fs t i⌝ ∗ ℓ ↦[Finset.univ.biUnion K]{q} g) : sProp 𝕄)) :=
    pointsTo_biUnion_join Finset.univ K fs f₀ hdis
  rw [← hu] at h
  refine h.trans ?_
  iintro ⟨%g, %hg, H⟩
  iexists g
  iexact H

theorem StepsEdge_join_vl (c : Dev nD) (g : Fin 2 → Buf (Elt F) ((c : Thread nD τ).loc cc0_scratch1)) :
    (bigSep Finset.univ fun s : Fin 2 => (vslot s).view.loc (c : Thread nD τ) ↦[(vslot s).view.set]{fullShare} g s)
      ⊢ (iprop(∃ f : Buf (Elt F) ((c : Thread nD τ).loc cc0_scratch1), ((c : Thread nD τ).loc cc0_scratch1) ↦{fullShare} f) : sProp 𝕄) :=
  StepsEdge_pointsTo_bands_join (ℓ := (c : Thread nD τ).loc cc0_scratch1) (fun s : Fin 2 => (vslot s).view.set)
    (fun x => (x 0).val) (fun s => s.val) (fun _ => 1)
    (fun s x => StepsEdge_mem_vslot s x) (fun s s' h => by have : s.val ≠ s'.val := fun e => h (Fin.ext e); omega)
    (fun x => ⟨⟨(x 0).val, (x 0).isLt⟩, by show (x 0).val ≤ (x 0).val ∧ (x 0).val < (x 0).val + 1; omega⟩) fullShare g (g 0)

theorem StepsEdge_join_vs (c : Dev nD) :
    iprop((bigSep Finset.univ fun i : Fin 32 => vsM.view.loc (c : Thread nD τ) ↦[vsSet c i]{fullShare.left} VS m c)
        ∗ (((c : Thread nD τ).loc cc0_scratch0) ↦{fullShare.right} VS m c))
      ⊢ (((c : Thread nD τ).loc cc0_scratch0) ↦{fullShare} VS m c : sProp 𝕄) := by
  rw [← StepsEdge_cut_vs c fullShare.left (VS m c)]
  exact (pointsTo_share (PosShare.mem_left_op_right fullShare)).2

theorem StepsEdge_kindOf_ld (s : Fin 2) : kindOf (.dma (lsemS s)) = some (.ld s) := by
  have h : (lsemS s).val < 2 := s.isLt
  show (if h : (lsemS s).val < 2 then some (Kind.ld ⟨(lsemS s).val, h⟩) else _) = _
  rw [dif_pos h]; rfl
/-- A load slot's cell has no duty from round sixteen on. -/
theorem StepsEdge_duties_ld_later (c : Dev nD) (s : Fin 2) (r : ℕ) (hr : 16 ≤ r) :
    (sched (F := F) m).duties (ldCell c s) r = ∅ := by
  dsimp only [sched]; rw [if_pos rfl, StepsEdge_kindOf_ld]; exact if_neg (by omega)

section Steps

variable (K : Dev nD × Kind → ℕ) (c : Dev nD)
variable (fv : Buf (Elt F) ((c : Thread nD τ).loc cc0_scratch1)) (fs : Buf (Elt F) ((c : Thread nD τ).loc cc0_scratch0))
variable (fo : Buf (Elt F) ((c : Thread nD τ).loc main_v1))

local notation "WP" => wp frame (wpE (defs₀ (F := F)) 𝒱₀ (c : Thread nD τ) none) Set.univ

/-- From what the launch hands over to the strands at their starts. -/
theorem st_init (W : Waits sig Unit) :
    iprop(Φ₀ m c ∗ owes (c : Thread nD τ) (O₀ c) W)
      ⊢ iprop(∃ K fv fs, Pers m K ∗ StBar c 0 ∗ StExit c 0 ∗ StLd m c fv 0 0 ∗ StVs m c fs 0 0 0 0
          ∗ StYtok c 0 ∗ sendCells (ysendCell c) 0 0 ∗ recvCells (yrecvCell c) 0
          ∗ StFtok c 0 ∗ sendCells (xsendCell c) 0 0 ∗ recvCells (xrecvCell c) 0
          ∗ StB m c (m ((c : Thread nD τ).loc main_v1)) false 0 0 0 ∗ StC m c (m ((c : Thread nD τ).loc main_v1)) false 0
          ∗ StSt m c (m ((c : Thread nD τ).loc main_v1)) 0 ∗ Ow c (owedAt c 0 0 0 0)) := by
  unfold Φ₀ start scratchBufs
  iintro ⟨⟨⟨⟨%K, Hg⟩, Hc, Hlev, Hx, Ho⟩, ⟨%fs, Hs⟩, ⟨%fv, Hv⟩⟩, Hw⟩
  iexists K, fv, fs
  iapply (StepsEdge_init_aux m K c fv fs W)
  iframe

/-- From the strands at their ends to what the device hands back. -/
theorem st_final (n : ℕ) (hn : 2 ≤ n) :
    iprop(Pers m K ∗ StExit c 3 ∗ StLd m c fv 32 32 ∗ StVs m c fs 2 32 16 16
        ∗ sendCells (ysendCell c) 16 16 ∗ recvCells (yrecvCell c) 16 ∗ sendCells (xsendCell c) 16 16 ∗ recvCells (xrecvCell c) 16
        ∗ StB m c fo true 16 16 16 ∗ StC m c fo true 16 ∗ StSt m c fo 2 ∗ Ow c (owedAt c n 16 16 2))
      ⊢ iprop(|={Set.univ}=> (Φ₁ m c ∗ ∃ W', owes (c : Thread nD τ) 0 W')) := by
  rw [StepsEdge_StExit_end, StepsEdge_StLd_end, StepsEdge_StVs_end, StepsEdge_sendCells_end, StepsEdge_recvCells_end,
    StepsEdge_sendCells_end, StepsEdge_recvCells_end, StepsEdge_StB_end, StepsEdge_StC_end, StepsEdge_StSt_end,
    owedAt_done c n hn, StepsEdge_fin_two (fun s : Fin 2 => atPos ER (ldCell c s) 16 ∅ 0)]
  unfold Pers Ow Φ₁ closedSems scratchBufs
  iintro ⟨⟨#Hrec, #Hlev⟩, ⟨-, -, Hex⟩, ⟨-, Hx, -, ⟨Hat0, Hat1⟩, -, Hvl⟩, ⟨Hvs, Hvsr⟩, Hys, Hyr, Hxs, Hxr, HB, HC, ⟨Hst, Hown⟩, ⟨%W, Hw⟩⟩
  ihave #I0 := (StepsEdge_inv_ld m K c 0) $$ Hrec
  ihave #I1 := (StepsEdge_inv_ld m K c 1) $$ Hrec
  imod (Rounds.cell_close ER (sched m) (Set.mem_univ _) (fun h => h) (R := 16)
    (fun r hr => StepsEdge_duties_ld_later m c 0 r hr)) $$ [Hat0] with Hl0
  · isplitr
    · iexact I0
    · iexact Hat0
  imod (Rounds.cell_close ER (sched m) (Set.mem_univ _) (fun h => h) (R := 16)
    (fun r hr => StepsEdge_duties_ld_later m c 1 r hr)) $$ [Hat1] with Hl1
  · isplitr
    · iexact I1
    · iexact Hat1
  imodintro
  ihave Hxx := (Entails.of_eq (StepsEdge_cut_x c fullShare (m ((c : Thread nD τ).loc main_arg0))).symm) $$ Hx
  ihave Hoo := (Entails.of_eq (StepsEdge_cut_o c fullShare (OUT m c)).symm) $$ [Hown HB HC]
  · iframe
  ihave Hss := (StepsEdge_join_vs m c) $$ [Hvs Hvsr]
  · iframe
  ihave Hvv := (StepsEdge_join_vl c (fun s => slotC m c fv 32 s)) $$ Hvl
  icases Hvv with ⟨%g, Hvv⟩
  iframe
  isplitl [Hss Hvv]
  · isplitl [Hss]
    · iexists VS m c
      iexact Hss
    · iexists g
      iexact Hvv
  iexists W
  iexact Hw

end Steps

end Cert.Kernel.AG

end

/-- info: 'Cert.Kernel.AG.st_init' depends on axioms: [propext, Classical.choice, Quot.sound] -/
#guard_msgs in #print axioms Cert.Kernel.AG.st_init

/-- info: 'Cert.Kernel.AG.st_final' depends on axioms: [propext, Classical.choice, Quot.sound] -/
#guard_msgs in #print axioms Cert.Kernel.AG.st_final
-- ==== Proof.KTables.lean ====
import proofs.«900094_g7700000000000095_dist_ag_v7x_xy2x2_y_m16384_n1024_bf16_1_alg».proof.Proof.KProto

/-!
# The schedule's tables and the waiting levels

Which of the protocol's cells each semaphore is, and the schedule read at each cell: its duties in each round, each
duty's amount, the units a round expects, each duty's payload, and the whole of a round's payloads. A load slot's cell
has sixteen rounds of one duty; every other cell the one round, the entry and the exit cell with two duties in it.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Which cell is which -/

theorem barS_ne_exitS : barS ≠ exitS := by decide
theorem exitS_ne_barS : exitS ≠ barS := by decide

theorem kindOf_reg (s : Sem sig) : kindOf (.reg s) = if s = barS then some .bar else if s = exitS then some .exit else none := rfl
theorem kindOf_dma (q : DmaSem sig) : kindOf (.dma q) =
    if h : q.val < 2 then some (.ld ⟨q.val, h⟩)
    else if q.val = 2 then some .st
    else if h : 3 ≤ q.val ∧ q.val < 19 then some (.ysend ⟨q.val - 3, by omega⟩)
    else if h : 19 ≤ q.val ∧ q.val < 35 then some (.yrecv ⟨q.val - 19, by omega⟩)
    else if h : 35 ≤ q.val ∧ q.val < 51 then some (.xsend ⟨q.val - 35, by omega⟩)
    else if h : 51 ≤ q.val ∧ q.val < 67 then some (.xrecv ⟨q.val - 51, by omega⟩)
    else none := rfl

theorem kindOf_bar : kindOf (.reg barS) = some .bar := by rw [kindOf_reg, if_pos rfl]
theorem kindOf_exit : kindOf (.reg exitS) = some .exit := by rw [kindOf_reg, if_neg exitS_ne_barS, if_pos rfl]

theorem kindOf_ld (s : Fin 2) : kindOf (.dma (lsemS s)) = some (.ld s) := by
  have h : (lsemS s).val < 2 := s.isLt
  rw [kindOf_dma, dif_pos h]; rfl
theorem kindOf_st : kindOf (.dma ssemS) = some .st := by
  have h : ¬ (ssemS.val < 2) := fun h => by change 2 < 2 at h; omega
  rw [kindOf_dma, dif_neg h, if_pos (show ssemS.val = 2 from rfl)]
theorem kindOf_ysend (j : Fin 16) : kindOf (.dma (ysendS j)) = some (.ysend j) := by
  have hj := j.isLt
  have ha : ¬ ((ysendS j).val < 2) := fun h => by change 3 + j.val < 2 at h; omega
  have hb : ¬ ((ysendS j).val = 2) := fun h => by change 3 + j.val = 2 at h; omega
  have h : 3 ≤ (ysendS j).val ∧ (ysendS j).val < 19 := ⟨by show 3 ≤ 3 + j.val; omega, by show 3 + j.val < 19; omega⟩
  rw [kindOf_dma, dif_neg ha, if_neg hb, dif_pos h]
  exact congrArg (fun i => some (Kind.ysend i)) (Fin.ext (show 3 + j.val - 3 = j.val from Nat.add_sub_cancel_left ..))
theorem kindOf_yrecv (j : Fin 16) : kindOf (.dma (yrecvS j)) = some (.yrecv j) := by
  have hj := j.isLt
  have ha : ¬ ((yrecvS j).val < 2) := fun h => by change 19 + j.val < 2 at h; omega
  have hb : ¬ ((yrecvS j).val = 2) := fun h => by change 19 + j.val = 2 at h; omega
  have h0 : ¬ (3 ≤ (yrecvS j).val ∧ (yrecvS j).val < 19) := fun h => by have := h.2; change 19 + j.val < 19 at this; omega
  have h : 19 ≤ (yrecvS j).val ∧ (yrecvS j).val < 35 := ⟨by show 19 ≤ 19 + j.val; omega, by show 19 + j.val < 35; omega⟩
  rw [kindOf_dma, dif_neg ha, if_neg hb, dif_neg h0, dif_pos h]
  exact congrArg (fun i => some (Kind.yrecv i)) (Fin.ext (show 19 + j.val - 19 = j.val from Nat.add_sub_cancel_left ..))
theorem kindOf_xsend (j : Fin 16) : kindOf (.dma (xsendS j)) = some (.xsend j) := by
  have hj := j.isLt
  have ha : ¬ ((xsendS j).val < 2) := fun h => by change 35 + j.val < 2 at h; omega
  have hb : ¬ ((xsendS j).val = 2) := fun h => by change 35 + j.val = 2 at h; omega
  have h0 : ¬ (3 ≤ (xsendS j).val ∧ (xsendS j).val < 19) := fun h => by have := h.2; change 35 + j.val < 19 at this; omega
  have h1 : ¬ (19 ≤ (xsendS j).val ∧ (xsendS j).val < 35) := fun h => by have := h.2; change 35 + j.val < 35 at this; omega
  have h : 35 ≤ (xsendS j).val ∧ (xsendS j).val < 51 := ⟨by show 35 ≤ 35 + j.val; omega, by show 35 + j.val < 51; omega⟩
  rw [kindOf_dma, dif_neg ha, if_neg hb, dif_neg h0, dif_neg h1, dif_pos h]
  exact congrArg (fun i => some (Kind.xsend i)) (Fin.ext (show 35 + j.val - 35 = j.val from Nat.add_sub_cancel_left ..))
theorem kindOf_xrecv (j : Fin 16) : kindOf (.dma (xrecvS j)) = some (.xrecv j) := by
  have hj := j.isLt
  have ha : ¬ ((xrecvS j).val < 2) := fun h => by change 51 + j.val < 2 at h; omega
  have hb : ¬ ((xrecvS j).val = 2) := fun h => by change 51 + j.val = 2 at h; omega
  have h0 : ¬ (3 ≤ (xrecvS j).val ∧ (xrecvS j).val < 19) := fun h => by have := h.2; change 51 + j.val < 19 at this; omega
  have h1 : ¬ (19 ≤ (xrecvS j).val ∧ (xrecvS j).val < 35) := fun h => by have := h.2; change 51 + j.val < 35 at this; omega
  have h2 : ¬ (35 ≤ (xrecvS j).val ∧ (xrecvS j).val < 51) := fun h => by have := h.2; change 51 + j.val < 51 at this; omega
  have h : 51 ≤ (xrecvS j).val ∧ (xrecvS j).val < 67 := ⟨by show 51 ≤ 51 + j.val; omega, by show 51 + j.val < 67; omega⟩
  rw [kindOf_dma, dif_neg ha, if_neg hb, dif_neg h0, dif_neg h1, dif_neg h2, dif_pos h]
  exact congrArg (fun i => some (Kind.xrecv i)) (Fin.ext (show 51 + j.val - 51 = j.val from Nat.add_sub_cancel_left ..))

/-- A cell's kind tells cells apart: two semaphores of different kinds differ. -/
theorem ne_of_kindOf_ne {a b : SemLoc sig} (h : kindOf a ≠ kindOf b) : a ≠ b := fun e => h (congrArg kindOf e)
/-- Every cell of the protocol is its kind's cell: the kind determines the semaphore. -/
theorem cellOfKind_kind (c : Dev nD) (k : Kind) : kindOf (cellOfKind c k).2 = some k := by
  cases k with
  | bar => exact kindOf_bar
  | exit => exact kindOf_exit
  | ld s => exact kindOf_ld s
  | st => exact kindOf_st
  | ysend j => exact kindOf_ysend j
  | yrecv j => exact kindOf_yrecv j
  | xsend j => exact kindOf_xsend j
  | xrecv j => exact kindOf_xrecv j

/-! ## The schedule at each cell -/

theorem duties_bar (m : (ℓ : Loc nD τ sig) → Buf (Elt F) ℓ) (c : Dev nD) : (sched (F := F) m).duties (barCell c) 0 = Finset.univ := by
  dsimp only [sched]; rw [if_pos rfl, kindOf_bar]; exact if_pos rfl
theorem duties_exit (m : (ℓ : Loc nD τ sig) → Buf (Elt F) ℓ) (c : Dev nD) : (sched (F := F) m).duties (exitCell c) 0 = Finset.univ := by
  dsimp only [sched]; rw [if_pos rfl, kindOf_exit]; exact if_pos rfl
theorem duties_ld (m : (ℓ : Loc nD τ sig) → Buf (Elt F) ℓ) (c : Dev nD) (s : Fin 2) (r : ℕ) (hr : r < 16) : (sched (F := F) m).duties (ldCell c s) r = {false} := by
  dsimp only [sched]; rw [if_pos rfl, kindOf_ld]; exact if_pos hr
theorem duties_ld_later (m : (ℓ : Loc nD τ sig) → Buf (Elt F) ℓ) (c : Dev nD) (s : Fin 2) (r : ℕ) (hr : 16 ≤ r) : (sched (F := F) m).duties (ldCell c s) r = ∅ := by
  dsimp only [sched]; rw [if_pos rfl, kindOf_ld]; exact if_neg (by omega)
theorem duties_st (m : (ℓ : Loc nD τ sig) → Buf (Elt F) ℓ) (c : Dev nD) : (sched (F := F) m).duties (stCell c) 0 = {false} := by
  dsimp only [sched]; rw [if_pos rfl, kindOf_st]; exact if_pos rfl
theorem duties_ysend (m : (ℓ : Loc nD τ sig) → Buf (Elt F) ℓ) (c : Dev nD) (j : Fin 16) : (sched (F := F) m).duties (ysendCell c j) 0 = {false} := by
  dsimp only [sched]; rw [if_pos rfl, kindOf_ysend]; exact if_pos rfl
theorem duties_yrecv (m : (ℓ : Loc nD τ sig) → Buf (Elt F) ℓ) (c : Dev nD) (j : Fin 16) : (sched (F := F) m).duties (yrecvCell c j) 0 = {false} := by
  dsimp only [sched]; rw [if_pos rfl, kindOf_yrecv]; exact if_pos rfl
theorem duties_xsend (m : (ℓ : Loc nD τ sig) → Buf (Elt F) ℓ) (c : Dev nD) (j : Fin 16) : (sched (F := F) m).duties (xsendCell c j) 0 = {false} := by
  dsimp only [sched]; rw [if_pos rfl, kindOf_xsend]; exact if_pos rfl
theorem duties_xrecv (m : (ℓ : Loc nD τ sig) → Buf (Elt F) ℓ) (c : Dev nD) (j : Fin 16) : (sched (F := F) m).duties (xrecvCell c j) 0 = {false} := by
  dsimp only [sched]; rw [if_pos rfl, kindOf_xrecv]; exact if_pos rfl
/-- Every cell but the load slots' has the one round. -/
theorem duties_later (m : (ℓ : Loc nD τ sig) → Buf (Elt F) ℓ) (g : GSem nD τ sig) (hg : ∀ s, kindOf g.2 ≠ some (.ld s)) (r : ℕ) (hr : 1 ≤ r) :
    (sched (F := F) m).duties g r = ∅ := by
  have h0 : ¬ r = 0 := by omega
  dsimp only [sched]
  split
  · split
    all_goals first | rfl | exact if_neg h0 | (rename_i s hs; exact absurd hs (hg s)) | trace_state
  · rfl
theorem duties_bar_later (m : (ℓ : Loc nD τ sig) → Buf (Elt F) ℓ) (c : Dev nD) (r : ℕ) (hr : 1 ≤ r) : (sched (F := F) m).duties (barCell c) r = ∅ :=
  duties_later m (barCell c) (fun s h => by rw [kindOf_bar] at h; cases h) r hr
theorem duties_exit_later (m : (ℓ : Loc nD τ sig) → Buf (Elt F) ℓ) (c : Dev nD) (r : ℕ) (hr : 1 ≤ r) : (sched (F := F) m).duties (exitCell c) r = ∅ :=
  duties_later m (exitCell c) (fun s h => by rw [kindOf_exit] at h; cases h) r hr
theorem duties_st_later (m : (ℓ : Loc nD τ sig) → Buf (Elt F) ℓ) (c : Dev nD) (r : ℕ) (hr : 1 ≤ r) : (sched (F := F) m).duties (stCell c) r = ∅ :=
  duties_later m (stCell c) (fun s h => by rw [kindOf_st] at h; cases h) r hr
theorem duties_ysend_later (m : (ℓ : Loc nD τ sig) → Buf (Elt F) ℓ) (c : Dev nD) (j : Fin 16) (r : ℕ) (hr : 1 ≤ r) : (sched (F := F) m).duties (ysendCell c j) r = ∅ :=
  duties_later m (ysendCell c j) (fun s h => by rw [kindOf_ysend] at h; cases h) r hr
theorem duties_yrecv_later (m : (ℓ : Loc nD τ sig) → Buf (Elt F) ℓ) (c : Dev nD) (j : Fin 16) (r : ℕ) (hr : 1 ≤ r) : (sched (F := F) m).duties (yrecvCell c j) r = ∅ :=
  duties_later m (yrecvCell c j) (fun s h => by rw [kindOf_yrecv] at h; cases h) r hr
theorem duties_xsend_later (m : (ℓ : Loc nD τ sig) → Buf (Elt F) ℓ) (c : Dev nD) (j : Fin 16) (r : ℕ) (hr : 1 ≤ r) : (sched (F := F) m).duties (xsendCell c j) r = ∅ :=
  duties_later m (xsendCell c j) (fun s h => by rw [kindOf_xsend] at h; cases h) r hr
theorem duties_xrecv_later (m : (ℓ : Loc nD τ sig) → Buf (Elt F) ℓ) (c : Dev nD) (j : Fin 16) (r : ℕ) (hr : 1 ≤ r) : (sched (F := F) m).duties (xrecvCell c j) r = ∅ :=
  duties_later m (xrecvCell c j) (fun s h => by rw [kindOf_xrecv] at h; cases h) r hr

theorem amount_bar (m : (ℓ : Loc nD τ sig) → Buf (Elt F) ℓ) (c : Dev nD) (d : Bool) : (sched (F := F) m).amount (barCell c) 0 d = 1 := by
  dsimp only [sched]; rw [kindOf_bar]
theorem amount_exit (m : (ℓ : Loc nD τ sig) → Buf (Elt F) ℓ) (c : Dev nD) (d : Bool) : (sched (F := F) m).amount (exitCell c) 0 d = 1 := by
  dsimp only [sched]; rw [kindOf_exit]
theorem amount_ld (m : (ℓ : Loc nD τ sig) → Buf (Elt F) ℓ) (c : Dev nD) (s : Fin 2) (r : ℕ) (d : Bool) : (sched (F := F) m).amount (ldCell c s) r d = NL := by
  dsimp only [sched]; rw [kindOf_ld]
theorem amount_st (m : (ℓ : Loc nD τ sig) → Buf (Elt F) ℓ) (c : Dev nD) (d : Bool) : (sched (F := F) m).amount (stCell c) 0 d = NS := by
  dsimp only [sched]; rw [kindOf_st]
theorem amount_ysend (m : (ℓ : Loc nD τ sig) → Buf (Elt F) ℓ) (c : Dev nD) (j : Fin 16) (d : Bool) : (sched (F := F) m).amount (ysendCell c j) 0 d = N := by
  dsimp only [sched]; rw [kindOf_ysend]
theorem amount_yrecv (m : (ℓ : Loc nD τ sig) → Buf (Elt F) ℓ) (c : Dev nD) (j : Fin 16) (d : Bool) : (sched (F := F) m).amount (yrecvCell c j) 0 d = N := by
  dsimp only [sched]; rw [kindOf_yrecv]
theorem amount_xsend (m : (ℓ : Loc nD τ sig) → Buf (Elt F) ℓ) (c : Dev nD) (j : Fin 16) (d : Bool) : (sched (F := F) m).amount (xsendCell c j) 0 d = N := by
  dsimp only [sched]; rw [kindOf_xsend]
theorem amount_xrecv (m : (ℓ : Loc nD τ sig) → Buf (Elt F) ℓ) (c : Dev nD) (j : Fin 16) (d : Bool) : (sched (F := F) m).amount (xrecvCell c j) 0 d = N := by
  dsimp only [sched]; rw [kindOf_xrecv]

theorem expect_bar (m : (ℓ : Loc nD τ sig) → Buf (Elt F) ℓ) (c : Dev nD) : (sched (F := F) m).expect (barCell c) 0 = 2 := by
  show ∑ d ∈ (sched (F := F) m).duties (barCell c) 0, (sched (F := F) m).amount (barCell c) 0 d = 2
  rw [duties_bar]
  simp only [amount_bar, Finset.sum_const, Finset.card_univ, Fintype.card_bool, smul_eq_mul]
theorem expect_exit (m : (ℓ : Loc nD τ sig) → Buf (Elt F) ℓ) (c : Dev nD) : (sched (F := F) m).expect (exitCell c) 0 = 2 := by
  show ∑ d ∈ (sched (F := F) m).duties (exitCell c) 0, (sched (F := F) m).amount (exitCell c) 0 d = 2
  rw [duties_exit]
  simp only [amount_exit, Finset.sum_const, Finset.card_univ, Fintype.card_bool, smul_eq_mul]
/-- A cell with one duty expects that duty's amount. -/
theorem expect_of_single (Rd : Rounds.Schedule (GSem nD τ sig) Bool 𝕄) (g : GSem nD τ sig) (r : ℕ) (d : Bool) (n : ℕ)
    (hd : Rd.duties g r = {d}) (ha : Rd.amount g r d = n) : Rd.expect g r = n := by
  unfold Schedule.expect Schedule.amountOf; rw [hd, Finset.sum_singleton, ha]
theorem expect_ld (m : (ℓ : Loc nD τ sig) → Buf (Elt F) ℓ) (c : Dev nD) (s : Fin 2) (r : ℕ) (hr : r < 16) : (sched (F := F) m).expect (ldCell c s) r = NL :=
  expect_of_single _ _ _ _ _ (duties_ld m c s r hr) (amount_ld m c s r false)
theorem expect_st (m : (ℓ : Loc nD τ sig) → Buf (Elt F) ℓ) (c : Dev nD) : (sched (F := F) m).expect (stCell c) 0 = NS :=
  expect_of_single _ _ _ _ _ (duties_st m c) (amount_st m c false)
theorem expect_ysend (m : (ℓ : Loc nD τ sig) → Buf (Elt F) ℓ) (c : Dev nD) (j : Fin 16) : (sched (F := F) m).expect (ysendCell c j) 0 = N :=
  expect_of_single _ _ _ _ _ (duties_ysend m c j) (amount_ysend m c j false)
theorem expect_yrecv (m : (ℓ : Loc nD τ sig) → Buf (Elt F) ℓ) (c : Dev nD) (j : Fin 16) : (sched (F := F) m).expect (yrecvCell c j) 0 = N :=
  expect_of_single _ _ _ _ _ (duties_yrecv m c j) (amount_yrecv m c j false)
theorem expect_xsend (m : (ℓ : Loc nD τ sig) → Buf (Elt F) ℓ) (c : Dev nD) (j : Fin 16) : (sched (F := F) m).expect (xsendCell c j) 0 = N :=
  expect_of_single _ _ _ _ _ (duties_xsend m c j) (amount_xsend m c j false)
theorem expect_xrecv (m : (ℓ : Loc nD τ sig) → Buf (Elt F) ℓ) (c : Dev nD) (j : Fin 16) : (sched (F := F) m).expect (xrecvCell c j) 0 = N :=
  expect_of_single _ _ _ _ _ (duties_xrecv m c j) (amount_xrecv m c j false)

theorem payload_bar_false (m : (ℓ : Loc nD τ sig) → Buf (Elt F) ℓ) (c : Dev nD) : (sched (F := F) m).payload (barCell c) 0 false = barPayY c := by
  dsimp only [sched]; rw [kindOf_bar]; rfl
theorem payload_bar_true (m : (ℓ : Loc nD τ sig) → Buf (Elt F) ℓ) (c : Dev nD) : (sched (F := F) m).payload (barCell c) 0 true = barPayX c := by
  dsimp only [sched]; rw [kindOf_bar]; rfl
theorem payload_exit (m : (ℓ : Loc nD τ sig) → Buf (Elt F) ℓ) (c : Dev nD) (d : Bool) : (sched (F := F) m).payload (exitCell c) 0 d = iprop(emp) := by
  dsimp only [sched]; rw [kindOf_exit]
theorem payload_ld (m : (ℓ : Loc nD τ sig) → Buf (Elt F) ℓ) (c : Dev nD) (s : Fin 2) (r : ℕ) (d : Bool) : (sched (F := F) m).payload (ldCell c s) r d = ldPay m c s r := by
  dsimp only [sched]; rw [kindOf_ld]
theorem payload_st (m : (ℓ : Loc nD τ sig) → Buf (Elt F) ℓ) (c : Dev nD) (d : Bool) : (sched (F := F) m).payload (stCell c) 0 d = stPay m c := by
  dsimp only [sched]; rw [kindOf_st]
theorem payload_ysend (m : (ℓ : Loc nD τ sig) → Buf (Elt F) ℓ) (c : Dev nD) (j : Fin 16) (d : Bool) : (sched (F := F) m).payload (ysendCell c j) 0 d = ysendPay m c j := by
  dsimp only [sched]; rw [kindOf_ysend]
theorem payload_yrecv (m : (ℓ : Loc nD τ sig) → Buf (Elt F) ℓ) (c : Dev nD) (j : Fin 16) (d : Bool) : (sched (F := F) m).payload (yrecvCell c j) 0 d = yrecvPay m c j := by
  dsimp only [sched]; rw [kindOf_yrecv]
theorem payload_xsend (m : (ℓ : Loc nD τ sig) → Buf (Elt F) ℓ) (c : Dev nD) (j : Fin 16) (d : Bool) : (sched (F := F) m).payload (xsendCell c j) 0 d = xsendPay m c j := by
  dsimp only [sched]; rw [kindOf_xsend]
theorem payload_xrecv (m : (ℓ : Loc nD τ sig) → Buf (Elt F) ℓ) (c : Dev nD) (j : Fin 16) (d : Bool) : (sched (F := F) m).payload (xrecvCell c j) 0 d = xrecvPay m c j := by
  dsimp only [sched]; rw [kindOf_xrecv]

/-- Round `roundOf h j` of slot `slotOf j` is load `(h, j)`: loads alternate slots, eight of a half to a slot. -/
theorem ldPay_eq (m : (ℓ : Loc nD τ sig) → Buf (Elt F) ℓ) (c : Dev nD) (h : Bool) (j : Fin 16) : ldPay m c (slotOf j) (roundOf h j) = ldPayAt m c h j := by
  have hj := j.isLt
  unfold ldPay
  congr 1
  · cases h <;> simp [roundOf] <;> omega
  · apply Fin.ext; cases h <;> simp [roundOf, slotOf] <;> omega

/-- The whole of the entry cell's round, no duty taken: what the y-neighbour hands over and what the x-neighbour does. -/
theorem rest_bar (m : (ℓ : Loc nD τ sig) → Buf (Elt F) ℓ) (c : Dev nD) :
    bigSep ((sched (F := F) m).duties (barCell c) 0 \ ∅) (fun d => (sched (F := F) m).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
theorem rest_exit (m : (ℓ : Loc nD τ sig) → Buf (Elt F) ℓ) (c : Dev nD) :
    bigSep ((sched (F := F) m).duties (exitCell c) 0 \ ∅) (fun d => (sched (F := F) m).payload (exitCell c) 0 d) = iprop(emp ∗ emp) := by
  rw [Finset.sdiff_empty, duties_exit, bigSep_univ_eq_bigSepL [false, true] (by decide) (by decide), bigSepL_cons_cons, bigSepL_singleton,
    payload_exit, payload_exit]
  rfl
theorem rest_ld (m : (ℓ : Loc nD τ sig) → Buf (Elt F) ℓ) (c : Dev nD) (s : Fin 2) (r : ℕ) (hr : r < 16) :
    bigSep ((sched (F := F) m).duties (ldCell c s) r \ ∅) (fun d => (sched (F := F) m).payload (ldCell c s) r d) = ldPay m c s r := by
  rw [Finset.sdiff_empty, duties_ld m c s r hr, bigSep_singleton, payload_ld]
theorem rest_st (m : (ℓ : Loc nD τ sig) → Buf (Elt F) ℓ) (c : Dev nD) :
    bigSep ((sched (F := F) m).duties (stCell c) 0 \ ∅) (fun d => (sched (F := F) m).payload (stCell c) 0 d) = stPay m c := by
  rw [Finset.sdiff_empty, duties_st, bigSep_singleton, payload_st]
theorem rest_ysend (m : (ℓ : Loc nD τ sig) → Buf (Elt F) ℓ) (c : Dev nD) (j : Fin 16) :
    bigSep ((sched (F := F) m).duties (ysendCell c j) 0 \ ∅) (fun d => (sched (F := F) m).payload (ysendCell c j) 0 d) = ysendPay m c j := by
  rw [Finset.sdiff_empty, duties_ysend, bigSep_singleton, payload_ysend]
theorem rest_yrecv (m : (ℓ : Loc nD τ sig) → Buf (Elt F) ℓ) (c : Dev nD) (j : Fin 16) :
    bigSep ((sched (F := F) m).duties (yrecvCell c j) 0 \ ∅) (fun d => (sched (F := F) m).payload (yrecvCell c j) 0 d) = yrecvPay m c j := by
  rw [Finset.sdiff_empty, duties_yrecv, bigSep_singleton, payload_yrecv]
theorem rest_xsend (m : (ℓ : Loc nD τ sig) → Buf (Elt F) ℓ) (c : Dev nD) (j : Fin 16) :
    bigSep ((sched (F := F) m).duties (xsendCell c j) 0 \ ∅) (fun d => (sched (F := F) m).payload (xsendCell c j) 0 d) = xsendPay m c j := by
  rw [Finset.sdiff_empty, duties_xsend, bigSep_singleton, payload_xsend]
theorem rest_xrecv (m : (ℓ : Loc nD τ sig) → Buf (Elt F) ℓ) (c : Dev nD) (j : Fin 16) :
    bigSep ((sched (F := F) m).duties (xrecvCell c j) 0 \ ∅) (fun d => (sched (F := F) m).payload (xrecvCell c j) 0 d) = xrecvPay m c j := by
  rw [Finset.sdiff_empty, duties_xrecv, bigSep_singleton, payload_xrecv]

attribute [sl_rounds] duties_bar duties_exit duties_ld duties_ld_later duties_st duties_ysend duties_yrecv duties_xsend duties_xrecv duties_bar_later duties_exit_later duties_st_later duties_ysend_later duties_yrecv_later duties_xsend_later duties_xrecv_later amount_bar
  amount_exit amount_ld amount_st amount_ysend amount_yrecv amount_xsend amount_xrecv expect_bar expect_exit expect_ld expect_st expect_ysend expect_yrecv expect_xsend expect_xrecv payload_bar_false payload_bar_true
  payload_exit payload_ld payload_st payload_ysend payload_yrecv payload_xsend payload_xrecv rest_bar rest_exit rest_ld rest_st rest_ysend rest_yrecv rest_xsend rest_xrecv

end Cert.Kernel.AG

end

/-- info: 'Cert.Kernel.AG.rest_bar' depends on axioms: [propext, Classical.choice, Quot.sound] -/
#guard_msgs in #print axioms Cert.Kernel.AG.rest_bar
-- ==== Proof.KStepsHand.lean ====
import proofs.«900094_g7700000000000095_dist_ag_v7x_xy2x2_y_m16384_n1024_bf16_1_alg».proof.Proof.KState
import proofs.«900094_g7700000000000095_dist_ag_v7x_xy2x2_y_m16384_n1024_bf16_1_alg».proof.Proof.KOwedLv
import proofs.«900094_g7700000000000095_dist_ag_v7x_xy2x2_y_m16384_n1024_bf16_1_alg».proof.Proof.KTables

/-!
# The two handshakes

One unit to each neighbour, a wait for two: on the way in the signals carry the halves of the result array the
neighbours fill, and the wait brings the rows of theirs this device writes; on the way out they carry nothing.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Counts at their ends -/

private theorem hand_ge16_zero : ge16 0 = Finset.univ := Finset.filter_true_of_mem fun _ _ => Nat.zero_le _
private theorem hand_lt16_zero : lt16 0 = ∅ := Finset.filter_eq_empty_iff.mpr fun j _ => Nat.not_lt_zero _

/-! ## The entry wait sits below everything still owed -/

private theorem hand_L_tc (c : Dev nD) (sm : SemLoc sig) : L ((c : Thread nD τ), sm) = {()} := if_pos rfl

private theorem hand_mayWait_bar (c : Dev nD) :
    (levAts L lv : sProp 𝕄) ⊢ MayWait (c : Thread nD τ) (.reg barS) () (owedAt c 2 0 0 0) :=
  MayOwe.of_cut (L := L) (lev := lv) 1
    (fun p hp => by rw [Finset.mem_singleton.mp hp, hand_L_tc]; exact Finset.mem_singleton_self _)
    (fun g u hg => by unfold L; rw [if_pos (owedAt_lv_two_le c 0 0 0 g u hg).1]; exact Finset.mem_singleton_self _)
    (fun p hp => by rw [Finset.mem_singleton.mp hp]; dsimp only [lv]; rw [kindOf_bar])
    (fun g u hg => (owedAt_lv_two_le c 0 0 0 g u hg).2)

/-! ## The halves of the result array the entry signals hand over -/

/-- The rows a device's forwards write are the rows its y-neighbour's y-transfers write. -/
private theorem hand_off_eq (c' : Dev nD) (j : Fin 16) : k0_off5 (yn c') (cw j) = k0_off3 c' (cw j) := by
  rw [show cw j = BitVec.ofNat 32 (512 * j.val) from rfl, k0_off5_eq, k0_off3_eq]
  revert c' j; decide

private theorem hand_oSl_congr {off off' : Fin 2 → Nat} (e : off = off') (h : ∀ a, off a + S512x1024.size a ≤ S32768x1024.size a)
    (h' : ∀ a, off' a + S512x1024.size a ≤ S32768x1024.size a) : oSl off h = oSl off' h' := by subst e; rfl

private theorem hand_fwM_yn (c' : Dev nD) (j : Fin 16) : fwM (yn c') j = dstY c' j := hand_oSl_congr (hand_off_eq c' j) _ _

omit [FloatOps F] in
/-- A points-to through a memref is one through any equal memref, at some contents. -/
private theorem hand_pt_congr {sh : Shape} (M M' : Memref sig .tc .hbm sh .bf16) (e : M = M') (t : Dev nD) (f : Buf (Elt F) (M.view.loc (t : Thread nD τ))) :
    (M.view.loc (t : Thread nD τ) ↦[M.view.set]{fullShare} f : sProp 𝕄) ⊢ iprop(∃ f', M'.view.loc (t : Thread nD τ) ↦[M'.view.set]{fullShare} f') := by
  subst e; iintro H; iexists f; iexact H

omit [FloatOps F] in
private theorem hand_barPayY (c c' : Dev nD) (hc : c = yn c') (fo : Buf (Elt F) ((c : Thread nD τ).loc main_v1)) :
    (bigSep Finset.univ fun j : Fin 16 => ((fwM c j).view.loc (c : Thread nD τ) ↦[(fwM c j).view.set]{fullShare} fo : sProp 𝕄)) ⊢ barPayY c' := by
  subst hc
  unfold barPayY
  exact bigSep_mono fun j _ => hand_pt_congr (fwM (yn c') j) (dstY c' j) (hand_fwM_yn c' j) _ fo

omit [FloatOps F] in
private theorem hand_barPayX (c c' : Dev nD) (hc : c = xn c') (fo : Buf (Elt F) ((c : Thread nD τ).loc main_v1)) :
    (bigSep Finset.univ fun j : Fin 16 => ((fwM c' j).view.loc (c : Thread nD τ) ↦[(fwM c' j).view.set]{fullShare} fo : sProp 𝕄)) ⊢ barPayX c' := by
  subst hc
  unfold barPayX
  exact bigSep_mono fun j _ => hand_pt_congr (fwM c' j) (fwM c' j) rfl _ fo

/-! ## A cell's record out of the whole -/

private theorem hand_inv_at (K : Dev nD × Kind → ℕ) (ck : Dev nD × Kind) :
    (bigSep Finset.univ fun ck : Dev nD × Kind => (cellInv ER (sched m) (K ck) (cellAt ck) : sProp 𝕄)) ⊢ cellInv ER (sched m) (K ck) (cellAt ck) :=
  bigSep_elim (Finset.mem_univ ck)
omit [FloatOps F] in
private theorem hand_reached_at (ck : Dev nD × Kind) :
    (bigSep Finset.univ fun ck : Dev nD × Kind => (reached ER (cellAt ck) 0 : sProp 𝕄)) ⊢ reached ER (cellAt ck) 0 :=
  bigSep_elim (Finset.mem_univ ck)

section Steps

variable (K : Dev nD × Kind → ℕ) (c : Dev nD)
variable (fv : Buf (Elt F) ((c : Thread nD τ).loc cc0_scratch1)) (fs : Buf (Elt F) ((c : Thread nD τ).loc cc0_scratch0))
variable (fo : Buf (Elt F) ((c : Thread nD τ).loc main_v1))

local notation "WP" => wp frame (wpE (defs₀ (F := F)) 𝒱₀ (c : Thread nD τ) none) Set.univ

variable {α : Type}

/-- Once the half is given and nothing has come back, the device holds none of it. -/
private theorem hand_StB_given : (emp : sProp 𝕄) ⊢ StB m c fo true 0 0 0 := by
  unfold StB
  rw [if_pos rfl]
  refine (Entails.of_eq (bigSep_emp_const Finset.univ).symm).trans (bigSep_mono fun j _ => ?_)
  rw [if_neg (by omega)]
  exact BI.Entails.refl _

private theorem hand_StC_given : (emp : sProp 𝕄) ⊢ StC m c fo true 0 := by
  unfold StC
  rw [if_pos rfl, hand_lt16_zero, bigSep_empty]
  exact BI.Entails.refl _

/-- The first entry signal, to the y-neighbour, hands it the half it fills. -/
theorem s_sig_bar_y (nY nF nE : ℕ) {k : PUnit → Prog (TpuEff nD τ sig (Elt F) Λ₀ .tc) α} {Q : α → sProp 𝕄} (d : Dev nD) (hd : d = yn c) :
    iprop(Pers m K ∗ StBar c 0 ∗ StB m c fo false 0 0 0 ∗ Ow c (owedAt c 0 nY nF nE)
        ∗ ((StBar c 1 ∗ StB m c fo true 0 0 0 ∗ Ow c (owedAt c 1 nY nF nE)) -∗ WP (k ⟨⟩) Q))
      ⊢ WP (.op (.semSignal (Dev.tc d : Thread nD τ) barS 1) k) Q := by
  subst hd
  unfold Pers records Ow
  rw [show (StBar c 0 : sProp 𝕄) = iprop(dutyTok ER (barCell (yn c)) 0 false ∗ dutyTok ER (barCell (xn c)) 0 true
      ∗ iprop(atPos ER (barCell c) 0 ∅ 0 ∗ cred (tallyAt (barCell c) () 2))) from rfl,
    show (StBar c 1 : sProp 𝕄) = iprop(emp ∗ dutyTok ER (barCell (xn c)) 0 true
      ∗ iprop(atPos ER (barCell c) 0 ∅ 0 ∗ cred (tallyAt (barCell c) () 2))) from rfl,
    show (StB m c fo false 0 0 0 : sProp 𝕄)
      = bigSep Finset.univ (fun j : Fin 16 => ((fwM c j).view.loc (c : Thread nD τ) ↦[(fwM c j).view.set]{fullShare} fo)) from rfl]
  iintro ⟨⟨⟨#HI, #HR⟩, #Hlev⟩, ⟨Ht1, Ht2, Hp⟩, HB, ⟨%W, HO⟩, Hk⟩
  iapply (Rounds.wp_signal 𝒱₀ ER (sched m) (c : Thread nD τ) none (dst := (yn c : Thread nD τ)) (sem := barS) (r := 0) (d := false) (k' := 1)
      (κ := K (yn c, .bar)) (by rw [duties_bar]; exact Finset.mem_univ _) (amount_bar m (yn c) false) () (owedAt c 1 nY nF nE)
      (owedAt_bar0 c nY nF nE)) $$ [HO Ht1 HB]
  · isplitr; · iapply (hand_inv_at m K (yn c, .bar)); iexact HI
    isplitl [HO]; · iexact HO
    isplitl [Ht1]; · iexact Ht1
    isplitl [HB]
    · rw [payload_bar_false]
      iapply (hand_barPayY c (yn c) (yn_yn c).symm fo); iexact HB
    · iapply (hand_reached_at (F := F) (yn c, .bar)); iexact HR
  iintro HO
  iapply Hk
  isplitl [Ht2 Hp]
  · isplitr; · iempintro
    isplitl [Ht2]; · iexact Ht2
    iexact Hp
  isplitr
  · iapply (hand_StB_given m c fo); iempintro
  iexists W; iexact HO

/-- The second, to the x-neighbour, the other half. -/
theorem s_sig_bar_x (nY nF nE : ℕ) {k : PUnit → Prog (TpuEff nD τ sig (Elt F) Λ₀ .tc) α} {Q : α → sProp 𝕄} (d : Dev nD) (hd : d = xn c) :
    iprop(Pers m K ∗ StBar c 1 ∗ StC m c fo false 0 ∗ Ow c (owedAt c 1 nY nF nE)
        ∗ ((StBar c 2 ∗ StC m c fo true 0 ∗ Ow c (owedAt c 2 nY nF nE)) -∗ WP (k ⟨⟩) Q))
      ⊢ WP (.op (.semSignal (Dev.tc d : Thread nD τ) barS 1) k) Q := by
  subst hd
  unfold Pers records Ow
  rw [show (StBar c 1 : sProp 𝕄) = iprop(emp ∗ dutyTok ER (barCell (xn c)) 0 true
      ∗ iprop(atPos ER (barCell c) 0 ∅ 0 ∗ cred (tallyAt (barCell c) () 2))) from rfl,
    show (StBar c 2 : sProp 𝕄) = iprop(emp ∗ emp ∗ iprop(atPos ER (barCell c) 0 ∅ 0 ∗ cred (tallyAt (barCell c) () 2))) from rfl,
    show (StC m c fo false 0 : sProp 𝕄)
      = bigSep Finset.univ (fun j : Fin 16 => ((fwM (xn c) j).view.loc (c : Thread nD τ) ↦[(fwM (xn c) j).view.set]{fullShare} fo)) from rfl]
  iintro ⟨⟨⟨#HI, #HR⟩, #Hlev⟩, ⟨-, Ht2, Hp⟩, HC, ⟨%W, HO⟩, Hk⟩
  iapply (Rounds.wp_signal 𝒱₀ ER (sched m) (c : Thread nD τ) none (dst := (xn c : Thread nD τ)) (sem := barS) (r := 0) (d := true) (k' := 1)
      (κ := K (xn c, .bar)) (by rw [duties_bar]; exact Finset.mem_univ _) (amount_bar m (xn c) true) () (owedAt c 2 nY nF nE)
      (owedAt_bar1 c nY nF nE)) $$ [HO Ht2 HC]
  · isplitr; · iapply (hand_inv_at m K (xn c, .bar)); iexact HI
    isplitl [HO]; · iexact HO
    isplitl [Ht2]; · iexact Ht2
    isplitl [HC]
    · rw [payload_bar_true]
      iapply (hand_barPayX c (xn c) (xn_xn c).symm fo); iexact HC
    · iapply (hand_reached_at (F := F) (xn c, .bar)); iexact HR
  iintro HO
  iapply Hk
  isplitl [Hp]
  · isplitr; · iempintro
    isplitr; · iempintro
    iexact Hp
  isplitr
  · iapply (hand_StC_given m c fo); iempintro
  iexists W; iexact HO

/-- The entry wait brings the rows of both neighbours' result arrays this device writes. -/
theorem s_wait_bar {k : PUnit → Prog (TpuEff nD τ sig (Elt F) Λ₀ .tc) α} {Q : α → sProp 𝕄} :
    iprop(Pers m K ∗ StBar c 2 ∗ Ow c (owedAt c 2 0 0 0)
        ∗ ((StBar c 3 ∗ StYreg c 0 ∗ StFreg c 0 ∗ Ow c (owedAt c 2 0 0 0)) -∗ WP (k ⟨⟩) Q))
      ⊢ WP (.op (.semWait barS 2) k) Q := by
  unfold Pers records Ow StYreg StFreg
  rw [show (StBar c 2 : sProp 𝕄) = iprop(emp ∗ emp ∗ iprop(atPos ER (barCell c) 0 ∅ 0 ∗ cred (tallyAt (barCell c) () 2))) from rfl,
    show (StBar c 3 : sProp 𝕄) = iprop(emp ∗ emp ∗ emp) from rfl, hand_ge16_zero]
  iintro ⟨⟨⟨#HI, #HR⟩, #Hlev⟩, ⟨-, -, Hat, Hcr⟩, ⟨%W, HO⟩, Hk⟩
  iapply (Rounds.wp_wait_rest_token 𝒱₀ ER (sched m) (c : Thread nD τ) none (κ := K (c, .bar))
      (wpE_semWait_eq 𝒱₀ (c : Thread nD τ) none Set.univ) (Set.mem_univ _) () (O := owedAt c 2 0 0 0) (W := W) (R := 0) (m := 0) (T := ∅)
      (by rw [expect_bar])) $$ [Hcr HO Hat]
  · isplitr; · iapply (hand_inv_at m K (c, .bar)); iexact HI
    isplitl [Hcr]; · iexact Hcr
    isplitl [HO]; · iexact HO
    isplitr; · iapply (hand_mayWait_bar c); iexact Hlev
    iexact Hat
  iintro ⟨HO, -, -, Hpay⟩
  ihave Hp := (Entails.of_eq (rest_bar m c)) $$ Hpay
  unfold barPayY barPayX
  icases Hp with ⟨Hy, Hx⟩
  iapply Hk
  isplitr
  · isplitr; · iempintro
    isplitr <;> iempintro
  isplitl [Hy]; · iexact Hy
  isplitl [Hx]; · iexact Hx
  iexists _; iexact HO

/-- The exit signals and the exit wait. -/
theorem s_sig_exit_y {k : PUnit → Prog (TpuEff nD τ sig (Elt F) Λ₀ .tc) α} {Q : α → sProp 𝕄} (d : Dev nD) (hd : d = yn c) :
    iprop(Pers m K ∗ StExit c 0 ∗ Ow c (owedAt c 2 16 16 0) ∗ ((StExit c 1 ∗ Ow c (owedAt c 2 16 16 1)) -∗ WP (k ⟨⟩) Q))
      ⊢ WP (.op (.semSignal (Dev.tc d : Thread nD τ) exitS 1) k) Q := by
  subst hd
  unfold Pers records Ow
  rw [show (StExit c 0 : sProp 𝕄) = iprop(dutyTok ER (exitCell (yn c)) 0 false ∗ dutyTok ER (exitCell (xn c)) 0 true
      ∗ iprop(atPos ER (exitCell c) 0 ∅ 0 ∗ cred (tallyAt (exitCell c) () 2))) from rfl,
    show (StExit c 1 : sProp 𝕄) = iprop(emp ∗ dutyTok ER (exitCell (xn c)) 0 true
      ∗ iprop(atPos ER (exitCell c) 0 ∅ 0 ∗ cred (tallyAt (exitCell c) () 2))) from rfl]
  iintro ⟨⟨⟨#HI, #HR⟩, #Hlev⟩, ⟨Ht1, Ht2, Hp⟩, ⟨%W, HO⟩, Hk⟩
  iapply (Rounds.wp_signal 𝒱₀ ER (sched m) (c : Thread nD τ) none (dst := (yn c : Thread nD τ)) (sem := exitS) (r := 0) (d := false) (k' := 1)
      (κ := K (yn c, .exit)) (by rw [duties_exit]; exact Finset.mem_univ _) (amount_exit m (yn c) false) () (owedAt c 2 16 16 1)
      (owedAt_exit0 c 2 16 16)) $$ [HO Ht1]
  · isplitr; · iapply (hand_inv_at m K (yn c, .exit)); iexact HI
    isplitl [HO]; · iexact HO
    isplitl [Ht1]; · iexact Ht1
    isplitr; · rw [payload_exit]; iempintro
    iapply (hand_reached_at (F := F) (yn c, .exit)); iexact HR
  iintro HO
  iapply Hk
  isplitl [Ht2 Hp]
  · isplitr; · iempintro
    isplitl [Ht2]; · iexact Ht2
    iexact Hp
  iexists W; iexact HO

theorem s_sig_exit_x {k : PUnit → Prog (TpuEff nD τ sig (Elt F) Λ₀ .tc) α} {Q : α → sProp 𝕄} (d : Dev nD) (hd : d = xn c) :
    iprop(Pers m K ∗ StExit c 1 ∗ Ow c (owedAt c 2 16 16 1) ∗ ((StExit c 2 ∗ Ow c (owedAt c 2 16 16 2)) -∗ WP (k ⟨⟩) Q))
      ⊢ WP (.op (.semSignal (Dev.tc d : Thread nD τ) exitS 1) k) Q := by
  subst hd
  unfold Pers records Ow
  rw [show (StExit c 1 : sProp 𝕄) = iprop(emp ∗ dutyTok ER (exitCell (xn c)) 0 true
      ∗ iprop(atPos ER (exitCell c) 0 ∅ 0 ∗ cred (tallyAt (exitCell c) () 2))) from rfl,
    show (StExit c 2 : sProp 𝕄) = iprop(emp ∗ emp ∗ iprop(atPos ER (exitCell c) 0 ∅ 0 ∗ cred (tallyAt (exitCell c) () 2))) from rfl]
  iintro ⟨⟨⟨#HI, #HR⟩, #Hlev⟩, ⟨-, Ht2, Hp⟩, ⟨%W, HO⟩, Hk⟩
  iapply (Rounds.wp_signal 𝒱₀ ER (sched m) (c : Thread nD τ) none (dst := (xn c : Thread nD τ)) (sem := exitS) (r := 0) (d := true) (k' := 1)
      (κ := K (xn c, .exit)) (by rw [duties_exit]; exact Finset.mem_univ _) (amount_exit m (xn c) true) () (owedAt c 2 16 16 2)
      (owedAt_exit1 c 2 16 16)) $$ [HO Ht2]
  · isplitr; · iapply (hand_inv_at m K (xn c, .exit)); iexact HI
    isplitl [HO]; · iexact HO
    isplitl [Ht2]; · iexact Ht2
    isplitr; · rw [payload_exit]; iempintro
    iapply (hand_reached_at (F := F) (xn c, .exit)); iexact HR
  iintro HO
  iapply Hk
  isplitl [Hp]
  · isplitr; · iempintro
    isplitr; · iempintro
    iexact Hp
  iexists W; iexact HO

theorem s_wait_exit {k : PUnit → Prog (TpuEff nD τ sig (Elt F) Λ₀ .tc) α} {Q : α → sProp 𝕄} :
    iprop(Pers m K ∗ StExit c 2 ∗ Ow c (owedAt c 2 16 16 2) ∗ ((StExit c 3 ∗ Ow c (owedAt c 2 16 16 2)) -∗ WP (k ⟨⟩) Q))
      ⊢ WP (.op (.semWait exitS 2) k) Q := by
  unfold Pers records Ow
  rw [show (StExit c 2 : sProp 𝕄) = iprop(emp ∗ emp ∗ iprop(atPos ER (exitCell c) 0 ∅ 0 ∗ cred (tallyAt (exitCell c) () 2))) from rfl,
    show (StExit c 3 : sProp 𝕄) = iprop(emp ∗ emp ∗ semVal (exitCell c) 0) from rfl]
  iintro ⟨⟨⟨#HI, #HR⟩, #Hlev⟩, ⟨-, -, Hat, Hcr⟩, ⟨%W, HO⟩, Hk⟩
  iapply (Rounds.wp_wait_rest_token 𝒱₀ ER (sched m) (c : Thread nD τ) none (κ := K (c, .exit))
      (wpE_semWait_eq 𝒱₀ (c : Thread nD τ) none Set.univ) (Set.mem_univ _) () (O := owedAt c 2 16 16 2) (W := W) (R := 0) (m := 0) (T := ∅)
      (by rw [expect_exit])) $$ [Hcr HO Hat]
  · isplitr; · iapply (hand_inv_at m K (c, .exit)); iexact HI
    isplitl [Hcr]; · iexact Hcr
    isplitl [HO]; · iexact HO
    isplitr; · rw [owedAt_done c 2 (Nat.le_refl 2), MayWait_zero]; iempintro
    iexact Hat
  iintro ⟨HO, Hat, -, -⟩
  imod (Rounds.cell_close ER (sched m) (Set.mem_univ (K (c, .exit))) (fun h => h) (R := 0 + 1) (duties_exit_later m c)) $$ [Hat] with Hz
  · isplitr; · iapply (hand_inv_at m K (c, .exit)); iexact HI
    iexact Hat
  iapply Hk
  isplitl [Hz]
  · isplitr; · iempintro
    isplitr; · iempintro
    iexact Hz
  iexists _; iexact HO

end Steps

/-- info: 'Cert.Kernel.AG.s_sig_bar_y' depends on axioms: [propext, Classical.choice, Quot.sound] -/
#guard_msgs in #print axioms s_sig_bar_y

/-- info: 'Cert.Kernel.AG.s_sig_bar_x' depends on axioms: [propext, Classical.choice, Quot.sound] -/
#guard_msgs in #print axioms s_sig_bar_x

/-- info: 'Cert.Kernel.AG.s_wait_bar' depends on axioms: [propext, Classical.choice, Quot.sound] -/
#guard_msgs in #print axioms s_wait_bar

/-- info: 'Cert.Kernel.AG.s_sig_exit_y' depends on axioms: [propext, Classical.choice, Quot.sound] -/
#guard_msgs in #print axioms s_sig_exit_y

/-- info: 'Cert.Kernel.AG.s_sig_exit_x' depends on axioms: [propext, Classical.choice, Quot.sound] -/
#guard_msgs in #print axioms s_sig_exit_x

/-- info: 'Cert.Kernel.AG.s_wait_exit' depends on axioms: [propext, Classical.choice, Quot.sound] -/
#guard_msgs in #print axioms s_wait_exit

end Cert.Kernel.AG

end
-- ==== Proof.KStepsLocal.lean ====
import proofs.«900094_g7700000000000095_dist_ag_v7x_xy2x2_y_m16384_n1024_bf16_1_alg».proof.Proof.KState
import proofs.«900094_g7700000000000095_dist_ag_v7x_xy2x2_y_m16384_n1024_bf16_1_alg».proof.Proof.KLibBig
import proofs.«900094_g7700000000000095_dist_ag_v7x_xy2x2_y_m16384_n1024_bf16_1_alg».proof.Proof.KOwedLv
import proofs.«900094_g7700000000000095_dist_ag_v7x_xy2x2_y_m16384_n1024_bf16_1_alg».proof.Proof.KTables
import Idealize.ShloMosaic.Lib.ValueLayout
import Idealize.ShloMosaic.Lib.Pipeline.Value

/-!
# The loads, the conversions and the shard

Each load copies 512 rows of the input block into one of two slots; its conversion reads the slot, narrows every entry
and stores the chunk of the shard. The shard as a whole is then copied to the device's own block of the result array.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Products over a filtered index set, one index at a time -/

omit [FloatOps F] in
/-- A product over the indices satisfying `p'`, which are those satisfying `p` and one more, `i`. -/
private theorem stepsLocal_bigSep_filter_insert {I : Type} [Fintype I] [DecidableEq I] (p p' : I → Prop) [DecidablePred p] [DecidablePred p']
    (i : I) (hi : ¬ p i) (h : ∀ x, p' x ↔ (x = i ∨ p x)) (Φ : I → sProp 𝕄) :
    bigSep (Finset.univ.filter p') Φ = iprop(Φ i ∗ bigSep (Finset.univ.filter p) Φ) := by
  have e : Finset.univ.filter p' = insert i (Finset.univ.filter p) := by
    ext x; simp only [Finset.mem_filter, Finset.mem_univ, true_and, Finset.mem_insert]; exact h x
  rw [e, bigSep_insert (by simp only [Finset.mem_filter, Finset.mem_univ, true_and]; exact hi)]
  rfl

/-! ## Waiting below what is owed -/

private theorem stepsLocal_lv_ld (d : Dev nD) (s : Fin 2) : lv (ldCell d s) () = 0 := by unfold lv; rw [kindOf_ld]
private theorem stepsLocal_lv_st (d : Dev nD) : lv (stCell d) () = 0 := by unfold lv; rw [kindOf_st]
private theorem stepsLocal_lv_ysend (d : Dev nD) (j : Fin 16) : lv (ysendCell d j) () = 0 := by unfold lv; rw [kindOf_ysend]

omit [FloatOps F] in
/-- A wait on a cell of level zero sits below whatever the device owes, all of it being owed at positive levels. -/
private theorem stepsLocal_mayWait (c : Dev nD) (sm : SemLoc sig) (O : CellTallies nD τ sig Unit)
    (h0 : lv ((c : Thread nD τ), sm) () = 0) (hO : ∀ g u, 0 < O g u → g.1.2 = .tc ∧ 0 < lv g u) :
    (levAts L lv : sProp 𝕄) ⊢ MayWait (c : Thread nD τ) sm () O :=
  Pipeline.mayWait_of_levAts (by unfold L; rw [if_pos rfl]; exact Finset.mem_singleton_self _)
    (fun g i hg => ⟨by unfold L; rw [if_pos (hO g i hg).1]; exact Finset.mem_singleton_self _, by rw [h0]; exact (hO g i hg).2⟩)

/-! ## A product over a whole index type, one term changed -/

omit [FloatOps F] in
private theorem stepsLocal_bigSep_update {I : Type} [Fintype I] [DecidableEq I] (Φ Ψ : I → sProp 𝕄) (i : I) (A B : sProp 𝕄)
    (hΦ : Φ i = A) (hΨ : Ψ i = B) (h : ∀ j, j ≠ i → Ψ j = Φ j) :
    bigSep Finset.univ Φ ⊢ iprop(A ∗ (B -∗ bigSep Finset.univ Ψ)) := by
  subst hΦ; subst hΨ; exact bigSep_univ_update i h

omit [FloatOps F] in
/-- One term of a product. -/
private theorem stepsLocal_bigSep_elim {I : Type} [DecidableEq I] {s : Finset I} {i : I} (hi : i ∈ s) (Φ : I → sProp 𝕄) :
    bigSep s Φ ⊢ Φ i := bigSep_elim hi

omit [FloatOps F] in
private theorem stepsLocal_ite_intro (p : Prop) [Decidable p] (P : sProp 𝕄) : P ⊢ (if p then P else iprop(emp)) := by
  by_cases h : p
  · rw [if_pos h]
  · rw [if_neg h]; iintro -; iempintro

/-! ## The dma credit of a view is its shape's and element type's -/

omit [FloatOps F] in
private theorem stepsLocal_credit_N {sp : Space} (dst : Memref sig .tc sp S512x1024 .bf16) : dst.view.dmaCredit = N := rfl
omit [FloatOps F] in
private theorem stepsLocal_credit_NL {sp : Space} (dst : Memref sig .tc sp S512x1024 .f32) : dst.view.dmaCredit = NL := rfl
omit [FloatOps F] in
private theorem stepsLocal_credit_NS {sp : Space} (dst : Memref sig .tc sp S16384x1024 .bf16) : dst.view.dmaCredit = NS := rfl

/-! ## The y-transfer's source is its chunk of the shard -/

omit [FloatOps F] in
private theorem stepsLocal_slice_unit_set_congr {κ : Idealize.ShloMosaic.Kind} {sp : Space} {s : Shape} {e : EltTy} (v : View sig κ sp s e) (o o' sz : Fin s.rank → Nat) (h : o = o')
    (inb : ∀ a, o a + sz a ≤ s.size a) (inb' : ∀ a, o' a + sz a ≤ s.size a) :
    (v.slice (Rect.unit o sz inb)).set = (v.slice (Rect.unit o' sz inb')).set := by subst h; rfl

/-- Chunk `j` of the first half, as one of the thirty-two. -/
def stepsLocal_lo (j : Fin 16) : Fin 32 := ⟨j.val, by have := j.isLt; omega⟩

/-- The source of y-transfer `j` is chunk `j` of the shard: what its send's wait gives back is that chunk's left half. -/
private theorem stepsLocal_ysendPay_eq (c : Dev nD) (j : Fin 16) :
    ysendPay m c j = (vsM.view.loc (c : Thread nD τ) ↦[vsSet c (stepsLocal_lo j)]{fullShare.left} VS m c : sProp 𝕄) := by
  have hj := j.isLt
  have h1 : hOf (stepsLocal_lo j) = false := by unfold hOf; exact decide_eq_false (by show ¬ 16 ≤ j.val; omega)
  have h2 : jOf (stepsLocal_lo j) = j := Fin.ext (by show j.val % 16 = j.val; omega)
  have hoff : k0_off1 c (cw j) = stOff c false j := (k0_off1_eq c j).trans (k0_off2_eq c j).symm
  unfold ysendPay
  show ((vsM.view.loc (c : Thread nD τ) ↦[(vsM.view.slice (Rect.unit (s := S16384x1024) (k0_off1 c (cw j)) S512x1024.size (k0_off1_inb c j))).set]{fullShare.left} VS m c : sProp 𝕄))
    = (vsM.view.loc (c : Thread nD τ) ↦[(vsM.view.slice (stRect c (hOf (stepsLocal_lo j)) (jOf (stepsLocal_lo j)))).set]{fullShare.left} VS m c)
  rw [h1, h2]
  rw [stepsLocal_slice_unit_set_congr vsM.view _ _ _ hoff (k0_off1_inb c j) (stOff_inb c false j)]

/-! ## Slots and counts -/

omit [FloatOps F] in
theorem stepsLocal_sOf_val (i : Fin 32) : (sOf i).val = i.val % 2 := rfl

/-- After load `i` is waited for, its slot holds the rows it copied. -/
private theorem stepsLocal_slotC_after (c : Dev nD) (fv : Buf (Elt F) ((c : Thread nD τ).loc cc0_scratch1)) (i : Fin 32) (b : ℕ) (hb : b = i.val + 1) :
    slotC m c fv b (sOf i) = SLOT m c (hOf i) (jOf i) := by
  have hi := i.isLt
  have hv : 2 * (wcount b (sOf i) - 1) + (sOf i).val = i.val := by
    unfold wcount; rw [stepsLocal_sOf_val, hb]; omega
  have h0 : ¬ wcount b (sOf i) = 0 := by
    unfold wcount; rw [stepsLocal_sOf_val, hb]; omega
  unfold slotC
  rw [dif_neg h0]
  simp only [hv]
  rfl

omit [FloatOps F] in
theorem stepsLocal_rOf_lt (i : Fin 32) : rOf i < 16 := by have := i.isLt; unfold rOf; omega
omit [FloatOps F] in
/-- Load `i` is round `i / 2` of its slot: that many loads into the slot came before it. -/
theorem stepsLocal_wcount_self (i : Fin 32) : wcount i.val (sOf i) = rOf i := by
  unfold wcount rOf; rw [stepsLocal_sOf_val]; omega
omit [FloatOps F] in
theorem stepsLocal_wcount_succ (i : Fin 32) : wcount (i.val + 1) (sOf i) = rOf i + 1 := by
  unfold wcount rOf; rw [stepsLocal_sOf_val]; omega
omit [FloatOps F] in
/-- The other slot's count does not move. -/
theorem stepsLocal_wcount_other (i : Fin 32) (s : Fin 2) (hs : s ≠ sOf i) : wcount (i.val + 1) s = wcount i.val s := by
  have h1 : s.val ≠ i.val % 2 := fun h => hs (Fin.ext (h.trans (stepsLocal_sOf_val i).symm))
  have h2 := s.isLt
  unfold wcount; omega

private theorem stepsLocal_slotC_congr (c : Dev nD) (fv : Buf (Elt F) ((c : Thread nD τ).loc cc0_scratch1)) (b b' : ℕ) (s : Fin 2)
    (h : wcount b s = wcount b' s) : slotC m c fv b s = slotC m c fv b' s := by
  have key : ∀ w w' : ℕ, w = w' →
      (if h : w = 0 then fv else SLOT m c (decide (16 ≤ 2 * (w - 1) + s.val)) ⟨(2 * (w - 1) + s.val) % 16, Nat.mod_lt _ (by decide)⟩)
        = (if h : w' = 0 then fv else SLOT m c (decide (16 ≤ 2 * (w' - 1) + s.val)) ⟨(2 * (w' - 1) + s.val) % 16, Nat.mod_lt _ (by decide)⟩) := by
    intro w w' e; subst e; rfl
  exact key _ _ h

omit [FloatOps F] in
theorem stepsLocal_slotOf_jOf (i : Fin 32) : slotOf (jOf i) = sOf i := Fin.ext (by show (i.val % 16) % 2 = i.val % 2; omega)
omit [FloatOps F] in
theorem stepsLocal_roundOf (i : Fin 32) : roundOf (hOf i) (jOf i) = rOf i := by
  have hi := i.isLt
  unfold roundOf hOf rOf
  by_cases h : 16 ≤ i.val
  · rw [decide_eq_true h, if_pos rfl]; show 8 + (i.val % 16) / 2 = i.val / 2; omega
  · rw [decide_eq_false h, if_neg (by decide)]; show 0 + (i.val % 16) / 2 = i.val / 2; omega

/-- What round `i / 2` of load `i`'s slot delivers: the slot at the rows load `i` copied, and those rows of the input. -/
private theorem stepsLocal_ldPay_at (c : Dev nD) (i : Fin 32) :
    ldPay m c (sOf i) (rOf i) = iprop(((vslot (sOf i)).view.loc (c : Thread nD τ) ↦[(vslot (sOf i)).view.set]{fullShare} SLOT m c (hOf i) (jOf i))
      ∗ ((ldSrc c (hOf i) (jOf i)).view.loc (c : Thread nD τ) ↦[(ldSrc c (hOf i) (jOf i)).view.set]{fullShare} m ((c : Thread nD τ).loc main_arg0))) := by
  have h := ldPay_eq m c (hOf i) (jOf i)
  rw [stepsLocal_roundOf] at h
  unfold ldPayAt at h
  rw [stepsLocal_slotOf_jOf] at h
  exact h

/-- The buffer of a slot no load into which is in flight, taken out of the loads' state and put back. -/
private theorem stepsLocal_StLd_slot (c : Dev nD) (fv : Buf (Elt F) ((c : Thread nD τ).loc cc0_scratch1)) (s : Fin 2) (a b : ℕ)
    (hw : wcount a s = wcount b s) :
    StLd m c fv a b ⊢ iprop(((vslot s).view.loc (c : Thread nD τ) ↦[(vslot s).view.set]{fullShare} slotC m c fv b s)
      ∗ (((vslot s).view.loc (c : Thread nD τ) ↦[(vslot s).view.set]{fullShare} slotC m c fv b s) -∗ StLd m c fv a b)) := by
  unfold StLd
  iintro ⟨H1, H2, H3, H4⟩
  ihave H4' := (bigSep_univ_update (Ψ := fun s : Fin 2 => iprop(atPos ER (ldCell c s) (wcount b s) ∅ 0 ∗ reached ER (ldCell c s) (wcount b s)
        ∗ (if wcount a s = wcount b s then
            ((vslot s).view.loc (c : Thread nD τ) ↦[(vslot s).view.set]{fullShare} slotC m c fv b s) else iprop(emp)))) s (fun _ _ => rfl)) $$ H4
  icases H4' with ⟨H4s, Hback⟩
  rw [if_pos hw]
  icases H4s with ⟨Hat, Hr, Hs⟩
  isplitl [Hs]; · iexact Hs
  iintro Hs
  isplitl [H1]; · iexact H1
  isplitl [H2]; · iexact H2
  isplitl [H3]; · iexact H3
  iapply Hback
  isplitl [Hat]; · iexact Hat
  isplitl [Hr]; · iexact Hr
  iexact Hs

/-! ## Contents: what the loads, the conversions and the shard's copy leave; the chunks tile the shard -/

omit [FloatOps F] in
/-- Load and store of one chunk name the same rows, a band of 512 inside the block, all columns. -/
theorem stepsLocal_offs (c : Dev nD) (h : Bool) (j : Fin 16) :
    ldOff c h j = stOff c h j ∧ stOff c h j 1 = 0 ∧ stOff c h j 0 + 512 ≤ 16384 := by
  have hj := j.isLt
  have hc : c.val < 4 := c.isLt
  cases h
  · have e1 : ldOff c false j = ![8192 * (c.val / 2) + 512 * j.val, 0] := k0_off1_eq c j
    have e2 : stOff c false j = ![8192 * (c.val / 2) + 512 * j.val, 0] := k0_off2_eq c j
    refine ⟨e1.trans e2.symm, ?_, ?_⟩
    · rw [e2]; rfl
    · rw [e2]; show 8192 * (c.val / 2) + 512 * j.val + 512 ≤ 16384; omega
  · have e1 : ldOff c true j = ![(512 * j.val + 8192) - 8192 * (c.val / 2), 0] := k0_off4_eq c j
    have e2 : stOff c true j = ![(512 * j.val + 8192) - 8192 * (c.val / 2), 0] := k0_off6_eq c j
    refine ⟨e1.trans e2.symm, ?_, ?_⟩
    · rw [e2]; rfl
    · rw [e2]; show (512 * j.val + 8192) - 8192 * (c.val / 2) + 512 ≤ 16384; omega

/-- Entry by entry, the conversion of load `i`'s slot is the converted shard on chunk `i`. -/
theorem stepsLocal_entry (c : Dev nD) (i : Fin 32) (x : S512x1024.Idx) :
    pay (slotVal m c i) x = VS m c ((stRect c (hOf i) (jOf i)).emb x) := by
  obtain ⟨hld, h1, hlt⟩ := stepsLocal_offs c (hOf i) (jOf i)
  have hx : x = ValueIdx.ix2 (x 0) (x 1) := ValueIdx.eq_ix2 x
  unfold pay
  rw [shapeCast_self]
  show FloatOps.truncf .bf16 bitsLt_bf16_f32 (shapeCast S512x1024 (slotVal m c i) shapeCasts_S1x512x1024_S512x1024 x)
    = FloatOps.truncf .bf16 bitsLt_bf16_f32 (m ((c : Thread nD τ).loc main_arg0) ((stRect c (hOf i) (jOf i)).emb x))
  congr 1
  rw [hx]
  refine (ValueIdx.shapeCast_1ab_ab_apply (a := 512) (b := 1024) (slotVal m c i) shapeCasts_S1x512x1024_S512x1024 (x 0) (x 1)).trans ?_
  show SLOT m c (hOf i) (jOf i) ((slotRect (sOf i)).emb (ValueIdx.ix3 (0 : Fin 1) (x 0) (x 1))) = _
  unfold SLOT
  congr 1
  funext a
  apply Fin.ext
  match a with
  | ⟨0, _⟩ =>
    show (ldOff c (hOf i) (jOf i) 0 + (0 + 1 * (x 0).val)) % 16384 = stOff c (hOf i) (jOf i) 0 + 1 * (x 0).val
    have hx0 : (x 0).val < 512 := (x 0).isLt
    rw [hld]; omega
  | ⟨1, _⟩ =>
    show 0 + 1 * (x 1).val = stOff c (hOf i) (jOf i) 1 + 1 * (x 1).val
    rw [h1]

/-- What the store of conversion `i` leaves under its chunk is the converted shard there. -/
theorem stepsLocal_store_congr (c : Dev nD) (fs : Buf (Elt F) ((c : Thread nD τ).loc cc0_scratch0)) (i : Fin 32)
    (w : Vec F S512x1024 .bf16) (hw : w = pay (slotVal m c i)) :
    (vsM.view.loc (c : Thread nD τ) ↦[vsSet c i]{fullShare}
        ((vsM : Memref sig .tc .vmem S16384x1024 .bf16).access (stRect c (hOf i) (jOf i))).write (Elt F) fs w Finset.univ : sProp 𝕄)
      = (vsM.view.loc (c : Thread nD τ) ↦[vsSet c i]{fullShare} VS m c) := by
  subst hw
  refine pointsTo_congr fun idx hidx => ?_
  obtain ⟨x, -, rfl⟩ := Finset.mem_map.mp (show idx ∈ Finset.univ.map ((vsM : Memref sig .tc .vmem S16384x1024 .bf16).access (stRect c (hOf i) (jOf i))).emb from hidx)
  rw [View.write_emb_of_mem _ _ (Finset.mem_univ x)]
  exact stepsLocal_entry m c i x

/-- What load `i` leaves in its slot, whatever was there: the rows it copies. -/
theorem stepsLocal_land_congr (c : Dev nD) (fv : Buf (Elt F) ((c : Thread nD τ).loc cc0_scratch1)) (i : Fin 32) (b : ℕ) :
    ((vslot (sOf i)).view.loc (c : Thread nD τ) ↦[(vslot (sOf i)).view.set]{fullShare}
        ((vslot (sOf i)).view.write (Elt F) (slotC m c fv b (sOf i)) ((ldSrc c (hOf i) (jOf i)).view.read (Elt F) (m ((c : Thread nD τ).loc main_arg0))) Finset.univ) : sProp 𝕄)
      = ((vslot (sOf i)).view.loc (c : Thread nD τ) ↦[(vslot (sOf i)).view.set]{fullShare} SLOT m c (hOf i) (jOf i)) := by
  obtain ⟨hld, h1, hlt⟩ := stepsLocal_offs c (hOf i) (jOf i)
  refine pointsTo_congr fun idx hidx => ?_
  obtain ⟨y, -, rfl⟩ := Finset.mem_map.mp (show idx ∈ Finset.univ.map (vslot (sOf i)).view.emb from hidx)
  rw [View.write_emb_of_mem _ _ (Finset.mem_univ y)]
  have hy : y = ValueIdx.ix2 (y 0) (y 1) := ValueIdx.eq_ix2 y
  have hre : Shape.reshapeEquiv (s := S1x512x1024) (s' := S512x1024) squeezes_S1x512x1024_S512x1024.numel_eq (ValueIdx.ix2 (y 0) (y 1)) = ValueIdx.ix3 (0 : Fin 1) (y 0) (y 1) :=
    ValueIdx.shapeCast_1ab_ab_apply (a := 512) (b := 1024) (fun z => z) shapeCasts_S1x512x1024_S512x1024 (y 0) (y 1)
  have hz : Shape.reshapeEquiv (s := S1x512x1024) (s' := S512x1024) squeezes_S1x512x1024_S512x1024.numel_eq y = ValueIdx.ix3 (0 : Fin 1) (y 0) (y 1) :=
    (congrArg (Shape.reshapeEquiv (s := S1x512x1024) (s' := S512x1024) squeezes_S1x512x1024_S512x1024.numel_eq) hy).trans hre
  show m ((c : Thread nD τ).loc main_arg0) ((Rect.unit (s := S16384x1024) (ldOff c (hOf i) (jOf i)) S512x1024.size (ldOff_inb c (hOf i) (jOf i))).emb y)
    = SLOT m c (hOf i) (jOf i) ((slotRect (sOf i)).emb (Shape.reshapeEquiv (s := S1x512x1024) (s' := S512x1024) squeezes_S1x512x1024_S512x1024.numel_eq y))
  refine Eq.trans ?_ (congrArg (fun z => SLOT m c (hOf i) (jOf i) ((slotRect (sOf i)).emb z)) hz).symm
  show m ((c : Thread nD τ).loc main_arg0) ((Rect.unit (s := S16384x1024) (ldOff c (hOf i) (jOf i)) S512x1024.size (ldOff_inb c (hOf i) (jOf i))).emb y)
    = SLOT m c (hOf i) (jOf i) ((slotRect (sOf i)).emb (ValueIdx.ix3 (0 : Fin 1) (y 0) (y 1)))
  unfold SLOT
  congr 1
  funext a
  apply Fin.ext
  have hy0 : (y 0).val < 512 := (y 0).isLt
  match a with
  | ⟨0, _⟩ =>
    show ldOff c (hOf i) (jOf i) 0 + 1 * (y 0).val = (ldOff c (hOf i) (jOf i) 0 + (0 + 1 * (y 0).val)) % 16384
    rw [hld]; omega
  | ⟨1, _⟩ =>
    show ldOff c (hOf i) (jOf i) 1 + 1 * (y 1).val = 0 + 1 * (y 1).val
    rw [hld, h1]

/-- What the copy of the whole shard leaves in the device's own block is the result array there. -/
theorem stepsLocal_own_congr (c : Dev nD) (fo : Buf (Elt F) ((c : Thread nD τ).loc main_v1)) :
    ((ownM c).view.loc (c : Thread nD τ) ↦[(ownM c).view.set]{fullShare}
        ((ownM c).view.write (Elt F) fo ((vsM : Memref sig .tc .vmem S16384x1024 .bf16).view.read (Elt F) (VS m c)) Finset.univ) : sProp 𝕄)
      = ((ownM c).view.loc (c : Thread nD τ) ↦[(ownM c).view.set]{fullShare} OUT m c) := by
  have hc : c.val < 4 := c.isLt
  have e7 : k0_off7 c = ![16384 * (c.val % 2), 0] := k0_off7_eq c
  refine pointsTo_congr fun idx hidx => ?_
  obtain ⟨x, -, rfl⟩ := Finset.mem_map.mp (show idx ∈ Finset.univ.map (ownM c).view.emb from hidx)
  rw [View.write_emb_of_mem _ _ (Finset.mem_univ x)]
  have hx0 : (x 0).val < 16384 := (x 0).isLt
  have h0 : (((ownM c).view.emb x) 0).val = 16384 * (c.val % 2) + (x 0).val := by
    show k0_off7 c 0 + 1 * (x 0).val = _
    rw [e7]; show 16384 * (c.val % 2) + 1 * (x 0).val = _; omega
  have h1 : (((ownM c).view.emb x) 1).val = (x 1).val := by
    show k0_off7 c 1 + 1 * (x 1).val = _
    rw [e7]; show 0 + 1 * (x 1).val = _; omega
  show VS m c x = OUT m c ((ownM c).view.emb x)
  unfold OUT
  dsimp only
  rw [if_pos (by rw [h0]; omega)]
  congr 1
  funext a
  apply Fin.ext
  match a with
  | ⟨0, _⟩ => show (x 0).val = (((ownM c).view.emb x) 0).val % 16384; rw [h0]; omega
  | ⟨1, _⟩ => show (x 1).val = (((ownM c).view.emb x) 1).val; rw [h1]

omit [FloatOps F] in
/-- The first row of chunk `i` of the shard, in closed form. -/
theorem stepsLocal_lo0_eq (c : Dev nD) (i : Fin 32) :
    stOff c (hOf i) (jOf i) 0 = if i.val < 16 then 8192 * (c.val / 2) + 512 * i.val else 512 * (i.val - 16) + 8192 - 8192 * (c.val / 2) := by
  have hi := i.isLt
  have hc : c.val < 4 := c.isLt
  by_cases h : i.val < 16
  · have hh : hOf i = false := decide_eq_false (by omega)
    rw [if_pos h, hh]
    have e2 : stOff c false (jOf i) = ![8192 * (c.val / 2) + 512 * (jOf i).val, 0] := k0_off2_eq c (jOf i)
    rw [e2]; show 8192 * (c.val / 2) + 512 * (i.val % 16) = _; omega
  · have hh : hOf i = true := decide_eq_true (by omega)
    rw [if_neg h, hh]
    have e2 : stOff c true (jOf i) = ![(512 * (jOf i).val + 8192) - 8192 * (c.val / 2), 0] := k0_off6_eq c (jOf i)
    rw [e2]; show (512 * (i.val % 16) + 8192) - 8192 * (c.val / 2) = _; omega

/-- The thirty-two chunks tile the shard: the whole shard at one share is the product of its chunks at that share. -/
theorem stepsLocal_shard_whole (c : Dev nD) (q : PosShare TreeShare) :
    (vsM.view.loc (c : Thread nD τ) ↦[vsM.view.set]{q} VS m c : sProp 𝕄)
      = bigSep Finset.univ fun i : Fin 32 => (vsM.view.loc (c : Thread nD τ) ↦[vsSet c i]{q} VS m c : sProp 𝕄) := by
  have hc : c.val < 4 := c.isLt
  rw [show (vsM : Memref sig .tc .vmem S16384x1024 .bf16).view.set = Finset.univ from View.set_whole _]
  refine pointsTo_bands (F := F) (ℓ := vsM.view.loc (c : Thread nD τ)) (vsSet c) (fun x => (x 0).val) (fun i => stOff c (hOf i) (jOf i) 0) (fun _ => 512) ?_ ?_ ?_ q (VS m c)
  · intro t x
    obtain ⟨-, h1, -⟩ := stepsLocal_offs c (hOf t) (jOf t)
    show x ∈ ((View.whole cc0_scratch0 : View sig .tc _ _ _).slice (stRect c (hOf t) (jOf t))).set ↔ _
    rw [View.set_slice_whole]
    exact mem_rows (R := 16384) (C := 1024) (n := 512) (stOff c (hOf t) (jOf t)) (stOff_inb c (hOf t) (jOf t)) h1 x
  · intro t t' hne
    have hne' : t.val ≠ t'.val := fun h => hne (Fin.ext h)
    have ht := t.isLt; have ht' := t'.isLt
    show stOff c (hOf t) (jOf t) 0 + 512 ≤ stOff c (hOf t') (jOf t') 0 ∨ stOff c (hOf t') (jOf t') 0 + 512 ≤ stOff c (hOf t) (jOf t) 0
    rw [stepsLocal_lo0_eq, stepsLocal_lo0_eq]
    split_ifs <;> omega
  · intro x
    have hx0 : (x 0).val < 16384 := (x 0).isLt
    refine ⟨⟨((x 0).val / 512 + 16 * (c.val / 2)) % 32, Nat.mod_lt _ (by decide)⟩, ?_⟩
    show stOff c (hOf _) (jOf _) 0 ≤ (x 0).val ∧ (x 0).val < stOff c (hOf _) (jOf _) 0 + 512
    rw [stepsLocal_lo0_eq]
    show (if ((x 0).val / 512 + 16 * (c.val / 2)) % 32 < 16 then 8192 * (c.val / 2) + 512 * (((x 0).val / 512 + 16 * (c.val / 2)) % 32)
        else 512 * (((x 0).val / 512 + 16 * (c.val / 2)) % 32 - 16) + 8192 - 8192 * (c.val / 2)) ≤ (x 0).val
      ∧ (x 0).val < (if ((x 0).val / 512 + 16 * (c.val / 2)) % 32 < 16 then 8192 * (c.val / 2) + 512 * (((x 0).val / 512 + 16 * (c.val / 2)) % 32)
        else 512 * (((x 0).val / 512 + 16 * (c.val / 2)) % 32 - 16) + 8192 - 8192 * (c.val / 2)) + 512
    split_ifs <;> omega

/-- The shard before its copy to the result array: its right half whole, and the left halves no y-transfer holds. -/
theorem stepsLocal_shard_split (c : Dev nD) (fs : Buf (Elt F) ((c : Thread nD τ).loc cc0_scratch0)) :
    StVs m c fs 0 32 16 0 ⊢ iprop((vsM.view.loc (c : Thread nD τ) ↦[vsM.view.set]{fullShare.right} VS m c) ∗ StVs m c fs 1 32 16 0) := by
  have hA : ∀ i ∈ (Finset.univ : Finset (Fin 32)),
      (vsM.view.loc (c : Thread nD τ) ↦[vsSet c i]{if i.val < 16 then fullShare.right else fullShare} (if i.val < 32 then VS m c else fs) : sProp 𝕄)
      ⊢ iprop((vsM.view.loc (c : Thread nD τ) ↦[vsSet c i]{fullShare.right} VS m c)
          ∗ (if (16 ≤ i.val ∨ i.val < 0) then (vsM.view.loc (c : Thread nD τ) ↦[vsSet c i]{fullShare.left} VS m c) else emp)) := by
    intro i _
    rw [if_pos i.isLt]
    by_cases h : i.val < 16
    · rw [if_pos h, if_neg (by omega)]; exact (sep_emp (PROP := sProp 𝕄)).2
    · rw [if_neg h, if_pos (by omega)]
      exact (pointsTo_share (PosShare.mem_left_op_right fullShare)).1.trans sep_comm.1
  have e0 : StVs m c fs 0 32 16 0 = bigSep Finset.univ fun i : Fin 32 =>
      (vsM.view.loc (c : Thread nD τ) ↦[vsSet c i]{if i.val < 16 then fullShare.right else fullShare} (if i.val < 32 then VS m c else fs) : sProp 𝕄) := rfl
  have e1 : StVs m c fs 1 32 16 0 = bigSep (Finset.univ.filter fun i : Fin 32 => 16 ≤ i.val ∨ i.val < 0) fun i =>
      (vsM.view.loc (c : Thread nD τ) ↦[vsSet c i]{fullShare.left} VS m c : sProp 𝕄) := rfl
  rw [e0, e1, bigSep_filter, stepsLocal_shard_whole m c fullShare.right]
  exact (bigSep_mono hA).trans (Entails.of_eq (bigSep_sep' _ _ _))

section Steps

variable (K : Dev nD × Kind → ℕ) (c : Dev nD)
variable (fv : Buf (Elt F) ((c : Thread nD τ).loc cc0_scratch1)) (fs : Buf (Elt F) ((c : Thread nD τ).loc cc0_scratch0))
variable (fo : Buf (Elt F) ((c : Thread nD τ).loc main_v1))

local notation "WP" => wp frame (wpE (defs₀ (F := F)) 𝒱₀ (c : Thread nD τ) none) Set.univ

variable {α : Type} {Q : α → sProp 𝕄}

/-- Load `i` is issued. -/
theorem s_ld_start (i : Fin 32) (a b : ℕ) (ha : a = i.val) (hb : i.val ≤ b + 1) (hb' : b ≤ i.val)
    {hsrc hdst hsem} {k : PUnit → Prog (TpuEff nD τ sig (Elt F) Λ₀ .tc) α} {Q : α → sProp 𝕄} :
    iprop(Pers m K ∗ StLd m c fv a b ∗ (StLd m c fv (a + 1) b -∗ WP (k ⟨⟩) Q))
      ⊢ WP (.op (.enqueueDma (ldSrc c (hOf i) (jOf i)) (.here (vslot (sOf i))) (.dma (lsemS (sOf i))) hsrc hdst hsem) k) Q := by
  subst ha
  have hi := i.isLt
  have hr16 := stepsLocal_rOf_lt i
  have hwa := stepsLocal_wcount_self i
  have hwa1 := stepsLocal_wcount_succ i
  have hwb : wcount b (sOf i) = rOf i := by
    unfold wcount rOf; rw [stepsLocal_sOf_val]; omega
  -- the token of load i
  have e1 := stepsLocal_bigSep_filter_insert (F := F) (fun x : Fin 32 => i.val + 1 ≤ x.val) (fun x : Fin 32 => i.val ≤ x.val)
      i (by omega) (fun x => by rw [Fin.ext_iff]; omega) (fun x : Fin 32 => dutyTok ER (ldCell c (sOf x)) (rOf x) false)
  -- the rows of load i out of those not in flight
  have e2 := stepsLocal_bigSep_filter_insert (F := F) (fun x : Fin 32 => x.val < b ∨ i.val + 1 ≤ x.val) (fun x : Fin 32 => x.val < b ∨ i.val ≤ x.val)
      i (by omega) (fun x => by rw [Fin.ext_iff]; omega)
      (fun x : Fin 32 => ((ldSrc c (hOf x) (jOf x)).view.loc (c : Thread nD τ) ↦[(ldSrc c (hOf x) (jOf x)).view.set]{fullShare} m ((c : Thread nD τ).loc main_arg0) : sProp 𝕄))
  -- its credit among those in flight
  have e3 := stepsLocal_bigSep_filter_insert (F := F) (fun x : Fin 32 => b ≤ x.val ∧ x.val < i.val) (fun x : Fin 32 => b ≤ x.val ∧ x.val < i.val + 1)
      i (by omega) (fun x => by rw [Fin.ext_iff]; omega) (fun x : Fin 32 => cred (tallyAt (ldCell c (sOf x)) () NL))
  have h4 := stepsLocal_bigSep_update (F := F)
    (fun s : Fin 2 => iprop(atPos ER (ldCell c s) (wcount b s) ∅ 0 ∗ reached ER (ldCell c s) (wcount b s)
        ∗ (if wcount i.val s = wcount b s then
            ((vslot s).view.loc (c : Thread nD τ) ↦[(vslot s).view.set]{fullShare} slotC m c fv b s) else iprop(emp))))
    (fun s : Fin 2 => iprop(atPos ER (ldCell c s) (wcount b s) ∅ 0 ∗ reached ER (ldCell c s) (wcount b s)
        ∗ (if wcount (i.val + 1) s = wcount b s then
            ((vslot s).view.loc (c : Thread nD τ) ↦[(vslot s).view.set]{fullShare} slotC m c fv b s) else iprop(emp))))
    (sOf i)
    iprop(atPos ER (ldCell c (sOf i)) (rOf i) ∅ 0 ∗ reached ER (ldCell c (sOf i)) (rOf i)
        ∗ ((vslot (sOf i)).view.loc (c : Thread nD τ) ↦[(vslot (sOf i)).view.set]{fullShare} slotC m c fv b (sOf i)))
    iprop(atPos ER (ldCell c (sOf i)) (rOf i) ∅ 0 ∗ reached ER (ldCell c (sOf i)) (rOf i) ∗ emp)
    (by simp only [hwa, hwb, if_true])
    (by simp only [hwa1, hwb, if_neg (show ¬ rOf i + 1 = rOf i by omega)])
    (fun s hs => by rw [stepsLocal_wcount_other i s hs])
  have hpay : iprop(((vslot (sOf i)).view.loc (c : Thread nD τ) ↦[(vslot (sOf i)).view.set]{fullShare}
        ((vslot (sOf i)).view.write (Elt F) (slotC m c fv b (sOf i)) ((ldSrc c (hOf i) (jOf i)).view.read (Elt F) (m ((c : Thread nD τ).loc main_arg0))) Finset.univ))
      ∗ ((ldSrc c (hOf i) (jOf i)).view.loc (c : Thread nD τ) ↦[(ldSrc c (hOf i) (jOf i)).view.set]{fullShare} m ((c : Thread nD τ).loc main_arg0)))
      ⊢ (sched m).payload (ldCell c (sOf i)) (rOf i) false := by
    rw [payload_ld, stepsLocal_ldPay_at m c i, stepsLocal_land_congr m c fv i b]
  unfold Pers records StLd
  iintro ⟨⟨⟨#HI, #HR0⟩, #Hlev⟩, ⟨H1, H2, H3, H4⟩, Hk⟩
  ihave #HIs := (stepsLocal_bigSep_elim (F := F) (Φ := fun ck : Dev nD × Kind => cellInv ER (sched m) (K ck) (cellAt ck)) (Finset.mem_univ ((c, Kind.ld (sOf i)) : Dev nD × Kind))) $$ HI
  ihave H1 := (Entails.of_eq e1) $$ H1
  icases H1 with ⟨Htok, H1⟩
  ihave H2 := (Entails.of_eq e2) $$ H2
  icases H2 with ⟨Hsrc, H2⟩
  ihave H4 := h4 $$ H4
  icases H4 with ⟨⟨Hat, #Hr, Hs⟩, H4b⟩
  iapply (Rounds.wp_copy_pointsTo 𝒱₀ ER (sched m) (c : Thread nD τ) none (κ := K (c, Kind.ld (sOf i))) (r := rOf i) (d := false)
      (src := ldSrc c (hOf i) (jOf i)) (dst := vslot (sOf i)) (sem := .dma (lsemS (sOf i)))
      (q := fullShare) (fs := m ((c : Thread nD τ).loc main_arg0)) (fd := slotC m c fv b (sOf i))
      (by rw [duties_ld m c (sOf i) (rOf i) hr16]; exact Finset.mem_singleton_self _) () NL (stepsLocal_credit_NL (vslot (sOf i)))
      (amount_ld m c (sOf i) (rOf i) false) hpay)
    $$ [Hsrc Hs Htok]
  · isplitr; · iexact HIs
    isplitl [Hsrc]; · iexact Hsrc
    isplitl [Hs]; · iexact Hs
    isplitl [Htok]; · iexact Htok
    iexact Hr
  iintro Hc
  iapply Hk
  rw [e3]
  isplitl [H1]; · iexact H1
  isplitl [H2]; · iexact H2
  isplitl [Hc H3]
  · isplitl [Hc]; · iexact Hc
    iexact H3
  iapply H4b
  isplitl [Hat]; · iexact Hat
  isplitr; · iexact Hr
  iempintro

/-- Load `i` is waited for: its slot holds the rows it copied. -/
theorem s_ld_wait (i : Fin 32) (a b : ℕ) (hb : b = i.val) (ha : i.val < a) (O : CellTallies nD τ sig Unit)
    (hO : ∀ g u, 0 < O g u → g.1.2 = .tc ∧ 0 < lv g u)
    {s' : Shape} {e' : EltTy} {sp' : _} {src : Memref sig .tc sp' s' e'} {sp : _} {dst : Memref sig .tc sp S512x1024 .f32} {hsrc hdst}
    {k : PUnit → Prog (TpuEff nD τ sig (Elt F) Λ₀ .tc) α} {Q : α → sProp 𝕄} :
    iprop(Pers m K ∗ StLd m c fv a b ∗ Ow c O ∗ ((StLd m c fv a (b + 1) ∗ Ow c O) -∗ WP (k ⟨⟩) Q))
      ⊢ WP (.op (.waitDma2 (lsemS (sOf i)) src dst hsrc hdst) k) Q := by
  subst hb
  have hi := i.isLt
  have hN := stepsLocal_credit_NL dst
  have hr16 := stepsLocal_rOf_lt i
  have hw0 := stepsLocal_wcount_self i
  have hw1 := stepsLocal_wcount_succ i
  -- the credit of load i out of those in flight
  have e3 := stepsLocal_bigSep_filter_insert (F := F) (fun x : Fin 32 => i.val + 1 ≤ x.val ∧ x.val < a) (fun x : Fin 32 => i.val ≤ x.val ∧ x.val < a)
      i (by omega) (fun x => by rw [Fin.ext_iff]; omega) (fun x : Fin 32 => cred (tallyAt (ldCell c (sOf x)) () NL))
  -- the rows of load i back among those not in flight
  have e2 := stepsLocal_bigSep_filter_insert (F := F) (fun x : Fin 32 => x.val < i.val ∨ a ≤ x.val) (fun x : Fin 32 => x.val < i.val + 1 ∨ a ≤ x.val)
      i (by omega) (fun x => by rw [Fin.ext_iff]; omega)
      (fun x : Fin 32 => ((ldSrc c (hOf x) (jOf x)).view.loc (c : Thread nD τ) ↦[(ldSrc c (hOf x) (jOf x)).view.set]{fullShare} m ((c : Thread nD τ).loc main_arg0) : sProp 𝕄))
  have h4 := stepsLocal_bigSep_update (F := F)
    (fun s : Fin 2 => iprop(atPos ER (ldCell c s) (wcount i.val s) ∅ 0 ∗ reached ER (ldCell c s) (wcount i.val s)
        ∗ (if wcount a s = wcount i.val s then
            ((vslot s).view.loc (c : Thread nD τ) ↦[(vslot s).view.set]{fullShare} slotC m c fv i.val s) else iprop(emp))))
    (fun s : Fin 2 => iprop(atPos ER (ldCell c s) (wcount (i.val + 1) s) ∅ 0 ∗ reached ER (ldCell c s) (wcount (i.val + 1) s)
        ∗ (if wcount a s = wcount (i.val + 1) s then
            ((vslot s).view.loc (c : Thread nD τ) ↦[(vslot s).view.set]{fullShare} slotC m c fv (i.val + 1) s) else iprop(emp))))
    (sOf i) _ _ rfl rfl
    (fun s hs => by
      have h := stepsLocal_wcount_other i s hs
      rw [h, stepsLocal_slotC_congr m c fv _ _ s h])
  unfold Pers records Ow StLd
  iintro ⟨⟨⟨#HI, #HR0⟩, #Hlev⟩, ⟨H1, H2, H3, H4⟩, ⟨%W, HO⟩, Hk⟩
  ihave #HIs := (stepsLocal_bigSep_elim (F := F) (Φ := fun ck : Dev nD × Kind => cellInv ER (sched m) (K ck) (cellAt ck)) (Finset.mem_univ ((c, Kind.ld (sOf i)) : Dev nD × Kind))) $$ HI
  ihave H3 := (Entails.of_eq e3) $$ H3
  icases H3 with ⟨Hc, H3⟩
  ihave H4 := h4 $$ H4
  icases H4 with ⟨⟨Hat, -, -⟩, H4b⟩
  iapply (Rounds.wp_wait_rest_token 𝒱₀ ER (sched m) (c : Thread nD τ) none (κ := K (c, Kind.ld (sOf i)))
      (wpE_waitDma2_eq 𝒱₀ (c : Thread nD τ) none Set.univ) (Set.mem_univ _) () (O := O) (W := W) (R := wcount i.val (sOf i)) (m := 0) (T := ∅)
      (by rw [Nat.zero_add, hw0, expect_ld m c (sOf i) (rOf i) hr16, hN])) $$ [Hc HO Hat]
  · isplitr; · iexact HIs
    isplitl [Hc]; · rw [hN]; iexact Hc
    isplitl [HO]; · iexact HO
    isplitr; · iapply (stepsLocal_mayWait (F := F) c (.dma (lsemS (sOf i))) _ (stepsLocal_lv_ld c (sOf i)) hO); iexact Hlev
    iexact Hat
  iintro ⟨HO, Hat, Hr, Hpay⟩
  rw [hw0]
  ihave Hp := (Entails.of_eq ((rest_ld m c (sOf i) (rOf i) hr16).trans (stepsLocal_ldPay_at m c i))) $$ Hpay
  icases Hp with ⟨Hs, Hsrc⟩
  iapply Hk
  isplitr [HO]
  · rw [e2]
    isplitl [H1]; · iexact H1
    isplitl [H2 Hsrc]
    · isplitl [Hsrc]; · iexact Hsrc
      iexact H2
    isplitl [H3]; · iexact H3
    iapply H4b
    rw [hw1, stepsLocal_slotC_after m c fv i (i.val + 1) rfl]
    isplitl [Hat]; · iexact Hat
    isplitl [Hr]; · iexact Hr
    iapply (stepsLocal_ite_intro (F := F)); iexact Hs
  iexists _; iexact HO

/-- The vector load of load `i`'s slot, after its wait and before the next load into that slot is issued. -/
theorem s_vload (i : Fin 32) (a b : ℕ) (hb : b = i.val + 1) (ha : a ≤ i.val + 2) (hab : i.val + 1 ≤ a)
    {hl} {k : Vec F S1x512x1024 .f32 → Prog (TpuEff nD τ sig (Elt F) Λ₀ .tc) α} {Q : α → sProp 𝕄} :
    iprop(StLd m c fv a b ∗ (StLd m c fv a b -∗ WP (k (slotVal m c i)) Q))
      ⊢ WP (.op (.load (vlM : Memref sig .tc .vmem S2x512x1024 .f32) (slotRect (sOf i)).toLoadRect hl) k) Q := by
  have hw : wcount a (sOf i) = wcount b (sOf i) := by
    unfold wcount; rw [stepsLocal_sOf_val, hb]; omega
  unfold slotVal
  iintro ⟨H, Hk⟩
  ihave H' := (stepsLocal_StLd_slot m c fv (sOf i) a b hw) $$ H
  icases H' with ⟨Hs, Hback⟩
  rw [stepsLocal_slotC_after m c fv i b hb]
  iapply (wp_load_rect 𝒱₀ (c : Thread nD τ) none Set.univ (m := vlM) (r := slotRect (sOf i))
    (S := (vslot (sOf i)).view.set) (Finset.subset_of_eq (View.set_reshape _ _).symm)) $$ Hs
  iintro Hs
  iapply Hk
  iapply Hback
  iexact Hs

/-- The vector load of the chunk about to be stored: its value is not used. -/
theorem s_vsload (i : Fin 32) (nC nY : ℕ) (hC : nC = i.val) (hY : nY ≤ i.val)
    {hl} {k : Vec F S512x1024 .bf16 → Prog (TpuEff nD τ sig (Elt F) Λ₀ .tc) α} {Q : α → sProp 𝕄} :
    iprop(StVs m c fs 0 nC nY 0 ∗ (∀ v, StVs m c fs 0 nC nY 0 -∗ WP (k v) Q))
      ⊢ WP (.op (.load (vsM : Memref sig .tc .vmem S16384x1024 .bf16) (stRect c (hOf i) (jOf i)).toLoadRect hl) k) Q := by
  have e : ∀ nC' : ℕ, StVs m c fs 0 nC' nY 0 = bigSep Finset.univ fun i : Fin 32 =>
      (vsM.view.loc (c : Thread nD τ) ↦[vsSet c i]{if i.val < nY then fullShare.right else fullShare} (if i.val < nC' then VS m c else fs)) :=
    fun _ => rfl
  rw [e]
  iintro ⟨H, Hk⟩
  ihave H2 := (bigSep_univ_update (Ψ := fun i : Fin 32 =>
      (vsM.view.loc (c : Thread nD τ) ↦[vsSet c i]{if i.val < nY then fullShare.right else fullShare} (if i.val < nC then VS m c else fs))) i (fun _ _ => rfl)) $$ H
  icases H2 with ⟨Hi, Hback⟩
  iapply (wp_load_rect 𝒱₀ (c : Thread nD τ) none Set.univ (m := vsM) (r := stRect c (hOf i) (jOf i)) (Finset.Subset.refl _)) $$ Hi
  iintro Hi
  iapply Hk
  iapply Hback
  iexact Hi

/-- Conversion `i` is stored. -/
theorem s_store (i : Fin 32) (nC nY : ℕ) (hC : nC = i.val) (hY : nY ≤ i.val) (w : Vec F S512x1024 .bf16) (hw : w = pay (slotVal m c i))
    {hx hm} {k : PUnit → Prog (TpuEff nD τ sig (Elt F) Λ₀ .tc) α} {Q : α → sProp 𝕄} :
    iprop(StVs m c fs 0 nC nY 0 ∗ (StVs m c fs 0 (nC + 1) nY 0 -∗ WP (k ⟨⟩) Q))
      ⊢ WP (.op (.store (vsM : Memref sig .tc .vmem S16384x1024 .bf16) (stRect c (hOf i) (jOf i)) w Finset.univ hx hm) k) Q := by
  subst hC
  have hi := i.isLt
  have e : ∀ nC' : ℕ, StVs m c fs 0 nC' nY 0 = bigSep Finset.univ fun i : Fin 32 =>
      (vsM.view.loc (c : Thread nD τ) ↦[vsSet c i]{if i.val < nY then fullShare.right else fullShare} (if i.val < nC' then VS m c else fs)) :=
    fun _ => rfl
  rw [e, e]
  iintro ⟨H, Hk⟩
  ihave H2 := (bigSep_univ_update (Ψ := fun i' : Fin 32 =>
      (vsM.view.loc (c : Thread nD τ) ↦[vsSet c i']{if i'.val < nY then fullShare.right else fullShare} (if i'.val < i.val + 1 then VS m c else fs))) i
      (fun j hj => by
        have hj' : j.val ≠ i.val := fun h => hj (Fin.ext h)
        by_cases h : j.val < i.val
        · rw [if_pos h, if_pos (show j.val < i.val + 1 by omega)]
        · rw [if_neg h, if_neg (show ¬ j.val < i.val + 1 by omega)])) $$ H
  icases H2 with ⟨Hi, Hback⟩
  rw [if_neg (show ¬ i.val < nY by omega), if_neg (lt_irrefl i.val), if_pos (Nat.lt_succ_self i.val)]
  iapply (wp_store 𝒱₀ (c : Thread nD τ) none Set.univ (m := vsM) (r := stRect c (hOf i) (jOf i)) (Mk := Finset.univ)
    (S := vsSet c i) (f := fs) (Finset.subset_of_eq (View.setOn_univ _))) $$ Hi
  iintro Hi
  iapply Hk
  iapply Hback
  ihave Hi := (Entails.of_eq (stepsLocal_store_congr m c fs i w hw)) $$ Hi
  iexact Hi

/-- The store of the whole shard to the device's own block is issued. -/
theorem s_st_start {hsrc hdst hsem} {k : PUnit → Prog (TpuEff nD τ sig (Elt F) Λ₀ .tc) α} {Q : α → sProp 𝕄} :
    iprop(Pers m K ∗ StVs m c fs 0 32 16 0 ∗ StSt m c fo 0 ∗ ((StVs m c fs 1 32 16 0 ∗ StSt m c fo 1) -∗ WP (k ⟨⟩) Q))
      ⊢ WP (.op (.enqueueDma (vsM : Memref sig .tc .vmem S16384x1024 .bf16) (.here (ownM c)) (.dma ssemS) hsrc hdst hsem) k) Q := by
  have hpay : iprop(((ownM c).view.loc (c : Thread nD τ) ↦[(ownM c).view.set]{fullShare}
        ((ownM c).view.write (Elt F) fo ((vsM : Memref sig .tc .vmem S16384x1024 .bf16).view.read (Elt F) (VS m c)) Finset.univ))
      ∗ ((vsM : Memref sig .tc .vmem S16384x1024 .bf16).view.loc (c : Thread nD τ) ↦[(vsM : Memref sig .tc .vmem S16384x1024 .bf16).view.set]{fullShare.right} VS m c))
      ⊢ (sched m).payload (stCell c) 0 false := by
    rw [payload_st, stepsLocal_own_congr m c fo]
    exact Entails.of_eq rfl
  rw [show StSt m c fo 0 = iprop(dutyTok ER (stCell c) 0 false ∗ atPos ER (stCell c) 0 ∅ 0
      ∗ ((ownM c).view.loc (c : Thread nD τ) ↦[(ownM c).view.set]{fullShare} fo)) from rfl,
    show StSt m c fo 1 = iprop(atPos ER (stCell c) 0 ∅ 0 ∗ cred (tallyAt (stCell c) () NS)) from rfl]
  unfold Pers records
  iintro ⟨⟨⟨#HI, #HR0⟩, #Hlev⟩, Hvs, ⟨Htok, Hat, Hown⟩, Hk⟩
  ihave #HIs := (stepsLocal_bigSep_elim (F := F) (Φ := fun ck : Dev nD × Kind => cellInv ER (sched m) (K ck) (cellAt ck)) (Finset.mem_univ ((c, Kind.st) : Dev nD × Kind))) $$ HI
  ihave #Hr := (stepsLocal_bigSep_elim (F := F) (Φ := fun ck : Dev nD × Kind => reached ER (cellAt ck) 0) (Finset.mem_univ ((c, Kind.st) : Dev nD × Kind))) $$ HR0
  ihave Hvs := (stepsLocal_shard_split m c fs) $$ Hvs
  icases Hvs with ⟨Hsrc, Hvs⟩
  iapply (Rounds.wp_copy_pointsTo 𝒱₀ ER (sched m) (c : Thread nD τ) none (κ := K (c, Kind.st)) (r := 0) (d := false)
      (src := (vsM : Memref sig .tc .vmem S16384x1024 .bf16)) (dst := ownM c) (sem := .dma ssemS)
      (q := fullShare.right) (fs := VS m c) (fd := fo)
      (by rw [duties_st m c]; exact Finset.mem_singleton_self _) () NS (stepsLocal_credit_NS (ownM c)) (amount_st m c false) hpay)
    $$ [Hsrc Hown Htok]
  · isplitr; · iexact HIs
    isplitl [Hsrc]; · iexact Hsrc
    isplitl [Hown]; · iexact Hown
    isplitl [Htok]; · iexact Htok
    iexact Hr
  iintro Hc
  iapply Hk
  isplitl [Hvs]; · iexact Hvs
  isplitl [Hat]; · iexact Hat
  iexact Hc

/-- The store of the shard is waited for: the device's own block is final, the shard's right half back. -/
theorem s_st_wait (nYS nE : ℕ) {s' : Shape} {e' : EltTy} {sp' : _} {src : Memref sig .tc sp' s' e'} {sp : _} {dst : Memref sig .tc sp S16384x1024 .bf16} {hsrc hdst}
    {k : PUnit → Prog (TpuEff nD τ sig (Elt F) Λ₀ .tc) α} {Q : α → sProp 𝕄} :
    iprop(Pers m K ∗ StSt m c fo 1 ∗ StVs m c fs 1 32 16 nYS ∗ Ow c (owedAt c 2 16 16 nE)
        ∗ ((StSt m c fo 2 ∗ StVs m c fs 2 32 16 nYS ∗ Ow c (owedAt c 2 16 16 nE)) -∗ WP (k ⟨⟩) Q))
      ⊢ WP (.op (.waitDma2 ssemS src dst hsrc hdst) k) Q := by
  have hN := stepsLocal_credit_NS dst
  rw [show StSt m c fo 1 = iprop(atPos ER (stCell c) 0 ∅ 0 ∗ cred (tallyAt (stCell c) () NS)) from rfl,
    show StSt m c fo 2 = iprop(semVal (stCell c) 0 ∗ ((ownM c).view.loc (c : Thread nD τ) ↦[(ownM c).view.set]{fullShare} OUT m c)) from rfl,
    show StVs m c fs 2 32 16 nYS = iprop(StVs m c fs 1 32 16 nYS ∗ (vsM.view.loc (c : Thread nD τ) ↦[vsM.view.set]{fullShare.right} VS m c)) from rfl]
  unfold Pers records Ow
  iintro ⟨⟨⟨#HI, #HR0⟩, #Hlev⟩, ⟨Hat, Hc⟩, Hvs, ⟨%W, HO⟩, Hk⟩
  ihave #HIs := (stepsLocal_bigSep_elim (F := F) (Φ := fun ck : Dev nD × Kind => cellInv ER (sched m) (K ck) (cellAt ck)) (Finset.mem_univ ((c, Kind.st) : Dev nD × Kind))) $$ HI
  iapply (Rounds.wp_wait_rest_token 𝒱₀ ER (sched m) (c : Thread nD τ) none (κ := K (c, Kind.st))
      (wpE_waitDma2_eq 𝒱₀ (c : Thread nD τ) none Set.univ) (Set.mem_univ _) () (O := owedAt c 2 16 16 nE) (W := W) (R := 0) (m := 0) (T := ∅)
      (by rw [Nat.zero_add, expect_st, hN])) $$ [Hc HO Hat]
  · isplitr; · iexact HIs
    isplitl [Hc]; · rw [hN]; iexact Hc
    isplitl [HO]; · iexact HO
    isplitr; · iapply (stepsLocal_mayWait (F := F) c (.dma ssemS) _ (stepsLocal_lv_st c) (owedAt_lv_pos c 16 16 nE)); iexact Hlev
    iexact Hat
  iintro ⟨HO, Hat, -, Hpay⟩
  ihave Hp := (Entails.of_eq (rest_st m c)) $$ Hpay
  unfold stPay
  icases Hp with ⟨Hown, Hvr⟩
  imod (Rounds.cell_close ER (sched m) (Set.mem_univ (K (c, Kind.st))) (fun h => h) (R := 0 + 1) (duties_st_later m c)) $$ [Hat] with Hz
  · isplitr; · iexact HIs
    iexact Hat
  iapply Hk
  isplitl [Hz Hown]
  · isplitl [Hz]; · iexact Hz
    iexact Hown
  isplitl [Hvs Hvr]
  · isplitl [Hvs]; · iexact Hvs
    iexact Hvr
  iexists _; iexact HO

/-- The send of y-transfer `j` is waited for: the chunk's left half is back. -/
theorem s_ysend_wait (j : Fin 16) (mode nYS nE : ℕ) (hS : nYS = j.val) (hm : mode = 1 ∨ mode = 2)
    {s' : Shape} {e' : EltTy} {sp' : _} {src : Memref sig .tc sp' s' e'} {sp : _} {dst : Memref sig .tc sp S512x1024 .bf16} {hsrc hdst}
    {k : PUnit → Prog (TpuEff nD τ sig (Elt F) Λ₀ .tc) α} {Q : α → sProp 𝕄} :
    iprop(Pers m K ∗ sendCells (ysendCell c) 16 nYS ∗ StVs m c fs mode 32 16 nYS ∗ Ow c (owedAt c 2 16 16 nE)
        ∗ ((sendCells (ysendCell c) 16 (nYS + 1) ∗ StVs m c fs mode 32 16 (nYS + 1) ∗ Ow c (owedAt c 2 16 16 nE)) -∗ WP (k ⟨⟩) Q))
      ⊢ WP (.op (.waitDma2 (ysendS j) src dst hsrc hdst) k) Q := by
  subst hS
  have hj := j.isLt
  have hN := stepsLocal_credit_N dst
  have eΦ : (if j.val < j.val then semVal (ysendCell c j) 0
      else if j.val < 16 then iprop(atPos ER (ysendCell c j) 0 ∅ 0 ∗ cred (tallyAt (ysendCell c j) () N))
      else atPos ER (ysendCell c j) 0 ∅ 0 : sProp 𝕄)
      = iprop(atPos ER (ysendCell c j) 0 ∅ 0 ∗ cred (tallyAt (ysendCell c j) () N)) := by
    rw [if_neg (lt_irrefl j.val), if_pos hj]
  have eΨ : (if j.val < j.val + 1 then semVal (ysendCell c j) 0
      else if j.val < 16 then iprop(atPos ER (ysendCell c j) 0 ∅ 0 ∗ cred (tallyAt (ysendCell c j) () N))
      else atPos ER (ysendCell c j) 0 ∅ 0 : sProp 𝕄) = semVal (ysendCell c j) 0 := by
    rw [if_pos (Nat.lt_succ_self j.val)]
  have hsc := stepsLocal_bigSep_update (F := F)
    (fun j' : Fin 16 => (if j'.val < j.val then semVal (ysendCell c j') 0
      else if j'.val < 16 then iprop(atPos ER (ysendCell c j') 0 ∅ 0 ∗ cred (tallyAt (ysendCell c j') () N))
      else atPos ER (ysendCell c j') 0 ∅ 0 : sProp 𝕄))
    (fun j' : Fin 16 => (if j'.val < j.val + 1 then semVal (ysendCell c j') 0
      else if j'.val < 16 then iprop(atPos ER (ysendCell c j') 0 ∅ 0 ∗ cred (tallyAt (ysendCell c j') () N))
      else atPos ER (ysendCell c j') 0 ∅ 0 : sProp 𝕄)) j _ _ eΦ eΨ
    (fun j' hj' => by
      have hne : j'.val ≠ j.val := fun h => hj' (Fin.ext h)
      by_cases h : j'.val < j.val
      · rw [if_pos h, if_pos (show j'.val < j.val + 1 by omega)]
      · rw [if_neg h, if_neg (show ¬ j'.val < j.val + 1 by omega)])
  have evs1 : StVs m c fs 1 32 16 (j.val + 1) = iprop(ysendPay m c j ∗ StVs m c fs 1 32 16 j.val) := by
    rw [stepsLocal_ysendPay_eq m c j]
    exact stepsLocal_bigSep_filter_insert (F := F) (fun i : Fin 32 => 16 ≤ i.val ∨ i.val < j.val) (fun i : Fin 32 => 16 ≤ i.val ∨ i.val < j.val + 1)
      (stepsLocal_lo j) (by show ¬ (16 ≤ j.val ∨ j.val < j.val); omega)
      (fun x => by rw [Fin.ext_iff]; show (16 ≤ x.val ∨ x.val < j.val + 1) ↔ (x.val = j.val ∨ (16 ≤ x.val ∨ x.val < j.val)); omega)
      (fun i : Fin 32 => (vsM.view.loc (c : Thread nD τ) ↦[vsSet c i]{fullShare.left} VS m c : sProp 𝕄))
  have hvs : iprop(ysendPay m c j ∗ StVs m c fs mode 32 16 j.val) ⊢ StVs m c fs mode 32 16 (j.val + 1) := by
    rcases hm with rfl | rfl
    · exact Entails.of_eq evs1.symm
    · rw [show StVs m c fs 2 32 16 (j.val + 1) = iprop(StVs m c fs 1 32 16 (j.val + 1) ∗ (vsM.view.loc (c : Thread nD τ) ↦[vsM.view.set]{fullShare.right} VS m c)) from rfl,
        show StVs m c fs 2 32 16 j.val = iprop(StVs m c fs 1 32 16 j.val ∗ (vsM.view.loc (c : Thread nD τ) ↦[vsM.view.set]{fullShare.right} VS m c)) from rfl, evs1]
      iintro ⟨Hp, Hvs, Hr⟩
      isplitl [Hp Hvs]
      · isplitl [Hp]; · iexact Hp
        iexact Hvs
      iexact Hr
  unfold Pers records Ow sendCells
  iintro ⟨⟨⟨#HI, #HR0⟩, #Hlev⟩, Hsc, Hvs, ⟨%W, HO⟩, Hk⟩
  ihave #HIj := (stepsLocal_bigSep_elim (F := F) (Φ := fun ck : Dev nD × Kind => cellInv ER (sched m) (K ck) (cellAt ck)) (Finset.mem_univ ((c, Kind.ysend j) : Dev nD × Kind))) $$ HI
  ihave Hsc' := hsc $$ Hsc
  icases Hsc' with ⟨⟨Hat, Hc⟩, Hscb⟩
  iapply (Rounds.wp_wait_rest_token 𝒱₀ ER (sched m) (c : Thread nD τ) none (κ := K (c, Kind.ysend j))
      (wpE_waitDma2_eq 𝒱₀ (c : Thread nD τ) none Set.univ) (Set.mem_univ _) () (O := owedAt c 2 16 16 nE) (W := W) (R := 0) (m := 0) (T := ∅)
      (by rw [Nat.zero_add, expect_ysend, hN])) $$ [Hc HO Hat]
  · isplitr; · iexact HIj
    isplitl [Hc]; · rw [hN]; iexact Hc
    isplitl [HO]; · iexact HO
    isplitr; · iapply (stepsLocal_mayWait (F := F) c (.dma (ysendS j)) _ (stepsLocal_lv_ysend c j) (owedAt_lv_pos c 16 16 nE)); iexact Hlev
    iexact Hat
  iintro ⟨HO, Hat, -, Hpay⟩
  ihave Hp := (Entails.of_eq (rest_ysend m c j)) $$ Hpay
  imod (Rounds.cell_close ER (sched m) (Set.mem_univ (K (c, Kind.ysend j))) (fun h => h) (R := 0 + 1) (duties_ysend_later m c j)) $$ [Hat] with Hz
  · isplitr; · iexact HIj
    iexact Hat
  iapply Hk
  isplitl [Hz Hscb]
  · iapply Hscb; iexact Hz
  isplitl [Hvs Hp]
  · iapply hvs
    isplitl [Hp]; · iexact Hp
    iexact Hvs
  iexists _; iexact HO

end Steps

end Cert.Kernel.AG

end

/-- info: 'Cert.Kernel.AG.s_ld_start' depends on axioms: [propext, Classical.choice, Quot.sound] -/
#guard_msgs in #print axioms Cert.Kernel.AG.s_ld_start

/-- info: 'Cert.Kernel.AG.s_ld_wait' depends on axioms: [propext, Classical.choice, Quot.sound] -/
#guard_msgs in #print axioms Cert.Kernel.AG.s_ld_wait

/-- info: 'Cert.Kernel.AG.s_vload' depends on axioms: [propext, Classical.choice, Quot.sound] -/
#guard_msgs in #print axioms Cert.Kernel.AG.s_vload

/-- info: 'Cert.Kernel.AG.s_vsload' depends on axioms: [propext, Classical.choice, Quot.sound] -/
#guard_msgs in #print axioms Cert.Kernel.AG.s_vsload

/-- info: 'Cert.Kernel.AG.s_store' depends on axioms: [propext, Classical.choice, Quot.sound] -/
#guard_msgs in #print axioms Cert.Kernel.AG.s_store

/-- info: 'Cert.Kernel.AG.s_st_start' depends on axioms: [propext, Classical.choice, Quot.sound] -/
#guard_msgs in #print axioms Cert.Kernel.AG.s_st_start

/-- info: 'Cert.Kernel.AG.s_st_wait' depends on axioms: [propext, Classical.choice, Quot.sound] -/
#guard_msgs in #print axioms Cert.Kernel.AG.s_st_wait

/-- info: 'Cert.Kernel.AG.s_ysend_wait' depends on axioms: [propext, Classical.choice, Quot.sound] -/
#guard_msgs in #print axioms Cert.Kernel.AG.s_ysend_wait
-- ==== Proof.KStepsRemote.lean ====
import proofs.«900094_g7700000000000095_dist_ag_v7x_xy2x2_y_m16384_n1024_bf16_1_alg».proof.Proof.KState
import proofs.«900094_g7700000000000095_dist_ag_v7x_xy2x2_y_m16384_n1024_bf16_1_alg».proof.Proof.KTables

/-!
# The transfers to the neighbours

A y-transfer carries a chunk of the shard to the y-neighbour's result array; a forward carries a chunk that arrived
from the y-neighbour on to the x-neighbour's. Each lands at the final contents of the rows it writes.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Products over the chunks at or past a count, and before it -/

private theorem sr_lt16_succ (j : Fin 16) : lt16 (j.val + 1) = insert j (lt16 j.val) := by
  ext i
  simp only [Finset.mem_filter, Finset.mem_univ, true_and, Finset.mem_insert, Fin.ext_iff]
  omega
private theorem sr_not_mem_lt16 (j : Fin 16) : j ∉ lt16 j.val := by
  simp only [Finset.mem_filter, Finset.mem_univ, true_and]; omega
private theorem sr_ge16_eq (j : Fin 16) : ge16 j.val = insert j (ge16 (j.val + 1)) := by
  ext i
  simp only [Finset.mem_filter, Finset.mem_univ, true_and, Finset.mem_insert, Fin.ext_iff]
  omega
private theorem sr_not_mem_ge16 (j : Fin 16) : j ∉ ge16 (j.val + 1) := by
  simp only [Finset.mem_filter, Finset.mem_univ, true_and]; omega

/-- The product over the chunks from `j` on is the term at `j` and the product over the chunks past it. -/
private theorem sr_bigSep_ge16 (j : Fin 16) (Φ : Fin 16 → sProp 𝕄) :
    bigSep (ge16 j.val) Φ = iprop(Φ j ∗ bigSep (ge16 (j.val + 1)) Φ) :=
  (congrArg (fun s => bigSep s Φ) (sr_ge16_eq j)).trans (bigSep_insert (sr_not_mem_ge16 j))
/-- The product over the chunks up to and with `j` is the term at `j` and the product over the chunks before it. -/
private theorem sr_bigSep_lt16 (j : Fin 16) (Φ : Fin 16 → sProp 𝕄) :
    bigSep (lt16 (j.val + 1)) Φ = iprop(Φ j ∗ bigSep (lt16 j.val) Φ) :=
  (congrArg (fun s => bigSep s Φ) (sr_lt16_succ j)).trans (bigSep_insert (sr_not_mem_lt16 j))

/-! ## The credit of a chunk -/

private theorem sr_credit_eq {sp : Space} (dst : Memref sig .tc sp S512x1024 .bf16) : dst.view.dmaCredit = N := rfl

/-! ## The cells' families, one step -/

/-- Waiting for receive `j`: its position and credit out, its closed cell in. -/
private theorem sr_recvCells_step (cell : Fin 16 → GSem nD τ sig) (j : Fin 16) :
    (recvCells (F := F) cell j.val) ⊢ iprop((atPos ER (cell j) 0 ∅ 0 ∗ cred (tallyAt (cell j) () N))
      ∗ (semVal (cell j) 0 -∗ recvCells (F := F) cell (j.val + 1))) := by
  unfold recvCells
  refine (bigSep_univ_update (Ψ := fun i : Fin 16 => if i.val < j.val + 1 then semVal (cell i) 0
      else iprop(atPos ER (cell i) 0 ∅ 0 ∗ cred (tallyAt (cell i) () N))) j (fun i hi => ?_)).trans ?_
  · have hne : i.val ≠ j.val := fun h => hi (Fin.ext h)
    by_cases h : i.val < j.val
    · rw [if_pos h, if_pos (by omega)]
    · rw [if_neg h, if_neg (by omega)]
  · rw [if_neg (Nat.lt_irrefl _), if_pos (Nat.lt_succ_self _)]

/-- Issuing send `j`: the issue's credit joins its position. -/
private theorem sr_sendCells_issue (cell : Fin 16 → GSem nD τ sig) (j : Fin 16) :
    (sendCells (F := F) cell j.val 0) ⊢ iprop(cred (tallyAt (cell j) () N) -∗ sendCells (F := F) cell (j.val + 1) 0) := by
  unfold sendCells
  refine (bigSep_univ_update (Ψ := fun i : Fin 16 => if i.val < 0 then semVal (cell i) 0
      else if i.val < j.val + 1 then iprop(atPos ER (cell i) 0 ∅ 0 ∗ cred (tallyAt (cell i) () N))
      else atPos ER (cell i) 0 ∅ 0) j (fun i hi => ?_)).trans ?_
  · have hne : i.val ≠ j.val := fun h => hi (Fin.ext h)
    rw [if_neg (Nat.not_lt_zero _), if_neg (Nat.not_lt_zero _)]
    by_cases h : i.val < j.val
    · rw [if_pos h, if_pos (by omega)]
    · rw [if_neg h, if_neg (by omega)]
  · rw [if_neg (Nat.not_lt_zero _), if_neg (Nat.not_lt_zero _), if_neg (Nat.lt_irrefl _), if_pos (Nat.lt_succ_self _)]
    iintro ⟨Hat, Hw⟩ Hc
    iapply Hw
    isplitl [Hat] <;> iassumption

/-- Waiting for send `j` of sixteen issued: its position and credit out, its closed cell in. -/
private theorem sr_sendCells_wait (cell : Fin 16 → GSem nD τ sig) (j : Fin 16) :
    (sendCells (F := F) cell 16 j.val) ⊢ iprop((atPos ER (cell j) 0 ∅ 0 ∗ cred (tallyAt (cell j) () N))
      ∗ (semVal (cell j) 0 -∗ sendCells (F := F) cell 16 (j.val + 1))) := by
  unfold sendCells
  refine (bigSep_univ_update (Ψ := fun i : Fin 16 => if i.val < j.val + 1 then semVal (cell i) 0
      else if i.val < 16 then iprop(atPos ER (cell i) 0 ∅ 0 ∗ cred (tallyAt (cell i) () N))
      else atPos ER (cell i) 0 ∅ 0) j (fun i hi => ?_)).trans ?_
  · have hne : i.val ≠ j.val := fun h => hi (Fin.ext h)
    by_cases h : i.val < j.val
    · rw [if_pos h, if_pos (by omega)]
    · rw [if_neg h, if_neg (by omega)]
  · rw [if_neg (Nat.lt_irrefl _), if_pos j.isLt, if_pos (Nat.lt_succ_self _)]

/-! ## What never changes, piece by piece -/

private theorem sr_Pers_inv (K : Dev nD × Kind → ℕ) (d : Dev nD) (k : Kind) :
    Pers m K ⊢ cellInv ER (sched m) (K (d, k)) (cellOfKind d k) := by
  unfold Pers records
  refine BIBase.Entails.trans ?_ (bigSep_elim (Φ := fun ck : Dev nD × Kind => cellInv ER (sched m) (K ck) (cellAt ck)) (Finset.mem_univ ((d, k) : Dev nD × Kind)))
  iintro ⟨⟨H, -⟩, -⟩
  iexact H
private theorem sr_Pers_reached (K : Dev nD × Kind → ℕ) (d : Dev nD) (k : Kind) :
    Pers m K ⊢ reached ER (cellOfKind d k) 0 := by
  unfold Pers records
  refine BIBase.Entails.trans ?_ (bigSep_elim (Φ := fun ck : Dev nD × Kind => reached ER (cellAt ck) 0) (Finset.mem_univ ((d, k) : Dev nD × Kind)))
  iintro ⟨⟨-, H⟩, -⟩
  iexact H
private theorem sr_Pers_lev (K : Dev nD × Kind → ℕ) : Pers m K ⊢ (levAts L lv : sProp 𝕄) := by
  unfold Pers
  iintro ⟨-, H⟩
  iexact H

/-! ## A wait sits below what is still owed -/

/-- Everything owed is owed to a cell of a device's own processor, at a level above `b`. -/
private def sr_Above (b : ℕ) (O : CellTallies nD τ sig Unit) : Prop :=
  ∀ (g : GSem nD τ sig) (u : Unit), 0 < O g u → g.1.2 = .tc ∧ b < lv g u

private theorem sr_above_zero (b : ℕ) : sr_Above b 0 := fun g u h => absurd h (Nat.lt_irrefl 0)
private theorem sr_above_add {b : ℕ} {A B : CellTallies nD τ sig Unit} (hA : sr_Above b A) (hB : sr_Above b B) : sr_Above b (A + B) := fun g u h => by
  rw [Pi.add_apply, Finsupp.add_apply] at h
  rcases Nat.eq_zero_or_pos (A g u) with h0 | h0
  · exact hB g u (by omega)
  · exact hA g u h0
private theorem sr_above_tally {b : ℕ} (g' : GSem nD τ sig) (k : ℕ) (h1 : g'.1.2 = .tc) (h2 : b < lv g' ()) : sr_Above b (tallyAt g' () k) := fun g u h => by
  rw [tallyAt_apply] at h
  by_cases hg : g = g' ∧ u = ()
  · rw [hg.1]; exact ⟨h1, h2⟩
  · rw [if_neg hg] at h; exact absurd h (Nat.lt_irrefl 0)
private theorem sr_above_sum {b : ℕ} {ι : Type} [DecidableEq ι] (s : Finset ι) (f : ι → CellTallies nD τ sig Unit) (h : ∀ i ∈ s, sr_Above b (f i)) :
    sr_Above b (∑ i ∈ s, f i) := by
  induction s using Finset.induction_on with
  | empty => rw [Finset.sum_empty]; exact sr_above_zero b
  | insert i s hi ih =>
    rw [Finset.sum_insert hi]
    exact sr_above_add (h i (Finset.mem_insert_self i s)) (ih fun i' hi' => h i' (Finset.mem_insert_of_mem hi'))

private theorem sr_mayWait_of_above (c : Dev nD) (sm : SemLoc sig) (b : ℕ) (O : CellTallies nD τ sig Unit)
    (hb : lv ((c : Thread nD τ), sm) () ≤ b) (hO : sr_Above b O) :
    (levAts L lv : sProp 𝕄) ⊢ MayWait (c : Thread nD τ) sm () O :=
  MayOwe.of_cut (L := L) (lev := lv) b
    (fun p hp => by rw [Finset.mem_singleton.mp hp]; show () ∈ L ((c : Thread nD τ), sm); unfold L; rw [if_pos rfl]; exact Finset.mem_singleton_self _)
    (fun g u hg => by unfold L; rw [if_pos (hO g u hg).1]; exact Finset.mem_singleton_self _)
    (fun p hp => by rw [Finset.mem_singleton.mp hp]; exact hb)
    (fun g u hg => (hO g u hg).2)

private theorem sr_lv_exit (d : Dev nD) : lv (exitCell d) () = 4 := by unfold lv; rw [kindOf_exit]
private theorem sr_lv_xrecv (d : Dev nD) (j : Fin 16) : lv (xrecvCell d j) () = 3 := by unfold lv; rw [kindOf_xrecv]
private theorem sr_lv_yrecv (d : Dev nD) (j : Fin 16) : lv (yrecvCell d j) () = 2 := by unfold lv; rw [kindOf_yrecv]
private theorem sr_lv_xsend (d : Dev nD) (j : Fin 16) : lv (xsendCell d j) () = 0 := by unfold lv; rw [kindOf_xsend]

private theorem sr_above_exitO (c : Dev nD) (n : ℕ) : sr_Above 3 (exitO c n) := by
  match n with
  | 0 => exact sr_above_add (sr_above_tally _ _ rfl (by rw [sr_lv_exit]; decide)) (sr_above_tally _ _ rfl (by rw [sr_lv_exit]; decide))
  | 1 => exact sr_above_tally _ _ rfl (by rw [sr_lv_exit]; decide)
  | (n + 2) => exact sr_above_zero 3
private theorem sr_above_owedX (c : Dev nD) (n : ℕ) : sr_Above 2 (owedX c n) :=
  sr_above_sum _ _ fun j _ => sr_above_tally _ _ rfl (by rw [sr_lv_xrecv]; decide)
private theorem sr_above_mono {a b : ℕ} (hab : a ≤ b) {O : CellTallies nD τ sig Unit} (h : sr_Above b O) : sr_Above a O :=
  fun g u hg => ⟨(h g u hg).1, lt_of_le_of_lt hab (h g u hg).2⟩
private theorem sr_owedY_16 (c : Dev nD) : owedY c 16 = 0 :=
  Finset.sum_eq_zero fun j hj => absurd (Finset.mem_filter.mp hj).2 (by have := j.isLt; omega)
private theorem sr_owedX_16 (c : Dev nD) : owedX c 16 = 0 :=
  Finset.sum_eq_zero fun j hj => absurd (Finset.mem_filter.mp hj).2 (by have := j.isLt; omega)
/-- Once both entry signals and every y-transfer are issued, what is owed is the forwards' landings and the exit. -/
private theorem sr_above_late (c : Dev nD) (nF nE : ℕ) : sr_Above 2 (owedAt c 2 16 nF nE) := by
  unfold owedAt
  rw [sr_owedY_16]
  exact sr_above_add (sr_above_add (sr_above_add (sr_above_mono (by decide) (sr_above_exitO c nE)) (sr_above_owedX c nF)) (sr_above_zero 2)) (sr_above_zero 2)
private theorem sr_above_last (c : Dev nD) (nE : ℕ) : sr_Above 3 (owedAt c 2 16 16 nE) := by
  unfold owedAt
  rw [sr_owedY_16, sr_owedX_16]
  exact sr_above_add (sr_above_add (sr_above_add (sr_above_exitO c nE) (sr_above_zero 3)) (sr_above_zero 3)) (sr_above_zero 3)

/-! ## The halves of the other block, one step -/

private theorem sr_StC_succ (c : Dev nD) (fo : Buf (Elt F) ((c : Thread nD τ).loc main_v1)) (j : Fin 16) :
    StC m c fo true (j.val + 1) = iprop(xrecvPay m c j ∗ StC m c fo true j.val) := by
  unfold StC xrecvPay
  rw [if_pos rfl, if_pos rfl]
  exact sr_bigSep_lt16 j _

/-- The y-neighbour's chunk `j` has landed: it is the device's, at its final contents. -/
private theorem sr_StB_yrecv (c : Dev nD) (fo : Buf (Elt F) ((c : Thread nD τ).loc main_v1)) (j : Fin 16) (nF nXS : ℕ) (hF : nF ≤ j.val) :
    StB m c fo true j.val nF nXS ⊢ iprop(yrecvPay m c j -∗ StB m c fo true (j.val + 1) nF nXS) := by
  unfold StB yrecvPay
  rw [if_pos rfl, if_pos rfl]
  refine (bigSep_univ_update (Ψ := fun i : Fin 16 => if i.val < nXS ∨ (nF ≤ i.val ∧ i.val < j.val + 1) then
      ((fwM c i).view.loc (c : Thread nD τ) ↦[(fwM c i).view.set]{fullShare} OUT m c) else iprop(emp)) j (fun i hi => ?_)).trans ?_
  · have hne : i.val ≠ j.val := fun h => hi (Fin.ext h)
    have : (i.val < nXS ∨ (nF ≤ i.val ∧ i.val < j.val + 1)) ↔ (i.val < nXS ∨ (nF ≤ i.val ∧ i.val < j.val)) := by omega
    exact if_congr this rfl rfl
  · rw [if_pos (show j.val < nXS ∨ (nF ≤ j.val ∧ j.val < j.val + 1) from Or.inr ⟨hF, Nat.lt_succ_self _⟩)]
    iintro ⟨-, Hw⟩ Hp
    iapply Hw
    iexact Hp

/-- The forward of chunk `j` takes it. -/
private theorem sr_StB_fw (c : Dev nD) (fo : Buf (Elt F) ((c : Thread nD τ).loc main_v1)) (j : Fin 16) (nYR nXS : ℕ) (hR : j.val < nYR) (hS : nXS ≤ j.val) :
    StB m c fo true nYR j.val nXS ⊢ iprop(xsendPay m c j ∗ StB m c fo true nYR (j.val + 1) nXS) := by
  unfold StB xsendPay
  rw [if_pos rfl, if_pos rfl]
  refine (bigSep_univ_update (Ψ := fun i : Fin 16 => if i.val < nXS ∨ (j.val + 1 ≤ i.val ∧ i.val < nYR) then
      ((fwM c i).view.loc (c : Thread nD τ) ↦[(fwM c i).view.set]{fullShare} OUT m c) else iprop(emp)) j (fun i hi => ?_)).trans ?_
  · have hne : i.val ≠ j.val := fun h => hi (Fin.ext h)
    have : (i.val < nXS ∨ (j.val + 1 ≤ i.val ∧ i.val < nYR)) ↔ (i.val < nXS ∨ (j.val ≤ i.val ∧ i.val < nYR)) := by omega
    exact if_congr this rfl rfl
  · rw [if_pos (show j.val < nXS ∨ (j.val ≤ j.val ∧ j.val < nYR) from Or.inr ⟨Nat.le_refl _, hR⟩),
      if_neg (show ¬ (j.val < nXS ∨ (j.val + 1 ≤ j.val ∧ j.val < nYR)) by omega)]
    iintro ⟨Hp, Hw⟩
    isplitl [Hp]; · iexact Hp
    iapply Hw
    iempintro

/-- The forward of chunk `j` has read it: it is the device's again. -/
private theorem sr_StB_xsend (c : Dev nD) (fo : Buf (Elt F) ((c : Thread nD τ).loc main_v1)) (j : Fin 16) :
    StB m c fo true 16 16 j.val ⊢ iprop(xsendPay m c j -∗ StB m c fo true 16 16 (j.val + 1)) := by
  unfold StB xsendPay
  rw [if_pos rfl, if_pos rfl]
  refine (bigSep_univ_update (Ψ := fun i : Fin 16 => if i.val < j.val + 1 ∨ (16 ≤ i.val ∧ i.val < 16) then
      ((fwM c i).view.loc (c : Thread nD τ) ↦[(fwM c i).view.set]{fullShare} OUT m c) else iprop(emp)) j (fun i hi => ?_)).trans ?_
  · have hne : i.val ≠ j.val := fun h => hi (Fin.ext h)
    have : (i.val < j.val + 1 ∨ (16 ≤ i.val ∧ i.val < 16)) ↔ (i.val < j.val ∨ (16 ≤ i.val ∧ i.val < 16)) := by omega
    exact if_congr this rfl rfl
  · rw [if_pos (show j.val < j.val + 1 ∨ (16 ≤ j.val ∧ j.val < 16) from Or.inl (Nat.lt_succ_self _))]
    iintro ⟨-, Hw⟩ Hp
    iapply Hw
    iexact Hp

/-! ## What is owed, one transfer fewer -/

private theorem sr_owedY_succ (c : Dev nD) (j : Fin 16) : owedY c j.val = owedY c (j.val + 1) + tallyAt (yrecvCell (yn c) j) () N := by
  unfold owedY
  rw [show (Finset.univ.filter fun i : Fin 16 => j.val ≤ i.val) = insert j (Finset.univ.filter fun i : Fin 16 => j.val + 1 ≤ i.val) from sr_ge16_eq j,
    Finset.sum_insert (sr_not_mem_ge16 j), add_comm]
private theorem sr_owedX_succ (c : Dev nD) (j : Fin 16) : owedX c j.val = owedX c (j.val + 1) + tallyAt (xrecvCell (xn c) j) () N := by
  unfold owedX
  rw [show (Finset.univ.filter fun i : Fin 16 => j.val ≤ i.val) = insert j (Finset.univ.filter fun i : Fin 16 => j.val + 1 ≤ i.val) from sr_ge16_eq j,
    Finset.sum_insert (sr_not_mem_ge16 j), add_comm]
private theorem sr_add_shuffle_y {M : Type*} [AddCommMonoid M] (e x y t b : M) : e + x + (y + t) + b = e + x + y + b + t := by
  rw [← add_assoc, add_right_comm (e + x + y) t b]
private theorem sr_add_shuffle_x {M : Type*} [AddCommMonoid M] (e x t y b : M) : e + (x + t) + y + b = e + x + y + b + t := by
  rw [← add_assoc, add_right_comm (e + x) t y, add_right_comm (e + x + y) t b]
private theorem sr_owedAt_y (c : Dev nD) (j : Fin 16) (nB nF nE : ℕ) :
    owedAt c nB j.val nF nE = owedAt c nB (j.val + 1) nF nE + tallyAt (yrecvCell (yn c) j) () N := by
  unfold owedAt
  rw [sr_owedY_succ]
  exact sr_add_shuffle_y _ _ _ _ _
private theorem sr_owedAt_x (c : Dev nD) (j : Fin 16) (nB nY nE : ℕ) :
    owedAt c nB nY j.val nE = owedAt c nB nY (j.val + 1) nE + tallyAt (xrecvCell (xn c) j) () N := by
  unfold owedAt
  rw [sr_owedX_succ]
  exact sr_add_shuffle_x _ _ _ _ _

/-! ## The tokens and the destination rows of the transfers still to issue, one step -/

private theorem sr_StYtok_step (c : Dev nD) (j : Fin 16) :
    (StYtok (F := F) c j.val) ⊢ iprop((dutyTok ER (yrecvCell (yn c) j) 0 false ∗ dutyTok ER (ysendCell c j) 0 false) ∗ StYtok (F := F) c (j.val + 1)) :=
  Entails.of_eq (sr_bigSep_ge16 j _)
private theorem sr_StYreg_step (c : Dev nD) (j : Fin 16) :
    (StYreg (F := F) c j.val) ⊢ iprop((∃ f, (dstY c j).view.loc (yn c : Thread nD τ) ↦[(dstY c j).view.set]{fullShare} f) ∗ StYreg (F := F) c (j.val + 1)) :=
  Entails.of_eq (sr_bigSep_ge16 j _)
private theorem sr_StFtok_step (c : Dev nD) (j : Fin 16) :
    (StFtok (F := F) c j.val) ⊢ iprop((dutyTok ER (xrecvCell (xn c) j) 0 false ∗ dutyTok ER (xsendCell c j) 0 false) ∗ StFtok (F := F) c (j.val + 1)) :=
  Entails.of_eq (sr_bigSep_ge16 j _)
private theorem sr_StFreg_step (c : Dev nD) (j : Fin 16) :
    (StFreg (F := F) c j.val) ⊢ iprop((∃ f, (fwM c j).view.loc (xn c : Thread nD τ) ↦[(fwM c j).view.set]{fullShare} f) ∗ StFreg (F := F) c (j.val + 1)) :=
  Entails.of_eq (sr_bigSep_ge16 j _)

/-! ## The mesh, by coordinates -/

private theorem sr_yn_fst : ∀ c : Dev nD, (yn c).val / 2 = c.val / 2 := by decide
private theorem sr_yn_snd : ∀ c : Dev nD, (yn c).val % 2 = 1 - c.val % 2 := by decide
private theorem sr_xn_fst : ∀ c : Dev nD, (xn c).val / 2 = 1 - c.val / 2 := by decide
private theorem sr_xn_snd : ∀ c : Dev nD, (xn c).val % 2 = c.val % 2 := by decide
private theorem sr_xn_yn_xn : ∀ c : Dev nD, xn (yn (xn c)) = yn c := by decide

/-! ## The final contents on the rows the transfers write -/

/-- On the half of the other block that the y-neighbour fills, the x-neighbour's final contents are the device's own. -/
private theorem sr_OUT_fw_rows (c : Dev nD) (i : S32768x1024.Idx) (h : (i 0).val / 16384 = 1 - c.val % 2)
    (hh : ((i 0).val % 16384) / 8192 = c.val / 2) : OUT m (xn c) i = OUT m c i := by
  have hc : c.val % 2 < 2 := Nat.mod_lt _ (by decide)
  have hc' : c.val / 2 < 2 := by have := c.isLt; show c.val / 2 < 2; omega
  unfold OUT
  dsimp only
  rw [if_neg (show ¬ ((i 0).val / 16384 = (xn c).val % 2) by rw [sr_xn_snd]; omega),
    if_neg (show ¬ (((i 0).val % 16384) / 8192 = (xn c).val / 2) by rw [sr_xn_fst]; omega),
    if_neg (show ¬ ((i 0).val / 16384 = c.val % 2) by omega), if_pos hh, sr_xn_yn_xn]

/-- On the rows a device's y-transfers write, the y-neighbour's final contents are the device's converted shard. -/
private theorem sr_OUT_y_rows (c : Dev nD) (i : S32768x1024.Idx) (i' : S16384x1024.Idx)
    (h0 : (i 0).val = 16384 * (c.val % 2) + (i' 0).val) (hh : (i' 0).val / 8192 = c.val / 2) (h1 : (i 1).val = (i' 1).val) :
    OUT m (yn c) i = VS m c i' := by
  have hc : c.val % 2 < 2 := Nat.mod_lt _ (by decide)
  have hi' : (i' 0).val < 16384 := (i' 0).isLt
  unfold OUT
  dsimp only
  rw [if_neg (show ¬ ((i 0).val / 16384 = (yn c).val % 2) by rw [sr_yn_snd]; omega),
    if_pos (show ((i 0).val % 16384) / 8192 = (yn c).val / 2 by rw [sr_yn_fst]; omega), yn_yn]
  congr 1
  funext a
  apply Fin.ext
  match a with
  | ⟨0, _⟩ => show (i 0).val % 16384 = (i' 0).val; omega
  | ⟨1, _⟩ => exact h1

/-! ## The chunks' rows and what lands on them -/

private theorem sr_exists_emb {κ : Idealize.ShloMosaic.Kind} {sp : Space} {s : Shape} {e : EltTy} (v : View sig κ sp s e) {i : v.ty.Idx} (h : i ∈ v.set) :
    ∃ y : s.Idx, v.emb y = i := by
  obtain ⟨y, -, e⟩ := Finset.mem_map.mp h; exact ⟨y, e⟩

/-- Where entry `y` of a chunk of the result array at offsets `off` is. -/
private theorem sr_oSl_emb (off : Fin 2 → Nat) (h : ∀ a, off a + S512x1024.size a ≤ S32768x1024.size a) (y : S512x1024.Idx) (a : Fin 2) :
    ((((oSl off h).view.emb y : S32768x1024.Idx) a : Fin _) : ℕ) = off a + 1 * (y a).val := rfl
/-- Where entry `y` of a chunk of the converted shard at offsets `off` is. -/
private theorem sr_vSl_emb (off : Fin 2 → Nat) (h : ∀ a, off a + S512x1024.size a ≤ S16384x1024.size a) (y : S512x1024.Idx) (a : Fin 2) :
    ((((vSl off h).view.emb y : S16384x1024.Idx) a : Fin _) : ℕ) = off a + 1 * (y a).val := rfl

private theorem sr_fw_emb0 (c : Dev nD) (j : Fin 16) (y : S512x1024.Idx) :
    ((((fwM c j).view.emb y : S32768x1024.Idx) 0 : Fin _) : ℕ) = (8192 * (c.val / 2) + 512 * j.val + 16384) - 16384 * (c.val % 2) + 1 * (y 0).val := by
  have h5 : k0_off5 c (cw j) 0 = (8192 * (c.val / 2) + 512 * j.val + 16384) - 16384 * (c.val % 2) := congrFun (k0_off5_eq c j) 0
  exact (sr_oSl_emb (k0_off5 c (cw j)) (k0_off5_inb c j) y 0).trans (congrArg (· + 1 * (y 0).val) h5)

/-- What a chunk written from the same rows of another copy of the array holds. -/
private theorem sr_write_read_self {κ : Idealize.ShloMosaic.Kind} {sp : Space} {s : Shape} {e : EltTy} (v : View sig κ sp s e)
    (fd f : v.ty.Contents (Elt F)) (y : s.Idx) :
    v.write (Elt F) fd (v.read (Elt F) f) Finset.univ (v.emb y) = f (v.emb y) := by
  rw [View.write_emb_of_mem _ _ (Finset.mem_univ y), View.read_apply, cast_cast, cast_eq]

/-- A forward's landing on the x-neighbour is that neighbour's final contents there. -/
private theorem sr_land_fw (c : Dev nD) (j : Fin 16) (fd : Buf (Elt F) ((fwM c j).view.loc (xn c : Thread nD τ))) :
    ((fwM c j).view.loc (xn c : Thread nD τ) ↦[(fwM c j).view.set]{fullShare}
        ((fwM c j).view.write (Elt F) fd ((fwM c j).view.read (Elt F) (OUT m c)) Finset.univ) : sProp 𝕄)
      = xrecvPay m (xn c) j := by
  unfold xrecvPay
  rw [xn_xn]
  refine pointsTo_congr fun i hi => ?_
  obtain ⟨y, rfl⟩ := sr_exists_emb _ hi
  have hj := j.isLt
  have hy : (y 0).val < 512 := (y 0).isLt
  have hc : c.val % 2 < 2 := Nat.mod_lt _ (by decide)
  have hc4 : c.val < 4 := c.isLt
  have e0 := sr_fw_emb0 c j y
  refine (sr_write_read_self (fwM c j).view fd (OUT m c) y).trans ?_
  refine (sr_OUT_fw_rows m c ((fwM c j).view.emb y : S32768x1024.Idx) ?_ ?_).symm
  · rw [e0]; omega
  · rw [e0]; omega

/-- Two chunks of the result array at equal offsets are the same rows, and points-tos on them with contents that agree there are equal. -/
private theorem sr_pts_oSl_congr (d : Dev nD) {off off' : Fin 2 → ℕ} (h : ∀ a, off a + S512x1024.size a ≤ S32768x1024.size a)
    (h' : ∀ a, off' a + S512x1024.size a ≤ S32768x1024.size a) (e : off = off') (f g : Buf (Elt F) ((d : Thread nD τ).loc main_v1))
    (hfg : ∀ i ∈ (oSl off h).view.set, f i = g i) :
    ((oSl off h).view.loc (d : Thread nD τ) ↦[(oSl off h).view.set]{fullShare} f : sProp 𝕄)
      = ((oSl off' h').view.loc (d : Thread nD τ) ↦[(oSl off' h').view.set]{fullShare} g) := by
  subst e
  exact pointsTo_congr hfg

/-- A y-transfer's landing on the y-neighbour is that neighbour's final contents there. -/
private theorem sr_land_y (c : Dev nD) (j : Fin 16) (fd : Buf (Elt F) ((dstY c j).view.loc (yn c : Thread nD τ))) :
    ((dstY c j).view.loc (yn c : Thread nD τ) ↦[(dstY c j).view.set]{fullShare}
        ((dstY c j).view.write (Elt F) fd ((srcY c j).view.read (Elt F) (VS m c)) Finset.univ) : sProp 𝕄)
      = yrecvPay m (yn c) j := by
  have hj := j.isLt
  have hc : c.val % 2 < 2 := Nat.mod_lt _ (by decide)
  have hoff : k0_off3 c (cw j) = k0_off5 (yn c) (cw j) := by
    rw [k0_off5_eq, k0_off3_eq, sr_yn_fst, sr_yn_snd]
    exact congrArg (fun x : ℕ => ![x, 0]) (by omega)
  unfold yrecvPay
  refine sr_pts_oSl_congr (yn c) _ _ hoff _ _ fun i hi => ?_
  obtain ⟨y, rfl⟩ := sr_exists_emb _ hi
  have hy : (y 0).val < 512 := (y 0).isLt
  have hc4 : c.val < 4 := c.isLt
  have h30 : k0_off3 c (cw j) 0 = 16384 * (c.val % 2) + 8192 * (c.val / 2) + 512 * j.val := congrFun (k0_off3_eq c j) 0
  have h31 : k0_off3 c (cw j) 1 = 0 := congrFun (k0_off3_eq c j) 1
  have h10 : k0_off1 c (cw j) 0 = 8192 * (c.val / 2) + 512 * j.val := congrFun (k0_off1_eq c j) 0
  have h11 : k0_off1 c (cw j) 1 = 0 := congrFun (k0_off1_eq c j) 1
  have d0 := (sr_oSl_emb (k0_off3 c (cw j)) (k0_off3_inb c j) y 0).trans (congrArg (· + 1 * (y 0).val) h30)
  have d1 := (sr_oSl_emb (k0_off3 c (cw j)) (k0_off3_inb c j) y 1).trans (congrArg (· + 1 * (y 1).val) h31)
  have s0 := (sr_vSl_emb (k0_off1 c (cw j)) (k0_off1_inb c j) y 0).trans (congrArg (· + 1 * (y 0).val) h10)
  have s1 := (sr_vSl_emb (k0_off1 c (cw j)) (k0_off1_inb c j) y 1).trans (congrArg (· + 1 * (y 1).val) h11)
  refine (View.write_emb_of_mem _ _ (Finset.mem_univ y)).trans ?_
  rw [View.read_apply, cast_cast, cast_eq]
  refine (sr_OUT_y_rows m c ((dstY c j).view.emb y : S32768x1024.Idx) ((srcY c j).view.emb y : S16384x1024.Idx) ?_ ?_ ?_).symm
  · rw [d0, s0]; omega
  · rw [s0]; omega
  · rw [d1, s1]

/-! ## The chunk of the shard a y-transfer reads -/

private theorem sr_slice_set_congr {κ : Idealize.ShloMosaic.Kind} {sp : Space} {s : Shape} {e : EltTy} (v : View sig κ sp s e) {off off' size : Fin s.rank → ℕ} (h : off = off')
    (p : ∀ a, off a + size a ≤ s.size a) (p' : ∀ a, off' a + size a ≤ s.size a) :
    (v.slice (Rect.unit off size p)).set = (v.slice (Rect.unit off' size p')).set := by
  subst h; rfl

private abbrev sr_i32 (j : Fin 16) : Fin 32 := ⟨j.val, by have := j.isLt; omega⟩

private theorem sr_vsSet_eq (c : Dev nD) (j : Fin 16) : vsSet c (sr_i32 j) = (srcY c j).view.set := by
  have hj := j.isLt
  have h1 : hOf (sr_i32 j) = false := by unfold hOf; exact decide_eq_false (by show ¬ 16 ≤ j.val; omega)
  have h2 : jOf (sr_i32 j) = j := Fin.ext (Nat.mod_eq_of_lt j.isLt)
  have h3 : stOff c (hOf (sr_i32 j)) (jOf (sr_i32 j)) = k0_off1 c (cw j) := by
    rw [h1, h2]; show k0_off2 c (cw j) = k0_off1 c (cw j); rw [k0_off2_eq, k0_off1_eq]
  exact sr_slice_set_congr _ h3 _ _

/-- The y-transfer of chunk `j` borrows the left half of the chunk of the shard. -/
private theorem sr_StVs_ystart (c : Dev nD) (fs : Buf (Elt F) ((c : Thread nD τ).loc cc0_scratch0)) (j : Fin 16) (nC : ℕ) (hC : j.val < nC) :
    StVs m c fs 0 nC j.val 0 ⊢ iprop(ysendPay m c j ∗ StVs m c fs 0 nC (j.val + 1) 0) := by
  show (bigSep Finset.univ fun i : Fin 32 =>
      (vsM.view.loc (c : Thread nD τ) ↦[vsSet c i]{if i.val < j.val then fullShare.right else fullShare} (if i.val < nC then VS m c else fs)))
    ⊢ iprop(ysendPay m c j ∗ bigSep Finset.univ fun i : Fin 32 =>
      (vsM.view.loc (c : Thread nD τ) ↦[vsSet c i]{if i.val < j.val + 1 then fullShare.right else fullShare} (if i.val < nC then VS m c else fs)))
  refine (bigSep_univ_update (Ψ := fun i : Fin 32 =>
      (vsM.view.loc (c : Thread nD τ) ↦[vsSet c i]{if i.val < j.val + 1 then fullShare.right else fullShare} (if i.val < nC then VS m c else fs)))
      (sr_i32 j) (fun i hi => ?_)).trans ?_
  · have hne : i.val ≠ j.val := fun h => hi (Fin.ext h)
    by_cases h : i.val < j.val
    · rw [if_pos h, if_pos (show i.val < j.val + 1 by omega)]
    · rw [if_neg h, if_neg (show ¬ i.val < j.val + 1 by omega)]
  · rw [if_neg (show ¬ (sr_i32 j).val < j.val from Nat.lt_irrefl _), if_pos (show (sr_i32 j).val < nC from hC),
      if_pos (show (sr_i32 j).val < j.val + 1 from Nat.lt_succ_self _)]
    iintro ⟨Hp, Hw⟩
    ihave Hp' := (pointsTo_share (PosShare.mem_left_op_right fullShare)).1 $$ Hp
    icases Hp' with ⟨Hl, Hr⟩
    isplitl [Hl]
    · unfold ysendPay
      rw [← sr_vsSet_eq]
      iexact Hl
    · iapply Hw
      iexact Hr
section Steps

variable (K : Dev nD × Kind → ℕ) (c : Dev nD)
variable (fv : Buf (Elt F) ((c : Thread nD τ).loc cc0_scratch1)) (fs : Buf (Elt F) ((c : Thread nD τ).loc cc0_scratch0))
variable (fo : Buf (Elt F) ((c : Thread nD τ).loc main_v1))

local notation "WP" => wp frame (wpE (defs₀ (F := F)) 𝒱₀ (c : Thread nD τ) none) Set.univ

variable {α : Type}

/-- The y-transfer of chunk `j` is issued: the left half of the chunk of the shard goes with it. -/
theorem s_y_start (j : Fin 16) (nC nY nB nF nE : ℕ) (hY : nY = j.val) (hC : j.val < nC) (d : Dev nD) (hd : d = yn c)
    {hsc hsrc hdst hsem} {k : PUnit → Prog (TpuEff nD τ sig (Elt F) Λ₀ .tc) α} {Q : α → sProp 𝕄} :
    iprop(Pers m K ∗ StVs m c fs 0 nC nY 0 ∗ StYtok c nY ∗ StYreg c nY ∗ sendCells (ysendCell c) nY 0 ∗ Ow c (owedAt c nB nY nF nE)
        ∗ ((StVs m c fs 0 nC (nY + 1) 0 ∗ StYtok c (nY + 1) ∗ StYreg c (nY + 1) ∗ sendCells (ysendCell c) (nY + 1) 0
              ∗ Ow c (owedAt c nB (nY + 1) nF nE)) -∗ WP (k ⟨⟩) Q))
      ⊢ WP (.op (.enqueueDma (srcY c j) (.remote (Dev.tc d : Thread nD τ) (dstY c j) (.dma (ysendS j)) hsc) (.dma (yrecvS j)) hsrc hdst hsem) k) Q := by
  subst hY
  subst hd
  unfold Ow
  iintro ⟨#HP, HV, Htok, Hreg, Hsc, ⟨%W, HO⟩, Hk⟩
  ihave #HI1 := (show Pers m K ⊢ cellInv ER (sched m) (K (c, .ysend j)) (ysendCell c j) from sr_Pers_inv m K c (.ysend j)) $$ HP
  ihave #HI2 := (show Pers m K ⊢ cellInv ER (sched m) (K (yn c, .yrecv j)) (yrecvCell (yn c) j) from sr_Pers_inv m K (yn c) (.yrecv j)) $$ HP
  ihave #HR1 := (show Pers m K ⊢ reached ER (ysendCell c j) 0 from sr_Pers_reached m K c (.ysend j)) $$ HP
  ihave #HR2 := (show Pers m K ⊢ reached ER (yrecvCell (yn c) j) 0 from sr_Pers_reached m K (yn c) (.yrecv j)) $$ HP
  ihave HV' := (sr_StVs_ystart m c fs j nC hC) $$ HV
  icases HV' with ⟨Hsrc, HV⟩
  ihave Htok' := (sr_StYtok_step c j) $$ Htok
  icases Htok' with ⟨⟨HtR, HtS⟩, Htok⟩
  ihave Hreg' := (sr_StYreg_step c j) $$ Hreg
  icases Hreg' with ⟨⟨%fd, Hdst⟩, Hreg⟩
  unfold ysendPay
  iapply (Rounds.wp_send_pointsTo 𝒱₀ ER (sched m) (c : Thread nD τ) none (κ₁ := K (c, .ysend j)) (κ₂ := K (yn c, .yrecv j))
      (r₁ := 0) (r₂ := 0) (d₁ := false) (d₂ := false) (q := fullShare.left) (fs := VS m c) (fd := fd)
      (by rw [duties_ysend]; exact Finset.mem_singleton_self _) (by rw [duties_yrecv]; exact Finset.mem_singleton_self _)
      () () N rfl (amount_ysend m c j false) (amount_yrecv m (yn c) j false) (owedAt c nB (j.val + 1) nF nE) (sr_owedAt_y c j nB nF nE) (W := W)
      (by rw [payload_ysend]; exact .rfl)
      (by rw [payload_yrecv]; exact Entails.of_eq (sr_land_y m c j fd))) $$ [Hsrc Hdst HO HtS HtR]
  · isplitr; · iexact HI1
    isplitr; · iexact HI2
    isplitl [Hsrc]; · iexact Hsrc
    isplitl [Hdst]; · iexact Hdst
    isplitl [HO]; · iexact HO
    isplitl [HtS]; · iexact HtS
    isplitr; · iexact HR1
    isplitl [HtR]; · iexact HtR
    iexact HR2
  iintro ⟨Hcr, HO⟩
  iapply Hk
  isplitl [HV]; · iexact HV
  isplitl [Htok]; · iexact Htok
  isplitl [Hreg]; · iexact Hreg
  isplitl [Hsc Hcr]; · iapply (sr_sendCells_issue (ysendCell c) j) $$ Hsc Hcr
  iexists _; iexact HO

/-- The landing of the y-neighbour's chunk `j` is waited for. -/
theorem s_yrecv_wait (j : Fin 16) (nYR nF nXS nE : ℕ) (hR : nYR = j.val) (hF : nF ≤ j.val)
    {s' : Shape} {e' : EltTy} {sp' : _} {src : Memref sig .tc sp' s' e'} {sp : _} {dst : Memref sig .tc sp S512x1024 .bf16} {hsrc hdst}
    {k : PUnit → Prog (TpuEff nD τ sig (Elt F) Λ₀ .tc) α} {Q : α → sProp 𝕄} :
    iprop(Pers m K ∗ recvCells (yrecvCell c) nYR ∗ StB m c fo true nYR nF nXS ∗ Ow c (owedAt c 2 16 nF nE)
        ∗ ((recvCells (yrecvCell c) (nYR + 1) ∗ StB m c fo true (nYR + 1) nF nXS ∗ Ow c (owedAt c 2 16 nF nE)) -∗ WP (k ⟨⟩) Q))
      ⊢ WP (.op (.waitDma2 (yrecvS j) src dst hsrc hdst) k) Q := by
  subst hR
  unfold Ow
  iintro ⟨#HP, Hrc, HB, ⟨%W, HO⟩, Hk⟩
  ihave #HI := (show Pers m K ⊢ cellInv ER (sched m) (K (c, .yrecv j)) (yrecvCell c j) from sr_Pers_inv m K c (.yrecv j)) $$ HP
  ihave #Hlev := (sr_Pers_lev m K) $$ HP
  ihave Hrc' := (sr_recvCells_step (yrecvCell c) j) $$ Hrc
  icases Hrc' with ⟨⟨Hat, Hcr⟩, Hrc⟩
  iapply (Rounds.wp_wait_rest_token 𝒱₀ ER (sched m) (c : Thread nD τ) none (κ := K (c, .yrecv j))
      (wpE_waitDma2_eq 𝒱₀ (c : Thread nD τ) none Set.univ) (Set.mem_univ _) () (O := owedAt c 2 16 nF nE) (W := W) (R := 0) (m := 0) (T := ∅)
      (by rw [Nat.zero_add, expect_yrecv])) $$ [Hcr HO Hat]
  · isplitr; · iexact HI
    isplitl [Hcr]; · iexact Hcr
    isplitl [HO]; · iexact HO
    isplitr
    · iapply (sr_mayWait_of_above c (.dma (yrecvS j)) 2 _ (by rw [sr_lv_yrecv]) (sr_above_late c nF nE)); iexact Hlev
    iexact Hat
  iintro ⟨HO, Hat, -, Hpay⟩
  ihave Hp := (Entails.of_eq (rest_yrecv m c j)) $$ Hpay
  imod (Rounds.cell_close ER (sched m) (Set.mem_univ (K (c, .yrecv j))) (fun h => h) (R := 0 + 1) (duties_yrecv_later m c j)) $$ [Hat] with Hz
  · isplitr; · iexact HI
    iexact Hat
  iapply Hk
  isplitl [Hrc Hz]; · iapply Hrc; iexact Hz
  isplitl [HB Hp]
  · iapply (sr_StB_yrecv m c fo j nF nXS hF) $$ HB Hp
  · iexists _; iexact HO

/-- The forward of chunk `j` is issued. -/
theorem s_fw_start (j : Fin 16) (nYR nF nXS nE : ℕ) (hF : nF = j.val) (hR : j.val < nYR) (hS : nXS ≤ j.val) (d : Dev nD) (hd : d = xn c)
    {hsc hsrc hdst hsem} {k : PUnit → Prog (TpuEff nD τ sig (Elt F) Λ₀ .tc) α} {Q : α → sProp 𝕄} :
    iprop(Pers m K ∗ StB m c fo true nYR nF nXS ∗ StFtok c nF ∗ StFreg c nF ∗ sendCells (xsendCell c) nF 0 ∗ Ow c (owedAt c 2 16 nF nE)
        ∗ ((StB m c fo true nYR (nF + 1) nXS ∗ StFtok c (nF + 1) ∗ StFreg c (nF + 1) ∗ sendCells (xsendCell c) (nF + 1) 0
              ∗ Ow c (owedAt c 2 16 (nF + 1) nE)) -∗ WP (k ⟨⟩) Q))
      ⊢ WP (.op (.enqueueDma (fwM c j) (.remote (Dev.tc d : Thread nD τ) (fwM c j) (.dma (xsendS j)) hsc) (.dma (xrecvS j)) hsrc hdst hsem) k) Q := by
  subst hF
  subst hd
  unfold Ow
  iintro ⟨#HP, HB, Htok, Hreg, Hsc, ⟨%W, HO⟩, Hk⟩
  ihave #HI1 := (show Pers m K ⊢ cellInv ER (sched m) (K (c, .xsend j)) (xsendCell c j) from sr_Pers_inv m K c (.xsend j)) $$ HP
  ihave #HI2 := (show Pers m K ⊢ cellInv ER (sched m) (K (xn c, .xrecv j)) (xrecvCell (xn c) j) from sr_Pers_inv m K (xn c) (.xrecv j)) $$ HP
  ihave #HR1 := (show Pers m K ⊢ reached ER (xsendCell c j) 0 from sr_Pers_reached m K c (.xsend j)) $$ HP
  ihave #HR2 := (show Pers m K ⊢ reached ER (xrecvCell (xn c) j) 0 from sr_Pers_reached m K (xn c) (.xrecv j)) $$ HP
  ihave HB' := (sr_StB_fw m c fo j nYR nXS hR hS) $$ HB
  icases HB' with ⟨Hsrc, HB⟩
  ihave Htok' := (sr_StFtok_step c j) $$ Htok
  icases Htok' with ⟨⟨HtR, HtS⟩, Htok⟩
  ihave Hreg' := (sr_StFreg_step c j) $$ Hreg
  icases Hreg' with ⟨⟨%fd, Hdst⟩, Hreg⟩
  unfold xsendPay
  iapply (Rounds.wp_send_pointsTo 𝒱₀ ER (sched m) (c : Thread nD τ) none (κ₁ := K (c, .xsend j)) (κ₂ := K (xn c, .xrecv j))
      (r₁ := 0) (r₂ := 0) (d₁ := false) (d₂ := false) (q := fullShare) (fs := OUT m c) (fd := fd)
      (by rw [duties_xsend]; exact Finset.mem_singleton_self _) (by rw [duties_xrecv]; exact Finset.mem_singleton_self _)
      () () N rfl (amount_xsend m c j false) (amount_xrecv m (xn c) j false) (owedAt c 2 16 (j.val + 1) nE) (sr_owedAt_x c j 2 16 nE) (W := W)
      (by rw [payload_xsend]; exact .rfl)
      (by rw [payload_xrecv]; exact Entails.of_eq (sr_land_fw m c j fd))) $$ [Hsrc Hdst HO HtS HtR]
  · isplitr; · iexact HI1
    isplitr; · iexact HI2
    isplitl [Hsrc]; · iexact Hsrc
    isplitl [Hdst]; · iexact Hdst
    isplitl [HO]; · iexact HO
    isplitl [HtS]; · iexact HtS
    isplitr; · iexact HR1
    isplitl [HtR]; · iexact HtR
    iexact HR2
  iintro ⟨Hcr, HO⟩
  iapply Hk
  isplitl [HB]; · iexact HB
  isplitl [Htok]; · iexact Htok
  isplitl [Hreg]; · iexact Hreg
  isplitl [Hsc Hcr]; · iapply (sr_sendCells_issue (xsendCell c) j) $$ Hsc Hcr
  iexists _; iexact HO

/-- The send of forward `j` is waited for: the chunk it read is back. -/
theorem s_xsend_wait (j : Fin 16) (nXS nE : ℕ) (hS : nXS = j.val)
    {s' : Shape} {e' : EltTy} {sp' : _} {src : Memref sig .tc sp' s' e'} {sp : _} {dst : Memref sig .tc sp S512x1024 .bf16} {hsrc hdst}
    {k : PUnit → Prog (TpuEff nD τ sig (Elt F) Λ₀ .tc) α} {Q : α → sProp 𝕄} :
    iprop(Pers m K ∗ sendCells (xsendCell c) 16 nXS ∗ StB m c fo true 16 16 nXS ∗ Ow c (owedAt c 2 16 16 nE)
        ∗ ((sendCells (xsendCell c) 16 (nXS + 1) ∗ StB m c fo true 16 16 (nXS + 1) ∗ Ow c (owedAt c 2 16 16 nE)) -∗ WP (k ⟨⟩) Q))
      ⊢ WP (.op (.waitDma2 (xsendS j) src dst hsrc hdst) k) Q := by
  subst hS
  unfold Ow
  iintro ⟨#HP, Hsc, HB, ⟨%W, HO⟩, Hk⟩
  ihave #HI := (show Pers m K ⊢ cellInv ER (sched m) (K (c, .xsend j)) (xsendCell c j) from sr_Pers_inv m K c (.xsend j)) $$ HP
  ihave #Hlev := (sr_Pers_lev m K) $$ HP
  ihave Hsc' := (sr_sendCells_wait (xsendCell c) j) $$ Hsc
  icases Hsc' with ⟨⟨Hat, Hcr⟩, Hsc⟩
  iapply (Rounds.wp_wait_rest_token 𝒱₀ ER (sched m) (c : Thread nD τ) none (κ := K (c, .xsend j))
      (wpE_waitDma2_eq 𝒱₀ (c : Thread nD τ) none Set.univ) (Set.mem_univ _) () (O := owedAt c 2 16 16 nE) (W := W) (R := 0) (m := 0) (T := ∅)
      (by rw [Nat.zero_add, expect_xsend])) $$ [Hcr HO Hat]
  · isplitr; · iexact HI
    isplitl [Hcr]; · iexact Hcr
    isplitl [HO]; · iexact HO
    isplitr
    · iapply (sr_mayWait_of_above c (.dma (xsendS j)) 3 _ (by rw [sr_lv_xsend]; decide) (sr_above_last c nE)); iexact Hlev
    iexact Hat
  iintro ⟨HO, Hat, -, Hpay⟩
  ihave Hp := (Entails.of_eq (rest_xsend m c j)) $$ Hpay
  imod (Rounds.cell_close ER (sched m) (Set.mem_univ (K (c, .xsend j))) (fun h => h) (R := 0 + 1) (duties_xsend_later m c j)) $$ [Hat] with Hz
  · isplitr; · iexact HI
    iexact Hat
  iapply Hk
  isplitl [Hsc Hz]; · iapply Hsc; iexact Hz
  isplitl [HB Hp]
  · iapply (sr_StB_xsend m c fo j) $$ HB Hp
  · iexists _; iexact HO

/-- The landing of the x-neighbour's forward `j` is waited for. -/
theorem s_xrecv_wait (j : Fin 16) (nXR nE : ℕ) (hR : nXR = j.val)
    {s' : Shape} {e' : EltTy} {sp' : _} {src : Memref sig .tc sp' s' e'} {sp : _} {dst : Memref sig .tc sp S512x1024 .bf16} {hsrc hdst}
    {k : PUnit → Prog (TpuEff nD τ sig (Elt F) Λ₀ .tc) α} {Q : α → sProp 𝕄} :
    iprop(Pers m K ∗ recvCells (xrecvCell c) nXR ∗ StC m c fo true nXR ∗ Ow c (owedAt c 2 16 16 nE)
        ∗ ((recvCells (xrecvCell c) (nXR + 1) ∗ StC m c fo true (nXR + 1) ∗ Ow c (owedAt c 2 16 16 nE)) -∗ WP (k ⟨⟩) Q))
      ⊢ WP (.op (.waitDma2 (xrecvS j) src dst hsrc hdst) k) Q := by
  subst hR
  unfold Ow
  iintro ⟨#HP, Hrc, HC, ⟨%W, HO⟩, Hk⟩
  ihave #HI := (show Pers m K ⊢ cellInv ER (sched m) (K (c, .xrecv j)) (xrecvCell c j) from sr_Pers_inv m K c (.xrecv j)) $$ HP
  ihave #Hlev := (sr_Pers_lev m K) $$ HP
  ihave Hrc' := (sr_recvCells_step (xrecvCell c) j) $$ Hrc
  icases Hrc' with ⟨⟨Hat, Hcr⟩, Hrc⟩
  iapply (Rounds.wp_wait_rest_token 𝒱₀ ER (sched m) (c : Thread nD τ) none (κ := K (c, .xrecv j))
      (wpE_waitDma2_eq 𝒱₀ (c : Thread nD τ) none Set.univ) (Set.mem_univ _) () (O := owedAt c 2 16 16 nE) (W := W) (R := 0) (m := 0) (T := ∅)
      (by rw [Nat.zero_add, expect_xrecv])) $$ [Hcr HO Hat]
  · isplitr; · iexact HI
    isplitl [Hcr]; · iexact Hcr
    isplitl [HO]; · iexact HO
    isplitr
    · iapply (sr_mayWait_of_above c (.dma (xrecvS j)) 3 _ (by rw [sr_lv_xrecv]) (sr_above_last c nE)); iexact Hlev
    iexact Hat
  iintro ⟨HO, Hat, -, Hpay⟩
  ihave Hp := (Entails.of_eq (rest_xrecv m c j)) $$ Hpay
  imod (Rounds.cell_close ER (sched m) (Set.mem_univ (K (c, .xrecv j))) (fun h => h) (R := 0 + 1) (duties_xrecv_later m c j)) $$ [Hat] with Hz
  · isplitr; · iexact HI
    iexact Hat
  iapply Hk
  isplitl [Hrc Hz]; · iapply Hrc; iexact Hz
  isplitl [HC Hp]
  · rw [sr_StC_succ]
    isplitl [Hp]; · iexact Hp
    iexact HC
  · iexists _; iexact HO

end Steps

end Cert.Kernel.AG

end

/-- info: 'Cert.Kernel.AG.s_y_start' depends on axioms: [propext, Classical.choice, Quot.sound] -/
#guard_msgs in #print axioms Cert.Kernel.AG.s_y_start

/-- info: 'Cert.Kernel.AG.s_yrecv_wait' depends on axioms: [propext, Classical.choice, Quot.sound] -/
#guard_msgs in #print axioms Cert.Kernel.AG.s_yrecv_wait

/-- info: 'Cert.Kernel.AG.s_fw_start' depends on axioms: [propext, Classical.choice, Quot.sound] -/
#guard_msgs in #print axioms Cert.Kernel.AG.s_fw_start

/-- info: 'Cert.Kernel.AG.s_xsend_wait' depends on axioms: [propext, Classical.choice, Quot.sound] -/
#guard_msgs in #print axioms Cert.Kernel.AG.s_xsend_wait

/-- info: 'Cert.Kernel.AG.s_xrecv_wait' depends on axioms: [propext, Classical.choice, Quot.sound] -/
#guard_msgs in #print axioms Cert.Kernel.AG.s_xrecv_wait
-- ==== Proof.KLibChain.lean ====
import proofs.«900094_g7700000000000095_dist_ag_v7x_xy2x2_y_m16384_n1024_bf16_1_alg».proof.Proof.KState

/-!
# Steps in front of a frame

A step lemma reads 'what it takes ∗ (what it gives back -∗ the rest runs) ⊢ the operation and the rest run'. Applied to
a state that holds more than the step takes, the surplus is carried across: these are the combinators that do so, with
the two weakest preconditions as variables, so that the program never enters the separation-logic context.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
/-- A step that takes 1 strand and gives 1 back, applied in front of a frame. -/
theorem chain_1_1 {P A1 B1 Fr W W' : sProp 𝕄} [BI.Persistent P]
    (hstep : iprop(P ∗ A1 ∗ (B1 -∗ W')) ⊢ W)
    (hrest : iprop(P ∗ B1 ∗ Fr) ⊢ W') :
    iprop(P ∗ A1 ∗ Fr) ⊢ W := by
  iintro ⟨#HP, H1, HF⟩
  iapply hstep
  isplitr; · iexact HP
  isplitl [H1]; · iexact H1
  iintro G1
  iapply hrest
  isplitr; · iexact HP
  isplitl [G1]; · iexact G1
  iexact HF

omit [FloatOps F] in
/-- A step that takes 1 strand and gives 2 back, applied in front of a frame. -/
theorem chain_1_2 {P A1 B1 B2 Fr W W' : sProp 𝕄} [BI.Persistent P]
    (hstep : iprop(P ∗ A1 ∗ ((B1 ∗ B2) -∗ W')) ⊢ W)
    (hrest : iprop(P ∗ B1 ∗ B2 ∗ Fr) ⊢ W') :
    iprop(P ∗ A1 ∗ Fr) ⊢ W := by
  iintro ⟨#HP, H1, HF⟩
  iapply hstep
  isplitr; · iexact HP
  isplitl [H1]; · iexact H1
  iintro ⟨G1, G2⟩
  iapply hrest
  isplitr; · iexact HP
  isplitl [G1]; · iexact G1
  isplitl [G2]; · iexact G2
  iexact HF

omit [FloatOps F] in
/-- A step that takes 1 strand and gives 3 back, applied in front of a frame. -/
theorem chain_1_3 {P A1 B1 B2 B3 Fr W W' : sProp 𝕄} [BI.Persistent P]
    (hstep : iprop(P ∗ A1 ∗ ((B1 ∗ B2 ∗ B3) -∗ W')) ⊢ W)
    (hrest : iprop(P ∗ B1 ∗ B2 ∗ B3 ∗ Fr) ⊢ W') :
    iprop(P ∗ A1 ∗ Fr) ⊢ W := by
  iintro ⟨#HP, H1, HF⟩
  iapply hstep
  isplitr; · iexact HP
  isplitl [H1]; · iexact H1
  iintro ⟨G1, G2, G3⟩
  iapply hrest
  isplitr; · iexact HP
  isplitl [G1]; · iexact G1
  isplitl [G2]; · iexact G2
  isplitl [G3]; · iexact G3
  iexact HF

omit [FloatOps F] in
/-- A step that takes 1 strand and gives 4 back, applied in front of a frame. -/
theorem chain_1_4 {P A1 B1 B2 B3 B4 Fr W W' : sProp 𝕄} [BI.Persistent P]
    (hstep : iprop(P ∗ A1 ∗ ((B1 ∗ B2 ∗ B3 ∗ B4) -∗ W')) ⊢ W)
    (hrest : iprop(P ∗ B1 ∗ B2 ∗ B3 ∗ B4 ∗ Fr) ⊢ W') :
    iprop(P ∗ A1 ∗ Fr) ⊢ W := by
  iintro ⟨#HP, H1, HF⟩
  iapply hstep
  isplitr; · iexact HP
  isplitl [H1]; · iexact H1
  iintro ⟨G1, G2, G3, G4⟩
  iapply hrest
  isplitr; · iexact HP
  isplitl [G1]; · iexact G1
  isplitl [G2]; · iexact G2
  isplitl [G3]; · iexact G3
  isplitl [G4]; · iexact G4
  iexact HF

omit [FloatOps F] in
/-- A step that takes 1 strand and gives 5 back, applied in front of a frame. -/
theorem chain_1_5 {P A1 B1 B2 B3 B4 B5 Fr W W' : sProp 𝕄} [BI.Persistent P]
    (hstep : iprop(P ∗ A1 ∗ ((B1 ∗ B2 ∗ B3 ∗ B4 ∗ B5) -∗ W')) ⊢ W)
    (hrest : iprop(P ∗ B1 ∗ B2 ∗ B3 ∗ B4 ∗ B5 ∗ Fr) ⊢ W') :
    iprop(P ∗ A1 ∗ Fr) ⊢ W := by
  iintro ⟨#HP, H1, HF⟩
  iapply hstep
  isplitr; · iexact HP
  isplitl [H1]; · iexact H1
  iintro ⟨G1, G2, G3, G4, G5⟩
  iapply hrest
  isplitr; · iexact HP
  isplitl [G1]; · iexact G1
  isplitl [G2]; · iexact G2
  isplitl [G3]; · iexact G3
  isplitl [G4]; · iexact G4
  isplitl [G5]; · iexact G5
  iexact HF

omit [FloatOps F] in
/-- A step that takes 2 strands and gives 1 back, applied in front of a frame. -/
theorem chain_2_1 {P A1 A2 B1 Fr W W' : sProp 𝕄} [BI.Persistent P]
    (hstep : iprop(P ∗ A1 ∗ A2 ∗ (B1 -∗ W')) ⊢ W)
    (hrest : iprop(P ∗ B1 ∗ Fr) ⊢ W') :
    iprop(P ∗ A1 ∗ A2 ∗ Fr) ⊢ W := by
  iintro ⟨#HP, H1, H2, HF⟩
  iapply hstep
  isplitr; · iexact HP
  isplitl [H1]; · iexact H1
  isplitl [H2]; · iexact H2
  iintro G1
  iapply hrest
  isplitr; · iexact HP
  isplitl [G1]; · iexact G1
  iexact HF

omit [FloatOps F] in
/-- A step that takes 2 strands and gives 2 back, applied in front of a frame. -/
theorem chain_2_2 {P A1 A2 B1 B2 Fr W W' : sProp 𝕄} [BI.Persistent P]
    (hstep : iprop(P ∗ A1 ∗ A2 ∗ ((B1 ∗ B2) -∗ W')) ⊢ W)
    (hrest : iprop(P ∗ B1 ∗ B2 ∗ Fr) ⊢ W') :
    iprop(P ∗ A1 ∗ A2 ∗ Fr) ⊢ W := by
  iintro ⟨#HP, H1, H2, HF⟩
  iapply hstep
  isplitr; · iexact HP
  isplitl [H1]; · iexact H1
  isplitl [H2]; · iexact H2
  iintro ⟨G1, G2⟩
  iapply hrest
  isplitr; · iexact HP
  isplitl [G1]; · iexact G1
  isplitl [G2]; · iexact G2
  iexact HF

omit [FloatOps F] in
/-- A step that takes 2 strands and gives 3 back, applied in front of a frame. -/
theorem chain_2_3 {P A1 A2 B1 B2 B3 Fr W W' : sProp 𝕄} [BI.Persistent P]
    (hstep : iprop(P ∗ A1 ∗ A2 ∗ ((B1 ∗ B2 ∗ B3) -∗ W')) ⊢ W)
    (hrest : iprop(P ∗ B1 ∗ B2 ∗ B3 ∗ Fr) ⊢ W') :
    iprop(P ∗ A1 ∗ A2 ∗ Fr) ⊢ W := by
  iintro ⟨#HP, H1, H2, HF⟩
  iapply hstep
  isplitr; · iexact HP
  isplitl [H1]; · iexact H1
  isplitl [H2]; · iexact H2
  iintro ⟨G1, G2, G3⟩
  iapply hrest
  isplitr; · iexact HP
  isplitl [G1]; · iexact G1
  isplitl [G2]; · iexact G2
  isplitl [G3]; · iexact G3
  iexact HF

omit [FloatOps F] in
/-- A step that takes 2 strands and gives 4 back, applied in front of a frame. -/
theorem chain_2_4 {P A1 A2 B1 B2 B3 B4 Fr W W' : sProp 𝕄} [BI.Persistent P]
    (hstep : iprop(P ∗ A1 ∗ A2 ∗ ((B1 ∗ B2 ∗ B3 ∗ B4) -∗ W')) ⊢ W)
    (hrest : iprop(P ∗ B1 ∗ B2 ∗ B3 ∗ B4 ∗ Fr) ⊢ W') :
    iprop(P ∗ A1 ∗ A2 ∗ Fr) ⊢ W := by
  iintro ⟨#HP, H1, H2, HF⟩
  iapply hstep
  isplitr; · iexact HP
  isplitl [H1]; · iexact H1
  isplitl [H2]; · iexact H2
  iintro ⟨G1, G2, G3, G4⟩
  iapply hrest
  isplitr; · iexact HP
  isplitl [G1]; · iexact G1
  isplitl [G2]; · iexact G2
  isplitl [G3]; · iexact G3
  isplitl [G4]; · iexact G4
  iexact HF

omit [FloatOps F] in
/-- A step that takes 2 strands and gives 5 back, applied in front of a frame. -/
theorem chain_2_5 {P A1 A2 B1 B2 B3 B4 B5 Fr W W' : sProp 𝕄} [BI.Persistent P]
    (hstep : iprop(P ∗ A1 ∗ A2 ∗ ((B1 ∗ B2 ∗ B3 ∗ B4 ∗ B5) -∗ W')) ⊢ W)
    (hrest : iprop(P ∗ B1 ∗ B2 ∗ B3 ∗ B4 ∗ B5 ∗ Fr) ⊢ W') :
    iprop(P ∗ A1 ∗ A2 ∗ Fr) ⊢ W := by
  iintro ⟨#HP, H1, H2, HF⟩
  iapply hstep
  isplitr; · iexact HP
  isplitl [H1]; · iexact H1
  isplitl [H2]; · iexact H2
  iintro ⟨G1, G2, G3, G4, G5⟩
  iapply hrest
  isplitr; · iexact HP
  isplitl [G1]; · iexact G1
  isplitl [G2]; · iexact G2
  isplitl [G3]; · iexact G3
  isplitl [G4]; · iexact G4
  isplitl [G5]; · iexact G5
  iexact HF

omit [FloatOps F] in
/-- A step that takes 3 strands and gives 1 back, applied in front of a frame. -/
theorem chain_3_1 {P A1 A2 A3 B1 Fr W W' : sProp 𝕄} [BI.Persistent P]
    (hstep : iprop(P ∗ A1 ∗ A2 ∗ A3 ∗ (B1 -∗ W')) ⊢ W)
    (hrest : iprop(P ∗ B1 ∗ Fr) ⊢ W') :
    iprop(P ∗ A1 ∗ A2 ∗ A3 ∗ Fr) ⊢ W := by
  iintro ⟨#HP, H1, H2, H3, HF⟩
  iapply hstep
  isplitr; · iexact HP
  isplitl [H1]; · iexact H1
  isplitl [H2]; · iexact H2
  isplitl [H3]; · iexact H3
  iintro G1
  iapply hrest
  isplitr; · iexact HP
  isplitl [G1]; · iexact G1
  iexact HF

omit [FloatOps F] in
/-- A step that takes 3 strands and gives 2 back, applied in front of a frame. -/
theorem chain_3_2 {P A1 A2 A3 B1 B2 Fr W W' : sProp 𝕄} [BI.Persistent P]
    (hstep : iprop(P ∗ A1 ∗ A2 ∗ A3 ∗ ((B1 ∗ B2) -∗ W')) ⊢ W)
    (hrest : iprop(P ∗ B1 ∗ B2 ∗ Fr) ⊢ W') :
    iprop(P ∗ A1 ∗ A2 ∗ A3 ∗ Fr) ⊢ W := by
  iintro ⟨#HP, H1, H2, H3, HF⟩
  iapply hstep
  isplitr; · iexact HP
  isplitl [H1]; · iexact H1
  isplitl [H2]; · iexact H2
  isplitl [H3]; · iexact H3
  iintro ⟨G1, G2⟩
  iapply hrest
  isplitr; · iexact HP
  isplitl [G1]; · iexact G1
  isplitl [G2]; · iexact G2
  iexact HF

omit [FloatOps F] in
/-- A step that takes 3 strands and gives 3 back, applied in front of a frame. -/
theorem chain_3_3 {P A1 A2 A3 B1 B2 B3 Fr W W' : sProp 𝕄} [BI.Persistent P]
    (hstep : iprop(P ∗ A1 ∗ A2 ∗ A3 ∗ ((B1 ∗ B2 ∗ B3) -∗ W')) ⊢ W)
    (hrest : iprop(P ∗ B1 ∗ B2 ∗ B3 ∗ Fr) ⊢ W') :
    iprop(P ∗ A1 ∗ A2 ∗ A3 ∗ Fr) ⊢ W := by
  iintro ⟨#HP, H1, H2, H3, HF⟩
  iapply hstep
  isplitr; · iexact HP
  isplitl [H1]; · iexact H1
  isplitl [H2]; · iexact H2
  isplitl [H3]; · iexact H3
  iintro ⟨G1, G2, G3⟩
  iapply hrest
  isplitr; · iexact HP
  isplitl [G1]; · iexact G1
  isplitl [G2]; · iexact G2
  isplitl [G3]; · iexact G3
  iexact HF

omit [FloatOps F] in
/-- A step that takes 3 strands and gives 4 back, applied in front of a frame. -/
theorem chain_3_4 {P A1 A2 A3 B1 B2 B3 B4 Fr W W' : sProp 𝕄} [BI.Persistent P]
    (hstep : iprop(P ∗ A1 ∗ A2 ∗ A3 ∗ ((B1 ∗ B2 ∗ B3 ∗ B4) -∗ W')) ⊢ W)
    (hrest : iprop(P ∗ B1 ∗ B2 ∗ B3 ∗ B4 ∗ Fr) ⊢ W') :
    iprop(P ∗ A1 ∗ A2 ∗ A3 ∗ Fr) ⊢ W := by
  iintro ⟨#HP, H1, H2, H3, HF⟩
  iapply hstep
  isplitr; · iexact HP
  isplitl [H1]; · iexact H1
  isplitl [H2]; · iexact H2
  isplitl [H3]; · iexact H3
  iintro ⟨G1, G2, G3, G4⟩
  iapply hrest
  isplitr; · iexact HP
  isplitl [G1]; · iexact G1
  isplitl [G2]; · iexact G2
  isplitl [G3]; · iexact G3
  isplitl [G4]; · iexact G4
  iexact HF

omit [FloatOps F] in
/-- A step that takes 3 strands and gives 5 back, applied in front of a frame. -/
theorem chain_3_5 {P A1 A2 A3 B1 B2 B3 B4 B5 Fr W W' : sProp 𝕄} [BI.Persistent P]
    (hstep : iprop(P ∗ A1 ∗ A2 ∗ A3 ∗ ((B1 ∗ B2 ∗ B3 ∗ B4 ∗ B5) -∗ W')) ⊢ W)
    (hrest : iprop(P ∗ B1 ∗ B2 ∗ B3 ∗ B4 ∗ B5 ∗ Fr) ⊢ W') :
    iprop(P ∗ A1 ∗ A2 ∗ A3 ∗ Fr) ⊢ W := by
  iintro ⟨#HP, H1, H2, H3, HF⟩
  iapply hstep
  isplitr; · iexact HP
  isplitl [H1]; · iexact H1
  isplitl [H2]; · iexact H2
  isplitl [H3]; · iexact H3
  iintro ⟨G1, G2, G3, G4, G5⟩
  iapply hrest
  isplitr; · iexact HP
  isplitl [G1]; · iexact G1
  isplitl [G2]; · iexact G2
  isplitl [G3]; · iexact G3
  isplitl [G4]; · iexact G4
  isplitl [G5]; · iexact G5
  iexact HF

omit [FloatOps F] in
/-- A step that takes 4 strands and gives 1 back, applied in front of a frame. -/
theorem chain_4_1 {P A1 A2 A3 A4 B1 Fr W W' : sProp 𝕄} [BI.Persistent P]
    (hstep : iprop(P ∗ A1 ∗ A2 ∗ A3 ∗ A4 ∗ (B1 -∗ W')) ⊢ W)
    (hrest : iprop(P ∗ B1 ∗ Fr) ⊢ W') :
    iprop(P ∗ A1 ∗ A2 ∗ A3 ∗ A4 ∗ Fr) ⊢ W := by
  iintro ⟨#HP, H1, H2, H3, H4, HF⟩
  iapply hstep
  isplitr; · iexact HP
  isplitl [H1]; · iexact H1
  isplitl [H2]; · iexact H2
  isplitl [H3]; · iexact H3
  isplitl [H4]; · iexact H4
  iintro G1
  iapply hrest
  isplitr; · iexact HP
  isplitl [G1]; · iexact G1
  iexact HF

omit [FloatOps F] in
/-- A step that takes 4 strands and gives 2 back, applied in front of a frame. -/
theorem chain_4_2 {P A1 A2 A3 A4 B1 B2 Fr W W' : sProp 𝕄} [BI.Persistent P]
    (hstep : iprop(P ∗ A1 ∗ A2 ∗ A3 ∗ A4 ∗ ((B1 ∗ B2) -∗ W')) ⊢ W)
    (hrest : iprop(P ∗ B1 ∗ B2 ∗ Fr) ⊢ W') :
    iprop(P ∗ A1 ∗ A2 ∗ A3 ∗ A4 ∗ Fr) ⊢ W := by
  iintro ⟨#HP, H1, H2, H3, H4, HF⟩
  iapply hstep
  isplitr; · iexact HP
  isplitl [H1]; · iexact H1
  isplitl [H2]; · iexact H2
  isplitl [H3]; · iexact H3
  isplitl [H4]; · iexact H4
  iintro ⟨G1, G2⟩
  iapply hrest
  isplitr; · iexact HP
  isplitl [G1]; · iexact G1
  isplitl [G2]; · iexact G2
  iexact HF

omit [FloatOps F] in
/-- A step that takes 4 strands and gives 3 back, applied in front of a frame. -/
theorem chain_4_3 {P A1 A2 A3 A4 B1 B2 B3 Fr W W' : sProp 𝕄} [BI.Persistent P]
    (hstep : iprop(P ∗ A1 ∗ A2 ∗ A3 ∗ A4 ∗ ((B1 ∗ B2 ∗ B3) -∗ W')) ⊢ W)
    (hrest : iprop(P ∗ B1 ∗ B2 ∗ B3 ∗ Fr) ⊢ W') :
    iprop(P ∗ A1 ∗ A2 ∗ A3 ∗ A4 ∗ Fr) ⊢ W := by
  iintro ⟨#HP, H1, H2, H3, H4, HF⟩
  iapply hstep
  isplitr; · iexact HP
  isplitl [H1]; · iexact H1
  isplitl [H2]; · iexact H2
  isplitl [H3]; · iexact H3
  isplitl [H4]; · iexact H4
  iintro ⟨G1, G2, G3⟩
  iapply hrest
  isplitr; · iexact HP
  isplitl [G1]; · iexact G1
  isplitl [G2]; · iexact G2
  isplitl [G3]; · iexact G3
  iexact HF

omit [FloatOps F] in
/-- A step that takes 4 strands and gives 4 back, applied in front of a frame. -/
theorem chain_4_4 {P A1 A2 A3 A4 B1 B2 B3 B4 Fr W W' : sProp 𝕄} [BI.Persistent P]
    (hstep : iprop(P ∗ A1 ∗ A2 ∗ A3 ∗ A4 ∗ ((B1 ∗ B2 ∗ B3 ∗ B4) -∗ W')) ⊢ W)
    (hrest : iprop(P ∗ B1 ∗ B2 ∗ B3 ∗ B4 ∗ Fr) ⊢ W') :
    iprop(P ∗ A1 ∗ A2 ∗ A3 ∗ A4 ∗ Fr) ⊢ W := by
  iintro ⟨#HP, H1, H2, H3, H4, HF⟩
  iapply hstep
  isplitr; · iexact HP
  isplitl [H1]; · iexact H1
  isplitl [H2]; · iexact H2
  isplitl [H3]; · iexact H3
  isplitl [H4]; · iexact H4
  iintro ⟨G1, G2, G3, G4⟩
  iapply hrest
  isplitr; · iexact HP
  isplitl [G1]; · iexact G1
  isplitl [G2]; · iexact G2
  isplitl [G3]; · iexact G3
  isplitl [G4]; · iexact G4
  iexact HF

omit [FloatOps F] in
/-- A step that takes 4 strands and gives 5 back, applied in front of a frame. -/
theorem chain_4_5 {P A1 A2 A3 A4 B1 B2 B3 B4 B5 Fr W W' : sProp 𝕄} [BI.Persistent P]
    (hstep : iprop(P ∗ A1 ∗ A2 ∗ A3 ∗ A4 ∗ ((B1 ∗ B2 ∗ B3 ∗ B4 ∗ B5) -∗ W')) ⊢ W)
    (hrest : iprop(P ∗ B1 ∗ B2 ∗ B3 ∗ B4 ∗ B5 ∗ Fr) ⊢ W') :
    iprop(P ∗ A1 ∗ A2 ∗ A3 ∗ A4 ∗ Fr) ⊢ W := by
  iintro ⟨#HP, H1, H2, H3, H4, HF⟩
  iapply hstep
  isplitr; · iexact HP
  isplitl [H1]; · iexact H1
  isplitl [H2]; · iexact H2
  isplitl [H3]; · iexact H3
  isplitl [H4]; · iexact H4
  iintro ⟨G1, G2, G3, G4, G5⟩
  iapply hrest
  isplitr; · iexact HP
  isplitl [G1]; · iexact G1
  isplitl [G2]; · iexact G2
  isplitl [G3]; · iexact G3
  isplitl [G4]; · iexact G4
  isplitl [G5]; · iexact G5
  iexact HF

omit [FloatOps F] in
/-- A step that takes 5 strands and gives 1 back, applied in front of a frame. -/
theorem chain_5_1 {P A1 A2 A3 A4 A5 B1 Fr W W' : sProp 𝕄} [BI.Persistent P]
    (hstep : iprop(P ∗ A1 ∗ A2 ∗ A3 ∗ A4 ∗ A5 ∗ (B1 -∗ W')) ⊢ W)
    (hrest : iprop(P ∗ B1 ∗ Fr) ⊢ W') :
    iprop(P ∗ A1 ∗ A2 ∗ A3 ∗ A4 ∗ A5 ∗ Fr) ⊢ W := by
  iintro ⟨#HP, H1, H2, H3, H4, H5, HF⟩
  iapply hstep
  isplitr; · iexact HP
  isplitl [H1]; · iexact H1
  isplitl [H2]; · iexact H2
  isplitl [H3]; · iexact H3
  isplitl [H4]; · iexact H4
  isplitl [H5]; · iexact H5
  iintro G1
  iapply hrest
  isplitr; · iexact HP
  isplitl [G1]; · iexact G1
  iexact HF

omit [FloatOps F] in
/-- A step that takes 5 strands and gives 2 back, applied in front of a frame. -/
theorem chain_5_2 {P A1 A2 A3 A4 A5 B1 B2 Fr W W' : sProp 𝕄} [BI.Persistent P]
    (hstep : iprop(P ∗ A1 ∗ A2 ∗ A3 ∗ A4 ∗ A5 ∗ ((B1 ∗ B2) -∗ W')) ⊢ W)
    (hrest : iprop(P ∗ B1 ∗ B2 ∗ Fr) ⊢ W') :
    iprop(P ∗ A1 ∗ A2 ∗ A3 ∗ A4 ∗ A5 ∗ Fr) ⊢ W := by
  iintro ⟨#HP, H1, H2, H3, H4, H5, HF⟩
  iapply hstep
  isplitr; · iexact HP
  isplitl [H1]; · iexact H1
  isplitl [H2]; · iexact H2
  isplitl [H3]; · iexact H3
  isplitl [H4]; · iexact H4
  isplitl [H5]; · iexact H5
  iintro ⟨G1, G2⟩
  iapply hrest
  isplitr; · iexact HP
  isplitl [G1]; · iexact G1
  isplitl [G2]; · iexact G2
  iexact HF

omit [FloatOps F] in
/-- A step that takes 5 strands and gives 3 back, applied in front of a frame. -/
theorem chain_5_3 {P A1 A2 A3 A4 A5 B1 B2 B3 Fr W W' : sProp 𝕄} [BI.Persistent P]
    (hstep : iprop(P ∗ A1 ∗ A2 ∗ A3 ∗ A4 ∗ A5 ∗ ((B1 ∗ B2 ∗ B3) -∗ W')) ⊢ W)
    (hrest : iprop(P ∗ B1 ∗ B2 ∗ B3 ∗ Fr) ⊢ W') :
    iprop(P ∗ A1 ∗ A2 ∗ A3 ∗ A4 ∗ A5 ∗ Fr) ⊢ W := by
  iintro ⟨#HP, H1, H2, H3, H4, H5, HF⟩
  iapply hstep
  isplitr; · iexact HP
  isplitl [H1]; · iexact H1
  isplitl [H2]; · iexact H2
  isplitl [H3]; · iexact H3
  isplitl [H4]; · iexact H4
  isplitl [H5]; · iexact H5
  iintro ⟨G1, G2, G3⟩
  iapply hrest
  isplitr; · iexact HP
  isplitl [G1]; · iexact G1
  isplitl [G2]; · iexact G2
  isplitl [G3]; · iexact G3
  iexact HF

omit [FloatOps F] in
/-- A step that takes 5 strands and gives 4 back, applied in front of a frame. -/
theorem chain_5_4 {P A1 A2 A3 A4 A5 B1 B2 B3 B4 Fr W W' : sProp 𝕄} [BI.Persistent P]
    (hstep : iprop(P ∗ A1 ∗ A2 ∗ A3 ∗ A4 ∗ A5 ∗ ((B1 ∗ B2 ∗ B3 ∗ B4) -∗ W')) ⊢ W)
    (hrest : iprop(P ∗ B1 ∗ B2 ∗ B3 ∗ B4 ∗ Fr) ⊢ W') :
    iprop(P ∗ A1 ∗ A2 ∗ A3 ∗ A4 ∗ A5 ∗ Fr) ⊢ W := by
  iintro ⟨#HP, H1, H2, H3, H4, H5, HF⟩
  iapply hstep
  isplitr; · iexact HP
  isplitl [H1]; · iexact H1
  isplitl [H2]; · iexact H2
  isplitl [H3]; · iexact H3
  isplitl [H4]; · iexact H4
  isplitl [H5]; · iexact H5
  iintro ⟨G1, G2, G3, G4⟩
  iapply hrest
  isplitr; · iexact HP
  isplitl [G1]; · iexact G1
  isplitl [G2]; · iexact G2
  isplitl [G3]; · iexact G3
  isplitl [G4]; · iexact G4
  iexact HF

omit [FloatOps F] in
/-- A step that takes 5 strands and gives 5 back, applied in front of a frame. -/
theorem chain_5_5 {P A1 A2 A3 A4 A5 B1 B2 B3 B4 B5 Fr W W' : sProp 𝕄} [BI.Persistent P]
    (hstep : iprop(P ∗ A1 ∗ A2 ∗ A3 ∗ A4 ∗ A5 ∗ ((B1 ∗ B2 ∗ B3 ∗ B4 ∗ B5) -∗ W')) ⊢ W)
    (hrest : iprop(P ∗ B1 ∗ B2 ∗ B3 ∗ B4 ∗ B5 ∗ Fr) ⊢ W') :
    iprop(P ∗ A1 ∗ A2 ∗ A3 ∗ A4 ∗ A5 ∗ Fr) ⊢ W := by
  iintro ⟨#HP, H1, H2, H3, H4, H5, HF⟩
  iapply hstep
  isplitr; · iexact HP
  isplitl [H1]; · iexact H1
  isplitl [H2]; · iexact H2
  isplitl [H3]; · iexact H3
  isplitl [H4]; · iexact H4
  isplitl [H5]; · iexact H5
  iintro ⟨G1, G2, G3, G4, G5⟩
  iapply hrest
  isplitr; · iexact HP
  isplitl [G1]; · iexact G1
  isplitl [G2]; · iexact G2
  isplitl [G3]; · iexact G3
  isplitl [G4]; · iexact G4
  isplitl [G5]; · iexact G5
  iexact HF

omit [FloatOps F] in
/-- A step that needs nothing persistent: one strand in, one out, the persistent part carried with the frame. -/
theorem chain0_1_1 {P A B Fr W W' : sProp 𝕄}
    (hstep : iprop(A ∗ (B -∗ W')) ⊢ W)
    (hrest : iprop(P ∗ B ∗ Fr) ⊢ W') :
    iprop(P ∗ A ∗ Fr) ⊢ W := by
  iintro ⟨HP, H1, HF⟩
  iapply hstep
  isplitl [H1]; · iexact H1
  iintro G1
  iapply hrest
  isplitl [HP]; · iexact HP
  isplitl [G1]; · iexact G1
  iexact HF

omit [FloatOps F] in
/-- The same when the rest depends on a value the step delivers. -/
theorem chain0v_1_1 {β : Type} {P A B Fr W : sProp 𝕄} {W' : β → sProp 𝕄}
    (hstep : iprop(A ∗ (∀ v, B -∗ W' v)) ⊢ W)
    (hrest : ∀ v, iprop(P ∗ B ∗ Fr) ⊢ W' v) :
    iprop(P ∗ A ∗ Fr) ⊢ W := by
  iintro ⟨HP, H1, HF⟩
  iapply hstep
  isplitl [H1]; · iexact H1
  iintro %v G1
  iapply (hrest v)
  isplitl [HP]; · iexact HP
  isplitl [G1]; · iexact G1
  iexact HF

omit [FloatOps F] in
/-- A state regrouped before a step: the regrouping is an entailment between strands alone. -/
theorem regroup {X X' W : sProp 𝕄} (h : X ⊢ X') (hrest : X' ⊢ W) : X ⊢ W := h.trans hrest

omit [FloatOps F] in
/-- A whole part in front of a frame: the part takes the state `A` as one assertion and hands `B r` to what follows,
    which may depend on the value `r` the part returns. -/
theorem chain_part {P A Fr W : sProp 𝕄} {α : Type} {B W' : α → sProp 𝕄} [BI.Persistent P]
    (hstep : iprop(P ∗ A ∗ (∀ r, B r -∗ W' r)) ⊢ W)
    (hrest : ∀ r, iprop(P ∗ B r ∗ Fr) ⊢ W' r) :
    iprop(P ∗ A ∗ Fr) ⊢ W := by
  iintro ⟨#HP, HA, HF⟩
  iapply hstep
  isplitr; · iexact HP
  isplitl [HA]; · iexact HA
  iintro %r HB
  iapply (hrest r)
  isplitr; · iexact HP
  isplitl [HB]; · iexact HB
  iexact HF

omit [FloatOps F] in
/-- A pure fact carried in the state comes out as a hypothesis. -/
theorem chain_pure {P S Fr W : sProp 𝕄} {φ : Prop} (h : φ → (iprop(P ∗ S ∗ Fr) ⊢ W)) :
    iprop(P ∗ (⌜φ⌝ ∗ S) ∗ Fr) ⊢ W := by
  iintro ⟨HP, ⟨%hφ, HS⟩, HF⟩
  iapply (h hφ)
  isplitl [HP]; · iexact HP
  isplitl [HS]; · iexact HS
  iexact HF

end Cert.Kernel.AG

end
-- ==== Proof.KBodyP1.lean ====
import proofs.«900094_g7700000000000095_dist_ag_v7x_xy2x2_y_m16384_n1024_bf16_1_alg».proof.Proof.KStepsEdge
import proofs.«900094_g7700000000000095_dist_ag_v7x_xy2x2_y_m16384_n1024_bf16_1_alg».proof.Proof.KStepsHand
import proofs.«900094_g7700000000000095_dist_ag_v7x_xy2x2_y_m16384_n1024_bf16_1_alg».proof.Proof.KStepsLocal
import proofs.«900094_g7700000000000095_dist_ag_v7x_xy2x2_y_m16384_n1024_bf16_1_alg».proof.Proof.KStepsRemote
import proofs.«900094_g7700000000000095_dist_ag_v7x_xy2x2_y_m16384_n1024_bf16_1_alg».proof.Proof.KOwedLv
import proofs.«900094_g7700000000000095_dist_ag_v7x_xy2x2_y_m16384_n1024_bf16_1_alg».proof.Proof.KLibChain

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
theorem part_1 (K : Dev nD × Kind → ℕ) (c : Dev nD) (fv : Buf (Elt F) ((c : Thread nD τ).loc cc0_scratch1)) (fs : Buf (Elt F) ((c : Thread nD τ).loc cc0_scratch0))
      {Q : (Σ' (d0 : Dev nD) (v2 : BitVec 32) (v5 : BitVec 32) (v6 : BitVec 32) (v7 : BitVec 32) (v17 : BitVec 32), BitVec 32) → sProp 𝕄} :
    iprop(Pers m K ∗ StBar c 0 ∗ StLd m c fv 0 0 ∗ StB m c (m ((c : Thread nD τ).loc main_v1)) false 0 0 0 ∗ StC m c (m ((c : Thread nD τ).loc main_v1)) false 0 ∗ Ow c (owedAt c 0 0 0 0) ∗ (∀ (v2 : BitVec 32) (v5 : BitVec 32) (v6 : BitVec 32) (v7 : BitVec 32) (v17 : BitVec 32) (rl : BitVec 32), (StBar c 3 ∗ StLd m c fv 1 0 ∗ StYreg c 0 ∗ StFreg c 0 ∗ StB m c (m ((c : Thread nD τ).loc main_v1)) true 0 0 0 ∗ StC m c (m ((c : Thread nD τ).loc main_v1)) true 0 ∗ Ow c (owedAt c 2 0 0 0)) -∗ Q ⟨c, v2, v5, v6, v7, v17, rl⟩))
      ⊢ wp frame (wpE (defs₀ (F := F)) 𝒱₀ (c : Thread nD τ) none) Set.univ (k0_part1 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 ) Q := by
  iintro ⟨#HP, HBar, HLd, HB, HC, HOw, Hk⟩
  rw [k0_part1_eq_skeleton]; unfold k0_part1_skel
  simp only [Prog.lift, Prog.bind_op, Prog.bind_ret, Prog.pure_eq_ret, semSignalWord, semWaitWord, wp_deviceId]
  iapply (s_sig_bar_y (m := m) (K := K) (c := c) (fo := m ((c : Thread nD τ).loc main_v1)) 0 0 0 _ (devY k0_dev1 k0_dev1_lt k0_dev1_eq c))
  isplitr; · iexact HP
  isplitl [HBar]; · iexact HBar
  isplitl [HB]; · iexact HB
  isplitl [HOw]; · iexact HOw
  iintro ⟨HBar, HB, HOw⟩
  iapply (s_sig_bar_x (m := m) (K := K) (c := c) (fo := m ((c : Thread nD τ).loc main_v1)) 0 0 0 _ (devX k0_dev2 k0_dev2_lt k0_dev2_eq c))
  isplitr; · iexact HP
  isplitl [HBar]; · iexact HBar
  isplitl [HC]; · iexact HC
  isplitl [HOw]; · iexact HOw
  iintro ⟨HBar, HC, HOw⟩
  iapply (s_wait_bar (m := m) (K := K) (c := c))
  isplitr; · iexact HP
  isplitl [HBar]; · iexact HBar
  isplitl [HOw]; · iexact HOw
  iintro ⟨HBar, HYg, HFg, HOw⟩
  iapply (s_ld_start (m := m) (K := K) (c := c) (fv := fv) (0 : Fin 32) 0 0 rfl (by decide) (by decide))
  isplitr; · iexact HP
  isplitl [HLd]; · iexact HLd
  iintro HLd
  rw [wp_ret]; imodintro
  iapply Hk
  isplitl [HBar]; · iexact HBar
  isplitl [HLd]; · iexact HLd
  isplitl [HYg]; · iexact HYg
  isplitl [HFg]; · iexact HFg
  isplitl [HB]; · iexact HB
  isplitl [HC]; · iexact HC
  iexact HOw

theorem part_2 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (BitVec 32) → sProp 𝕄} :
    iprop(Pers m K ∗ StLd m c fv 1 0 ∗ StVs m c fs 0 0 0 0 ∗ StYtok c 0 ∗ StYreg c 0 ∗ sendCells (ysendCell c) 0 0 ∗ Ow c (owedAt c 2 0 0 0) ∗ (∀ (r : BitVec 32), (StLd m c fv 2 1 ∗ StVs m c fs 0 1 1 0 ∗ StYtok c 1 ∗ StYreg c 1 ∗ sendCells (ysendCell c) 1 0 ∗ Ow c (owedAt c 2 1 0 0)) -∗ Q r))
      ⊢ wp frame (wpE (defs₀ (F := F)) 𝒱₀ (c : Thread nD τ) none) Set.univ (k0_part2 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q := by
  iintro ⟨#HP, HLd, HVs, HYt, HYg, HYs, HOw, Hk⟩
  rw [k0_part2_eq_skeleton]; unfold k0_part2_skel
  simp only [Prog.lift, Prog.bind_op, Prog.bind_ret, Prog.pure_eq_ret, semSignalWord, semWaitWord, wp_deviceId]
  iapply (s_ld_start (m := m) (K := K) (c := c) (fv := fv) (1 : Fin 32) 1 0 rfl (by decide) (by decide))
  isplitr; · iexact HP
  isplitl [HLd]; · iexact HLd
  iintro HLd
  iapply (s_ld_wait (m := m) (K := K) (c := c) (fv := fv) (0 : Fin 32) 2 0 rfl (by decide) (owedAt c 2 0 0 0) (owedAt_lv_pos c _ _ _))
  isplitr; · iexact HP
  isplitl [HLd]; · iexact HLd
  isplitl [HOw]; · iexact HOw
  iintro ⟨HLd, HOw⟩
  iapply (s_vload (m := m) (c := c) (fv := fv) (0 : Fin 32) 2 1 rfl (by decide) (by decide))
  isplitl [HLd]; · iexact HLd
  iintro HLd
  iapply (s_vsload (m := m) (c := c) (fs := fs) (0 : Fin 32) 0 0 rfl (by decide))
  isplitl [HVs]; · iexact HVs
  iintro %_v HVs
  iapply (s_store (m := m) (c := c) (fs := fs) (0 : Fin 32) 0 0 rfl (by decide) _ rfl)
  isplitl [HVs]; · iexact HVs
  iintro HVs
  iapply (s_y_start (m := m) (K := K) (c := c) (fs := fs) (0 : Fin 16) 1 0 2 0 0 rfl (by decide) _ (devY k0_dev3 k0_dev3_lt k0_dev3_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  rw [wp_ret]; imodintro
  iapply Hk
  isplitl [HLd]; · iexact HLd
  isplitl [HVs]; · iexact HVs
  isplitl [HYt]; · iexact HYt
  isplitl [HYg]; · iexact HYg
  isplitl [HYs]; · iexact HYs
  iexact HOw

theorem part_3 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} {c1024_i32 : BitVec 32}  {Q : (PUnit) → sProp 𝕄} :
    iprop(Pers m K ∗ StLd m c fv 2 1 ∗ StVs m c fs 0 1 1 0 ∗ Ow c (owedAt c 2 1 0 0) ∗ (∀ (r : PUnit), (StLd m c fv 3 2 ∗ StVs m c fs 0 2 1 0 ∗ Ow c (owedAt c 2 1 0 0)) -∗ Q r))
      ⊢ wp frame (wpE (defs₀ (F := F)) 𝒱₀ (c : Thread nD τ) none) Set.univ (k0_part3 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 c1024_i32) Q := by
  iintro ⟨#HP, HLd, HVs, HOw, Hk⟩
  rw [k0_part3_eq_skeleton]; unfold k0_part3_skel
  simp only [Prog.lift, Prog.bind_op, Prog.bind_ret, Prog.pure_eq_ret, semSignalWord, semWaitWord, wp_deviceId]
  iapply (s_ld_start (m := m) (K := K) (c := c) (fv := fv) (2 : Fin 32) 2 1 rfl (by decide) (by decide))
  isplitr; · iexact HP
  isplitl [HLd]; · iexact HLd
  iintro HLd
  iapply (s_ld_wait (m := m) (K := K) (c := c) (fv := fv) (1 : Fin 32) 3 1 rfl (by decide) (owedAt c 2 1 0 0) (owedAt_lv_pos c _ _ _))
  isplitr; · iexact HP
  isplitl [HLd]; · iexact HLd
  isplitl [HOw]; · iexact HOw
  iintro ⟨HLd, HOw⟩
  iapply (s_vload (m := m) (c := c) (fv := fv) (1 : Fin 32) 3 2 rfl (by decide) (by decide))
  isplitl [HLd]; · iexact HLd
  iintro HLd
  iapply (s_vsload (m := m) (c := c) (fs := fs) (1 : Fin 32) 1 1 rfl (by decide))
  isplitl [HVs]; · iexact HVs
  iintro %_v HVs
  iapply (s_store (m := m) (c := c) (fs := fs) (1 : Fin 32) 1 1 rfl (by decide) _ rfl)
  isplitl [HVs]; · iexact HVs
  iintro HVs
  rw [wp_ret]; imodintro
  iapply Hk
  isplitl [HLd]; · iexact HLd
  isplitl [HVs]; · iexact HVs
  iexact HOw

theorem part_4 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (PUnit) → sProp 𝕄} :
    iprop(Pers m K ∗ StLd m c fv 3 2 ∗ StVs m c fs 0 2 1 0 ∗ StYtok c 1 ∗ StYreg c 1 ∗ sendCells (ysendCell c) 1 0 ∗ Ow c (owedAt c 2 1 0 0) ∗ (∀ (r : PUnit), (StLd m c fv 4 3 ∗ StVs m c fs 0 3 2 0 ∗ StYtok c 2 ∗ StYreg c 2 ∗ sendCells (ysendCell c) 2 0 ∗ Ow c (owedAt c 2 2 0 0)) -∗ Q r))
      ⊢ wp frame (wpE (defs₀ (F := F)) 𝒱₀ (c : Thread nD τ) none) Set.univ (k0_part4 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q := by
  iintro ⟨#HP, HLd, HVs, HYt, HYg, HYs, HOw, Hk⟩
  rw [k0_part4_eq_skeleton]; unfold k0_part4_skel
  simp only [Prog.lift, Prog.bind_op, Prog.bind_ret, Prog.pure_eq_ret, semSignalWord, semWaitWord, wp_deviceId]
  iapply (s_y_start (m := m) (K := K) (c := c) (fs := fs) (1 : Fin 16) 2 1 2 0 0 rfl (by decide) _ (devY k0_dev4 k0_dev4_lt k0_dev4_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (3 : Fin 32) 3 2 rfl (by decide) (by decide))
  isplitr; · iexact HP
  isplitl [HLd]; · iexact HLd
  iintro HLd
  iapply (s_ld_wait (m := m) (K := K) (c := c) (fv := fv) (2 : Fin 32) 4 2 rfl (by decide) (owedAt c 2 2 0 0) (owedAt_lv_pos c _ _ _))
  isplitr; · iexact HP
  isplitl [HLd]; · iexact HLd
  isplitl [HOw]; · iexact HOw
  iintro ⟨HLd, HOw⟩
  iapply (s_vload (m := m) (c := c) (fv := fv) (2 : Fin 32) 4 3 rfl (by decide) (by decide))
  isplitl [HLd]; · iexact HLd
  iintro HLd
  iapply (s_vsload (m := m) (c := c) (fs := fs) (2 : Fin 32) 2 2 rfl (by decide))
  isplitl [HVs]; · iexact HVs
  iintro %_v HVs
  iapply (s_store (m := m) (c := c) (fs := fs) (2 : Fin 32) 2 2 rfl (by decide) _ rfl)
  isplitl [HVs]; · iexact HVs
  iintro HVs
  rw [wp_ret]; imodintro
  iapply Hk
  isplitl [HLd]; · iexact HLd
  isplitl [HVs]; · iexact HVs
  isplitl [HYt]; · iexact HYt
  isplitl [HYg]; · iexact HYg
  isplitl [HYs]; · iexact HYs
  iexact HOw

theorem part_5 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (PUnit) → sProp 𝕄} :
    iprop(Pers m K ∗ StLd m c fv 4 3 ∗ StVs m c fs 0 3 2 0 ∗ StYtok c 2 ∗ StYreg c 2 ∗ sendCells (ysendCell c) 2 0 ∗ Ow c (owedAt c 2 2 0 0) ∗ (∀ (r : PUnit), (StLd m c fv 5 4 ∗ StVs m c fs 0 4 3 0 ∗ StYtok c 3 ∗ StYreg c 3 ∗ sendCells (ysendCell c) 3 0 ∗ Ow c (owedAt c 2 3 0 0)) -∗ Q r))
      ⊢ wp frame (wpE (defs₀ (F := F)) 𝒱₀ (c : Thread nD τ) none) Set.univ (k0_part5 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q := by
  iintro ⟨#HP, HLd, HVs, HYt, HYg, HYs, HOw, Hk⟩
  rw [k0_part5_eq_skeleton]; unfold k0_part5_skel
  simp only [Prog.lift, Prog.bind_op, Prog.bind_ret, Prog.pure_eq_ret, semSignalWord, semWaitWord, wp_deviceId]
  iapply (s_y_start (m := m) (K := K) (c := c) (fs := fs) (2 : Fin 16) 3 2 2 0 0 rfl (by decide) _ (devY k0_dev5 k0_dev5_lt k0_dev5_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (4 : Fin 32) 4 3 rfl (by decide) (by decide))
  isplitr; · iexact HP
  isplitl [HLd]; · iexact HLd
  iintro HLd
  iapply (s_ld_wait (m := m) (K := K) (c := c) (fv := fv) (3 : Fin 32) 5 3 rfl (by decide) (owedAt c 2 3 0 0) (owedAt_lv_pos c _ _ _))
  isplitr; · iexact HP
  isplitl [HLd]; · iexact HLd
  isplitl [HOw]; · iexact HOw
  iintro ⟨HLd, HOw⟩
  iapply (s_vload (m := m) (c := c) (fv := fv) (3 : Fin 32) 5 4 rfl (by decide) (by decide))
  isplitl [HLd]; · iexact HLd
  iintro HLd
  iapply (s_vsload (m := m) (c := c) (fs := fs) (3 : Fin 32) 3 3 rfl (by decide))
  isplitl [HVs]; · iexact HVs
  iintro %_v HVs
  iapply (s_store (m := m) (c := c) (fs := fs) (3 : Fin 32) 3 3 rfl (by decide) _ rfl)
  isplitl [HVs]; · iexact HVs
  iintro HVs
  rw [wp_ret]; imodintro
  iapply Hk
  isplitl [HLd]; · iexact HLd
  isplitl [HVs]; · iexact HVs
  isplitl [HYt]; · iexact HYt
  isplitl [HYg]; · iexact HYg
  isplitl [HYs]; · iexact HYs
  iexact HOw

theorem part_6 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v17 : BitVec 32}  {Q : (Σ' (v182 : BitVec 32), BitVec 32) → sProp 𝕄} :
    iprop(Pers m K ∗ StLd m c fv 5 4 ∗ StVs m c fs 0 4 3 0 ∗ StYtok c 3 ∗ StYreg c 3 ∗ sendCells (ysendCell c) 3 0 ∗ Ow c (owedAt c 2 3 0 0) ∗ (∀ (v182 : BitVec 32) (rl : BitVec 32), (StLd m c fv 6 5 ∗ StVs m c fs 0 5 4 0 ∗ StYtok c 4 ∗ StYreg c 4 ∗ sendCells (ysendCell c) 4 0 ∗ Ow c (owedAt c 2 4 0 0)) -∗ Q ⟨v182, rl⟩))
      ⊢ wp frame (wpE (defs₀ (F := F)) 𝒱₀ (c : Thread nD τ) none) Set.univ (k0_part6 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v17) Q := by
  iintro ⟨#HP, HLd, HVs, HYt, HYg, HYs, HOw, Hk⟩
  rw [k0_part6_eq_skeleton]; unfold k0_part6_skel
  simp only [Prog.lift, Prog.bind_op, Prog.bind_ret, Prog.pure_eq_ret, semSignalWord, semWaitWord, wp_deviceId]
  iapply (s_y_start (m := m) (K := K) (c := c) (fs := fs) (3 : Fin 16) 4 3 2 0 0 rfl (by decide) _ (devY k0_dev6 k0_dev6_lt k0_dev6_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (5 : Fin 32) 5 4 rfl (by decide) (by decide))
  isplitr; · iexact HP
  isplitl [HLd]; · iexact HLd
  iintro HLd
  iapply (s_ld_wait (m := m) (K := K) (c := c) (fv := fv) (4 : Fin 32) 6 4 rfl (by decide) (owedAt c 2 4 0 0) (owedAt_lv_pos c _ _ _))
  isplitr; · iexact HP
  isplitl [HLd]; · iexact HLd
  isplitl [HOw]; · iexact HOw
  iintro ⟨HLd, HOw⟩
  iapply (s_vload (m := m) (c := c) (fv := fv) (4 : Fin 32) 6 5 rfl (by decide) (by decide))
  isplitl [HLd]; · iexact HLd
  iintro HLd
  iapply (s_vsload (m := m) (c := c) (fs := fs) (4 : Fin 32) 4 4 rfl (by decide))
  isplitl [HVs]; · iexact HVs
  iintro %_v HVs
  iapply (s_store (m := m) (c := c) (fs := fs) (4 : Fin 32) 4 4 rfl (by decide) _ rfl)
  isplitl [HVs]; · iexact HVs
  iintro HVs
  rw [wp_ret]; imodintro
  iapply Hk
  isplitl [HLd]; · iexact HLd
  isplitl [HVs]; · iexact HVs
  isplitl [HYt]; · iexact HYt
  isplitl [HYg]; · iexact HYg
  isplitl [HYs]; · iexact HYs
  iexact HOw

theorem part_7 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} {v182 : BitVec 32} {c1_i32_137 : BitVec 32}  {Q : (BitVec 32) → sProp 𝕄} :
    iprop(Pers m K ∗ StLd m c fv 6 5 ∗ StVs m c fs 0 5 4 0 ∗ StYtok c 4 ∗ StYreg c 4 ∗ sendCells (ysendCell c) 4 0 ∗ Ow c (owedAt c 2 4 0 0) ∗ (∀ (r : BitVec 32), (StLd m c fv 7 6 ∗ StVs m c fs 0 6 5 0 ∗ StYtok c 5 ∗ StYreg c 5 ∗ sendCells (ysendCell c) 5 0 ∗ Ow c (owedAt c 2 5 0 0)) -∗ Q r))
      ⊢ wp frame (wpE (defs₀ (F := F)) 𝒱₀ (c : Thread nD τ) none) Set.univ (k0_part7 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v182 c1_i32_137) Q := by
  iintro ⟨#HP, HLd, HVs, HYt, HYg, HYs, HOw, Hk⟩
  rw [k0_part7_eq_skeleton]; unfold k0_part7_skel
  simp only [Prog.lift, Prog.bind_op, Prog.bind_ret, Prog.pure_eq_ret, semSignalWord, semWaitWord, wp_deviceId]
  iapply (s_y_start (m := m) (K := K) (c := c) (fs := fs) (4 : Fin 16) 5 4 2 0 0 rfl (by decide) _ (devY k0_dev7 k0_dev7_lt k0_dev7_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (6 : Fin 32) 6 5 rfl (by decide) (by decide))
  isplitr; · iexact HP
  isplitl [HLd]; · iexact HLd
  iintro HLd
  iapply (s_ld_wait (m := m) (K := K) (c := c) (fv := fv) (5 : Fin 32) 7 5 rfl (by decide) (owedAt c 2 5 0 0) (owedAt_lv_pos c _ _ _))
  isplitr; · iexact HP
  isplitl [HLd]; · iexact HLd
  isplitl [HOw]; · iexact HOw
  iintro ⟨HLd, HOw⟩
  iapply (s_vload (m := m) (c := c) (fv := fv) (5 : Fin 32) 7 6 rfl (by decide) (by decide))
  isplitl [HLd]; · iexact HLd
  iintro HLd
  iapply (s_vsload (m := m) (c := c) (fs := fs) (5 : Fin 32) 5 5 rfl (by decide))
  isplitl [HVs]; · iexact HVs
  iintro %_v HVs
  iapply (s_store (m := m) (c := c) (fs := fs) (5 : Fin 32) 5 5 rfl (by decide) _ rfl)
  isplitl [HVs]; · iexact HVs
  iintro HVs
  rw [wp_ret]; imodintro
  iapply Hk
  isplitl [HLd]; · iexact HLd
  isplitl [HVs]; · iexact HVs
  isplitl [HYt]; · iexact HYt
  isplitl [HYg]; · iexact HYg
  isplitl [HYs]; · iexact HYs
  iexact HOw

theorem part_8 (K : Dev nD × Kind → ℕ) (c : Dev nD) (fv : Buf (Elt F) ((c : Thread nD τ).loc cc0_scratch1)) (fs : Buf (Elt F) ((c : Thread nD τ).loc cc0_scratch0))
    {v5 : BitVec 32} {v6 : BitVec 32} {v17 : BitVec 32} {v214 : BitVec 32}  {Q : (PUnit) → sProp 𝕄} :
    iprop(Pers m K ∗ StLd m c fv 7 6 ∗ StVs m c fs 0 6 5 0 ∗ StYtok c 5 ∗ StYreg c 5 ∗ sendCells (ysendCell c) 5 0 ∗ Ow c (owedAt c 2 5 0 0) ∗ (∀ (r : PUnit), (StLd m c fv 8 7 ∗ StVs m c fs 0 7 6 0 ∗ StYtok c 6 ∗ StYreg c 6 ∗ sendCells (ysendCell c) 6 0 ∗ Ow c (owedAt c 2 6 0 0)) -∗ Q r))
      ⊢ wp frame (wpE (defs₀ (F := F)) 𝒱₀ (c : Thread nD τ) none) Set.univ (k0_part8 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v6 v17 v214) Q := by
  iintro ⟨#HP, HLd, HVs, HYt, HYg, HYs, HOw, Hk⟩
  rw [k0_part8_eq_skeleton]; unfold k0_part8_skel
  simp only [Prog.lift, Prog.bind_op, Prog.bind_ret, Prog.pure_eq_ret, semSignalWord, semWaitWord, wp_deviceId]
  iapply (s_y_start (m := m) (K := K) (c := c) (fs := fs) (5 : Fin 16) 6 5 2 0 0 rfl (by decide) _ (devY k0_dev8 k0_dev8_lt k0_dev8_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (7 : Fin 32) 7 6 rfl (by decide) (by decide))
  isplitr; · iexact HP
  isplitl [HLd]; · iexact HLd
  iintro HLd
  iapply (s_ld_wait (m := m) (K := K) (c := c) (fv := fv) (6 : Fin 32) 8 6 rfl (by decide) (owedAt c 2 6 0 0) (owedAt_lv_pos c _ _ _))
  isplitr; · iexact HP
  isplitl [HLd]; · iexact HLd
  isplitl [HOw]; · iexact HOw
  iintro ⟨HLd, HOw⟩
  iapply (s_vload (m := m) (c := c) (fv := fv) (6 : Fin 32) 8 7 rfl (by decide) (by decide))
  isplitl [HLd]; · iexact HLd
  iintro HLd
  iapply (s_vsload (m := m) (c := c) (fs := fs) (6 : Fin 32) 6 6 rfl (by decide))
  isplitl [HVs]; · iexact HVs
  iintro %_v HVs
  iapply (s_store (m := m) (c := c) (fs := fs) (6 : Fin 32) 6 6 rfl (by decide) _ rfl)
  isplitl [HVs]; · iexact HVs
  iintro HVs
  rw [wp_ret]; imodintro
  iapply Hk
  isplitl [HLd]; · iexact HLd
  isplitl [HVs]; · iexact HVs
  isplitl [HYt]; · iexact HYt
  isplitl [HYg]; · iexact HYg
  isplitl [HYs]; · iexact HYs
  iexact HOw

theorem part_9 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (BitVec 32) → sProp 𝕄} :
    iprop(Pers m K ∗ StLd m c fv 8 7 ∗ StVs m c fs 0 7 6 0 ∗ StYtok c 6 ∗ StYreg c 6 ∗ sendCells (ysendCell c) 6 0 ∗ Ow c (owedAt c 2 6 0 0) ∗ (∀ (r : BitVec 32), (StLd m c fv 9 8 ∗ StVs m c fs 0 8 7 0 ∗ StYtok c 7 ∗ StYreg c 7 ∗ sendCells (ysendCell c) 7 0 ∗ Ow c (owedAt c 2 7 0 0)) -∗ Q r))
      ⊢ wp frame (wpE (defs₀ (F := F)) 𝒱₀ (c : Thread nD τ) none) Set.univ (k0_part9 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q := by
  iintro ⟨#HP, HLd, HVs, HYt, HYg, HYs, HOw, Hk⟩
  rw [k0_part9_eq_skeleton]; unfold k0_part9_skel
  simp only [Prog.lift, Prog.bind_op, Prog.bind_ret, Prog.pure_eq_ret, semSignalWord, semWaitWord, wp_deviceId]
  iapply (s_y_start (m := m) (K := K) (c := c) (fs := fs) (6 : Fin 16) 7 6 2 0 0 rfl (by decide) _ (devY k0_dev9 k0_dev9_lt k0_dev9_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (8 : Fin 32) 8 7 rfl (by decide) (by decide))
  isplitr; · iexact HP
  isplitl [HLd]; · iexact HLd
  iintro HLd
  iapply (s_ld_wait (m := m) (K := K) (c := c) (fv := fv) (7 : Fin 32) 9 7 rfl (by decide) (owedAt c 2 7 0 0) (owedAt_lv_pos c _ _ _))
  isplitr; · iexact HP
  isplitl [HLd]; · iexact HLd
  isplitl [HOw]; · iexact HOw
  iintro ⟨HLd, HOw⟩
  iapply (s_vload (m := m) (c := c) (fv := fv) (7 : Fin 32) 9 8 rfl (by decide) (by decide))
  isplitl [HLd]; · iexact HLd
  iintro HLd
  iapply (s_vsload (m := m) (c := c) (fs := fs) (7 : Fin 32) 7 7 rfl (by decide))
  isplitl [HVs]; · iexact HVs
  iintro %_v HVs
  iapply (s_store (m := m) (c := c) (fs := fs) (7 : Fin 32) 7 7 rfl (by decide) _ rfl)
  isplitl [HVs]; · iexact HVs
  iintro HVs
  rw [wp_ret]; imodintro
  iapply Hk
  isplitl [HLd]; · iexact HLd
  isplitl [HVs]; · iexact HVs
  isplitl [HYt]; · iexact HYt
  isplitl [HYg]; · iexact HYg
  isplitl [HYs]; · iexact HYs
  iexact HOw

theorem part_10 (K : Dev nD × Kind → ℕ) (c : Dev nD) (fv : Buf (Elt F) ((c : Thread nD τ).loc cc0_scratch1)) (fs : Buf (Elt F) ((c : Thread nD τ).loc cc0_scratch0))
    {v2 : BitVec 32} {v6 : BitVec 32} {v17 : BitVec 32} {v278 : BitVec 32}  {Q : (PUnit) → sProp 𝕄} :
    iprop(Pers m K ∗ StLd m c fv 9 8 ∗ StVs m c fs 0 8 7 0 ∗ StYtok c 7 ∗ StYreg c 7 ∗ sendCells (ysendCell c) 7 0 ∗ Ow c (owedAt c 2 7 0 0) ∗ (∀ (r : PUnit), (StLd m c fv 10 9 ∗ StVs m c fs 0 9 8 0 ∗ StYtok c 8 ∗ StYreg c 8 ∗ sendCells (ysendCell c) 8 0 ∗ Ow c (owedAt c 2 8 0 0)) -∗ Q r))
      ⊢ wp frame (wpE (defs₀ (F := F)) 𝒱₀ (c : Thread nD τ) none) Set.univ (k0_part10 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v6 v17 v278) Q := by
  iintro ⟨#HP, HLd, HVs, HYt, HYg, HYs, HOw, Hk⟩
  rw [k0_part10_eq_skeleton]; unfold k0_part10_skel
  simp only [Prog.lift, Prog.bind_op, Prog.bind_ret, Prog.pure_eq_ret, semSignalWord, semWaitWord, wp_deviceId]
  iapply (s_y_start (m := m) (K := K) (c := c) (fs := fs) (7 : Fin 16) 8 7 2 0 0 rfl (by decide) _ (devY k0_dev10 k0_dev10_lt k0_dev10_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (9 : Fin 32) 9 8 rfl (by decide) (by decide))
  isplitr; · iexact HP
  isplitl [HLd]; · iexact HLd
  iintro HLd
  iapply (s_ld_wait (m := m) (K := K) (c := c) (fv := fv) (8 : Fin 32) 10 8 rfl (by decide) (owedAt c 2 8 0 0) (owedAt_lv_pos c _ _ _))
  isplitr; · iexact HP
  isplitl [HLd]; · iexact HLd
  isplitl [HOw]; · iexact HOw
  iintro ⟨HLd, HOw⟩
  iapply (s_vload (m := m) (c := c) (fv := fv) (8 : Fin 32) 10 9 rfl (by decide) (by decide))
  isplitl [HLd]; · iexact HLd
  iintro HLd
  iapply (s_vsload (m := m) (c := c) (fs := fs) (8 : Fin 32) 8 8 rfl (by decide))
  isplitl [HVs]; · iexact HVs
  iintro %_v HVs
  iapply (s_store (m := m) (c := c) (fs := fs) (8 : Fin 32) 8 8 rfl (by decide) _ rfl)
  isplitl [HVs]; · iexact HVs
  iintro HVs
  rw [wp_ret]; imodintro
  iapply Hk
  isplitl [HLd]; · iexact HLd
  isplitl [HVs]; · iexact HVs
  isplitl [HYt]; · iexact HYt
  isplitl [HYg]; · iexact HYg
  isplitl [HYs]; · iexact HYs
  iexact HOw

theorem part_11 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (FVec F S512x1024 .bf16) → sProp 𝕄} :
    iprop(Pers m K ∗ StLd m c fv 10 9 ∗ StVs m c fs 0 9 8 0 ∗ StYtok c 8 ∗ StYreg c 8 ∗ sendCells (ysendCell c) 8 0 ∗ Ow c (owedAt c 2 8 0 0) ∗ (∀ (r : FVec F S512x1024 .bf16), ⌜r = pay (slotVal m c (9 : Fin 32))⌝ -∗ (StLd m c fv 11 10 ∗ StVs m c fs 0 9 9 0 ∗ StYtok c 9 ∗ StYreg c 9 ∗ sendCells (ysendCell c) 9 0 ∗ Ow c (owedAt c 2 9 0 0)) -∗ Q r))
      ⊢ wp frame (wpE (defs₀ (F := F)) 𝒱₀ (c : Thread nD τ) none) Set.univ (k0_part11 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q := by
  iintro ⟨#HP, HLd, HVs, HYt, HYg, HYs, HOw, Hk⟩
  rw [k0_part11_eq_skeleton]; unfold k0_part11_skel
  simp only [Prog.lift, Prog.bind_op, Prog.bind_ret, Prog.pure_eq_ret, semSignalWord, semWaitWord, wp_deviceId]
  iapply (s_y_start (m := m) (K := K) (c := c) (fs := fs) (8 : Fin 16) 9 8 2 0 0 rfl (by decide) _ (devY k0_dev11 k0_dev11_lt k0_dev11_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (10 : Fin 32) 10 9 rfl (by decide) (by decide))
  isplitr; · iexact HP
  isplitl [HLd]; · iexact HLd
  iintro HLd
  iapply (s_ld_wait (m := m) (K := K) (c := c) (fv := fv) (9 : Fin 32) 11 9 rfl (by decide) (owedAt c 2 9 0 0) (owedAt_lv_pos c _ _ _))
  isplitr; · iexact HP
  isplitl [HLd]; · iexact HLd
  isplitl [HOw]; · iexact HOw
  iintro ⟨HLd, HOw⟩
  iapply (s_vload (m := m) (c := c) (fv := fv) (9 : Fin 32) 11 10 rfl (by decide) (by decide))
  isplitl [HLd]; · iexact HLd
  iintro HLd
  iapply (s_vsload (m := m) (c := c) (fs := fs) (9 : Fin 32) 9 9 rfl (by decide))
  isplitl [HVs]; · iexact HVs
  iintro %_v HVs
  rw [wp_ret]; imodintro
  iapply Hk
  · ipureintro; rfl
  isplitl [HLd]; · iexact HLd
  isplitl [HVs]; · iexact HVs
  isplitl [HYt]; · iexact HYt
  isplitl [HYg]; · iexact HYg
  isplitl [HYs]; · iexact HYs
  iexact HOw

theorem part_12 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} (v341 : FVec F S512x1024 .bf16) (hw : v341 = pay (slotVal m c (9 : Fin 32))) {Q : (FVec F S512x1024 .bf16) → sProp 𝕄} :
    iprop(Pers m K ∗ StLd m c fv 11 10 ∗ StVs m c fs 0 9 9 0 ∗ StYtok c 9 ∗ StYreg c 9 ∗ sendCells (ysendCell c) 9 0 ∗ Ow c (owedAt c 2 9 0 0) ∗ (∀ (r : FVec F S512x1024 .bf16), ⌜(k0_pay12 r) = pay (slotVal m c (10 : Fin 32))⌝ -∗ (StLd m c fv 12 11 ∗ StVs m c fs 0 10 10 0 ∗ StYtok c 10 ∗ StYreg c 10 ∗ sendCells (ysendCell c) 10 0 ∗ Ow c (owedAt c 2 10 0 0)) -∗ Q r))
      ⊢ wp frame (wpE (defs₀ (F := F)) 𝒱₀ (c : Thread nD τ) none) Set.univ (k0_part12 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v341) Q := by
  iintro ⟨#HP, HLd, HVs, HYt, HYg, HYs, HOw, Hk⟩
  rw [k0_part12_eq_skeleton]; unfold k0_part12_skel
  simp only [Prog.lift, Prog.bind_op, Prog.bind_ret, Prog.pure_eq_ret, semSignalWord, semWaitWord, wp_deviceId]
  iapply (s_store (m := m) (c := c) (fs := fs) (9 : Fin 32) 9 9 rfl (by decide) _ hw)
  isplitl [HVs]; · iexact HVs
  iintro HVs
  iapply (s_y_start (m := m) (K := K) (c := c) (fs := fs) (9 : Fin 16) 10 9 2 0 0 rfl (by decide) _ (devY k0_dev12 k0_dev12_lt k0_dev12_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (11 : Fin 32) 11 10 rfl (by decide) (by decide))
  isplitr; · iexact HP
  isplitl [HLd]; · iexact HLd
  iintro HLd
  iapply (s_ld_wait (m := m) (K := K) (c := c) (fv := fv) (10 : Fin 32) 12 10 rfl (by decide) (owedAt c 2 10 0 0) (owedAt_lv_pos c _ _ _))
  isplitr; · iexact HP
  isplitl [HLd]; · iexact HLd
  isplitl [HOw]; · iexact HOw
  iintro ⟨HLd, HOw⟩
  iapply (s_vload (m := m) (c := c) (fv := fv) (10 : Fin 32) 12 11 rfl (by decide) (by decide))
  isplitl [HLd]; · iexact HLd
  iintro HLd
  rw [wp_ret]; imodintro
  iapply Hk
  · ipureintro; rfl
  isplitl [HLd]; · iexact HLd
  isplitl [HVs]; · iexact HVs
  isplitl [HYt]; · iexact HYt
  isplitl [HYg]; · iexact HYg
  isplitl [HYs]; · iexact HYs
  iexact HOw

theorem part_13 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} (v369 : FVec F S512x1024 .bf16) (hw : (k0_pay12 v369) = pay (slotVal m c (10 : Fin 32))) {Q : (Σ' (v402 : FVec F S512x1024 .bf16), BitVec 32) → sProp 𝕄} :
    iprop(Pers m K ∗ StLd m c fv 12 11 ∗ StVs m c fs 0 10 10 0 ∗ StYtok c 10 ∗ StYreg c 10 ∗ sendCells (ysendCell c) 10 0 ∗ Ow c (owedAt c 2 10 0 0) ∗ (∀ (v402 : FVec F S512x1024 .bf16) (rl : BitVec 32), ⌜(k0_pay14 v402) = pay (slotVal m c (11 : Fin 32))⌝ -∗ (StLd m c fv 13 12 ∗ StVs m c fs 0 11 11 0 ∗ StYtok c 11 ∗ StYreg c 11 ∗ sendCells (ysendCell c) 11 0 ∗ Ow c (owedAt c 2 11 0 0)) -∗ Q ⟨v402, rl⟩))
      ⊢ wp frame (wpE (defs₀ (F := F)) 𝒱₀ (c : Thread nD τ) none) Set.univ (k0_part13 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v369) Q := by
  iintro ⟨#HP, HLd, HVs, HYt, HYg, HYs, HOw, Hk⟩
  rw [k0_part13_eq_skeleton]; unfold k0_part13_skel
  simp only [Prog.lift, Prog.bind_op, Prog.bind_ret, Prog.pure_eq_ret, semSignalWord, semWaitWord, wp_deviceId]
  iapply (s_vsload (m := m) (c := c) (fs := fs) (10 : Fin 32) 10 10 rfl (by decide))
  isplitl [HVs]; · iexact HVs
  iintro %_v HVs
  iapply (s_store (m := m) (c := c) (fs := fs) (10 : Fin 32) 10 10 rfl (by decide) _ hw)
  isplitl [HVs]; · iexact HVs
  iintro HVs
  iapply (s_y_start (m := m) (K := K) (c := c) (fs := fs) (10 : Fin 16) 11 10 2 0 0 rfl (by decide) _ (devY k0_dev13 k0_dev13_lt k0_dev13_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (12 : Fin 32) 12 11 rfl (by decide) (by decide))
  isplitr; · iexact HP
  isplitl [HLd]; · iexact HLd
  iintro HLd
  iapply (s_ld_wait (m := m) (K := K) (c := c) (fv := fv) (11 : Fin 32) 13 11 rfl (by decide) (owedAt c 2 11 0 0) (owedAt_lv_pos c _ _ _))
  isplitr; · iexact HP
  isplitl [HLd]; · iexact HLd
  isplitl [HOw]; · iexact HOw
  iintro ⟨HLd, HOw⟩
  iapply (s_vload (m := m) (c := c) (fv := fv) (11 : Fin 32) 13 12 rfl (by decide) (by decide))
  isplitl [HLd]; · iexact HLd
  iintro HLd
  rw [wp_ret]; imodintro
  iapply Hk
  · ipureintro; rfl
  isplitl [HLd]; · iexact HLd
  isplitl [HVs]; · iexact HVs
  isplitl [HYt]; · iexact HYt
  isplitl [HYg]; · iexact HYg
  isplitl [HYs]; · iexact HYs
  iexact HOw

theorem part_14 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} {c5632_i32_297 : BitVec 32} (v402 : FVec F S512x1024 .bf16) (hw : (k0_pay14 v402) = pay (slotVal m c (11 : Fin 32))) {Q : (Vec F S1x512x1024 .f32) → sProp 𝕄} :
    iprop(Pers m K ∗ StLd m c fv 13 12 ∗ StVs m c fs 0 11 11 0 ∗ StYtok c 11 ∗ StYreg c 11 ∗ sendCells (ysendCell c) 11 0 ∗ Ow c (owedAt c 2 11 0 0) ∗ (∀ (r : Vec F S1x512x1024 .f32), ⌜(k0_pay15 r) = pay (slotVal m c (12 : Fin 32))⌝ -∗ (StLd m c fv 14 13 ∗ StVs m c fs 0 12 12 0 ∗ StYtok c 12 ∗ StYreg c 12 ∗ sendCells (ysendCell c) 12 0 ∗ Ow c (owedAt c 2 12 0 0)) -∗ Q r))
      ⊢ wp frame (wpE (defs₀ (F := F)) 𝒱₀ (c : Thread nD τ) none) Set.univ (k0_part14 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v402 c5632_i32_297) Q := by
  iintro ⟨#HP, HLd, HVs, HYt, HYg, HYs, HOw, Hk⟩
  rw [k0_part14_eq_skeleton]; unfold k0_part14_skel
  simp only [Prog.lift, Prog.bind_op, Prog.bind_ret, Prog.pure_eq_ret, semSignalWord, semWaitWord, wp_deviceId]
  iapply (s_vsload (m := m) (c := c) (fs := fs) (11 : Fin 32) 11 11 rfl (by decide))
  isplitl [HVs]; · iexact HVs
  iintro %_v HVs
  iapply (s_store (m := m) (c := c) (fs := fs) (11 : Fin 32) 11 11 rfl (by decide) _ hw)
  isplitl [HVs]; · iexact HVs
  iintro HVs
  iapply (s_y_start (m := m) (K := K) (c := c) (fs := fs) (11 : Fin 16) 12 11 2 0 0 rfl (by decide) _ (devY k0_dev14 k0_dev14_lt k0_dev14_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (13 : Fin 32) 13 12 rfl (by decide) (by decide))
  isplitr; · iexact HP
  isplitl [HLd]; · iexact HLd
  iintro HLd
  iapply (s_ld_wait (m := m) (K := K) (c := c) (fv := fv) (12 : Fin 32) 14 12 rfl (by decide) (owedAt c 2 12 0 0) (owedAt_lv_pos c _ _ _))
  isplitr; · iexact HP
  isplitl [HLd]; · iexact HLd
  isplitl [HOw]; · iexact HOw
  iintro ⟨HLd, HOw⟩
  iapply (s_vload (m := m) (c := c) (fv := fv) (12 : Fin 32) 14 13 rfl (by decide) (by decide))
  isplitl [HLd]; · iexact HLd
  iintro HLd
  rw [wp_ret]; imodintro
  iapply Hk
  · ipureintro; rfl
  isplitl [HLd]; · iexact HLd
  isplitl [HVs]; · iexact HVs
  isplitl [HYt]; · iexact HYt
  isplitl [HYg]; · iexact HYg
  isplitl [HYs]; · iexact HYs
  iexact HOw

theorem part_15 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} (v433 : Vec F S1x512x1024 .f32) (hw : (k0_pay15 v433) = pay (slotVal m c (12 : Fin 32))) {Q : (PUnit) → sProp 𝕄} :
    iprop(Pers m K ∗ StLd m c fv 14 13 ∗ StVs m c fs 0 12 12 0 ∗ StYtok c 12 ∗ StYreg c 12 ∗ sendCells (ysendCell c) 12 0 ∗ Ow c (owedAt c 2 12 0 0) ∗ (∀ (r : PUnit), (StLd m c fv 15 14 ∗ StVs m c fs 0 13 13 0 ∗ StYtok c 13 ∗ StYreg c 13 ∗ sendCells (ysendCell c) 13 0 ∗ Ow c (owedAt c 2 13 0 0)) -∗ Q r))
      ⊢ wp frame (wpE (defs₀ (F := F)) 𝒱₀ (c : Thread nD τ) none) Set.univ (k0_part15 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v433) Q := by
  iintro ⟨#HP, HLd, HVs, HYt, HYg, HYs, HOw, Hk⟩
  rw [k0_part15_eq_skeleton]; unfold k0_part15_skel
  simp only [Prog.lift, Prog.bind_op, Prog.bind_ret, Prog.pure_eq_ret, semSignalWord, semWaitWord, wp_deviceId]
  iapply (s_vsload (m := m) (c := c) (fs := fs) (12 : Fin 32) 12 12 rfl (by decide))
  isplitl [HVs]; · iexact HVs
  iintro %_v HVs
  iapply (s_store (m := m) (c := c) (fs := fs) (12 : Fin 32) 12 12 rfl (by decide) _ hw)
  isplitl [HVs]; · iexact HVs
  iintro HVs
  iapply (s_y_start (m := m) (K := K) (c := c) (fs := fs) (12 : Fin 16) 13 12 2 0 0 rfl (by decide) _ (devY k0_dev15 k0_dev15_lt k0_dev15_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (14 : Fin 32) 14 13 rfl (by decide) (by decide))
  isplitr; · iexact HP
  isplitl [HLd]; · iexact HLd
  iintro HLd
  iapply (s_ld_wait (m := m) (K := K) (c := c) (fv := fv) (13 : Fin 32) 15 13 rfl (by decide) (owedAt c 2 13 0 0) (owedAt_lv_pos c _ _ _))
  isplitr; · iexact HP
  isplitl [HLd]; · iexact HLd
  isplitl [HOw]; · iexact HOw
  iintro ⟨HLd, HOw⟩
  rw [wp_ret]; imodintro
  iapply Hk
  isplitl [HLd]; · iexact HLd
  isplitl [HVs]; · iexact HVs
  isplitl [HYt]; · iexact HYt
  isplitl [HYg]; · iexact HYg
  isplitl [HYs]; · iexact HYs
  iexact HOw

theorem part_16 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (PUnit) → sProp 𝕄} :
    iprop(Pers m K ∗ StLd m c fv 15 14 ∗ StVs m c fs 0 13 13 0 ∗ StYtok c 13 ∗ StYreg c 13 ∗ sendCells (ysendCell c) 13 0 ∗ Ow c (owedAt c 2 13 0 0) ∗ (∀ (r : PUnit), (StLd m c fv 16 14 ∗ StVs m c fs 0 14 14 0 ∗ StYtok c 14 ∗ StYreg c 14 ∗ sendCells (ysendCell c) 14 0 ∗ Ow c (owedAt c 2 14 0 0)) -∗ Q r))
      ⊢ wp frame (wpE (defs₀ (F := F)) 𝒱₀ (c : Thread nD τ) none) Set.univ (k0_part16 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q := by
  iintro ⟨#HP, HLd, HVs, HYt, HYg, HYs, HOw, Hk⟩
  rw [k0_part16_eq_skeleton]; unfold k0_part16_skel
  simp only [Prog.lift, Prog.bind_op, Prog.bind_ret, Prog.pure_eq_ret, semSignalWord, semWaitWord, wp_deviceId]
  iapply (s_vload (m := m) (c := c) (fv := fv) (13 : Fin 32) 15 14 rfl (by decide) (by decide))
  isplitl [HLd]; · iexact HLd
  iintro HLd
  iapply (s_vsload (m := m) (c := c) (fs := fs) (13 : Fin 32) 13 13 rfl (by decide))
  isplitl [HVs]; · iexact HVs
  iintro %_v HVs
  iapply (s_store (m := m) (c := c) (fs := fs) (13 : Fin 32) 13 13 rfl (by decide) _ rfl)
  isplitl [HVs]; · iexact HVs
  iintro HVs
  iapply (s_y_start (m := m) (K := K) (c := c) (fs := fs) (13 : Fin 16) 14 13 2 0 0 rfl (by decide) _ (devY k0_dev16 k0_dev16_lt k0_dev16_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (15 : Fin 32) 15 14 rfl (by decide) (by decide))
  isplitr; · iexact HP
  isplitl [HLd]; · iexact HLd
  iintro HLd
  rw [wp_ret]; imodintro
  iapply Hk
  isplitl [HLd]; · iexact HLd
  isplitl [HVs]; · iexact HVs
  isplitl [HYt]; · iexact HYt
  isplitl [HYg]; · iexact HYg
  isplitl [HYs]; · iexact HYs
  iexact HOw

end Cert.Kernel.AG

end
-- ==== Proof.KBodyP2.lean ====
import proofs.«900094_g7700000000000095_dist_ag_v7x_xy2x2_y_m16384_n1024_bf16_1_alg».proof.Proof.KStepsEdge
import proofs.«900094_g7700000000000095_dist_ag_v7x_xy2x2_y_m16384_n1024_bf16_1_alg».proof.Proof.KStepsHand
import proofs.«900094_g7700000000000095_dist_ag_v7x_xy2x2_y_m16384_n1024_bf16_1_alg».proof.Proof.KStepsLocal
import proofs.«900094_g7700000000000095_dist_ag_v7x_xy2x2_y_m16384_n1024_bf16_1_alg».proof.Proof.KStepsRemote
import proofs.«900094_g7700000000000095_dist_ag_v7x_xy2x2_y_m16384_n1024_bf16_1_alg».proof.Proof.KOwedLv
import proofs.«900094_g7700000000000095_dist_ag_v7x_xy2x2_y_m16384_n1024_bf16_1_alg».proof.Proof.KLibChain

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
theorem part_17 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} {v19 : BitVec 32}  {Q : (PUnit) → sProp 𝕄} :
    iprop(Pers m K ∗ StLd m c fv 16 14 ∗ StVs m c fs 0 14 14 0 ∗ StYtok c 14 ∗ StYreg c 14 ∗ sendCells (ysendCell c) 14 0 ∗ Ow c (owedAt c 2 14 0 0) ∗ (∀ (r : PUnit), (StLd m c fv 17 15 ∗ StVs m c fs 0 15 15 0 ∗ StYtok c 15 ∗ StYreg c 15 ∗ sendCells (ysendCell c) 15 0 ∗ Ow c (owedAt c 2 15 0 0)) -∗ Q r))
      ⊢ wp frame (wpE (defs₀ (F := F)) 𝒱₀ (c : Thread nD τ) none) Set.univ (k0_part17 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v19) Q := by
  iintro ⟨#HP, HLd, HVs, HYt, HYg, HYs, HOw, Hk⟩
  rw [k0_part17_eq_skeleton]; unfold k0_part17_skel
  simp only [Prog.lift, Prog.bind_op, Prog.bind_ret, Prog.pure_eq_ret, semSignalWord, semWaitWord, wp_deviceId]
  iapply (s_ld_wait (m := m) (K := K) (c := c) (fv := fv) (14 : Fin 32) 16 14 rfl (by decide) (owedAt c 2 14 0 0) (owedAt_lv_pos c _ _ _))
  isplitr; · iexact HP
  isplitl [HLd]; · iexact HLd
  isplitl [HOw]; · iexact HOw
  iintro ⟨HLd, HOw⟩
  iapply (s_vload (m := m) (c := c) (fv := fv) (14 : Fin 32) 16 15 rfl (by decide) (by decide))
  isplitl [HLd]; · iexact HLd
  iintro HLd
  iapply (s_vsload (m := m) (c := c) (fs := fs) (14 : Fin 32) 14 14 rfl (by decide))
  isplitl [HVs]; · iexact HVs
  iintro %_v HVs
  iapply (s_store (m := m) (c := c) (fs := fs) (14 : Fin 32) 14 14 rfl (by decide) _ rfl)
  isplitl [HVs]; · iexact HVs
  iintro HVs
  iapply (s_y_start (m := m) (K := K) (c := c) (fs := fs) (14 : Fin 16) 15 14 2 0 0 rfl (by decide) _ (devY k0_dev17 k0_dev17_lt k0_dev17_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_ld_start (m := m) (K := K) (c := c) (fv := fv) (16 : Fin 32) 16 15 rfl (by decide) (by decide))
  isplitr; · iexact HP
  isplitl [HLd]; · iexact HLd
  iintro HLd
  rw [wp_ret]; imodintro
  iapply Hk
  isplitl [HLd]; · iexact HLd
  isplitl [HVs]; · iexact HVs
  isplitl [HYt]; · iexact HYt
  isplitl [HYg]; · iexact HYg
  isplitl [HYs]; · iexact HYs
  iexact HOw

theorem part_18 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (PUnit) → sProp 𝕄} :
    iprop(Pers m K ∗ StLd m c fv 17 15 ∗ StVs m c fs 0 15 15 0 ∗ StYtok c 15 ∗ StYreg c 15 ∗ sendCells (ysendCell c) 15 0 ∗ recvCells (yrecvCell c) 0 ∗ StB m c (m ((c : Thread nD τ).loc main_v1)) true 0 0 0 ∗ Ow c (owedAt c 2 15 0 0) ∗ (∀ (r : PUnit), (StLd m c fv 17 16 ∗ StVs m c fs 0 16 16 0 ∗ StYtok c 16 ∗ StYreg c 16 ∗ sendCells (ysendCell c) 16 0 ∗ recvCells (yrecvCell c) 1 ∗ StB m c (m ((c : Thread nD τ).loc main_v1)) true 1 0 0 ∗ Ow c (owedAt c 2 16 0 0)) -∗ Q r))
      ⊢ wp frame (wpE (defs₀ (F := F)) 𝒱₀ (c : Thread nD τ) none) Set.univ (k0_part18 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q := by
  iintro ⟨#HP, HLd, HVs, HYt, HYg, HYs, HYr, HB, HOw, Hk⟩
  rw [k0_part18_eq_skeleton]; unfold k0_part18_skel
  simp only [Prog.lift, Prog.bind_op, Prog.bind_ret, Prog.pure_eq_ret, semSignalWord, semWaitWord, wp_deviceId]
  iapply (s_ld_wait (m := m) (K := K) (c := c) (fv := fv) (15 : Fin 32) 17 15 rfl (by decide) (owedAt c 2 15 0 0) (owedAt_lv_pos c _ _ _))
  isplitr; · iexact HP
  isplitl [HLd]; · iexact HLd
  isplitl [HOw]; · iexact HOw
  iintro ⟨HLd, HOw⟩
  iapply (s_vload (m := m) (c := c) (fv := fv) (15 : Fin 32) 17 16 rfl (by decide) (by decide))
  isplitl [HLd]; · iexact HLd
  iintro HLd
  iapply (s_vsload (m := m) (c := c) (fs := fs) (15 : Fin 32) 15 15 rfl (by decide))
  isplitl [HVs]; · iexact HVs
  iintro %_v HVs
  iapply (s_store (m := m) (c := c) (fs := fs) (15 : Fin 32) 15 15 rfl (by decide) _ rfl)
  isplitl [HVs]; · iexact HVs
  iintro HVs
  iapply (s_y_start (m := m) (K := K) (c := c) (fs := fs) (15 : Fin 16) 16 15 2 0 0 rfl (by decide) _ (devY k0_dev18 k0_dev18_lt k0_dev18_eq c))
  isplitr; · iexact HP
  isplitl [HVs]; · iexact HVs
  isplitl [HYt]; · iexact HYt
  isplitl [HYg]; · iexact HYg
  isplitl [HYs]; · iexact HYs
  isplitl [HOw]; · iexact HOw
  iintro ⟨HVs, HYt, HYg, HYs, HOw⟩
  iapply (s_yrecv_wait (m := m) (K := K) (c := c) (fo := m ((c : Thread nD τ).loc main_v1)) (0 : Fin 16) 0 0 0 0 rfl (by decide))
  isplitr; · iexact HP
  isplitl [HYr]; · iexact HYr
  isplitl [HB]; · iexact HB
  isplitl [HOw]; · iexact HOw
  iintro ⟨HYr, HB, HOw⟩
  rw [wp_ret]; imodintro
  iapply Hk
  isplitl [HLd]; · iexact HLd
  isplitl [HVs]; · iexact HVs
  isplitl [HYt]; · iexact HYt
  isplitl [HYg]; · iexact HYg
  isplitl [HYs]; · iexact HYs
  isplitl [HYr]; · iexact HYr
  isplitl [HB]; · iexact HB
  iexact HOw

theorem part_19 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32} {v17 : BitVec 32} {v19 : BitVec 32}  {Q : (Σ' (v589 : FVec F S512x1024 .bf16), Vec F S512x1024 .bf16) → sProp 𝕄} :
    iprop(Pers m K ∗ StLd m c fv 17 16 ∗ StVs m c fs 0 16 16 0 ∗ StFtok c 0 ∗ StFreg c 0 ∗ sendCells (xsendCell c) 0 0 ∗ StB m c (m ((c : Thread nD τ).loc main_v1)) true 1 0 0 ∗ Ow c (owedAt c 2 16 0 0) ∗ (∀ (v589 : FVec F S512x1024 .bf16) (rl : Vec F S512x1024 .bf16), ⌜(k0_pay20 v589) = pay (slotVal m c (16 : Fin 32))⌝ -∗ (StLd m c fv 18 17 ∗ StVs m c fs 0 16 16 0 ∗ StFtok c 1 ∗ StFreg c 1 ∗ sendCells (xsendCell c) 1 0 ∗ StB m c (m ((c : Thread nD τ).loc main_v1)) true 1 1 0 ∗ Ow c (owedAt c 2 16 1 0)) -∗ Q ⟨v589, rl⟩))
      ⊢ wp frame (wpE (defs₀ (F := F)) 𝒱₀ (c : Thread nD τ) none) Set.univ (k0_part19 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7 v17 v19) Q := by
  iintro ⟨#HP, HLd, HVs, HFt, HFg, HFs, HB, HOw, Hk⟩
  rw [k0_part19_eq_skeleton]; unfold k0_part19_skel
  simp only [Prog.lift, Prog.bind_op, Prog.bind_ret, Prog.pure_eq_ret, semSignalWord, semWaitWord, wp_deviceId]
  iapply (s_fw_start (m := m) (K := K) (c := c) (fo := m ((c : Thread nD τ).loc main_v1)) (0 : Fin 16) 1 0 0 0 rfl (by decide) (by decide) _ (devX k0_dev19 k0_dev19_lt k0_dev19_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  iapply (s_ld_start (m := m) (K := K) (c := c) (fv := fv) (17 : Fin 32) 17 16 rfl (by decide) (by decide))
  isplitr; · iexact HP
  isplitl [HLd]; · iexact HLd
  iintro HLd
  iapply (s_ld_wait (m := m) (K := K) (c := c) (fv := fv) (16 : Fin 32) 18 16 rfl (by decide) (owedAt c 2 16 1 0) (owedAt_lv_pos c _ _ _))
  isplitr; · iexact HP
  isplitl [HLd]; · iexact HLd
  isplitl [HOw]; · iexact HOw
  iintro ⟨HLd, HOw⟩
  iapply (s_vload (m := m) (c := c) (fv := fv) (16 : Fin 32) 18 17 rfl (by decide) (by decide))
  isplitl [HLd]; · iexact HLd
  iintro HLd
  iapply (s_vsload (m := m) (c := c) (fs := fs) (16 : Fin 32) 16 16 rfl (by decide))
  isplitl [HVs]; · iexact HVs
  iintro %_v HVs
  rw [wp_ret]; imodintro
  iapply Hk
  · ipureintro; rfl
  isplitl [HLd]; · iexact HLd
  isplitl [HVs]; · iexact HVs
  isplitl [HFt]; · iexact HFt
  isplitl [HFg]; · iexact HFg
  isplitl [HFs]; · iexact HFs
  isplitl [HB]; · iexact HB
  iexact HOw

theorem part_20 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32} (v589 : FVec F S512x1024 .bf16) (v592 : Vec F S512x1024 .bf16) (hw : (k0_pay20 v589) = pay (slotVal m c (16 : Fin 32))) {Q : (PUnit) → sProp 𝕄} :
    iprop(Pers m K ∗ StLd m c fv 18 17 ∗ StVs m c fs 0 16 16 0 ∗ recvCells (yrecvCell c) 1 ∗ StFtok c 1 ∗ StFreg c 1 ∗ sendCells (xsendCell c) 1 0 ∗ StB m c (m ((c : Thread nD τ).loc main_v1)) true 1 1 0 ∗ Ow c (owedAt c 2 16 1 0) ∗ (∀ (r : PUnit), (StLd m c fv 19 17 ∗ StVs m c fs 0 17 16 0 ∗ recvCells (yrecvCell c) 2 ∗ StFtok c 2 ∗ StFreg c 2 ∗ sendCells (xsendCell c) 2 0 ∗ StB m c (m ((c : Thread nD τ).loc main_v1)) true 2 2 0 ∗ Ow c (owedAt c 2 16 2 0)) -∗ Q r))
      ⊢ wp frame (wpE (defs₀ (F := F)) 𝒱₀ (c : Thread nD τ) none) Set.univ (k0_part20 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19 v589 v592) Q := by
  iintro ⟨#HP, HLd, HVs, HYr, HFt, HFg, HFs, HB, HOw, Hk⟩
  rw [k0_part20_eq_skeleton]; unfold k0_part20_skel
  simp only [Prog.lift, Prog.bind_op, Prog.bind_ret, Prog.pure_eq_ret, semSignalWord, semWaitWord, wp_deviceId]
  iapply (s_store (m := m) (c := c) (fs := fs) (16 : Fin 32) 16 16 rfl (by decide) _ hw)
  isplitl [HVs]; · iexact HVs
  iintro HVs
  iapply (s_yrecv_wait (m := m) (K := K) (c := c) (fo := m ((c : Thread nD τ).loc main_v1)) (1 : Fin 16) 1 1 0 0 rfl (by decide))
  isplitr; · iexact HP
  isplitl [HYr]; · iexact HYr
  isplitl [HB]; · iexact HB
  isplitl [HOw]; · iexact HOw
  iintro ⟨HYr, HB, HOw⟩
  iapply (s_fw_start (m := m) (K := K) (c := c) (fo := m ((c : Thread nD τ).loc main_v1)) (1 : Fin 16) 2 1 0 0 rfl (by decide) (by decide) _ (devX k0_dev20 k0_dev20_lt k0_dev20_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  iapply (s_ld_start (m := m) (K := K) (c := c) (fv := fv) (18 : Fin 32) 18 17 rfl (by decide) (by decide))
  isplitr; · iexact HP
  isplitl [HLd]; · iexact HLd
  iintro HLd
  rw [wp_ret]; imodintro
  iapply Hk
  isplitl [HLd]; · iexact HLd
  isplitl [HVs]; · iexact HVs
  isplitl [HYr]; · iexact HYr
  isplitl [HFt]; · iexact HFt
  isplitl [HFg]; · iexact HFg
  isplitl [HFs]; · iexact HFs
  isplitl [HB]; · iexact HB
  iexact HOw

theorem part_21 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (PUnit) → sProp 𝕄} :
    iprop(Pers m K ∗ StLd m c fv 19 17 ∗ StVs m c fs 0 17 16 0 ∗ recvCells (yrecvCell c) 2 ∗ StB m c (m ((c : Thread nD τ).loc main_v1)) true 2 2 0 ∗ Ow c (owedAt c 2 16 2 0) ∗ (∀ (r : PUnit), (StLd m c fv 19 18 ∗ StVs m c fs 0 18 16 0 ∗ recvCells (yrecvCell c) 3 ∗ StB m c (m ((c : Thread nD τ).loc main_v1)) true 3 2 0 ∗ Ow c (owedAt c 2 16 2 0)) -∗ Q r))
      ⊢ wp frame (wpE (defs₀ (F := F)) 𝒱₀ (c : Thread nD τ) none) Set.univ (k0_part21 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q := by
  iintro ⟨#HP, HLd, HVs, HYr, HB, HOw, Hk⟩
  rw [k0_part21_eq_skeleton]; unfold k0_part21_skel
  simp only [Prog.lift, Prog.bind_op, Prog.bind_ret, Prog.pure_eq_ret, semSignalWord, semWaitWord, wp_deviceId]
  iapply (s_ld_wait (m := m) (K := K) (c := c) (fv := fv) (17 : Fin 32) 19 17 rfl (by decide) (owedAt c 2 16 2 0) (owedAt_lv_pos c _ _ _))
  isplitr; · iexact HP
  isplitl [HLd]; · iexact HLd
  isplitl [HOw]; · iexact HOw
  iintro ⟨HLd, HOw⟩
  iapply (s_vload (m := m) (c := c) (fv := fv) (17 : Fin 32) 19 18 rfl (by decide) (by decide))
  isplitl [HLd]; · iexact HLd
  iintro HLd
  iapply (s_vsload (m := m) (c := c) (fs := fs) (17 : Fin 32) 17 16 rfl (by decide))
  isplitl [HVs]; · iexact HVs
  iintro %_v HVs
  iapply (s_store (m := m) (c := c) (fs := fs) (17 : Fin 32) 17 16 rfl (by decide) _ rfl)
  isplitl [HVs]; · iexact HVs
  iintro HVs
  iapply (s_yrecv_wait (m := m) (K := K) (c := c) (fo := m ((c : Thread nD τ).loc main_v1)) (2 : Fin 16) 2 2 0 0 rfl (by decide))
  isplitr; · iexact HP
  isplitl [HYr]; · iexact HYr
  isplitl [HB]; · iexact HB
  isplitl [HOw]; · iexact HOw
  iintro ⟨HYr, HB, HOw⟩
  rw [wp_ret]; imodintro
  iapply Hk
  isplitl [HLd]; · iexact HLd
  isplitl [HVs]; · iexact HVs
  isplitl [HYr]; · iexact HYr
  isplitl [HB]; · iexact HB
  iexact HOw

theorem part_22 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v19 : BitVec 32}  {Q : (Σ' (v685 : BitVec 32), BitVec 32) → sProp 𝕄} :
    iprop(Pers m K ∗ StLd m c fv 19 18 ∗ StVs m c fs 0 18 16 0 ∗ recvCells (yrecvCell c) 3 ∗ StFtok c 2 ∗ StFreg c 2 ∗ sendCells (xsendCell c) 2 0 ∗ StB m c (m ((c : Thread nD τ).loc main_v1)) true 3 2 0 ∗ Ow c (owedAt c 2 16 2 0) ∗ (∀ (v685 : BitVec 32) (rl : BitVec 32), (StLd m c fv 20 19 ∗ StVs m c fs 0 19 16 0 ∗ recvCells (yrecvCell c) 4 ∗ StFtok c 3 ∗ StFreg c 3 ∗ sendCells (xsendCell c) 3 0 ∗ StB m c (m ((c : Thread nD τ).loc main_v1)) true 4 3 0 ∗ Ow c (owedAt c 2 16 3 0)) -∗ Q ⟨v685, rl⟩))
      ⊢ wp frame (wpE (defs₀ (F := F)) 𝒱₀ (c : Thread nD τ) none) Set.univ (k0_part22 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v19) Q := by
  iintro ⟨#HP, HLd, HVs, HYr, HFt, HFg, HFs, HB, HOw, Hk⟩
  rw [k0_part22_eq_skeleton]; unfold k0_part22_skel
  simp only [Prog.lift, Prog.bind_op, Prog.bind_ret, Prog.pure_eq_ret, semSignalWord, semWaitWord, wp_deviceId]
  iapply (s_fw_start (m := m) (K := K) (c := c) (fo := m ((c : Thread nD τ).loc main_v1)) (2 : Fin 16) 3 2 0 0 rfl (by decide) (by decide) _ (devX k0_dev21 k0_dev21_lt k0_dev21_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  iapply (s_ld_start (m := m) (K := K) (c := c) (fv := fv) (19 : Fin 32) 19 18 rfl (by decide) (by decide))
  isplitr; · iexact HP
  isplitl [HLd]; · iexact HLd
  iintro HLd
  iapply (s_ld_wait (m := m) (K := K) (c := c) (fv := fv) (18 : Fin 32) 20 18 rfl (by decide) (owedAt c 2 16 3 0) (owedAt_lv_pos c _ _ _))
  isplitr; · iexact HP
  isplitl [HLd]; · iexact HLd
  isplitl [HOw]; · iexact HOw
  iintro ⟨HLd, HOw⟩
  iapply (s_vload (m := m) (c := c) (fv := fv) (18 : Fin 32) 20 19 rfl (by decide) (by decide))
  isplitl [HLd]; · iexact HLd
  iintro HLd
  iapply (s_vsload (m := m) (c := c) (fs := fs) (18 : Fin 32) 18 16 rfl (by decide))
  isplitl [HVs]; · iexact HVs
  iintro %_v HVs
  iapply (s_store (m := m) (c := c) (fs := fs) (18 : Fin 32) 18 16 rfl (by decide) _ rfl)
  isplitl [HVs]; · iexact HVs
  iintro HVs
  iapply (s_yrecv_wait (m := m) (K := K) (c := c) (fo := m ((c : Thread nD τ).loc main_v1)) (3 : Fin 16) 3 3 0 0 rfl (by decide))
  isplitr; · iexact HP
  isplitl [HYr]; · iexact HYr
  isplitl [HB]; · iexact HB
  isplitl [HOw]; · iexact HOw
  iintro ⟨HYr, HB, HOw⟩
  rw [wp_ret]; imodintro
  iapply Hk
  isplitl [HLd]; · iexact HLd
  isplitl [HVs]; · iexact HVs
  isplitl [HYr]; · iexact HYr
  isplitl [HFt]; · iexact HFt
  isplitl [HFg]; · iexact HFg
  isplitl [HFs]; · iexact HFs
  isplitl [HB]; · iexact HB
  iexact HOw

theorem part_23 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32} {v17 : BitVec 32} {v19 : BitVec 32} {v685 : BitVec 32} {c16384_i32_512 : BitVec 32}  {Q : (PUnit) → sProp 𝕄} :
    iprop(Pers m K ∗ StLd m c fv 20 19 ∗ StVs m c fs 0 19 16 0 ∗ StFtok c 3 ∗ StFreg c 3 ∗ sendCells (xsendCell c) 3 0 ∗ StB m c (m ((c : Thread nD τ).loc main_v1)) true 4 3 0 ∗ Ow c (owedAt c 2 16 3 0) ∗ (∀ (r : PUnit), (StLd m c fv 21 20 ∗ StVs m c fs 0 20 16 0 ∗ StFtok c 4 ∗ StFreg c 4 ∗ sendCells (xsendCell c) 4 0 ∗ StB m c (m ((c : Thread nD τ).loc main_v1)) true 4 4 0 ∗ Ow c (owedAt c 2 16 4 0)) -∗ Q r))
      ⊢ wp frame (wpE (defs₀ (F := F)) 𝒱₀ (c : Thread nD τ) none) Set.univ (k0_part23 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7 v17 v19 v685 c16384_i32_512) Q := by
  iintro ⟨#HP, HLd, HVs, HFt, HFg, HFs, HB, HOw, Hk⟩
  rw [k0_part23_eq_skeleton]; unfold k0_part23_skel
  simp only [Prog.lift, Prog.bind_op, Prog.bind_ret, Prog.pure_eq_ret, semSignalWord, semWaitWord, wp_deviceId]
  iapply (s_fw_start (m := m) (K := K) (c := c) (fo := m ((c : Thread nD τ).loc main_v1)) (3 : Fin 16) 4 3 0 0 rfl (by decide) (by decide) _ (devX k0_dev22 k0_dev22_lt k0_dev22_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  iapply (s_ld_start (m := m) (K := K) (c := c) (fv := fv) (20 : Fin 32) 20 19 rfl (by decide) (by decide))
  isplitr; · iexact HP
  isplitl [HLd]; · iexact HLd
  iintro HLd
  iapply (s_ld_wait (m := m) (K := K) (c := c) (fv := fv) (19 : Fin 32) 21 19 rfl (by decide) (owedAt c 2 16 4 0) (owedAt_lv_pos c _ _ _))
  isplitr; · iexact HP
  isplitl [HLd]; · iexact HLd
  isplitl [HOw]; · iexact HOw
  iintro ⟨HLd, HOw⟩
  iapply (s_vload (m := m) (c := c) (fv := fv) (19 : Fin 32) 21 20 rfl (by decide) (by decide))
  isplitl [HLd]; · iexact HLd
  iintro HLd
  iapply (s_vsload (m := m) (c := c) (fs := fs) (19 : Fin 32) 19 16 rfl (by decide))
  isplitl [HVs]; · iexact HVs
  iintro %_v HVs
  iapply (s_store (m := m) (c := c) (fs := fs) (19 : Fin 32) 19 16 rfl (by decide) _ rfl)
  isplitl [HVs]; · iexact HVs
  iintro HVs
  rw [wp_ret]; imodintro
  iapply Hk
  isplitl [HLd]; · iexact HLd
  isplitl [HVs]; · iexact HVs
  isplitl [HFt]; · iexact HFt
  isplitl [HFg]; · iexact HFg
  isplitl [HFs]; · iexact HFs
  isplitl [HB]; · iexact HB
  iexact HOw

theorem part_24 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (PUnit) → sProp 𝕄} :
    iprop(Pers m K ∗ StLd m c fv 21 20 ∗ recvCells (yrecvCell c) 4 ∗ StFtok c 4 ∗ StFreg c 4 ∗ sendCells (xsendCell c) 4 0 ∗ StB m c (m ((c : Thread nD τ).loc main_v1)) true 4 4 0 ∗ Ow c (owedAt c 2 16 4 0) ∗ (∀ (r : PUnit), (StLd m c fv 22 20 ∗ recvCells (yrecvCell c) 5 ∗ StFtok c 5 ∗ StFreg c 5 ∗ sendCells (xsendCell c) 5 0 ∗ StB m c (m ((c : Thread nD τ).loc main_v1)) true 5 5 0 ∗ Ow c (owedAt c 2 16 5 0)) -∗ Q r))
      ⊢ wp frame (wpE (defs₀ (F := F)) 𝒱₀ (c : Thread nD τ) none) Set.univ (k0_part24 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q := by
  iintro ⟨#HP, HLd, HYr, HFt, HFg, HFs, HB, HOw, Hk⟩
  rw [k0_part24_eq_skeleton]; unfold k0_part24_skel
  simp only [Prog.lift, Prog.bind_op, Prog.bind_ret, Prog.pure_eq_ret, semSignalWord, semWaitWord, wp_deviceId]
  iapply (s_yrecv_wait (m := m) (K := K) (c := c) (fo := m ((c : Thread nD τ).loc main_v1)) (4 : Fin 16) 4 4 0 0 rfl (by decide))
  isplitr; · iexact HP
  isplitl [HYr]; · iexact HYr
  isplitl [HB]; · iexact HB
  isplitl [HOw]; · iexact HOw
  iintro ⟨HYr, HB, HOw⟩
  iapply (s_fw_start (m := m) (K := K) (c := c) (fo := m ((c : Thread nD τ).loc main_v1)) (4 : Fin 16) 5 4 0 0 rfl (by decide) (by decide) _ (devX k0_dev23 k0_dev23_lt k0_dev23_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  iapply (s_ld_start (m := m) (K := K) (c := c) (fv := fv) (21 : Fin 32) 21 20 rfl (by decide) (by decide))
  isplitr; · iexact HP
  isplitl [HLd]; · iexact HLd
  iintro HLd
  rw [wp_ret]; imodintro
  iapply Hk
  isplitl [HLd]; · iexact HLd
  isplitl [HYr]; · iexact HYr
  isplitl [HFt]; · iexact HFt
  isplitl [HFg]; · iexact HFg
  isplitl [HFs]; · iexact HFs
  isplitl [HB]; · iexact HB
  iexact HOw

end Cert.Kernel.AG

end
-- ==== Proof.KBodyP3.lean ====
import proofs.«900094_g7700000000000095_dist_ag_v7x_xy2x2_y_m16384_n1024_bf16_1_alg».proof.Proof.KStepsEdge
import proofs.«900094_g7700000000000095_dist_ag_v7x_xy2x2_y_m16384_n1024_bf16_1_alg».proof.Proof.KStepsHand
import proofs.«900094_g7700000000000095_dist_ag_v7x_xy2x2_y_m16384_n1024_bf16_1_alg».proof.Proof.KStepsLocal
import proofs.«900094_g7700000000000095_dist_ag_v7x_xy2x2_y_m16384_n1024_bf16_1_alg».proof.Proof.KStepsRemote
import proofs.«900094_g7700000000000095_dist_ag_v7x_xy2x2_y_m16384_n1024_bf16_1_alg».proof.Proof.KOwedLv
import proofs.«900094_g7700000000000095_dist_ag_v7x_xy2x2_y_m16384_n1024_bf16_1_alg».proof.Proof.KLibChain

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
theorem part_25 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (PUnit) → sProp 𝕄} :
    iprop(Pers m K ∗ StLd m c fv 22 20 ∗ StVs m c fs 0 20 16 0 ∗ recvCells (yrecvCell c) 5 ∗ StFtok c 5 ∗ StFreg c 5 ∗ sendCells (xsendCell c) 5 0 ∗ StB m c (m ((c : Thread nD τ).loc main_v1)) true 5 5 0 ∗ Ow c (owedAt c 2 16 5 0) ∗ (∀ (r : PUnit), (StLd m c fv 22 21 ∗ StVs m c fs 0 21 16 0 ∗ recvCells (yrecvCell c) 6 ∗ StFtok c 6 ∗ StFreg c 6 ∗ sendCells (xsendCell c) 6 0 ∗ StB m c (m ((c : Thread nD τ).loc main_v1)) true 6 6 0 ∗ Ow c (owedAt c 2 16 6 0)) -∗ Q r))
      ⊢ wp frame (wpE (defs₀ (F := F)) 𝒱₀ (c : Thread nD τ) none) Set.univ (k0_part25 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q := by
  iintro ⟨#HP, HLd, HVs, HYr, HFt, HFg, HFs, HB, HOw, Hk⟩
  rw [k0_part25_eq_skeleton]; unfold k0_part25_skel
  simp only [Prog.lift, Prog.bind_op, Prog.bind_ret, Prog.pure_eq_ret, semSignalWord, semWaitWord, wp_deviceId]
  iapply (s_ld_wait (m := m) (K := K) (c := c) (fv := fv) (20 : Fin 32) 22 20 rfl (by decide) (owedAt c 2 16 5 0) (owedAt_lv_pos c _ _ _))
  isplitr; · iexact HP
  isplitl [HLd]; · iexact HLd
  isplitl [HOw]; · iexact HOw
  iintro ⟨HLd, HOw⟩
  iapply (s_vload (m := m) (c := c) (fv := fv) (20 : Fin 32) 22 21 rfl (by decide) (by decide))
  isplitl [HLd]; · iexact HLd
  iintro HLd
  iapply (s_vsload (m := m) (c := c) (fs := fs) (20 : Fin 32) 20 16 rfl (by decide))
  isplitl [HVs]; · iexact HVs
  iintro %_v HVs
  iapply (s_store (m := m) (c := c) (fs := fs) (20 : Fin 32) 20 16 rfl (by decide) _ rfl)
  isplitl [HVs]; · iexact HVs
  iintro HVs
  iapply (s_yrecv_wait (m := m) (K := K) (c := c) (fo := m ((c : Thread nD τ).loc main_v1)) (5 : Fin 16) 5 5 0 0 rfl (by decide))
  isplitr; · iexact HP
  isplitl [HYr]; · iexact HYr
  isplitl [HB]; · iexact HB
  isplitl [HOw]; · iexact HOw
  iintro ⟨HYr, HB, HOw⟩
  iapply (s_fw_start (m := m) (K := K) (c := c) (fo := m ((c : Thread nD τ).loc main_v1)) (5 : Fin 16) 6 5 0 0 rfl (by decide) (by decide) _ (devX k0_dev24 k0_dev24_lt k0_dev24_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  rw [wp_ret]; imodintro
  iapply Hk
  isplitl [HLd]; · iexact HLd
  isplitl [HVs]; · iexact HVs
  isplitl [HYr]; · iexact HYr
  isplitl [HFt]; · iexact HFt
  isplitl [HFg]; · iexact HFg
  isplitl [HFs]; · iexact HFs
  isplitl [HB]; · iexact HB
  iexact HOw

theorem part_26 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} {v19 : BitVec 32}  {Q : (Σ' (v810 : BitVec 32), BitVec 32) → sProp 𝕄} :
    iprop(Pers m K ∗ StLd m c fv 22 21 ∗ StVs m c fs 0 21 16 0 ∗ recvCells (yrecvCell c) 6 ∗ StB m c (m ((c : Thread nD τ).loc main_v1)) true 6 6 0 ∗ Ow c (owedAt c 2 16 6 0) ∗ (∀ (v810 : BitVec 32) (rl : BitVec 32), (StLd m c fv 23 22 ∗ StVs m c fs 0 22 16 0 ∗ recvCells (yrecvCell c) 7 ∗ StB m c (m ((c : Thread nD τ).loc main_v1)) true 7 6 0 ∗ Ow c (owedAt c 2 16 6 0)) -∗ Q ⟨v810, rl⟩))
      ⊢ wp frame (wpE (defs₀ (F := F)) 𝒱₀ (c : Thread nD τ) none) Set.univ (k0_part26 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v19) Q := by
  iintro ⟨#HP, HLd, HVs, HYr, HB, HOw, Hk⟩
  rw [k0_part26_eq_skeleton]; unfold k0_part26_skel
  simp only [Prog.lift, Prog.bind_op, Prog.bind_ret, Prog.pure_eq_ret, semSignalWord, semWaitWord, wp_deviceId]
  iapply (s_ld_start (m := m) (K := K) (c := c) (fv := fv) (22 : Fin 32) 22 21 rfl (by decide) (by decide))
  isplitr; · iexact HP
  isplitl [HLd]; · iexact HLd
  iintro HLd
  iapply (s_ld_wait (m := m) (K := K) (c := c) (fv := fv) (21 : Fin 32) 23 21 rfl (by decide) (owedAt c 2 16 6 0) (owedAt_lv_pos c _ _ _))
  isplitr; · iexact HP
  isplitl [HLd]; · iexact HLd
  isplitl [HOw]; · iexact HOw
  iintro ⟨HLd, HOw⟩
  iapply (s_vload (m := m) (c := c) (fv := fv) (21 : Fin 32) 23 22 rfl (by decide) (by decide))
  isplitl [HLd]; · iexact HLd
  iintro HLd
  iapply (s_vsload (m := m) (c := c) (fs := fs) (21 : Fin 32) 21 16 rfl (by decide))
  isplitl [HVs]; · iexact HVs
  iintro %_v HVs
  iapply (s_store (m := m) (c := c) (fs := fs) (21 : Fin 32) 21 16 rfl (by decide) _ rfl)
  isplitl [HVs]; · iexact HVs
  iintro HVs
  iapply (s_yrecv_wait (m := m) (K := K) (c := c) (fo := m ((c : Thread nD τ).loc main_v1)) (6 : Fin 16) 6 6 0 0 rfl (by decide))
  isplitr; · iexact HP
  isplitl [HYr]; · iexact HYr
  isplitl [HB]; · iexact HB
  isplitl [HOw]; · iexact HOw
  iintro ⟨HYr, HB, HOw⟩
  rw [wp_ret]; imodintro
  iapply Hk
  isplitl [HLd]; · iexact HLd
  isplitl [HVs]; · iexact HVs
  isplitl [HYr]; · iexact HYr
  isplitl [HB]; · iexact HB
  iexact HOw

theorem part_27 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32} {v19 : BitVec 32} {v810 : BitVec 32} {c3072_i32_612 : BitVec 32}  {Q : (BitVec 32) → sProp 𝕄} :
    iprop(Pers m K ∗ StLd m c fv 23 22 ∗ StVs m c fs 0 22 16 0 ∗ StFtok c 6 ∗ StFreg c 6 ∗ sendCells (xsendCell c) 6 0 ∗ StB m c (m ((c : Thread nD τ).loc main_v1)) true 7 6 0 ∗ Ow c (owedAt c 2 16 6 0) ∗ (∀ (r : BitVec 32), (StLd m c fv 24 23 ∗ StVs m c fs 0 23 16 0 ∗ StFtok c 7 ∗ StFreg c 7 ∗ sendCells (xsendCell c) 7 0 ∗ StB m c (m ((c : Thread nD τ).loc main_v1)) true 7 7 0 ∗ Ow c (owedAt c 2 16 7 0)) -∗ Q r))
      ⊢ wp frame (wpE (defs₀ (F := F)) 𝒱₀ (c : Thread nD τ) none) Set.univ (k0_part27 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7 v19 v810 c3072_i32_612) Q := by
  iintro ⟨#HP, HLd, HVs, HFt, HFg, HFs, HB, HOw, Hk⟩
  rw [k0_part27_eq_skeleton]; unfold k0_part27_skel
  simp only [Prog.lift, Prog.bind_op, Prog.bind_ret, Prog.pure_eq_ret, semSignalWord, semWaitWord, wp_deviceId]
  iapply (s_fw_start (m := m) (K := K) (c := c) (fo := m ((c : Thread nD τ).loc main_v1)) (6 : Fin 16) 7 6 0 0 rfl (by decide) (by decide) _ (devX k0_dev25 k0_dev25_lt k0_dev25_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  iapply (s_ld_start (m := m) (K := K) (c := c) (fv := fv) (23 : Fin 32) 23 22 rfl (by decide) (by decide))
  isplitr; · iexact HP
  isplitl [HLd]; · iexact HLd
  iintro HLd
  iapply (s_ld_wait (m := m) (K := K) (c := c) (fv := fv) (22 : Fin 32) 24 22 rfl (by decide) (owedAt c 2 16 7 0) (owedAt_lv_pos c _ _ _))
  isplitr; · iexact HP
  isplitl [HLd]; · iexact HLd
  isplitl [HOw]; · iexact HOw
  iintro ⟨HLd, HOw⟩
  iapply (s_vload (m := m) (c := c) (fv := fv) (22 : Fin 32) 24 23 rfl (by decide) (by decide))
  isplitl [HLd]; · iexact HLd
  iintro HLd
  iapply (s_vsload (m := m) (c := c) (fs := fs) (22 : Fin 32) 22 16 rfl (by decide))
  isplitl [HVs]; · iexact HVs
  iintro %_v HVs
  iapply (s_store (m := m) (c := c) (fs := fs) (22 : Fin 32) 22 16 rfl (by decide) _ rfl)
  isplitl [HVs]; · iexact HVs
  iintro HVs
  rw [wp_ret]; imodintro
  iapply Hk
  isplitl [HLd]; · iexact HLd
  isplitl [HVs]; · iexact HVs
  isplitl [HFt]; · iexact HFt
  isplitl [HFg]; · iexact HFg
  isplitl [HFs]; · iexact HFs
  isplitl [HB]; · iexact HB
  iexact HOw

theorem part_28 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32} {c2_i32_638 : BitVec 32}  {Q : (PUnit) → sProp 𝕄} :
    iprop(Pers m K ∗ StLd m c fv 24 23 ∗ recvCells (yrecvCell c) 7 ∗ StFtok c 7 ∗ StFreg c 7 ∗ sendCells (xsendCell c) 7 0 ∗ StB m c (m ((c : Thread nD τ).loc main_v1)) true 7 7 0 ∗ Ow c (owedAt c 2 16 7 0) ∗ (∀ (r : PUnit), (StLd m c fv 25 23 ∗ recvCells (yrecvCell c) 8 ∗ StFtok c 8 ∗ StFreg c 8 ∗ sendCells (xsendCell c) 8 0 ∗ StB m c (m ((c : Thread nD τ).loc main_v1)) true 8 8 0 ∗ Ow c (owedAt c 2 16 8 0)) -∗ Q r))
      ⊢ wp frame (wpE (defs₀ (F := F)) 𝒱₀ (c : Thread nD τ) none) Set.univ (k0_part28 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19 c2_i32_638) Q := by
  iintro ⟨#HP, HLd, HYr, HFt, HFg, HFs, HB, HOw, Hk⟩
  rw [k0_part28_eq_skeleton]; unfold k0_part28_skel
  simp only [Prog.lift, Prog.bind_op, Prog.bind_ret, Prog.pure_eq_ret, semSignalWord, semWaitWord, wp_deviceId]
  iapply (s_yrecv_wait (m := m) (K := K) (c := c) (fo := m ((c : Thread nD τ).loc main_v1)) (7 : Fin 16) 7 7 0 0 rfl (by decide))
  isplitr; · iexact HP
  isplitl [HYr]; · iexact HYr
  isplitl [HB]; · iexact HB
  isplitl [HOw]; · iexact HOw
  iintro ⟨HYr, HB, HOw⟩
  iapply (s_fw_start (m := m) (K := K) (c := c) (fo := m ((c : Thread nD τ).loc main_v1)) (7 : Fin 16) 8 7 0 0 rfl (by decide) (by decide) _ (devX k0_dev26 k0_dev26_lt k0_dev26_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  iapply (s_ld_start (m := m) (K := K) (c := c) (fv := fv) (24 : Fin 32) 24 23 rfl (by decide) (by decide))
  isplitr; · iexact HP
  isplitl [HLd]; · iexact HLd
  iintro HLd
  rw [wp_ret]; imodintro
  iapply Hk
  isplitl [HLd]; · iexact HLd
  isplitl [HYr]; · iexact HYr
  isplitl [HFt]; · iexact HFt
  isplitl [HFg]; · iexact HFg
  isplitl [HFs]; · iexact HFs
  isplitl [HB]; · iexact HB
  iexact HOw

theorem part_29 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (PUnit) → sProp 𝕄} :
    iprop(Pers m K ∗ StLd m c fv 25 23 ∗ StVs m c fs 0 23 16 0 ∗ recvCells (yrecvCell c) 8 ∗ StFtok c 8 ∗ StFreg c 8 ∗ sendCells (xsendCell c) 8 0 ∗ StB m c (m ((c : Thread nD τ).loc main_v1)) true 8 8 0 ∗ Ow c (owedAt c 2 16 8 0) ∗ (∀ (r : PUnit), (StLd m c fv 25 24 ∗ StVs m c fs 0 24 16 0 ∗ recvCells (yrecvCell c) 9 ∗ StFtok c 9 ∗ StFreg c 9 ∗ sendCells (xsendCell c) 9 0 ∗ StB m c (m ((c : Thread nD τ).loc main_v1)) true 9 9 0 ∗ Ow c (owedAt c 2 16 9 0)) -∗ Q r))
      ⊢ wp frame (wpE (defs₀ (F := F)) 𝒱₀ (c : Thread nD τ) none) Set.univ (k0_part29 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q := by
  iintro ⟨#HP, HLd, HVs, HYr, HFt, HFg, HFs, HB, HOw, Hk⟩
  rw [k0_part29_eq_skeleton]; unfold k0_part29_skel
  simp only [Prog.lift, Prog.bind_op, Prog.bind_ret, Prog.pure_eq_ret, semSignalWord, semWaitWord, wp_deviceId]
  iapply (s_ld_wait (m := m) (K := K) (c := c) (fv := fv) (23 : Fin 32) 25 23 rfl (by decide) (owedAt c 2 16 8 0) (owedAt_lv_pos c _ _ _))
  isplitr; · iexact HP
  isplitl [HLd]; · iexact HLd
  isplitl [HOw]; · iexact HOw
  iintro ⟨HLd, HOw⟩
  iapply (s_vload (m := m) (c := c) (fv := fv) (23 : Fin 32) 25 24 rfl (by decide) (by decide))
  isplitl [HLd]; · iexact HLd
  iintro HLd
  iapply (s_vsload (m := m) (c := c) (fs := fs) (23 : Fin 32) 23 16 rfl (by decide))
  isplitl [HVs]; · iexact HVs
  iintro %_v HVs
  iapply (s_store (m := m) (c := c) (fs := fs) (23 : Fin 32) 23 16 rfl (by decide) _ rfl)
  isplitl [HVs]; · iexact HVs
  iintro HVs
  iapply (s_yrecv_wait (m := m) (K := K) (c := c) (fo := m ((c : Thread nD τ).loc main_v1)) (8 : Fin 16) 8 8 0 0 rfl (by decide))
  isplitr; · iexact HP
  isplitl [HYr]; · iexact HYr
  isplitl [HB]; · iexact HB
  isplitl [HOw]; · iexact HOw
  iintro ⟨HYr, HB, HOw⟩
  iapply (s_fw_start (m := m) (K := K) (c := c) (fo := m ((c : Thread nD τ).loc main_v1)) (8 : Fin 16) 9 8 0 0 rfl (by decide) (by decide) _ (devX k0_dev27 k0_dev27_lt k0_dev27_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  rw [wp_ret]; imodintro
  iapply Hk
  isplitl [HLd]; · iexact HLd
  isplitl [HVs]; · iexact HVs
  isplitl [HYr]; · iexact HYr
  isplitl [HFt]; · iexact HFt
  isplitl [HFg]; · iexact HFg
  isplitl [HFs]; · iexact HFs
  isplitl [HB]; · iexact HB
  iexact HOw

theorem part_30 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} {v19 : BitVec 32}  {Q : (PUnit) → sProp 𝕄} :
    iprop(Pers m K ∗ StLd m c fv 25 24 ∗ StVs m c fs 0 24 16 0 ∗ recvCells (yrecvCell c) 9 ∗ StB m c (m ((c : Thread nD τ).loc main_v1)) true 9 9 0 ∗ Ow c (owedAt c 2 16 9 0) ∗ (∀ (r : PUnit), (StLd m c fv 26 25 ∗ StVs m c fs 0 25 16 0 ∗ recvCells (yrecvCell c) 10 ∗ StB m c (m ((c : Thread nD τ).loc main_v1)) true 10 9 0 ∗ Ow c (owedAt c 2 16 9 0)) -∗ Q r))
      ⊢ wp frame (wpE (defs₀ (F := F)) 𝒱₀ (c : Thread nD τ) none) Set.univ (k0_part30 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v19) Q := by
  iintro ⟨#HP, HLd, HVs, HYr, HB, HOw, Hk⟩
  rw [k0_part30_eq_skeleton]; unfold k0_part30_skel
  simp only [Prog.lift, Prog.bind_op, Prog.bind_ret, Prog.pure_eq_ret, semSignalWord, semWaitWord, wp_deviceId]
  iapply (s_ld_start (m := m) (K := K) (c := c) (fv := fv) (25 : Fin 32) 25 24 rfl (by decide) (by decide))
  isplitr; · iexact HP
  isplitl [HLd]; · iexact HLd
  iintro HLd
  iapply (s_ld_wait (m := m) (K := K) (c := c) (fv := fv) (24 : Fin 32) 26 24 rfl (by decide) (owedAt c 2 16 9 0) (owedAt_lv_pos c _ _ _))
  isplitr; · iexact HP
  isplitl [HLd]; · iexact HLd
  isplitl [HOw]; · iexact HOw
  iintro ⟨HLd, HOw⟩
  iapply (s_vload (m := m) (c := c) (fv := fv) (24 : Fin 32) 26 25 rfl (by decide) (by decide))
  isplitl [HLd]; · iexact HLd
  iintro HLd
  iapply (s_vsload (m := m) (c := c) (fs := fs) (24 : Fin 32) 24 16 rfl (by decide))
  isplitl [HVs]; · iexact HVs
  iintro %_v HVs
  iapply (s_store (m := m) (c := c) (fs := fs) (24 : Fin 32) 24 16 rfl (by decide) _ rfl)
  isplitl [HVs]; · iexact HVs
  iintro HVs
  iapply (s_yrecv_wait (m := m) (K := K) (c := c) (fo := m ((c : Thread nD τ).loc main_v1)) (9 : Fin 16) 9 9 0 0 rfl (by decide))
  isplitr; · iexact HP
  isplitl [HYr]; · iexact HYr
  isplitl [HB]; · iexact HB
  isplitl [HOw]; · iexact HOw
  iintro ⟨HYr, HB, HOw⟩
  rw [wp_ret]; imodintro
  iapply Hk
  isplitl [HLd]; · iexact HLd
  isplitl [HVs]; · iexact HVs
  isplitl [HYr]; · iexact HYr
  isplitl [HB]; · iexact HB
  iexact HOw

theorem part_31 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v7 : BitVec 32} {v19 : BitVec 32}  {Q : (BitVec 32) → sProp 𝕄} :
    iprop(Pers m K ∗ StLd m c fv 26 25 ∗ StVs m c fs 0 25 16 0 ∗ StFtok c 9 ∗ StFreg c 9 ∗ sendCells (xsendCell c) 9 0 ∗ StB m c (m ((c : Thread nD τ).loc main_v1)) true 10 9 0 ∗ Ow c (owedAt c 2 16 9 0) ∗ (∀ (r : BitVec 32), (StLd m c fv 27 26 ∗ StVs m c fs 0 26 16 0 ∗ StFtok c 10 ∗ StFreg c 10 ∗ sendCells (xsendCell c) 10 0 ∗ StB m c (m ((c : Thread nD τ).loc main_v1)) true 10 10 0 ∗ Ow c (owedAt c 2 16 10 0)) -∗ Q r))
      ⊢ wp frame (wpE (defs₀ (F := F)) 𝒱₀ (c : Thread nD τ) none) Set.univ (k0_part31 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v7 v19) Q := by
  iintro ⟨#HP, HLd, HVs, HFt, HFg, HFs, HB, HOw, Hk⟩
  rw [k0_part31_eq_skeleton]; unfold k0_part31_skel
  simp only [Prog.lift, Prog.bind_op, Prog.bind_ret, Prog.pure_eq_ret, semSignalWord, semWaitWord, wp_deviceId]
  iapply (s_fw_start (m := m) (K := K) (c := c) (fo := m ((c : Thread nD τ).loc main_v1)) (9 : Fin 16) 10 9 0 0 rfl (by decide) (by decide) _ (devX k0_dev28 k0_dev28_lt k0_dev28_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  iapply (s_ld_start (m := m) (K := K) (c := c) (fv := fv) (26 : Fin 32) 26 25 rfl (by decide) (by decide))
  isplitr; · iexact HP
  isplitl [HLd]; · iexact HLd
  iintro HLd
  iapply (s_ld_wait (m := m) (K := K) (c := c) (fv := fv) (25 : Fin 32) 27 25 rfl (by decide) (owedAt c 2 16 10 0) (owedAt_lv_pos c _ _ _))
  isplitr; · iexact HP
  isplitl [HLd]; · iexact HLd
  isplitl [HOw]; · iexact HOw
  iintro ⟨HLd, HOw⟩
  iapply (s_vload (m := m) (c := c) (fv := fv) (25 : Fin 32) 27 26 rfl (by decide) (by decide))
  isplitl [HLd]; · iexact HLd
  iintro HLd
  iapply (s_vsload (m := m) (c := c) (fs := fs) (25 : Fin 32) 25 16 rfl (by decide))
  isplitl [HVs]; · iexact HVs
  iintro %_v HVs
  iapply (s_store (m := m) (c := c) (fs := fs) (25 : Fin 32) 25 16 rfl (by decide) _ rfl)
  isplitl [HVs]; · iexact HVs
  iintro HVs
  rw [wp_ret]; imodintro
  iapply Hk
  isplitl [HLd]; · iexact HLd
  isplitl [HVs]; · iexact HVs
  isplitl [HFt]; · iexact HFt
  isplitl [HFg]; · iexact HFg
  isplitl [HFs]; · iexact HFs
  isplitl [HB]; · iexact HB
  iexact HOw

theorem part_32 (K : Dev nD × Kind → ℕ) (c : Dev nD) (fv : Buf (Elt F) ((c : Thread nD τ).loc cc0_scratch1)) (fs : Buf (Elt F) ((c : Thread nD τ).loc cc0_scratch0))
    {v5 : BitVec 32} {v6 : BitVec 32} {v7 : BitVec 32} {v17 : BitVec 32} {v19 : BitVec 32} {v965 : BitVec 32}  {Q : (PUnit) → sProp 𝕄} :
    iprop(Pers m K ∗ StLd m c fv 27 26 ∗ recvCells (yrecvCell c) 10 ∗ StFtok c 10 ∗ StFreg c 10 ∗ sendCells (xsendCell c) 10 0 ∗ StB m c (m ((c : Thread nD τ).loc main_v1)) true 10 10 0 ∗ Ow c (owedAt c 2 16 10 0) ∗ (∀ (r : PUnit), (StLd m c fv 28 27 ∗ recvCells (yrecvCell c) 11 ∗ StFtok c 11 ∗ StFreg c 11 ∗ sendCells (xsendCell c) 11 0 ∗ StB m c (m ((c : Thread nD τ).loc main_v1)) true 11 11 0 ∗ Ow c (owedAt c 2 16 11 0)) -∗ Q r))
      ⊢ wp frame (wpE (defs₀ (F := F)) 𝒱₀ (c : Thread nD τ) none) Set.univ (k0_part32 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v6 v7 v17 v19 v965) Q := by
  iintro ⟨#HP, HLd, HYr, HFt, HFg, HFs, HB, HOw, Hk⟩
  rw [k0_part32_eq_skeleton]; unfold k0_part32_skel
  simp only [Prog.lift, Prog.bind_op, Prog.bind_ret, Prog.pure_eq_ret, semSignalWord, semWaitWord, wp_deviceId]
  iapply (s_yrecv_wait (m := m) (K := K) (c := c) (fo := m ((c : Thread nD τ).loc main_v1)) (10 : Fin 16) 10 10 0 0 rfl (by decide))
  isplitr; · iexact HP
  isplitl [HYr]; · iexact HYr
  isplitl [HB]; · iexact HB
  isplitl [HOw]; · iexact HOw
  iintro ⟨HYr, HB, HOw⟩
  iapply (s_fw_start (m := m) (K := K) (c := c) (fo := m ((c : Thread nD τ).loc main_v1)) (10 : Fin 16) 11 10 0 0 rfl (by decide) (by decide) _ (devX k0_dev29 k0_dev29_lt k0_dev29_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  iapply (s_ld_start (m := m) (K := K) (c := c) (fv := fv) (27 : Fin 32) 27 26 rfl (by decide) (by decide))
  isplitr; · iexact HP
  isplitl [HLd]; · iexact HLd
  iintro HLd
  iapply (s_ld_wait (m := m) (K := K) (c := c) (fv := fv) (26 : Fin 32) 28 26 rfl (by decide) (owedAt c 2 16 11 0) (owedAt_lv_pos c _ _ _))
  isplitr; · iexact HP
  isplitl [HLd]; · iexact HLd
  isplitl [HOw]; · iexact HOw
  iintro ⟨HLd, HOw⟩
  rw [wp_ret]; imodintro
  iapply Hk
  isplitl [HLd]; · iexact HLd
  isplitl [HYr]; · iexact HYr
  isplitl [HFt]; · iexact HFt
  isplitl [HFg]; · iexact HFg
  isplitl [HFs]; · iexact HFs
  isplitl [HB]; · iexact HB
  iexact HOw

end Cert.Kernel.AG

end
-- ==== Proof.KBodyP4.lean ====
import proofs.«900094_g7700000000000095_dist_ag_v7x_xy2x2_y_m16384_n1024_bf16_1_alg».proof.Proof.KStepsEdge
import proofs.«900094_g7700000000000095_dist_ag_v7x_xy2x2_y_m16384_n1024_bf16_1_alg».proof.Proof.KStepsHand
import proofs.«900094_g7700000000000095_dist_ag_v7x_xy2x2_y_m16384_n1024_bf16_1_alg».proof.Proof.KStepsLocal
import proofs.«900094_g7700000000000095_dist_ag_v7x_xy2x2_y_m16384_n1024_bf16_1_alg».proof.Proof.KStepsRemote
import proofs.«900094_g7700000000000095_dist_ag_v7x_xy2x2_y_m16384_n1024_bf16_1_alg».proof.Proof.KOwedLv
import proofs.«900094_g7700000000000095_dist_ag_v7x_xy2x2_y_m16384_n1024_bf16_1_alg».proof.Proof.KLibChain

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
theorem part_33 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (PUnit) → sProp 𝕄} :
    iprop(Pers m K ∗ StLd m c fv 28 27 ∗ StVs m c fs 0 26 16 0 ∗ recvCells (yrecvCell c) 11 ∗ StFtok c 11 ∗ StFreg c 11 ∗ sendCells (xsendCell c) 11 0 ∗ StB m c (m ((c : Thread nD τ).loc main_v1)) true 11 11 0 ∗ Ow c (owedAt c 2 16 11 0) ∗ (∀ (r : PUnit), (StLd m c fv 28 27 ∗ StVs m c fs 0 27 16 0 ∗ recvCells (yrecvCell c) 12 ∗ StFtok c 12 ∗ StFreg c 12 ∗ sendCells (xsendCell c) 12 0 ∗ StB m c (m ((c : Thread nD τ).loc main_v1)) true 12 12 0 ∗ Ow c (owedAt c 2 16 12 0)) -∗ Q r))
      ⊢ wp frame (wpE (defs₀ (F := F)) 𝒱₀ (c : Thread nD τ) none) Set.univ (k0_part33 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q := by
  iintro ⟨#HP, HLd, HVs, HYr, HFt, HFg, HFs, HB, HOw, Hk⟩
  rw [k0_part33_eq_skeleton]; unfold k0_part33_skel
  simp only [Prog.lift, Prog.bind_op, Prog.bind_ret, Prog.pure_eq_ret, semSignalWord, semWaitWord, wp_deviceId]
  iapply (s_vload (m := m) (c := c) (fv := fv) (26 : Fin 32) 28 27 rfl (by decide) (by decide))
  isplitl [HLd]; · iexact HLd
  iintro HLd
  iapply (s_vsload (m := m) (c := c) (fs := fs) (26 : Fin 32) 26 16 rfl (by decide))
  isplitl [HVs]; · iexact HVs
  iintro %_v HVs
  iapply (s_store (m := m) (c := c) (fs := fs) (26 : Fin 32) 26 16 rfl (by decide) _ rfl)
  isplitl [HVs]; · iexact HVs
  iintro HVs
  iapply (s_yrecv_wait (m := m) (K := K) (c := c) (fo := m ((c : Thread nD τ).loc main_v1)) (11 : Fin 16) 11 11 0 0 rfl (by decide))
  isplitr; · iexact HP
  isplitl [HYr]; · iexact HYr
  isplitl [HB]; · iexact HB
  isplitl [HOw]; · iexact HOw
  iintro ⟨HYr, HB, HOw⟩
  iapply (s_fw_start (m := m) (K := K) (c := c) (fo := m ((c : Thread nD τ).loc main_v1)) (11 : Fin 16) 12 11 0 0 rfl (by decide) (by decide) _ (devX k0_dev30 k0_dev30_lt k0_dev30_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  rw [wp_ret]; imodintro
  iapply Hk
  isplitl [HLd]; · iexact HLd
  isplitl [HVs]; · iexact HVs
  isplitl [HYr]; · iexact HYr
  isplitl [HFt]; · iexact HFt
  isplitl [HFg]; · iexact HFg
  isplitl [HFs]; · iexact HFs
  isplitl [HB]; · iexact HB
  iexact HOw

theorem part_34 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (Σ' (v1058 : BitVec 32), BitVec 32) → sProp 𝕄} :
    iprop(Pers m K ∗ StLd m c fv 28 27 ∗ StVs m c fs 0 27 16 0 ∗ recvCells (yrecvCell c) 12 ∗ StB m c (m ((c : Thread nD τ).loc main_v1)) true 12 12 0 ∗ Ow c (owedAt c 2 16 12 0) ∗ (∀ (v1058 : BitVec 32) (rl : BitVec 32), (StLd m c fv 29 28 ∗ StVs m c fs 0 28 16 0 ∗ recvCells (yrecvCell c) 13 ∗ StB m c (m ((c : Thread nD τ).loc main_v1)) true 13 12 0 ∗ Ow c (owedAt c 2 16 12 0)) -∗ Q ⟨v1058, rl⟩))
      ⊢ wp frame (wpE (defs₀ (F := F)) 𝒱₀ (c : Thread nD τ) none) Set.univ (k0_part34 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q := by
  iintro ⟨#HP, HLd, HVs, HYr, HB, HOw, Hk⟩
  rw [k0_part34_eq_skeleton]; unfold k0_part34_skel
  simp only [Prog.lift, Prog.bind_op, Prog.bind_ret, Prog.pure_eq_ret, semSignalWord, semWaitWord, wp_deviceId]
  iapply (s_ld_start (m := m) (K := K) (c := c) (fv := fv) (28 : Fin 32) 28 27 rfl (by decide) (by decide))
  isplitr; · iexact HP
  isplitl [HLd]; · iexact HLd
  iintro HLd
  iapply (s_ld_wait (m := m) (K := K) (c := c) (fv := fv) (27 : Fin 32) 29 27 rfl (by decide) (owedAt c 2 16 12 0) (owedAt_lv_pos c _ _ _))
  isplitr; · iexact HP
  isplitl [HLd]; · iexact HLd
  isplitl [HOw]; · iexact HOw
  iintro ⟨HLd, HOw⟩
  iapply (s_vload (m := m) (c := c) (fv := fv) (27 : Fin 32) 29 28 rfl (by decide) (by decide))
  isplitl [HLd]; · iexact HLd
  iintro HLd
  iapply (s_vsload (m := m) (c := c) (fs := fs) (27 : Fin 32) 27 16 rfl (by decide))
  isplitl [HVs]; · iexact HVs
  iintro %_v HVs
  iapply (s_store (m := m) (c := c) (fs := fs) (27 : Fin 32) 27 16 rfl (by decide) _ rfl)
  isplitl [HVs]; · iexact HVs
  iintro HVs
  iapply (s_yrecv_wait (m := m) (K := K) (c := c) (fo := m ((c : Thread nD τ).loc main_v1)) (12 : Fin 16) 12 12 0 0 rfl (by decide))
  isplitr; · iexact HP
  isplitl [HYr]; · iexact HYr
  isplitl [HB]; · iexact HB
  isplitl [HOw]; · iexact HOw
  iintro ⟨HYr, HB, HOw⟩
  rw [wp_ret]; imodintro
  iapply Hk
  isplitl [HLd]; · iexact HLd
  isplitl [HVs]; · iexact HVs
  isplitl [HYr]; · iexact HYr
  isplitl [HB]; · iexact HB
  iexact HOw

theorem part_35 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v19 : BitVec 32} {v1058 : BitVec 32} {c0_i32_814 : BitVec 32}  {Q : (PUnit) → sProp 𝕄} :
    iprop(Pers m K ∗ StLd m c fv 29 28 ∗ StVs m c fs 0 28 16 0 ∗ StFtok c 12 ∗ StFreg c 12 ∗ sendCells (xsendCell c) 12 0 ∗ StB m c (m ((c : Thread nD τ).loc main_v1)) true 13 12 0 ∗ Ow c (owedAt c 2 16 12 0) ∗ (∀ (r : PUnit), (StLd m c fv 30 29 ∗ StVs m c fs 0 29 16 0 ∗ StFtok c 13 ∗ StFreg c 13 ∗ sendCells (xsendCell c) 13 0 ∗ StB m c (m ((c : Thread nD τ).loc main_v1)) true 13 13 0 ∗ Ow c (owedAt c 2 16 13 0)) -∗ Q r))
      ⊢ wp frame (wpE (defs₀ (F := F)) 𝒱₀ (c : Thread nD τ) none) Set.univ (k0_part35 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v19 v1058 c0_i32_814) Q := by
  iintro ⟨#HP, HLd, HVs, HFt, HFg, HFs, HB, HOw, Hk⟩
  rw [k0_part35_eq_skeleton]; unfold k0_part35_skel
  simp only [Prog.lift, Prog.bind_op, Prog.bind_ret, Prog.pure_eq_ret, semSignalWord, semWaitWord, wp_deviceId]
  iapply (s_fw_start (m := m) (K := K) (c := c) (fo := m ((c : Thread nD τ).loc main_v1)) (12 : Fin 16) 13 12 0 0 rfl (by decide) (by decide) _ (devX k0_dev31 k0_dev31_lt k0_dev31_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  iapply (s_ld_start (m := m) (K := K) (c := c) (fv := fv) (29 : Fin 32) 29 28 rfl (by decide) (by decide))
  isplitr; · iexact HP
  isplitl [HLd]; · iexact HLd
  iintro HLd
  iapply (s_ld_wait (m := m) (K := K) (c := c) (fv := fv) (28 : Fin 32) 30 28 rfl (by decide) (owedAt c 2 16 13 0) (owedAt_lv_pos c _ _ _))
  isplitr; · iexact HP
  isplitl [HLd]; · iexact HLd
  isplitl [HOw]; · iexact HOw
  iintro ⟨HLd, HOw⟩
  iapply (s_vload (m := m) (c := c) (fv := fv) (28 : Fin 32) 30 29 rfl (by decide) (by decide))
  isplitl [HLd]; · iexact HLd
  iintro HLd
  iapply (s_vsload (m := m) (c := c) (fs := fs) (28 : Fin 32) 28 16 rfl (by decide))
  isplitl [HVs]; · iexact HVs
  iintro %_v HVs
  iapply (s_store (m := m) (c := c) (fs := fs) (28 : Fin 32) 28 16 rfl (by decide) _ rfl)
  isplitl [HVs]; · iexact HVs
  iintro HVs
  rw [wp_ret]; imodintro
  iapply Hk
  isplitl [HLd]; · iexact HLd
  isplitl [HVs]; · iexact HVs
  isplitl [HFt]; · iexact HFt
  isplitl [HFg]; · iexact HFg
  isplitl [HFs]; · iexact HFs
  isplitl [HB]; · iexact HB
  iexact HOw

theorem part_36 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32} {v17 : BitVec 32} {v19 : BitVec 32}  {Q : (Vec F S1x512x1024 .f32) → sProp 𝕄} :
    iprop(Pers m K ∗ StLd m c fv 30 29 ∗ recvCells (yrecvCell c) 13 ∗ StFtok c 13 ∗ StFreg c 13 ∗ sendCells (xsendCell c) 13 0 ∗ StB m c (m ((c : Thread nD τ).loc main_v1)) true 13 13 0 ∗ Ow c (owedAt c 2 16 13 0) ∗ (∀ (r : Vec F S1x512x1024 .f32), ⌜(k0_pay33 r) = pay (slotVal m c (29 : Fin 32))⌝ -∗ (StLd m c fv 31 30 ∗ recvCells (yrecvCell c) 14 ∗ StFtok c 14 ∗ StFreg c 14 ∗ sendCells (xsendCell c) 14 0 ∗ StB m c (m ((c : Thread nD τ).loc main_v1)) true 14 14 0 ∗ Ow c (owedAt c 2 16 14 0)) -∗ Q r))
      ⊢ wp frame (wpE (defs₀ (F := F)) 𝒱₀ (c : Thread nD τ) none) Set.univ (k0_part36 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7 v17 v19) Q := by
  iintro ⟨#HP, HLd, HYr, HFt, HFg, HFs, HB, HOw, Hk⟩
  rw [k0_part36_eq_skeleton]; unfold k0_part36_skel
  simp only [Prog.lift, Prog.bind_op, Prog.bind_ret, Prog.pure_eq_ret, semSignalWord, semWaitWord, wp_deviceId]
  iapply (s_yrecv_wait (m := m) (K := K) (c := c) (fo := m ((c : Thread nD τ).loc main_v1)) (13 : Fin 16) 13 13 0 0 rfl (by decide))
  isplitr; · iexact HP
  isplitl [HYr]; · iexact HYr
  isplitl [HB]; · iexact HB
  isplitl [HOw]; · iexact HOw
  iintro ⟨HYr, HB, HOw⟩
  iapply (s_fw_start (m := m) (K := K) (c := c) (fo := m ((c : Thread nD τ).loc main_v1)) (13 : Fin 16) 14 13 0 0 rfl (by decide) (by decide) _ (devX k0_dev32 k0_dev32_lt k0_dev32_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  iapply (s_ld_start (m := m) (K := K) (c := c) (fv := fv) (30 : Fin 32) 30 29 rfl (by decide) (by decide))
  isplitr; · iexact HP
  isplitl [HLd]; · iexact HLd
  iintro HLd
  iapply (s_ld_wait (m := m) (K := K) (c := c) (fv := fv) (29 : Fin 32) 31 29 rfl (by decide) (owedAt c 2 16 14 0) (owedAt_lv_pos c _ _ _))
  isplitr; · iexact HP
  isplitl [HLd]; · iexact HLd
  isplitl [HOw]; · iexact HOw
  iintro ⟨HLd, HOw⟩
  iapply (s_vload (m := m) (c := c) (fv := fv) (29 : Fin 32) 31 30 rfl (by decide) (by decide))
  isplitl [HLd]; · iexact HLd
  iintro HLd
  rw [wp_ret]; imodintro
  iapply Hk
  · ipureintro; rfl
  isplitl [HLd]; · iexact HLd
  isplitl [HYr]; · iexact HYr
  isplitl [HFt]; · iexact HFt
  isplitl [HFg]; · iexact HFg
  isplitl [HFs]; · iexact HFs
  isplitl [HB]; · iexact HB
  iexact HOw

theorem part_37 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32} (v1120 : Vec F S1x512x1024 .f32) (hw : (k0_pay33 v1120) = pay (slotVal m c (29 : Fin 32))) {Q : (PUnit) → sProp 𝕄} :
    iprop(Pers m K ∗ StVs m c fs 0 29 16 0 ∗ recvCells (yrecvCell c) 14 ∗ StFtok c 14 ∗ StFreg c 14 ∗ sendCells (xsendCell c) 14 0 ∗ StB m c (m ((c : Thread nD τ).loc main_v1)) true 14 14 0 ∗ Ow c (owedAt c 2 16 14 0) ∗ (∀ (r : PUnit), (StVs m c fs 0 30 16 0 ∗ recvCells (yrecvCell c) 15 ∗ StFtok c 15 ∗ StFreg c 15 ∗ sendCells (xsendCell c) 15 0 ∗ StB m c (m ((c : Thread nD τ).loc main_v1)) true 15 15 0 ∗ Ow c (owedAt c 2 16 15 0)) -∗ Q r))
      ⊢ wp frame (wpE (defs₀ (F := F)) 𝒱₀ (c : Thread nD τ) none) Set.univ (k0_part37 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19 v1120) Q := by
  iintro ⟨#HP, HVs, HYr, HFt, HFg, HFs, HB, HOw, Hk⟩
  rw [k0_part37_eq_skeleton]; unfold k0_part37_skel
  simp only [Prog.lift, Prog.bind_op, Prog.bind_ret, Prog.pure_eq_ret, semSignalWord, semWaitWord, wp_deviceId]
  iapply (s_vsload (m := m) (c := c) (fs := fs) (29 : Fin 32) 29 16 rfl (by decide))
  isplitl [HVs]; · iexact HVs
  iintro %_v HVs
  iapply (s_store (m := m) (c := c) (fs := fs) (29 : Fin 32) 29 16 rfl (by decide) _ hw)
  isplitl [HVs]; · iexact HVs
  iintro HVs
  iapply (s_yrecv_wait (m := m) (K := K) (c := c) (fo := m ((c : Thread nD τ).loc main_v1)) (14 : Fin 16) 14 14 0 0 rfl (by decide))
  isplitr; · iexact HP
  isplitl [HYr]; · iexact HYr
  isplitl [HB]; · iexact HB
  isplitl [HOw]; · iexact HOw
  iintro ⟨HYr, HB, HOw⟩
  iapply (s_fw_start (m := m) (K := K) (c := c) (fo := m ((c : Thread nD τ).loc main_v1)) (14 : Fin 16) 15 14 0 0 rfl (by decide) (by decide) _ (devX k0_dev33 k0_dev33_lt k0_dev33_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  rw [wp_ret]; imodintro
  iapply Hk
  isplitl [HVs]; · iexact HVs
  isplitl [HYr]; · iexact HYr
  isplitl [HFt]; · iexact HFt
  isplitl [HFg]; · iexact HFg
  isplitl [HFs]; · iexact HFs
  isplitl [HB]; · iexact HB
  iexact HOw

theorem part_38 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (Σ' (v1182 : BitVec 32), BitVec 32) → sProp 𝕄} :
    iprop(Pers m K ∗ StLd m c fv 31 30 ∗ StVs m c fs 0 30 16 0 ∗ recvCells (yrecvCell c) 15 ∗ StB m c (m ((c : Thread nD τ).loc main_v1)) true 15 15 0 ∗ Ow c (owedAt c 2 16 15 0) ∗ (∀ (v1182 : BitVec 32) (rl : BitVec 32), (StLd m c fv 32 31 ∗ StVs m c fs 0 31 16 0 ∗ recvCells (yrecvCell c) 16 ∗ StB m c (m ((c : Thread nD τ).loc main_v1)) true 16 15 0 ∗ Ow c (owedAt c 2 16 15 0)) -∗ Q ⟨v1182, rl⟩))
      ⊢ wp frame (wpE (defs₀ (F := F)) 𝒱₀ (c : Thread nD τ) none) Set.univ (k0_part38 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q := by
  iintro ⟨#HP, HLd, HVs, HYr, HB, HOw, Hk⟩
  rw [k0_part38_eq_skeleton]; unfold k0_part38_skel
  simp only [Prog.lift, Prog.bind_op, Prog.bind_ret, Prog.pure_eq_ret, semSignalWord, semWaitWord, wp_deviceId]
  iapply (s_ld_start (m := m) (K := K) (c := c) (fv := fv) (31 : Fin 32) 31 30 rfl (by decide) (by decide))
  isplitr; · iexact HP
  isplitl [HLd]; · iexact HLd
  iintro HLd
  iapply (s_ld_wait (m := m) (K := K) (c := c) (fv := fv) (30 : Fin 32) 32 30 rfl (by decide) (owedAt c 2 16 15 0) (owedAt_lv_pos c _ _ _))
  isplitr; · iexact HP
  isplitl [HLd]; · iexact HLd
  isplitl [HOw]; · iexact HOw
  iintro ⟨HLd, HOw⟩
  iapply (s_vload (m := m) (c := c) (fv := fv) (30 : Fin 32) 32 31 rfl (by decide) (by decide))
  isplitl [HLd]; · iexact HLd
  iintro HLd
  iapply (s_vsload (m := m) (c := c) (fs := fs) (30 : Fin 32) 30 16 rfl (by decide))
  isplitl [HVs]; · iexact HVs
  iintro %_v HVs
  iapply (s_store (m := m) (c := c) (fs := fs) (30 : Fin 32) 30 16 rfl (by decide) _ rfl)
  isplitl [HVs]; · iexact HVs
  iintro HVs
  iapply (s_yrecv_wait (m := m) (K := K) (c := c) (fo := m ((c : Thread nD τ).loc main_v1)) (15 : Fin 16) 15 15 0 0 rfl (by decide))
  isplitr; · iexact HP
  isplitl [HYr]; · iexact HYr
  isplitl [HB]; · iexact HB
  isplitl [HOw]; · iexact HOw
  iintro ⟨HYr, HB, HOw⟩
  rw [wp_ret]; imodintro
  iapply Hk
  isplitl [HLd]; · iexact HLd
  isplitl [HVs]; · iexact HVs
  isplitl [HYr]; · iexact HYr
  isplitl [HB]; · iexact HB
  iexact HOw

end Cert.Kernel.AG

end
-- ==== Proof.KBodyP5.lean ====
import proofs.«900094_g7700000000000095_dist_ag_v7x_xy2x2_y_m16384_n1024_bf16_1_alg».proof.Proof.KStepsEdge
import proofs.«900094_g7700000000000095_dist_ag_v7x_xy2x2_y_m16384_n1024_bf16_1_alg».proof.Proof.KStepsHand
import proofs.«900094_g7700000000000095_dist_ag_v7x_xy2x2_y_m16384_n1024_bf16_1_alg».proof.Proof.KStepsLocal
import proofs.«900094_g7700000000000095_dist_ag_v7x_xy2x2_y_m16384_n1024_bf16_1_alg».proof.Proof.KStepsRemote
import proofs.«900094_g7700000000000095_dist_ag_v7x_xy2x2_y_m16384_n1024_bf16_1_alg».proof.Proof.KOwedLv
import proofs.«900094_g7700000000000095_dist_ag_v7x_xy2x2_y_m16384_n1024_bf16_1_alg».proof.Proof.KLibChain

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
theorem part_39 (K : Dev nD × Kind → ℕ) (c : Dev nD) (fv : Buf (Elt F) ((c : Thread nD τ).loc cc0_scratch1)) (fs : Buf (Elt F) ((c : Thread nD τ).loc cc0_scratch0))
    {v5 : BitVec 32} {v19 : BitVec 32} {v1182 : BitVec 32} {v1183 : BitVec 32}  {Q : (PUnit) → sProp 𝕄} :
    iprop(Pers m K ∗ StLd m c fv 32 31 ∗ StVs m c fs 0 31 16 0 ∗ sendCells (ysendCell c) 16 0 ∗ StFtok c 15 ∗ StFreg c 15 ∗ sendCells (xsendCell c) 15 0 ∗ StB m c (m ((c : Thread nD τ).loc main_v1)) true 16 15 0 ∗ StSt m c (m ((c : Thread nD τ).loc main_v1)) 0 ∗ Ow c (owedAt c 2 16 15 0) ∗ (∀ (r : PUnit), (StLd m c fv 32 32 ∗ StVs m c fs 1 32 16 2 ∗ sendCells (ysendCell c) 16 2 ∗ StFtok c 16 ∗ StFreg c 16 ∗ sendCells (xsendCell c) 16 0 ∗ StB m c (m ((c : Thread nD τ).loc main_v1)) true 16 16 0 ∗ StSt m c (m ((c : Thread nD τ).loc main_v1)) 1 ∗ Ow c (owedAt c 2 16 16 0)) -∗ Q r))
      ⊢ wp frame (wpE (defs₀ (F := F)) 𝒱₀ (c : Thread nD τ) none) Set.univ (k0_part39 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v19 v1182 v1183) Q := by
  iintro ⟨#HP, HLd, HVs, HYs, HFt, HFg, HFs, HB, HSt, HOw, Hk⟩
  rw [k0_part39_eq_skeleton]; unfold k0_part39_skel
  simp only [Prog.lift, Prog.bind_op, Prog.bind_ret, Prog.pure_eq_ret, semSignalWord, semWaitWord, wp_deviceId]
  iapply (s_fw_start (m := m) (K := K) (c := c) (fo := m ((c : Thread nD τ).loc main_v1)) (15 : Fin 16) 16 15 0 0 rfl (by decide) (by decide) _ (devX k0_dev34 k0_dev34_lt k0_dev34_eq c))
  isplitr; · iexact HP
  isplitl [HB]; · iexact HB
  isplitl [HFt]; · iexact HFt
  isplitl [HFg]; · iexact HFg
  isplitl [HFs]; · iexact HFs
  isplitl [HOw]; · iexact HOw
  iintro ⟨HB, HFt, HFg, HFs, HOw⟩
  iapply (s_ld_wait (m := m) (K := K) (c := c) (fv := fv) (31 : Fin 32) 32 31 rfl (by decide) (owedAt c 2 16 16 0) (owedAt_lv_pos c _ _ _))
  isplitr; · iexact HP
  isplitl [HLd]; · iexact HLd
  isplitl [HOw]; · iexact HOw
  iintro ⟨HLd, HOw⟩
  iapply (s_vload (m := m) (c := c) (fv := fv) (31 : Fin 32) 32 32 rfl (by decide) (by decide))
  isplitl [HLd]; · iexact HLd
  iintro HLd
  iapply (s_vsload (m := m) (c := c) (fs := fs) (31 : Fin 32) 31 16 rfl (by decide))
  isplitl [HVs]; · iexact HVs
  iintro %_v HVs
  iapply (s_store (m := m) (c := c) (fs := fs) (31 : Fin 32) 31 16 rfl (by decide) _ rfl)
  isplitl [HVs]; · iexact HVs
  iintro HVs
  iapply (s_st_start (m := m) (K := K) (c := c) (fs := fs) (fo := m ((c : Thread nD τ).loc main_v1)))
  isplitr; · iexact HP
  isplitl [HVs]; · iexact HVs
  isplitl [HSt]; · iexact HSt
  iintro ⟨HVs, HSt⟩
  iapply (s_ysend_wait (m := m) (K := K) (c := c) (fs := fs) (0 : Fin 16) 1 0 0 rfl (Or.inl rfl))
  isplitr; · iexact HP
  isplitl [HYs]; · iexact HYs
  isplitl [HVs]; · iexact HVs
  isplitl [HOw]; · iexact HOw
  iintro ⟨HYs, HVs, HOw⟩
  iapply (s_ysend_wait (m := m) (K := K) (c := c) (fs := fs) (1 : Fin 16) 1 1 0 rfl (Or.inl rfl))
  isplitr; · iexact HP
  isplitl [HYs]; · iexact HYs
  isplitl [HVs]; · iexact HVs
  isplitl [HOw]; · iexact HOw
  iintro ⟨HYs, HVs, HOw⟩
  rw [wp_ret]; imodintro
  iapply Hk
  isplitl [HLd]; · iexact HLd
  isplitl [HVs]; · iexact HVs
  isplitl [HYs]; · iexact HYs
  isplitl [HFt]; · iexact HFt
  isplitl [HFg]; · iexact HFg
  isplitl [HFs]; · iexact HFs
  isplitl [HB]; · iexact HB
  isplitl [HSt]; · iexact HSt
  iexact HOw

theorem part_40 (K : Dev nD × Kind → ℕ) (c : Dev nD) (fv : Buf (Elt F) ((c : Thread nD τ).loc cc0_scratch1)) (fs : Buf (Elt F) ((c : Thread nD τ).loc cc0_scratch0))
      {Q : (PUnit) → sProp 𝕄} :
    iprop(Pers m K ∗ StVs m c fs 1 32 16 2 ∗ sendCells (ysendCell c) 16 2 ∗ Ow c (owedAt c 2 16 16 0) ∗ (∀ (r : PUnit), (StVs m c fs 1 32 16 8 ∗ sendCells (ysendCell c) 16 8 ∗ Ow c (owedAt c 2 16 16 0)) -∗ Q r))
      ⊢ wp frame (wpE (defs₀ (F := F)) 𝒱₀ (c : Thread nD τ) none) Set.univ (k0_part40 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c) Q := by
  iintro ⟨#HP, HVs, HYs, HOw, Hk⟩
  rw [k0_part40_eq_skeleton]; unfold k0_part40_skel
  simp only [Prog.lift, Prog.bind_op, Prog.bind_ret, Prog.pure_eq_ret, semSignalWord, semWaitWord, wp_deviceId]
  iapply (s_ysend_wait (m := m) (K := K) (c := c) (fs := fs) (2 : Fin 16) 1 2 0 rfl (Or.inl rfl))
  isplitr; · iexact HP
  isplitl [HYs]; · iexact HYs
  isplitl [HVs]; · iexact HVs
  isplitl [HOw]; · iexact HOw
  iintro ⟨HYs, HVs, HOw⟩
  iapply (s_ysend_wait (m := m) (K := K) (c := c) (fs := fs) (3 : Fin 16) 1 3 0 rfl (Or.inl rfl))
  isplitr; · iexact HP
  isplitl [HYs]; · iexact HYs
  isplitl [HVs]; · iexact HVs
  isplitl [HOw]; · iexact HOw
  iintro ⟨HYs, HVs, HOw⟩
  iapply (s_ysend_wait (m := m) (K := K) (c := c) (fs := fs) (4 : Fin 16) 1 4 0 rfl (Or.inl rfl))
  isplitr; · iexact HP
  isplitl [HYs]; · iexact HYs
  isplitl [HVs]; · iexact HVs
  isplitl [HOw]; · iexact HOw
  iintro ⟨HYs, HVs, HOw⟩
  iapply (s_ysend_wait (m := m) (K := K) (c := c) (fs := fs) (5 : Fin 16) 1 5 0 rfl (Or.inl rfl))
  isplitr; · iexact HP
  isplitl [HYs]; · iexact HYs
  isplitl [HVs]; · iexact HVs
  isplitl [HOw]; · iexact HOw
  iintro ⟨HYs, HVs, HOw⟩
  iapply (s_ysend_wait (m := m) (K := K) (c := c) (fs := fs) (6 : Fin 16) 1 6 0 rfl (Or.inl rfl))
  isplitr; · iexact HP
  isplitl [HYs]; · iexact HYs
  isplitl [HVs]; · iexact HVs
  isplitl [HOw]; · iexact HOw
  iintro ⟨HYs, HVs, HOw⟩
  iapply (s_ysend_wait (m := m) (K := K) (c := c) (fs := fs) (7 : Fin 16) 1 7 0 rfl (Or.inl rfl))
  isplitr; · iexact HP
  isplitl [HYs]; · iexact HYs
  isplitl [HVs]; · iexact HVs
  isplitl [HOw]; · iexact HOw
  iintro ⟨HYs, HVs, HOw⟩
  rw [wp_ret]; imodintro
  iapply Hk
  isplitl [HVs]; · iexact HVs
  isplitl [HYs]; · iexact HYs
  iexact HOw

theorem part_41 (K : Dev nD × Kind → ℕ) (c : Dev nD) (fv : Buf (Elt F) ((c : Thread nD τ).loc cc0_scratch1)) (fs : Buf (Elt F) ((c : Thread nD τ).loc cc0_scratch0))
      {Q : (PUnit) → sProp 𝕄} :
    iprop(Pers m K ∗ StVs m c fs 1 32 16 8 ∗ sendCells (ysendCell c) 16 8 ∗ Ow c (owedAt c 2 16 16 0) ∗ (∀ (r : PUnit), (StVs m c fs 1 32 16 14 ∗ sendCells (ysendCell c) 16 14 ∗ Ow c (owedAt c 2 16 16 0)) -∗ Q r))
      ⊢ wp frame (wpE (defs₀ (F := F)) 𝒱₀ (c : Thread nD τ) none) Set.univ (k0_part41 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c) Q := by
  iintro ⟨#HP, HVs, HYs, HOw, Hk⟩
  rw [k0_part41_eq_skeleton]; unfold k0_part41_skel
  simp only [Prog.lift, Prog.bind_op, Prog.bind_ret, Prog.pure_eq_ret, semSignalWord, semWaitWord, wp_deviceId]
  iapply (s_ysend_wait (m := m) (K := K) (c := c) (fs := fs) (8 : Fin 16) 1 8 0 rfl (Or.inl rfl))
  isplitr; · iexact HP
  isplitl [HYs]; · iexact HYs
  isplitl [HVs]; · iexact HVs
  isplitl [HOw]; · iexact HOw
  iintro ⟨HYs, HVs, HOw⟩
  iapply (s_ysend_wait (m := m) (K := K) (c := c) (fs := fs) (9 : Fin 16) 1 9 0 rfl (Or.inl rfl))
  isplitr; · iexact HP
  isplitl [HYs]; · iexact HYs
  isplitl [HVs]; · iexact HVs
  isplitl [HOw]; · iexact HOw
  iintro ⟨HYs, HVs, HOw⟩
  iapply (s_ysend_wait (m := m) (K := K) (c := c) (fs := fs) (10 : Fin 16) 1 10 0 rfl (Or.inl rfl))
  isplitr; · iexact HP
  isplitl [HYs]; · iexact HYs
  isplitl [HVs]; · iexact HVs
  isplitl [HOw]; · iexact HOw
  iintro ⟨HYs, HVs, HOw⟩
  iapply (s_ysend_wait (m := m) (K := K) (c := c) (fs := fs) (11 : Fin 16) 1 11 0 rfl (Or.inl rfl))
  isplitr; · iexact HP
  isplitl [HYs]; · iexact HYs
  isplitl [HVs]; · iexact HVs
  isplitl [HOw]; · iexact HOw
  iintro ⟨HYs, HVs, HOw⟩
  iapply (s_ysend_wait (m := m) (K := K) (c := c) (fs := fs) (12 : Fin 16) 1 12 0 rfl (Or.inl rfl))
  isplitr; · iexact HP
  isplitl [HYs]; · iexact HYs
  isplitl [HVs]; · iexact HVs
  isplitl [HOw]; · iexact HOw
  iintro ⟨HYs, HVs, HOw⟩
  iapply (s_ysend_wait (m := m) (K := K) (c := c) (fs := fs) (13 : Fin 16) 1 13 0 rfl (Or.inl rfl))
  isplitr; · iexact HP
  isplitl [HYs]; · iexact HYs
  isplitl [HVs]; · iexact HVs
  isplitl [HOw]; · iexact HOw
  iintro ⟨HYs, HVs, HOw⟩
  rw [wp_ret]; imodintro
  iapply Hk
  isplitl [HVs]; · iexact HVs
  isplitl [HYs]; · iexact HYs
  iexact HOw

end Cert.Kernel.AG

end
-- ==== Proof.KBodyP6.lean ====
import proofs.«900094_g7700000000000095_dist_ag_v7x_xy2x2_y_m16384_n1024_bf16_1_alg».proof.Proof.KStepsEdge
import proofs.«900094_g7700000000000095_dist_ag_v7x_xy2x2_y_m16384_n1024_bf16_1_alg».proof.Proof.KStepsHand
import proofs.«900094_g7700000000000095_dist_ag_v7x_xy2x2_y_m16384_n1024_bf16_1_alg».proof.Proof.KStepsLocal
import proofs.«900094_g7700000000000095_dist_ag_v7x_xy2x2_y_m16384_n1024_bf16_1_alg».proof.Proof.KStepsRemote
import proofs.«900094_g7700000000000095_dist_ag_v7x_xy2x2_y_m16384_n1024_bf16_1_alg».proof.Proof.KOwedLv
import proofs.«900094_g7700000000000095_dist_ag_v7x_xy2x2_y_m16384_n1024_bf16_1_alg».proof.Proof.KLibChain

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
theorem part_42 (K : Dev nD × Kind → ℕ) (c : Dev nD) (fv : Buf (Elt F) ((c : Thread nD τ).loc cc0_scratch1)) (fs : Buf (Elt F) ((c : Thread nD τ).loc cc0_scratch0))
      {Q : (PUnit) → sProp 𝕄} :
    iprop(Pers m K ∗ StVs m c fs 1 32 16 14 ∗ sendCells (ysendCell c) 16 14 ∗ sendCells (xsendCell c) 16 0 ∗ StB m c (m ((c : Thread nD τ).loc main_v1)) true 16 16 0 ∗ Ow c (owedAt c 2 16 16 0) ∗ (∀ (r : PUnit), (StVs m c fs 1 32 16 16 ∗ sendCells (ysendCell c) 16 16 ∗ sendCells (xsendCell c) 16 4 ∗ StB m c (m ((c : Thread nD τ).loc main_v1)) true 16 16 4 ∗ Ow c (owedAt c 2 16 16 0)) -∗ Q r))
      ⊢ wp frame (wpE (defs₀ (F := F)) 𝒱₀ (c : Thread nD τ) none) Set.univ (k0_part42 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c) Q := by
  iintro ⟨#HP, HVs, HYs, HFs, HB, HOw, Hk⟩
  rw [k0_part42_eq_skeleton]; unfold k0_part42_skel
  simp only [Prog.lift, Prog.bind_op, Prog.bind_ret, Prog.pure_eq_ret, semSignalWord, semWaitWord, wp_deviceId]
  iapply (s_ysend_wait (m := m) (K := K) (c := c) (fs := fs) (14 : Fin 16) 1 14 0 rfl (Or.inl rfl))
  isplitr; · iexact HP
  isplitl [HYs]; · iexact HYs
  isplitl [HVs]; · iexact HVs
  isplitl [HOw]; · iexact HOw
  iintro ⟨HYs, HVs, HOw⟩
  iapply (s_ysend_wait (m := m) (K := K) (c := c) (fs := fs) (15 : Fin 16) 1 15 0 rfl (Or.inl rfl))
  isplitr; · iexact HP
  isplitl [HYs]; · iexact HYs
  isplitl [HVs]; · iexact HVs
  isplitl [HOw]; · iexact HOw
  iintro ⟨HYs, HVs, HOw⟩
  iapply (s_xsend_wait (m := m) (K := K) (c := c) (fo := m ((c : Thread nD τ).loc main_v1)) (0 : Fin 16) 0 0 rfl)
  isplitr; · iexact HP
  isplitl [HFs]; · iexact HFs
  isplitl [HB]; · iexact HB
  isplitl [HOw]; · iexact HOw
  iintro ⟨HFs, HB, HOw⟩
  iapply (s_xsend_wait (m := m) (K := K) (c := c) (fo := m ((c : Thread nD τ).loc main_v1)) (1 : Fin 16) 1 0 rfl)
  isplitr; · iexact HP
  isplitl [HFs]; · iexact HFs
  isplitl [HB]; · iexact HB
  isplitl [HOw]; · iexact HOw
  iintro ⟨HFs, HB, HOw⟩
  iapply (s_xsend_wait (m := m) (K := K) (c := c) (fo := m ((c : Thread nD τ).loc main_v1)) (2 : Fin 16) 2 0 rfl)
  isplitr; · iexact HP
  isplitl [HFs]; · iexact HFs
  isplitl [HB]; · iexact HB
  isplitl [HOw]; · iexact HOw
  iintro ⟨HFs, HB, HOw⟩
  iapply (s_xsend_wait (m := m) (K := K) (c := c) (fo := m ((c : Thread nD τ).loc main_v1)) (3 : Fin 16) 3 0 rfl)
  isplitr; · iexact HP
  isplitl [HFs]; · iexact HFs
  isplitl [HB]; · iexact HB
  isplitl [HOw]; · iexact HOw
  iintro ⟨HFs, HB, HOw⟩
  rw [wp_ret]; imodintro
  iapply Hk
  isplitl [HVs]; · iexact HVs
  isplitl [HYs]; · iexact HYs
  isplitl [HFs]; · iexact HFs
  isplitl [HB]; · iexact HB
  iexact HOw

end Cert.Kernel.AG

end
-- ==== Proof.KBodyP7.lean ====
import proofs.«900094_g7700000000000095_dist_ag_v7x_xy2x2_y_m16384_n1024_bf16_1_alg».proof.Proof.KStepsEdge
import proofs.«900094_g7700000000000095_dist_ag_v7x_xy2x2_y_m16384_n1024_bf16_1_alg».proof.Proof.KStepsHand
import proofs.«900094_g7700000000000095_dist_ag_v7x_xy2x2_y_m16384_n1024_bf16_1_alg».proof.Proof.KStepsLocal
import proofs.«900094_g7700000000000095_dist_ag_v7x_xy2x2_y_m16384_n1024_bf16_1_alg».proof.Proof.KStepsRemote
import proofs.«900094_g7700000000000095_dist_ag_v7x_xy2x2_y_m16384_n1024_bf16_1_alg».proof.Proof.KOwedLv
import proofs.«900094_g7700000000000095_dist_ag_v7x_xy2x2_y_m16384_n1024_bf16_1_alg».proof.Proof.KLibChain

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
theorem part_43 (K : Dev nD × Kind → ℕ) (c : Dev nD) (fv : Buf (Elt F) ((c : Thread nD τ).loc cc0_scratch1)) (fs : Buf (Elt F) ((c : Thread nD τ).loc cc0_scratch0))
      {Q : (PUnit) → sProp 𝕄} :
    iprop(Pers m K ∗ sendCells (xsendCell c) 16 4 ∗ StB m c (m ((c : Thread nD τ).loc main_v1)) true 16 16 4 ∗ Ow c (owedAt c 2 16 16 0) ∗ (∀ (r : PUnit), (sendCells (xsendCell c) 16 10 ∗ StB m c (m ((c : Thread nD τ).loc main_v1)) true 16 16 10 ∗ Ow c (owedAt c 2 16 16 0)) -∗ Q r))
      ⊢ wp frame (wpE (defs₀ (F := F)) 𝒱₀ (c : Thread nD τ) none) Set.univ (k0_part43 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c) Q := by
  rw [k0_part43_eq_skeleton]; unfold k0_part43_skel
  simp only [Prog.lift, Prog.bind_op, Prog.bind_ret, Prog.pure_eq_ret, semSignalWord, semWaitWord, wp_deviceId]
  refine chain_3_3 (s_xsend_wait (m := m) (K := K) (c := c) (fo := m ((c : Thread nD τ).loc main_v1)) (4 : Fin 16) 4 0 rfl) ?_
  refine chain_3_3 (s_xsend_wait (m := m) (K := K) (c := c) (fo := m ((c : Thread nD τ).loc main_v1)) (5 : Fin 16) 5 0 rfl) ?_
  refine chain_3_3 (s_xsend_wait (m := m) (K := K) (c := c) (fo := m ((c : Thread nD τ).loc main_v1)) (6 : Fin 16) 6 0 rfl) ?_
  refine chain_3_3 (s_xsend_wait (m := m) (K := K) (c := c) (fo := m ((c : Thread nD τ).loc main_v1)) (7 : Fin 16) 7 0 rfl) ?_
  refine chain_3_3 (s_xsend_wait (m := m) (K := K) (c := c) (fo := m ((c : Thread nD τ).loc main_v1)) (8 : Fin 16) 8 0 rfl) ?_
  refine chain_3_3 (s_xsend_wait (m := m) (K := K) (c := c) (fo := m ((c : Thread nD τ).loc main_v1)) (9 : Fin 16) 9 0 rfl) ?_
  iintro ⟨#HP, HFs, HB, HOw, Hk⟩
  rw [wp_ret]; imodintro
  iapply Hk
  isplitl [HFs]; · iexact HFs
  isplitl [HB]; · iexact HB
  iexact HOw

end Cert.Kernel.AG

end
-- ==== Proof.KBodyP8.lean ====
import proofs.«900094_g7700000000000095_dist_ag_v7x_xy2x2_y_m16384_n1024_bf16_1_alg».proof.Proof.KStepsEdge
import proofs.«900094_g7700000000000095_dist_ag_v7x_xy2x2_y_m16384_n1024_bf16_1_alg».proof.Proof.KStepsHand
import proofs.«900094_g7700000000000095_dist_ag_v7x_xy2x2_y_m16384_n1024_bf16_1_alg».proof.Proof.KStepsLocal
import proofs.«900094_g7700000000000095_dist_ag_v7x_xy2x2_y_m16384_n1024_bf16_1_alg».proof.Proof.KStepsRemote
import proofs.«900094_g7700000000000095_dist_ag_v7x_xy2x2_y_m16384_n1024_bf16_1_alg».proof.Proof.KOwedLv
import proofs.«900094_g7700000000000095_dist_ag_v7x_xy2x2_y_m16384_n1024_bf16_1_alg».proof.Proof.KLibChain

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
theorem part_44 (K : Dev nD × Kind → ℕ) (c : Dev nD) (fv : Buf (Elt F) ((c : Thread nD τ).loc cc0_scratch1)) (fs : Buf (Elt F) ((c : Thread nD τ).loc cc0_scratch0))
      {Q : (PUnit) → sProp 𝕄} :
    iprop(Pers m K ∗ sendCells (xsendCell c) 16 10 ∗ StB m c (m ((c : Thread nD τ).loc main_v1)) true 16 16 10 ∗ Ow c (owedAt c 2 16 16 0) ∗ (∀ (r : PUnit), (sendCells (xsendCell c) 16 16 ∗ StB m c (m ((c : Thread nD τ).loc main_v1)) true 16 16 16 ∗ Ow c (owedAt c 2 16 16 0)) -∗ Q r))
      ⊢ wp frame (wpE (defs₀ (F := F)) 𝒱₀ (c : Thread nD τ) none) Set.univ (k0_part44 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c) Q := by
  rw [k0_part44_eq_skeleton]; unfold k0_part44_skel
  simp only [Prog.lift, Prog.bind_op, Prog.bind_ret, Prog.pure_eq_ret, semSignalWord, semWaitWord, wp_deviceId]
  refine chain_3_3 (s_xsend_wait (m := m) (K := K) (c := c) (fo := m ((c : Thread nD τ).loc main_v1)) (10 : Fin 16) 10 0 rfl) ?_
  refine chain_3_3 (s_xsend_wait (m := m) (K := K) (c := c) (fo := m ((c : Thread nD τ).loc main_v1)) (11 : Fin 16) 11 0 rfl) ?_
  refine chain_3_3 (s_xsend_wait (m := m) (K := K) (c := c) (fo := m ((c : Thread nD τ).loc main_v1)) (12 : Fin 16) 12 0 rfl) ?_
  refine chain_3_3 (s_xsend_wait (m := m) (K := K) (c := c) (fo := m ((c : Thread nD τ).loc main_v1)) (13 : Fin 16) 13 0 rfl) ?_
  refine chain_3_3 (s_xsend_wait (m := m) (K := K) (c := c) (fo := m ((c : Thread nD τ).loc main_v1)) (14 : Fin 16) 14 0 rfl) ?_
  refine chain_3_3 (s_xsend_wait (m := m) (K := K) (c := c) (fo := m ((c : Thread nD τ).loc main_v1)) (15 : Fin 16) 15 0 rfl) ?_
  iintro ⟨#HP, HFs, HB, HOw, Hk⟩
  rw [wp_ret]; imodintro
  iapply Hk
  isplitl [HFs]; · iexact HFs
  isplitl [HB]; · iexact HB
  iexact HOw

end Cert.Kernel.AG

end
-- ==== Proof.KBodyP9.lean ====
import proofs.«900094_g7700000000000095_dist_ag_v7x_xy2x2_y_m16384_n1024_bf16_1_alg».proof.Proof.KStepsEdge
import proofs.«900094_g7700000000000095_dist_ag_v7x_xy2x2_y_m16384_n1024_bf16_1_alg».proof.Proof.KStepsHand
import proofs.«900094_g7700000000000095_dist_ag_v7x_xy2x2_y_m16384_n1024_bf16_1_alg».proof.Proof.KStepsLocal
import proofs.«900094_g7700000000000095_dist_ag_v7x_xy2x2_y_m16384_n1024_bf16_1_alg».proof.Proof.KStepsRemote
import proofs.«900094_g7700000000000095_dist_ag_v7x_xy2x2_y_m16384_n1024_bf16_1_alg».proof.Proof.KOwedLv
import proofs.«900094_g7700000000000095_dist_ag_v7x_xy2x2_y_m16384_n1024_bf16_1_alg».proof.Proof.KLibChain

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
theorem part_45 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32}  {Q : (PUnit) → sProp 𝕄} :
    iprop(Pers m K ∗ recvCells (xrecvCell c) 0 ∗ StC m c (m ((c : Thread nD τ).loc main_v1)) true 0 ∗ Ow c (owedAt c 2 16 16 0) ∗ (∀ (r : PUnit), (recvCells (xrecvCell c) 3 ∗ StC m c (m ((c : Thread nD τ).loc main_v1)) true 3 ∗ Ow c (owedAt c 2 16 16 0)) -∗ Q r))
      ⊢ wp frame (wpE (defs₀ (F := F)) 𝒱₀ (c : Thread nD τ) none) Set.univ (k0_part45 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7) Q := by
  rw [k0_part45_eq_skeleton]; unfold k0_part45_skel
  simp only [Prog.lift, Prog.bind_op, Prog.bind_ret, Prog.pure_eq_ret, semSignalWord, semWaitWord, wp_deviceId]
  refine chain_3_3 (s_xrecv_wait (m := m) (K := K) (c := c) (fo := m ((c : Thread nD τ).loc main_v1)) (0 : Fin 16) 0 0 rfl) ?_
  refine chain_3_3 (s_xrecv_wait (m := m) (K := K) (c := c) (fo := m ((c : Thread nD τ).loc main_v1)) (1 : Fin 16) 1 0 rfl) ?_
  refine chain_3_3 (s_xrecv_wait (m := m) (K := K) (c := c) (fo := m ((c : Thread nD τ).loc main_v1)) (2 : Fin 16) 2 0 rfl) ?_
  iintro ⟨#HP, HXr, HC, HOw, Hk⟩
  rw [wp_ret]; imodintro
  iapply Hk
  isplitl [HXr]; · iexact HXr
  isplitl [HC]; · iexact HC
  iexact HOw

end Cert.Kernel.AG

end
-- ==== Proof.KBodyP10.lean ====
import proofs.«900094_g7700000000000095_dist_ag_v7x_xy2x2_y_m16384_n1024_bf16_1_alg».proof.Proof.KStepsEdge
import proofs.«900094_g7700000000000095_dist_ag_v7x_xy2x2_y_m16384_n1024_bf16_1_alg».proof.Proof.KStepsHand
import proofs.«900094_g7700000000000095_dist_ag_v7x_xy2x2_y_m16384_n1024_bf16_1_alg».proof.Proof.KStepsLocal
import proofs.«900094_g7700000000000095_dist_ag_v7x_xy2x2_y_m16384_n1024_bf16_1_alg».proof.Proof.KStepsRemote
import proofs.«900094_g7700000000000095_dist_ag_v7x_xy2x2_y_m16384_n1024_bf16_1_alg».proof.Proof.KOwedLv
import proofs.«900094_g7700000000000095_dist_ag_v7x_xy2x2_y_m16384_n1024_bf16_1_alg».proof.Proof.KLibChain

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
theorem part_46 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32}  {Q : (Σ' (v1391 : BitVec 32), BitVec 32) → sProp 𝕄} :
    iprop(Pers m K ∗ recvCells (xrecvCell c) 3 ∗ StC m c (m ((c : Thread nD τ).loc main_v1)) true 3 ∗ Ow c (owedAt c 2 16 16 0) ∗ (∀ (v1391 : BitVec 32) (rl : BitVec 32), (recvCells (xrecvCell c) 7 ∗ StC m c (m ((c : Thread nD τ).loc main_v1)) true 7 ∗ Ow c (owedAt c 2 16 16 0)) -∗ Q ⟨v1391, rl⟩))
      ⊢ wp frame (wpE (defs₀ (F := F)) 𝒱₀ (c : Thread nD τ) none) Set.univ (k0_part46 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7) Q := by
  rw [k0_part46_eq_skeleton]; unfold k0_part46_skel
  simp only [Prog.lift, Prog.bind_op, Prog.bind_ret, Prog.pure_eq_ret, semSignalWord, semWaitWord, wp_deviceId]
  refine chain_3_3 (s_xrecv_wait (m := m) (K := K) (c := c) (fo := m ((c : Thread nD τ).loc main_v1)) (3 : Fin 16) 3 0 rfl) ?_
  refine chain_3_3 (s_xrecv_wait (m := m) (K := K) (c := c) (fo := m ((c : Thread nD τ).loc main_v1)) (4 : Fin 16) 4 0 rfl) ?_
  refine chain_3_3 (s_xrecv_wait (m := m) (K := K) (c := c) (fo := m ((c : Thread nD τ).loc main_v1)) (5 : Fin 16) 5 0 rfl) ?_
  refine chain_3_3 (s_xrecv_wait (m := m) (K := K) (c := c) (fo := m ((c : Thread nD τ).loc main_v1)) (6 : Fin 16) 6 0 rfl) ?_
  iintro ⟨#HP, HXr, HC, HOw, Hk⟩
  rw [wp_ret]; imodintro
  iapply Hk
  isplitl [HXr]; · iexact HXr
  isplitl [HC]; · iexact HC
  iexact HOw

end Cert.Kernel.AG

end
-- ==== Proof.KBodyP11.lean ====
import proofs.«900094_g7700000000000095_dist_ag_v7x_xy2x2_y_m16384_n1024_bf16_1_alg».proof.Proof.KStepsEdge
import proofs.«900094_g7700000000000095_dist_ag_v7x_xy2x2_y_m16384_n1024_bf16_1_alg».proof.Proof.KStepsHand
import proofs.«900094_g7700000000000095_dist_ag_v7x_xy2x2_y_m16384_n1024_bf16_1_alg».proof.Proof.KStepsLocal
import proofs.«900094_g7700000000000095_dist_ag_v7x_xy2x2_y_m16384_n1024_bf16_1_alg».proof.Proof.KStepsRemote
import proofs.«900094_g7700000000000095_dist_ag_v7x_xy2x2_y_m16384_n1024_bf16_1_alg».proof.Proof.KOwedLv
import proofs.«900094_g7700000000000095_dist_ag_v7x_xy2x2_y_m16384_n1024_bf16_1_alg».proof.Proof.KLibChain

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
theorem part_47 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32} {v1391 : BitVec 32} {v1392 : BitVec 32}  {Q : (BitVec 32) → sProp 𝕄} :
    iprop(Pers m K ∗ recvCells (xrecvCell c) 7 ∗ StC m c (m ((c : Thread nD τ).loc main_v1)) true 7 ∗ Ow c (owedAt c 2 16 16 0) ∗ (∀ (r : BitVec 32), (recvCells (xrecvCell c) 11 ∗ StC m c (m ((c : Thread nD τ).loc main_v1)) true 11 ∗ Ow c (owedAt c 2 16 16 0)) -∗ Q r))
      ⊢ wp frame (wpE (defs₀ (F := F)) 𝒱₀ (c : Thread nD τ) none) Set.univ (k0_part47 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7 v1391 v1392) Q := by
  rw [k0_part47_eq_skeleton]; unfold k0_part47_skel
  simp only [Prog.lift, Prog.bind_op, Prog.bind_ret, Prog.pure_eq_ret, semSignalWord, semWaitWord, wp_deviceId]
  refine chain_3_3 (s_xrecv_wait (m := m) (K := K) (c := c) (fo := m ((c : Thread nD τ).loc main_v1)) (7 : Fin 16) 7 0 rfl) ?_
  refine chain_3_3 (s_xrecv_wait (m := m) (K := K) (c := c) (fo := m ((c : Thread nD τ).loc main_v1)) (8 : Fin 16) 8 0 rfl) ?_
  refine chain_3_3 (s_xrecv_wait (m := m) (K := K) (c := c) (fo := m ((c : Thread nD τ).loc main_v1)) (9 : Fin 16) 9 0 rfl) ?_
  refine chain_3_3 (s_xrecv_wait (m := m) (K := K) (c := c) (fo := m ((c : Thread nD τ).loc main_v1)) (10 : Fin 16) 10 0 rfl) ?_
  iintro ⟨#HP, HXr, HC, HOw, Hk⟩
  rw [wp_ret]; imodintro
  iapply Hk
  isplitl [HXr]; · iexact HXr
  isplitl [HC]; · iexact HC
  iexact HOw

end Cert.Kernel.AG

end
-- ==== Proof.KBodyP12.lean ====
import proofs.«900094_g7700000000000095_dist_ag_v7x_xy2x2_y_m16384_n1024_bf16_1_alg».proof.Proof.KStepsEdge
import proofs.«900094_g7700000000000095_dist_ag_v7x_xy2x2_y_m16384_n1024_bf16_1_alg».proof.Proof.KStepsHand
import proofs.«900094_g7700000000000095_dist_ag_v7x_xy2x2_y_m16384_n1024_bf16_1_alg».proof.Proof.KStepsLocal
import proofs.«900094_g7700000000000095_dist_ag_v7x_xy2x2_y_m16384_n1024_bf16_1_alg».proof.Proof.KStepsRemote
import proofs.«900094_g7700000000000095_dist_ag_v7x_xy2x2_y_m16384_n1024_bf16_1_alg».proof.Proof.KOwedLv
import proofs.«900094_g7700000000000095_dist_ag_v7x_xy2x2_y_m16384_n1024_bf16_1_alg».proof.Proof.KLibChain

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
theorem part_48 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32} {v1422 : BitVec 32}  {Q : (PUnit) → sProp 𝕄} :
    iprop(Pers m K ∗ recvCells (xrecvCell c) 11 ∗ StC m c (m ((c : Thread nD τ).loc main_v1)) true 11 ∗ Ow c (owedAt c 2 16 16 0) ∗ (∀ (r : PUnit), (recvCells (xrecvCell c) 15 ∗ StC m c (m ((c : Thread nD τ).loc main_v1)) true 15 ∗ Ow c (owedAt c 2 16 16 0)) -∗ Q r))
      ⊢ wp frame (wpE (defs₀ (F := F)) 𝒱₀ (c : Thread nD τ) none) Set.univ (k0_part48 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7 v1422) Q := by
  rw [k0_part48_eq_skeleton]; unfold k0_part48_skel
  simp only [Prog.lift, Prog.bind_op, Prog.bind_ret, Prog.pure_eq_ret, semSignalWord, semWaitWord, wp_deviceId]
  refine chain_3_3 (s_xrecv_wait (m := m) (K := K) (c := c) (fo := m ((c : Thread nD τ).loc main_v1)) (11 : Fin 16) 11 0 rfl) ?_
  refine chain_3_3 (s_xrecv_wait (m := m) (K := K) (c := c) (fo := m ((c : Thread nD τ).loc main_v1)) (12 : Fin 16) 12 0 rfl) ?_
  refine chain_3_3 (s_xrecv_wait (m := m) (K := K) (c := c) (fo := m ((c : Thread nD τ).loc main_v1)) (13 : Fin 16) 13 0 rfl) ?_
  refine chain_3_3 (s_xrecv_wait (m := m) (K := K) (c := c) (fo := m ((c : Thread nD τ).loc main_v1)) (14 : Fin 16) 14 0 rfl) ?_
  iintro ⟨#HP, HXr, HC, HOw, Hk⟩
  rw [wp_ret]; imodintro
  iapply Hk
  isplitl [HXr]; · iexact HXr
  isplitl [HC]; · iexact HC
  iexact HOw

end Cert.Kernel.AG

end
-- ==== Proof.KBodyF.lean ====
import proofs.«900094_g7700000000000095_dist_ag_v7x_xy2x2_y_m16384_n1024_bf16_1_alg».proof.Proof.KBodyP1
import proofs.«900094_g7700000000000095_dist_ag_v7x_xy2x2_y_m16384_n1024_bf16_1_alg».proof.Proof.KBodyP2
import proofs.«900094_g7700000000000095_dist_ag_v7x_xy2x2_y_m16384_n1024_bf16_1_alg».proof.Proof.KBodyP3
import proofs.«900094_g7700000000000095_dist_ag_v7x_xy2x2_y_m16384_n1024_bf16_1_alg».proof.Proof.KBodyP4
import proofs.«900094_g7700000000000095_dist_ag_v7x_xy2x2_y_m16384_n1024_bf16_1_alg».proof.Proof.KBodyP5
import proofs.«900094_g7700000000000095_dist_ag_v7x_xy2x2_y_m16384_n1024_bf16_1_alg».proof.Proof.KBodyP6
import proofs.«900094_g7700000000000095_dist_ag_v7x_xy2x2_y_m16384_n1024_bf16_1_alg».proof.Proof.KBodyP7
import proofs.«900094_g7700000000000095_dist_ag_v7x_xy2x2_y_m16384_n1024_bf16_1_alg».proof.Proof.KBodyP8
import proofs.«900094_g7700000000000095_dist_ag_v7x_xy2x2_y_m16384_n1024_bf16_1_alg».proof.Proof.KBodyP9
import proofs.«900094_g7700000000000095_dist_ag_v7x_xy2x2_y_m16384_n1024_bf16_1_alg».proof.Proof.KBodyP10
import proofs.«900094_g7700000000000095_dist_ag_v7x_xy2x2_y_m16384_n1024_bf16_1_alg».proof.Proof.KBodyP11
import proofs.«900094_g7700000000000095_dist_ag_v7x_xy2x2_y_m16384_n1024_bf16_1_alg».proof.Proof.KBodyP12

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
omit [FloatOps F] in
theorem frm_n16_2_3_4_5_6_15_u {P : sProp 𝕄} [BI.Persistent P] {S0 S1 S2 S3 S4 S5 S6 S7 S8 S9 S10 S11 S12 S13 S14 S15 : sProp 𝕄} {T2 T3 T4 T5 T6 T15 : sProp 𝕄} {α : Type} {W : sProp 𝕄} {Q : α → sProp 𝕄}
    (h : iprop(P ∗ S2 ∗ S3 ∗ S4 ∗ S5 ∗ S6 ∗ S15 ∗ (∀ r : α, (T2 ∗ T3 ∗ T4 ∗ T5 ∗ T6 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜True⌝ ∗ (S0 ∗ S1 ∗ T2 ∗ T3 ∗ T4 ∗ T5 ∗ T6 ∗ S7 ∗ S8 ∗ S9 ∗ S10 ∗ S11 ∗ S12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H3]; · iexact H3
  isplitl [H4]; · iexact H4
  isplitl [H5]; · iexact H5
  isplitl [H6]; · iexact H6
  isplitl [H15]; · iexact H15
  iintro %r ⟨H2, H3, H4, H5, H6, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_3_15_u {P : sProp 𝕄} [BI.Persistent P] {S0 S1 S2 S3 S4 S5 S6 S7 S8 S9 S10 S11 S12 S13 S14 S15 : sProp 𝕄} {T2 T3 T15 : sProp 𝕄} {α : Type} {W : sProp 𝕄} {Q : α → sProp 𝕄}
    (h : iprop(P ∗ S2 ∗ S3 ∗ S15 ∗ (∀ r : α, (T2 ∗ T3 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜True⌝ ∗ (S0 ∗ S1 ∗ T2 ∗ T3 ∗ S4 ∗ S5 ∗ S6 ∗ S7 ∗ S8 ∗ S9 ∗ S10 ∗ S11 ∗ S12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H3]; · iexact H3
  isplitl [H15]; · iexact H15
  iintro %r ⟨H2, H3, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_3_4_5_6_15_s {P : sProp 𝕄} [BI.Persistent P] {S0 S1 S2 S3 S4 S5 S6 S7 S8 S9 S10 S11 S12 S13 S14 S15 : sProp 𝕄} {T2 T3 T4 T5 T6 T15 : sProp 𝕄} {A B : Type} {W : sProp 𝕄} {Q : (Σ' (_ : A), B) → sProp 𝕄}
    (h : iprop(P ∗ S2 ∗ S3 ∗ S4 ∗ S5 ∗ S6 ∗ S15 ∗ (∀ (a : A) (b : B), (T2 ∗ T3 ∗ T4 ∗ T5 ∗ T6 ∗ T15) -∗ Q ⟨a, b⟩)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : (Σ' (_ : A), B), (⌜True⌝ ∗ (S0 ∗ S1 ∗ T2 ∗ T3 ∗ T4 ∗ T5 ∗ T6 ∗ S7 ∗ S8 ∗ S9 ∗ S10 ∗ S11 ∗ S12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H3]; · iexact H3
  isplitl [H4]; · iexact H4
  isplitl [H5]; · iexact H5
  isplitl [H6]; · iexact H6
  isplitl [H15]; · iexact H15
  iintro %a %b ⟨H2, H3, H4, H5, H6, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_3_4_5_6_15_f {P : sProp 𝕄} [BI.Persistent P] {S0 S1 S2 S3 S4 S5 S6 S7 S8 S9 S10 S11 S12 S13 S14 S15 : sProp 𝕄} {T2 T3 T4 T5 T6 T15 : sProp 𝕄} {α : Type} {Fp : α → Prop} {W : sProp 𝕄} {Q : α → sProp 𝕄}
    (h : iprop(P ∗ S2 ∗ S3 ∗ S4 ∗ S5 ∗ S6 ∗ S15 ∗ (∀ r : α, ⌜Fp r⌝ -∗ (T2 ∗ T3 ∗ T4 ∗ T5 ∗ T6 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜Fp r⌝ ∗ (S0 ∗ S1 ∗ T2 ∗ T3 ∗ T4 ∗ T5 ∗ T6 ∗ S7 ∗ S8 ∗ S9 ∗ S10 ∗ S11 ∗ S12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H3]; · iexact H3
  isplitl [H4]; · iexact H4
  isplitl [H5]; · iexact H5
  isplitl [H6]; · iexact H6
  isplitl [H15]; · iexact H15
  iintro %r %hf ⟨H2, H3, H4, H5, H6, H15⟩
  iapply Hk
  isplitr; · ipureintro; exact hf
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_3_4_5_6_15_sf {P : sProp 𝕄} [BI.Persistent P] {S0 S1 S2 S3 S4 S5 S6 S7 S8 S9 S10 S11 S12 S13 S14 S15 : sProp 𝕄} {T2 T3 T4 T5 T6 T15 : sProp 𝕄} {A B : Type} {Fp : (Σ' (_ : A), B) → Prop} {W : sProp 𝕄} {Q : (Σ' (_ : A), B) → sProp 𝕄}
    (h : iprop(P ∗ S2 ∗ S3 ∗ S4 ∗ S5 ∗ S6 ∗ S15 ∗ (∀ (a : A) (b : B), ⌜Fp ⟨a, b⟩⌝ -∗ (T2 ∗ T3 ∗ T4 ∗ T5 ∗ T6 ∗ T15) -∗ Q ⟨a, b⟩)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : (Σ' (_ : A), B), (⌜Fp r⌝ ∗ (S0 ∗ S1 ∗ T2 ∗ T3 ∗ T4 ∗ T5 ∗ T6 ∗ S7 ∗ S8 ∗ S9 ∗ S10 ∗ S11 ∗ S12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H3]; · iexact H3
  isplitl [H4]; · iexact H4
  isplitl [H5]; · iexact H5
  isplitl [H6]; · iexact H6
  isplitl [H15]; · iexact H15
  iintro %a %b %hf ⟨H2, H3, H4, H5, H6, H15⟩
  iapply Hk
  isplitr; · ipureintro; exact hf
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_3_4_5_6_7_12_15_u {P : sProp 𝕄} [BI.Persistent P] {S0 S1 S2 S3 S4 S5 S6 S7 S8 S9 S10 S11 S12 S13 S14 S15 : sProp 𝕄} {T2 T3 T4 T5 T6 T7 T12 T15 : sProp 𝕄} {α : Type} {W : sProp 𝕄} {Q : α → sProp 𝕄}
    (h : iprop(P ∗ S2 ∗ S3 ∗ S4 ∗ S5 ∗ S6 ∗ S7 ∗ S12 ∗ S15 ∗ (∀ r : α, (T2 ∗ T3 ∗ T4 ∗ T5 ∗ T6 ∗ T7 ∗ T12 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜True⌝ ∗ (S0 ∗ S1 ∗ T2 ∗ T3 ∗ T4 ∗ T5 ∗ T6 ∗ T7 ∗ S8 ∗ S9 ∗ S10 ∗ S11 ∗ T12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H3]; · iexact H3
  isplitl [H4]; · iexact H4
  isplitl [H5]; · iexact H5
  isplitl [H6]; · iexact H6
  isplitl [H7]; · iexact H7
  isplitl [H12]; · iexact H12
  isplitl [H15]; · iexact H15
  iintro %r ⟨H2, H3, H4, H5, H6, H7, H12, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_3_8_9_10_12_15_sf {P : sProp 𝕄} [BI.Persistent P] {S0 S1 S2 S3 S4 S5 S6 S7 S8 S9 S10 S11 S12 S13 S14 S15 : sProp 𝕄} {T2 T3 T8 T9 T10 T12 T15 : sProp 𝕄} {A B : Type} {Fp : (Σ' (_ : A), B) → Prop} {W : sProp 𝕄} {Q : (Σ' (_ : A), B) → sProp 𝕄}
    (h : iprop(P ∗ S2 ∗ S3 ∗ S8 ∗ S9 ∗ S10 ∗ S12 ∗ S15 ∗ (∀ (a : A) (b : B), ⌜Fp ⟨a, b⟩⌝ -∗ (T2 ∗ T3 ∗ T8 ∗ T9 ∗ T10 ∗ T12 ∗ T15) -∗ Q ⟨a, b⟩)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : (Σ' (_ : A), B), (⌜Fp r⌝ ∗ (S0 ∗ S1 ∗ T2 ∗ T3 ∗ S4 ∗ S5 ∗ S6 ∗ S7 ∗ T8 ∗ T9 ∗ T10 ∗ S11 ∗ T12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H3]; · iexact H3
  isplitl [H8]; · iexact H8
  isplitl [H9]; · iexact H9
  isplitl [H10]; · iexact H10
  isplitl [H12]; · iexact H12
  isplitl [H15]; · iexact H15
  iintro %a %b %hf ⟨H2, H3, H8, H9, H10, H12, H15⟩
  iapply Hk
  isplitr; · ipureintro; exact hf
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_3_7_8_9_10_12_15_u {P : sProp 𝕄} [BI.Persistent P] {S0 S1 S2 S3 S4 S5 S6 S7 S8 S9 S10 S11 S12 S13 S14 S15 : sProp 𝕄} {T2 T3 T7 T8 T9 T10 T12 T15 : sProp 𝕄} {α : Type} {W : sProp 𝕄} {Q : α → sProp 𝕄}
    (h : iprop(P ∗ S2 ∗ S3 ∗ S7 ∗ S8 ∗ S9 ∗ S10 ∗ S12 ∗ S15 ∗ (∀ r : α, (T2 ∗ T3 ∗ T7 ∗ T8 ∗ T9 ∗ T10 ∗ T12 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜True⌝ ∗ (S0 ∗ S1 ∗ T2 ∗ T3 ∗ S4 ∗ S5 ∗ S6 ∗ T7 ∗ T8 ∗ T9 ∗ T10 ∗ S11 ∗ T12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H3]; · iexact H3
  isplitl [H7]; · iexact H7
  isplitl [H8]; · iexact H8
  isplitl [H9]; · iexact H9
  isplitl [H10]; · iexact H10
  isplitl [H12]; · iexact H12
  isplitl [H15]; · iexact H15
  iintro %r ⟨H2, H3, H7, H8, H9, H10, H12, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_3_7_12_15_u {P : sProp 𝕄} [BI.Persistent P] {S0 S1 S2 S3 S4 S5 S6 S7 S8 S9 S10 S11 S12 S13 S14 S15 : sProp 𝕄} {T2 T3 T7 T12 T15 : sProp 𝕄} {α : Type} {W : sProp 𝕄} {Q : α → sProp 𝕄}
    (h : iprop(P ∗ S2 ∗ S3 ∗ S7 ∗ S12 ∗ S15 ∗ (∀ r : α, (T2 ∗ T3 ∗ T7 ∗ T12 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜True⌝ ∗ (S0 ∗ S1 ∗ T2 ∗ T3 ∗ S4 ∗ S5 ∗ S6 ∗ T7 ∗ S8 ∗ S9 ∗ S10 ∗ S11 ∗ T12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H3]; · iexact H3
  isplitl [H7]; · iexact H7
  isplitl [H12]; · iexact H12
  isplitl [H15]; · iexact H15
  iintro %r ⟨H2, H3, H7, H12, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_3_7_8_9_10_12_15_s {P : sProp 𝕄} [BI.Persistent P] {S0 S1 S2 S3 S4 S5 S6 S7 S8 S9 S10 S11 S12 S13 S14 S15 : sProp 𝕄} {T2 T3 T7 T8 T9 T10 T12 T15 : sProp 𝕄} {A B : Type} {W : sProp 𝕄} {Q : (Σ' (_ : A), B) → sProp 𝕄}
    (h : iprop(P ∗ S2 ∗ S3 ∗ S7 ∗ S8 ∗ S9 ∗ S10 ∗ S12 ∗ S15 ∗ (∀ (a : A) (b : B), (T2 ∗ T3 ∗ T7 ∗ T8 ∗ T9 ∗ T10 ∗ T12 ∗ T15) -∗ Q ⟨a, b⟩)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : (Σ' (_ : A), B), (⌜True⌝ ∗ (S0 ∗ S1 ∗ T2 ∗ T3 ∗ S4 ∗ S5 ∗ S6 ∗ T7 ∗ T8 ∗ T9 ∗ T10 ∗ S11 ∗ T12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H3]; · iexact H3
  isplitl [H7]; · iexact H7
  isplitl [H8]; · iexact H8
  isplitl [H9]; · iexact H9
  isplitl [H10]; · iexact H10
  isplitl [H12]; · iexact H12
  isplitl [H15]; · iexact H15
  iintro %a %b ⟨H2, H3, H7, H8, H9, H10, H12, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_3_8_9_10_12_15_u {P : sProp 𝕄} [BI.Persistent P] {S0 S1 S2 S3 S4 S5 S6 S7 S8 S9 S10 S11 S12 S13 S14 S15 : sProp 𝕄} {T2 T3 T8 T9 T10 T12 T15 : sProp 𝕄} {α : Type} {W : sProp 𝕄} {Q : α → sProp 𝕄}
    (h : iprop(P ∗ S2 ∗ S3 ∗ S8 ∗ S9 ∗ S10 ∗ S12 ∗ S15 ∗ (∀ r : α, (T2 ∗ T3 ∗ T8 ∗ T9 ∗ T10 ∗ T12 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜True⌝ ∗ (S0 ∗ S1 ∗ T2 ∗ T3 ∗ S4 ∗ S5 ∗ S6 ∗ S7 ∗ T8 ∗ T9 ∗ T10 ∗ S11 ∗ T12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H3]; · iexact H3
  isplitl [H8]; · iexact H8
  isplitl [H9]; · iexact H9
  isplitl [H10]; · iexact H10
  isplitl [H12]; · iexact H12
  isplitl [H15]; · iexact H15
  iintro %r ⟨H2, H3, H8, H9, H10, H12, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_7_8_9_10_12_15_u {P : sProp 𝕄} [BI.Persistent P] {S0 S1 S2 S3 S4 S5 S6 S7 S8 S9 S10 S11 S12 S13 S14 S15 : sProp 𝕄} {T2 T7 T8 T9 T10 T12 T15 : sProp 𝕄} {α : Type} {W : sProp 𝕄} {Q : α → sProp 𝕄}
    (h : iprop(P ∗ S2 ∗ S7 ∗ S8 ∗ S9 ∗ S10 ∗ S12 ∗ S15 ∗ (∀ r : α, (T2 ∗ T7 ∗ T8 ∗ T9 ∗ T10 ∗ T12 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜True⌝ ∗ (S0 ∗ S1 ∗ T2 ∗ S3 ∗ S4 ∗ S5 ∗ S6 ∗ T7 ∗ T8 ∗ T9 ∗ T10 ∗ S11 ∗ T12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H7]; · iexact H7
  isplitl [H8]; · iexact H8
  isplitl [H9]; · iexact H9
  isplitl [H10]; · iexact H10
  isplitl [H12]; · iexact H12
  isplitl [H15]; · iexact H15
  iintro %r ⟨H2, H7, H8, H9, H10, H12, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_3_7_12_15_s {P : sProp 𝕄} [BI.Persistent P] {S0 S1 S2 S3 S4 S5 S6 S7 S8 S9 S10 S11 S12 S13 S14 S15 : sProp 𝕄} {T2 T3 T7 T12 T15 : sProp 𝕄} {A B : Type} {W : sProp 𝕄} {Q : (Σ' (_ : A), B) → sProp 𝕄}
    (h : iprop(P ∗ S2 ∗ S3 ∗ S7 ∗ S12 ∗ S15 ∗ (∀ (a : A) (b : B), (T2 ∗ T3 ∗ T7 ∗ T12 ∗ T15) -∗ Q ⟨a, b⟩)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : (Σ' (_ : A), B), (⌜True⌝ ∗ (S0 ∗ S1 ∗ T2 ∗ T3 ∗ S4 ∗ S5 ∗ S6 ∗ T7 ∗ S8 ∗ S9 ∗ S10 ∗ S11 ∗ T12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H3]; · iexact H3
  isplitl [H7]; · iexact H7
  isplitl [H12]; · iexact H12
  isplitl [H15]; · iexact H15
  iintro %a %b ⟨H2, H3, H7, H12, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_7_8_9_10_12_15_f {P : sProp 𝕄} [BI.Persistent P] {S0 S1 S2 S3 S4 S5 S6 S7 S8 S9 S10 S11 S12 S13 S14 S15 : sProp 𝕄} {T2 T7 T8 T9 T10 T12 T15 : sProp 𝕄} {α : Type} {Fp : α → Prop} {W : sProp 𝕄} {Q : α → sProp 𝕄}
    (h : iprop(P ∗ S2 ∗ S7 ∗ S8 ∗ S9 ∗ S10 ∗ S12 ∗ S15 ∗ (∀ r : α, ⌜Fp r⌝ -∗ (T2 ∗ T7 ∗ T8 ∗ T9 ∗ T10 ∗ T12 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜Fp r⌝ ∗ (S0 ∗ S1 ∗ T2 ∗ S3 ∗ S4 ∗ S5 ∗ S6 ∗ T7 ∗ T8 ∗ T9 ∗ T10 ∗ S11 ∗ T12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H7]; · iexact H7
  isplitl [H8]; · iexact H8
  isplitl [H9]; · iexact H9
  isplitl [H10]; · iexact H10
  isplitl [H12]; · iexact H12
  isplitl [H15]; · iexact H15
  iintro %r %hf ⟨H2, H7, H8, H9, H10, H12, H15⟩
  iapply Hk
  isplitr; · ipureintro; exact hf
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_3_7_8_9_10_12_15_u {P : sProp 𝕄} [BI.Persistent P] {S0 S1 S2 S3 S4 S5 S6 S7 S8 S9 S10 S11 S12 S13 S14 S15 : sProp 𝕄} {T3 T7 T8 T9 T10 T12 T15 : sProp 𝕄} {α : Type} {W : sProp 𝕄} {Q : α → sProp 𝕄}
    (h : iprop(P ∗ S3 ∗ S7 ∗ S8 ∗ S9 ∗ S10 ∗ S12 ∗ S15 ∗ (∀ r : α, (T3 ∗ T7 ∗ T8 ∗ T9 ∗ T10 ∗ T12 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜True⌝ ∗ (S0 ∗ S1 ∗ S2 ∗ T3 ∗ S4 ∗ S5 ∗ S6 ∗ T7 ∗ T8 ∗ T9 ∗ T10 ∗ S11 ∗ T12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H3]; · iexact H3
  isplitl [H7]; · iexact H7
  isplitl [H8]; · iexact H8
  isplitl [H9]; · iexact H9
  isplitl [H10]; · iexact H10
  isplitl [H12]; · iexact H12
  isplitl [H15]; · iexact H15
  iintro %r ⟨H3, H7, H8, H9, H10, H12, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_2_3_6_8_9_10_12_14_15_u {P : sProp 𝕄} [BI.Persistent P] {S0 S1 S2 S3 S4 S5 S6 S7 S8 S9 S10 S11 S12 S13 S14 S15 : sProp 𝕄} {T2 T3 T6 T8 T9 T10 T12 T14 T15 : sProp 𝕄} {α : Type} {W : sProp 𝕄} {Q : α → sProp 𝕄}
    (h : iprop(P ∗ S2 ∗ S3 ∗ S6 ∗ S8 ∗ S9 ∗ S10 ∗ S12 ∗ S14 ∗ S15 ∗ (∀ r : α, (T2 ∗ T3 ∗ T6 ∗ T8 ∗ T9 ∗ T10 ∗ T12 ∗ T14 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜True⌝ ∗ (S0 ∗ S1 ∗ T2 ∗ T3 ∗ S4 ∗ S5 ∗ T6 ∗ S7 ∗ T8 ∗ T9 ∗ T10 ∗ S11 ∗ T12 ∗ S13 ∗ T14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H2]; · iexact H2
  isplitl [H3]; · iexact H3
  isplitl [H6]; · iexact H6
  isplitl [H8]; · iexact H8
  isplitl [H9]; · iexact H9
  isplitl [H10]; · iexact H10
  isplitl [H12]; · iexact H12
  isplitl [H14]; · iexact H14
  isplitl [H15]; · iexact H15
  iintro %r ⟨H2, H3, H6, H8, H9, H10, H12, H14, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_3_6_15_u {P : sProp 𝕄} [BI.Persistent P] {S0 S1 S2 S3 S4 S5 S6 S7 S8 S9 S10 S11 S12 S13 S14 S15 : sProp 𝕄} {T3 T6 T15 : sProp 𝕄} {α : Type} {W : sProp 𝕄} {Q : α → sProp 𝕄}
    (h : iprop(P ∗ S3 ∗ S6 ∗ S15 ∗ (∀ r : α, (T3 ∗ T6 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜True⌝ ∗ (S0 ∗ S1 ∗ S2 ∗ T3 ∗ S4 ∗ S5 ∗ T6 ∗ S7 ∗ S8 ∗ S9 ∗ S10 ∗ S11 ∗ S12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H3]; · iexact H3
  isplitl [H6]; · iexact H6
  isplitl [H15]; · iexact H15
  iintro %r ⟨H3, H6, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_3_6_10_12_15_u {P : sProp 𝕄} [BI.Persistent P] {S0 S1 S2 S3 S4 S5 S6 S7 S8 S9 S10 S11 S12 S13 S14 S15 : sProp 𝕄} {T3 T6 T10 T12 T15 : sProp 𝕄} {α : Type} {W : sProp 𝕄} {Q : α → sProp 𝕄}
    (h : iprop(P ∗ S3 ∗ S6 ∗ S10 ∗ S12 ∗ S15 ∗ (∀ r : α, (T3 ∗ T6 ∗ T10 ∗ T12 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜True⌝ ∗ (S0 ∗ S1 ∗ S2 ∗ T3 ∗ S4 ∗ S5 ∗ T6 ∗ S7 ∗ S8 ∗ S9 ∗ T10 ∗ S11 ∗ T12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H3]; · iexact H3
  isplitl [H6]; · iexact H6
  isplitl [H10]; · iexact H10
  isplitl [H12]; · iexact H12
  isplitl [H15]; · iexact H15
  iintro %r ⟨H3, H6, H10, H12, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_10_12_15_u {P : sProp 𝕄} [BI.Persistent P] {S0 S1 S2 S3 S4 S5 S6 S7 S8 S9 S10 S11 S12 S13 S14 S15 : sProp 𝕄} {T10 T12 T15 : sProp 𝕄} {α : Type} {W : sProp 𝕄} {Q : α → sProp 𝕄}
    (h : iprop(P ∗ S10 ∗ S12 ∗ S15 ∗ (∀ r : α, (T10 ∗ T12 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜True⌝ ∗ (S0 ∗ S1 ∗ S2 ∗ S3 ∗ S4 ∗ S5 ∗ S6 ∗ S7 ∗ S8 ∗ S9 ∗ T10 ∗ S11 ∗ T12 ∗ S13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H10]; · iexact H10
  isplitl [H12]; · iexact H12
  isplitl [H15]; · iexact H15
  iintro %r ⟨H10, H12, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_11_13_15_u {P : sProp 𝕄} [BI.Persistent P] {S0 S1 S2 S3 S4 S5 S6 S7 S8 S9 S10 S11 S12 S13 S14 S15 : sProp 𝕄} {T11 T13 T15 : sProp 𝕄} {α : Type} {W : sProp 𝕄} {Q : α → sProp 𝕄}
    (h : iprop(P ∗ S11 ∗ S13 ∗ S15 ∗ (∀ r : α, (T11 ∗ T13 ∗ T15) -∗ Q r)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : α, (⌜True⌝ ∗ (S0 ∗ S1 ∗ S2 ∗ S3 ∗ S4 ∗ S5 ∗ S6 ∗ S7 ∗ S8 ∗ S9 ∗ S10 ∗ T11 ∗ S12 ∗ T13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H11]; · iexact H11
  isplitl [H13]; · iexact H13
  isplitl [H15]; · iexact H15
  iintro %r ⟨H11, H13, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
theorem frm_n16_11_13_15_s {P : sProp 𝕄} [BI.Persistent P] {S0 S1 S2 S3 S4 S5 S6 S7 S8 S9 S10 S11 S12 S13 S14 S15 : sProp 𝕄} {T11 T13 T15 : sProp 𝕄} {A B : Type} {W : sProp 𝕄} {Q : (Σ' (_ : A), B) → sProp 𝕄}
    (h : iprop(P ∗ S11 ∗ S13 ∗ S15 ∗ (∀ (a : A) (b : B), (T11 ∗ T13 ∗ T15) -∗ Q ⟨a, b⟩)) ⊢ W) :
    iprop(P ∗ (S0 ∗ S1 ∗ S2 ∗ S3 ∗ S4 ∗ S5 ∗ S6 ∗ S7 ∗ S8 ∗ S9 ∗ S10 ∗ S11 ∗ S12 ∗ S13 ∗ S14 ∗ S15) ∗ (∀ r : (Σ' (_ : A), B), (⌜True⌝ ∗ (S0 ∗ S1 ∗ S2 ∗ S3 ∗ S4 ∗ S5 ∗ S6 ∗ S7 ∗ S8 ∗ S9 ∗ S10 ∗ T11 ∗ S12 ∗ T13 ∗ S14 ∗ T15)) -∗ Q r)) ⊢ W := by
  iintro ⟨#HP, ⟨H0, H1, H2, H3, H4, H5, H6, H7, H8, H9, H10, H11, H12, H13, H14, H15⟩, Hk⟩
  iapply h
  isplitr; · iexact HP
  isplitl [H11]; · iexact H11
  isplitl [H13]; · iexact H13
  isplitl [H15]; · iexact H15
  iintro %a %b ⟨H11, H13, H15⟩
  iapply Hk
  isplitr; · ipureintro; trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem fpart_1 (K : Dev nD × Kind → ℕ) (c : Dev nD) (fv : Buf (Elt F) ((c : Thread nD τ).loc cc0_scratch1)) (fs : Buf (Elt F) ((c : Thread nD τ).loc cc0_scratch0))
      {Q : (Σ' (d0 : Dev nD) (v2 : BitVec 32) (v5 : BitVec 32) (v6 : BitVec 32) (v7 : BitVec 32) (v17 : BitVec 32), BitVec 32) → sProp 𝕄} :
    iprop(Pers m K ∗ (StBar c 0 ∗ StExit c 0 ∗ StLd m c fv 0 0 ∗ StVs m c fs 0 0 0 0 ∗ StYtok c 0 ∗ sendCells (ysendCell c) 0 0 ∗ recvCells (yrecvCell c) 0 ∗ StFtok c 0 ∗ sendCells (xsendCell c) 0 0 ∗ recvCells (xrecvCell c) 0 ∗ StB m c (m ((c : Thread nD τ).loc main_v1)) false 0 0 0 ∗ StC m c (m ((c : Thread nD τ).loc main_v1)) false 0 ∗ StSt m c (m ((c : Thread nD τ).loc main_v1)) 0 ∗ Ow c (owedAt c 0 0 0 0)) ∗ (∀ r : (Σ' (d0 : Dev nD) (v2 : BitVec 32) (v5 : BitVec 32) (v6 : BitVec 32) (v7 : BitVec 32) (v17 : BitVec 32), BitVec 32), (⌜r.1 = c⌝ ∗ (StBar c 3 ∗ StExit c 0 ∗ StLd m c fv 1 0 ∗ StVs m c fs 0 0 0 0 ∗ StYtok c 0 ∗ StYreg c 0 ∗ sendCells (ysendCell c) 0 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 0 0 0))) -∗ Q r))
      ⊢ wp frame (wpE (defs₀ (F := F)) 𝒱₀ (c : Thread nD τ) none) Set.univ (k0_part1 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 ) Q := by
  iintro ⟨#HP, ⟨HBar, HExit, HLd, HVs, HYt, HYs, HYr, HFt, HFs, HXr, HB, HC, HSt, HOw⟩, Hk⟩
  iapply (part_1 (m := m) K c fv fs)
  isplitr; · iexact HP
  isplitl [HBar]; · iexact HBar
  isplitl [HLd]; · iexact HLd
  isplitl [HB]; · iexact HB
  isplitl [HC]; · iexact HC
  isplitl [HOw]; · iexact HOw
  iintro %v2 %v5 %v6 %v7 %v17 %rl ⟨HBar, HLd, HYg, HFg, HB, HC, HOw⟩
  iapply Hk
  isplitr; · ipureintro; rfl
  isplitl [HBar]; · iexact HBar
  isplitl [HExit]; · iexact HExit
  isplitl [HLd]; · iexact HLd
  isplitl [HVs]; · iexact HVs
  isplitl [HYt]; · iexact HYt
  isplitl [HYg]; · iexact HYg
  isplitl [HYs]; · iexact HYs
  isplitl [HYr]; · iexact HYr
  isplitl [HFt]; · iexact HFt
  isplitl [HFg]; · iexact HFg
  isplitl [HFs]; · iexact HFs
  isplitl [HXr]; · iexact HXr
  isplitl [HB]; · iexact HB
  isplitl [HC]; · iexact HC
  isplitl [HSt]; · iexact HSt
  iexact HOw

theorem fpart_2 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (BitVec 32) → sProp 𝕄} :
    iprop(Pers m K ∗ (StBar c 3 ∗ StExit c 0 ∗ StLd m c fv 1 0 ∗ StVs m c fs 0 0 0 0 ∗ StYtok c 0 ∗ StYreg c 0 ∗ sendCells (ysendCell c) 0 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 0 0 0)) ∗ (∀ r : (BitVec 32), (⌜True⌝ ∗ (StBar c 3 ∗ StExit c 0 ∗ StLd m c fv 2 1 ∗ StVs m c fs 0 1 1 0 ∗ StYtok c 1 ∗ StYreg c 1 ∗ sendCells (ysendCell c) 1 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 1 0 0))) -∗ Q r))
      ⊢ wp frame (wpE (defs₀ (F := F)) 𝒱₀ (c : Thread nD τ) none) Set.univ (k0_part2 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q :=
  frm_n16_2_3_4_5_6_15_u (part_2 (m := m) K c fv fs)

theorem fpart_3 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} {c1024_i32 : BitVec 32}  {Q : (PUnit) → sProp 𝕄} :
    iprop(Pers m K ∗ (StBar c 3 ∗ StExit c 0 ∗ StLd m c fv 2 1 ∗ StVs m c fs 0 1 1 0 ∗ StYtok c 1 ∗ StYreg c 1 ∗ sendCells (ysendCell c) 1 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 1 0 0)) ∗ (∀ r : (PUnit), (⌜True⌝ ∗ (StBar c 3 ∗ StExit c 0 ∗ StLd m c fv 3 2 ∗ StVs m c fs 0 2 1 0 ∗ StYtok c 1 ∗ StYreg c 1 ∗ sendCells (ysendCell c) 1 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 1 0 0))) -∗ Q r))
      ⊢ wp frame (wpE (defs₀ (F := F)) 𝒱₀ (c : Thread nD τ) none) Set.univ (k0_part3 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 c1024_i32) Q :=
  frm_n16_2_3_15_u (part_3 (m := m) K c fv fs)

theorem fpart_4 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (PUnit) → sProp 𝕄} :
    iprop(Pers m K ∗ (StBar c 3 ∗ StExit c 0 ∗ StLd m c fv 3 2 ∗ StVs m c fs 0 2 1 0 ∗ StYtok c 1 ∗ StYreg c 1 ∗ sendCells (ysendCell c) 1 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 1 0 0)) ∗ (∀ r : (PUnit), (⌜True⌝ ∗ (StBar c 3 ∗ StExit c 0 ∗ StLd m c fv 4 3 ∗ StVs m c fs 0 3 2 0 ∗ StYtok c 2 ∗ StYreg c 2 ∗ sendCells (ysendCell c) 2 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 2 0 0))) -∗ Q r))
      ⊢ wp frame (wpE (defs₀ (F := F)) 𝒱₀ (c : Thread nD τ) none) Set.univ (k0_part4 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q :=
  frm_n16_2_3_4_5_6_15_u (part_4 (m := m) K c fv fs)

theorem fpart_5 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (PUnit) → sProp 𝕄} :
    iprop(Pers m K ∗ (StBar c 3 ∗ StExit c 0 ∗ StLd m c fv 4 3 ∗ StVs m c fs 0 3 2 0 ∗ StYtok c 2 ∗ StYreg c 2 ∗ sendCells (ysendCell c) 2 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 2 0 0)) ∗ (∀ r : (PUnit), (⌜True⌝ ∗ (StBar c 3 ∗ StExit c 0 ∗ StLd m c fv 5 4 ∗ StVs m c fs 0 4 3 0 ∗ StYtok c 3 ∗ StYreg c 3 ∗ sendCells (ysendCell c) 3 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 3 0 0))) -∗ Q r))
      ⊢ wp frame (wpE (defs₀ (F := F)) 𝒱₀ (c : Thread nD τ) none) Set.univ (k0_part5 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q :=
  frm_n16_2_3_4_5_6_15_u (part_5 (m := m) K c fv fs)

theorem fpart_6 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v17 : BitVec 32}  {Q : (Σ' (v182 : BitVec 32), BitVec 32) → sProp 𝕄} :
    iprop(Pers m K ∗ (StBar c 3 ∗ StExit c 0 ∗ StLd m c fv 5 4 ∗ StVs m c fs 0 4 3 0 ∗ StYtok c 3 ∗ StYreg c 3 ∗ sendCells (ysendCell c) 3 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 3 0 0)) ∗ (∀ r : (Σ' (v182 : BitVec 32), BitVec 32), (⌜True⌝ ∗ (StBar c 3 ∗ StExit c 0 ∗ StLd m c fv 6 5 ∗ StVs m c fs 0 5 4 0 ∗ StYtok c 4 ∗ StYreg c 4 ∗ sendCells (ysendCell c) 4 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 4 0 0))) -∗ Q r))
      ⊢ wp frame (wpE (defs₀ (F := F)) 𝒱₀ (c : Thread nD τ) none) Set.univ (k0_part6 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v17) Q :=
  frm_n16_2_3_4_5_6_15_s (part_6 (m := m) K c fv fs)

theorem fpart_7 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} {v182 : BitVec 32} {c1_i32_137 : BitVec 32}  {Q : (BitVec 32) → sProp 𝕄} :
    iprop(Pers m K ∗ (StBar c 3 ∗ StExit c 0 ∗ StLd m c fv 6 5 ∗ StVs m c fs 0 5 4 0 ∗ StYtok c 4 ∗ StYreg c 4 ∗ sendCells (ysendCell c) 4 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 4 0 0)) ∗ (∀ r : (BitVec 32), (⌜True⌝ ∗ (StBar c 3 ∗ StExit c 0 ∗ StLd m c fv 7 6 ∗ StVs m c fs 0 6 5 0 ∗ StYtok c 5 ∗ StYreg c 5 ∗ sendCells (ysendCell c) 5 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 5 0 0))) -∗ Q r))
      ⊢ wp frame (wpE (defs₀ (F := F)) 𝒱₀ (c : Thread nD τ) none) Set.univ (k0_part7 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v182 c1_i32_137) Q :=
  frm_n16_2_3_4_5_6_15_u (part_7 (m := m) K c fv fs)

theorem fpart_8 (K : Dev nD × Kind → ℕ) (c : Dev nD) (fv : Buf (Elt F) ((c : Thread nD τ).loc cc0_scratch1)) (fs : Buf (Elt F) ((c : Thread nD τ).loc cc0_scratch0))
    {v5 : BitVec 32} {v6 : BitVec 32} {v17 : BitVec 32} {v214 : BitVec 32}  {Q : (PUnit) → sProp 𝕄} :
    iprop(Pers m K ∗ (StBar c 3 ∗ StExit c 0 ∗ StLd m c fv 7 6 ∗ StVs m c fs 0 6 5 0 ∗ StYtok c 5 ∗ StYreg c 5 ∗ sendCells (ysendCell c) 5 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 5 0 0)) ∗ (∀ r : (PUnit), (⌜True⌝ ∗ (StBar c 3 ∗ StExit c 0 ∗ StLd m c fv 8 7 ∗ StVs m c fs 0 7 6 0 ∗ StYtok c 6 ∗ StYreg c 6 ∗ sendCells (ysendCell c) 6 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 6 0 0))) -∗ Q r))
      ⊢ wp frame (wpE (defs₀ (F := F)) 𝒱₀ (c : Thread nD τ) none) Set.univ (k0_part8 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v6 v17 v214) Q :=
  frm_n16_2_3_4_5_6_15_u (part_8 (m := m) K c fv fs)

theorem fpart_9 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (BitVec 32) → sProp 𝕄} :
    iprop(Pers m K ∗ (StBar c 3 ∗ StExit c 0 ∗ StLd m c fv 8 7 ∗ StVs m c fs 0 7 6 0 ∗ StYtok c 6 ∗ StYreg c 6 ∗ sendCells (ysendCell c) 6 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 6 0 0)) ∗ (∀ r : (BitVec 32), (⌜True⌝ ∗ (StBar c 3 ∗ StExit c 0 ∗ StLd m c fv 9 8 ∗ StVs m c fs 0 8 7 0 ∗ StYtok c 7 ∗ StYreg c 7 ∗ sendCells (ysendCell c) 7 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 7 0 0))) -∗ Q r))
      ⊢ wp frame (wpE (defs₀ (F := F)) 𝒱₀ (c : Thread nD τ) none) Set.univ (k0_part9 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q :=
  frm_n16_2_3_4_5_6_15_u (part_9 (m := m) K c fv fs)

theorem fpart_10 (K : Dev nD × Kind → ℕ) (c : Dev nD) (fv : Buf (Elt F) ((c : Thread nD τ).loc cc0_scratch1)) (fs : Buf (Elt F) ((c : Thread nD τ).loc cc0_scratch0))
    {v2 : BitVec 32} {v6 : BitVec 32} {v17 : BitVec 32} {v278 : BitVec 32}  {Q : (PUnit) → sProp 𝕄} :
    iprop(Pers m K ∗ (StBar c 3 ∗ StExit c 0 ∗ StLd m c fv 9 8 ∗ StVs m c fs 0 8 7 0 ∗ StYtok c 7 ∗ StYreg c 7 ∗ sendCells (ysendCell c) 7 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 7 0 0)) ∗ (∀ r : (PUnit), (⌜True⌝ ∗ (StBar c 3 ∗ StExit c 0 ∗ StLd m c fv 10 9 ∗ StVs m c fs 0 9 8 0 ∗ StYtok c 8 ∗ StYreg c 8 ∗ sendCells (ysendCell c) 8 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 8 0 0))) -∗ Q r))
      ⊢ wp frame (wpE (defs₀ (F := F)) 𝒱₀ (c : Thread nD τ) none) Set.univ (k0_part10 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v6 v17 v278) Q :=
  frm_n16_2_3_4_5_6_15_u (part_10 (m := m) K c fv fs)

theorem fpart_11 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (FVec F S512x1024 .bf16) → sProp 𝕄} :
    iprop(Pers m K ∗ (StBar c 3 ∗ StExit c 0 ∗ StLd m c fv 10 9 ∗ StVs m c fs 0 9 8 0 ∗ StYtok c 8 ∗ StYreg c 8 ∗ sendCells (ysendCell c) 8 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 8 0 0)) ∗ (∀ r : (FVec F S512x1024 .bf16), (⌜r = pay (slotVal m c (9 : Fin 32))⌝ ∗ (StBar c 3 ∗ StExit c 0 ∗ StLd m c fv 11 10 ∗ StVs m c fs 0 9 9 0 ∗ StYtok c 9 ∗ StYreg c 9 ∗ sendCells (ysendCell c) 9 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 9 0 0))) -∗ Q r))
      ⊢ wp frame (wpE (defs₀ (F := F)) 𝒱₀ (c : Thread nD τ) none) Set.univ (k0_part11 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q :=
  frm_n16_2_3_4_5_6_15_f (part_11 (m := m) K c fv fs)

theorem fpart_12 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} (v341 : FVec F S512x1024 .bf16) (hw : v341 = pay (slotVal m c (9 : Fin 32))) {Q : (FVec F S512x1024 .bf16) → sProp 𝕄} :
    iprop(Pers m K ∗ (StBar c 3 ∗ StExit c 0 ∗ StLd m c fv 11 10 ∗ StVs m c fs 0 9 9 0 ∗ StYtok c 9 ∗ StYreg c 9 ∗ sendCells (ysendCell c) 9 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 9 0 0)) ∗ (∀ r : (FVec F S512x1024 .bf16), (⌜(k0_pay12 r) = pay (slotVal m c (10 : Fin 32))⌝ ∗ (StBar c 3 ∗ StExit c 0 ∗ StLd m c fv 12 11 ∗ StVs m c fs 0 10 10 0 ∗ StYtok c 10 ∗ StYreg c 10 ∗ sendCells (ysendCell c) 10 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 10 0 0))) -∗ Q r))
      ⊢ wp frame (wpE (defs₀ (F := F)) 𝒱₀ (c : Thread nD τ) none) Set.univ (k0_part12 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v341) Q :=
  frm_n16_2_3_4_5_6_15_f (part_12 (m := m) K c fv fs v341 hw)

theorem fpart_13 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} (v369 : FVec F S512x1024 .bf16) (hw : (k0_pay12 v369) = pay (slotVal m c (10 : Fin 32))) {Q : (Σ' (v402 : FVec F S512x1024 .bf16), BitVec 32) → sProp 𝕄} :
    iprop(Pers m K ∗ (StBar c 3 ∗ StExit c 0 ∗ StLd m c fv 12 11 ∗ StVs m c fs 0 10 10 0 ∗ StYtok c 10 ∗ StYreg c 10 ∗ sendCells (ysendCell c) 10 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 10 0 0)) ∗ (∀ r : (Σ' (v402 : FVec F S512x1024 .bf16), BitVec 32), (⌜(k0_pay14 r.1) = pay (slotVal m c (11 : Fin 32))⌝ ∗ (StBar c 3 ∗ StExit c 0 ∗ StLd m c fv 13 12 ∗ StVs m c fs 0 11 11 0 ∗ StYtok c 11 ∗ StYreg c 11 ∗ sendCells (ysendCell c) 11 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 11 0 0))) -∗ Q r))
      ⊢ wp frame (wpE (defs₀ (F := F)) 𝒱₀ (c : Thread nD τ) none) Set.univ (k0_part13 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v369) Q :=
  frm_n16_2_3_4_5_6_15_sf (part_13 (m := m) K c fv fs v369 hw)

theorem fpart_14 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} {c5632_i32_297 : BitVec 32} (v402 : FVec F S512x1024 .bf16) (hw : (k0_pay14 v402) = pay (slotVal m c (11 : Fin 32))) {Q : (Vec F S1x512x1024 .f32) → sProp 𝕄} :
    iprop(Pers m K ∗ (StBar c 3 ∗ StExit c 0 ∗ StLd m c fv 13 12 ∗ StVs m c fs 0 11 11 0 ∗ StYtok c 11 ∗ StYreg c 11 ∗ sendCells (ysendCell c) 11 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 11 0 0)) ∗ (∀ r : (Vec F S1x512x1024 .f32), (⌜(k0_pay15 r) = pay (slotVal m c (12 : Fin 32))⌝ ∗ (StBar c 3 ∗ StExit c 0 ∗ StLd m c fv 14 13 ∗ StVs m c fs 0 12 12 0 ∗ StYtok c 12 ∗ StYreg c 12 ∗ sendCells (ysendCell c) 12 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 12 0 0))) -∗ Q r))
      ⊢ wp frame (wpE (defs₀ (F := F)) 𝒱₀ (c : Thread nD τ) none) Set.univ (k0_part14 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v402 c5632_i32_297) Q :=
  frm_n16_2_3_4_5_6_15_f (part_14 (m := m) K c fv fs v402 hw)

theorem fpart_15 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} (v433 : Vec F S1x512x1024 .f32) (hw : (k0_pay15 v433) = pay (slotVal m c (12 : Fin 32))) {Q : (PUnit) → sProp 𝕄} :
    iprop(Pers m K ∗ (StBar c 3 ∗ StExit c 0 ∗ StLd m c fv 14 13 ∗ StVs m c fs 0 12 12 0 ∗ StYtok c 12 ∗ StYreg c 12 ∗ sendCells (ysendCell c) 12 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 12 0 0)) ∗ (∀ r : (PUnit), (⌜True⌝ ∗ (StBar c 3 ∗ StExit c 0 ∗ StLd m c fv 15 14 ∗ StVs m c fs 0 13 13 0 ∗ StYtok c 13 ∗ StYreg c 13 ∗ sendCells (ysendCell c) 13 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 13 0 0))) -∗ Q r))
      ⊢ wp frame (wpE (defs₀ (F := F)) 𝒱₀ (c : Thread nD τ) none) Set.univ (k0_part15 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v433) Q :=
  frm_n16_2_3_4_5_6_15_u (part_15 (m := m) K c fv fs v433 hw)

theorem fpart_16 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (PUnit) → sProp 𝕄} :
    iprop(Pers m K ∗ (StBar c 3 ∗ StExit c 0 ∗ StLd m c fv 15 14 ∗ StVs m c fs 0 13 13 0 ∗ StYtok c 13 ∗ StYreg c 13 ∗ sendCells (ysendCell c) 13 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 13 0 0)) ∗ (∀ r : (PUnit), (⌜True⌝ ∗ (StBar c 3 ∗ StExit c 0 ∗ StLd m c fv 16 14 ∗ StVs m c fs 0 14 14 0 ∗ StYtok c 14 ∗ StYreg c 14 ∗ sendCells (ysendCell c) 14 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 14 0 0))) -∗ Q r))
      ⊢ wp frame (wpE (defs₀ (F := F)) 𝒱₀ (c : Thread nD τ) none) Set.univ (k0_part16 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q :=
  frm_n16_2_3_4_5_6_15_u (part_16 (m := m) K c fv fs)

theorem fpart_17 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} {v19 : BitVec 32}  {Q : (PUnit) → sProp 𝕄} :
    iprop(Pers m K ∗ (StBar c 3 ∗ StExit c 0 ∗ StLd m c fv 16 14 ∗ StVs m c fs 0 14 14 0 ∗ StYtok c 14 ∗ StYreg c 14 ∗ sendCells (ysendCell c) 14 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 14 0 0)) ∗ (∀ r : (PUnit), (⌜True⌝ ∗ (StBar c 3 ∗ StExit c 0 ∗ StLd m c fv 17 15 ∗ StVs m c fs 0 15 15 0 ∗ StYtok c 15 ∗ StYreg c 15 ∗ sendCells (ysendCell c) 15 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 15 0 0))) -∗ Q r))
      ⊢ wp frame (wpE (defs₀ (F := F)) 𝒱₀ (c : Thread nD τ) none) Set.univ (k0_part17 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v19) Q :=
  frm_n16_2_3_4_5_6_15_u (part_17 (m := m) K c fv fs)

theorem fpart_18 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32}  {Q : (PUnit) → sProp 𝕄} :
    iprop(Pers m K ∗ (StBar c 3 ∗ StExit c 0 ∗ StLd m c fv 17 15 ∗ StVs m c fs 0 15 15 0 ∗ StYtok c 15 ∗ StYreg c 15 ∗ sendCells (ysendCell c) 15 0 ∗ recvCells (yrecvCell c) 0 ∗ StFtok c 0 ∗ StFreg c 0 ∗ sendCells (xsendCell c) 0 0 ∗ recvCells (xrecvCell c) 0 ∗ StB m c (m ((c : Thread nD τ).loc main_v1)) true 0 0 0 ∗ StC m c (m ((c : Thread nD τ).loc main_v1)) true 0 ∗ StSt m c (m ((c : Thread nD τ).loc main_v1)) 0 ∗ Ow c (owedAt c 2 15 0 0)) ∗ (∀ r : (PUnit), (⌜True⌝ ∗ (StBar c 3 ∗ StExit c 0 ∗ StLd m c fv 17 16 ∗ StVs m c fs 0 16 16 0 ∗ StYtok c 16 ∗ StYreg c 16 ∗ sendCells (ysendCell c) 16 0 ∗ recvCells (yrecvCell c) 1 ∗ StFtok c 0 ∗ StFreg c 0 ∗ sendCells (xsendCell c) 0 0 ∗ recvCells (xrecvCell c) 0 ∗ StB m c (m ((c : Thread nD τ).loc main_v1)) true 1 0 0 ∗ StC m c (m ((c : Thread nD τ).loc main_v1)) true 0 ∗ StSt m c (m ((c : Thread nD τ).loc main_v1)) 0 ∗ Ow c (owedAt c 2 16 0 0))) -∗ Q r))
      ⊢ wp frame (wpE (defs₀ (F := F)) 𝒱₀ (c : Thread nD τ) none) Set.univ (k0_part18 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17) Q :=
  frm_n16_2_3_4_5_6_7_12_15_u (part_18 (m := m) K c fv fs)

theorem fpart_19 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32} {v17 : BitVec 32} {v19 : BitVec 32}  {Q : (Σ' (v589 : FVec F S512x1024 .bf16), Vec F S512x1024 .bf16) → sProp 𝕄} :
    iprop(Pers m K ∗ (StBar c 3 ∗ StExit c 0 ∗ StLd m c fv 17 16 ∗ StVs m c fs 0 16 16 0 ∗ StYtok c 16 ∗ StYreg c 16 ∗ sendCells (ysendCell c) 16 0 ∗ recvCells (yrecvCell c) 1 ∗ StFtok c 0 ∗ StFreg c 0 ∗ sendCells (xsendCell c) 0 0 ∗ recvCells (xrecvCell c) 0 ∗ StB m c (m ((c : Thread nD τ).loc main_v1)) true 1 0 0 ∗ StC m c (m ((c : Thread nD τ).loc main_v1)) true 0 ∗ StSt m c (m ((c : Thread nD τ).loc main_v1)) 0 ∗ Ow c (owedAt c 2 16 0 0)) ∗ (∀ r : (Σ' (v589 : FVec F S512x1024 .bf16), Vec F S512x1024 .bf16), (⌜(k0_pay20 r.1) = pay (slotVal m c (16 : Fin 32))⌝ ∗ (StBar c 3 ∗ StExit c 0 ∗ StLd m c fv 18 17 ∗ StVs m c fs 0 16 16 0 ∗ StYtok c 16 ∗ StYreg c 16 ∗ sendCells (ysendCell c) 16 0 ∗ recvCells (yrecvCell c) 1 ∗ StFtok c 1 ∗ StFreg c 1 ∗ sendCells (xsendCell c) 1 0 ∗ recvCells (xrecvCell c) 0 ∗ StB m c (m ((c : Thread nD τ).loc main_v1)) true 1 1 0 ∗ StC m c (m ((c : Thread nD τ).loc main_v1)) true 0 ∗ StSt m c (m ((c : Thread nD τ).loc main_v1)) 0 ∗ Ow c (owedAt c 2 16 1 0))) -∗ Q r))
      ⊢ wp frame (wpE (defs₀ (F := F)) 𝒱₀ (c : Thread nD τ) none) Set.univ (k0_part19 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7 v17 v19) Q :=
  frm_n16_2_3_8_9_10_12_15_sf (part_19 (m := m) K c fv fs)

theorem fpart_20 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32} (v589 : FVec F S512x1024 .bf16) (v592 : Vec F S512x1024 .bf16) (hw : (k0_pay20 v589) = pay (slotVal m c (16 : Fin 32))) {Q : (PUnit) → sProp 𝕄} :
    iprop(Pers m K ∗ (StBar c 3 ∗ StExit c 0 ∗ StLd m c fv 18 17 ∗ StVs m c fs 0 16 16 0 ∗ StYtok c 16 ∗ StYreg c 16 ∗ sendCells (ysendCell c) 16 0 ∗ recvCells (yrecvCell c) 1 ∗ StFtok c 1 ∗ StFreg c 1 ∗ sendCells (xsendCell c) 1 0 ∗ recvCells (xrecvCell c) 0 ∗ StB m c (m ((c : Thread nD τ).loc main_v1)) true 1 1 0 ∗ StC m c (m ((c : Thread nD τ).loc main_v1)) true 0 ∗ StSt m c (m ((c : Thread nD τ).loc main_v1)) 0 ∗ Ow c (owedAt c 2 16 1 0)) ∗ (∀ r : (PUnit), (⌜True⌝ ∗ (StBar c 3 ∗ StExit c 0 ∗ StLd m c fv 19 17 ∗ StVs m c fs 0 17 16 0 ∗ StYtok c 16 ∗ StYreg c 16 ∗ sendCells (ysendCell c) 16 0 ∗ recvCells (yrecvCell c) 2 ∗ StFtok c 2 ∗ StFreg c 2 ∗ sendCells (xsendCell c) 2 0 ∗ recvCells (xrecvCell c) 0 ∗ StB m c (m ((c : Thread nD τ).loc main_v1)) true 2 2 0 ∗ StC m c (m ((c : Thread nD τ).loc main_v1)) true 0 ∗ StSt m c (m ((c : Thread nD τ).loc main_v1)) 0 ∗ Ow c (owedAt c 2 16 2 0))) -∗ Q r))
      ⊢ wp frame (wpE (defs₀ (F := F)) 𝒱₀ (c : Thread nD τ) none) Set.univ (k0_part20 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19 v589 v592) Q :=
  frm_n16_2_3_7_8_9_10_12_15_u (part_20 (m := m) K c fv fs v589 v592 hw)

theorem fpart_21 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (PUnit) → sProp 𝕄} :
    iprop(Pers m K ∗ (StBar c 3 ∗ StExit c 0 ∗ StLd m c fv 19 17 ∗ StVs m c fs 0 17 16 0 ∗ StYtok c 16 ∗ StYreg c 16 ∗ sendCells (ysendCell c) 16 0 ∗ recvCells (yrecvCell c) 2 ∗ StFtok c 2 ∗ StFreg c 2 ∗ sendCells (xsendCell c) 2 0 ∗ recvCells (xrecvCell c) 0 ∗ StB m c (m ((c : Thread nD τ).loc main_v1)) true 2 2 0 ∗ StC m c (m ((c : Thread nD τ).loc main_v1)) true 0 ∗ StSt m c (m ((c : Thread nD τ).loc main_v1)) 0 ∗ Ow c (owedAt c 2 16 2 0)) ∗ (∀ r : (PUnit), (⌜True⌝ ∗ (StBar c 3 ∗ StExit c 0 ∗ StLd m c fv 19 18 ∗ StVs m c fs 0 18 16 0 ∗ StYtok c 16 ∗ StYreg c 16 ∗ sendCells (ysendCell c) 16 0 ∗ recvCells (yrecvCell c) 3 ∗ StFtok c 2 ∗ StFreg c 2 ∗ sendCells (xsendCell c) 2 0 ∗ recvCells (xrecvCell c) 0 ∗ StB m c (m ((c : Thread nD τ).loc main_v1)) true 3 2 0 ∗ StC m c (m ((c : Thread nD τ).loc main_v1)) true 0 ∗ StSt m c (m ((c : Thread nD τ).loc main_v1)) 0 ∗ Ow c (owedAt c 2 16 2 0))) -∗ Q r))
      ⊢ wp frame (wpE (defs₀ (F := F)) 𝒱₀ (c : Thread nD τ) none) Set.univ (k0_part21 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q :=
  frm_n16_2_3_7_12_15_u (part_21 (m := m) K c fv fs)

theorem fpart_22 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v19 : BitVec 32}  {Q : (Σ' (v685 : BitVec 32), BitVec 32) → sProp 𝕄} :
    iprop(Pers m K ∗ (StBar c 3 ∗ StExit c 0 ∗ StLd m c fv 19 18 ∗ StVs m c fs 0 18 16 0 ∗ StYtok c 16 ∗ StYreg c 16 ∗ sendCells (ysendCell c) 16 0 ∗ recvCells (yrecvCell c) 3 ∗ StFtok c 2 ∗ StFreg c 2 ∗ sendCells (xsendCell c) 2 0 ∗ recvCells (xrecvCell c) 0 ∗ StB m c (m ((c : Thread nD τ).loc main_v1)) true 3 2 0 ∗ StC m c (m ((c : Thread nD τ).loc main_v1)) true 0 ∗ StSt m c (m ((c : Thread nD τ).loc main_v1)) 0 ∗ Ow c (owedAt c 2 16 2 0)) ∗ (∀ r : (Σ' (v685 : BitVec 32), BitVec 32), (⌜True⌝ ∗ (StBar c 3 ∗ StExit c 0 ∗ StLd m c fv 20 19 ∗ StVs m c fs 0 19 16 0 ∗ StYtok c 16 ∗ StYreg c 16 ∗ sendCells (ysendCell c) 16 0 ∗ recvCells (yrecvCell c) 4 ∗ StFtok c 3 ∗ StFreg c 3 ∗ sendCells (xsendCell c) 3 0 ∗ recvCells (xrecvCell c) 0 ∗ StB m c (m ((c : Thread nD τ).loc main_v1)) true 4 3 0 ∗ StC m c (m ((c : Thread nD τ).loc main_v1)) true 0 ∗ StSt m c (m ((c : Thread nD τ).loc main_v1)) 0 ∗ Ow c (owedAt c 2 16 3 0))) -∗ Q r))
      ⊢ wp frame (wpE (defs₀ (F := F)) 𝒱₀ (c : Thread nD τ) none) Set.univ (k0_part22 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v19) Q :=
  frm_n16_2_3_7_8_9_10_12_15_s (part_22 (m := m) K c fv fs)

theorem fpart_23 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32} {v17 : BitVec 32} {v19 : BitVec 32} {v685 : BitVec 32} {c16384_i32_512 : BitVec 32}  {Q : (PUnit) → sProp 𝕄} :
    iprop(Pers m K ∗ (StBar c 3 ∗ StExit c 0 ∗ StLd m c fv 20 19 ∗ StVs m c fs 0 19 16 0 ∗ StYtok c 16 ∗ StYreg c 16 ∗ sendCells (ysendCell c) 16 0 ∗ recvCells (yrecvCell c) 4 ∗ StFtok c 3 ∗ StFreg c 3 ∗ sendCells (xsendCell c) 3 0 ∗ recvCells (xrecvCell c) 0 ∗ StB m c (m ((c : Thread nD τ).loc main_v1)) true 4 3 0 ∗ StC m c (m ((c : Thread nD τ).loc main_v1)) true 0 ∗ StSt m c (m ((c : Thread nD τ).loc main_v1)) 0 ∗ Ow c (owedAt c 2 16 3 0)) ∗ (∀ r : (PUnit), (⌜True⌝ ∗ (StBar c 3 ∗ StExit c 0 ∗ StLd m c fv 21 20 ∗ StVs m c fs 0 20 16 0 ∗ StYtok c 16 ∗ StYreg c 16 ∗ sendCells (ysendCell c) 16 0 ∗ recvCells (yrecvCell c) 4 ∗ StFtok c 4 ∗ StFreg c 4 ∗ sendCells (xsendCell c) 4 0 ∗ recvCells (xrecvCell c) 0 ∗ StB m c (m ((c : Thread nD τ).loc main_v1)) true 4 4 0 ∗ StC m c (m ((c : Thread nD τ).loc main_v1)) true 0 ∗ StSt m c (m ((c : Thread nD τ).loc main_v1)) 0 ∗ Ow c (owedAt c 2 16 4 0))) -∗ Q r))
      ⊢ wp frame (wpE (defs₀ (F := F)) 𝒱₀ (c : Thread nD τ) none) Set.univ (k0_part23 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7 v17 v19 v685 c16384_i32_512) Q :=
  frm_n16_2_3_8_9_10_12_15_u (part_23 (m := m) K c fv fs)

theorem fpart_24 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (PUnit) → sProp 𝕄} :
    iprop(Pers m K ∗ (StBar c 3 ∗ StExit c 0 ∗ StLd m c fv 21 20 ∗ StVs m c fs 0 20 16 0 ∗ StYtok c 16 ∗ StYreg c 16 ∗ sendCells (ysendCell c) 16 0 ∗ recvCells (yrecvCell c) 4 ∗ StFtok c 4 ∗ StFreg c 4 ∗ sendCells (xsendCell c) 4 0 ∗ recvCells (xrecvCell c) 0 ∗ StB m c (m ((c : Thread nD τ).loc main_v1)) true 4 4 0 ∗ StC m c (m ((c : Thread nD τ).loc main_v1)) true 0 ∗ StSt m c (m ((c : Thread nD τ).loc main_v1)) 0 ∗ Ow c (owedAt c 2 16 4 0)) ∗ (∀ r : (PUnit), (⌜True⌝ ∗ (StBar c 3 ∗ StExit c 0 ∗ StLd m c fv 22 20 ∗ StVs m c fs 0 20 16 0 ∗ StYtok c 16 ∗ StYreg c 16 ∗ sendCells (ysendCell c) 16 0 ∗ recvCells (yrecvCell c) 5 ∗ StFtok c 5 ∗ StFreg c 5 ∗ sendCells (xsendCell c) 5 0 ∗ recvCells (xrecvCell c) 0 ∗ StB m c (m ((c : Thread nD τ).loc main_v1)) true 5 5 0 ∗ StC m c (m ((c : Thread nD τ).loc main_v1)) true 0 ∗ StSt m c (m ((c : Thread nD τ).loc main_v1)) 0 ∗ Ow c (owedAt c 2 16 5 0))) -∗ Q r))
      ⊢ wp frame (wpE (defs₀ (F := F)) 𝒱₀ (c : Thread nD τ) none) Set.univ (k0_part24 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q :=
  frm_n16_2_7_8_9_10_12_15_u (part_24 (m := m) K c fv fs)

theorem fpart_25 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (PUnit) → sProp 𝕄} :
    iprop(Pers m K ∗ (StBar c 3 ∗ StExit c 0 ∗ StLd m c fv 22 20 ∗ StVs m c fs 0 20 16 0 ∗ StYtok c 16 ∗ StYreg c 16 ∗ sendCells (ysendCell c) 16 0 ∗ recvCells (yrecvCell c) 5 ∗ StFtok c 5 ∗ StFreg c 5 ∗ sendCells (xsendCell c) 5 0 ∗ recvCells (xrecvCell c) 0 ∗ StB m c (m ((c : Thread nD τ).loc main_v1)) true 5 5 0 ∗ StC m c (m ((c : Thread nD τ).loc main_v1)) true 0 ∗ StSt m c (m ((c : Thread nD τ).loc main_v1)) 0 ∗ Ow c (owedAt c 2 16 5 0)) ∗ (∀ r : (PUnit), (⌜True⌝ ∗ (StBar c 3 ∗ StExit c 0 ∗ StLd m c fv 22 21 ∗ StVs m c fs 0 21 16 0 ∗ StYtok c 16 ∗ StYreg c 16 ∗ sendCells (ysendCell c) 16 0 ∗ recvCells (yrecvCell c) 6 ∗ StFtok c 6 ∗ StFreg c 6 ∗ sendCells (xsendCell c) 6 0 ∗ recvCells (xrecvCell c) 0 ∗ StB m c (m ((c : Thread nD τ).loc main_v1)) true 6 6 0 ∗ StC m c (m ((c : Thread nD τ).loc main_v1)) true 0 ∗ StSt m c (m ((c : Thread nD τ).loc main_v1)) 0 ∗ Ow c (owedAt c 2 16 6 0))) -∗ Q r))
      ⊢ wp frame (wpE (defs₀ (F := F)) 𝒱₀ (c : Thread nD τ) none) Set.univ (k0_part25 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q :=
  frm_n16_2_3_7_8_9_10_12_15_u (part_25 (m := m) K c fv fs)

theorem fpart_26 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} {v19 : BitVec 32}  {Q : (Σ' (v810 : BitVec 32), BitVec 32) → sProp 𝕄} :
    iprop(Pers m K ∗ (StBar c 3 ∗ StExit c 0 ∗ StLd m c fv 22 21 ∗ StVs m c fs 0 21 16 0 ∗ StYtok c 16 ∗ StYreg c 16 ∗ sendCells (ysendCell c) 16 0 ∗ recvCells (yrecvCell c) 6 ∗ StFtok c 6 ∗ StFreg c 6 ∗ sendCells (xsendCell c) 6 0 ∗ recvCells (xrecvCell c) 0 ∗ StB m c (m ((c : Thread nD τ).loc main_v1)) true 6 6 0 ∗ StC m c (m ((c : Thread nD τ).loc main_v1)) true 0 ∗ StSt m c (m ((c : Thread nD τ).loc main_v1)) 0 ∗ Ow c (owedAt c 2 16 6 0)) ∗ (∀ r : (Σ' (v810 : BitVec 32), BitVec 32), (⌜True⌝ ∗ (StBar c 3 ∗ StExit c 0 ∗ StLd m c fv 23 22 ∗ StVs m c fs 0 22 16 0 ∗ StYtok c 16 ∗ StYreg c 16 ∗ sendCells (ysendCell c) 16 0 ∗ recvCells (yrecvCell c) 7 ∗ StFtok c 6 ∗ StFreg c 6 ∗ sendCells (xsendCell c) 6 0 ∗ recvCells (xrecvCell c) 0 ∗ StB m c (m ((c : Thread nD τ).loc main_v1)) true 7 6 0 ∗ StC m c (m ((c : Thread nD τ).loc main_v1)) true 0 ∗ StSt m c (m ((c : Thread nD τ).loc main_v1)) 0 ∗ Ow c (owedAt c 2 16 6 0))) -∗ Q r))
      ⊢ wp frame (wpE (defs₀ (F := F)) 𝒱₀ (c : Thread nD τ) none) Set.univ (k0_part26 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v19) Q :=
  frm_n16_2_3_7_12_15_s (part_26 (m := m) K c fv fs)

theorem fpart_27 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32} {v19 : BitVec 32} {v810 : BitVec 32} {c3072_i32_612 : BitVec 32}  {Q : (BitVec 32) → sProp 𝕄} :
    iprop(Pers m K ∗ (StBar c 3 ∗ StExit c 0 ∗ StLd m c fv 23 22 ∗ StVs m c fs 0 22 16 0 ∗ StYtok c 16 ∗ StYreg c 16 ∗ sendCells (ysendCell c) 16 0 ∗ recvCells (yrecvCell c) 7 ∗ StFtok c 6 ∗ StFreg c 6 ∗ sendCells (xsendCell c) 6 0 ∗ recvCells (xrecvCell c) 0 ∗ StB m c (m ((c : Thread nD τ).loc main_v1)) true 7 6 0 ∗ StC m c (m ((c : Thread nD τ).loc main_v1)) true 0 ∗ StSt m c (m ((c : Thread nD τ).loc main_v1)) 0 ∗ Ow c (owedAt c 2 16 6 0)) ∗ (∀ r : (BitVec 32), (⌜True⌝ ∗ (StBar c 3 ∗ StExit c 0 ∗ StLd m c fv 24 23 ∗ StVs m c fs 0 23 16 0 ∗ StYtok c 16 ∗ StYreg c 16 ∗ sendCells (ysendCell c) 16 0 ∗ recvCells (yrecvCell c) 7 ∗ StFtok c 7 ∗ StFreg c 7 ∗ sendCells (xsendCell c) 7 0 ∗ recvCells (xrecvCell c) 0 ∗ StB m c (m ((c : Thread nD τ).loc main_v1)) true 7 7 0 ∗ StC m c (m ((c : Thread nD τ).loc main_v1)) true 0 ∗ StSt m c (m ((c : Thread nD τ).loc main_v1)) 0 ∗ Ow c (owedAt c 2 16 7 0))) -∗ Q r))
      ⊢ wp frame (wpE (defs₀ (F := F)) 𝒱₀ (c : Thread nD τ) none) Set.univ (k0_part27 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7 v19 v810 c3072_i32_612) Q :=
  frm_n16_2_3_8_9_10_12_15_u (part_27 (m := m) K c fv fs)

theorem fpart_28 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32} {c2_i32_638 : BitVec 32}  {Q : (PUnit) → sProp 𝕄} :
    iprop(Pers m K ∗ (StBar c 3 ∗ StExit c 0 ∗ StLd m c fv 24 23 ∗ StVs m c fs 0 23 16 0 ∗ StYtok c 16 ∗ StYreg c 16 ∗ sendCells (ysendCell c) 16 0 ∗ recvCells (yrecvCell c) 7 ∗ StFtok c 7 ∗ StFreg c 7 ∗ sendCells (xsendCell c) 7 0 ∗ recvCells (xrecvCell c) 0 ∗ StB m c (m ((c : Thread nD τ).loc main_v1)) true 7 7 0 ∗ StC m c (m ((c : Thread nD τ).loc main_v1)) true 0 ∗ StSt m c (m ((c : Thread nD τ).loc main_v1)) 0 ∗ Ow c (owedAt c 2 16 7 0)) ∗ (∀ r : (PUnit), (⌜True⌝ ∗ (StBar c 3 ∗ StExit c 0 ∗ StLd m c fv 25 23 ∗ StVs m c fs 0 23 16 0 ∗ StYtok c 16 ∗ StYreg c 16 ∗ sendCells (ysendCell c) 16 0 ∗ recvCells (yrecvCell c) 8 ∗ StFtok c 8 ∗ StFreg c 8 ∗ sendCells (xsendCell c) 8 0 ∗ recvCells (xrecvCell c) 0 ∗ StB m c (m ((c : Thread nD τ).loc main_v1)) true 8 8 0 ∗ StC m c (m ((c : Thread nD τ).loc main_v1)) true 0 ∗ StSt m c (m ((c : Thread nD τ).loc main_v1)) 0 ∗ Ow c (owedAt c 2 16 8 0))) -∗ Q r))
      ⊢ wp frame (wpE (defs₀ (F := F)) 𝒱₀ (c : Thread nD τ) none) Set.univ (k0_part28 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19 c2_i32_638) Q :=
  frm_n16_2_7_8_9_10_12_15_u (part_28 (m := m) K c fv fs)

theorem fpart_29 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (PUnit) → sProp 𝕄} :
    iprop(Pers m K ∗ (StBar c 3 ∗ StExit c 0 ∗ StLd m c fv 25 23 ∗ StVs m c fs 0 23 16 0 ∗ StYtok c 16 ∗ StYreg c 16 ∗ sendCells (ysendCell c) 16 0 ∗ recvCells (yrecvCell c) 8 ∗ StFtok c 8 ∗ StFreg c 8 ∗ sendCells (xsendCell c) 8 0 ∗ recvCells (xrecvCell c) 0 ∗ StB m c (m ((c : Thread nD τ).loc main_v1)) true 8 8 0 ∗ StC m c (m ((c : Thread nD τ).loc main_v1)) true 0 ∗ StSt m c (m ((c : Thread nD τ).loc main_v1)) 0 ∗ Ow c (owedAt c 2 16 8 0)) ∗ (∀ r : (PUnit), (⌜True⌝ ∗ (StBar c 3 ∗ StExit c 0 ∗ StLd m c fv 25 24 ∗ StVs m c fs 0 24 16 0 ∗ StYtok c 16 ∗ StYreg c 16 ∗ sendCells (ysendCell c) 16 0 ∗ recvCells (yrecvCell c) 9 ∗ StFtok c 9 ∗ StFreg c 9 ∗ sendCells (xsendCell c) 9 0 ∗ recvCells (xrecvCell c) 0 ∗ StB m c (m ((c : Thread nD τ).loc main_v1)) true 9 9 0 ∗ StC m c (m ((c : Thread nD τ).loc main_v1)) true 0 ∗ StSt m c (m ((c : Thread nD τ).loc main_v1)) 0 ∗ Ow c (owedAt c 2 16 9 0))) -∗ Q r))
      ⊢ wp frame (wpE (defs₀ (F := F)) 𝒱₀ (c : Thread nD τ) none) Set.univ (k0_part29 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q :=
  frm_n16_2_3_7_8_9_10_12_15_u (part_29 (m := m) K c fv fs)

theorem fpart_30 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v17 : BitVec 32} {v19 : BitVec 32}  {Q : (PUnit) → sProp 𝕄} :
    iprop(Pers m K ∗ (StBar c 3 ∗ StExit c 0 ∗ StLd m c fv 25 24 ∗ StVs m c fs 0 24 16 0 ∗ StYtok c 16 ∗ StYreg c 16 ∗ sendCells (ysendCell c) 16 0 ∗ recvCells (yrecvCell c) 9 ∗ StFtok c 9 ∗ StFreg c 9 ∗ sendCells (xsendCell c) 9 0 ∗ recvCells (xrecvCell c) 0 ∗ StB m c (m ((c : Thread nD τ).loc main_v1)) true 9 9 0 ∗ StC m c (m ((c : Thread nD τ).loc main_v1)) true 0 ∗ StSt m c (m ((c : Thread nD τ).loc main_v1)) 0 ∗ Ow c (owedAt c 2 16 9 0)) ∗ (∀ r : (PUnit), (⌜True⌝ ∗ (StBar c 3 ∗ StExit c 0 ∗ StLd m c fv 26 25 ∗ StVs m c fs 0 25 16 0 ∗ StYtok c 16 ∗ StYreg c 16 ∗ sendCells (ysendCell c) 16 0 ∗ recvCells (yrecvCell c) 10 ∗ StFtok c 9 ∗ StFreg c 9 ∗ sendCells (xsendCell c) 9 0 ∗ recvCells (xrecvCell c) 0 ∗ StB m c (m ((c : Thread nD τ).loc main_v1)) true 10 9 0 ∗ StC m c (m ((c : Thread nD τ).loc main_v1)) true 0 ∗ StSt m c (m ((c : Thread nD τ).loc main_v1)) 0 ∗ Ow c (owedAt c 2 16 9 0))) -∗ Q r))
      ⊢ wp frame (wpE (defs₀ (F := F)) 𝒱₀ (c : Thread nD τ) none) Set.univ (k0_part30 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v17 v19) Q :=
  frm_n16_2_3_7_12_15_u (part_30 (m := m) K c fv fs)

theorem fpart_31 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v7 : BitVec 32} {v19 : BitVec 32}  {Q : (BitVec 32) → sProp 𝕄} :
    iprop(Pers m K ∗ (StBar c 3 ∗ StExit c 0 ∗ StLd m c fv 26 25 ∗ StVs m c fs 0 25 16 0 ∗ StYtok c 16 ∗ StYreg c 16 ∗ sendCells (ysendCell c) 16 0 ∗ recvCells (yrecvCell c) 10 ∗ StFtok c 9 ∗ StFreg c 9 ∗ sendCells (xsendCell c) 9 0 ∗ recvCells (xrecvCell c) 0 ∗ StB m c (m ((c : Thread nD τ).loc main_v1)) true 10 9 0 ∗ StC m c (m ((c : Thread nD τ).loc main_v1)) true 0 ∗ StSt m c (m ((c : Thread nD τ).loc main_v1)) 0 ∗ Ow c (owedAt c 2 16 9 0)) ∗ (∀ r : (BitVec 32), (⌜True⌝ ∗ (StBar c 3 ∗ StExit c 0 ∗ StLd m c fv 27 26 ∗ StVs m c fs 0 26 16 0 ∗ StYtok c 16 ∗ StYreg c 16 ∗ sendCells (ysendCell c) 16 0 ∗ recvCells (yrecvCell c) 10 ∗ StFtok c 10 ∗ StFreg c 10 ∗ sendCells (xsendCell c) 10 0 ∗ recvCells (xrecvCell c) 0 ∗ StB m c (m ((c : Thread nD τ).loc main_v1)) true 10 10 0 ∗ StC m c (m ((c : Thread nD τ).loc main_v1)) true 0 ∗ StSt m c (m ((c : Thread nD τ).loc main_v1)) 0 ∗ Ow c (owedAt c 2 16 10 0))) -∗ Q r))
      ⊢ wp frame (wpE (defs₀ (F := F)) 𝒱₀ (c : Thread nD τ) none) Set.univ (k0_part31 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v7 v19) Q :=
  frm_n16_2_3_8_9_10_12_15_u (part_31 (m := m) K c fv fs)

theorem fpart_32 (K : Dev nD × Kind → ℕ) (c : Dev nD) (fv : Buf (Elt F) ((c : Thread nD τ).loc cc0_scratch1)) (fs : Buf (Elt F) ((c : Thread nD τ).loc cc0_scratch0))
    {v5 : BitVec 32} {v6 : BitVec 32} {v7 : BitVec 32} {v17 : BitVec 32} {v19 : BitVec 32} {v965 : BitVec 32}  {Q : (PUnit) → sProp 𝕄} :
    iprop(Pers m K ∗ (StBar c 3 ∗ StExit c 0 ∗ StLd m c fv 27 26 ∗ StVs m c fs 0 26 16 0 ∗ StYtok c 16 ∗ StYreg c 16 ∗ sendCells (ysendCell c) 16 0 ∗ recvCells (yrecvCell c) 10 ∗ StFtok c 10 ∗ StFreg c 10 ∗ sendCells (xsendCell c) 10 0 ∗ recvCells (xrecvCell c) 0 ∗ StB m c (m ((c : Thread nD τ).loc main_v1)) true 10 10 0 ∗ StC m c (m ((c : Thread nD τ).loc main_v1)) true 0 ∗ StSt m c (m ((c : Thread nD τ).loc main_v1)) 0 ∗ Ow c (owedAt c 2 16 10 0)) ∗ (∀ r : (PUnit), (⌜True⌝ ∗ (StBar c 3 ∗ StExit c 0 ∗ StLd m c fv 28 27 ∗ StVs m c fs 0 26 16 0 ∗ StYtok c 16 ∗ StYreg c 16 ∗ sendCells (ysendCell c) 16 0 ∗ recvCells (yrecvCell c) 11 ∗ StFtok c 11 ∗ StFreg c 11 ∗ sendCells (xsendCell c) 11 0 ∗ recvCells (xrecvCell c) 0 ∗ StB m c (m ((c : Thread nD τ).loc main_v1)) true 11 11 0 ∗ StC m c (m ((c : Thread nD τ).loc main_v1)) true 0 ∗ StSt m c (m ((c : Thread nD τ).loc main_v1)) 0 ∗ Ow c (owedAt c 2 16 11 0))) -∗ Q r))
      ⊢ wp frame (wpE (defs₀ (F := F)) 𝒱₀ (c : Thread nD τ) none) Set.univ (k0_part32 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v6 v7 v17 v19 v965) Q :=
  frm_n16_2_7_8_9_10_12_15_u (part_32 (m := m) K c fv fs)

theorem fpart_33 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (PUnit) → sProp 𝕄} :
    iprop(Pers m K ∗ (StBar c 3 ∗ StExit c 0 ∗ StLd m c fv 28 27 ∗ StVs m c fs 0 26 16 0 ∗ StYtok c 16 ∗ StYreg c 16 ∗ sendCells (ysendCell c) 16 0 ∗ recvCells (yrecvCell c) 11 ∗ StFtok c 11 ∗ StFreg c 11 ∗ sendCells (xsendCell c) 11 0 ∗ recvCells (xrecvCell c) 0 ∗ StB m c (m ((c : Thread nD τ).loc main_v1)) true 11 11 0 ∗ StC m c (m ((c : Thread nD τ).loc main_v1)) true 0 ∗ StSt m c (m ((c : Thread nD τ).loc main_v1)) 0 ∗ Ow c (owedAt c 2 16 11 0)) ∗ (∀ r : (PUnit), (⌜True⌝ ∗ (StBar c 3 ∗ StExit c 0 ∗ StLd m c fv 28 27 ∗ StVs m c fs 0 27 16 0 ∗ StYtok c 16 ∗ StYreg c 16 ∗ sendCells (ysendCell c) 16 0 ∗ recvCells (yrecvCell c) 12 ∗ StFtok c 12 ∗ StFreg c 12 ∗ sendCells (xsendCell c) 12 0 ∗ recvCells (xrecvCell c) 0 ∗ StB m c (m ((c : Thread nD τ).loc main_v1)) true 12 12 0 ∗ StC m c (m ((c : Thread nD τ).loc main_v1)) true 0 ∗ StSt m c (m ((c : Thread nD τ).loc main_v1)) 0 ∗ Ow c (owedAt c 2 16 12 0))) -∗ Q r))
      ⊢ wp frame (wpE (defs₀ (F := F)) 𝒱₀ (c : Thread nD τ) none) Set.univ (k0_part33 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q :=
  frm_n16_2_3_7_8_9_10_12_15_u (part_33 (m := m) K c fv fs)

theorem fpart_34 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (Σ' (v1058 : BitVec 32), BitVec 32) → sProp 𝕄} :
    iprop(Pers m K ∗ (StBar c 3 ∗ StExit c 0 ∗ StLd m c fv 28 27 ∗ StVs m c fs 0 27 16 0 ∗ StYtok c 16 ∗ StYreg c 16 ∗ sendCells (ysendCell c) 16 0 ∗ recvCells (yrecvCell c) 12 ∗ StFtok c 12 ∗ StFreg c 12 ∗ sendCells (xsendCell c) 12 0 ∗ recvCells (xrecvCell c) 0 ∗ StB m c (m ((c : Thread nD τ).loc main_v1)) true 12 12 0 ∗ StC m c (m ((c : Thread nD τ).loc main_v1)) true 0 ∗ StSt m c (m ((c : Thread nD τ).loc main_v1)) 0 ∗ Ow c (owedAt c 2 16 12 0)) ∗ (∀ r : (Σ' (v1058 : BitVec 32), BitVec 32), (⌜True⌝ ∗ (StBar c 3 ∗ StExit c 0 ∗ StLd m c fv 29 28 ∗ StVs m c fs 0 28 16 0 ∗ StYtok c 16 ∗ StYreg c 16 ∗ sendCells (ysendCell c) 16 0 ∗ recvCells (yrecvCell c) 13 ∗ StFtok c 12 ∗ StFreg c 12 ∗ sendCells (xsendCell c) 12 0 ∗ recvCells (xrecvCell c) 0 ∗ StB m c (m ((c : Thread nD τ).loc main_v1)) true 13 12 0 ∗ StC m c (m ((c : Thread nD τ).loc main_v1)) true 0 ∗ StSt m c (m ((c : Thread nD τ).loc main_v1)) 0 ∗ Ow c (owedAt c 2 16 12 0))) -∗ Q r))
      ⊢ wp frame (wpE (defs₀ (F := F)) 𝒱₀ (c : Thread nD τ) none) Set.univ (k0_part34 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q :=
  frm_n16_2_3_7_12_15_s (part_34 (m := m) K c fv fs)

theorem fpart_35 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v19 : BitVec 32} {v1058 : BitVec 32} {c0_i32_814 : BitVec 32}  {Q : (PUnit) → sProp 𝕄} :
    iprop(Pers m K ∗ (StBar c 3 ∗ StExit c 0 ∗ StLd m c fv 29 28 ∗ StVs m c fs 0 28 16 0 ∗ StYtok c 16 ∗ StYreg c 16 ∗ sendCells (ysendCell c) 16 0 ∗ recvCells (yrecvCell c) 13 ∗ StFtok c 12 ∗ StFreg c 12 ∗ sendCells (xsendCell c) 12 0 ∗ recvCells (xrecvCell c) 0 ∗ StB m c (m ((c : Thread nD τ).loc main_v1)) true 13 12 0 ∗ StC m c (m ((c : Thread nD τ).loc main_v1)) true 0 ∗ StSt m c (m ((c : Thread nD τ).loc main_v1)) 0 ∗ Ow c (owedAt c 2 16 12 0)) ∗ (∀ r : (PUnit), (⌜True⌝ ∗ (StBar c 3 ∗ StExit c 0 ∗ StLd m c fv 30 29 ∗ StVs m c fs 0 29 16 0 ∗ StYtok c 16 ∗ StYreg c 16 ∗ sendCells (ysendCell c) 16 0 ∗ recvCells (yrecvCell c) 13 ∗ StFtok c 13 ∗ StFreg c 13 ∗ sendCells (xsendCell c) 13 0 ∗ recvCells (xrecvCell c) 0 ∗ StB m c (m ((c : Thread nD τ).loc main_v1)) true 13 13 0 ∗ StC m c (m ((c : Thread nD τ).loc main_v1)) true 0 ∗ StSt m c (m ((c : Thread nD τ).loc main_v1)) 0 ∗ Ow c (owedAt c 2 16 13 0))) -∗ Q r))
      ⊢ wp frame (wpE (defs₀ (F := F)) 𝒱₀ (c : Thread nD τ) none) Set.univ (k0_part35 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v19 v1058 c0_i32_814) Q :=
  frm_n16_2_3_8_9_10_12_15_u (part_35 (m := m) K c fv fs)

theorem fpart_36 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32} {v17 : BitVec 32} {v19 : BitVec 32}  {Q : (Vec F S1x512x1024 .f32) → sProp 𝕄} :
    iprop(Pers m K ∗ (StBar c 3 ∗ StExit c 0 ∗ StLd m c fv 30 29 ∗ StVs m c fs 0 29 16 0 ∗ StYtok c 16 ∗ StYreg c 16 ∗ sendCells (ysendCell c) 16 0 ∗ recvCells (yrecvCell c) 13 ∗ StFtok c 13 ∗ StFreg c 13 ∗ sendCells (xsendCell c) 13 0 ∗ recvCells (xrecvCell c) 0 ∗ StB m c (m ((c : Thread nD τ).loc main_v1)) true 13 13 0 ∗ StC m c (m ((c : Thread nD τ).loc main_v1)) true 0 ∗ StSt m c (m ((c : Thread nD τ).loc main_v1)) 0 ∗ Ow c (owedAt c 2 16 13 0)) ∗ (∀ r : (Vec F S1x512x1024 .f32), (⌜(k0_pay33 r) = pay (slotVal m c (29 : Fin 32))⌝ ∗ (StBar c 3 ∗ StExit c 0 ∗ StLd m c fv 31 30 ∗ StVs m c fs 0 29 16 0 ∗ StYtok c 16 ∗ StYreg c 16 ∗ sendCells (ysendCell c) 16 0 ∗ recvCells (yrecvCell c) 14 ∗ StFtok c 14 ∗ StFreg c 14 ∗ sendCells (xsendCell c) 14 0 ∗ recvCells (xrecvCell c) 0 ∗ StB m c (m ((c : Thread nD τ).loc main_v1)) true 14 14 0 ∗ StC m c (m ((c : Thread nD τ).loc main_v1)) true 0 ∗ StSt m c (m ((c : Thread nD τ).loc main_v1)) 0 ∗ Ow c (owedAt c 2 16 14 0))) -∗ Q r))
      ⊢ wp frame (wpE (defs₀ (F := F)) 𝒱₀ (c : Thread nD τ) none) Set.univ (k0_part36 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7 v17 v19) Q :=
  frm_n16_2_7_8_9_10_12_15_f (part_36 (m := m) K c fv fs)

theorem fpart_37 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32} (v1120 : Vec F S1x512x1024 .f32) (hw : (k0_pay33 v1120) = pay (slotVal m c (29 : Fin 32))) {Q : (PUnit) → sProp 𝕄} :
    iprop(Pers m K ∗ (StBar c 3 ∗ StExit c 0 ∗ StLd m c fv 31 30 ∗ StVs m c fs 0 29 16 0 ∗ StYtok c 16 ∗ StYreg c 16 ∗ sendCells (ysendCell c) 16 0 ∗ recvCells (yrecvCell c) 14 ∗ StFtok c 14 ∗ StFreg c 14 ∗ sendCells (xsendCell c) 14 0 ∗ recvCells (xrecvCell c) 0 ∗ StB m c (m ((c : Thread nD τ).loc main_v1)) true 14 14 0 ∗ StC m c (m ((c : Thread nD τ).loc main_v1)) true 0 ∗ StSt m c (m ((c : Thread nD τ).loc main_v1)) 0 ∗ Ow c (owedAt c 2 16 14 0)) ∗ (∀ r : (PUnit), (⌜True⌝ ∗ (StBar c 3 ∗ StExit c 0 ∗ StLd m c fv 31 30 ∗ StVs m c fs 0 30 16 0 ∗ StYtok c 16 ∗ StYreg c 16 ∗ sendCells (ysendCell c) 16 0 ∗ recvCells (yrecvCell c) 15 ∗ StFtok c 15 ∗ StFreg c 15 ∗ sendCells (xsendCell c) 15 0 ∗ recvCells (xrecvCell c) 0 ∗ StB m c (m ((c : Thread nD τ).loc main_v1)) true 15 15 0 ∗ StC m c (m ((c : Thread nD τ).loc main_v1)) true 0 ∗ StSt m c (m ((c : Thread nD τ).loc main_v1)) 0 ∗ Ow c (owedAt c 2 16 15 0))) -∗ Q r))
      ⊢ wp frame (wpE (defs₀ (F := F)) 𝒱₀ (c : Thread nD τ) none) Set.univ (k0_part37 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19 v1120) Q :=
  frm_n16_3_7_8_9_10_12_15_u (part_37 (m := m) K c fv fs v1120 hw)

theorem fpart_38 (K : Dev nD × Kind → ℕ) (c : Dev nD) (fv : Buf (Elt F) ((c : Thread nD τ).loc cc0_scratch1)) (fs : Buf (Elt F) ((c : Thread nD τ).loc cc0_scratch0))
    {v2 : BitVec 32} {v5 : BitVec 32} {v6 : BitVec 32} {v7 : BitVec 32} {v17 : BitVec 32} {v19 : BitVec 32}  {Q : (Σ' (v1182 : BitVec 32), BitVec 32) → sProp 𝕄} :
    iprop(Pers m K ∗ (StBar c 3 ∗ StExit c 0 ∗ StLd m c fv 31 30 ∗ StVs m c fs 0 30 16 0 ∗ StYtok c 16 ∗ StYreg c 16 ∗ sendCells (ysendCell c) 16 0 ∗ recvCells (yrecvCell c) 15 ∗ StFtok c 15 ∗ StFreg c 15 ∗ sendCells (xsendCell c) 15 0 ∗ recvCells (xrecvCell c) 0 ∗ StB m c (m ((c : Thread nD τ).loc main_v1)) true 15 15 0 ∗ StC m c (m ((c : Thread nD τ).loc main_v1)) true 0 ∗ StSt m c (m ((c : Thread nD τ).loc main_v1)) 0 ∗ Ow c (owedAt c 2 16 15 0)) ∗ (∀ r : (Σ' (v1182 : BitVec 32), BitVec 32), (⌜True⌝ ∗ (StBar c 3 ∗ StExit c 0 ∗ StLd m c fv 32 31 ∗ StVs m c fs 0 31 16 0 ∗ StYtok c 16 ∗ StYreg c 16 ∗ sendCells (ysendCell c) 16 0 ∗ recvCells (yrecvCell c) 16 ∗ StFtok c 15 ∗ StFreg c 15 ∗ sendCells (xsendCell c) 15 0 ∗ recvCells (xrecvCell c) 0 ∗ StB m c (m ((c : Thread nD τ).loc main_v1)) true 16 15 0 ∗ StC m c (m ((c : Thread nD τ).loc main_v1)) true 0 ∗ StSt m c (m ((c : Thread nD τ).loc main_v1)) 0 ∗ Ow c (owedAt c 2 16 15 0))) -∗ Q r))
      ⊢ wp frame (wpE (defs₀ (F := F)) 𝒱₀ (c : Thread nD τ) none) Set.univ (k0_part38 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v2 v5 v6 v7 v17 v19) Q :=
  frm_n16_2_3_7_12_15_s (part_38 (m := m) K c fv fs)

theorem fpart_39 (K : Dev nD × Kind → ℕ) (c : Dev nD) (fv : Buf (Elt F) ((c : Thread nD τ).loc cc0_scratch1)) (fs : Buf (Elt F) ((c : Thread nD τ).loc cc0_scratch0))
    {v5 : BitVec 32} {v19 : BitVec 32} {v1182 : BitVec 32} {v1183 : BitVec 32}  {Q : (PUnit) → sProp 𝕄} :
    iprop(Pers m K ∗ (StBar c 3 ∗ StExit c 0 ∗ StLd m c fv 32 31 ∗ StVs m c fs 0 31 16 0 ∗ StYtok c 16 ∗ StYreg c 16 ∗ sendCells (ysendCell c) 16 0 ∗ recvCells (yrecvCell c) 16 ∗ StFtok c 15 ∗ StFreg c 15 ∗ sendCells (xsendCell c) 15 0 ∗ recvCells (xrecvCell c) 0 ∗ StB m c (m ((c : Thread nD τ).loc main_v1)) true 16 15 0 ∗ StC m c (m ((c : Thread nD τ).loc main_v1)) true 0 ∗ StSt m c (m ((c : Thread nD τ).loc main_v1)) 0 ∗ Ow c (owedAt c 2 16 15 0)) ∗ (∀ r : (PUnit), (⌜True⌝ ∗ (StBar c 3 ∗ StExit c 0 ∗ StLd m c fv 32 32 ∗ StVs m c fs 1 32 16 2 ∗ StYtok c 16 ∗ StYreg c 16 ∗ sendCells (ysendCell c) 16 2 ∗ recvCells (yrecvCell c) 16 ∗ StFtok c 16 ∗ StFreg c 16 ∗ sendCells (xsendCell c) 16 0 ∗ recvCells (xrecvCell c) 0 ∗ StB m c (m ((c : Thread nD τ).loc main_v1)) true 16 16 0 ∗ StC m c (m ((c : Thread nD τ).loc main_v1)) true 0 ∗ StSt m c (m ((c : Thread nD τ).loc main_v1)) 1 ∗ Ow c (owedAt c 2 16 16 0))) -∗ Q r))
      ⊢ wp frame (wpE (defs₀ (F := F)) 𝒱₀ (c : Thread nD τ) none) Set.univ (k0_part39 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v19 v1182 v1183) Q :=
  frm_n16_2_3_6_8_9_10_12_14_15_u (part_39 (m := m) K c fv fs)

theorem fpart_40 (K : Dev nD × Kind → ℕ) (c : Dev nD) (fv : Buf (Elt F) ((c : Thread nD τ).loc cc0_scratch1)) (fs : Buf (Elt F) ((c : Thread nD τ).loc cc0_scratch0))
      {Q : (PUnit) → sProp 𝕄} :
    iprop(Pers m K ∗ (StBar c 3 ∗ StExit c 0 ∗ StLd m c fv 32 32 ∗ StVs m c fs 1 32 16 2 ∗ StYtok c 16 ∗ StYreg c 16 ∗ sendCells (ysendCell c) 16 2 ∗ recvCells (yrecvCell c) 16 ∗ StFtok c 16 ∗ StFreg c 16 ∗ sendCells (xsendCell c) 16 0 ∗ recvCells (xrecvCell c) 0 ∗ StB m c (m ((c : Thread nD τ).loc main_v1)) true 16 16 0 ∗ StC m c (m ((c : Thread nD τ).loc main_v1)) true 0 ∗ StSt m c (m ((c : Thread nD τ).loc main_v1)) 1 ∗ Ow c (owedAt c 2 16 16 0)) ∗ (∀ r : (PUnit), (⌜True⌝ ∗ (StBar c 3 ∗ StExit c 0 ∗ StLd m c fv 32 32 ∗ StVs m c fs 1 32 16 8 ∗ StYtok c 16 ∗ StYreg c 16 ∗ sendCells (ysendCell c) 16 8 ∗ recvCells (yrecvCell c) 16 ∗ StFtok c 16 ∗ StFreg c 16 ∗ sendCells (xsendCell c) 16 0 ∗ recvCells (xrecvCell c) 0 ∗ StB m c (m ((c : Thread nD τ).loc main_v1)) true 16 16 0 ∗ StC m c (m ((c : Thread nD τ).loc main_v1)) true 0 ∗ StSt m c (m ((c : Thread nD τ).loc main_v1)) 1 ∗ Ow c (owedAt c 2 16 16 0))) -∗ Q r))
      ⊢ wp frame (wpE (defs₀ (F := F)) 𝒱₀ (c : Thread nD τ) none) Set.univ (k0_part40 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c) Q :=
  frm_n16_3_6_15_u (part_40 (m := m) K c fv fs)

theorem fpart_41 (K : Dev nD × Kind → ℕ) (c : Dev nD) (fv : Buf (Elt F) ((c : Thread nD τ).loc cc0_scratch1)) (fs : Buf (Elt F) ((c : Thread nD τ).loc cc0_scratch0))
      {Q : (PUnit) → sProp 𝕄} :
    iprop(Pers m K ∗ (StBar c 3 ∗ StExit c 0 ∗ StLd m c fv 32 32 ∗ StVs m c fs 1 32 16 8 ∗ StYtok c 16 ∗ StYreg c 16 ∗ sendCells (ysendCell c) 16 8 ∗ recvCells (yrecvCell c) 16 ∗ StFtok c 16 ∗ StFreg c 16 ∗ sendCells (xsendCell c) 16 0 ∗ recvCells (xrecvCell c) 0 ∗ StB m c (m ((c : Thread nD τ).loc main_v1)) true 16 16 0 ∗ StC m c (m ((c : Thread nD τ).loc main_v1)) true 0 ∗ StSt m c (m ((c : Thread nD τ).loc main_v1)) 1 ∗ Ow c (owedAt c 2 16 16 0)) ∗ (∀ r : (PUnit), (⌜True⌝ ∗ (StBar c 3 ∗ StExit c 0 ∗ StLd m c fv 32 32 ∗ StVs m c fs 1 32 16 14 ∗ StYtok c 16 ∗ StYreg c 16 ∗ sendCells (ysendCell c) 16 14 ∗ recvCells (yrecvCell c) 16 ∗ StFtok c 16 ∗ StFreg c 16 ∗ sendCells (xsendCell c) 16 0 ∗ recvCells (xrecvCell c) 0 ∗ StB m c (m ((c : Thread nD τ).loc main_v1)) true 16 16 0 ∗ StC m c (m ((c : Thread nD τ).loc main_v1)) true 0 ∗ StSt m c (m ((c : Thread nD τ).loc main_v1)) 1 ∗ Ow c (owedAt c 2 16 16 0))) -∗ Q r))
      ⊢ wp frame (wpE (defs₀ (F := F)) 𝒱₀ (c : Thread nD τ) none) Set.univ (k0_part41 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c) Q :=
  frm_n16_3_6_15_u (part_41 (m := m) K c fv fs)

theorem fpart_42 (K : Dev nD × Kind → ℕ) (c : Dev nD) (fv : Buf (Elt F) ((c : Thread nD τ).loc cc0_scratch1)) (fs : Buf (Elt F) ((c : Thread nD τ).loc cc0_scratch0))
      {Q : (PUnit) → sProp 𝕄} :
    iprop(Pers m K ∗ (StBar c 3 ∗ StExit c 0 ∗ StLd m c fv 32 32 ∗ StVs m c fs 1 32 16 14 ∗ StYtok c 16 ∗ StYreg c 16 ∗ sendCells (ysendCell c) 16 14 ∗ recvCells (yrecvCell c) 16 ∗ StFtok c 16 ∗ StFreg c 16 ∗ sendCells (xsendCell c) 16 0 ∗ recvCells (xrecvCell c) 0 ∗ StB m c (m ((c : Thread nD τ).loc main_v1)) true 16 16 0 ∗ StC m c (m ((c : Thread nD τ).loc main_v1)) true 0 ∗ StSt m c (m ((c : Thread nD τ).loc main_v1)) 1 ∗ Ow c (owedAt c 2 16 16 0)) ∗ (∀ r : (PUnit), (⌜True⌝ ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 4 ∗ recvCells (xrecvCell c) 0 ∗ StB m c (m ((c : Thread nD τ).loc main_v1)) true 16 16 4 ∗ StC m c (m ((c : Thread nD τ).loc main_v1)) true 0 ∗ StSt m c (m ((c : Thread nD τ).loc main_v1)) 1 ∗ Ow c (owedAt c 2 16 16 0))) -∗ Q r))
      ⊢ wp frame (wpE (defs₀ (F := F)) 𝒱₀ (c : Thread nD τ) none) Set.univ (k0_part42 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c) Q :=
  frm_n16_3_6_10_12_15_u (part_42 (m := m) K c fv fs)

theorem fpart_43 (K : Dev nD × Kind → ℕ) (c : Dev nD) (fv : Buf (Elt F) ((c : Thread nD τ).loc cc0_scratch1)) (fs : Buf (Elt F) ((c : Thread nD τ).loc cc0_scratch0))
      {Q : (PUnit) → sProp 𝕄} :
    iprop(Pers m K ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 4 ∗ recvCells (xrecvCell c) 0 ∗ StB m c (m ((c : Thread nD τ).loc main_v1)) true 16 16 4 ∗ StC m c (m ((c : Thread nD τ).loc main_v1)) true 0 ∗ StSt m c (m ((c : Thread nD τ).loc main_v1)) 1 ∗ Ow c (owedAt c 2 16 16 0)) ∗ (∀ r : (PUnit), (⌜True⌝ ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 10 ∗ recvCells (xrecvCell c) 0 ∗ StB m c (m ((c : Thread nD τ).loc main_v1)) true 16 16 10 ∗ StC m c (m ((c : Thread nD τ).loc main_v1)) true 0 ∗ StSt m c (m ((c : Thread nD τ).loc main_v1)) 1 ∗ Ow c (owedAt c 2 16 16 0))) -∗ Q r))
      ⊢ wp frame (wpE (defs₀ (F := F)) 𝒱₀ (c : Thread nD τ) none) Set.univ (k0_part43 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c) Q :=
  frm_n16_10_12_15_u (part_43 (m := m) K c fv fs)

theorem fpart_44 (K : Dev nD × Kind → ℕ) (c : Dev nD) (fv : Buf (Elt F) ((c : Thread nD τ).loc cc0_scratch1)) (fs : Buf (Elt F) ((c : Thread nD τ).loc cc0_scratch0))
      {Q : (PUnit) → sProp 𝕄} :
    iprop(Pers m K ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 10 ∗ recvCells (xrecvCell c) 0 ∗ StB m c (m ((c : Thread nD τ).loc main_v1)) true 16 16 10 ∗ StC m c (m ((c : Thread nD τ).loc main_v1)) true 0 ∗ StSt m c (m ((c : Thread nD τ).loc main_v1)) 1 ∗ Ow c (owedAt c 2 16 16 0)) ∗ (∀ r : (PUnit), (⌜True⌝ ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 16 ∗ recvCells (xrecvCell c) 0 ∗ StB m c (m ((c : Thread nD τ).loc main_v1)) true 16 16 16 ∗ StC m c (m ((c : Thread nD τ).loc main_v1)) true 0 ∗ StSt m c (m ((c : Thread nD τ).loc main_v1)) 1 ∗ Ow c (owedAt c 2 16 16 0))) -∗ Q r))
      ⊢ wp frame (wpE (defs₀ (F := F)) 𝒱₀ (c : Thread nD τ) none) Set.univ (k0_part44 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c) Q :=
  frm_n16_10_12_15_u (part_44 (m := m) K c fv fs)

theorem fpart_45 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32}  {Q : (PUnit) → sProp 𝕄} :
    iprop(Pers m K ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 16 ∗ recvCells (xrecvCell c) 0 ∗ StB m c (m ((c : Thread nD τ).loc main_v1)) true 16 16 16 ∗ StC m c (m ((c : Thread nD τ).loc main_v1)) true 0 ∗ StSt m c (m ((c : Thread nD τ).loc main_v1)) 1 ∗ Ow c (owedAt c 2 16 16 0)) ∗ (∀ r : (PUnit), (⌜True⌝ ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 16 ∗ recvCells (xrecvCell c) 3 ∗ StB m c (m ((c : Thread nD τ).loc main_v1)) true 16 16 16 ∗ StC m c (m ((c : Thread nD τ).loc main_v1)) true 3 ∗ StSt m c (m ((c : Thread nD τ).loc main_v1)) 1 ∗ Ow c (owedAt c 2 16 16 0))) -∗ Q r))
      ⊢ wp frame (wpE (defs₀ (F := F)) 𝒱₀ (c : Thread nD τ) none) Set.univ (k0_part45 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7) Q :=
  frm_n16_11_13_15_u (part_45 (m := m) K c fv fs)

theorem fpart_46 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32}  {Q : (Σ' (v1391 : BitVec 32), BitVec 32) → sProp 𝕄} :
    iprop(Pers m K ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 16 ∗ recvCells (xrecvCell c) 3 ∗ StB m c (m ((c : Thread nD τ).loc main_v1)) true 16 16 16 ∗ StC m c (m ((c : Thread nD τ).loc main_v1)) true 3 ∗ StSt m c (m ((c : Thread nD τ).loc main_v1)) 1 ∗ Ow c (owedAt c 2 16 16 0)) ∗ (∀ r : (Σ' (v1391 : BitVec 32), BitVec 32), (⌜True⌝ ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 16 ∗ recvCells (xrecvCell c) 7 ∗ StB m c (m ((c : Thread nD τ).loc main_v1)) true 16 16 16 ∗ StC m c (m ((c : Thread nD τ).loc main_v1)) true 7 ∗ StSt m c (m ((c : Thread nD τ).loc main_v1)) 1 ∗ Ow c (owedAt c 2 16 16 0))) -∗ Q r))
      ⊢ wp frame (wpE (defs₀ (F := F)) 𝒱₀ (c : Thread nD τ) none) Set.univ (k0_part46 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7) Q :=
  frm_n16_11_13_15_s (part_46 (m := m) K c fv fs)

theorem fpart_47 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32} {v1391 : BitVec 32} {v1392 : BitVec 32}  {Q : (BitVec 32) → sProp 𝕄} :
    iprop(Pers m K ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 16 ∗ recvCells (xrecvCell c) 7 ∗ StB m c (m ((c : Thread nD τ).loc main_v1)) true 16 16 16 ∗ StC m c (m ((c : Thread nD τ).loc main_v1)) true 7 ∗ StSt m c (m ((c : Thread nD τ).loc main_v1)) 1 ∗ Ow c (owedAt c 2 16 16 0)) ∗ (∀ r : (BitVec 32), (⌜True⌝ ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 16 ∗ recvCells (xrecvCell c) 11 ∗ StB m c (m ((c : Thread nD τ).loc main_v1)) true 16 16 16 ∗ StC m c (m ((c : Thread nD τ).loc main_v1)) true 11 ∗ StSt m c (m ((c : Thread nD τ).loc main_v1)) 1 ∗ Ow c (owedAt c 2 16 16 0))) -∗ Q r))
      ⊢ wp frame (wpE (defs₀ (F := F)) 𝒱₀ (c : Thread nD τ) none) Set.univ (k0_part47 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7 v1391 v1392) Q :=
  frm_n16_11_13_15_u (part_47 (m := m) K c fv fs)

theorem fpart_48 (K : Dev nD × Kind → ℕ) (c : Dev nD) (fv : Buf (Elt F) ((c : Thread nD τ).loc cc0_scratch1)) (fs : Buf (Elt F) ((c : Thread nD τ).loc cc0_scratch0))
    {v5 : BitVec 32} {v7 : BitVec 32} {v1422 : BitVec 32}  {Q : (PUnit) → sProp 𝕄} :
    iprop(Pers m K ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 16 ∗ recvCells (xrecvCell c) 11 ∗ StB m c (m ((c : Thread nD τ).loc main_v1)) true 16 16 16 ∗ StC m c (m ((c : Thread nD τ).loc main_v1)) true 11 ∗ StSt m c (m ((c : Thread nD τ).loc main_v1)) 1 ∗ Ow c (owedAt c 2 16 16 0)) ∗ (∀ r : (PUnit), (⌜True⌝ ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 16 ∗ recvCells (xrecvCell c) 15 ∗ StB m c (m ((c : Thread nD τ).loc main_v1)) true 16 16 16 ∗ StC m c (m ((c : Thread nD τ).loc main_v1)) true 15 ∗ StSt m c (m ((c : Thread nD τ).loc main_v1)) 1 ∗ Ow c (owedAt c 2 16 16 0))) -∗ Q r))
      ⊢ wp frame (wpE (defs₀ (F := F)) 𝒱₀ (c : Thread nD τ) none) Set.univ (k0_part48 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0 c v5 v7 v1422) Q :=
  frm_n16_11_13_15_u (part_48 (m := m) K c fv fs)

end Cert.Kernel.AG

end
-- ==== Proof.KBody.lean ====
import proofs.«900094_g7700000000000095_dist_ag_v7x_xy2x2_y_m16384_n1024_bf16_1_alg».proof.Proof.KBodyF

/-!
# One device's thread

From what the launch hands a device — its ghost state, its credits, its buffers — the body runs the entry handshake,
converts its block chunk by chunk while the chunks of its half travel to the y-neighbour, forwards what arrives from
the y-neighbour to the x-neighbour, stores its own block, waits for everything it started and everything it is sent,
and leaves through the exit handshake with its result array whole. The state is cut into its strands at the start
and joined again at the end; in between every operation, in program order, moves one strand by its step lemma.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536
set_option maxHeartbeats 4000000 in
/-- The forty-eight parts in the root's order: from the strands at their starts to the strands after the last part. -/
theorem parts_all (K : Dev nD × Kind → ℕ) (c : Dev nD) (fv : Buf (Elt F) ((c : Thread nD τ).loc cc0_scratch1)) (fs : Buf (Elt F) ((c : Thread nD τ).loc cc0_scratch0))
    {Q : (Σ' (d0 : Dev nD) (v2 : BitVec 32) (v5 : BitVec 32) (v6 : BitVec 32), BitVec 32) → sProp 𝕄} :
    iprop(Pers m K ∗ (StBar c 0 ∗ StExit c 0 ∗ StLd m c fv 0 0 ∗ StVs m c fs 0 0 0 0 ∗ StYtok c 0 ∗ sendCells (ysendCell c) 0 0 ∗ recvCells (yrecvCell c) 0 ∗ StFtok c 0 ∗ sendCells (xsendCell c) 0 0 ∗ recvCells (xrecvCell c) 0 ∗ StB m c (m ((c : Thread nD τ).loc main_v1)) false 0 0 0 ∗ StC m c (m ((c : Thread nD τ).loc main_v1)) false 0 ∗ StSt m c (m ((c : Thread nD τ).loc main_v1)) 0 ∗ Ow c (owedAt c 0 0 0 0)) ∗ (∀ r : (Σ' (d0 : Dev nD) (v2 : BitVec 32) (v5 : BitVec 32) (v6 : BitVec 32), BitVec 32), (⌜r.1 = c⌝ ∗ (StBar c 3 ∗ StExit c 0 ∗ StLd m c fv 32 32 ∗ StVs m c fs 1 32 16 16 ∗ StYtok c 16 ∗ StYreg c 16 ∗ sendCells (ysendCell c) 16 16 ∗ recvCells (yrecvCell c) 16 ∗ StFtok c 16 ∗ StFreg c 16 ∗ sendCells (xsendCell c) 16 16 ∗ recvCells (xrecvCell c) 15 ∗ StB m c (m ((c : Thread nD τ).loc main_v1)) true 16 16 16 ∗ StC m c (m ((c : Thread nD τ).loc main_v1)) true 15 ∗ StSt m c (m ((c : Thread nD τ).loc main_v1)) 1 ∗ Ow c (owedAt c 2 16 16 0))) -∗ Q r))
      ⊢ wp frame (wpE (defs₀ (F := F)) 𝒱₀ (c : Thread nD τ) none) Set.univ (k0_part49 xM (Memref.isWhole_whole _) oM (Memref.isWhole_whole _) vsM (Memref.isWhole_whole _) vlM (Memref.isWhole_whole _) cc0_scratch2 cc0_scratch3 cc0_scratch4 cc0_scratch5 cc0_scratch6 cc0_scratch7 cc0_scoped0) Q := by
  rw [k0_part49_eq_skeleton]; unfold k0_part49_skel
  -- k0_part1
  rw [wp_bind]
  refine chain_part (fpart_1 (m := m) K c fv fs) (fun r => ?_)
  obtain ⟨d0, v2, v5, v6, v7, v17, rl⟩ := r
  refine chain_pure (fun hd => ?_)
  have hd' : c = d0 := hd.symm
  subst hd'
  try dsimp only
  -- k0_part2
  rw [wp_bind]
  refine chain_part (fpart_2 (m := m) K c fv fs) (fun r => ?_)
  refine chain_pure (fun _ => ?_)
  try dsimp only
  -- k0_part3
  rw [wp_bind]
  refine chain_part (fpart_3 (m := m) K c fv fs) (fun r => ?_)
  refine chain_pure (fun _ => ?_)
  try dsimp only
  -- k0_part4
  rw [wp_bind]
  refine chain_part (fpart_4 (m := m) K c fv fs) (fun r => ?_)
  refine chain_pure (fun _ => ?_)
  try dsimp only
  -- k0_part5
  rw [wp_bind]
  refine chain_part (fpart_5 (m := m) K c fv fs) (fun r => ?_)
  refine chain_pure (fun _ => ?_)
  try dsimp only
  -- k0_part6
  rw [wp_bind]
  refine chain_part (fpart_6 (m := m) K c fv fs) (fun r => ?_)
  obtain ⟨v182, rl⟩ := r
  refine chain_pure (fun _ => ?_)
  try dsimp only
  -- k0_part7
  rw [wp_bind]
  refine chain_part (fpart_7 (m := m) K c fv fs) (fun r => ?_)
  refine chain_pure (fun _ => ?_)
  try dsimp only
  -- k0_part8
  rw [wp_bind]
  refine chain_part (fpart_8 (m := m) K c fv fs) (fun r => ?_)
  refine chain_pure (fun _ => ?_)
  try dsimp only
  -- k0_part9
  rw [wp_bind]
  refine chain_part (fpart_9 (m := m) K c fv fs) (fun r => ?_)
  refine chain_pure (fun _ => ?_)
  try dsimp only
  -- k0_part10
  rw [wp_bind]
  refine chain_part (fpart_10 (m := m) K c fv fs) (fun r => ?_)
  refine chain_pure (fun _ => ?_)
  try dsimp only
  -- k0_part11
  rw [wp_bind]
  refine chain_part (fpart_11 (m := m) K c fv fs) (fun vnext => ?_)
  refine chain_pure (fun hw => ?_)
  try dsimp only
  -- k0_part12
  rw [wp_bind]
  refine chain_part (fpart_12 (m := m) K c fv fs vnext hw) (fun vnext => ?_)
  refine chain_pure (fun hw => ?_)
  try dsimp only
  -- k0_part13
  rw [wp_bind]
  refine chain_part (fpart_13 (m := m) K c fv fs vnext hw) (fun r => ?_)
  obtain ⟨v402, rl⟩ := r
  refine chain_pure (fun hw => ?_)
  try dsimp only
  -- k0_part14
  rw [wp_bind]
  refine chain_part (fpart_14 (m := m) K c fv fs v402 hw) (fun vnext => ?_)
  refine chain_pure (fun hw => ?_)
  try dsimp only
  -- k0_part15
  rw [wp_bind]
  refine chain_part (fpart_15 (m := m) K c fv fs vnext hw) (fun r => ?_)
  refine chain_pure (fun _ => ?_)
  try dsimp only
  -- k0_part16
  rw [wp_bind]
  refine chain_part (fpart_16 (m := m) K c fv fs) (fun r => ?_)
  refine chain_pure (fun _ => ?_)
  try dsimp only
  -- k0_part17
  rw [wp_bind]
  refine chain_part (fpart_17 (m := m) K c fv fs) (fun r => ?_)
  refine chain_pure (fun _ => ?_)
  try dsimp only
  -- k0_part18
  rw [wp_bind]
  refine chain_part (fpart_18 (m := m) K c fv fs) (fun r => ?_)
  refine chain_pure (fun _ => ?_)
  try dsimp only
  -- k0_part19
  rw [wp_bind]
  refine chain_part (fpart_19 (m := m) K c fv fs) (fun r => ?_)
  obtain ⟨v589, rl⟩ := r
  refine chain_pure (fun hw => ?_)
  try dsimp only
  -- k0_part20
  rw [wp_bind]
  refine chain_part (fpart_20 (m := m) K c fv fs v589 rl hw) (fun r => ?_)
  refine chain_pure (fun _ => ?_)
  try dsimp only
  -- k0_part21
  rw [wp_bind]
  refine chain_part (fpart_21 (m := m) K c fv fs) (fun r => ?_)
  refine chain_pure (fun _ => ?_)
  try dsimp only
  -- k0_part22
  rw [wp_bind]
  refine chain_part (fpart_22 (m := m) K c fv fs) (fun r => ?_)
  obtain ⟨v685, rl⟩ := r
  refine chain_pure (fun _ => ?_)
  try dsimp only
  -- k0_part23
  rw [wp_bind]
  refine chain_part (fpart_23 (m := m) K c fv fs) (fun r => ?_)
  refine chain_pure (fun _ => ?_)
  try dsimp only
  -- k0_part24
  rw [wp_bind]
  refine chain_part (fpart_24 (m := m) K c fv fs) (fun r => ?_)
  refine chain_pure (fun _ => ?_)
  try dsimp only
  -- k0_part25
  rw [wp_bind]
  refine chain_part (fpart_25 (m := m) K c fv fs) (fun r => ?_)
  refine chain_pure (fun _ => ?_)
  try dsimp only
  -- k0_part26
  rw [wp_bind]
  refine chain_part (fpart_26 (m := m) K c fv fs) (fun r => ?_)
  obtain ⟨v810, rl⟩ := r
  refine chain_pure (fun _ => ?_)
  try dsimp only
  -- k0_part27
  rw [wp_bind]
  refine chain_part (fpart_27 (m := m) K c fv fs) (fun r => ?_)
  refine chain_pure (fun _ => ?_)
  try dsimp only
  -- k0_part28
  rw [wp_bind]
  refine chain_part (fpart_28 (m := m) K c fv fs) (fun r => ?_)
  refine chain_pure (fun _ => ?_)
  try dsimp only
  -- k0_part29
  rw [wp_bind]
  refine chain_part (fpart_29 (m := m) K c fv fs) (fun r => ?_)
  refine chain_pure (fun _ => ?_)
  try dsimp only
  -- k0_part30
  rw [wp_bind]
  refine chain_part (fpart_30 (m := m) K c fv fs) (fun r => ?_)
  refine chain_pure (fun _ => ?_)
  try dsimp only
  -- k0_part31
  rw [wp_bind]
  refine chain_part (fpart_31 (m := m) K c fv fs) (fun r => ?_)
  refine chain_pure (fun _ => ?_)
  try dsimp only
  -- k0_part32
  rw [wp_bind]
  refine chain_part (fpart_32 (m := m) K c fv fs) (fun r => ?_)
  refine chain_pure (fun _ => ?_)
  try dsimp only
  -- k0_part33
  rw [wp_bind]
  refine chain_part (fpart_33 (m := m) K c fv fs) (fun r => ?_)
  refine chain_pure (fun _ => ?_)
  try dsimp only
  -- k0_part34
  rw [wp_bind]
  refine chain_part (fpart_34 (m := m) K c fv fs) (fun r => ?_)
  obtain ⟨v1058, rl⟩ := r
  refine chain_pure (fun _ => ?_)
  try dsimp only
  -- k0_part35
  rw [wp_bind]
  refine chain_part (fpart_35 (m := m) K c fv fs) (fun r => ?_)
  refine chain_pure (fun _ => ?_)
  try dsimp only
  -- k0_part36
  rw [wp_bind]
  refine chain_part (fpart_36 (m := m) K c fv fs) (fun vnext => ?_)
  refine chain_pure (fun hw => ?_)
  try dsimp only
  -- k0_part37
  rw [wp_bind]
  refine chain_part (fpart_37 (m := m) K c fv fs vnext hw) (fun r => ?_)
  refine chain_pure (fun _ => ?_)
  try dsimp only
  -- k0_part38
  rw [wp_bind]
  refine chain_part (fpart_38 (m := m) K c fv fs) (fun r => ?_)
  obtain ⟨v1182, rl⟩ := r
  refine chain_pure (fun _ => ?_)
  try dsimp only
  -- k0_part39
  rw [wp_bind]
  refine chain_part (fpart_39 (m := m) K c fv fs) (fun r => ?_)
  refine chain_pure (fun _ => ?_)
  try dsimp only
  -- k0_part40
  rw [wp_bind]
  refine chain_part (fpart_40 (m := m) K c fv fs) (fun r => ?_)
  refine chain_pure (fun _ => ?_)
  try dsimp only
  -- k0_part41
  rw [wp_bind]
  refine chain_part (fpart_41 (m := m) K c fv fs) (fun r => ?_)
  refine chain_pure (fun _ => ?_)
  try dsimp only
  -- k0_part42
  rw [wp_bind]
  refine chain_part (fpart_42 (m := m) K c fv fs) (fun r => ?_)
  refine chain_pure (fun _ => ?_)
  try dsimp only
  -- k0_part43
  rw [wp_bind]
  refine chain_part (fpart_43 (m := m) K c fv fs) (fun r => ?_)
  refine chain_pure (fun _ => ?_)
  try dsimp only
  -- k0_part44
  rw [wp_bind]
  refine chain_part (fpart_44 (m := m) K c fv fs) (fun r => ?_)
  refine chain_pure (fun _ => ?_)
  try dsimp only
  -- k0_part45
  rw [wp_bind]
  refine chain_part (fpart_45 (m := m) K c fv fs) (fun r => ?_)
  refine chain_pure (fun _ => ?_)
  try dsimp only
  -- k0_part46
  rw [wp_bind]
  refine chain_part (fpart_46 (m := m) K c fv fs) (fun r => ?_)
  obtain ⟨v1391, rl⟩ := r
  refine chain_pure (fun _ => ?_)
  try dsimp only
  -- k0_part47
  rw [wp_bind]
  refine chain_part (fpart_47 (m := m) K c fv fs) (fun r => ?_)
  refine chain_pure (fun _ => ?_)
  try dsimp only
  -- k0_part48
  rw [wp_bind]
  refine chain_part (fpart_48 (m := m) K c fv fs) (fun r => ?_)
  refine chain_pure (fun _ => ?_)
  try dsimp only
  simp only [Prog.pure_eq_ret, wp_ret]
  iintro ⟨#HP, HS, Hk⟩
  imodintro
  iapply Hk
  isplitr; · ipureintro; rfl
  iexact HS

set_option maxHeartbeats 4000000 in
/-- The body on device `c`, from `Φ₀` and everything it owes, runs to `Φ₁` owing nothing. -/
theorem sound_body (c : Dev nD) (W : Waits sig Unit) (Kt : PUnit → sProp 𝕄) :
    iprop(Φ₀ m c ∗ owes (c : Thread nD τ) (O₀ c) W ∗ ((Φ₁ m c ∗ ∃ W', owes (c : Thread nD τ) 0 W') -∗ Kt ⟨⟩))
      ⊢ wp frame (wpE (defs₀ (F := F)) 𝒱₀ c none) Set.univ (bodyAt0 (F := F) t0_0) Kt := by
  iintro ⟨HΦ, HO, Hk⟩
  ihave Hs := (st_init m c W) $$ [HΦ HO]
  · isplitl [HΦ] <;> iassumption
  icases Hs with ⟨%K, %fv, %fs, #HP, HBar, HExit, HLd, HVs, HYt, HYs, HYr, HFt, HFs, HXr, HB, HC, HSt, HOw⟩
  unfold bodyAt0
  rw [cc0_body_eq_skeleton]; unfold cc0_body_skel
  rw [wp_bind]
  iapply (parts_all (m := m) K c fv fs)
  isplitr; · iexact HP
  isplitl [HBar HExit HLd HVs HYt HYs HYr HFt HFs HXr HB HC HSt HOw]
  · isplitl [HBar]; · iexact HBar
    isplitl [HExit]; · iexact HExit
    isplitl [HLd]; · iexact HLd
    isplitl [HVs]; · iexact HVs
    isplitl [HYt]; · iexact HYt
    isplitl [HYs]; · iexact HYs
    isplitl [HYr]; · iexact HYr
    isplitl [HFt]; · iexact HFt
    isplitl [HFs]; · iexact HFs
    isplitl [HXr]; · iexact HXr
    isplitl [HB]; · iexact HB
    isplitl [HC]; · iexact HC
    isplitl [HSt]; · iexact HSt
    iexact HOw
  iintro %r ⟨%hr, ⟨HBar, HExit, HLd, HVs, HYt, HYg, HYs, HYr, HFt, HFg, HFs, HXr, HB, HC, HSt, HOw⟩⟩
  obtain ⟨d0, v2, v5, v6, v7⟩ := r
  have hr' : c = d0 := hr.symm
  subst hr'
  try dsimp only
  try simp only [Prog.lift, Prog.bind_op, Prog.bind_ret, Prog.pure_eq_ret, semSignalWord, semWaitWord, wp_deviceId]
  iapply (s_xrecv_wait (m := m) (K := K) (c := c) (fo := m ((c : Thread nD τ).loc main_v1)) (15 : Fin 16) 15 0 rfl)
  isplitr; · iexact HP
  isplitl [HXr]; · iexact HXr
  isplitl [HC]; · iexact HC
  isplitl [HOw]; · iexact HOw
  iintro ⟨HXr, HC, HOw⟩
  iapply (s_st_wait (m := m) (K := K) (c := c) (fs := fs) (fo := m ((c : Thread nD τ).loc main_v1)) 16 0)
  isplitr; · iexact HP
  isplitl [HSt]; · iexact HSt
  isplitl [HVs]; · iexact HVs
  isplitl [HOw]; · iexact HOw
  iintro ⟨HSt, HVs, HOw⟩
  iapply (s_sig_exit_y (m := m) (K := K) (c := c) _ (devY k0_dev35 k0_dev35_lt k0_dev35_eq c))
  isplitr; · iexact HP
  isplitl [HExit]; · iexact HExit
  isplitl [HOw]; · iexact HOw
  iintro ⟨HExit, HOw⟩
  iapply (s_sig_exit_x (m := m) (K := K) (c := c) _ (devX k0_dev36 k0_dev36_lt k0_dev36_eq c))
  isplitr; · iexact HP
  isplitl [HExit]; · iexact HExit
  isplitl [HOw]; · iexact HOw
  iintro ⟨HExit, HOw⟩
  iapply (s_wait_exit (m := m) (K := K) (c := c))
  isplitr; · iexact HP
  isplitl [HExit]; · iexact HExit
  isplitl [HOw]; · iexact HOw
  iintro ⟨HExit, HOw⟩
  imod (st_final m K c fv fs (m ((c : Thread nD τ).loc main_v1)) 2 (by decide)) $$ [HExit HLd HVs HYs HYr HFs HXr HB HC HSt HOw] with Hfin
  · isplitr; · iexact HP
    isplitl [HExit]; · iexact HExit
    isplitl [HLd]; · iexact HLd
    isplitl [HVs]; · iexact HVs
    isplitl [HYs]; · iexact HYs
    isplitl [HYr]; · iexact HYr
    isplitl [HFs]; · iexact HFs
    isplitl [HXr]; · iexact HXr
    isplitl [HB]; · iexact HB
    isplitl [HC]; · iexact HC
    isplitl [HSt]; · iexact HSt
    iexact HOw
  rw [wp_ret]; imodintro
  iapply Hk; iexact Hfin
  -- END

end Cert.Kernel.AG

end
-- ==== Proof.KLaunch.lean ====
import proofs.«900094_g7700000000000095_dist_ag_v7x_xy2x2_y_m16384_n1024_bf16_1_alg».proof.Proof.KBody

/-!
# The launch of the all-gather on the 2×2 mesh

One device's thread meets the pipeline's body obligation; and from any memory with every counter at zero the four
threads, launched together, run to a state in which every device's result array holds the gathered narrowed blocks
and its input block is what it was. The launch allocates every device's sixty-six protocol cells under one update,
deals each duty's token to the device that pays it, and hands each device the credit its own waits spend.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

/-- The library's body obligation on device `c`: the program stages no window, so the obligation is the body's run
    from `Φ₀` and what the device owes to `Φ₁` owing nothing. -/
theorem body_obligation (c : Dev nD) : BodyObligation (dats (F := F) m 0 c) (defs₀ (F := F)) 𝒱₀ () Set.univ := fun t => by
  rw [fin_N0 t]
  show iprop(Φ₀ m c ∗ (dats (F := F) m 0 c).owesAt () (Fin.castSucc t0_0) ∗ bigSep (Finset.univ : Finset (Fin 0)) _)
    ⊢ wp frame (wpE (defs₀ (F := F)) 𝒱₀ c none) Set.univ (bodyAt0 (F := F) t0_0)
      (fun _ => iprop(Φ₁ m c ∗ (dats (F := F) m 0 c).owesAt () (Fin.succ t0_0) ∗ bigSep (Finset.univ : Finset (Fin 0)) _))
  iintro ⟨HΦ, ⟨%W, -, Ho⟩, -⟩
  iapply (sound_body m c W _)
  isplitl [HΦ]; · iexact HΦ
  isplitl [Ho]; · iexact Ho
  iintro ⟨HΦ, %W', Ho⟩
  isplitl [HΦ]; · iexact HΦ
  isplitl
  · iexists W'
    isplitr; · ipureintro; exact fun _ _ => Or.inl trivial
    iexact Ho
  · exact Entails.of_eq bigSep_empty.symm

/-! The launch's own definitions and lemmas live in a namespace of their own. -/
namespace Launch

/-! ## The cells, listed

The kinds are the entry cell and the kernel's own sixty-eight; a device's cell of a kind is its thread beside the kind's
semaphore, so a cell names its device and its kind. -/

/-- The kinds other than the entry cell's: the kernel's own semaphores. -/
abbrev OwnK : Type := Unit ⊕ (Fin 2 ⊕ (Unit ⊕ (Fin 16 ⊕ (Fin 16 ⊕ (Fin 16 ⊕ Fin 16)))))

def kindE : Kind ≃ Unit ⊕ OwnK where
  toFun
    | .bar => .inl ()
    | .exit => .inr (.inl ())
    | .ld s => .inr (.inr (.inl s))
    | .st => .inr (.inr (.inr (.inl ())))
    | .ysend j => .inr (.inr (.inr (.inr (.inl j))))
    | .yrecv j => .inr (.inr (.inr (.inr (.inr (.inl j)))))
    | .xsend j => .inr (.inr (.inr (.inr (.inr (.inr (.inl j))))))
    | .xrecv j => .inr (.inr (.inr (.inr (.inr (.inr (.inr j))))))
  invFun
    | .inl _ => .bar
    | .inr (.inl _) => .exit
    | .inr (.inr (.inl s)) => .ld s
    | .inr (.inr (.inr (.inl _))) => .st
    | .inr (.inr (.inr (.inr (.inl j)))) => .ysend j
    | .inr (.inr (.inr (.inr (.inr (.inl j))))) => .yrecv j
    | .inr (.inr (.inr (.inr (.inr (.inr (.inl j)))))) => .xsend j
    | .inr (.inr (.inr (.inr (.inr (.inr (.inr j)))))) => .xrecv j
  left_inv k := by cases k <;> rfl
  right_inv x := by rcases x with _ | _ | _ | _ | _ | _ | _ | _ <;> rfl

/-- A kind's semaphore. -/
def semOf : Kind → SemLoc sig
  | .bar => .reg barS | .exit => .reg exitS
  | .ld s => .dma (lsemS s) | .st => .dma ssemS
  | .ysend j => .dma (ysendS j) | .yrecv j => .dma (yrecvS j)
  | .xsend j => .dma (xsendS j) | .xrecv j => .dma (xrecvS j)

theorem cellOfKind_eq (c : Dev nD) (k : Kind) : cellOfKind c k = ((c : Thread nD τ), semOf k) := by cases k <;> rfl

theorem kindOf_semOf : ∀ k : Kind, kindOf (semOf k) = some k := by decide

theorem semOf_injective : Function.Injective semOf := fun k k' h =>
  Option.some.inj (by rw [← kindOf_semOf k, ← kindOf_semOf k', h])

theorem cellAt_injective : Function.Injective (cellAt : Dev nD × Kind → GSem nD τ sig) := by
  rintro ⟨c, k⟩ ⟨c', k'⟩ h
  simp only [cellAt, cellOfKind_eq] at h
  have h1 : c = c' := congrArg (fun g : GSem nD τ sig => g.1.1) h
  subst h1
  have h2 : k = k' := semOf_injective (congrArg Prod.snd h)
  subst h2; rfl

omit [FloatOps F] in
/-- A `bigSep` over the kinds, family by family. -/
theorem bigSep_kind (Φ : Kind → sProp 𝕄) :
    bigSep Finset.univ Φ = iprop(Φ .bar ∗ Φ .exit ∗ (bigSep Finset.univ fun s => Φ (.ld s)) ∗ Φ .st
      ∗ (bigSep Finset.univ fun j => Φ (.ysend j)) ∗ (bigSep Finset.univ fun j => Φ (.yrecv j))
      ∗ (bigSep Finset.univ fun j => Φ (.xsend j)) ∗ (bigSep Finset.univ fun j => Φ (.xrecv j))) := by
  rw [bigSep_univ_equiv kindE.symm Φ, bigSep_univ_sum, bigSep_univ_sum, bigSep_univ_sum, bigSep_univ_sum, bigSep_univ_sum, bigSep_univ_sum,
    bigSep_univ_sum, bigSep_univ_of_subsingleton (), bigSep_univ_of_subsingleton (), bigSep_univ_of_subsingleton ()]
  rfl

/-- The kernel's own semaphores, as the launch indexes them. -/
def osem (k : OwnK) : SemLoc sig := semOf (kindE.symm (.inr k))

theorem ownSemFacts : Pipeline.OwnSemFacts cfg0.spec osem :=
  ⟨by decide, fun k k' h => Sum.inr.inj (kindE.symm.injective (semOf_injective h)), fun k w => w.elim0⟩

/-! ## The launch element and what it funds -/

theorem share_eq (c : Dev nD) (w : Fin cfg0.W) : (dats (F := F) m 0 c).share w = fullShare := w.elim0

def ringCells : Finset (GSem nD τ sig) := Finset.univ.map ⟨cellAt, cellAt_injective⟩

/-- The duties of a device's own cells, as their tokens are minted: the entry cell's two, the exit cell's two, each
    receive and each send cell's one, a load slot's one in each of its sixteen rounds, the store's one. -/
abbrev TokK : Type := Bool ⊕ (Bool ⊕ (Fin 16 ⊕ (Fin 16 ⊕ (Fin 16 ⊕ (Fin 16 ⊕ ((Fin 2 × Fin 16) ⊕ Unit))))))

def tokKind : TokK → Kind
  | .inl _ => .bar
  | .inr (.inl _) => .exit
  | .inr (.inr (.inl j)) => .yrecv j
  | .inr (.inr (.inr (.inl j))) => .xrecv j
  | .inr (.inr (.inr (.inr (.inl j)))) => .ysend j
  | .inr (.inr (.inr (.inr (.inr (.inl j))))) => .xsend j
  | .inr (.inr (.inr (.inr (.inr (.inr (.inl sr)))))) => .ld sr.1
  | .inr (.inr (.inr (.inr (.inr (.inr (.inr _)))))) => .st
def tokRound : TokK → ℕ
  | .inr (.inr (.inr (.inr (.inr (.inr (.inl sr)))))) => sr.2.val
  | _ => 0
def tokDuty : TokK → Bool
  | .inl b => b
  | .inr (.inl b) => b
  | _ => false

theorem tok_ext : ∀ t t' : TokK, tokKind t = tokKind t' → tokRound t = tokRound t' → tokDuty t = tokDuty t' → t = t' := by
  rintro (b | b | j | j | j | j | ⟨s, r⟩ | _) (b' | b' | j' | j' | j' | j' | ⟨s', r'⟩ | _) hk hr hd
  all_goals first
    | rfl
    | (cases hk; done)
    | (cases hk; rfl)
    | exact congrArg Sum.inl hd
    | exact congrArg (fun b => Sum.inr (Sum.inl b)) hd
    | (cases hk; rw [show r = r' from Fin.ext hr])

abbrev tokOf (ct : Dev nD × TokK) : GSem nD τ sig × ℕ × Bool := (cellOfKind ct.1 (tokKind ct.2), tokRound ct.2, tokDuty ct.2)

theorem tokOf_injective : Function.Injective (tokOf : Dev nD × TokK → GSem nD τ sig × ℕ × Bool) := by
  rintro ⟨c, t⟩ ⟨c', t'⟩ h
  have hg : cellAt (c, tokKind t) = cellAt (c', tokKind t') := congrArg (fun x : GSem nD τ sig × ℕ × Bool => x.1) h
  have hck := cellAt_injective hg
  have h1 : c = c' := congrArg Prod.fst hck
  have h2 : tokKind t = tokKind t' := congrArg Prod.snd hck
  have h3 : tokRound t = tokRound t' := congrArg (fun x : GSem nD τ sig × ℕ × Bool => x.2.1) h
  have h4 : tokDuty t = tokDuty t' := congrArg (fun x : GSem nD τ sig × ℕ × Bool => x.2.2) h
  rw [h1, tok_ext t t' h2 h3 h4]

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((dutyTok ER (barCell c) 0 false ∗ dutyTok ER (barCell c) 0 true)
    ∗ (dutyTok ER (exitCell c) 0 false ∗ dutyTok ER (exitCell c) 0 true)
    ∗ (bigSep Finset.univ fun j : Fin 16 => dutyTok ER (yrecvCell c j) 0 false)
    ∗ (bigSep Finset.univ fun j : Fin 16 => dutyTok ER (xrecvCell c j) 0 false)
    ∗ (bigSep Finset.univ fun j : Fin 16 => dutyTok ER (ysendCell c j) 0 false)
    ∗ (bigSep Finset.univ fun j : Fin 16 => dutyTok ER (xsendCell c j) 0 false)
    ∗ (bigSep Finset.univ fun sr : Fin 2 × Fin 16 => dutyTok ER (ldCell c sr.1) sr.2.val false)
    ∗ dutyTok ER (stCell c) 0 false)

/-- What the launch element deals device `c`: each of its cells' round state at counter zero, its position at the start
    of round 0 and that round 0 is reached, and its cells' duty tokens. -/
def G (c : Dev nD) : sProp 𝕄 :=
  iprop((bigSep Finset.univ fun k : Kind => roundState ER (sched m) (cellOfKind c k) 0)
    ∗ (bigSep Finset.univ fun k : Kind => iprop(atPos ER (cellOfKind c k) 0 ∅ 0 ∗ reached ER (cellOfKind c k) 0)) ∗ toks c)

/-- What the global step makes of it. -/
def G' (c : Dev nD) : sProp 𝕄 := iprop(∃ K, ghost m K c)

omit [FloatOps F] in
theorem bigSep_bool (Φ : Bool → sProp 𝕄) : bigSep Finset.univ Φ = iprop(Φ false ∗ Φ true) :=
  bigSep_univ_eq_bigSepL [false, true] (by decide) (by decide) Φ

omit [FloatOps F] in
theorem toks_eq (c : Dev nD) : (bigSep Finset.univ fun t : TokK => (dutyTok ER (tokOf (c, t)).1 (tokOf (c, t)).2.1 (tokOf (c, t)).2.2 : sProp 𝕄)) = toks c := by
  unfold toks
  rw [bigSep_univ_sum, bigSep_univ_sum, bigSep_univ_sum, bigSep_univ_sum, bigSep_univ_sum, bigSep_univ_sum, bigSep_univ_sum,
    bigSep_bool, bigSep_bool, bigSep_univ_of_subsingleton ()]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Kind => Φ (cellOfKind c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every device's cells allocated under one update -/

omit [FloatOps F] in
/-- The entry semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A `bigSep` over the kinds: the entry cell's summand and the kernel's own. -/
theorem bigSep_kind_own (Φ : Kind → sProp 𝕄) :
    bigSep Finset.univ Φ = iprop(Φ .bar ∗ bigSep Finset.univ fun k : OwnK => Φ (kindE.symm (.inr k))) := by
  rw [bigSep_univ_equiv kindE.symm Φ, bigSep_univ_sum, bigSep_univ_of_subsingleton ()]
  rfl

omit [FloatOps F] in
/-- A device's own semaphores and its entry semaphore are its cells' counters. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Kind => semVal (cellOfKind c k) 0 : sProp 𝕄) := by
  have hO : (Pipeline.ownSems0 (Ix := Unit) (Name := ℕ) (U := UU) (Lvl := ℕ) (Val := Elt F) (τ := τ) osem c : sProp 𝕄)
      = bigSep Finset.univ fun k : OwnK => semVal (cellOfKind c (kindE.symm (.inr k))) 0 := by
    unfold Pipeline.ownSems0
    exact bigSep_congr fun k _ => by rw [cellOfKind_eq]; rfl
  rw [hO, unscopedSems0_eq, bigSep_kind_own]
  iintro ⟨Ho, Hb⟩
  isplitl [Hb]; · iexact Hb
  iexact Ho

private theorem sched_storable (g : GSem nD τ sig) (r : ℕ) (d : Bool) :
    BI.Storable (upEmb : UEmb _ 𝕄) ((sched (F := F) m).payload g r d) := by
  dsimp only [sched]
  unfold barPayY barPayX ysendPay yrecvPay xsendPay xrecvPay ldPay ldPayAt stPay
  (repeat' split) <;> infer_instance
attribute [local instance] sched_storable

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Kind => iprop(∃ κ : ℕ, cellInv ER (sched m) κ (cellOfKind c k)))
          ∗ (bigSep Finset.univ fun k : Kind => iprop(atPos ER (cellOfKind c k) 0 ∅ 0 ∗ reached ER (cellOfKind c k) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Kind => semVal (cellOfKind c k) 0) ∗ bigSep Finset.univ fun k : Kind => roundState ER (sched m) (cellOfKind c k) 0)
      ⊢ (|={Set.univ}=> bigSep Finset.univ fun k : Kind => iprop(∃ κ : ℕ, cellInv ER (sched m) κ (cellOfKind c k)) : sProp 𝕄) from by
        rw [← bigSep_sep']
        exact (bigSep_mono fun k _ => (Rounds.body_intro ER (sched m) (cellOfKind c k)).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt to the devices that pay them: the entry and the exit cell's duty `false` and a y-receive cell's duty to
    the y-neighbour, their duty `true` and a forward-receive cell's duty to the x-neighbour; the rest stay. -/
theorem toks_around : (bigSep Finset.univ fun c : Dev nD => (toks c : sProp 𝕄)) ⊢ bigSep Finset.univ fun c : Dev nD => payToks c := by
  unfold toks payToks
  simp only [bigSep_sep']
  rw [bigSep_univ_equiv ynE (fun c : Dev nD => (dutyTok ER (barCell c) 0 false : sProp 𝕄)),
    bigSep_univ_equiv xnE (fun c : Dev nD => (dutyTok ER (barCell c) 0 true : sProp 𝕄)),
    bigSep_univ_equiv ynE (fun c : Dev nD => (dutyTok ER (exitCell c) 0 false : sProp 𝕄)),
    bigSep_univ_equiv xnE (fun c : Dev nD => (dutyTok ER (exitCell c) 0 true : sProp 𝕄)),
    bigSep_univ_equiv ynE (fun c : Dev nD => (bigSep Finset.univ fun j : Fin 16 => dutyTok ER (yrecvCell c j) 0 false : sProp 𝕄)),
    bigSep_univ_equiv xnE (fun c : Dev nD => (bigSep Finset.univ fun j : Fin 16 => dutyTok ER (xrecvCell c j) 0 false : sProp 𝕄))]
  iintro ⟨⟨Hbf, Hbt⟩, ⟨Hef, Het⟩, Hyr, Hxr, Hys, Hxs, Hld, Hst⟩
  isplitl [Hbf]; · iexact Hbf
  isplitl [Hbt]; · iexact Hbt
  isplitl [Hef]; · iexact Hef
  isplitl [Het]; · iexact Het
  isplitl [Hyr]; · iexact Hyr
  isplitl [Hxr]; · iexact Hxr
  isplitl [Hys]; · iexact Hys
  isplitl [Hxs]; · iexact Hxs
  isplitl [Hld]; · iexact Hld
  iexact Hst

theorem ghost_intro (K : Dev nD × Kind → ℕ) (c : Dev nD) : iprop(records m K ∗ (positions c ∗ payToks c)) ⊢ G' m c := by
  unfold G' ghost
  iintro ⟨HR, HP, HT⟩
  iexists K
  isplitl [HR]; · iexact HR
  isplitl [HP]; · iexact HP
  iexact HT

theorem regroup :
    (bigSep Finset.univ fun c : Dev nD => iprop((bigSep Finset.univ fun k : Kind => iprop(∃ κ : ℕ, cellInv ER (sched m) κ (cellOfKind c k)))
          ∗ (bigSep Finset.univ fun k : Kind => iprop(atPos ER (cellOfKind c k) 0 ∅ 0 ∗ reached ER (cellOfKind c k) 0)) ∗ toks c) : sProp 𝕄)
      ⊢ bigSep Finset.univ (G' m) := by
  rw [bigSep_sep', bigSep_sep', ← bigSep_univ_prod (fun ck : Dev nD × Kind => iprop(∃ κ : ℕ, cellInv ER (sched m) κ (cellAt ck))),
    bigSep_congr (s := Finset.univ) (fun (c : Dev nD) _ => bigSep_sep' Finset.univ (fun k : Kind => (atPos ER (cellOfKind c k) 0 ∅ 0 : sProp 𝕄)) (fun k => reached ER (cellOfKind c k) 0)),
    bigSep_sep', ← bigSep_univ_prod (fun ck : Dev nD × Kind => (reached ER (cellAt ck) 0 : sProp 𝕄))]
  iintro ⟨HI, ⟨Hat, #HR⟩, Htok⟩
  ihave HK := (BI.bigSep_exists_pi Finset.univ (fun (ck : Dev nD × Kind) (κ : ℕ) => (cellInv ER (sched m) κ (cellAt ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply (Entails.of_eq (bigSep_sep' Finset.univ (fun c : Dev nD => positions c) payToks).symm)
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit

Summed over the devices, what is owed a device's entry cell and its exit cell is two units, one from each neighbour; what
is owed each of its receive cells is one chunk's credit, from the neighbour that sends the chunk; nothing else is owed. -/

theorem cell_eq_iff {a b : Dev nD} {k k' : Kind} : cellOfKind a k = cellOfKind b k' ↔ a = b ∧ k = k' :=
  ⟨fun h => by
    have h' := cellAt_injective (a₁ := (a, k)) (a₂ := (b, k')) h
    exact ⟨congrArg Prod.fst h', congrArg Prod.snd h'⟩, fun ⟨h1, h2⟩ => by rw [h1, h2]⟩

theorem eq_xn_iff {c d : Dev nD} : c = xn d ↔ d = xn c := ⟨fun h => by rw [h, xn_xn], fun h => by rw [h, xn_xn]⟩
theorem eq_yn_iff {c d : Dev nD} : c = yn d ↔ d = yn c := ⟨fun h => by rw [h, yn_yn], fun h => by rw [h, yn_yn]⟩

/-- What device `d` owes a cell at launch, summand by summand. -/
theorem O₀_apply (d : Dev nD) (g : GSem nD τ sig) :
    O₀ d g () = (if g = cellOfKind (xn d) .exit then 1 else 0) + (if g = cellOfKind (yn d) .exit then 1 else 0)
      + (∑ j : Fin 16, if g = cellOfKind (xn d) (.xrecv j) then N else 0) + (∑ j : Fin 16, if g = cellOfKind (yn d) (.yrecv j) then N else 0)
      + (if g = cellOfKind (xn d) .bar then 1 else 0) + (if g = cellOfKind (yn d) .bar then 1 else 0) := by
  unfold O₀ O₁ O₂ owedExit owedX owedY
  simp only [Pi.add_apply, Finsupp.add_apply, Finset.sum_apply, Finsupp.finsetSum_apply, tallyAt_apply, and_true, Nat.zero_le,
    Finset.filter_true]
  rfl

theorem owed_bar (d c : Dev nD) : O₀ d (barCell c) () = (if d = xn c then 1 else 0) + (if d = yn c then 1 else 0) := by
  rw [show barCell c = cellOfKind c .bar from rfl, O₀_apply]
  simp only [cell_eq_iff, reduceCtorEq, and_false, and_true, if_false, Finset.sum_const_zero, Nat.add_zero, Nat.zero_add,
    eq_xn_iff (c := c), eq_yn_iff (c := c)]

theorem owed_exit (d c : Dev nD) : O₀ d (exitCell c) () = (if d = xn c then 1 else 0) + (if d = yn c then 1 else 0) := by
  rw [show exitCell c = cellOfKind c .exit from rfl, O₀_apply]
  simp only [cell_eq_iff, reduceCtorEq, and_false, and_true, if_false, Finset.sum_const_zero, Nat.add_zero, Nat.zero_add,
    eq_xn_iff (c := c), eq_yn_iff (c := c)]

theorem owed_yrecv (d c : Dev nD) (j : Fin 16) : O₀ d (yrecvCell c j) () = if d = yn c then N else 0 := by
  rw [show yrecvCell c j = cellOfKind c (.yrecv j) from rfl, O₀_apply]
  simp only [cell_eq_iff, reduceCtorEq, and_false, if_false, Finset.sum_const_zero, Nat.add_zero, Nat.zero_add, Kind.yrecv.injEq,
    eq_yn_iff (c := c), ite_and, Finset.sum_ite_eq, Finset.mem_univ, if_true]
  split <;> simp

theorem owed_xrecv (d c : Dev nD) (j : Fin 16) : O₀ d (xrecvCell c j) () = if d = xn c then N else 0 := by
  rw [show xrecvCell c j = cellOfKind c (.xrecv j) from rfl, O₀_apply]
  simp only [cell_eq_iff, reduceCtorEq, and_false, if_false, Finset.sum_const_zero, Nat.add_zero, Nat.zero_add, Kind.xrecv.injEq,
    eq_xn_iff (c := c), ite_and, Finset.sum_ite_eq, Finset.mem_univ, if_true]
  split <;> simp

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xn c) fun _ => 1, Finset.sum_ite_eq' Finset.univ (yn c) fun _ => 1, if_pos (Finset.mem_univ _), if_pos (Finset.mem_univ _)]

theorem launch_exit (c : Dev nD) :
    tallyOn (exitCell c) (launchCredit (Pipeline.owing O₀) 0 (exitCell c)) = (tallyAt (exitCell c) () 2 : CellTallies nD τ sig Unit) := by
  unfold tallyAt; refine congrArg _ (Finsupp.ext fun u => ?_); cases u
  rw [Pipeline.launchCredit_owing, Finsupp.single_eq_same, Finset.sum_congr rfl fun d _ => owed_exit d c, Finset.sum_add_distrib,
    Finset.sum_ite_eq' Finset.univ (xn c) fun _ => 1, Finset.sum_ite_eq' Finset.univ (yn c) fun _ => 1, if_pos (Finset.mem_univ _), if_pos (Finset.mem_univ _)]

theorem launch_yrecv (c : Dev nD) (j : Fin 16) :
    tallyOn (yrecvCell c j) (launchCredit (Pipeline.owing O₀) 0 (yrecvCell c j)) = (tallyAt (yrecvCell c j) () N : CellTallies nD τ sig Unit) := by
  unfold tallyAt; refine congrArg _ (Finsupp.ext fun u => ?_); cases u
  rw [Pipeline.launchCredit_owing, Finsupp.single_eq_same, Finset.sum_congr rfl fun d _ => owed_yrecv d c j,
    Finset.sum_ite_eq' Finset.univ (yn c) fun _ => N, if_pos (Finset.mem_univ _)]

theorem launch_xrecv (c : Dev nD) (j : Fin 16) :
    tallyOn (xrecvCell c j) (launchCredit (Pipeline.owing O₀) 0 (xrecvCell c j)) = (tallyAt (xrecvCell c j) () N : CellTallies nD τ sig Unit) := by
  unfold tallyAt; refine congrArg _ (Finsupp.ext fun u => ?_); cases u
  rw [Pipeline.launchCredit_owing, Finsupp.single_eq_same, Finset.sum_congr rfl fun d _ => owed_xrecv d c j,
    Finset.sum_ite_eq' Finset.univ (xn c) fun _ => N, if_pos (Finset.mem_univ _)]

/-- The cells a device waits on with launch credit: its entry cell, its exit cell, its thirty-two receive cells. -/
abbrev CredK : Type := Unit ⊕ (Unit ⊕ (Fin 16 ⊕ Fin 16))
def credKind : CredK → Kind
  | .inl _ => .bar
  | .inr (.inl _) => .exit
  | .inr (.inr (.inl j)) => .yrecv j
  | .inr (.inr (.inr j)) => .xrecv j
theorem credKind_injective : Function.Injective credKind := by
  rintro (_ | _ | j | j) (_ | _ | j' | j') h
  all_goals first
    | rfl
    | (cases h; done)
    | (cases h; rfl)

omit [FloatOps F] in
theorem bigSep_credCells (Φ : SemLoc sig → sProp 𝕄) :
    bigSep Finset.univ Φ ⊢ iprop(Φ (.reg barS) ∗ Φ (.reg exitS) ∗ (bigSep Finset.univ fun j : Fin 16 => Φ (.dma (yrecvS j)))
      ∗ (bigSep Finset.univ fun j : Fin 16 => Φ (.dma (xrecvS j)))) := by
  refine (bigSep_subset (Finset.subset_univ (Finset.univ.map ⟨fun k : CredK => semOf (credKind k), semOf_injective.comp credKind_injective⟩))).trans ?_
  rw [bigSep_map, bigSep_univ_sum, bigSep_univ_sum, bigSep_univ_sum, bigSep_univ_of_subsingleton (), bigSep_univ_of_subsingleton ()]
  exact BI.Entails.refl _

omit [FloatOps F] in
theorem creds_intro (c : Dev nD) : (Pipeline.launchCred O₀ c : sProp 𝕄) ⊢ creds c := by
  unfold Pipeline.launchCred creds
  refine (bigSep_credCells _).trans ?_
  rw [← launch_bar c, ← launch_exit c]
  simp only [← launch_yrecv c, ← launch_xrecv c]
  exact .rfl

/-! ## The launch theorem's side conditions -/

theorem L_of_ne (g : GSem nD τ sig) (h : g.1.2 ≠ .tc) : L g = ∅ := if_neg h

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    isplitl [Hx]; · iexact Hx
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratchBufs
  iintro ⟨Hs, -, Hr⟩
  isplitl [Hs]; · iexact Hs
  iexact Hr

omit [FloatOps F] in
/-- The own semaphores at zero, family by family. -/
theorem ownSems0_eq (c : Dev nD) : (Pipeline.ownSems0 (Ix := Unit) (Name := ℕ) (U := UU) (Lvl := ℕ) (Val := Elt F) (τ := τ) osem c : sProp 𝕄)
    = iprop(semVal (exitCell c) 0 ∗ (bigSep Finset.univ fun s : Fin 2 => semVal (ldCell c s) 0) ∗ semVal (stCell c) 0
      ∗ (bigSep Finset.univ fun j : Fin 16 => semVal (ysendCell c j) 0) ∗ (bigSep Finset.univ fun j : Fin 16 => semVal (yrecvCell c j) 0)
      ∗ (bigSep Finset.univ fun j : Fin 16 => semVal (xsendCell c j) 0) ∗ (bigSep Finset.univ fun j : Fin 16 => semVal (xrecvCell c j) 0)) := by
  unfold Pipeline.ownSems0
  rw [bigSep_univ_sum, bigSep_univ_sum, bigSep_univ_sum, bigSep_univ_sum, bigSep_univ_sum, bigSep_univ_sum,
    bigSep_univ_of_subsingleton (), bigSep_univ_of_subsingleton ()]
  rfl

/-- What a device hands back at the end: its input block as it was and its result array at its final contents. -/
def Yout (c : Dev nD) : sProp 𝕄 :=
  iprop((((c : Thread nD τ).loc main_arg0) ↦{fullShare} m ((c : Thread nD τ).loc main_arg0))
    ∗ (((c : Thread nD τ).loc main_v1) ↦{fullShare} OUT m c))

theorem phi1_exit (c : Dev nD) :
    (dats m 0 c).Φ (Fin.last cfg0.N) ⊢ iprop(Yout m c ∗ Pipeline.ownSems0 osem c ∗ Pipeline.scopedRest cfg0.spec c) := by
  rw [show (dats m 0 c).Φ (Fin.last cfg0.N) = Φ₁ m c from rfl, scopedRest0_eq, ownSems0_eq, bigSep_univ_two]
  unfold Φ₁ closedSems scratchBufs Yout
  iintro ⟨Hx, Ho, ⟨He, Hys, Hyr, Hxs, Hxr, Hl0, Hl1, Hst⟩, Hr⟩
  isplitl [Hx Ho]
  · isplitl [Hx] <;> iassumption
  isplitr [Hr]
  · isplitl [He]; · iexact He
    isplitl [Hl0 Hl1]
    · isplitl [Hl0] <;> iassumption
    isplitl [Hst]; · iexact Hst
    isplitl [Hys]; · iexact Hys
    isplitl [Hyr]; · iexact Hyr
    isplitl [Hxs]; · iexact Hxs
    iexact Hxr
  iexact Hr

theorem waits (c : Dev nD) : (levAts L lv : sProp 𝕄) ⊢ Pipeline.cellsWaits cfgs (dats m) () 0 c :=
  Pipeline.cellsWaits_intro cfgs (dats m) () 0 c fun w s t => w.elim0

end Launch

/-! ## The run -/

open Launch in
set_option maxRecDepth 32768 in
/-- At the compiled mesh of four devices, for any float values, from any memory with zero counters: every weakly fair
    execution of the four threads terminates, and every final state has each device's result array at the gathered
    narrowed contents and its input block unchanged. -/
theorem run_main : θ_run defs (onTc (τ := τ) (main (F := F))) ⟨m, fun _ => 0, ρ⟩ (fun r => ∀ c : Dev nD,
    r.2.mem ((c : Thread nD τ).loc main_v1) = OUT m c ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => (main_chain c).trans rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := Yout m) (Z := fun _ => iprop(emp))
    (hX := start_intro m ρ) (hin := phi0_intro m) (hout := phi1_exit m)
    (QY := fun c s => s.mem ((c : Thread nD τ).loc main_v1) = OUT m c ∧ s.mem ((c : Thread nD τ).loc main_arg0) = m ((c : Thread nD τ).loc main_arg0))
    (hY := fun c s' => by
      unfold Yout
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun s h c => (h c).2.2)

/-- info: 'Cert.Kernel.AG.run_main' depends on axioms: [propext, Classical.choice, Quot.sound] -/
#guard_msgs in #print axioms run_main

end Cert.Kernel.AG

end
-- ==== Proof.Value.lean ====
import proofs.«900094_g7700000000000095_dist_ag_v7x_xy2x2_y_m16384_n1024_bf16_1_alg».proof.Proof.Proto
import proofs.«900094_g7700000000000095_dist_ag_v7x_xy2x2_y_m16384_n1024_bf16_1_alg».proof.Proof.Gen.ReferenceIdeal.Run
import proofs.«900094_g7700000000000095_dist_ag_v7x_xy2x2_y_m16384_n1024_bf16_1_alg».proof.Proof.Gen.ReferenceIdeal.Read
import proofs.«900094_g7700000000000095_dist_ag_v7x_xy2x2_y_m16384_n1024_bf16_1_alg».proof.Proof.Gen.Pre_finite_inputs_Kernel
import proofs.«900094_g7700000000000095_dist_ag_v7x_xy2x2_y_m16384_n1024_bf16_1_alg».proof.Proof.Gen.Pre_finite_inputs_ReferenceIdeal
import proofs.«900094_g7700000000000095_dist_ag_v7x_xy2x2_y_m16384_n1024_bf16_1_alg».proof.Defs
import Idealize.ShloMosaic.Lib.Layout
import Idealize.ShloMosaic.Lib.ValueIdx
import Idealize.ShloMosaic.Lib.Pipeline.Value
import Idealize.ShloMosaic.PureOps.Ideal.Laws

/-!
# The value: every device's result array is the reference's

The whole input array has 32768 rows; device `d`, at mesh position `(d / 2, d % 2)`, holds the block of 16384 rows
that its second coordinate names: rows `16384 · (d % 2) + s`. The reference narrows every entry of the whole array,
and on the extended reals narrowing is the identity. A device's result array takes row `r` from the converted shard of
one of three devices — itself, its y-neighbour, or the device diagonally across — at row `r % 16384`; in each case the
device read has second coordinate `r / 16384`, because the y-neighbour flips the second coordinate and the x-neighbour
keeps it. So the entry read is entry `(r, col)` of the whole array, on every device: all four result arrays are the
reference's result.
-/

noncomputable section

namespace Cert.KernelIdeal.AGValue

open Cert.KernelIdeal Cert.KernelIdeal.AG
open Idealize.ShloMosaic Idealize.ShloMosaic.TcCoe Idealize.SL.Sem
open Idealize.ShloMosaic.ValueIdx

/-! ## The reference runs and leaves its argument as it was -/

/-- The reference's run with the value of its result forgotten. -/
theorem frame_ref : Cert.frame_ReferenceIdeal :=
  fun m ρ _ => (θ_run Cert.ReferenceIdeal.defs _ _).mono (fun _ h c => (h c).2)
    (Cert.ReferenceIdeal.Value.run (F := Ideal) m ρ)

/-! ## Coordinates on the mesh -/

/-- The block of the rows a device holds is the one its second mesh coordinate names. -/
theorem lin_eq : ∀ d : Dev nD, Layout.meshLin [2, 2] d.val [1] = d.val % 2 := by decide
/-- The y-neighbour has the other second coordinate; -/
theorem yn_snd : ∀ c : Dev nD, (yn c).val % 2 = 1 - c.val % 2 := by decide
/-- the x-neighbour has the same. -/
theorem xn_snd : ∀ c : Dev nD, (xn c).val % 2 = c.val % 2 := by decide

/-! ## A converted shard, entry by entry -/

/-- Entry `i'` of device `d`'s converted shard is the whole array's entry `d % 2` blocks of rows further down, in
    the same column: the shard is the device's block, and narrowing an extended real changes nothing. -/
theorem VS_at (m : (ℓ : Loc nD τ sig) → Buf (Elt Ideal) ℓ) (X : S32768x1024.Idx → EReal) (d : Dev nD)
    (hd : m ((d.tc : Thread nD τ).loc main_arg0)
      = Layout.blockN ⟨2, ![16384, 1024]⟩ ⟨2, ![32768, 1024]⟩ (Layout.meshBlock [2, 2] ![[1], []] d) X)
    (i' : S16384x1024.Idx) (i : S32768x1024.Idx)
    (h0 : (i 0).val = (d.val % 2) * 16384 + (i' 0).val) (h1 : (i 1).val = (i' 1).val) :
    (AG.VS (F := Ideal) m d i' : EReal) = X i := by
  unfold AG.VS AG.cv
  rw [hd]
  show X _ = X i
  congr 1
  funext a
  apply Fin.ext
  match a with
  | ⟨0, _⟩ =>
    show Layout.meshLin [2, 2] d.val [1] * 16384 + (i' 0).val = (i 0).val
    rw [lin_eq, h0]
  | ⟨1, _⟩ =>
    show Layout.meshLin [2, 2] d.val [] * 1024 + (i' 1).val = (i 1).val
    rw [h1]; show 0 * 1024 + _ = _; omega

/-! ## Every device's result array is the whole array narrowed -/

/-- Row `r` of device `c`'s result array is read from a device whose second coordinate is `r / 16384`, at row
    `r % 16384` of its shard: that is row `r` of the whole array. -/
theorem OUT_eq (m : (ℓ : Loc nD τ sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 2] ![[1], []] c) (m' (((0 : Dev Cert.ReferenceIdeal.nD).tc : Thread Cert.ReferenceIdeal.nD Cert.ReferenceIdeal.τ).loc Cert.ReferenceIdeal.main_arg0)))
    (c : Dev nD) :
    AG.OUT (F := Ideal) m c
      = Cert.ReferenceIdeal.Read.val_main_v0 (F := Ideal) (m' (((0 : Dev Cert.ReferenceIdeal.nD).tc : Thread Cert.ReferenceIdeal.nD Cert.ReferenceIdeal.τ).loc Cert.ReferenceIdeal.main_arg0)) := by
  funext i
  show _ = (m' (((0 : Dev Cert.ReferenceIdeal.nD).tc : Thread Cert.ReferenceIdeal.nD Cert.ReferenceIdeal.τ).loc Cert.ReferenceIdeal.main_arg0)) i
  have hr : (i 0).val < 32768 := idx2_lt0 i
  unfold AG.OUT
  dsimp only
  have hc : c.val % 2 < 2 := Nat.mod_lt _ (by decide)
  split_ifs with h1 h2
  · refine VS_at m _ c (hagree c) _ i ?_ rfl
    show (i 0).val = (c.val % 2) * 16384 + (i 0).val % 16384
    omega
  · refine VS_at m _ (yn c) (hagree (yn c)) _ i ?_ rfl
    show (i 0).val = ((yn c).val % 2) * 16384 + (i 0).val % 16384
    rw [yn_snd]; omega
  · refine VS_at m _ (xn (yn c)) (hagree (xn (yn c))) _ i ?_ rfl
    show (i 0).val = ((xn (yn c)).val % 2) * 16384 + (i 0).val % 16384
    rw [xn_snd, yn_snd]; omega

/-! ## The two runs meet -/

/-- From a run of the four devices that leaves each result array at `AG.OUT` and each input block as it was: both
    programs run, the reference's result is the whole array narrowed, and every device's result array is that. -/
theorem algebraic_of_run
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c : Thread Cert.KernelIdeal.nD Cert.KernelIdeal.τ).loc Cert.KernelIdeal.main_v1) = AG.OUT m c
          ∧ r.2.mem ((c : Thread Cert.KernelIdeal.nD Cert.KernelIdeal.τ).loc Cert.KernelIdeal.main_arg0) = m ((c : Thread Cert.KernelIdeal.nD Cert.KernelIdeal.τ).loc Cert.KernelIdeal.main_arg0))) :
    Cert.algebraic_KernelIdeal_ReferenceIdeal :=
  fun m ρ m' ρ' _ hagree =>
    ⟨Cert.ReferenceIdeal.Read.val_main_v0 (F := Ideal) (m' (((0 : Dev Cert.ReferenceIdeal.nD).tc : Thread Cert.ReferenceIdeal.nD Cert.ReferenceIdeal.τ).loc Cert.ReferenceIdeal.main_arg0)),
     (θ_run (Cert.KernelIdeal.defs (F := Ideal)) _ _).mono
       (fun _ h c => ⟨(h c).1.trans (OUT_eq m m' hagree c), (h c).2⟩) (hrun m ρ),
     (θ_run Cert.ReferenceIdeal.defs _ _).mono (fun _ h => ⟨(h 0).1, (h 0).2⟩)
       (Cert.ReferenceIdeal.Value.run (F := Ideal) m' ρ')⟩

end Cert.KernelIdeal.AGValue

end

/-- info: 'Cert.KernelIdeal.AGValue.algebraic_of_run' depends on axioms: [propext, Classical.choice, Quot.sound] -/
#guard_msgs in #print axioms Cert.KernelIdeal.AGValue.algebraic_of_run
-- ==== Proof.lean ====
import proofs.«900094_g7700000000000095_dist_ag_v7x_xy2x2_y_m16384_n1024_bf16_1_alg».proof.Defs
import proofs.«900094_g7700000000000095_dist_ag_v7x_xy2x2_y_m16384_n1024_bf16_1_alg».proof.Proof.Gen.Kernel
import proofs.«900094_g7700000000000095_dist_ag_v7x_xy2x2_y_m16384_n1024_bf16_1_alg».proof.Proof.Gen.KernelIdeal
import proofs.«900094_g7700000000000095_dist_ag_v7x_xy2x2_y_m16384_n1024_bf16_1_alg».proof.Proof.Gen.ReferenceIdeal
import proofs.«900094_g7700000000000095_dist_ag_v7x_xy2x2_y_m16384_n1024_bf16_1_alg».proof.Proof.Gen.Pre_finite_inputs_Kernel
import proofs.«900094_g7700000000000095_dist_ag_v7x_xy2x2_y_m16384_n1024_bf16_1_alg».proof.Proof.Gen.Pre_finite_inputs_ReferenceIdeal
import proofs.«900094_g7700000000000095_dist_ag_v7x_xy2x2_y_m16384_n1024_bf16_1_alg».proof.Proof.Launch
import proofs.«900094_g7700000000000095_dist_ag_v7x_xy2x2_y_m16384_n1024_bf16_1_alg».proof.Proof.KLaunch
import proofs.«900094_g7700000000000095_dist_ag_v7x_xy2x2_y_m16384_n1024_bf16_1_alg».proof.Proof.Value

/-!
# The all-gather on the 2×2 mesh: the claim

Every device ends holding the whole input, narrowed, which is what the reference returns. The run of the kernel on the
four devices — every fair interleaving terminates, faults nowhere, leaves each device's input block as it was and its
result array at `OUT` — is proved once, for any float instance, from one device's thread and the launch; read at the
word level it is the printed kernel's frame, read at the extended reals the idealized kernel's frame and, joined to
the reference's run by the index equation `OUT = the whole input`, the equivalence. Nothing was rewritten by the
idealization, so its conjunct is trivial.
-/

noncomputable section

namespace Cert.Proof

open Idealize.ShloMosaic Idealize.SL.Sem

theorem frame_k : Cert.frame_Kernel := fun m ρ _ =>
  (θ_run (Cert.Kernel.defs (F := Bits)) _ _).mono (fun _ h c => (h c).2) (Cert.Kernel.AG.run_main (F := Bits) m ρ)

theorem frame_ki : Cert.frame_KernelIdeal := fun m ρ _ =>
  (θ_run (Cert.KernelIdeal.defs (F := Ideal)) _ _).mono (fun _ h c => (h c).2) (Cert.KernelIdeal.AG.run_main (F := Ideal) m ρ)

theorem algebraic : Cert.algebraic_KernelIdeal_ReferenceIdeal :=
  Cert.KernelIdeal.AGValue.algebraic_of_run fun m ρ => Cert.KernelIdeal.AG.run_main (F := Ideal) m ρ

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, Cert.KernelIdeal.AGValue.frame_ref, trivial, algebraic⟩

end Cert.Proof

end
